-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v344)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v344) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v483) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S100000 : Shape := ⟨1, ![100000]⟩
abbrev S3x64x64 : Shape := ⟨3, ![3, 64, 64]⟩
abbrev S3x64 : Shape := ⟨2, ![3, 64]⟩
abbrev S6x64x64 : Shape := ⟨3, ![6, 64, 64]⟩
abbrev S6x64 : Shape := ⟨2, ![6, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩
abbrev S1x800000 : Shape := ⟨2, ![1, 800000]⟩
abbrev S800000 : Shape := ⟨1, ![800000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S6x64x64 : S_.BroadcastsInDim S6x64x64 (![] : Fin 0 → Fin S6x64x64.rank)
  reducesTo_S6x64x64_S_d0_1_2 : S6x64x64.ReducesTo [0, 1, 2] S_
  bcast_S_S6x64 : S_.BroadcastsInDim S6x64 (![] : Fin 0 → Fin S6x64.rank)
  reducesTo_S6x64_S_d0_1 : S6x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part5 {F : FTy → Type} [FloatOps F] (main_arg1 : IVec S2x800000 32) (main_v83 : IVec S_ 1) (main_v85 : IVec S800000 32) : IVec S_ 1 :=
  let main_c_32 : IVec S_ 32 := constantI S_ 32 0#32
  let main_v86 : IVec S800000 32 := broadcastInDim S800000 ![] bcast_S_S800000 main_c_32
  let main_v87 : IVec S800000 1 := cmpi .sge main_v85 main_v86
  let main_c_33 : IVec S_ 1 := constantI S_ 1 1#1
  let main_v88 : IVec S_ 1 := (fun x v => Host.reduce IntOp.andi x v reducesTo_S800000_S_d0 h_S_) main_v87 main_c_33
  let main_v89 : IVec S_ 1 := andi main_v83 main_v88
  let main_v90 : IVec S1x800000 32 := (extractStridedSlice S1x800000 ![0, 0] · slices_S2x800000_S1x800000_0_0) main_arg1
  let main_v91 : IVec S800000 32 := shapeCast S800000 main_v90 shapeCasts_S1x800000_S800000
  let main_c_34 : IVec S_ 32 := constantI S_ 32 100000#32
  let main_v92 : IVec S800000 32 := broadcastInDim S800000 ![] bcast_S_S800000 main_c_34
  let main_v93 : IVec S800000 1 := cmpi .slt main_v91 main_v92
  let main_c_35 : IVec S_ 1 := constantI S_ 1 1#1
  let main_v94 : IVec S_ 1 := (fun x v => Host.reduce IntOp.andi x v reducesTo_S800000_S_d0 h_S_) main_v93 main_c_35
  let main_v95 : IVec S_ 1 := andi main_v89 main_v94
  main_v95

def fn_part4 {F : FTy → Type} [FloatOps F] (main_arg1 : IVec S2x800000 32) (main_arg16 : FVec F S64 .f32) (main_arg17 : FVec F S64x2 .f32) (main_arg18 : FVec F S2 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x2 .f32 := Host.absf main_arg17
  let main_cst_28 : FVec F S_ .f32 := constant S_ .f32 0x7F800000#32
  let main_v75 : FVec F S64x2 .f32 := broadcastInDim S64x2 ![] bcast_S_S64x2 main_cst_28
  let main_v76 : IVec S64x2 1 := cmpf .olt main_v74 main_v75
  let main_c_29 : IVec S_ 1 := constantI S_ 1 1#1
  let main_v77 : IVec S_ 1 := (fun x v => Host.reduce IntOp.andi x v reducesTo_S64x2_S_d0_1 h_S_) main_v76 main_c_29
  let main_v78 : IVec S_ 1 := andi main_v73 main_v77
  let main_v79 : FVec F S2 .f32 := Host.absf main_arg18
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  let main_v84 : IVec S1x800000 32 := (extractStridedSlice S1x800000 ![0, 0] · slices_S2x800000_S1x800000_0_0) main_arg1
  let main_v85 : IVec S800000 32 := shapeCast S800000 main_v84 shapeCasts_S1x800000_S800000
  fn_part5 (F := F) main_arg1 main_v83 main_v85

def fn_part3 {F : FTy → Type} [FloatOps F] (main_arg1 : IVec S2x800000 32) (main_arg13 : FVec F S64x64 .f32) (main_arg14 : FVec F S64 .f32) (main_arg15 : FVec F S64x64 .f32) (main_arg16 : FVec F S64 .f32) (main_arg17 : FVec F S64x2 .f32) (main_arg18 : FVec F S2 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg1 main_arg16 main_arg17 main_arg18 main_v63 main_v67

def fn_part2 {F : FTy → Type} [FloatOps F] (main_arg1 : IVec S2x800000 32) (main_arg9 : FVec F S3x64x64 .f32) (main_arg10 : FVec F S3x64 .f32) (main_arg11 : FVec F S3x64 .f32) (main_arg12 : FVec F S3x64 .f32) (main_arg13 : FVec F S64x64 .f32) (main_arg14 : FVec F S64 .f32) (main_arg15 : FVec F S64x64 .f32) (main_arg16 : FVec F S64 .f32) (main_arg17 : FVec F S64x2 .f32) (main_arg18 : FVec F S2 .f32) (main_v33 : IVec S_ 1) : IVec S_ 1 :=
  let main_v34 : FVec F S3x64x64 .f32 := Host.absf main_arg9
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64 .f32 := Host.absf main_arg11
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64 .f32 := Host.absf main_arg12
  let main_cst_18 : FVec F S_ .f32 := constant S_ .f32 0x7F800000#32
  let main_v50 : FVec F S3x64 .f32 := broadcastInDim S3x64 ![] bcast_S_S3x64 main_cst_18
  fn_part3 (F := F) main_arg1 main_arg13 main_arg14 main_arg15 main_arg16 main_arg17 main_arg18 main_v48 main_v49 main_v50

def fn_part1 {F : FTy → Type} [FloatOps F] (main_arg1 : IVec S2x800000 32) (main_arg6 : FVec F S3x64 .f32) (main_arg7 : FVec F S6x64x64 .f32) (main_arg8 : FVec F S6x64 .f32) (main_arg9 : FVec F S3x64x64 .f32) (main_arg10 : FVec F S3x64 .f32) (main_arg11 : FVec F S3x64 .f32) (main_arg12 : FVec F S3x64 .f32) (main_arg13 : FVec F S64x64 .f32) (main_arg14 : FVec F S64 .f32) (main_arg15 : FVec F S64x64 .f32) (main_arg16 : FVec F S64 .f32) (main_arg17 : FVec F S64x2 .f32) (main_arg18 : FVec F S2 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S6x64x64 .f32 := Host.absf main_arg7
  let main_cst_8 : FVec F S_ .f32 := constant S_ .f32 0x7F800000#32
  let main_v25 : FVec F S6x64x64 .f32 := broadcastInDim S6x64x64 ![] bcast_S_S6x64x64 main_cst_8
  let main_v26 : IVec S6x64x64 1 := cmpf .olt main_v24 main_v25
  let main_c_9 : IVec S_ 1 := constantI S_ 1 1#1
  let main_v27 : IVec S_ 1 := (fun x v => Host.reduce IntOp.andi x v reducesTo_S6x64x64_S_d0_1_2 h_S_) main_v26 main_c_9
  let main_v28 : IVec S_ 1 := andi main_v23 main_v27
  let main_v29 : FVec F S6x64 .f32 := Host.absf main_arg8
  let main_cst_10 : FVec F S_ .f32 := constant S_ .f32 0x7F800000#32
  let main_v30 : FVec F S6x64 .f32 := broadcastInDim S6x64 ![] bcast_S_S6x64 main_cst_10
  let main_v31 : IVec S6x64 1 := cmpf .olt main_v29 main_v30
  let main_c_11 : IVec S_ 1 := constantI S_ 1 1#1
  let main_v32 : IVec S_ 1 := (fun x v => Host.reduce IntOp.andi x v reducesTo_S6x64_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_v33

def fn {F : FTy → Type} [FloatOps F] (main_arg0 : FVec F S100000x64 .f32) (main_arg1 : IVec S2x800000 32) (main_arg2 : IVec S100000 32) (main_arg3 : FVec F S3x64x64 .f32) (main_arg4 : FVec F S3x64 .f32) (main_arg5 : FVec F S3x64 .f32) (main_arg6 : FVec F S3x64 .f32) (main_arg7 : FVec F S6x64x64 .f32) (main_arg8 : FVec F S6x64 .f32) (main_arg9 : FVec F S3x64x64 .f32) (main_arg10 : FVec F S3x64 .f32) (main_arg11 : FVec F S3x64 .f32) (main_arg12 : FVec F S3x64 .f32) (main_arg13 : FVec F S64x64 .f32) (main_arg14 : FVec F S64 .f32) (main_arg15 : FVec F S64x64 .f32) (main_arg16 : FVec F S64 .f32) (main_arg17 : FVec F S64x2 .f32) (main_arg18 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg1 main_arg6 main_arg7 main_arg8 main_arg9 main_arg10 main_arg11 main_arg12 main_arg13 main_arg14 main_arg15 main_arg16 main_arg17 main_arg18 main_v13 main_v16
-- ==== Kernel.lean ====
abbrev S100000x64 : Shape := ⟨2, ![100000, 64]⟩
abbrev S2x800000 : Shape := ⟨2, ![2, 800000]⟩
abbrev S100000 : Shape := ⟨1, ![100000]⟩
abbrev S3x64x64 : Shape := ⟨3, ![3, 64, 64]⟩
abbrev S3x64 : Shape := ⟨2, ![3, 64]⟩
abbrev S6x64x64 : Shape := ⟨3, ![6, 64, 64]⟩
abbrev S6x64 : Shape := ⟨2, ![6, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x64x64 : Shape := ⟨3, ![1, 64, 64]⟩
abbrev S1x64 : Shape := ⟨2, ![1, 64]⟩
abbrev S10000x64 : Shape := ⟨2, ![10000, 64]⟩
abbrev S1 : Shape := ⟨1, ![1]⟩
abbrev S1x1 : Shape := ⟨2, ![1, 1]⟩
abbrev S800000x64 : Shape := ⟨2, ![800000, 64]⟩
abbrev S100000x1 : Shape := ⟨2, ![100000, 1]⟩
abbrev S64x1 : Shape := ⟨2, ![64, 1]⟩
abbrev S1x2 : Shape := ⟨2, ![1, 2]⟩

abbrev nBuf : Space → Nat
  | .hbm => 688
  | .vmem => 174
  | .smem => 0
  | _ => 0

abbrev hbmTy0_0 (i : Nat) : BufTy := match i % 128 with
  | 0 => ⟨S100000x64, .f32⟩
  | 1 => ⟨S2x800000, .i32⟩
  | 2 => ⟨S100000, .i32⟩
  | 3 => ⟨S3x64x64, .f32⟩
  | 4 => ⟨S3x64, .f32⟩
  | 5 => ⟨S3x64, .f32⟩
  | 6 => ⟨S3x64, .f32⟩
  | 7 => ⟨S6x64x64, .f32⟩
  | 8 => ⟨S6x64, .f32⟩
  | 9 => ⟨S3x64x64, .f32⟩
  | 10 => ⟨S3x64, .f32⟩
  | 11 => ⟨S3x64, .f32⟩
  | 12 => ⟨S3x64, .f32⟩
  | 13 => ⟨S64x64, .f32⟩
  | 14 => ⟨S64, .f32⟩
  | 15 => ⟨S64x64, .f32⟩
  | 16 => ⟨S64, .f32⟩
  | 17 => ⟨S64x2, .f32⟩
  | 18 => ⟨S2, .f32⟩
  | 19 => ⟨S1x800000, .i32⟩
  | 20 => ⟨S800000, .i32⟩
  | 21 => ⟨S1x800000, .i32⟩
  | 22 => ⟨S800000, .i32⟩
  | 23 => ⟨S_, .f32⟩
  | 24 => ⟨S800000, .f32⟩
  | 25 => ⟨S_, .f32⟩
  | 26 => ⟨S100000, .f32⟩
  | 27 => ⟨S800000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S100000, .f32⟩
  | 34 => ⟨S1x64x64, .f32⟩
  | 35 => ⟨S64x64, .f32⟩
  | 36 => ⟨S1x64, .f32⟩
  | 37 => ⟨S64, .f32⟩
  | 38 => ⟨S1x64, .f32⟩
  | 39 => ⟨S100000x64, .f32⟩
  | 40 => ⟨S_, .f32⟩
  | 41 => ⟨S64, .f32⟩
  | 42 => ⟨S1x64, .f32⟩
  | 43 => ⟨S_, .f32⟩
  | 44 => ⟨S1x64, .f32⟩
  | 45 => ⟨S1x64, .f32⟩
  | 46 => ⟨S_, .i32⟩
  | 47 => ⟨S_, .f32⟩
  | 48 => ⟨S64, .f32⟩
  | 49 => ⟨S1x64, .f32⟩
  | 50 => ⟨S_, .f32⟩
  | 51 => ⟨S1x64, .f32⟩
  | 52 => ⟨S1x64, .f32⟩
  | 53 => ⟨S100000x64, .f32⟩
  | 54 => ⟨S100000x64, .f32⟩
  | 55 => ⟨S100000x64, .f32⟩
  | 56 => ⟨S_, .f32⟩
  | 57 => ⟨S_, .f32⟩
  | 58 => ⟨S_, .f32⟩
  | 59 => ⟨S_, .f32⟩
  | 60 => ⟨S64, .f32⟩
  | 61 => ⟨S1x64, .f32⟩
  | 62 => ⟨S1x64, .f32⟩
  | 63 => ⟨S1x64, .f32⟩
  | 64 => ⟨S_, .f32⟩
  | 65 => ⟨S_, .i1⟩
  | 66 => ⟨S_, .f32⟩
  | 67 => ⟨S_, .f32⟩
  | 68 => ⟨S1x64, .f32⟩
  | 69 => ⟨S1x64, .f32⟩
  | 70 => ⟨S1x64, .f32⟩
  | 71 => ⟨S64, .f32⟩
  | 72 => ⟨S1x64, .f32⟩
  | 73 => ⟨S64, .f32⟩
  | 74 => ⟨S1x64, .f32⟩
  | 75 => ⟨S1x64, .f32⟩
  | 76 => ⟨S100000x64, .f32⟩
  | 77 => ⟨S1x64x64, .f32⟩
  | 78 => ⟨S64x64, .f32⟩
  | 79 => ⟨S1x64, .f32⟩
  | 80 => ⟨S64, .f32⟩
  | 81 => ⟨S1x64, .f32⟩
  | 82 => ⟨S100000x64, .f32⟩
  | 83 => ⟨S_, .f32⟩
  | 84 => ⟨S64, .f32⟩
  | 85 => ⟨S1x64, .f32⟩
  | 86 => ⟨S_, .f32⟩
  | 87 => ⟨S1x64, .f32⟩
  | 88 => ⟨S1x64, .f32⟩
  | 89 => ⟨S_, .i32⟩
  | 90 => ⟨S_, .f32⟩
  | 91 => ⟨S64, .f32⟩
  | 92 => ⟨S1x64, .f32⟩
  | 93 => ⟨S_, .f32⟩
  | 94 => ⟨S1x64, .f32⟩
  | 95 => ⟨S1x64, .f32⟩
  | 96 => ⟨S100000x64, .f32⟩
  | 97 => ⟨S100000x64, .f32⟩
  | 98 => ⟨S100000x64, .f32⟩
  | 99 => ⟨S_, .f32⟩
  | 100 => ⟨S_, .f32⟩
  | 101 => ⟨S_, .f32⟩
  | 102 => ⟨S_, .f32⟩
  | 103 => ⟨S64, .f32⟩
  | 104 => ⟨S1x64, .f32⟩
  | 105 => ⟨S1x64, .f32⟩
  | 106 => ⟨S1x64, .f32⟩
  | 107 => ⟨S_, .f32⟩
  | 108 => ⟨S_, .i1⟩
  | 109 => ⟨S_, .f32⟩
  | 110 => ⟨S_, .f32⟩
  | 111 => ⟨S1x64, .f32⟩
  | 112 => ⟨S1x64, .f32⟩
  | 113 => ⟨S1x64, .f32⟩
  | 114 => ⟨S64, .f32⟩
  | 115 => ⟨S1x64, .f32⟩
  | 116 => ⟨S64, .f32⟩
  | 117 => ⟨S1x64, .f32⟩
  | 118 => ⟨S1x64, .f32⟩
  | 119 => ⟨S100000x64, .f32⟩
  | 120 => ⟨S1x64x64, .f32⟩
  | 121 => ⟨S64x64, .f32⟩
  | 122 => ⟨S1x64, .f32⟩
  | 123 => ⟨S64, .f32⟩
  | 124 => ⟨S1x64, .f32⟩
  | 125 => ⟨S100000x64, .f32⟩
  | 126 => ⟨S_, .f32⟩
  | 127 => ⟨S64, .f32⟩
  | _ => ⟨S100000x64, .f32⟩

abbrev hbmTy0_1 (i : Nat) : BufTy := match i % 128 with
  | 0 => ⟨S1x64, .f32⟩
  | 1 => ⟨S_, .f32⟩
  | 2 => ⟨S1x64, .f32⟩
  | 3 => ⟨S1x64, .f32⟩
  | 4 => ⟨S_, .i32⟩
  | 5 => ⟨S_, .f32⟩
  | 6 => ⟨S64, .f32⟩
  | 7 => ⟨S1x64, .f32⟩
  | 8 => ⟨S_, .f32⟩
  | 9 => ⟨S1x64, .f32⟩
  | 10 => ⟨S1x64, .f32⟩
  | 11 => ⟨S100000x64, .f32⟩
  | 12 => ⟨S100000x64, .f32⟩
  | 13 => ⟨S100000x64, .f32⟩
  | 14 => ⟨S_, .f32⟩
  | 15 => ⟨S_, .f32⟩
  | 16 => ⟨S_, .f32⟩
  | 17 => ⟨S_, .f32⟩
  | 18 => ⟨S64, .f32⟩
  | 19 => ⟨S1x64, .f32⟩
  | 20 => ⟨S1x64, .f32⟩
  | 21 => ⟨S1x64, .f32⟩
  | 22 => ⟨S_, .f32⟩
  | 23 => ⟨S_, .i1⟩
  | 24 => ⟨S_, .f32⟩
  | 25 => ⟨S_, .f32⟩
  | 26 => ⟨S1x64, .f32⟩
  | 27 => ⟨S1x64, .f32⟩
  | 28 => ⟨S1x64, .f32⟩
  | 29 => ⟨S64, .f32⟩
  | 30 => ⟨S1x64, .f32⟩
  | 31 => ⟨S64, .f32⟩
  | 32 => ⟨S1x64, .f32⟩
  | 33 => ⟨S1x64, .f32⟩
  | 34 => ⟨S100000x64, .f32⟩
  | 35 => ⟨S_, .f32⟩
  | 36 => ⟨S64, .f32⟩
  | 37 => ⟨S1x64x64, .f32⟩
  | 38 => ⟨S64x64, .f32⟩
  | 39 => ⟨S1x64, .f32⟩
  | 40 => ⟨S100000x64, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000, .f32⟩
  | 59 => ⟨S800000, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S1, .i32⟩
  | 69 => ⟨S_, .i32⟩
  | 70 => ⟨S800000x1, .i32⟩
  | 71 => ⟨S800000x1, .i1⟩
  | 72 => ⟨S1x1, .i32⟩
  | 73 => ⟨S800000x1, .i32⟩
  | 74 => ⟨S800000x1, .i1⟩
  | 75 => ⟨S800000x1, .i1⟩
  | 76 => ⟨S_, .i1⟩
  | 77 => ⟨S800000, .i1⟩
  | 78 => ⟨S800000x64, .f32⟩
  | 79 => ⟨S800000x64, .i1⟩
  | 80 => ⟨S_, .f32⟩
  | 81 => ⟨S800000x64, .f32⟩
  | 82 => ⟨S800000x64, .f32⟩
  | 83 => ⟨S800000x1, .f32⟩
  | 84 => ⟨S800000x64, .f32⟩
  | 85 => ⟨S800000x64, .f32⟩
  | 86 => ⟨S_, .f32⟩
  | 87 => ⟨S100000x64, .f32⟩
  | 88 => ⟨S800000x1, .i32⟩
  | 89 => ⟨S100000x64, .f32⟩
  | 90 => ⟨S100000x1, .f32⟩
  | 91 => ⟨S100000x64, .f32⟩
  | 92 => ⟨S100000x64, .f32⟩
  | 93 => ⟨S1x64, .f32⟩
  | 94 => ⟨S64, .f32⟩
  | 95 => ⟨S1x64, .f32⟩
  | 96 => ⟨S100000x64, .f32⟩
  | 97 => ⟨S1x64x64, .f32⟩
  | 98 => ⟨S64x64, .f32⟩
  | 99 => ⟨S1x64, .f32⟩
  | 100 => ⟨S100000x64, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000, .f32⟩
  | 119 => ⟨S800000, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S100000x64, .f32⟩

abbrev hbmTy0_2 (i : Nat) : BufTy := match i % 128 with
  | 0 => ⟨S1, .i32⟩
  | 1 => ⟨S_, .i32⟩
  | 2 => ⟨S800000x1, .i32⟩
  | 3 => ⟨S800000x1, .i1⟩
  | 4 => ⟨S1x1, .i32⟩
  | 5 => ⟨S800000x1, .i32⟩
  | 6 => ⟨S800000x1, .i1⟩
  | 7 => ⟨S800000x1, .i1⟩
  | 8 => ⟨S_, .i1⟩
  | 9 => ⟨S800000, .i1⟩
  | 10 => ⟨S800000x64, .f32⟩
  | 11 => ⟨S800000x64, .i1⟩
  | 12 => ⟨S_, .f32⟩
  | 13 => ⟨S800000x64, .f32⟩
  | 14 => ⟨S800000x64, .f32⟩
  | 15 => ⟨S800000x1, .f32⟩
  | 16 => ⟨S800000x64, .f32⟩
  | 17 => ⟨S800000x64, .f32⟩
  | 18 => ⟨S_, .f32⟩
  | 19 => ⟨S100000x64, .f32⟩
  | 20 => ⟨S800000x1, .i32⟩
  | 21 => ⟨S100000x64, .f32⟩
  | 22 => ⟨S100000x1, .f32⟩
  | 23 => ⟨S100000x64, .f32⟩
  | 24 => ⟨S100000x64, .f32⟩
  | 25 => ⟨S1x64, .f32⟩
  | 26 => ⟨S64, .f32⟩
  | 27 => ⟨S1x64, .f32⟩
  | 28 => ⟨S100000x64, .f32⟩
  | 29 => ⟨S1x64x64, .f32⟩
  | 30 => ⟨S64x64, .f32⟩
  | 31 => ⟨S1x64, .f32⟩
  | 32 => ⟨S100000x64, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S800000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S1, .i32⟩
  | 61 => ⟨S_, .i32⟩
  | 62 => ⟨S800000x1, .i32⟩
  | 63 => ⟨S800000x1, .i1⟩
  | 64 => ⟨S1x1, .i32⟩
  | 65 => ⟨S800000x1, .i32⟩
  | 66 => ⟨S800000x1, .i1⟩
  | 67 => ⟨S800000x1, .i1⟩
  | 68 => ⟨S_, .i1⟩
  | 69 => ⟨S800000, .i1⟩
  | 70 => ⟨S800000x64, .f32⟩
  | 71 => ⟨S800000x64, .i1⟩
  | 72 => ⟨S_, .f32⟩
  | 73 => ⟨S800000x64, .f32⟩
  | 74 => ⟨S800000x64, .f32⟩
  | 75 => ⟨S800000x1, .f32⟩
  | 76 => ⟨S800000x64, .f32⟩
  | 77 => ⟨S800000x64, .f32⟩
  | 78 => ⟨S_, .f32⟩
  | 79 => ⟨S100000x64, .f32⟩
  | 80 => ⟨S800000x1, .i32⟩
  | 81 => ⟨S100000x64, .f32⟩
  | 82 => ⟨S100000x1, .f32⟩
  | 83 => ⟨S100000x64, .f32⟩
  | 84 => ⟨S100000x64, .f32⟩
  | 85 => ⟨S1x64, .f32⟩
  | 86 => ⟨S64, .f32⟩
  | 87 => ⟨S1x64, .f32⟩
  | 88 => ⟨S100000x64, .f32⟩
  | 89 => ⟨S1x64x64, .f32⟩
  | 90 => ⟨S64x64, .f32⟩
  | 91 => ⟨S1x64, .f32⟩
  | 92 => ⟨S100000x64, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000, .f32⟩
  | 111 => ⟨S800000, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S1, .i32⟩
  | 121 => ⟨S_, .i32⟩
  | 122 => ⟨S800000x1, .i32⟩
  | 123 => ⟨S800000x1, .i1⟩
  | 124 => ⟨S1x1, .i32⟩
  | 125 => ⟨S800000x1, .i32⟩
  | 126 => ⟨S800000x1, .i1⟩
  | 127 => ⟨S800000x1, .i1⟩
  | _ => ⟨S100000x64, .f32⟩

abbrev hbmTy0_3 (i : Nat) : BufTy := match i % 128 with
  | 0 => ⟨S_, .i1⟩
  | 1 => ⟨S800000, .i1⟩
  | 2 => ⟨S800000x64, .f32⟩
  | 3 => ⟨S800000x64, .i1⟩
  | 4 => ⟨S_, .f32⟩
  | 5 => ⟨S800000x64, .f32⟩
  | 6 => ⟨S800000x64, .f32⟩
  | 7 => ⟨S800000x1, .f32⟩
  | 8 => ⟨S800000x64, .f32⟩
  | 9 => ⟨S800000x64, .f32⟩
  | 10 => ⟨S_, .f32⟩
  | 11 => ⟨S100000x64, .f32⟩
  | 12 => ⟨S800000x1, .i32⟩
  | 13 => ⟨S100000x64, .f32⟩
  | 14 => ⟨S100000x1, .f32⟩
  | 15 => ⟨S100000x64, .f32⟩
  | 16 => ⟨S100000x64, .f32⟩
  | 17 => ⟨S1x64, .f32⟩
  | 18 => ⟨S64, .f32⟩
  | 19 => ⟨S1x64, .f32⟩
  | 20 => ⟨S100000x64, .f32⟩
  | 21 => ⟨S1x64x64, .f32⟩
  | 22 => ⟨S64x64, .f32⟩
  | 23 => ⟨S1x64, .f32⟩
  | 24 => ⟨S100000x64, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S1, .i32⟩
  | 53 => ⟨S_, .i32⟩
  | 54 => ⟨S800000x1, .i32⟩
  | 55 => ⟨S800000x1, .i1⟩
  | 56 => ⟨S1x1, .i32⟩
  | 57 => ⟨S800000x1, .i32⟩
  | 58 => ⟨S800000x1, .i1⟩
  | 59 => ⟨S800000x1, .i1⟩
  | 60 => ⟨S_, .i1⟩
  | 61 => ⟨S800000, .i1⟩
  | 62 => ⟨S800000x64, .f32⟩
  | 63 => ⟨S800000x64, .i1⟩
  | 64 => ⟨S_, .f32⟩
  | 65 => ⟨S800000x64, .f32⟩
  | 66 => ⟨S800000x64, .f32⟩
  | 67 => ⟨S800000x1, .f32⟩
  | 68 => ⟨S800000x64, .f32⟩
  | 69 => ⟨S800000x64, .f32⟩
  | 70 => ⟨S_, .f32⟩
  | 71 => ⟨S100000x64, .f32⟩
  | 72 => ⟨S800000x1, .i32⟩
  | 73 => ⟨S100000x64, .f32⟩
  | 74 => ⟨S100000x1, .f32⟩
  | 75 => ⟨S100000x64, .f32⟩
  | 76 => ⟨S100000x64, .f32⟩
  | 77 => ⟨S1x64, .f32⟩
  | 78 => ⟨S64, .f32⟩
  | 79 => ⟨S1x64, .f32⟩
  | 80 => ⟨S100000x64, .f32⟩
  | 81 => ⟨S1x64x64, .f32⟩
  | 82 => ⟨S64x64, .f32⟩
  | 83 => ⟨S1x64, .f32⟩
  | 84 => ⟨S100000x64, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000, .f32⟩
  | 103 => ⟨S800000, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S1, .i32⟩
  | 113 => ⟨S_, .i32⟩
  | 114 => ⟨S800000x1, .i32⟩
  | 115 => ⟨S800000x1, .i1⟩
  | 116 => ⟨S1x1, .i32⟩
  | 117 => ⟨S800000x1, .i32⟩
  | 118 => ⟨S800000x1, .i1⟩
  | 119 => ⟨S800000x1, .i1⟩
  | 120 => ⟨S_, .i1⟩
  | 121 => ⟨S800000, .i1⟩
  | 122 => ⟨S800000x64, .f32⟩
  | 123 => ⟨S800000x64, .i1⟩
  | 124 => ⟨S_, .f32⟩
  | 125 => ⟨S800000x64, .f32⟩
  | 126 => ⟨S800000x64, .f32⟩
  | 127 => ⟨S800000x1, .f32⟩
  | _ => ⟨S100000x64, .f32⟩

abbrev hbmTy0_4 (i : Nat) : BufTy := match i % 128 with
  | 0 => ⟨S800000x64, .f32⟩
  | 1 => ⟨S800000x64, .f32⟩
  | 2 => ⟨S_, .f32⟩
  | 3 => ⟨S100000x64, .f32⟩
  | 4 => ⟨S800000x1, .i32⟩
  | 5 => ⟨S100000x64, .f32⟩
  | 6 => ⟨S100000x1, .f32⟩
  | 7 => ⟨S100000x64, .f32⟩
  | 8 => ⟨S100000x64, .f32⟩
  | 9 => ⟨S1x64, .f32⟩
  | 10 => ⟨S64, .f32⟩
  | 11 => ⟨S1x64, .f32⟩
  | 12 => ⟨S100000x64, .f32⟩
  | 13 => ⟨S1x64x64, .f32⟩
  | 14 => ⟨S64x64, .f32⟩
  | 15 => ⟨S1x64, .f32⟩
  | 16 => ⟨S64, .f32⟩
  | 17 => ⟨S1x64, .f32⟩
  | 18 => ⟨S100000x64, .f32⟩
  | 19 => ⟨S_, .f32⟩
  | 20 => ⟨S64, .f32⟩
  | 21 => ⟨S1x64, .f32⟩
  | 22 => ⟨S_, .f32⟩
  | 23 => ⟨S1x64, .f32⟩
  | 24 => ⟨S1x64, .f32⟩
  | 25 => ⟨S_, .i32⟩
  | 26 => ⟨S_, .f32⟩
  | 27 => ⟨S64, .f32⟩
  | 28 => ⟨S1x64, .f32⟩
  | 29 => ⟨S_, .f32⟩
  | 30 => ⟨S1x64, .f32⟩
  | 31 => ⟨S1x64, .f32⟩
  | 32 => ⟨S100000x64, .f32⟩
  | 33 => ⟨S100000x64, .f32⟩
  | 34 => ⟨S100000x64, .f32⟩
  | 35 => ⟨S_, .f32⟩
  | 36 => ⟨S_, .f32⟩
  | 37 => ⟨S_, .f32⟩
  | 38 => ⟨S_, .f32⟩
  | 39 => ⟨S64, .f32⟩
  | 40 => ⟨S1x64, .f32⟩
  | 41 => ⟨S1x64, .f32⟩
  | 42 => ⟨S1x64, .f32⟩
  | 43 => ⟨S_, .f32⟩
  | 44 => ⟨S_, .i1⟩
  | 45 => ⟨S_, .f32⟩
  | 46 => ⟨S_, .f32⟩
  | 47 => ⟨S1x64, .f32⟩
  | 48 => ⟨S1x64, .f32⟩
  | 49 => ⟨S1x64, .f32⟩
  | 50 => ⟨S64, .f32⟩
  | 51 => ⟨S1x64, .f32⟩
  | 52 => ⟨S64, .f32⟩
  | 53 => ⟨S1x64, .f32⟩
  | 54 => ⟨S1x64, .f32⟩
  | 55 => ⟨S100000x64, .f32⟩
  | 56 => ⟨S1x64x64, .f32⟩
  | 57 => ⟨S64x64, .f32⟩
  | 58 => ⟨S1x64, .f32⟩
  | 59 => ⟨S64, .f32⟩
  | 60 => ⟨S1x64, .f32⟩
  | 61 => ⟨S100000x64, .f32⟩
  | 62 => ⟨S_, .f32⟩
  | 63 => ⟨S64, .f32⟩
  | 64 => ⟨S1x64, .f32⟩
  | 65 => ⟨S_, .f32⟩
  | 66 => ⟨S1x64, .f32⟩
  | 67 => ⟨S1x64, .f32⟩
  | 68 => ⟨S_, .i32⟩
  | 69 => ⟨S_, .f32⟩
  | 70 => ⟨S64, .f32⟩
  | 71 => ⟨S1x64, .f32⟩
  | 72 => ⟨S_, .f32⟩
  | 73 => ⟨S1x64, .f32⟩
  | 74 => ⟨S1x64, .f32⟩
  | 75 => ⟨S100000x64, .f32⟩
  | 76 => ⟨S100000x64, .f32⟩
  | 77 => ⟨S100000x64, .f32⟩
  | 78 => ⟨S_, .f32⟩
  | 79 => ⟨S_, .f32⟩
  | 80 => ⟨S_, .f32⟩
  | 81 => ⟨S_, .f32⟩
  | 82 => ⟨S64, .f32⟩
  | 83 => ⟨S1x64, .f32⟩
  | 84 => ⟨S1x64, .f32⟩
  | 85 => ⟨S1x64, .f32⟩
  | 86 => ⟨S_, .f32⟩
  | 87 => ⟨S_, .i1⟩
  | 88 => ⟨S_, .f32⟩
  | 89 => ⟨S_, .f32⟩
  | 90 => ⟨S1x64, .f32⟩
  | 91 => ⟨S1x64, .f32⟩
  | 92 => ⟨S1x64, .f32⟩
  | 93 => ⟨S64, .f32⟩
  | 94 => ⟨S1x64, .f32⟩
  | 95 => ⟨S64, .f32⟩
  | 96 => ⟨S1x64, .f32⟩
  | 97 => ⟨S1x64, .f32⟩
  | 98 => ⟨S100000x64, .f32⟩
  | 99 => ⟨S1x64x64, .f32⟩
  | 100 => ⟨S64x64, .f32⟩
  | 101 => ⟨S1x64, .f32⟩
  | 102 => ⟨S64, .f32⟩
  | 103 => ⟨S1x64, .f32⟩
  | 104 => ⟨S100000x64, .f32⟩
  | 105 => ⟨S_, .f32⟩
  | 106 => ⟨S64, .f32⟩
  | 107 => ⟨S1x64, .f32⟩
  | 108 => ⟨S_, .f32⟩
  | 109 => ⟨S1x64, .f32⟩
  | 110 => ⟨S1x64, .f32⟩
  | 111 => ⟨S_, .i32⟩
  | 112 => ⟨S_, .f32⟩
  | 113 => ⟨S64, .f32⟩
  | 114 => ⟨S1x64, .f32⟩
  | 115 => ⟨S_, .f32⟩
  | 116 => ⟨S1x64, .f32⟩
  | 117 => ⟨S1x64, .f32⟩
  | 118 => ⟨S100000x64, .f32⟩
  | 119 => ⟨S100000x64, .f32⟩
  | 120 => ⟨S100000x64, .f32⟩
  | 121 => ⟨S_, .f32⟩
  | 122 => ⟨S_, .f32⟩
  | 123 => ⟨S_, .f32⟩
  | 124 => ⟨S_, .f32⟩
  | 125 => ⟨S64, .f32⟩
  | 126 => ⟨S1x64, .f32⟩
  | 127 => ⟨S1x64, .f32⟩
  | _ => ⟨S100000x64, .f32⟩

abbrev hbmTy0_5 (i : Nat) : BufTy := match i % 128 with
  | 0 => ⟨S1x64, .f32⟩
  | 1 => ⟨S_, .f32⟩
  | 2 => ⟨S_, .i1⟩
  | 3 => ⟨S_, .f32⟩
  | 4 => ⟨S_, .f32⟩
  | 5 => ⟨S1x64, .f32⟩
  | 6 => ⟨S1x64, .f32⟩
  | 7 => ⟨S1x64, .f32⟩
  | 8 => ⟨S64, .f32⟩
  | 9 => ⟨S1x64, .f32⟩
  | 10 => ⟨S64, .f32⟩
  | 11 => ⟨S1x64, .f32⟩
  | 12 => ⟨S1x64, .f32⟩
  | 13 => ⟨S100000x64, .f32⟩
  | 14 => ⟨S_, .f32⟩
  | 15 => ⟨S100000, .f32⟩
  | 16 => ⟨S_, .f32⟩
  | 17 => ⟨S64, .f32⟩
  | 18 => ⟨S100000x1, .i32⟩
  | 19 => ⟨S64, .f32⟩
  | 20 => ⟨S_, .f32⟩
  | 21 => ⟨S64x64, .f32⟩
  | 22 => ⟨S100000x1, .i32⟩
  | 23 => ⟨S64x64, .f32⟩
  | 24 => ⟨S_, .f32⟩
  | 25 => ⟨S64, .f32⟩
  | 26 => ⟨S64, .f32⟩
  | 27 => ⟨S64x1, .f32⟩
  | 28 => ⟨S64x64, .f32⟩
  | 29 => ⟨S64x64, .f32⟩
  | 30 => ⟨S64x64, .f32⟩
  | 31 => ⟨S1x64, .f32⟩
  | 32 => ⟨S64x64, .f32⟩
  | 33 => ⟨S64x64, .f32⟩
  | 34 => ⟨S_, .f32⟩
  | 35 => ⟨S64x64, .f32⟩
  | 36 => ⟨S64x64, .f32⟩
  | 37 => ⟨S64x64, .f32⟩
  | 38 => ⟨S1x64, .f32⟩
  | 39 => ⟨S64x64, .f32⟩
  | 40 => ⟨S64x64, .f32⟩
  | 41 => ⟨S_, .f32⟩
  | 42 => ⟨S64x64, .f32⟩
  | 43 => ⟨S64x64, .f32⟩
  | 44 => ⟨S64x2, .f32⟩
  | 45 => ⟨S1x2, .f32⟩
  | 46 => ⟨S64x2, .f32⟩
  | 47 => ⟨S64x2, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000x64, .f32⟩

abbrev vmemTy0_0 (i : Nat) : BufTy := match i % 128 with
  | 0 => ⟨S10000x64, .f32⟩
  | 1 => ⟨S10000x64, .f32⟩
  | 2 => ⟨S64x64, .f32⟩
  | 3 => ⟨S1x64, .f32⟩
  | 4 => ⟨S10000x64, .f32⟩
  | 5 => ⟨S10000x64, .f32⟩
  | 6 => ⟨S10000x64, .f32⟩
  | 7 => ⟨S10000x64, .f32⟩
  | 8 => ⟨S1x64, .f32⟩
  | 9 => ⟨S1x64, .f32⟩
  | 10 => ⟨S1x64, .f32⟩
  | 11 => ⟨S1x64, .f32⟩
  | 12 => ⟨S10000x64, .f32⟩
  | 13 => ⟨S10000x64, .f32⟩
  | 14 => ⟨S10000x64, .f32⟩
  | 15 => ⟨S10000x64, .f32⟩
  | 16 => ⟨S64x64, .f32⟩
  | 17 => ⟨S1x64, .f32⟩
  | 18 => ⟨S10000x64, .f32⟩
  | 19 => ⟨S10000x64, .f32⟩
  | 20 => ⟨S10000x64, .f32⟩
  | 21 => ⟨S10000x64, .f32⟩
  | 22 => ⟨S1x64, .f32⟩
  | 23 => ⟨S1x64, .f32⟩
  | 24 => ⟨S1x64, .f32⟩
  | 25 => ⟨S1x64, .f32⟩
  | 26 => ⟨S10000x64, .f32⟩
  | 27 => ⟨S10000x64, .f32⟩
  | 28 => ⟨S10000x64, .f32⟩
  | 29 => ⟨S10000x64, .f32⟩
  | 30 => ⟨S64x64, .f32⟩
  | 31 => ⟨S1x64, .f32⟩
  | 32 => ⟨S10000x64, .f32⟩
  | 33 => ⟨S10000x64, .f32⟩
  | 34 => ⟨S10000x64, .f32⟩
  | 35 => ⟨S10000x64, .f32⟩
  | 36 => ⟨S1x64, .f32⟩
  | 37 => ⟨S1x64, .f32⟩
  | 38 => ⟨S1x64, .f32⟩
  | 39 => ⟨S1x64, .f32⟩
  | 40 => ⟨S10000x64, .f32⟩
  | 41 => ⟨S10000x64, .f32⟩
  | 42 => ⟨S10000x64, .f32⟩
  | 43 => ⟨S10000x64, .f32⟩
  | 44 => ⟨S64x64, .f32⟩
  | 45 => ⟨S1x64, .f32⟩
  | 46 => ⟨S10000x64, .f32⟩
  | 47 => ⟨S10000x64, .f32⟩
  | 48 => ⟨S10000x64, .f32⟩
  | 49 => ⟨S10000x64, .f32⟩
  | 50 => ⟨S10000x64, .f32⟩
  | 51 => ⟨S10000x64, .f32⟩
  | 52 => ⟨S10000x64, .f32⟩
  | 53 => ⟨S10000x64, .f32⟩
  | 54 => ⟨S1x64, .f32⟩
  | 55 => ⟨S10000x64, .f32⟩
  | 56 => ⟨S10000x64, .f32⟩
  | 57 => ⟨S10000x64, .f32⟩
  | 58 => ⟨S10000x64, .f32⟩
  | 59 => ⟨S64x64, .f32⟩
  | 60 => ⟨S1x64, .f32⟩
  | 61 => ⟨S10000x64, .f32⟩
  | 62 => ⟨S10000x64, .f32⟩
  | 63 => ⟨S10000x64, .f32⟩
  | 64 => ⟨S10000x64, .f32⟩
  | 65 => ⟨S10000x64, .f32⟩
  | 66 => ⟨S10000x64, .f32⟩
  | 67 => ⟨S10000x64, .f32⟩
  | 68 => ⟨S10000x64, .f32⟩
  | 69 => ⟨S1x64, .f32⟩
  | 70 => ⟨S10000x64, .f32⟩
  | 71 => ⟨S10000x64, .f32⟩
  | 72 => ⟨S10000x64, .f32⟩
  | 73 => ⟨S10000x64, .f32⟩
  | 74 => ⟨S64x64, .f32⟩
  | 75 => ⟨S1x64, .f32⟩
  | 76 => ⟨S10000x64, .f32⟩
  | 77 => ⟨S10000x64, .f32⟩
  | 78 => ⟨S10000x64, .f32⟩
  | 79 => ⟨S10000x64, .f32⟩
  | 80 => ⟨S10000x64, .f32⟩
  | 81 => ⟨S10000x64, .f32⟩
  | 82 => ⟨S10000x64, .f32⟩
  | 83 => ⟨S10000x64, .f32⟩
  | 84 => ⟨S1x64, .f32⟩
  | 85 => ⟨S10000x64, .f32⟩
  | 86 => ⟨S10000x64, .f32⟩
  | 87 => ⟨S10000x64, .f32⟩
  | 88 => ⟨S10000x64, .f32⟩
  | 89 => ⟨S64x64, .f32⟩
  | 90 => ⟨S1x64, .f32⟩
  | 91 => ⟨S10000x64, .f32⟩
  | 92 => ⟨S10000x64, .f32⟩
  | 93 => ⟨S10000x64, .f32⟩
  | 94 => ⟨S10000x64, .f32⟩
  | 95 => ⟨S10000x64, .f32⟩
  | 96 => ⟨S10000x64, .f32⟩
  | 97 => ⟨S10000x64, .f32⟩
  | 98 => ⟨S10000x64, .f32⟩
  | 99 => ⟨S1x64, .f32⟩
  | 100 => ⟨S10000x64, .f32⟩
  | 101 => ⟨S10000x64, .f32⟩
  | 102 => ⟨S10000x64, .f32⟩
  | 103 => ⟨S10000x64, .f32⟩
  | 104 => ⟨S64x64, .f32⟩
  | 105 => ⟨S1x64, .f32⟩
  | 106 => ⟨S10000x64, .f32⟩
  | 107 => ⟨S10000x64, .f32⟩
  | 108 => ⟨S10000x64, .f32⟩
  | 109 => ⟨S10000x64, .f32⟩
  | 110 => ⟨S10000x64, .f32⟩
  | 111 => ⟨S10000x64, .f32⟩
  | 112 => ⟨S10000x64, .f32⟩
  | 113 => ⟨S10000x64, .f32⟩
  | 114 => ⟨S1x64, .f32⟩
  | 115 => ⟨S10000x64, .f32⟩
  | 116 => ⟨S10000x64, .f32⟩
  | 117 => ⟨S10000x64, .f32⟩
  | 118 => ⟨S10000x64, .f32⟩
  | 119 => ⟨S64x64, .f32⟩
  | 120 => ⟨S1x64, .f32⟩
  | 121 => ⟨S10000x64, .f32⟩
  | 122 => ⟨S10000x64, .f32⟩
  | 123 => ⟨S10000x64, .f32⟩
  | 124 => ⟨S10000x64, .f32⟩
  | 125 => ⟨S10000x64, .f32⟩
  | 126 => ⟨S10000x64, .f32⟩
  | 127 => ⟨S10000x64, .f32⟩
  | _ => ⟨S100000x64, .f32⟩

abbrev vmemTy0_1 (i : Nat) : BufTy := match i % 128 with
  | 0 => ⟨S10000x64, .f32⟩
  | 1 => ⟨S1x64, .f32⟩
  | 2 => ⟨S10000x64, .f32⟩
  | 3 => ⟨S10000x64, .f32⟩
  | 4 => ⟨S10000x64, .f32⟩
  | 5 => ⟨S10000x64, .f32⟩
  | 6 => ⟨S64x64, .f32⟩
  | 7 => ⟨S1x64, .f32⟩
  | 8 => ⟨S10000x64, .f32⟩
  | 9 => ⟨S10000x64, .f32⟩
  | 10 => ⟨S10000x64, .f32⟩
  | 11 => ⟨S10000x64, .f32⟩
  | 12 => ⟨S1x64, .f32⟩
  | 13 => ⟨S1x64, .f32⟩
  | 14 => ⟨S1x64, .f32⟩
  | 15 => ⟨S1x64, .f32⟩
  | 16 => ⟨S10000x64, .f32⟩
  | 17 => ⟨S10000x64, .f32⟩
  | 18 => ⟨S10000x64, .f32⟩
  | 19 => ⟨S10000x64, .f32⟩
  | 20 => ⟨S64x64, .f32⟩
  | 21 => ⟨S1x64, .f32⟩
  | 22 => ⟨S10000x64, .f32⟩
  | 23 => ⟨S10000x64, .f32⟩
  | 24 => ⟨S10000x64, .f32⟩
  | 25 => ⟨S10000x64, .f32⟩
  | 26 => ⟨S1x64, .f32⟩
  | 27 => ⟨S1x64, .f32⟩
  | 28 => ⟨S1x64, .f32⟩
  | 29 => ⟨S1x64, .f32⟩
  | 30 => ⟨S10000x64, .f32⟩
  | 31 => ⟨S10000x64, .f32⟩
  | 32 => ⟨S10000x64, .f32⟩
  | 33 => ⟨S10000x64, .f32⟩
  | 34 => ⟨S64x64, .f32⟩
  | 35 => ⟨S1x64, .f32⟩
  | 36 => ⟨S10000x64, .f32⟩
  | 37 => ⟨S10000x64, .f32⟩
  | 38 => ⟨S10000x64, .f32⟩
  | 39 => ⟨S10000x64, .f32⟩
  | 40 => ⟨S1x64, .f32⟩
  | 41 => ⟨S1x64, .f32⟩
  | 42 => ⟨S1x64, .f32⟩
  | 43 => ⟨S1x64, .f32⟩
  | 44 => ⟨S10000x64, .f32⟩
  | 45 => ⟨S10000x64, .f32⟩
  | _ => ⟨S100000x64, .f32⟩

abbrev vmemTy (i : Nat) : BufTy := match i / 128 with
  | 0 => vmemTy0_0 i
  | 1 => vmemTy0_1 i
  | _ => ⟨S100000x64, .f32⟩

abbrev bufTy : (tb : Table) → Fin (tcTables nBuf tb) → BufTy
  | .hbm, ⟨i, _⟩ => hbmTy i
  | .local _ .vmem, ⟨i, _⟩ => vmemTy i
  | _, _ => ⟨S100000x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 174 → Bool
  | ⟨i, _⟩ => dmaSemScopedAt i

abbrev sig : RefSig :=
  ofTc nBuf bufTy 0 174 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_2 : Ref sig .tc := ⟨.hbm, 40, rfl⟩
abbrev main_v18 : Ref sig .tc := ⟨.hbm, 41, rfl⟩
abbrev main_v19 : Ref sig .tc := ⟨.hbm, 42, rfl⟩
abbrev main_cst_3 : Ref sig .tc := ⟨.hbm, 43, rfl⟩
abbrev main_v20 : Ref sig .tc := ⟨.hbm, 44, rfl⟩
abbrev main_v21 : Ref sig .tc := ⟨.hbm, 45, rfl⟩
abbrev main_c : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_cst_3 : Ref sig .tc := ⟨.hbm, 64, rfl⟩
abbrev main_call0_v13 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_4 : Ref sig .tc := ⟨.hbm, 83, rfl⟩
abbrev main_v36 : Ref sig .tc := ⟨.hbm, 84, rfl⟩
abbrev main_v37 : Ref sig .tc := ⟨.hbm, 85, rfl⟩
abbrev main_cst_5 : Ref sig .tc := ⟨.hbm, 86, rfl⟩
abbrev main_v38 : Ref sig .tc := ⟨.hbm, 87, rfl⟩
abbrev main_v39 : Ref sig .tc := ⟨.hbm, 88, rfl⟩
abbrev main_c_6 : Ref sig .tc := ⟨.hbm, 89, rfl⟩
abbrev main_call1_cst : Ref sig .tc := ⟨.hbm, 90, rfl⟩
abbrev main_call1_v0 : Ref sig .tc := ⟨.hbm, 91, rfl⟩
abbrev main_call1_v1 : Ref sig .tc := ⟨.hbm, 92, rfl⟩
abbrev main_call1_cst_0 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_v6 : Ref sig .tc := ⟨.hbm, 98, rfl⟩
abbrev main_call1_v7 : Ref sig .tc := ⟨.hbm, 99, rfl⟩
abbrev main_call1_cst_1 : Ref sig .tc := ⟨.hbm, 100, rfl⟩
abbrev main_call1_v8 : Ref sig .tc := ⟨.hbm, 101, rfl⟩
abbrev main_call1_cst_2 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_call1_v12 : Ref sig .tc := ⟨.hbm, 106, rfl⟩
abbrev main_call1_cst_3 : Ref sig .tc := ⟨.hbm, 107, rfl⟩
abbrev main_call1_v13 : Ref sig .tc := ⟨.hbm, 108, rfl⟩
abbrev main_call1_cst_4 : Ref sig .tc := ⟨.hbm, 109, rfl⟩
abbrev main_call1_call0_v0 : Ref sig .tc := ⟨.hbm, 110, rfl⟩
abbrev main_call1_call0_v1 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_cst_7 : Ref sig .tc := ⟨.hbm, 126, rfl⟩
abbrev main_v54 : Ref sig .tc := ⟨.hbm, 127, rfl⟩
abbrev main_v55 : Ref sig .tc := ⟨.hbm, 128, rfl⟩
abbrev main_cst_8 : Ref sig .tc := ⟨.hbm, 129, rfl⟩
abbrev main_v56 : Ref sig .tc := ⟨.hbm, 130, rfl⟩
abbrev main_v57 : Ref sig .tc := ⟨.hbm, 131, rfl⟩
abbrev main_c_9 : Ref sig .tc := ⟨.hbm, 132, rfl⟩
abbrev main_call2_cst : Ref sig .tc := ⟨.hbm, 133, rfl⟩
abbrev main_call2_v0 : Ref sig .tc := ⟨.hbm, 134, rfl⟩
abbrev main_call2_v1 : Ref sig .tc := ⟨.hbm, 135, rfl⟩
abbrev main_call2_cst_0 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_call2_v5 : Ref sig .tc := ⟨.hbm, 140, rfl⟩
abbrev main_call2_v6 : Ref sig .tc := ⟨.hbm, 141, rfl⟩
abbrev main_call2_v7 : Ref sig .tc := ⟨.hbm, 142, rfl⟩
abbrev main_call2_cst_1 : Ref sig .tc := ⟨.hbm, 143, rfl⟩
abbrev main_call2_v8 : Ref sig .tc := ⟨.hbm, 144, rfl⟩
abbrev main_call2_cst_2 : Ref sig .tc := ⟨.hbm, 145, rfl⟩
abbrev main_call2_v9 : Ref sig .tc := ⟨.hbm, 146, rfl⟩
abbrev main_call2_v10 : Ref sig .tc := ⟨.hbm, 147, rfl⟩
abbrev main_call2_v11 : Ref sig .tc := ⟨.hbm, 148, rfl⟩
abbrev main_call2_v12 : Ref sig .tc := ⟨.hbm, 149, rfl⟩
abbrev main_call2_cst_3 : Ref sig .tc := ⟨.hbm, 150, rfl⟩
abbrev main_call2_v13 : Ref sig .tc := ⟨.hbm, 151, rfl⟩
abbrev main_call2_cst_4 : Ref sig .tc := ⟨.hbm, 152, rfl⟩
abbrev main_call2_call0_v0 : Ref sig .tc := ⟨.hbm, 153, rfl⟩
abbrev main_call2_call0_v1 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_v65 : Ref sig .tc := ⟨.hbm, 162, rfl⟩
abbrev main_cst_10 : Ref sig .tc := ⟨.hbm, 163, rfl⟩
abbrev main_v66 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_v70 : Ref sig .tc := ⟨.hbm, 168, rfl⟩
abbrev main_c_11 : Ref sig .tc := ⟨.hbm, 169, rfl⟩
abbrev main_v71 : Ref sig .tc := ⟨.hbm, 170, rfl⟩
abbrev main_v72 : Ref sig .tc := ⟨.hbm, 171, rfl⟩
abbrev main_c_12 : Ref sig .tc := ⟨.hbm, 172, rfl⟩
abbrev main_v73 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_c_13 : Ref sig .tc := ⟨.hbm, 178, rfl⟩
abbrev main_v78 : Ref sig .tc := ⟨.hbm, 179, rfl⟩
abbrev main_v79 : Ref sig .tc := ⟨.hbm, 180, rfl⟩
abbrev main_c_14 : Ref sig .tc := ⟨.hbm, 181, rfl⟩
abbrev main_v80 : Ref sig .tc := ⟨.hbm, 182, rfl⟩
abbrev main_v81 : Ref sig .tc := ⟨.hbm, 183, rfl⟩
abbrev main_v82 : Ref sig .tc := ⟨.hbm, 184, rfl⟩
abbrev main_v83 : Ref sig .tc := ⟨.hbm, 185, rfl⟩
abbrev main_v84 : Ref sig .tc := ⟨.hbm, 186, rfl⟩
abbrev main_v85 : Ref sig .tc := ⟨.hbm, 187, rfl⟩
abbrev main_call3_c : Ref sig .tc := ⟨.hbm, 188, rfl⟩
abbrev main_call3_v0 : Ref sig .tc := ⟨.hbm, 189, rfl⟩
abbrev main_call3_v1 : Ref sig .tc := ⟨.hbm, 190, rfl⟩
abbrev main_call3_c_0 : Ref sig .tc := ⟨.hbm, 191, rfl⟩
abbrev main_call3_v2 : Ref sig .tc := ⟨.hbm, 192, rfl⟩
abbrev main_call3_v3 : Ref sig .tc := ⟨.hbm, 193, rfl⟩
abbrev main_call3_v4 : Ref sig .tc := ⟨.hbm, 194, rfl⟩
abbrev main_call3_v5 : Ref sig .tc := ⟨.hbm, 195, rfl⟩
abbrev main_call3_c_1 : Ref sig .tc := ⟨.hbm, 196, rfl⟩
abbrev main_call3_c_2 : Ref sig .tc := ⟨.hbm, 197, rfl⟩
abbrev main_call3_v6 : Ref sig .tc := ⟨.hbm, 198, rfl⟩
abbrev main_call3_v7 : Ref sig .tc := ⟨.hbm, 199, rfl⟩
abbrev main_call3_v8 : Ref sig .tc := ⟨.hbm, 200, rfl⟩
abbrev main_call3_v9 : Ref sig .tc := ⟨.hbm, 201, rfl⟩
abbrev main_call3_v10 : Ref sig .tc := ⟨.hbm, 202, rfl⟩
abbrev main_call3_v11 : Ref sig .tc := ⟨.hbm, 203, rfl⟩
abbrev main_call3_c_3 : Ref sig .tc := ⟨.hbm, 204, rfl⟩
abbrev main_call3_v12 : Ref sig .tc := ⟨.hbm, 205, rfl⟩
abbrev main_call3_v13 : Ref sig .tc := ⟨.hbm, 206, rfl⟩
abbrev main_call3_v14 : Ref sig .tc := ⟨.hbm, 207, rfl⟩
abbrev main_call3_cst : Ref sig .tc := ⟨.hbm, 208, rfl⟩
abbrev main_call3_v15 : Ref sig .tc := ⟨.hbm, 209, rfl⟩
abbrev main_v86 : Ref sig .tc := ⟨.hbm, 210, rfl⟩
abbrev main_v87 : Ref sig .tc := ⟨.hbm, 211, rfl⟩
abbrev main_v88 : Ref sig .tc := ⟨.hbm, 212, rfl⟩
abbrev main_v89 : Ref sig .tc := ⟨.hbm, 213, rfl⟩
abbrev main_cst_15 : Ref sig .tc := ⟨.hbm, 214, rfl⟩
abbrev main_v90 : Ref sig .tc := ⟨.hbm, 215, rfl⟩
abbrev main_v91 : Ref sig .tc := ⟨.hbm, 216, rfl⟩
abbrev main_v92 : Ref sig .tc := ⟨.hbm, 217, rfl⟩
abbrev main_v93 : Ref sig .tc := ⟨.hbm, 218, rfl⟩
abbrev main_v94 : Ref sig .tc := ⟨.hbm, 219, rfl⟩
abbrev main_v95 : Ref sig .tc := ⟨.hbm, 220, rfl⟩
abbrev main_v96 : Ref sig .tc := ⟨.hbm, 221, rfl⟩
abbrev main_v97 : Ref sig .tc := ⟨.hbm, 222, rfl⟩
abbrev main_v98 : Ref sig .tc := ⟨.hbm, 223, rfl⟩
abbrev main_v99 : Ref sig .tc := ⟨.hbm, 224, rfl⟩
abbrev main_v100 : Ref sig .tc := ⟨.hbm, 225, rfl⟩
abbrev main_v101 : Ref sig .tc := ⟨.hbm, 226, rfl⟩
abbrev main_v102 : Ref sig .tc := ⟨.hbm, 227, rfl⟩
abbrev main_v103 : Ref sig .tc := ⟨.hbm, 228, rfl⟩
abbrev main_c_16 : Ref sig .tc := ⟨.hbm, 229, rfl⟩
abbrev main_v104 : Ref sig .tc := ⟨.hbm, 230, rfl⟩
abbrev main_v105 : Ref sig .tc := ⟨.hbm, 231, rfl⟩
abbrev main_c_17 : Ref sig .tc := ⟨.hbm, 232, rfl⟩
abbrev main_v106 : Ref sig .tc := ⟨.hbm, 233, rfl⟩
abbrev main_v107 : Ref sig .tc := ⟨.hbm, 234, rfl⟩
abbrev main_v108 : Ref sig .tc := ⟨.hbm, 235, rfl⟩
abbrev main_v109 : Ref sig .tc := ⟨.hbm, 236, rfl⟩
abbrev main_v110 : Ref sig .tc := ⟨.hbm, 237, rfl⟩
abbrev main_c_18 : Ref sig .tc := ⟨.hbm, 238, rfl⟩
abbrev main_v111 : Ref sig .tc := ⟨.hbm, 239, rfl⟩
abbrev main_v112 : Ref sig .tc := ⟨.hbm, 240, rfl⟩
abbrev main_c_19 : Ref sig .tc := ⟨.hbm, 241, rfl⟩
abbrev main_v113 : Ref sig .tc := ⟨.hbm, 242, rfl⟩
abbrev main_v114 : Ref sig .tc := ⟨.hbm, 243, rfl⟩
abbrev main_v115 : Ref sig .tc := ⟨.hbm, 244, rfl⟩
abbrev main_v116 : Ref sig .tc := ⟨.hbm, 245, rfl⟩
abbrev main_v117 : Ref sig .tc := ⟨.hbm, 246, rfl⟩
abbrev main_v118 : Ref sig .tc := ⟨.hbm, 247, rfl⟩
abbrev main_call4_c : Ref sig .tc := ⟨.hbm, 248, rfl⟩
abbrev main_call4_v0 : Ref sig .tc := ⟨.hbm, 249, rfl⟩
abbrev main_call4_v1 : Ref sig .tc := ⟨.hbm, 250, rfl⟩
abbrev main_call4_c_0 : Ref sig .tc := ⟨.hbm, 251, rfl⟩
abbrev main_call4_v2 : Ref sig .tc := ⟨.hbm, 252, rfl⟩
abbrev main_call4_v3 : Ref sig .tc := ⟨.hbm, 253, rfl⟩
abbrev main_call4_v4 : Ref sig .tc := ⟨.hbm, 254, rfl⟩
abbrev main_call4_v5 : Ref sig .tc := ⟨.hbm, 255, rfl⟩
abbrev main_call4_c_1 : Ref sig .tc := ⟨.hbm, 256, rfl⟩
abbrev main_call4_c_2 : Ref sig .tc := ⟨.hbm, 257, rfl⟩
abbrev main_call4_v6 : Ref sig .tc := ⟨.hbm, 258, rfl⟩
abbrev main_call4_v7 : Ref sig .tc := ⟨.hbm, 259, rfl⟩
abbrev main_call4_v8 : Ref sig .tc := ⟨.hbm, 260, rfl⟩
abbrev main_call4_v9 : Ref sig .tc := ⟨.hbm, 261, rfl⟩
abbrev main_call4_v10 : Ref sig .tc := ⟨.hbm, 262, rfl⟩
abbrev main_call4_v11 : Ref sig .tc := ⟨.hbm, 263, rfl⟩
abbrev main_call4_c_3 : Ref sig .tc := ⟨.hbm, 264, rfl⟩
abbrev main_call4_v12 : Ref sig .tc := ⟨.hbm, 265, rfl⟩
abbrev main_call4_v13 : Ref sig .tc := ⟨.hbm, 266, rfl⟩
abbrev main_call4_v14 : Ref sig .tc := ⟨.hbm, 267, rfl⟩
abbrev main_call4_cst : Ref sig .tc := ⟨.hbm, 268, rfl⟩
abbrev main_call4_v15 : Ref sig .tc := ⟨.hbm, 269, rfl⟩
abbrev main_v119 : Ref sig .tc := ⟨.hbm, 270, rfl⟩
abbrev main_v120 : Ref sig .tc := ⟨.hbm, 271, rfl⟩
abbrev main_v121 : Ref sig .tc := ⟨.hbm, 272, rfl⟩
abbrev main_v122 : Ref sig .tc := ⟨.hbm, 273, rfl⟩
abbrev main_cst_20 : Ref sig .tc := ⟨.hbm, 274, rfl⟩
abbrev main_v123 : Ref sig .tc := ⟨.hbm, 275, rfl⟩
abbrev main_v124 : Ref sig .tc := ⟨.hbm, 276, rfl⟩
abbrev main_v125 : Ref sig .tc := ⟨.hbm, 277, rfl⟩
abbrev main_v126 : Ref sig .tc := ⟨.hbm, 278, rfl⟩
abbrev main_v127 : Ref sig .tc := ⟨.hbm, 279, rfl⟩
abbrev main_v128 : Ref sig .tc := ⟨.hbm, 280, rfl⟩
abbrev main_v129 : Ref sig .tc := ⟨.hbm, 281, rfl⟩
abbrev main_v130 : Ref sig .tc := ⟨.hbm, 282, rfl⟩
abbrev main_v131 : Ref sig .tc := ⟨.hbm, 283, rfl⟩
abbrev main_v132 : Ref sig .tc := ⟨.hbm, 284, rfl⟩
abbrev main_v133 : Ref sig .tc := ⟨.hbm, 285, rfl⟩
abbrev main_v134 : Ref sig .tc := ⟨.hbm, 286, rfl⟩
abbrev main_v135 : Ref sig .tc := ⟨.hbm, 287, rfl⟩
abbrev main_v136 : Ref sig .tc := ⟨.hbm, 288, rfl⟩
abbrev main_c_21 : Ref sig .tc := ⟨.hbm, 289, rfl⟩
abbrev main_v137 : Ref sig .tc := ⟨.hbm, 290, rfl⟩
abbrev main_v138 : Ref sig .tc := ⟨.hbm, 291, rfl⟩
abbrev main_c_22 : Ref sig .tc := ⟨.hbm, 292, rfl⟩
abbrev main_v139 : Ref sig .tc := ⟨.hbm, 293, rfl⟩
abbrev main_v140 : Ref sig .tc := ⟨.hbm, 294, rfl⟩
abbrev main_v141 : Ref sig .tc := ⟨.hbm, 295, rfl⟩
abbrev main_v142 : Ref sig .tc := ⟨.hbm, 296, rfl⟩
abbrev main_v143 : Ref sig .tc := ⟨.hbm, 297, rfl⟩
abbrev main_c_23 : Ref sig .tc := ⟨.hbm, 298, rfl⟩
abbrev main_v144 : Ref sig .tc := ⟨.hbm, 299, rfl⟩
abbrev main_v145 : Ref sig .tc := ⟨.hbm, 300, rfl⟩
abbrev main_c_24 : Ref sig .tc := ⟨.hbm, 301, rfl⟩
abbrev main_v146 : Ref sig .tc := ⟨.hbm, 302, rfl⟩
abbrev main_v147 : Ref sig .tc := ⟨.hbm, 303, rfl⟩
abbrev main_v148 : Ref sig .tc := ⟨.hbm, 304, rfl⟩
abbrev main_v149 : Ref sig .tc := ⟨.hbm, 305, rfl⟩
abbrev main_v150 : Ref sig .tc := ⟨.hbm, 306, rfl⟩
abbrev main_v151 : Ref sig .tc := ⟨.hbm, 307, rfl⟩
abbrev main_call5_c : Ref sig .tc := ⟨.hbm, 308, rfl⟩
abbrev main_call5_v0 : Ref sig .tc := ⟨.hbm, 309, rfl⟩
abbrev main_call5_v1 : Ref sig .tc := ⟨.hbm, 310, rfl⟩
abbrev main_call5_c_0 : Ref sig .tc := ⟨.hbm, 311, rfl⟩
abbrev main_call5_v2 : Ref sig .tc := ⟨.hbm, 312, rfl⟩
abbrev main_call5_v3 : Ref sig .tc := ⟨.hbm, 313, rfl⟩
abbrev main_call5_v4 : Ref sig .tc := ⟨.hbm, 314, rfl⟩
abbrev main_call5_v5 : Ref sig .tc := ⟨.hbm, 315, rfl⟩
abbrev main_call5_c_1 : Ref sig .tc := ⟨.hbm, 316, rfl⟩
abbrev main_call5_c_2 : Ref sig .tc := ⟨.hbm, 317, rfl⟩
abbrev main_call5_v6 : Ref sig .tc := ⟨.hbm, 318, rfl⟩
abbrev main_call5_v7 : Ref sig .tc := ⟨.hbm, 319, rfl⟩
abbrev main_call5_v8 : Ref sig .tc := ⟨.hbm, 320, rfl⟩
abbrev main_call5_v9 : Ref sig .tc := ⟨.hbm, 321, rfl⟩
abbrev main_call5_v10 : Ref sig .tc := ⟨.hbm, 322, rfl⟩
abbrev main_call5_v11 : Ref sig .tc := ⟨.hbm, 323, rfl⟩
abbrev main_call5_c_3 : Ref sig .tc := ⟨.hbm, 324, rfl⟩
abbrev main_call5_v12 : Ref sig .tc := ⟨.hbm, 325, rfl⟩
abbrev main_call5_v13 : Ref sig .tc := ⟨.hbm, 326, rfl⟩
abbrev main_call5_v14 : Ref sig .tc := ⟨.hbm, 327, rfl⟩
abbrev main_call5_cst : Ref sig .tc := ⟨.hbm, 328, rfl⟩
abbrev main_call5_v15 : Ref sig .tc := ⟨.hbm, 329, rfl⟩
abbrev main_v152 : Ref sig .tc := ⟨.hbm, 330, rfl⟩
abbrev main_v153 : Ref sig .tc := ⟨.hbm, 331, rfl⟩
abbrev main_v154 : Ref sig .tc := ⟨.hbm, 332, rfl⟩
abbrev main_v155 : Ref sig .tc := ⟨.hbm, 333, rfl⟩
abbrev main_cst_25 : Ref sig .tc := ⟨.hbm, 334, rfl⟩
abbrev main_v156 : Ref sig .tc := ⟨.hbm, 335, rfl⟩
abbrev main_v157 : Ref sig .tc := ⟨.hbm, 336, rfl⟩
abbrev main_v158 : Ref sig .tc := ⟨.hbm, 337, rfl⟩
abbrev main_v159 : Ref sig .tc := ⟨.hbm, 338, rfl⟩
abbrev main_v160 : Ref sig .tc := ⟨.hbm, 339, rfl⟩
abbrev main_v161 : Ref sig .tc := ⟨.hbm, 340, rfl⟩
abbrev main_v162 : Ref sig .tc := ⟨.hbm, 341, rfl⟩
abbrev main_v163 : Ref sig .tc := ⟨.hbm, 342, rfl⟩
abbrev main_v164 : Ref sig .tc := ⟨.hbm, 343, rfl⟩
abbrev main_v165 : Ref sig .tc := ⟨.hbm, 344, rfl⟩
abbrev main_v166 : Ref sig .tc := ⟨.hbm, 345, rfl⟩
abbrev main_v167 : Ref sig .tc := ⟨.hbm, 346, rfl⟩
abbrev main_v168 : Ref sig .tc := ⟨.hbm, 347, rfl⟩
abbrev main_v169 : Ref sig .tc := ⟨.hbm, 348, rfl⟩
abbrev main_c_26 : Ref sig .tc := ⟨.hbm, 349, rfl⟩
abbrev main_v170 : Ref sig .tc := ⟨.hbm, 350, rfl⟩
abbrev main_v171 : Ref sig .tc := ⟨.hbm, 351, rfl⟩
abbrev main_c_27 : Ref sig .tc := ⟨.hbm, 352, rfl⟩
abbrev main_v172 : Ref sig .tc := ⟨.hbm, 353, rfl⟩
abbrev main_v173 : Ref sig .tc := ⟨.hbm, 354, rfl⟩
abbrev main_v174 : Ref sig .tc := ⟨.hbm, 355, rfl⟩
abbrev main_v175 : Ref sig .tc := ⟨.hbm, 356, rfl⟩
abbrev main_v176 : Ref sig .tc := ⟨.hbm, 357, rfl⟩
abbrev main_c_28 : Ref sig .tc := ⟨.hbm, 358, rfl⟩
abbrev main_v177 : Ref sig .tc := ⟨.hbm, 359, rfl⟩
abbrev main_v178 : Ref sig .tc := ⟨.hbm, 360, rfl⟩
abbrev main_c_29 : Ref sig .tc := ⟨.hbm, 361, rfl⟩
abbrev main_v179 : Ref sig .tc := ⟨.hbm, 362, rfl⟩
abbrev main_v180 : Ref sig .tc := ⟨.hbm, 363, rfl⟩
abbrev main_v181 : Ref sig .tc := ⟨.hbm, 364, rfl⟩
abbrev main_v182 : Ref sig .tc := ⟨.hbm, 365, rfl⟩
abbrev main_v183 : Ref sig .tc := ⟨.hbm, 366, rfl⟩
abbrev main_v184 : Ref sig .tc := ⟨.hbm, 367, rfl⟩
abbrev main_call6_c : Ref sig .tc := ⟨.hbm, 368, rfl⟩
abbrev main_call6_v0 : Ref sig .tc := ⟨.hbm, 369, rfl⟩
abbrev main_call6_v1 : Ref sig .tc := ⟨.hbm, 370, rfl⟩
abbrev main_call6_c_0 : Ref sig .tc := ⟨.hbm, 371, rfl⟩
abbrev main_call6_v2 : Ref sig .tc := ⟨.hbm, 372, rfl⟩
abbrev main_call6_v3 : Ref sig .tc := ⟨.hbm, 373, rfl⟩
abbrev main_call6_v4 : Ref sig .tc := ⟨.hbm, 374, rfl⟩
abbrev main_call6_v5 : Ref sig .tc := ⟨.hbm, 375, rfl⟩
abbrev main_call6_c_1 : Ref sig .tc := ⟨.hbm, 376, rfl⟩
abbrev main_call6_c_2 : Ref sig .tc := ⟨.hbm, 377, rfl⟩
abbrev main_call6_v6 : Ref sig .tc := ⟨.hbm, 378, rfl⟩
abbrev main_call6_v7 : Ref sig .tc := ⟨.hbm, 379, rfl⟩
abbrev main_call6_v8 : Ref sig .tc := ⟨.hbm, 380, rfl⟩
abbrev main_call6_v9 : Ref sig .tc := ⟨.hbm, 381, rfl⟩
abbrev main_call6_v10 : Ref sig .tc := ⟨.hbm, 382, rfl⟩
abbrev main_call6_v11 : Ref sig .tc := ⟨.hbm, 383, rfl⟩
abbrev main_call6_c_3 : Ref sig .tc := ⟨.hbm, 384, rfl⟩
abbrev main_call6_v12 : Ref sig .tc := ⟨.hbm, 385, rfl⟩
abbrev main_call6_v13 : Ref sig .tc := ⟨.hbm, 386, rfl⟩
abbrev main_call6_v14 : Ref sig .tc := ⟨.hbm, 387, rfl⟩
abbrev main_call6_cst : Ref sig .tc := ⟨.hbm, 388, rfl⟩
abbrev main_call6_v15 : Ref sig .tc := ⟨.hbm, 389, rfl⟩
abbrev main_v185 : Ref sig .tc := ⟨.hbm, 390, rfl⟩
abbrev main_v186 : Ref sig .tc := ⟨.hbm, 391, rfl⟩
abbrev main_v187 : Ref sig .tc := ⟨.hbm, 392, rfl⟩
abbrev main_v188 : Ref sig .tc := ⟨.hbm, 393, rfl⟩
abbrev main_cst_30 : Ref sig .tc := ⟨.hbm, 394, rfl⟩
abbrev main_v189 : Ref sig .tc := ⟨.hbm, 395, rfl⟩
abbrev main_v190 : Ref sig .tc := ⟨.hbm, 396, rfl⟩
abbrev main_v191 : Ref sig .tc := ⟨.hbm, 397, rfl⟩
abbrev main_v192 : Ref sig .tc := ⟨.hbm, 398, rfl⟩
abbrev main_v193 : Ref sig .tc := ⟨.hbm, 399, rfl⟩
abbrev main_v194 : Ref sig .tc := ⟨.hbm, 400, rfl⟩
abbrev main_v195 : Ref sig .tc := ⟨.hbm, 401, rfl⟩
abbrev main_v196 : Ref sig .tc := ⟨.hbm, 402, rfl⟩
abbrev main_v197 : Ref sig .tc := ⟨.hbm, 403, rfl⟩
abbrev main_v198 : Ref sig .tc := ⟨.hbm, 404, rfl⟩
abbrev main_v199 : Ref sig .tc := ⟨.hbm, 405, rfl⟩
abbrev main_v200 : Ref sig .tc := ⟨.hbm, 406, rfl⟩
abbrev main_v201 : Ref sig .tc := ⟨.hbm, 407, rfl⟩
abbrev main_v202 : Ref sig .tc := ⟨.hbm, 408, rfl⟩
abbrev main_c_31 : Ref sig .tc := ⟨.hbm, 409, rfl⟩
abbrev main_v203 : Ref sig .tc := ⟨.hbm, 410, rfl⟩
abbrev main_v204 : Ref sig .tc := ⟨.hbm, 411, rfl⟩
abbrev main_c_32 : Ref sig .tc := ⟨.hbm, 412, rfl⟩
abbrev main_v205 : Ref sig .tc := ⟨.hbm, 413, rfl⟩
abbrev main_v206 : Ref sig .tc := ⟨.hbm, 414, rfl⟩
abbrev main_v207 : Ref sig .tc := ⟨.hbm, 415, rfl⟩
abbrev main_v208 : Ref sig .tc := ⟨.hbm, 416, rfl⟩
abbrev main_v209 : Ref sig .tc := ⟨.hbm, 417, rfl⟩
abbrev main_c_33 : Ref sig .tc := ⟨.hbm, 418, rfl⟩
abbrev main_v210 : Ref sig .tc := ⟨.hbm, 419, rfl⟩
abbrev main_v211 : Ref sig .tc := ⟨.hbm, 420, rfl⟩
abbrev main_c_34 : Ref sig .tc := ⟨.hbm, 421, rfl⟩
abbrev main_v212 : Ref sig .tc := ⟨.hbm, 422, rfl⟩
abbrev main_v213 : Ref sig .tc := ⟨.hbm, 423, rfl⟩
abbrev main_v214 : Ref sig .tc := ⟨.hbm, 424, rfl⟩
abbrev main_v215 : Ref sig .tc := ⟨.hbm, 425, rfl⟩
abbrev main_v216 : Ref sig .tc := ⟨.hbm, 426, rfl⟩
abbrev main_v217 : Ref sig .tc := ⟨.hbm, 427, rfl⟩
abbrev main_call7_c : Ref sig .tc := ⟨.hbm, 428, rfl⟩
abbrev main_call7_v0 : Ref sig .tc := ⟨.hbm, 429, rfl⟩
abbrev main_call7_v1 : Ref sig .tc := ⟨.hbm, 430, rfl⟩
abbrev main_call7_c_0 : Ref sig .tc := ⟨.hbm, 431, rfl⟩
abbrev main_call7_v2 : Ref sig .tc := ⟨.hbm, 432, rfl⟩
abbrev main_call7_v3 : Ref sig .tc := ⟨.hbm, 433, rfl⟩
abbrev main_call7_v4 : Ref sig .tc := ⟨.hbm, 434, rfl⟩
abbrev main_call7_v5 : Ref sig .tc := ⟨.hbm, 435, rfl⟩
abbrev main_call7_c_1 : Ref sig .tc := ⟨.hbm, 436, rfl⟩
abbrev main_call7_c_2 : Ref sig .tc := ⟨.hbm, 437, rfl⟩
abbrev main_call7_v6 : Ref sig .tc := ⟨.hbm, 438, rfl⟩
abbrev main_call7_v7 : Ref sig .tc := ⟨.hbm, 439, rfl⟩
abbrev main_call7_v8 : Ref sig .tc := ⟨.hbm, 440, rfl⟩
abbrev main_call7_v9 : Ref sig .tc := ⟨.hbm, 441, rfl⟩
abbrev main_call7_v10 : Ref sig .tc := ⟨.hbm, 442, rfl⟩
abbrev main_call7_v11 : Ref sig .tc := ⟨.hbm, 443, rfl⟩
abbrev main_call7_c_3 : Ref sig .tc := ⟨.hbm, 444, rfl⟩
abbrev main_call7_v12 : Ref sig .tc := ⟨.hbm, 445, rfl⟩
abbrev main_call7_v13 : Ref sig .tc := ⟨.hbm, 446, rfl⟩
abbrev main_call7_v14 : Ref sig .tc := ⟨.hbm, 447, rfl⟩
abbrev main_call7_cst : Ref sig .tc := ⟨.hbm, 448, rfl⟩
abbrev main_call7_v15 : Ref sig .tc := ⟨.hbm, 449, rfl⟩
abbrev main_v218 : Ref sig .tc := ⟨.hbm, 450, rfl⟩
abbrev main_v219 : Ref sig .tc := ⟨.hbm, 451, rfl⟩
abbrev main_v220 : Ref sig .tc := ⟨.hbm, 452, rfl⟩
abbrev main_v221 : Ref sig .tc := ⟨.hbm, 453, rfl⟩
abbrev main_cst_35 : Ref sig .tc := ⟨.hbm, 454, rfl⟩
abbrev main_v222 : Ref sig .tc := ⟨.hbm, 455, rfl⟩
abbrev main_v223 : Ref sig .tc := ⟨.hbm, 456, rfl⟩
abbrev main_v224 : Ref sig .tc := ⟨.hbm, 457, rfl⟩
abbrev main_v225 : Ref sig .tc := ⟨.hbm, 458, rfl⟩
abbrev main_v226 : Ref sig .tc := ⟨.hbm, 459, rfl⟩
abbrev main_v227 : Ref sig .tc := ⟨.hbm, 460, rfl⟩
abbrev main_v228 : Ref sig .tc := ⟨.hbm, 461, rfl⟩
abbrev main_v229 : Ref sig .tc := ⟨.hbm, 462, rfl⟩
abbrev main_v230 : Ref sig .tc := ⟨.hbm, 463, rfl⟩
abbrev main_v231 : Ref sig .tc := ⟨.hbm, 464, rfl⟩
abbrev main_v232 : Ref sig .tc := ⟨.hbm, 465, rfl⟩
abbrev main_v233 : Ref sig .tc := ⟨.hbm, 466, rfl⟩
abbrev main_v234 : Ref sig .tc := ⟨.hbm, 467, rfl⟩
abbrev main_v235 : Ref sig .tc := ⟨.hbm, 468, rfl⟩
abbrev main_c_36 : Ref sig .tc := ⟨.hbm, 469, rfl⟩
abbrev main_v236 : Ref sig .tc := ⟨.hbm, 470, rfl⟩
abbrev main_v237 : Ref sig .tc := ⟨.hbm, 471, rfl⟩
abbrev main_c_37 : Ref sig .tc := ⟨.hbm, 472, rfl⟩
abbrev main_v238 : Ref sig .tc := ⟨.hbm, 473, rfl⟩
abbrev main_v239 : Ref sig .tc := ⟨.hbm, 474, rfl⟩
abbrev main_v240 : Ref sig .tc := ⟨.hbm, 475, rfl⟩
abbrev main_v241 : Ref sig .tc := ⟨.hbm, 476, rfl⟩
abbrev main_v242 : Ref sig .tc := ⟨.hbm, 477, rfl⟩
abbrev main_c_38 : Ref sig .tc := ⟨.hbm, 478, rfl⟩
abbrev main_v243 : Ref sig .tc := ⟨.hbm, 479, rfl⟩
abbrev main_v244 : Ref sig .tc := ⟨.hbm, 480, rfl⟩
abbrev main_c_39 : Ref sig .tc := ⟨.hbm, 481, rfl⟩
abbrev main_v245 : Ref sig .tc := ⟨.hbm, 482, rfl⟩
abbrev main_v246 : Ref sig .tc := ⟨.hbm, 483, rfl⟩
abbrev main_v247 : Ref sig .tc := ⟨.hbm, 484, rfl⟩
abbrev main_v248 : Ref sig .tc := ⟨.hbm, 485, rfl⟩
abbrev main_v249 : Ref sig .tc := ⟨.hbm, 486, rfl⟩
abbrev main_v250 : Ref sig .tc := ⟨.hbm, 487, rfl⟩
abbrev main_call8_c : Ref sig .tc := ⟨.hbm, 488, rfl⟩
abbrev main_call8_v0 : Ref sig .tc := ⟨.hbm, 489, rfl⟩
abbrev main_call8_v1 : Ref sig .tc := ⟨.hbm, 490, rfl⟩
abbrev main_call8_c_0 : Ref sig .tc := ⟨.hbm, 491, rfl⟩
abbrev main_call8_v2 : Ref sig .tc := ⟨.hbm, 492, rfl⟩
abbrev main_call8_v3 : Ref sig .tc := ⟨.hbm, 493, rfl⟩
abbrev main_call8_v4 : Ref sig .tc := ⟨.hbm, 494, rfl⟩
abbrev main_call8_v5 : Ref sig .tc := ⟨.hbm, 495, rfl⟩
abbrev main_call8_c_1 : Ref sig .tc := ⟨.hbm, 496, rfl⟩
abbrev main_call8_c_2 : Ref sig .tc := ⟨.hbm, 497, rfl⟩
abbrev main_call8_v6 : Ref sig .tc := ⟨.hbm, 498, rfl⟩
abbrev main_call8_v7 : Ref sig .tc := ⟨.hbm, 499, rfl⟩
abbrev main_call8_v8 : Ref sig .tc := ⟨.hbm, 500, rfl⟩
abbrev main_call8_v9 : Ref sig .tc := ⟨.hbm, 501, rfl⟩
abbrev main_call8_v10 : Ref sig .tc := ⟨.hbm, 502, rfl⟩
abbrev main_call8_v11 : Ref sig .tc := ⟨.hbm, 503, rfl⟩
abbrev main_call8_c_3 : Ref sig .tc := ⟨.hbm, 504, rfl⟩
abbrev main_call8_v12 : Ref sig .tc := ⟨.hbm, 505, rfl⟩
abbrev main_call8_v13 : Ref sig .tc := ⟨.hbm, 506, rfl⟩
abbrev main_call8_v14 : Ref sig .tc := ⟨.hbm, 507, rfl⟩
abbrev main_call8_cst : Ref sig .tc := ⟨.hbm, 508, rfl⟩
abbrev main_call8_v15 : Ref sig .tc := ⟨.hbm, 509, rfl⟩
abbrev main_v251 : Ref sig .tc := ⟨.hbm, 510, rfl⟩
abbrev main_v252 : Ref sig .tc := ⟨.hbm, 511, rfl⟩
abbrev main_v253 : Ref sig .tc := ⟨.hbm, 512, rfl⟩
abbrev main_v254 : Ref sig .tc := ⟨.hbm, 513, rfl⟩
abbrev main_cst_40 : Ref sig .tc := ⟨.hbm, 514, rfl⟩
abbrev main_v255 : Ref sig .tc := ⟨.hbm, 515, rfl⟩
abbrev main_v256 : Ref sig .tc := ⟨.hbm, 516, rfl⟩
abbrev main_v257 : Ref sig .tc := ⟨.hbm, 517, rfl⟩
abbrev main_v258 : Ref sig .tc := ⟨.hbm, 518, rfl⟩
abbrev main_v259 : Ref sig .tc := ⟨.hbm, 519, rfl⟩
abbrev main_v260 : Ref sig .tc := ⟨.hbm, 520, rfl⟩
abbrev main_v261 : Ref sig .tc := ⟨.hbm, 521, rfl⟩
abbrev main_v262 : Ref sig .tc := ⟨.hbm, 522, rfl⟩
abbrev main_v263 : Ref sig .tc := ⟨.hbm, 523, rfl⟩
abbrev main_v264 : Ref sig .tc := ⟨.hbm, 524, rfl⟩
abbrev main_v265 : Ref sig .tc := ⟨.hbm, 525, rfl⟩
abbrev main_v266 : Ref sig .tc := ⟨.hbm, 526, rfl⟩
abbrev main_v267 : Ref sig .tc := ⟨.hbm, 527, rfl⟩
abbrev main_v268 : Ref sig .tc := ⟨.hbm, 528, rfl⟩
abbrev main_v269 : Ref sig .tc := ⟨.hbm, 529, rfl⟩
abbrev main_v270 : Ref sig .tc := ⟨.hbm, 530, rfl⟩
abbrev main_cst_41 : Ref sig .tc := ⟨.hbm, 531, rfl⟩
abbrev main_v271 : Ref sig .tc := ⟨.hbm, 532, rfl⟩
abbrev main_v272 : Ref sig .tc := ⟨.hbm, 533, rfl⟩
abbrev main_cst_42 : Ref sig .tc := ⟨.hbm, 534, rfl⟩
abbrev main_v273 : Ref sig .tc := ⟨.hbm, 535, rfl⟩
abbrev main_v274 : Ref sig .tc := ⟨.hbm, 536, rfl⟩
abbrev main_c_43 : Ref sig .tc := ⟨.hbm, 537, rfl⟩
abbrev main_call9_cst : Ref sig .tc := ⟨.hbm, 538, rfl⟩
abbrev main_call9_v0 : Ref sig .tc := ⟨.hbm, 539, rfl⟩
abbrev main_call9_v1 : Ref sig .tc := ⟨.hbm, 540, rfl⟩
abbrev main_call9_cst_0 : Ref sig .tc := ⟨.hbm, 541, rfl⟩
abbrev main_call9_v2 : Ref sig .tc := ⟨.hbm, 542, rfl⟩
abbrev main_call9_v3 : Ref sig .tc := ⟨.hbm, 543, rfl⟩
abbrev main_call9_v4 : Ref sig .tc := ⟨.hbm, 544, rfl⟩
abbrev main_call9_v5 : Ref sig .tc := ⟨.hbm, 545, rfl⟩
abbrev main_call9_v6 : Ref sig .tc := ⟨.hbm, 546, rfl⟩
abbrev main_call9_v7 : Ref sig .tc := ⟨.hbm, 547, rfl⟩
abbrev main_call9_cst_1 : Ref sig .tc := ⟨.hbm, 548, rfl⟩
abbrev main_call9_v8 : Ref sig .tc := ⟨.hbm, 549, rfl⟩
abbrev main_call9_cst_2 : Ref sig .tc := ⟨.hbm, 550, rfl⟩
abbrev main_call9_v9 : Ref sig .tc := ⟨.hbm, 551, rfl⟩
abbrev main_call9_v10 : Ref sig .tc := ⟨.hbm, 552, rfl⟩
abbrev main_call9_v11 : Ref sig .tc := ⟨.hbm, 553, rfl⟩
abbrev main_call9_v12 : Ref sig .tc := ⟨.hbm, 554, rfl⟩
abbrev main_call9_cst_3 : Ref sig .tc := ⟨.hbm, 555, rfl⟩
abbrev main_call9_v13 : Ref sig .tc := ⟨.hbm, 556, rfl⟩
abbrev main_call9_cst_4 : Ref sig .tc := ⟨.hbm, 557, rfl⟩
abbrev main_call9_call0_v0 : Ref sig .tc := ⟨.hbm, 558, rfl⟩
abbrev main_call9_call0_v1 : Ref sig .tc := ⟨.hbm, 559, rfl⟩
abbrev main_v275 : Ref sig .tc := ⟨.hbm, 560, rfl⟩
abbrev main_v276 : Ref sig .tc := ⟨.hbm, 561, rfl⟩
abbrev main_v277 : Ref sig .tc := ⟨.hbm, 562, rfl⟩
abbrev main_v278 : Ref sig .tc := ⟨.hbm, 563, rfl⟩
abbrev main_v279 : Ref sig .tc := ⟨.hbm, 564, rfl⟩
abbrev main_v280 : Ref sig .tc := ⟨.hbm, 565, rfl⟩
abbrev main_v281 : Ref sig .tc := ⟨.hbm, 566, rfl⟩
abbrev main_v282 : Ref sig .tc := ⟨.hbm, 567, rfl⟩
abbrev main_v283 : Ref sig .tc := ⟨.hbm, 568, rfl⟩
abbrev main_v284 : Ref sig .tc := ⟨.hbm, 569, rfl⟩
abbrev main_v285 : Ref sig .tc := ⟨.hbm, 570, rfl⟩
abbrev main_v286 : Ref sig .tc := ⟨.hbm, 571, rfl⟩
abbrev main_v287 : Ref sig .tc := ⟨.hbm, 572, rfl⟩
abbrev main_v288 : Ref sig .tc := ⟨.hbm, 573, rfl⟩
abbrev main_cst_44 : Ref sig .tc := ⟨.hbm, 574, rfl⟩
abbrev main_v289 : Ref sig .tc := ⟨.hbm, 575, rfl⟩
abbrev main_v290 : Ref sig .tc := ⟨.hbm, 576, rfl⟩
abbrev main_cst_45 : Ref sig .tc := ⟨.hbm, 577, rfl⟩
abbrev main_v291 : Ref sig .tc := ⟨.hbm, 578, rfl⟩
abbrev main_v292 : Ref sig .tc := ⟨.hbm, 579, rfl⟩
abbrev main_c_46 : Ref sig .tc := ⟨.hbm, 580, rfl⟩
abbrev main_call10_cst : Ref sig .tc := ⟨.hbm, 581, rfl⟩
abbrev main_call10_v0 : Ref sig .tc := ⟨.hbm, 582, rfl⟩
abbrev main_call10_v1 : Ref sig .tc := ⟨.hbm, 583, rfl⟩
abbrev main_call10_cst_0 : Ref sig .tc := ⟨.hbm, 584, rfl⟩
abbrev main_call10_v2 : Ref sig .tc := ⟨.hbm, 585, rfl⟩
abbrev main_call10_v3 : Ref sig .tc := ⟨.hbm, 586, rfl⟩
abbrev main_call10_v4 : Ref sig .tc := ⟨.hbm, 587, rfl⟩
abbrev main_call10_v5 : Ref sig .tc := ⟨.hbm, 588, rfl⟩
abbrev main_call10_v6 : Ref sig .tc := ⟨.hbm, 589, rfl⟩
abbrev main_call10_v7 : Ref sig .tc := ⟨.hbm, 590, rfl⟩
abbrev main_call10_cst_1 : Ref sig .tc := ⟨.hbm, 591, rfl⟩
abbrev main_call10_v8 : Ref sig .tc := ⟨.hbm, 592, rfl⟩
abbrev main_call10_cst_2 : Ref sig .tc := ⟨.hbm, 593, rfl⟩
abbrev main_call10_v9 : Ref sig .tc := ⟨.hbm, 594, rfl⟩
abbrev main_call10_v10 : Ref sig .tc := ⟨.hbm, 595, rfl⟩
abbrev main_call10_v11 : Ref sig .tc := ⟨.hbm, 596, rfl⟩
abbrev main_call10_v12 : Ref sig .tc := ⟨.hbm, 597, rfl⟩
abbrev main_call10_cst_3 : Ref sig .tc := ⟨.hbm, 598, rfl⟩
abbrev main_call10_v13 : Ref sig .tc := ⟨.hbm, 599, rfl⟩
abbrev main_call10_cst_4 : Ref sig .tc := ⟨.hbm, 600, rfl⟩
abbrev main_call10_call0_v0 : Ref sig .tc := ⟨.hbm, 601, rfl⟩
abbrev main_call10_call0_v1 : Ref sig .tc := ⟨.hbm, 602, rfl⟩
abbrev main_v293 : Ref sig .tc := ⟨.hbm, 603, rfl⟩
abbrev main_v294 : Ref sig .tc := ⟨.hbm, 604, rfl⟩
abbrev main_v295 : Ref sig .tc := ⟨.hbm, 605, rfl⟩
abbrev main_v296 : Ref sig .tc := ⟨.hbm, 606, rfl⟩
abbrev main_v297 : Ref sig .tc := ⟨.hbm, 607, rfl⟩
abbrev main_v298 : Ref sig .tc := ⟨.hbm, 608, rfl⟩
abbrev main_v299 : Ref sig .tc := ⟨.hbm, 609, rfl⟩
abbrev main_v300 : Ref sig .tc := ⟨.hbm, 610, rfl⟩
abbrev main_v301 : Ref sig .tc := ⟨.hbm, 611, rfl⟩
abbrev main_v302 : Ref sig .tc := ⟨.hbm, 612, rfl⟩
abbrev main_v303 : Ref sig .tc := ⟨.hbm, 613, rfl⟩
abbrev main_v304 : Ref sig .tc := ⟨.hbm, 614, rfl⟩
abbrev main_v305 : Ref sig .tc := ⟨.hbm, 615, rfl⟩
abbrev main_v306 : Ref sig .tc := ⟨.hbm, 616, rfl⟩
abbrev main_cst_47 : Ref sig .tc := ⟨.hbm, 617, rfl⟩
abbrev main_v307 : Ref sig .tc := ⟨.hbm, 618, rfl⟩
abbrev main_v308 : Ref sig .tc := ⟨.hbm, 619, rfl⟩
abbrev main_cst_48 : Ref sig .tc := ⟨.hbm, 620, rfl⟩
abbrev main_v309 : Ref sig .tc := ⟨.hbm, 621, rfl⟩
abbrev main_v310 : Ref sig .tc := ⟨.hbm, 622, rfl⟩
abbrev main_c_49 : Ref sig .tc := ⟨.hbm, 623, rfl⟩
abbrev main_call11_cst : Ref sig .tc := ⟨.hbm, 624, rfl⟩
abbrev main_call11_v0 : Ref sig .tc := ⟨.hbm, 625, rfl⟩
abbrev main_call11_v1 : Ref sig .tc := ⟨.hbm, 626, rfl⟩
abbrev main_call11_cst_0 : Ref sig .tc := ⟨.hbm, 627, rfl⟩
abbrev main_call11_v2 : Ref sig .tc := ⟨.hbm, 628, rfl⟩
abbrev main_call11_v3 : Ref sig .tc := ⟨.hbm, 629, rfl⟩
abbrev main_call11_v4 : Ref sig .tc := ⟨.hbm, 630, rfl⟩
abbrev main_call11_v5 : Ref sig .tc := ⟨.hbm, 631, rfl⟩
abbrev main_call11_v6 : Ref sig .tc := ⟨.hbm, 632, rfl⟩
abbrev main_call11_v7 : Ref sig .tc := ⟨.hbm, 633, rfl⟩
abbrev main_call11_cst_1 : Ref sig .tc := ⟨.hbm, 634, rfl⟩
abbrev main_call11_v8 : Ref sig .tc := ⟨.hbm, 635, rfl⟩
abbrev main_call11_cst_2 : Ref sig .tc := ⟨.hbm, 636, rfl⟩
abbrev main_call11_v9 : Ref sig .tc := ⟨.hbm, 637, rfl⟩
abbrev main_call11_v10 : Ref sig .tc := ⟨.hbm, 638, rfl⟩
abbrev main_call11_v11 : Ref sig .tc := ⟨.hbm, 639, rfl⟩
abbrev main_call11_v12 : Ref sig .tc := ⟨.hbm, 640, rfl⟩
abbrev main_call11_cst_3 : Ref sig .tc := ⟨.hbm, 641, rfl⟩
abbrev main_call11_v13 : Ref sig .tc := ⟨.hbm, 642, rfl⟩
abbrev main_call11_cst_4 : Ref sig .tc := ⟨.hbm, 643, rfl⟩
abbrev main_call11_call0_v0 : Ref sig .tc := ⟨.hbm, 644, rfl⟩
abbrev main_call11_call0_v1 : Ref sig .tc := ⟨.hbm, 645, rfl⟩
abbrev main_v311 : Ref sig .tc := ⟨.hbm, 646, rfl⟩
abbrev main_v312 : Ref sig .tc := ⟨.hbm, 647, rfl⟩
abbrev main_v313 : Ref sig .tc := ⟨.hbm, 648, rfl⟩
abbrev main_v314 : Ref sig .tc := ⟨.hbm, 649, rfl⟩
abbrev main_v315 : Ref sig .tc := ⟨.hbm, 650, rfl⟩
abbrev main_v316 : Ref sig .tc := ⟨.hbm, 651, rfl⟩
abbrev main_v317 : Ref sig .tc := ⟨.hbm, 652, rfl⟩
abbrev main_v318 : Ref sig .tc := ⟨.hbm, 653, rfl⟩
abbrev main_cst_50 : Ref sig .tc := ⟨.hbm, 654, rfl⟩
abbrev main_v319 : Ref sig .tc := ⟨.hbm, 655, rfl⟩
abbrev main_cst_51 : Ref sig .tc := ⟨.hbm, 656, rfl⟩
abbrev main_v320 : Ref sig .tc := ⟨.hbm, 657, rfl⟩
abbrev main_v321 : Ref sig .tc := ⟨.hbm, 658, rfl⟩
abbrev main_v322 : Ref sig .tc := ⟨.hbm, 659, rfl⟩
abbrev main_cst_52 : Ref sig .tc := ⟨.hbm, 660, rfl⟩
abbrev main_v323 : Ref sig .tc := ⟨.hbm, 661, rfl⟩
abbrev main_v324 : Ref sig .tc := ⟨.hbm, 662, rfl⟩
abbrev main_v325 : Ref sig .tc := ⟨.hbm, 663, rfl⟩
abbrev main_cst_53 : Ref sig .tc := ⟨.hbm, 664, rfl⟩
abbrev main_v326 : Ref sig .tc := ⟨.hbm, 665, rfl⟩
abbrev main_v327 : Ref sig .tc := ⟨.hbm, 666, rfl⟩
abbrev main_v328 : Ref sig .tc := ⟨.hbm, 667, rfl⟩
abbrev main_v329 : Ref sig .tc := ⟨.hbm, 668, rfl⟩
abbrev main_v330 : Ref sig .tc := ⟨.hbm, 669, rfl⟩
abbrev main_v331 : Ref sig .tc := ⟨.hbm, 670, rfl⟩
abbrev main_v332 : Ref sig .tc := ⟨.hbm, 671, rfl⟩
abbrev main_v333 : Ref sig .tc := ⟨.hbm, 672, rfl⟩
abbrev main_v334 : Ref sig .tc := ⟨.hbm, 673, rfl⟩
abbrev main_call12_cst : Ref sig .tc := ⟨.hbm, 674, rfl⟩
abbrev main_call12_v0 : Ref sig .tc := ⟨.hbm, 675, rfl⟩
abbrev main_v335 : Ref sig .tc := ⟨.hbm, 676, rfl⟩
abbrev main_v336 : Ref sig .tc := ⟨.hbm, 677, rfl⟩
abbrev main_v337 : Ref sig .tc := ⟨.hbm, 678, rfl⟩
abbrev main_v338 : Ref sig .tc := ⟨.hbm, 679, rfl⟩
abbrev main_v339 : Ref sig .tc := ⟨.hbm, 680, rfl⟩
abbrev main_call13_cst : Ref sig .tc := ⟨.hbm, 681, rfl⟩
abbrev main_call13_v0 : Ref sig .tc := ⟨.hbm, 682, rfl⟩
abbrev main_v340 : Ref sig .tc := ⟨.hbm, 683, rfl⟩
abbrev main_v341 : Ref sig .tc := ⟨.hbm, 684, rfl⟩
abbrev main_v342 : Ref sig .tc := ⟨.hbm, 685, rfl⟩
abbrev main_v343 : Ref sig .tc := ⟨.hbm, 686, rfl⟩
abbrev main_v344 : Ref sig .tc := ⟨.hbm, 687, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg5_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg2_1 : Ref sig .tc := ⟨.vmem, 53, rfl⟩
abbrev cc7_stg3_0 : Ref sig .tc := ⟨.vmem, 54, rfl⟩
abbrev cc7_stg4_0 : Ref sig .tc := ⟨.vmem, 55, rfl⟩
abbrev cc7_stg4_1 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg2_0 : Ref sig .tc := ⟨.vmem, 60, rfl⟩
abbrev cc8_stg3_0 : Ref sig .tc := ⟨.vmem, 61, rfl⟩
abbrev cc8_stg3_1 : Ref sig .tc := ⟨.vmem, 62, rfl⟩
abbrev cc9_stg0_0 : Ref sig .tc := ⟨.vmem, 63, rfl⟩
abbrev cc9_stg0_1 : Ref sig .tc := ⟨.vmem, 64, rfl⟩
abbrev cc9_stg1_0 : Ref sig .tc := ⟨.vmem, 65, rfl⟩
abbrev cc9_stg1_1 : Ref sig .tc := ⟨.vmem, 66, rfl⟩
abbrev cc9_stg2_0 : Ref sig .tc := ⟨.vmem, 67, rfl⟩
abbrev cc9_stg2_1 : Ref sig .tc := ⟨.vmem, 68, rfl⟩
abbrev cc9_stg3_0 : Ref sig .tc := ⟨.vmem, 69, rfl⟩
abbrev cc9_stg4_0 : Ref sig .tc := ⟨.vmem, 70, rfl⟩
abbrev cc9_stg4_1 : Ref sig .tc := ⟨.vmem, 71, rfl⟩
abbrev cc10_stg0_0 : Ref sig .tc := ⟨.vmem, 72, rfl⟩
abbrev cc10_stg0_1 : Ref sig .tc := ⟨.vmem, 73, rfl⟩
abbrev cc10_stg1_0 : Ref sig .tc := ⟨.vmem, 74, rfl⟩
abbrev cc10_stg2_0 : Ref sig .tc := ⟨.vmem, 75, rfl⟩
abbrev cc10_stg3_0 : Ref sig .tc := ⟨.vmem, 76, rfl⟩
abbrev cc10_stg3_1 : Ref sig .tc := ⟨.vmem, 77, rfl⟩
abbrev cc11_stg0_0 : Ref sig .tc := ⟨.vmem, 78, rfl⟩
abbrev cc11_stg0_1 : Ref sig .tc := ⟨.vmem, 79, rfl⟩
abbrev cc11_stg1_0 : Ref sig .tc := ⟨.vmem, 80, rfl⟩
abbrev cc11_stg1_1 : Ref sig .tc := ⟨.vmem, 81, rfl⟩
abbrev cc11_stg2_0 : Ref sig .tc := ⟨.vmem, 82, rfl⟩
abbrev cc11_stg2_1 : Ref sig .tc := ⟨.vmem, 83, rfl⟩
abbrev cc11_stg3_0 : Ref sig .tc := ⟨.vmem, 84, rfl⟩
abbrev cc11_stg4_0 : Ref sig .tc := ⟨.vmem, 85, rfl⟩
abbrev cc11_stg4_1 : Ref sig .tc := ⟨.vmem, 86, rfl⟩
abbrev cc12_stg0_0 : Ref sig .tc := ⟨.vmem, 87, rfl⟩
abbrev cc12_stg0_1 : Ref sig .tc := ⟨.vmem, 88, rfl⟩
abbrev cc12_stg1_0 : Ref sig .tc := ⟨.vmem, 89, rfl⟩
abbrev cc12_stg2_0 : Ref sig .tc := ⟨.vmem, 90, rfl⟩
abbrev cc12_stg3_0 : Ref sig .tc := ⟨.vmem, 91, rfl⟩
abbrev cc12_stg3_1 : Ref sig .tc := ⟨.vmem, 92, rfl⟩
abbrev cc13_stg0_0 : Ref sig .tc := ⟨.vmem, 93, rfl⟩
abbrev cc13_stg0_1 : Ref sig .tc := ⟨.vmem, 94, rfl⟩
abbrev cc13_stg1_0 : Ref sig .tc := ⟨.vmem, 95, rfl⟩
abbrev cc13_stg1_1 : Ref sig .tc := ⟨.vmem, 96, rfl⟩
abbrev cc13_stg2_0 : Ref sig .tc := ⟨.vmem, 97, rfl⟩
abbrev cc13_stg2_1 : Ref sig .tc := ⟨.vmem, 98, rfl⟩
abbrev cc13_stg3_0 : Ref sig .tc := ⟨.vmem, 99, rfl⟩
abbrev cc13_stg4_0 : Ref sig .tc := ⟨.vmem, 100, rfl⟩
abbrev cc13_stg4_1 : Ref sig .tc := ⟨.vmem, 101, rfl⟩
abbrev cc14_stg0_0 : Ref sig .tc := ⟨.vmem, 102, rfl⟩
abbrev cc14_stg0_1 : Ref sig .tc := ⟨.vmem, 103, rfl⟩
abbrev cc14_stg1_0 : Ref sig .tc := ⟨.vmem, 104, rfl⟩
abbrev cc14_stg2_0 : Ref sig .tc := ⟨.vmem, 105, rfl⟩
abbrev cc14_stg3_0 : Ref sig .tc := ⟨.vmem, 106, rfl⟩
abbrev cc14_stg3_1 : Ref sig .tc := ⟨.vmem, 107, rfl⟩
abbrev cc15_stg0_0 : Ref sig .tc := ⟨.vmem, 108, rfl⟩
abbrev cc15_stg0_1 : Ref sig .tc := ⟨.vmem, 109, rfl⟩
abbrev cc15_stg1_0 : Ref sig .tc := ⟨.vmem, 110, rfl⟩
abbrev cc15_stg1_1 : Ref sig .tc := ⟨.vmem, 111, rfl⟩
abbrev cc15_stg2_0 : Ref sig .tc := ⟨.vmem, 112, rfl⟩
abbrev cc15_stg2_1 : Ref sig .tc := ⟨.vmem, 113, rfl⟩
abbrev cc15_stg3_0 : Ref sig .tc := ⟨.vmem, 114, rfl⟩
abbrev cc15_stg4_0 : Ref sig .tc := ⟨.vmem, 115, rfl⟩
abbrev cc15_stg4_1 : Ref sig .tc := ⟨.vmem, 116, rfl⟩
abbrev cc16_stg0_0 : Ref sig .tc := ⟨.vmem, 117, rfl⟩
abbrev cc16_stg0_1 : Ref sig .tc := ⟨.vmem, 118, rfl⟩
abbrev cc16_stg1_0 : Ref sig .tc := ⟨.vmem, 119, rfl⟩
abbrev cc16_stg2_0 : Ref sig .tc := ⟨.vmem, 120, rfl⟩
abbrev cc16_stg3_0 : Ref sig .tc := ⟨.vmem, 121, rfl⟩
abbrev cc16_stg3_1 : Ref sig .tc := ⟨.vmem, 122, rfl⟩
abbrev cc17_stg0_0 : Ref sig .tc := ⟨.vmem, 123, rfl⟩
abbrev cc17_stg0_1 : Ref sig .tc := ⟨.vmem, 124, rfl⟩
abbrev cc17_stg1_0 : Ref sig .tc := ⟨.vmem, 125, rfl⟩
abbrev cc17_stg1_1 : Ref sig .tc := ⟨.vmem, 126, rfl⟩
abbrev cc17_stg2_0 : Ref sig .tc := ⟨.vmem, 127, rfl⟩
abbrev cc17_stg2_1 : Ref sig .tc := ⟨.vmem, 128, rfl⟩
abbrev cc17_stg3_0 : Ref sig .tc := ⟨.vmem, 129, rfl⟩
abbrev cc17_stg4_0 : Ref sig .tc := ⟨.vmem, 130, rfl⟩
abbrev cc17_stg4_1 : Ref sig .tc := ⟨.vmem, 131, rfl⟩
abbrev cc18_stg0_0 : Ref sig .tc := ⟨.vmem, 132, rfl⟩
abbrev cc18_stg0_1 : Ref sig .tc := ⟨.vmem, 133, rfl⟩
abbrev cc18_stg1_0 : Ref sig .tc := ⟨.vmem, 134, rfl⟩
abbrev cc18_stg2_0 : Ref sig .tc := ⟨.vmem, 135, rfl⟩
abbrev cc18_stg3_0 : Ref sig .tc := ⟨.vmem, 136, rfl⟩
abbrev cc18_stg3_1 : Ref sig .tc := ⟨.vmem, 137, rfl⟩
abbrev cc19_stg0_0 : Ref sig .tc := ⟨.vmem, 138, rfl⟩
abbrev cc19_stg0_1 : Ref sig .tc := ⟨.vmem, 139, rfl⟩
abbrev cc19_stg1_0 : Ref sig .tc := ⟨.vmem, 140, rfl⟩
abbrev cc19_stg2_0 : Ref sig .tc := ⟨.vmem, 141, rfl⟩
abbrev cc19_stg3_0 : Ref sig .tc := ⟨.vmem, 142, rfl⟩
abbrev cc19_stg4_0 : Ref sig .tc := ⟨.vmem, 143, rfl⟩
abbrev cc19_stg5_0 : Ref sig .tc := ⟨.vmem, 144, rfl⟩
abbrev cc19_stg5_1 : Ref sig .tc := ⟨.vmem, 145, rfl⟩
abbrev cc20_stg0_0 : Ref sig .tc := ⟨.vmem, 146, rfl⟩
abbrev cc20_stg0_1 : Ref sig .tc := ⟨.vmem, 147, rfl⟩
abbrev cc20_stg1_0 : Ref sig .tc := ⟨.vmem, 148, rfl⟩
abbrev cc20_stg2_0 : Ref sig .tc := ⟨.vmem, 149, rfl⟩
abbrev cc20_stg3_0 : Ref sig .tc := ⟨.vmem, 150, rfl⟩
abbrev cc20_stg3_1 : Ref sig .tc := ⟨.vmem, 151, rfl⟩
abbrev cc21_stg0_0 : Ref sig .tc := ⟨.vmem, 152, rfl⟩
abbrev cc21_stg0_1 : Ref sig .tc := ⟨.vmem, 153, rfl⟩
abbrev cc21_stg1_0 : Ref sig .tc := ⟨.vmem, 154, rfl⟩
abbrev cc21_stg2_0 : Ref sig .tc := ⟨.vmem, 155, rfl⟩
abbrev cc21_stg3_0 : Ref sig .tc := ⟨.vmem, 156, rfl⟩
abbrev cc21_stg4_0 : Ref sig .tc := ⟨.vmem, 157, rfl⟩
abbrev cc21_stg5_0 : Ref sig .tc := ⟨.vmem, 158, rfl⟩
abbrev cc21_stg5_1 : Ref sig .tc := ⟨.vmem, 159, rfl⟩
abbrev cc22_stg0_0 : Ref sig .tc := ⟨.vmem, 160, rfl⟩
abbrev cc22_stg0_1 : Ref sig .tc := ⟨.vmem, 161, rfl⟩
abbrev cc22_stg1_0 : Ref sig .tc := ⟨.vmem, 162, rfl⟩
abbrev cc22_stg2_0 : Ref sig .tc := ⟨.vmem, 163, rfl⟩
abbrev cc22_stg3_0 : Ref sig .tc := ⟨.vmem, 164, rfl⟩
abbrev cc22_stg3_1 : Ref sig .tc := ⟨.vmem, 165, rfl⟩
abbrev cc23_stg0_0 : Ref sig .tc := ⟨.vmem, 166, rfl⟩
abbrev cc23_stg0_1 : Ref sig .tc := ⟨.vmem, 167, rfl⟩
abbrev cc23_stg1_0 : Ref sig .tc := ⟨.vmem, 168, rfl⟩
abbrev cc23_stg2_0 : Ref sig .tc := ⟨.vmem, 169, rfl⟩
abbrev cc23_stg3_0 : Ref sig .tc := ⟨.vmem, 170, rfl⟩
abbrev cc23_stg4_0 : Ref sig .tc := ⟨.vmem, 171, rfl⟩
abbrev cc23_stg5_0 : Ref sig .tc := ⟨.vmem, 172, rfl⟩
abbrev cc23_stg5_1 : Ref sig .tc := ⟨.vmem, 173, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem2_1 : DmaSem sig := 53
abbrev cc7_sem3_0 : DmaSem sig := 54
abbrev cc7_sem4_0 : DmaSem sig := 55
abbrev cc7_sem4_1 : DmaSem sig := 56
abbrev cc8_sem0_0 : DmaSem sig := 57
abbrev cc8_sem0_1 : DmaSem sig := 58
abbrev cc8_sem1_0 : DmaSem sig := 59
abbrev cc8_sem2_0 : DmaSem sig := 60
abbrev cc8_sem3_0 : DmaSem sig := 61
abbrev cc8_sem3_1 : DmaSem sig := 62
abbrev cc9_sem0_0 : DmaSem sig := 63
abbrev cc9_sem0_1 : DmaSem sig := 64
abbrev cc9_sem1_0 : DmaSem sig := 65
abbrev cc9_sem1_1 : DmaSem sig := 66
abbrev cc9_sem2_0 : DmaSem sig := 67
abbrev cc9_sem2_1 : DmaSem sig := 68
abbrev cc9_sem3_0 : DmaSem sig := 69
abbrev cc9_sem4_0 : DmaSem sig := 70
abbrev cc9_sem4_1 : DmaSem sig := 71
abbrev cc10_sem0_0 : DmaSem sig := 72
abbrev cc10_sem0_1 : DmaSem sig := 73
abbrev cc10_sem1_0 : DmaSem sig := 74
abbrev cc10_sem2_0 : DmaSem sig := 75
abbrev cc10_sem3_0 : DmaSem sig := 76
abbrev cc10_sem3_1 : DmaSem sig := 77
abbrev cc11_sem0_0 : DmaSem sig := 78
abbrev cc11_sem0_1 : DmaSem sig := 79
abbrev cc11_sem1_0 : DmaSem sig := 80
abbrev cc11_sem1_1 : DmaSem sig := 81
abbrev cc11_sem2_0 : DmaSem sig := 82
abbrev cc11_sem2_1 : DmaSem sig := 83
abbrev cc11_sem3_0 : DmaSem sig := 84
abbrev cc11_sem4_0 : DmaSem sig := 85
abbrev cc11_sem4_1 : DmaSem sig := 86
abbrev cc12_sem0_0 : DmaSem sig := 87
abbrev cc12_sem0_1 : DmaSem sig := 88
abbrev cc12_sem1_0 : DmaSem sig := 89
abbrev cc12_sem2_0 : DmaSem sig := 90
abbrev cc12_sem3_0 : DmaSem sig := 91
abbrev cc12_sem3_1 : DmaSem sig := 92
abbrev cc13_sem0_0 : DmaSem sig := 93
abbrev cc13_sem0_1 : DmaSem sig := 94
abbrev cc13_sem1_0 : DmaSem sig := 95
abbrev cc13_sem1_1 : DmaSem sig := 96
abbrev cc13_sem2_0 : DmaSem sig := 97
abbrev cc13_sem2_1 : DmaSem sig := 98
abbrev cc13_sem3_0 : DmaSem sig := 99
abbrev cc13_sem4_0 : DmaSem sig := 100
abbrev cc13_sem4_1 : DmaSem sig := 101
abbrev cc14_sem0_0 : DmaSem sig := 102
abbrev cc14_sem0_1 : DmaSem sig := 103
abbrev cc14_sem1_0 : DmaSem sig := 104
abbrev cc14_sem2_0 : DmaSem sig := 105
abbrev cc14_sem3_0 : DmaSem sig := 106
abbrev cc14_sem3_1 : DmaSem sig := 107
abbrev cc15_sem0_0 : DmaSem sig := 108
abbrev cc15_sem0_1 : DmaSem sig := 109
abbrev cc15_sem1_0 : DmaSem sig := 110
abbrev cc15_sem1_1 : DmaSem sig := 111
abbrev cc15_sem2_0 : DmaSem sig := 112
abbrev cc15_sem2_1 : DmaSem sig := 113
abbrev cc15_sem3_0 : DmaSem sig := 114
abbrev cc15_sem4_0 : DmaSem sig := 115
abbrev cc15_sem4_1 : DmaSem sig := 116
abbrev cc16_sem0_0 : DmaSem sig := 117
abbrev cc16_sem0_1 : DmaSem sig := 118
abbrev cc16_sem1_0 : DmaSem sig := 119
abbrev cc16_sem2_0 : DmaSem sig := 120
abbrev cc16_sem3_0 : DmaSem sig := 121
abbrev cc16_sem3_1 : DmaSem sig := 122
abbrev cc17_sem0_0 : DmaSem sig := 123
abbrev cc17_sem0_1 : DmaSem sig := 124
abbrev cc17_sem1_0 : DmaSem sig := 125
abbrev cc17_sem1_1 : DmaSem sig := 126
abbrev cc17_sem2_0 : DmaSem sig := 127
abbrev cc17_sem2_1 : DmaSem sig := 128
abbrev cc17_sem3_0 : DmaSem sig := 129
abbrev cc17_sem4_0 : DmaSem sig := 130
abbrev cc17_sem4_1 : DmaSem sig := 131
abbrev cc18_sem0_0 : DmaSem sig := 132
abbrev cc18_sem0_1 : DmaSem sig := 133
abbrev cc18_sem1_0 : DmaSem sig := 134
abbrev cc18_sem2_0 : DmaSem sig := 135
abbrev cc18_sem3_0 : DmaSem sig := 136
abbrev cc18_sem3_1 : DmaSem sig := 137
abbrev cc19_sem0_0 : DmaSem sig := 138
abbrev cc19_sem0_1 : DmaSem sig := 139
abbrev cc19_sem1_0 : DmaSem sig := 140
abbrev cc19_sem2_0 : DmaSem sig := 141
abbrev cc19_sem3_0 : DmaSem sig := 142
abbrev cc19_sem4_0 : DmaSem sig := 143
abbrev cc19_sem5_0 : DmaSem sig := 144
abbrev cc19_sem5_1 : DmaSem sig := 145
abbrev cc20_sem0_0 : DmaSem sig := 146
abbrev cc20_sem0_1 : DmaSem sig := 147
abbrev cc20_sem1_0 : DmaSem sig := 148
abbrev cc20_sem2_0 : DmaSem sig := 149
abbrev cc20_sem3_0 : DmaSem sig := 150
abbrev cc20_sem3_1 : DmaSem sig := 151
abbrev cc21_sem0_0 : DmaSem sig := 152
abbrev cc21_sem0_1 : DmaSem sig := 153
abbrev cc21_sem1_0 : DmaSem sig := 154
abbrev cc21_sem2_0 : DmaSem sig := 155
abbrev cc21_sem3_0 : DmaSem sig := 156
abbrev cc21_sem4_0 : DmaSem sig := 157
abbrev cc21_sem5_0 : DmaSem sig := 158
abbrev cc21_sem5_1 : DmaSem sig := 159
abbrev cc22_sem0_0 : DmaSem sig := 160
abbrev cc22_sem0_1 : DmaSem sig := 161
abbrev cc22_sem1_0 : DmaSem sig := 162
abbrev cc22_sem2_0 : DmaSem sig := 163
abbrev cc22_sem3_0 : DmaSem sig := 164
abbrev cc22_sem3_1 : DmaSem sig := 165
abbrev cc23_sem0_0 : DmaSem sig := 166
abbrev cc23_sem0_1 : DmaSem sig := 167
abbrev cc23_sem1_0 : DmaSem sig := 168
abbrev cc23_sem2_0 : DmaSem sig := 169
abbrev cc23_sem3_0 : DmaSem sig := 170
abbrev cc23_sem4_0 : DmaSem sig := 171
abbrev cc23_sem5_0 : DmaSem sig := 172
abbrev cc23_sem5_1 : DmaSem sig := 173

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S10000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S10000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S10000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S10000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S10000x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S10000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S10000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S10000x64 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S10000x64 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S10000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S10000x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S10000x64 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 1 → Memref sig .tc .vmem S1x64 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S10000x64 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S64x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S10000x64 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S10000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S10000x64 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S10000x64 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev stage15_3 : Fin 1 → Memref sig .tc .vmem S1x64 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 2 → Memref sig .tc .vmem S10000x64 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S10000x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S64x64 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x64 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S10000x64 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S10000x64 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S10000x64 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 2 → Memref sig .tc .vmem S10000x64 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev stage17_3 : Fin 1 → Memref sig .tc .vmem S1x64 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 2 → Memref sig .tc .vmem S10000x64 .f32 := fun | 0 => Memref.whole cc17_stg4_0 | 1 => Memref.whole cc17_stg4_1 | ⟨_ + 2, h⟩ => absurd h (Nat.not_lt.2 (Nat.le_add_left _ _))
abbrev sem17_4 : Fin 2 → DmaSem sig := fun | 0 => cc17_sem4_0 | 1 => cc17_sem4_1 | ⟨_ + 2, h⟩ => absurd h (Nat.not_lt.2 (Nat.le_add_left _ _))
abbrev reads17_4 : Fin grid17.rank → Bool := ![true]

abbrev grid18 : Pipeline.Grid := ⟨1, ![10], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S10000x64 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S64x64 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1x64 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 2 → Memref sig .tc .vmem S10000x64 .f32 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![true]

abbrev grid19 : Pipeline.Grid := ⟨1, ![10], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_5 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S10000x64 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S1x64 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S1x64 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S1x64 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S1x64 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 2 → Memref sig .tc .vmem S10000x64 .f32 := fun | 0 => Memref.whole cc19_stg5_0 | 1 => Memref.whole cc19_stg5_1 | ⟨_ + 2, h⟩ => absurd h (Nat.not_lt.2 (Nat.le_add_left _ _))
abbrev sem19_5 : Fin 2 → DmaSem sig := fun | 0 => cc19_sem5_0 | 1 => cc19_sem5_1 | ⟨_ + 2, h⟩ => absurd h (Nat.not_lt.2 (Nat.le_add_left _ _))
abbrev reads19_5 : Fin grid19.rank → Bool := ![true]

abbrev grid20 : Pipeline.Grid := ⟨1, ![10], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S10000x64 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S64x64 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 1 → Memref sig .tc .vmem S1x64 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 2 → Memref sig .tc .vmem S10000x64 .f32 := fun | 0 => Memref.whole cc20_stg3_0 | 1 => Memref.whole cc20_stg3_1 | ⟨_ + 2, h⟩ => absurd h (Nat.not_lt.2 (Nat.le_add_left _ _))
abbrev sem20_3 : Fin 2 → DmaSem sig := fun | 0 => cc20_sem3_0 | 1 => cc20_sem3_1 | ⟨_ + 2, h⟩ => absurd h (Nat.not_lt.2 (Nat.le_add_left _ _))
abbrev reads20_3 : Fin grid20.rank → Bool := ![true]

abbrev grid21 : Pipeline.Grid := ⟨1, ![10], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_4 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_5 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S10000x64 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S1x64 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 1 → Memref sig .tc .vmem S1x64 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 1 → Memref sig .tc .vmem S1x64 .f32 := fun | 0 => Memref.whole cc21_stg3_0 | ⟨_ + 1, h⟩ => absurd h (Nat.not_lt.2 (Nat.le_add_left _ _))
abbrev sem21_3 : Fin 1 → DmaSem sig := fun | 0 => cc21_sem3_0 | ⟨_ + 1, h⟩ => absurd h (Nat.not_lt.2 (Nat.le_add_left _ _))
abbrev reads21_3 : Fin grid21.rank → Bool := ![false]

abbrev stage21_4 : Fin 1 → Memref sig .tc .vmem S1x64 .f32 := fun | 0 => Memref.whole cc21_stg4_0 | ⟨_ + 1, h⟩ => absurd h (Nat.not_lt.2 (Nat.le_add_left _ _))
abbrev sem21_4 : Fin 1 → DmaSem sig := fun | 0 => cc21_sem4_0 | ⟨_ + 1, h⟩ => absurd h (Nat.not_lt.2 (Nat.le_add_left _ _))
abbrev reads21_4 : Fin grid21.rank → Bool := ![false]

abbrev stage21_5 : Fin 2 → Memref sig .tc .vmem S10000x64 .f32 := fun | 0 => Memref.whole cc21_stg5_0 | 1 => Memref.whole cc21_stg5_1 | ⟨_ + 2, h⟩ => absurd h (Nat.not_lt.2 (Nat.le_add_left _ _))
abbrev sem21_5 : Fin 2 → DmaSem sig := fun | 0 => cc21_sem5_0 | 1 => cc21_sem5_1 | ⟨_ + 2, h⟩ => absurd h (Nat.not_lt.2 (Nat.le_add_left _ _))
abbrev reads21_5 : Fin grid21.rank → Bool := ![true]

abbrev grid22 : Pipeline.Grid := ⟨1, ![10], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_3 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S10000x64 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 1 → Memref sig .tc .vmem S64x64 .f32 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 1 → Memref sig .tc .vmem S1x64 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false]

abbrev stage22_3 : Fin 2 → Memref sig .tc .vmem S10000x64 .f32 := fun | 0 => Memref.whole cc22_stg3_0 | 1 => Memref.whole cc22_stg3_1 | ⟨_ + 2, h⟩ => absurd h (Nat.not_lt.2 (Nat.le_add_left _ _))
abbrev sem22_3 : Fin 2 → DmaSem sig := fun | 0 => cc22_sem3_0 | 1 => cc22_sem3_1 | ⟨_ + 2, h⟩ => absurd h (Nat.not_lt.2 (Nat.le_add_left _ _))
abbrev reads22_3 : Fin grid22.rank → Bool := ![true]

abbrev grid23 : Pipeline.Grid := ⟨1, ![10], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_2 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_3 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_4 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_5 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S10000x64 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 1 → Memref sig .tc .vmem S1x64 .f32 := fun | 0 => Memref.whole cc23_stg1_0 | ⟨_ + 1, h⟩ => absurd h (Nat.not_lt.2 (Nat.le_add_left _ _))
abbrev sem23_1 : Fin 1 → DmaSem sig := fun | 0 => cc23_sem1_0 | ⟨_ + 1, h⟩ => absurd h (Nat.not_lt.2 (Nat.le_add_left _ _))
abbrev reads23_1 : Fin grid23.rank → Bool := ![false]

abbrev stage23_2 : Fin 1 → Memref sig .tc .vmem S1x64 .f32 := fun | 0 => Memref.whole cc23_stg2_0 | ⟨_ + 1, h⟩ => absurd h (Nat.not_lt.2 (Nat.le_add_left _ _))
abbrev sem23_2 : Fin 1 → DmaSem sig := fun | 0 => cc23_sem2_0 | ⟨_ + 1, h⟩ => absurd h (Nat.not_lt.2 (Nat.le_add_left _ _))
abbrev reads23_2 : Fin grid23.rank → Bool := ![false]

abbrev stage23_3 : Fin 1 → Memref sig .tc .vmem S1x64 .f32 := fun | 0 => Memref.whole cc23_stg3_0 | ⟨_ + 1, h⟩ => absurd h (Nat.not_lt.2 (Nat.le_add_left _ _))
abbrev sem23_3 : Fin 1 → DmaSem sig := fun | 0 => cc23_sem3_0 | ⟨_ + 1, h⟩ => absurd h (Nat.not_lt.2 (Nat.le_add_left _ _))
abbrev reads23_3 : Fin grid23.rank → Bool := ![false]

abbrev stage23_4 : Fin 1 → Memref sig .tc .vmem S1x64 .f32 := fun | 0 => Memref.whole cc23_stg4_0 | ⟨_ + 1, h⟩ => absurd h (Nat.not_lt.2 (Nat.le_add_left _ _))
abbrev sem23_4 : Fin 1 → DmaSem sig := fun | 0 => cc23_sem4_0 | ⟨_ + 1, h⟩ => absurd h (Nat.not_lt.2 (Nat.le_add_left _ _))
abbrev reads23_4 : Fin grid23.rank → Bool := ![false]

abbrev stage23_5 : Fin 2 → Memref sig .tc .vmem S10000x64 .f32 := fun | 0 => Memref.whole cc23_stg5_0 | 1 => Memref.whole cc23_stg5_1 | ⟨_ + 2, h⟩ => absurd h (Nat.not_lt.2 (Nat.le_add_left _ _))
abbrev sem23_5 : Fin 2 → DmaSem sig := fun | 0 => cc23_sem5_0 | 1 => cc23_sem5_1 | ⟨_ + 2, h⟩ => absurd h (Nat.not_lt.2 (Nat.le_add_left _ _))
abbrev reads23_5 : Fin grid23.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reducesTo_S100000x64_S64_d0 : S100000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  shapeCasts_S10000x64_S10000x64 : S10000x64.ShapeCasts S10000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S64 : S_.BroadcastsInDim S64 (![] : Fin 0 → Fin S64.rank)
  slices_S6x64x64_S1x64x64_0_0_0 : S6x64x64.Slices ![0, 0, 0] S1x64x64
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S6x64_S1x64_0_0 : S6x64.Slices ![0, 0] S1x64
  slices_S6x64x64_S1x64x64_1_0_0 : S6x64x64.Slices ![1, 0, 0] S1x64x64
  slices_S6x64_S1x64_1_0 : S6x64.Slices ![1, 0] S1x64
  slices_S6x64x64_S1x64x64_2_0_0 : S6x64x64.Slices ![2, 0, 0] S1x64x64
  slices_S6x64_S1x64_2_0 : S6x64.Slices ![2, 0] S1x64
  slices_S6x64x64_S1x64x64_3_0_0 : S6x64x64.Slices ![3, 0, 0] S1x64x64
  slices_S6x64_S1x64_3_0 : S6x64.Slices ![3, 0] S1x64
  slices_S6x64x64_S1x64x64_4_0_0 : S6x64x64.Slices ![4, 0, 0] S1x64x64
  slices_S6x64_S1x64_4_0 : S6x64.Slices ![4, 0] S1x64
  slices_S6x64x64_S1x64x64_5_0_0 : S6x64x64.Slices ![5, 0, 0] S1x64x64
  slices_S6x64_S1x64_5_0 : S6x64.Slices ![5, 0] S1x64
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S800000x1_S800000_n_0_0_1_wf : ScatterDims.WF S100000 S800000x1 S800000 [] [0] [0] 1
  dot_S10000x64_S64x64_S10000x64_1_0_0_1_n_n_wf : DotDims.WF S10000x64 S64x64 S10000x64 [1] [0] [0] [1] [] []
  gather_S100000_S800000x1_S800000_n_0_n_n_0_1_1_wf : GatherDims.WF S100000 S800000x1 S800000 [] [0] [] [0] [] 1 ![1]
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S64_S100000x1_S100000_n_0_0_1_wf : ScatterDims.WF S64 S100000x1 S100000 [] [0] [0] 1
  scatter_S64x64_S100000x1_S100000x64_1_0_0_1_wf : ScatterDims.WF S64x64 S100000x1 S100000x64 [1] [0] [0] 1
  dot_S64x64_S64x64_S64x64_1_0_0_1_n_n_wf : DotDims.WF S64x64 S64x64 S64x64 [1] [0] [0] [1] [] []
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x64.size a ≤ S100000x64.size a
  hwx6_3 : ∀ i : grid6.Coords, EltTy.bits .f32 = 32 ∨ (Rect.block (s := S100000x64) S10000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S100000x64.size a
  hwx7_1 : ∀ i : grid7.Coords, EltTy.bits .f32 = 32 ∨ (Rect.block (s := S100000x64) S10000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S100000x64.size a
  hwx7_2 : ∀ i : grid7.Coords, EltTy.bits .f32 = 32 ∨ (Rect.block (s := S100000x64) S10000x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S10000x64.size a ≤ S100000x64.size a
  hwx7_4 : ∀ i : grid7.Coords, EltTy.bits .f32 = 32 ∨ (Rect.block (s := S100000x64) S10000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x64.size a ≤ S100000x64.size a
  hwx8_3 : ∀ i : grid8.Coords, EltTy.bits .f32 = 32 ∨ (Rect.block (s := S100000x64) S10000x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x64.size a ≤ S100000x64.size a
  hwx9_1 : ∀ i : grid9.Coords, EltTy.bits .f32 = 32 ∨ (Rect.block (s := S100000x64) S10000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x64.size a ≤ S100000x64.size a
  hwx9_2 : ∀ i : grid9.Coords, EltTy.bits .f32 = 32 ∨ (Rect.block (s := S100000x64) S10000x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S10000x64.size a ≤ S100000x64.size a
  hwx9_4 : ∀ i : grid9.Coords, EltTy.bits .f32 = 32 ∨ (Rect.block (s := S100000x64) S10000x64.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S100000x64.size a
  hwx10_0 : ∀ i : grid10.Coords, EltTy.bits .f32 = 32 ∨ (Rect.block (s := S100000x64) S10000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S10000x64.size a ≤ S100000x64.size a
  hwx10_3 : ∀ i : grid10.Coords, EltTy.bits .f32 = 32 ∨ (Rect.block (s := S100000x64) S10000x64.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S100000x64.size a
  hwx11_0 : ∀ i : grid11.Coords, EltTy.bits .f32 = 32 ∨ (Rect.block (s := S100000x64) S10000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S10000x64.size a ≤ S100000x64.size a
  hwx11_1 : ∀ i : grid11.Coords, EltTy.bits .f32 = 32 ∨ (Rect.block (s := S100000x64) S10000x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S10000x64.size a ≤ S100000x64.size a
  hwx11_2 : ∀ i : grid11.Coords, EltTy.bits .f32 = 32 ∨ (Rect.block (s := S100000x64) S10000x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S10000x64.size a ≤ S100000x64.size a
  hwx11_4 : ∀ i : grid11.Coords, EltTy.bits .f32 = 32 ∨ (Rect.block (s := S100000x64) S10000x64.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S100000x64.size a
  hwx12_0 : ∀ i : grid12.Coords, EltTy.bits .f32 = 32 ∨ (Rect.block (s := S100000x64) S10000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x64.size a ≤ S64x64.size a
  hwx12_1 : ∀ i : grid12.Coords, EltTy.bits .f32 = 32 ∨ (Rect.block (s := S64x64) S64x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S10000x64.size a ≤ S100000x64.size a
  hwx12_3 : ∀ i : grid12.Coords, EltTy.bits .f32 = 32 ∨ (Rect.block (s := S100000x64) S10000x64.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x64.size a ≤ S100000x64.size a
  hwx13_0 : ∀ i : grid13.Coords, EltTy.bits .f32 = 32 ∨ (Rect.block (s := S100000x64) S10000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S10000x64.size a ≤ S100000x64.size a
  hwx13_1 : ∀ i : grid13.Coords, EltTy.bits .f32 = 32 ∨ (Rect.block (s := S100000x64) S10000x64.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S10000x64.size a ≤ S100000x64.size a
  hwx13_2 : ∀ i : grid13.Coords, EltTy.bits .f32 = 32 ∨ (Rect.block (s := S100000x64) S10000x64.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x64.size a ≤ S1x64.size a
  hwx13_3 : ∀ i : grid13.Coords, EltTy.bits .f32 = 32 ∨ (Rect.block (s := S1x64) S1x64.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S10000x64.size a ≤ S100000x64.size a
  hwx13_4 : ∀ i : grid13.Coords, EltTy.bits .f32 = 32 ∨ (Rect.block (s := S100000x64) S10000x64.size (cc13_transform_4 i) (hinb13_4 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x64.size a ≤ S100000x64.size a
  hwx14_0 : ∀ i : grid14.Coords, EltTy.bits .f32 = 32 ∨ (Rect.block (s := S100000x64) S10000x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S64x64.size a ≤ S64x64.size a
  hwx14_1 : ∀ i : grid14.Coords, EltTy.bits .f32 = 32 ∨ (Rect.block (s := S64x64) S64x64.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x64.size a ≤ S1x64.size a
  hwx14_2 : ∀ i : grid14.Coords, EltTy.bits .f32 = 32 ∨ (Rect.block (s := S1x64) S1x64.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S10000x64.size a ≤ S100000x64.size a
  hwx14_3 : ∀ i : grid14.Coords, EltTy.bits .f32 = 32 ∨ (Rect.block (s := S100000x64) S10000x64.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S10000x64.size a ≤ S100000x64.size a
  hwx15_0 : ∀ i : grid15.Coords, EltTy.bits .f32 = 32 ∨ (Rect.block (s := S100000x64) S10000x64.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S10000x64.size a ≤ S100000x64.size a
  hwx15_1 : ∀ i : grid15.Coords, EltTy.bits .f32 = 32 ∨ (Rect.block (s := S100000x64) S10000x64.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S10000x64.size a ≤ S100000x64.size a
  hwx15_2 : ∀ i : grid15.Coords, EltTy.bits .f32 = 32 ∨ (Rect.block (s := S100000x64) S10000x64.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x64.size a ≤ S1x64.size a
  hwx15_3 : ∀ i : grid15.Coords, EltTy.bits .f32 = 32 ∨ (Rect.block (s := S1x64) S1x64.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S10000x64.size a ≤ S100000x64.size a
  hwx15_4 : ∀ i : grid15.Coords, EltTy.bits .f32 = 32 ∨ (Rect.block (s := S100000x64) S10000x64.size (cc15_transform_4 i) (hinb15_4 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S10000x64.size a ≤ S100000x64.size a
  hwx16_0 : ∀ i : grid16.Coords, EltTy.bits .f32 = 32 ∨ (Rect.block (s := S100000x64) S10000x64.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S64x64.size a ≤ S64x64.size a
  hwx16_1 : ∀ i : grid16.Coords, EltTy.bits .f32 = 32 ∨ (Rect.block (s := S64x64) S64x64.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x64.size a ≤ S1x64.size a
  hwx16_2 : ∀ i : grid16.Coords, EltTy.bits .f32 = 32 ∨ (Rect.block (s := S1x64) S1x64.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S10000x64.size a ≤ S100000x64.size a
  hwx16_3 : ∀ i : grid16.Coords, EltTy.bits .f32 = 32 ∨ (Rect.block (s := S100000x64) S10000x64.size (cc16_transform_3 i) (hinb16_3 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S10000x64.size a ≤ S100000x64.size a
  hwx17_0 : ∀ i : grid17.Coords, EltTy.bits .f32 = 32 ∨ (Rect.block (s := S100000x64) S10000x64.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S10000x64.size a ≤ S100000x64.size a
  hwx17_1 : ∀ i : grid17.Coords, EltTy.bits .f32 = 32 ∨ (Rect.block (s := S100000x64) S10000x64.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S10000x64.size a ≤ S100000x64.size a
  hwx17_2 : ∀ i : grid17.Coords, EltTy.bits .f32 = 32 ∨ (Rect.block (s := S100000x64) S10000x64.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S1x64.size a ≤ S1x64.size a
  hwx17_3 : ∀ i : grid17.Coords, EltTy.bits .f32 = 32 ∨ (Rect.block (s := S1x64) S1x64.size (cc17_transform_3 i) (hinb17_3 i)).WholeWords (EltTy.packing .f32)
  hstage17_4 : ∀ j, (stage17_4 j).IsWhole
  nbuf17_4 : grid17.bufCount reads17_4 false = 2
  hreads17_4 : ∀ i i' : grid17.Coords, (∀ a, reads17_4 a = true → i a = i' a) → cc17_transform_4 i = cc17_transform_4 i'
  hinb17_4 : ∀ (i : grid17.Coords) a, (cc17_transform_4 i a + 1) * S10000x64.size a ≤ S100000x64.size a
  hwx17_4 : ∀ i : grid17.Coords, EltTy.bits .f32 = 32 ∨ (Rect.block (s := S100000x64) S10000x64.size (cc17_transform_4 i) (hinb17_4 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S10000x64.size a ≤ S100000x64.size a
  hwx18_0 : ∀ i : grid18.Coords, EltTy.bits .f32 = 32 ∨ (Rect.block (s := S100000x64) S10000x64.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S64x64.size a ≤ S64x64.size a
  hwx18_1 : ∀ i : grid18.Coords, EltTy.bits .f32 = 32 ∨ (Rect.block (s := S64x64) S64x64.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x64.size a ≤ S1x64.size a
  hwx18_2 : ∀ i : grid18.Coords, EltTy.bits .f32 = 32 ∨ (Rect.block (s := S1x64) S1x64.size (cc18_transform_2 i) (hinb18_2 i)).WholeWords (EltTy.packing .f32)
  hstage18_3 : ∀ j, (stage18_3 j).IsWhole
  nbuf18_3 : grid18.bufCount reads18_3 false = 2
  hreads18_3 : ∀ i i' : grid18.Coords, (∀ a, reads18_3 a = true → i a = i' a) → cc18_transform_3 i = cc18_transform_3 i'
  hinb18_3 : ∀ (i : grid18.Coords) a, (cc18_transform_3 i a + 1) * S10000x64.size a ≤ S100000x64.size a
  hwx18_3 : ∀ i : grid18.Coords, EltTy.bits .f32 = 32 ∨ (Rect.block (s := S100000x64) S10000x64.size (cc18_transform_3 i) (hinb18_3 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S10000x64.size a ≤ S100000x64.size a
  hwx19_0 : ∀ i : grid19.Coords, EltTy.bits .f32 = 32 ∨ (Rect.block (s := S100000x64) S10000x64.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S1x64.size a ≤ S1x64.size a
  hwx19_1 : ∀ i : grid19.Coords, EltTy.bits .f32 = 32 ∨ (Rect.block (s := S1x64) S1x64.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x64.size a ≤ S1x64.size a
  hwx19_2 : ∀ i : grid19.Coords, EltTy.bits .f32 = 32 ∨ (Rect.block (s := S1x64) S1x64.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S1x64.size a ≤ S1x64.size a
  hwx19_3 : ∀ i : grid19.Coords, EltTy.bits .f32 = 32 ∨ (Rect.block (s := S1x64) S1x64.size (cc19_transform_3 i) (hinb19_3 i)).WholeWords (EltTy.packing .f32)
  hstage19_4 : ∀ j, (stage19_4 j).IsWhole
  nbuf19_4 : grid19.bufCount reads19_4 true = 1
  hreads19_4 : ∀ i i' : grid19.Coords, (∀ a, reads19_4 a = true → i a = i' a) → cc19_transform_4 i = cc19_transform_4 i'
  hinb19_4 : ∀ (i : grid19.Coords) a, (cc19_transform_4 i a + 1) * S1x64.size a ≤ S1x64.size a
  hwx19_4 : ∀ i : grid19.Coords, EltTy.bits .f32 = 32 ∨ (Rect.block (s := S1x64) S1x64.size (cc19_transform_4 i) (hinb19_4 i)).WholeWords (EltTy.packing .f32)
  hstage19_5 : ∀ j, (stage19_5 j).IsWhole
  nbuf19_5 : grid19.bufCount reads19_5 false = 2
  hreads19_5 : ∀ i i' : grid19.Coords, (∀ a, reads19_5 a = true → i a = i' a) → cc19_transform_5 i = cc19_transform_5 i'
  hinb19_5 : ∀ (i : grid19.Coords) a, (cc19_transform_5 i a + 1) * S10000x64.size a ≤ S100000x64.size a
  hwx19_5 : ∀ i : grid19.Coords, EltTy.bits .f32 = 32 ∨ (Rect.block (s := S100000x64) S10000x64.size (cc19_transform_5 i) (hinb19_5 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S10000x64.size a ≤ S100000x64.size a
  hwx20_0 : ∀ i : grid20.Coords, EltTy.bits .f32 = 32 ∨ (Rect.block (s := S100000x64) S10000x64.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S64x64.size a ≤ S64x64.size a
  hwx20_1 : ∀ i : grid20.Coords, EltTy.bits .f32 = 32 ∨ (Rect.block (s := S64x64) S64x64.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x64.size a ≤ S1x64.size a
  hwx20_2 : ∀ i : grid20.Coords, EltTy.bits .f32 = 32 ∨ (Rect.block (s := S1x64) S1x64.size (cc20_transform_2 i) (hinb20_2 i)).WholeWords (EltTy.packing .f32)
  hstage20_3 : ∀ j, (stage20_3 j).IsWhole
  nbuf20_3 : grid20.bufCount reads20_3 false = 2
  hreads20_3 : ∀ i i' : grid20.Coords, (∀ a, reads20_3 a = true → i a = i' a) → cc20_transform_3 i = cc20_transform_3 i'
  hinb20_3 : ∀ (i : grid20.Coords) a, (cc20_transform_3 i a + 1) * S10000x64.size a ≤ S100000x64.size a
  hwx20_3 : ∀ i : grid20.Coords, EltTy.bits .f32 = 32 ∨ (Rect.block (s := S100000x64) S10000x64.size (cc20_transform_3 i) (hinb20_3 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S10000x64.size a ≤ S100000x64.size a
  hwx21_0 : ∀ i : grid21.Coords, EltTy.bits .f32 = 32 ∨ (Rect.block (s := S100000x64) S10000x64.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S1x64.size a ≤ S1x64.size a
  hwx21_1 : ∀ i : grid21.Coords, EltTy.bits .f32 = 32 ∨ (Rect.block (s := S1x64) S1x64.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S1x64.size a ≤ S1x64.size a
  hwx21_2 : ∀ i : grid21.Coords, EltTy.bits .f32 = 32 ∨ (Rect.block (s := S1x64) S1x64.size (cc21_transform_2 i) (hinb21_2 i)).WholeWords (EltTy.packing .f32)
  hstage21_3 : ∀ j, (stage21_3 j).IsWhole
  nbuf21_3 : grid21.bufCount reads21_3 true = 1
  hreads21_3 : ∀ i i' : grid21.Coords, (∀ a, reads21_3 a = true → i a = i' a) → cc21_transform_3 i = cc21_transform_3 i'
  hinb21_3 : ∀ (i : grid21.Coords) a, (cc21_transform_3 i a + 1) * S1x64.size a ≤ S1x64.size a
  hwx21_3 : ∀ i : grid21.Coords, EltTy.bits .f32 = 32 ∨ (Rect.block (s := S1x64) S1x64.size (cc21_transform_3 i) (hinb21_3 i)).WholeWords (EltTy.packing .f32)
  hstage21_4 : ∀ j, (stage21_4 j).IsWhole
  nbuf21_4 : grid21.bufCount reads21_4 true = 1
  hreads21_4 : ∀ i i' : grid21.Coords, (∀ a, reads21_4 a = true → i a = i' a) → cc21_transform_4 i = cc21_transform_4 i'
  hinb21_4 : ∀ (i : grid21.Coords) a, (cc21_transform_4 i a + 1) * S1x64.size a ≤ S1x64.size a
  hwx21_4 : ∀ i : grid21.Coords, EltTy.bits .f32 = 32 ∨ (Rect.block (s := S1x64) S1x64.size (cc21_transform_4 i) (hinb21_4 i)).WholeWords (EltTy.packing .f32)
  hstage21_5 : ∀ j, (stage21_5 j).IsWhole
  nbuf21_5 : grid21.bufCount reads21_5 false = 2
  hreads21_5 : ∀ i i' : grid21.Coords, (∀ a, reads21_5 a = true → i a = i' a) → cc21_transform_5 i = cc21_transform_5 i'
  hinb21_5 : ∀ (i : grid21.Coords) a, (cc21_transform_5 i a + 1) * S10000x64.size a ≤ S100000x64.size a
  hwx21_5 : ∀ i : grid21.Coords, EltTy.bits .f32 = 32 ∨ (Rect.block (s := S100000x64) S10000x64.size (cc21_transform_5 i) (hinb21_5 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S10000x64.size a ≤ S100000x64.size a
  hwx22_0 : ∀ i : grid22.Coords, EltTy.bits .f32 = 32 ∨ (Rect.block (s := S100000x64) S10000x64.size (cc22_transform_0 i) (hinb22_0 i)).WholeWords (EltTy.packing .f32)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S64x64.size a ≤ S64x64.size a
  hwx22_1 : ∀ i : grid22.Coords, EltTy.bits .f32 = 32 ∨ (Rect.block (s := S64x64) S64x64.size (cc22_transform_1 i) (hinb22_1 i)).WholeWords (EltTy.packing .f32)
  hstage22_2 : ∀ j, (stage22_2 j).IsWhole
  nbuf22_2 : grid22.bufCount reads22_2 true = 1
  hreads22_2 : ∀ i i' : grid22.Coords, (∀ a, reads22_2 a = true → i a = i' a) → cc22_transform_2 i = cc22_transform_2 i'
  hinb22_2 : ∀ (i : grid22.Coords) a, (cc22_transform_2 i a + 1) * S1x64.size a ≤ S1x64.size a
  hwx22_2 : ∀ i : grid22.Coords, EltTy.bits .f32 = 32 ∨ (Rect.block (s := S1x64) S1x64.size (cc22_transform_2 i) (hinb22_2 i)).WholeWords (EltTy.packing .f32)
  hstage22_3 : ∀ j, (stage22_3 j).IsWhole
  nbuf22_3 : grid22.bufCount reads22_3 false = 2
  hreads22_3 : ∀ i i' : grid22.Coords, (∀ a, reads22_3 a = true → i a = i' a) → cc22_transform_3 i = cc22_transform_3 i'
  hinb22_3 : ∀ (i : grid22.Coords) a, (cc22_transform_3 i a + 1) * S10000x64.size a ≤ S100000x64.size a
  hwx22_3 : ∀ i : grid22.Coords, EltTy.bits .f32 = 32 ∨ (Rect.block (s := S100000x64) S10000x64.size (cc22_transform_3 i) (hinb22_3 i)).WholeWords (EltTy.packing .f32)
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S10000x64.size a ≤ S100000x64.size a
  hwx23_0 : ∀ i : grid23.Coords, EltTy.bits .f32 = 32 ∨ (Rect.block (s := S100000x64) S10000x64.size (cc23_transform_0 i) (hinb23_0 i)).WholeWords (EltTy.packing .f32)
  hstage23_1 : ∀ j, (stage23_1 j).IsWhole
  nbuf23_1 : grid23.bufCount reads23_1 true = 1
  hreads23_1 : ∀ i i' : grid23.Coords, (∀ a, reads23_1 a = true → i a = i' a) → cc23_transform_1 i = cc23_transform_1 i'
  hinb23_1 : ∀ (i : grid23.Coords) a, (cc23_transform_1 i a + 1) * S1x64.size a ≤ S1x64.size a
  hwx23_1 : ∀ i : grid23.Coords, EltTy.bits .f32 = 32 ∨ (Rect.block (s := S1x64) S1x64.size (cc23_transform_1 i) (hinb23_1 i)).WholeWords (EltTy.packing .f32)
  hstage23_2 : ∀ j, (stage23_2 j).IsWhole
  nbuf23_2 : grid23.bufCount reads23_2 true = 1
  hreads23_2 : ∀ i i' : grid23.Coords, (∀ a, reads23_2 a = true → i a = i' a) → cc23_transform_2 i = cc23_transform_2 i'
  hinb23_2 : ∀ (i : grid23.Coords) a, (cc23_transform_2 i a + 1) * S1x64.size a ≤ S1x64.size a
  hwx23_2 : ∀ i : grid23.Coords, EltTy.bits .f32 = 32 ∨ (Rect.block (s := S1x64) S1x64.size (cc23_transform_2 i) (hinb23_2 i)).WholeWords (EltTy.packing .f32)
  hstage23_3 : ∀ j, (stage23_3 j).IsWhole
  nbuf23_3 : grid23.bufCount reads23_3 true = 1
  hreads23_3 : ∀ i i' : grid23.Coords, (∀ a, reads23_3 a = true → i a = i' a) → cc23_transform_3 i = cc23_transform_3 i'
  hinb23_3 : ∀ (i : grid23.Coords) a, (cc23_transform_3 i a + 1) * S1x64.size a ≤ S1x64.size a
  hwx23_3 : ∀ i : grid23.Coords, EltTy.bits .f32 = 32 ∨ (Rect.block (s := S1x64) S1x64.size (cc23_transform_3 i) (hinb23_3 i)).WholeWords (EltTy.packing .f32)
  hstage23_4 : ∀ j, (stage23_4 j).IsWhole
  nbuf23_4 : grid23.bufCount reads23_4 true = 1
  hreads23_4 : ∀ i i' : grid23.Coords, (∀ a, reads23_4 a = true → i a = i' a) → cc23_transform_4 i = cc23_transform_4 i'
  hinb23_4 : ∀ (i : grid23.Coords) a, (cc23_transform_4 i a + 1) * S1x64.size a ≤ S1x64.size a
  hwx23_4 : ∀ i : grid23.Coords, EltTy.bits .f32 = 32 ∨ (Rect.block (s := S1x64) S1x64.size (cc23_transform_4 i) (hinb23_4 i)).WholeWords (EltTy.packing .f32)
  hstage23_5 : ∀ j, (stage23_5 j).IsWhole
  nbuf23_5 : grid23.bufCount reads23_5 false = 2
  hreads23_5 : ∀ i i' : grid23.Coords, (∀ a, reads23_5 a = true → i a = i' a) → cc23_transform_5 i = cc23_transform_5 i'
  hinb23_5 : ∀ (i : grid23.Coords) a, (cc23_transform_5 i a + 1) * S10000x64.size a ≤ S100000x64.size a
  hwx23_5 : ∀ i : grid23.Coords, EltTy.bits .f32 = 32 ∨ (Rect.block (s := S100000x64) S10000x64.size (cc23_transform_5 i) (hinb23_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v35) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v47) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v52) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v53) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v53) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v58) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v63) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v64) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v65) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v65) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v68) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v69) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v70) S10000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v92) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v95) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v65) S10000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v98) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v99) S10000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v99) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v101) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v102) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v103) S10000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v125) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v128) S10000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v99) S10000x64.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v131) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v132) S10000x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v132) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v134) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v135) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v136) S10000x64.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v158) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v161) S10000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v132) S10000x64.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v164) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v165) S10000x64.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v165) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v167) S64x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v168) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v169) S10000x64.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v191) S10000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v194) S10000x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v165) S10000x64.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v197) S1x64.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v198) S10000x64.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev win14_0 : Pipeline.Window sig grid14 :=
  Pipeline.Window.ofSpec (Memref.whole main_v198) S10000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v200) S64x64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v201) S1x64.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v202) S10000x64.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v224) S10000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v227) S10000x64.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v198) S10000x64.size cc15_transform_2 reads15_2 false false 2 stage15_2 sem15_2
    hrank15 hreads15_2 hinb15_2 nbuf15_2 (Memref.isWhole_whole _) hwx15_2 hstage15_2

abbrev win15_3 : Pipeline.Window sig grid15 :=
  Pipeline.Window.ofSpec (Memref.whole main_v230) S1x64.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v231) S10000x64.size cc15_transform_4 reads15_4 true false 2 stage15_4 sem15_4
    hrank15 hreads15_4 hinb15_4 nbuf15_4 (Memref.isWhole_whole _) hwx15_4 hstage15_4

abbrev win15 : Fin 5 → Pipeline.Window sig grid15 := fun | 0 => win15_0 | 1 => win15_1 | 2 => win15_2 | 3 => win15_3 | 4 => win15_4 | ⟨_ + 5, h⟩ => absurd h (Nat.not_lt.2 (Nat.le_add_left _ _))
abbrev spec15 : Fin 5 → Pipeline.WinSpec sig grid15.rank := fun w => (win15 w).toWinSpec

abbrev win16_0 : Pipeline.Window sig grid16 :=
  Pipeline.Window.ofSpec (Memref.whole main_v231) S10000x64.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v233) S64x64.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v234) S1x64.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v235) S10000x64.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev win17_0 : Pipeline.Window sig grid17 :=
  Pipeline.Window.ofSpec (Memref.whole main_v257) S10000x64.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v260) S10000x64.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v231) S10000x64.size cc17_transform_2 reads17_2 false false 2 stage17_2 sem17_2
    hrank17 hreads17_2 hinb17_2 nbuf17_2 (Memref.isWhole_whole _) hwx17_2 hstage17_2

abbrev win17_3 : Pipeline.Window sig grid17 :=
  Pipeline.Window.ofSpec (Memref.whole main_v263) S1x64.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v264) S10000x64.size cc17_transform_4 reads17_4 true false 2 stage17_4 sem17_4
    hrank17 hreads17_4 hinb17_4 nbuf17_4 (Memref.isWhole_whole _) hwx17_4 hstage17_4

abbrev win17 : Fin 5 → Pipeline.Window sig grid17 := fun | 0 => win17_0 | 1 => win17_1 | 2 => win17_2 | 3 => win17_3 | 4 => win17_4 | ⟨_ + 5, h⟩ => absurd h (Nat.not_lt.2 (Nat.le_add_left _ _))
abbrev spec17 : Fin 5 → Pipeline.WinSpec sig grid17.rank := fun w => (win17 w).toWinSpec

abbrev win18_0 : Pipeline.Window sig grid18 :=
  Pipeline.Window.ofSpec (Memref.whole main_v264) S10000x64.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v266) S64x64.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v269) S1x64.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v270) S10000x64.size cc18_transform_3 reads18_3 true false 2 stage18_3 sem18_3
    hrank18 hreads18_3 hinb18_3 nbuf18_3 (Memref.isWhole_whole _) hwx18_3 hstage18_3

abbrev win18 : Fin 4 → Pipeline.Window sig grid18 := fun | 0 => win18_0 | 1 => win18_1 | 2 => win18_2 | 3 => win18_3 | ⟨_ + 4, h⟩ => absurd h (Nat.not_lt.2 (Nat.le_add_left _ _))
abbrev spec18 : Fin 4 → Pipeline.WinSpec sig grid18.rank := fun w => (win18 w).toWinSpec

abbrev win19_0 : Pipeline.Window sig grid19 :=
  Pipeline.Window.ofSpec (Memref.whole main_v270) S10000x64.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v274) S1x64.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v275) S1x64.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v280) S1x64.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v281) S1x64.size cc19_transform_4 reads19_4 false true 1 stage19_4 sem19_4
    hrank19 hreads19_4 hinb19_4 nbuf19_4 (Memref.isWhole_whole _) hwx19_4 hstage19_4

abbrev win19_5 : Pipeline.Window sig grid19 :=
  Pipeline.Window.ofSpec (Memref.whole main_v282) S10000x64.size cc19_transform_5 reads19_5 true false 2 stage19_5 sem19_5
    hrank19 hreads19_5 hinb19_5 nbuf19_5 (Memref.isWhole_whole _) hwx19_5 hstage19_5

abbrev win19 : Fin 6 → Pipeline.Window sig grid19 := fun | 0 => win19_0 | 1 => win19_1 | 2 => win19_2 | 3 => win19_3 | 4 => win19_4 | 5 => win19_5 | ⟨_ + 6, h⟩ => absurd h (Nat.not_lt.2 (Nat.le_add_left _ _))
abbrev spec19 : Fin 6 → Pipeline.WinSpec sig grid19.rank := fun w => (win19 w).toWinSpec

abbrev win20_0 : Pipeline.Window sig grid20 :=
  Pipeline.Window.ofSpec (Memref.whole main_v282) S10000x64.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v284) S64x64.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v287) S1x64.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v288) S10000x64.size cc20_transform_3 reads20_3 true false 2 stage20_3 sem20_3
    hrank20 hreads20_3 hinb20_3 nbuf20_3 (Memref.isWhole_whole _) hwx20_3 hstage20_3

abbrev win20 : Fin 4 → Pipeline.Window sig grid20 := fun | 0 => win20_0 | 1 => win20_1 | 2 => win20_2 | 3 => win20_3 | ⟨_ + 4, h⟩ => absurd h (Nat.not_lt.2 (Nat.le_add_left _ _))
abbrev spec20 : Fin 4 → Pipeline.WinSpec sig grid20.rank := fun w => (win20 w).toWinSpec

abbrev win21_0 : Pipeline.Window sig grid21 :=
  Pipeline.Window.ofSpec (Memref.whole main_v288) S10000x64.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v292) S1x64.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v293) S1x64.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v298) S1x64.size cc21_transform_3 reads21_3 false true 1 stage21_3 sem21_3
    hrank21 hreads21_3 hinb21_3 nbuf21_3 (Memref.isWhole_whole _) hwx21_3 hstage21_3

abbrev win21_4 : Pipeline.Window sig grid21 :=
  Pipeline.Window.ofSpec (Memref.whole main_v299) S1x64.size cc21_transform_4 reads21_4 false true 1 stage21_4 sem21_4
    hrank21 hreads21_4 hinb21_4 nbuf21_4 (Memref.isWhole_whole _) hwx21_4 hstage21_4

abbrev win21_5 : Pipeline.Window sig grid21 :=
  Pipeline.Window.ofSpec (Memref.whole main_v300) S10000x64.size cc21_transform_5 reads21_5 true false 2 stage21_5 sem21_5
    hrank21 hreads21_5 hinb21_5 nbuf21_5 (Memref.isWhole_whole _) hwx21_5 hstage21_5

abbrev win21 : Fin 6 → Pipeline.Window sig grid21 := fun | 0 => win21_0 | 1 => win21_1 | 2 => win21_2 | 3 => win21_3 | 4 => win21_4 | 5 => win21_5 | ⟨_ + 6, h⟩ => absurd h (Nat.not_lt.2 (Nat.le_add_left _ _))
abbrev spec21 : Fin 6 → Pipeline.WinSpec sig grid21.rank := fun w => (win21 w).toWinSpec

abbrev win22_0 : Pipeline.Window sig grid22 :=
  Pipeline.Window.ofSpec (Memref.whole main_v300) S10000x64.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v302) S64x64.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v305) S1x64.size cc22_transform_2 reads22_2 false true 1 stage22_2 sem22_2
    hrank22 hreads22_2 hinb22_2 nbuf22_2 (Memref.isWhole_whole _) hwx22_2 hstage22_2

abbrev win22_3 : Pipeline.Window sig grid22 :=
  Pipeline.Window.ofSpec (Memref.whole main_v306) S10000x64.size cc22_transform_3 reads22_3 true false 2 stage22_3 sem22_3
    hrank22 hreads22_3 hinb22_3 nbuf22_3 (Memref.isWhole_whole _) hwx22_3 hstage22_3

abbrev win22 : Fin 4 → Pipeline.Window sig grid22 := fun | 0 => win22_0 | 1 => win22_1 | 2 => win22_2 | 3 => win22_3 | ⟨_ + 4, h⟩ => absurd h (Nat.not_lt.2 (Nat.le_add_left _ _))
abbrev spec22 : Fin 4 → Pipeline.WinSpec sig grid22.rank := fun w => (win22 w).toWinSpec

abbrev win23_0 : Pipeline.Window sig grid23 :=
  Pipeline.Window.ofSpec (Memref.whole main_v306) S10000x64.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v310) S1x64.size cc23_transform_1 reads23_1 false true 1 stage23_1 sem23_1
    hrank23 hreads23_1 hinb23_1 nbuf23_1 (Memref.isWhole_whole _) hwx23_1 hstage23_1

abbrev win23_2 : Pipeline.Window sig grid23 :=
  Pipeline.Window.ofSpec (Memref.whole main_v311) S1x64.size cc23_transform_2 reads23_2 false true 1 stage23_2 sem23_2
    hrank23 hreads23_2 hinb23_2 nbuf23_2 (Memref.isWhole_whole _) hwx23_2 hstage23_2

abbrev win23_3 : Pipeline.Window sig grid23 :=
  Pipeline.Window.ofSpec (Memref.whole main_v316) S1x64.size cc23_transform_3 reads23_3 false true 1 stage23_3 sem23_3
    hrank23 hreads23_3 hinb23_3 nbuf23_3 (Memref.isWhole_whole _) hwx23_3 hstage23_3

abbrev win23_4 : Pipeline.Window sig grid23 :=
  Pipeline.Window.ofSpec (Memref.whole main_v317) S1x64.size cc23_transform_4 reads23_4 false true 1 stage23_4 sem23_4
    hrank23 hreads23_4 hinb23_4 nbuf23_4 (Memref.isWhole_whole _) hwx23_4 hstage23_4

abbrev win23_5 : Pipeline.Window sig grid23 :=
  Pipeline.Window.ofSpec (Memref.whole main_v318) S10000x64.size cc23_transform_5 reads23_5 true false 2 stage23_5 sem23_5
    hrank23 hreads23_5 hinb23_5 nbuf23_5 (Memref.isWhole_whole _) hwx23_5 hstage23_5

abbrev win23 : Fin 6 → Pipeline.Window sig grid23 := fun | 0 => win23_0 | 1 => win23_1 | 2 => win23_2 | 3 => win23_3 | 4 => win23_4 | 5 => win23_5 | ⟨_ + 6, h⟩ => absurd h (Nat.not_lt.2 (Nat.le_add_left _ _))
abbrev spec23 : Fin 6 → Pipeline.WinSpec sig grid23.rank := fun w => (win23 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S100000 : Shape := ⟨1, ![100000]⟩
abbrev S3x64x64 : Shape := ⟨3, ![3, 64, 64]⟩
abbrev S3x64 : Shape := ⟨2, ![3, 64]⟩
abbrev S6x64x64 : Shape := ⟨3, ![6, 64, 64]⟩
abbrev S6x64 : Shape := ⟨2, ![6, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x64x64 : Shape := ⟨3, ![1, 64, 64]⟩
abbrev S1x64 : Shape := ⟨2, ![1, 64]⟩
abbrev S800000x64 : Shape := ⟨2, ![800000, 64]⟩
abbrev S100000x1 : Shape := ⟨2, ![100000, 1]⟩
abbrev S64x1 : Shape := ⟨2, ![64, 1]⟩
abbrev S1x2 : Shape := ⟨2, ![1, 2]⟩

abbrev nBuf : Space → Nat
  | .hbm => 724
  | .vmem => 0
  | .smem => 0
  | _ => 0

abbrev hbmTy0_0 (i : Nat) : BufTy := match i % 128 with
  | 0 => ⟨S100000x64, .f32⟩
  | 1 => ⟨S2x800000, .i32⟩
  | 2 => ⟨S100000, .i32⟩
  | 3 => ⟨S3x64x64, .f32⟩
  | 4 => ⟨S3x64, .f32⟩
  | 5 => ⟨S3x64, .f32⟩
  | 6 => ⟨S3x64, .f32⟩
  | 7 => ⟨S6x64x64, .f32⟩
  | 8 => ⟨S6x64, .f32⟩
  | 9 => ⟨S3x64x64, .f32⟩
  | 10 => ⟨S3x64, .f32⟩
  | 11 => ⟨S3x64, .f32⟩
  | 12 => ⟨S3x64, .f32⟩
  | 13 => ⟨S64x64, .f32⟩
  | 14 => ⟨S64, .f32⟩
  | 15 => ⟨S64x64, .f32⟩
  | 16 => ⟨S64, .f32⟩
  | 17 => ⟨S64x2, .f32⟩
  | 18 => ⟨S2, .f32⟩
  | 19 => ⟨S1x800000, .i32⟩
  | 20 => ⟨S800000, .i32⟩
  | 21 => ⟨S1x800000, .i32⟩
  | 22 => ⟨S800000, .i32⟩
  | 23 => ⟨S_, .f32⟩
  | 24 => ⟨S800000, .f32⟩
  | 25 => ⟨S_, .f32⟩
  | 26 => ⟨S100000, .f32⟩
  | 27 => ⟨S800000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S1x64x64, .f32⟩
  | 34 => ⟨S64x64, .f32⟩
  | 35 => ⟨S100000x64, .f32⟩
  | 36 => ⟨S1x64, .f32⟩
  | 37 => ⟨S64, .f32⟩
  | 38 => ⟨S1x64, .f32⟩
  | 39 => ⟨S100000x64, .f32⟩
  | 40 => ⟨S100000x64, .f32⟩
  | 41 => ⟨S1x64, .f32⟩
  | 42 => ⟨S64, .f32⟩
  | 43 => ⟨S1x64, .f32⟩
  | 44 => ⟨S64, .f32⟩
  | 45 => ⟨S_, .f32⟩
  | 46 => ⟨S64, .f32⟩
  | 47 => ⟨S_, .f32⟩
  | 48 => ⟨S64, .f32⟩
  | 49 => ⟨S64, .f32⟩
  | 50 => ⟨S_, .i32⟩
  | 51 => ⟨S_, .f32⟩
  | 52 => ⟨S64, .f32⟩
  | 53 => ⟨S1x64, .f32⟩
  | 54 => ⟨S_, .f32⟩
  | 55 => ⟨S1x64, .f32⟩
  | 56 => ⟨S1x64, .f32⟩
  | 57 => ⟨S100000x64, .f32⟩
  | 58 => ⟨S100000x64, .f32⟩
  | 59 => ⟨S100000x64, .f32⟩
  | 60 => ⟨S_, .f32⟩
  | 61 => ⟨S_, .f32⟩
  | 62 => ⟨S_, .f32⟩
  | 63 => ⟨S_, .f32⟩
  | 64 => ⟨S64, .f32⟩
  | 65 => ⟨S64, .f32⟩
  | 66 => ⟨S64, .f32⟩
  | 67 => ⟨S_, .f32⟩
  | 68 => ⟨S_, .i1⟩
  | 69 => ⟨S_, .f32⟩
  | 70 => ⟨S_, .f32⟩
  | 71 => ⟨S64, .f32⟩
  | 72 => ⟨S64, .f32⟩
  | 73 => ⟨S1x64, .f32⟩
  | 74 => ⟨S100000x64, .f32⟩
  | 75 => ⟨S100000x64, .f32⟩
  | 76 => ⟨S_, .f32⟩
  | 77 => ⟨S64, .f32⟩
  | 78 => ⟨S64, .f32⟩
  | 79 => ⟨S64, .f32⟩
  | 80 => ⟨S1x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S1x64x64, .f32⟩
  | 93 => ⟨S64x64, .f32⟩
  | 94 => ⟨S100000x64, .f32⟩
  | 95 => ⟨S1x64, .f32⟩
  | 96 => ⟨S64, .f32⟩
  | 97 => ⟨S1x64, .f32⟩
  | 98 => ⟨S100000x64, .f32⟩
  | 99 => ⟨S100000x64, .f32⟩
  | 100 => ⟨S1x64, .f32⟩
  | 101 => ⟨S64, .f32⟩
  | 102 => ⟨S1x64, .f32⟩
  | 103 => ⟨S64, .f32⟩
  | 104 => ⟨S_, .f32⟩
  | 105 => ⟨S64, .f32⟩
  | 106 => ⟨S_, .f32⟩
  | 107 => ⟨S64, .f32⟩
  | 108 => ⟨S64, .f32⟩
  | 109 => ⟨S_, .i32⟩
  | 110 => ⟨S_, .f32⟩
  | 111 => ⟨S64, .f32⟩
  | 112 => ⟨S1x64, .f32⟩
  | 113 => ⟨S_, .f32⟩
  | 114 => ⟨S1x64, .f32⟩
  | 115 => ⟨S1x64, .f32⟩
  | 116 => ⟨S100000x64, .f32⟩
  | 117 => ⟨S100000x64, .f32⟩
  | 118 => ⟨S100000x64, .f32⟩
  | 119 => ⟨S_, .f32⟩
  | 120 => ⟨S_, .f32⟩
  | 121 => ⟨S_, .f32⟩
  | 122 => ⟨S_, .f32⟩
  | 123 => ⟨S64, .f32⟩
  | 124 => ⟨S64, .f32⟩
  | 125 => ⟨S64, .f32⟩
  | 126 => ⟨S_, .f32⟩
  | 127 => ⟨S_, .i1⟩
  | _ => ⟨S100000x64, .f32⟩

abbrev hbmTy0_1 (i : Nat) : BufTy := match i % 128 with
  | 0 => ⟨S_, .f32⟩
  | 1 => ⟨S_, .f32⟩
  | 2 => ⟨S64, .f32⟩
  | 3 => ⟨S64, .f32⟩
  | 4 => ⟨S1x64, .f32⟩
  | 5 => ⟨S100000x64, .f32⟩
  | 6 => ⟨S100000x64, .f32⟩
  | 7 => ⟨S_, .f32⟩
  | 8 => ⟨S64, .f32⟩
  | 9 => ⟨S64, .f32⟩
  | 10 => ⟨S64, .f32⟩
  | 11 => ⟨S1x64, .f32⟩
  | 12 => ⟨S100000x64, .f32⟩
  | 13 => ⟨S100000x64, .f32⟩
  | 14 => ⟨S1x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S1x64x64, .f32⟩
  | 24 => ⟨S64x64, .f32⟩
  | 25 => ⟨S100000x64, .f32⟩
  | 26 => ⟨S1x64, .f32⟩
  | 27 => ⟨S64, .f32⟩
  | 28 => ⟨S1x64, .f32⟩
  | 29 => ⟨S100000x64, .f32⟩
  | 30 => ⟨S100000x64, .f32⟩
  | 31 => ⟨S1x64, .f32⟩
  | 32 => ⟨S64, .f32⟩
  | 33 => ⟨S1x64, .f32⟩
  | 34 => ⟨S64, .f32⟩
  | 35 => ⟨S_, .f32⟩
  | 36 => ⟨S64, .f32⟩
  | 37 => ⟨S_, .f32⟩
  | 38 => ⟨S64, .f32⟩
  | 39 => ⟨S64, .f32⟩
  | 40 => ⟨S_, .i32⟩
  | 41 => ⟨S_, .f32⟩
  | 42 => ⟨S64, .f32⟩
  | 43 => ⟨S1x64, .f32⟩
  | 44 => ⟨S_, .f32⟩
  | 45 => ⟨S1x64, .f32⟩
  | 46 => ⟨S1x64, .f32⟩
  | 47 => ⟨S100000x64, .f32⟩
  | 48 => ⟨S100000x64, .f32⟩
  | 49 => ⟨S100000x64, .f32⟩
  | 50 => ⟨S_, .f32⟩
  | 51 => ⟨S_, .f32⟩
  | 52 => ⟨S_, .f32⟩
  | 53 => ⟨S_, .f32⟩
  | 54 => ⟨S64, .f32⟩
  | 55 => ⟨S64, .f32⟩
  | 56 => ⟨S64, .f32⟩
  | 57 => ⟨S_, .f32⟩
  | 58 => ⟨S_, .i1⟩
  | 59 => ⟨S_, .f32⟩
  | 60 => ⟨S_, .f32⟩
  | 61 => ⟨S64, .f32⟩
  | 62 => ⟨S64, .f32⟩
  | 63 => ⟨S1x64, .f32⟩
  | 64 => ⟨S100000x64, .f32⟩
  | 65 => ⟨S100000x64, .f32⟩
  | 66 => ⟨S_, .f32⟩
  | 67 => ⟨S64, .f32⟩
  | 68 => ⟨S64, .f32⟩
  | 69 => ⟨S64, .f32⟩
  | 70 => ⟨S1x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S1x64x64, .f32⟩
  | 80 => ⟨S64x64, .f32⟩
  | 81 => ⟨S1x64, .f32⟩
  | 82 => ⟨S64, .f32⟩
  | 83 => ⟨S100000x64, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000, .f32⟩
  | 102 => ⟨S800000, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S800000x1, .f32⟩
  | 113 => ⟨S800000x64, .f32⟩
  | 114 => ⟨S800000x64, .f32⟩
  | 115 => ⟨S_, .f32⟩
  | 116 => ⟨S100000x64, .f32⟩
  | 117 => ⟨S800000x1, .i32⟩
  | 118 => ⟨S100000x64, .f32⟩
  | 119 => ⟨S100000, .f32⟩
  | 120 => ⟨S100000x1, .f32⟩
  | 121 => ⟨S100000x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S100000x64, .f32⟩
  | _ => ⟨S100000x64, .f32⟩

abbrev hbmTy0_2 (i : Nat) : BufTy := match i % 128 with
  | 0 => ⟨S_, .f32⟩
  | 1 => ⟨S100000x64, .f32⟩
  | 2 => ⟨S100000x64, .f32⟩
  | 3 => ⟨S1x64x64, .f32⟩
  | 4 => ⟨S64x64, .f32⟩
  | 5 => ⟨S1x64, .f32⟩
  | 6 => ⟨S64, .f32⟩
  | 7 => ⟨S100000x64, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000, .f32⟩
  | 26 => ⟨S800000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x64, .f32⟩
  | 36 => ⟨S800000x1, .f32⟩
  | 37 => ⟨S800000x64, .f32⟩
  | 38 => ⟨S800000x64, .f32⟩
  | 39 => ⟨S_, .f32⟩
  | 40 => ⟨S100000x64, .f32⟩
  | 41 => ⟨S800000x1, .i32⟩
  | 42 => ⟨S100000x64, .f32⟩
  | 43 => ⟨S100000, .f32⟩
  | 44 => ⟨S100000x1, .f32⟩
  | 45 => ⟨S100000x64, .f32⟩
  | 46 => ⟨S100000x64, .f32⟩
  | 47 => ⟨S100000x64, .f32⟩
  | 48 => ⟨S1x64, .f32⟩
  | 49 => ⟨S100000x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S1x64x64, .f32⟩
  | 56 => ⟨S64x64, .f32⟩
  | 57 => ⟨S1x64, .f32⟩
  | 58 => ⟨S64, .f32⟩
  | 59 => ⟨S100000x64, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000, .f32⟩
  | 78 => ⟨S800000, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x64, .f32⟩
  | 88 => ⟨S800000x1, .f32⟩
  | 89 => ⟨S800000x64, .f32⟩
  | 90 => ⟨S800000x64, .f32⟩
  | 91 => ⟨S_, .f32⟩
  | 92 => ⟨S100000x64, .f32⟩
  | 93 => ⟨S800000x1, .i32⟩
  | 94 => ⟨S100000x64, .f32⟩
  | 95 => ⟨S100000, .f32⟩
  | 96 => ⟨S100000x1, .f32⟩
  | 97 => ⟨S100000x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S1x64x64, .f32⟩
  | 108 => ⟨S64x64, .f32⟩
  | 109 => ⟨S1x64, .f32⟩
  | 110 => ⟨S64, .f32⟩
  | 111 => ⟨S100000x64, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S100000x64, .f32⟩

abbrev hbmTy0_3 (i : Nat) : BufTy := match i % 128 with
  | 0 => ⟨S800000x1, .i32⟩
  | 1 => ⟨S800000, .f32⟩
  | 2 => ⟨S800000, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x64, .f32⟩
  | 12 => ⟨S800000x1, .f32⟩
  | 13 => ⟨S800000x64, .f32⟩
  | 14 => ⟨S800000x64, .f32⟩
  | 15 => ⟨S_, .f32⟩
  | 16 => ⟨S100000x64, .f32⟩
  | 17 => ⟨S800000x1, .i32⟩
  | 18 => ⟨S100000x64, .f32⟩
  | 19 => ⟨S100000, .f32⟩
  | 20 => ⟨S100000x1, .f32⟩
  | 21 => ⟨S100000x64, .f32⟩
  | 22 => ⟨S100000x64, .f32⟩
  | 23 => ⟨S100000x64, .f32⟩
  | 24 => ⟨S1x64, .f32⟩
  | 25 => ⟨S100000x64, .f32⟩
  | 26 => ⟨S100000x64, .f32⟩
  | 27 => ⟨S100000x64, .f32⟩
  | 28 => ⟨S_, .f32⟩
  | 29 => ⟨S100000x64, .f32⟩
  | 30 => ⟨S100000x64, .f32⟩
  | 31 => ⟨S1x64x64, .f32⟩
  | 32 => ⟨S64x64, .f32⟩
  | 33 => ⟨S1x64, .f32⟩
  | 34 => ⟨S64, .f32⟩
  | 35 => ⟨S100000x64, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x64, .f32⟩
  | 64 => ⟨S800000x1, .f32⟩
  | 65 => ⟨S800000x64, .f32⟩
  | 66 => ⟨S800000x64, .f32⟩
  | 67 => ⟨S_, .f32⟩
  | 68 => ⟨S100000x64, .f32⟩
  | 69 => ⟨S800000x1, .i32⟩
  | 70 => ⟨S100000x64, .f32⟩
  | 71 => ⟨S100000, .f32⟩
  | 72 => ⟨S100000x1, .f32⟩
  | 73 => ⟨S100000x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S1x64x64, .f32⟩
  | 84 => ⟨S64x64, .f32⟩
  | 85 => ⟨S1x64, .f32⟩
  | 86 => ⟨S64, .f32⟩
  | 87 => ⟨S100000x64, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000, .f32⟩
  | 106 => ⟨S800000, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x64, .f32⟩
  | 116 => ⟨S800000x1, .f32⟩
  | 117 => ⟨S800000x64, .f32⟩
  | 118 => ⟨S800000x64, .f32⟩
  | 119 => ⟨S_, .f32⟩
  | 120 => ⟨S100000x64, .f32⟩
  | 121 => ⟨S800000x1, .i32⟩
  | 122 => ⟨S100000x64, .f32⟩
  | 123 => ⟨S100000, .f32⟩
  | 124 => ⟨S100000x1, .f32⟩
  | 125 => ⟨S100000x64, .f32⟩
  | 126 => ⟨S100000x64, .f32⟩
  | 127 => ⟨S100000x64, .f32⟩
  | _ => ⟨S100000x64, .f32⟩

abbrev hbmTy0_4 (i : Nat) : BufTy := match i % 128 with
  | 0 => ⟨S1x64, .f32⟩
  | 1 => ⟨S100000x64, .f32⟩
  | 2 => ⟨S100000x64, .f32⟩
  | 3 => ⟨S100000x64, .f32⟩
  | 4 => ⟨S1x64x64, .f32⟩
  | 5 => ⟨S64x64, .f32⟩
  | 6 => ⟨S100000x64, .f32⟩
  | 7 => ⟨S1x64, .f32⟩
  | 8 => ⟨S64, .f32⟩
  | 9 => ⟨S1x64, .f32⟩
  | 10 => ⟨S100000x64, .f32⟩
  | 11 => ⟨S100000x64, .f32⟩
  | 12 => ⟨S1x64, .f32⟩
  | 13 => ⟨S64, .f32⟩
  | 14 => ⟨S1x64, .f32⟩
  | 15 => ⟨S64, .f32⟩
  | 16 => ⟨S_, .f32⟩
  | 17 => ⟨S64, .f32⟩
  | 18 => ⟨S_, .f32⟩
  | 19 => ⟨S64, .f32⟩
  | 20 => ⟨S64, .f32⟩
  | 21 => ⟨S_, .i32⟩
  | 22 => ⟨S_, .f32⟩
  | 23 => ⟨S64, .f32⟩
  | 24 => ⟨S1x64, .f32⟩
  | 25 => ⟨S_, .f32⟩
  | 26 => ⟨S1x64, .f32⟩
  | 27 => ⟨S1x64, .f32⟩
  | 28 => ⟨S100000x64, .f32⟩
  | 29 => ⟨S100000x64, .f32⟩
  | 30 => ⟨S100000x64, .f32⟩
  | 31 => ⟨S_, .f32⟩
  | 32 => ⟨S_, .f32⟩
  | 33 => ⟨S_, .f32⟩
  | 34 => ⟨S_, .f32⟩
  | 35 => ⟨S64, .f32⟩
  | 36 => ⟨S64, .f32⟩
  | 37 => ⟨S64, .f32⟩
  | 38 => ⟨S_, .f32⟩
  | 39 => ⟨S_, .i1⟩
  | 40 => ⟨S_, .f32⟩
  | 41 => ⟨S_, .f32⟩
  | 42 => ⟨S64, .f32⟩
  | 43 => ⟨S64, .f32⟩
  | 44 => ⟨S1x64, .f32⟩
  | 45 => ⟨S100000x64, .f32⟩
  | 46 => ⟨S100000x64, .f32⟩
  | 47 => ⟨S_, .f32⟩
  | 48 => ⟨S64, .f32⟩
  | 49 => ⟨S64, .f32⟩
  | 50 => ⟨S64, .f32⟩
  | 51 => ⟨S1x64, .f32⟩
  | 52 => ⟨S100000x64, .f32⟩
  | 53 => ⟨S100000x64, .f32⟩
  | 54 => ⟨S1x64, .f32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S_, .f32⟩
  | 61 => ⟨S100000x64, .f32⟩
  | 62 => ⟨S100000x64, .f32⟩
  | 63 => ⟨S1x64x64, .f32⟩
  | 64 => ⟨S64x64, .f32⟩
  | 65 => ⟨S100000x64, .f32⟩
  | 66 => ⟨S1x64, .f32⟩
  | 67 => ⟨S64, .f32⟩
  | 68 => ⟨S1x64, .f32⟩
  | 69 => ⟨S100000x64, .f32⟩
  | 70 => ⟨S100000x64, .f32⟩
  | 71 => ⟨S1x64, .f32⟩
  | 72 => ⟨S64, .f32⟩
  | 73 => ⟨S1x64, .f32⟩
  | 74 => ⟨S64, .f32⟩
  | 75 => ⟨S_, .f32⟩
  | 76 => ⟨S64, .f32⟩
  | 77 => ⟨S_, .f32⟩
  | 78 => ⟨S64, .f32⟩
  | 79 => ⟨S64, .f32⟩
  | 80 => ⟨S_, .i32⟩
  | 81 => ⟨S_, .f32⟩
  | 82 => ⟨S64, .f32⟩
  | 83 => ⟨S1x64, .f32⟩
  | 84 => ⟨S_, .f32⟩
  | 85 => ⟨S1x64, .f32⟩
  | 86 => ⟨S1x64, .f32⟩
  | 87 => ⟨S100000x64, .f32⟩
  | 88 => ⟨S100000x64, .f32⟩
  | 89 => ⟨S100000x64, .f32⟩
  | 90 => ⟨S_, .f32⟩
  | 91 => ⟨S_, .f32⟩
  | 92 => ⟨S_, .f32⟩
  | 93 => ⟨S_, .f32⟩
  | 94 => ⟨S64, .f32⟩
  | 95 => ⟨S64, .f32⟩
  | 96 => ⟨S64, .f32⟩
  | 97 => ⟨S_, .f32⟩
  | 98 => ⟨S_, .i1⟩
  | 99 => ⟨S_, .f32⟩
  | 100 => ⟨S_, .f32⟩
  | 101 => ⟨S64, .f32⟩
  | 102 => ⟨S64, .f32⟩
  | 103 => ⟨S1x64, .f32⟩
  | 104 => ⟨S100000x64, .f32⟩
  | 105 => ⟨S100000x64, .f32⟩
  | 106 => ⟨S_, .f32⟩
  | 107 => ⟨S64, .f32⟩
  | 108 => ⟨S64, .f32⟩
  | 109 => ⟨S64, .f32⟩
  | 110 => ⟨S1x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S1x64x64, .f32⟩
  | 123 => ⟨S64x64, .f32⟩
  | 124 => ⟨S100000x64, .f32⟩
  | 125 => ⟨S1x64, .f32⟩
  | 126 => ⟨S64, .f32⟩
  | 127 => ⟨S1x64, .f32⟩
  | _ => ⟨S100000x64, .f32⟩

abbrev hbmTy0_5 (i : Nat) : BufTy := match i % 128 with
  | 0 => ⟨S100000x64, .f32⟩
  | 1 => ⟨S100000x64, .f32⟩
  | 2 => ⟨S1x64, .f32⟩
  | 3 => ⟨S64, .f32⟩
  | 4 => ⟨S1x64, .f32⟩
  | 5 => ⟨S64, .f32⟩
  | 6 => ⟨S_, .f32⟩
  | 7 => ⟨S64, .f32⟩
  | 8 => ⟨S_, .f32⟩
  | 9 => ⟨S64, .f32⟩
  | 10 => ⟨S64, .f32⟩
  | 11 => ⟨S_, .i32⟩
  | 12 => ⟨S_, .f32⟩
  | 13 => ⟨S64, .f32⟩
  | 14 => ⟨S1x64, .f32⟩
  | 15 => ⟨S_, .f32⟩
  | 16 => ⟨S1x64, .f32⟩
  | 17 => ⟨S1x64, .f32⟩
  | 18 => ⟨S100000x64, .f32⟩
  | 19 => ⟨S100000x64, .f32⟩
  | 20 => ⟨S100000x64, .f32⟩
  | 21 => ⟨S_, .f32⟩
  | 22 => ⟨S_, .f32⟩
  | 23 => ⟨S_, .f32⟩
  | 24 => ⟨S_, .f32⟩
  | 25 => ⟨S64, .f32⟩
  | 26 => ⟨S64, .f32⟩
  | 27 => ⟨S64, .f32⟩
  | 28 => ⟨S_, .f32⟩
  | 29 => ⟨S_, .i1⟩
  | 30 => ⟨S_, .f32⟩
  | 31 => ⟨S_, .f32⟩
  | 32 => ⟨S64, .f32⟩
  | 33 => ⟨S64, .f32⟩
  | 34 => ⟨S1x64, .f32⟩
  | 35 => ⟨S100000x64, .f32⟩
  | 36 => ⟨S100000x64, .f32⟩
  | 37 => ⟨S_, .f32⟩
  | 38 => ⟨S64, .f32⟩
  | 39 => ⟨S64, .f32⟩
  | 40 => ⟨S64, .f32⟩
  | 41 => ⟨S1x64, .f32⟩
  | 42 => ⟨S100000x64, .f32⟩
  | 43 => ⟨S100000x64, .f32⟩
  | 44 => ⟨S1x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S_, .f32⟩
  | 51 => ⟨S100000, .f32⟩
  | 52 => ⟨S_, .f32⟩
  | 53 => ⟨S64, .f32⟩
  | 54 => ⟨S100000x1, .i32⟩
  | 55 => ⟨S64, .f32⟩
  | 56 => ⟨S_, .f32⟩
  | 57 => ⟨S64x64, .f32⟩
  | 58 => ⟨S100000x1, .i32⟩
  | 59 => ⟨S64x64, .f32⟩
  | 60 => ⟨S_, .f32⟩
  | 61 => ⟨S64, .f32⟩
  | 62 => ⟨S64, .f32⟩
  | 63 => ⟨S64x1, .f32⟩
  | 64 => ⟨S64x64, .f32⟩
  | 65 => ⟨S64x64, .f32⟩
  | 66 => ⟨S64x64, .f32⟩
  | 67 => ⟨S1x64, .f32⟩
  | 68 => ⟨S64x64, .f32⟩
  | 69 => ⟨S64x64, .f32⟩
  | 70 => ⟨S_, .f32⟩
  | 71 => ⟨S64x64, .f32⟩
  | 72 => ⟨S64x64, .f32⟩
  | 73 => ⟨S64x64, .f32⟩
  | 74 => ⟨S1x64, .f32⟩
  | 75 => ⟨S64x64, .f32⟩
  | 76 => ⟨S64x64, .f32⟩
  | 77 => ⟨S_, .f32⟩
  | 78 => ⟨S64x64, .f32⟩
  | 79 => ⟨S64x64, .f32⟩
  | 80 => ⟨S64x2, .f32⟩
  | 81 => ⟨S1x2, .f32⟩
  | 82 => ⟨S64x2, .f32⟩
  | 83 => ⟨S64x2, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_c : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_4 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_call1_cst : Ref sig .tc := ⟨.hbm, 89, rfl⟩
abbrev main_call1_v0 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_cst_5 : Ref sig .tc := ⟨.hbm, 104, rfl⟩
abbrev main_v55 : Ref sig .tc := ⟨.hbm, 105, rfl⟩
abbrev main_cst_6 : Ref sig .tc := ⟨.hbm, 106, rfl⟩
abbrev main_v56 : Ref sig .tc := ⟨.hbm, 107, rfl⟩
abbrev main_v57 : Ref sig .tc := ⟨.hbm, 108, rfl⟩
abbrev main_c_7 : Ref sig .tc := ⟨.hbm, 109, rfl⟩
abbrev main_call2_cst : Ref sig .tc := ⟨.hbm, 110, rfl⟩
abbrev main_call2_v0 : Ref sig .tc := ⟨.hbm, 111, rfl⟩
abbrev main_call2_v1 : Ref sig .tc := ⟨.hbm, 112, rfl⟩
abbrev main_call2_cst_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_v7 : Ref sig .tc := ⟨.hbm, 119, rfl⟩
abbrev main_call2_cst_1 : Ref sig .tc := ⟨.hbm, 120, rfl⟩
abbrev main_call2_v8 : Ref sig .tc := ⟨.hbm, 121, rfl⟩
abbrev main_call2_cst_2 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_cst_3 : Ref sig .tc := ⟨.hbm, 126, rfl⟩
abbrev main_call2_v12 : Ref sig .tc := ⟨.hbm, 127, rfl⟩
abbrev main_call2_cst_4 : Ref sig .tc := ⟨.hbm, 128, rfl⟩
abbrev main_call2_call0_v0 : Ref sig .tc := ⟨.hbm, 129, rfl⟩
abbrev main_call2_call0_v1 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_cst_8 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_call3_cst : Ref sig .tc := ⟨.hbm, 148, rfl⟩
abbrev main_call3_v0 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_cst_9 : Ref sig .tc := ⟨.hbm, 163, rfl⟩
abbrev main_v87 : Ref sig .tc := ⟨.hbm, 164, rfl⟩
abbrev main_cst_10 : Ref sig .tc := ⟨.hbm, 165, rfl⟩
abbrev main_v88 : Ref sig .tc := ⟨.hbm, 166, rfl⟩
abbrev main_v89 : Ref sig .tc := ⟨.hbm, 167, rfl⟩
abbrev main_c_11 : Ref sig .tc := ⟨.hbm, 168, rfl⟩
abbrev main_call4_cst : Ref sig .tc := ⟨.hbm, 169, rfl⟩
abbrev main_call4_v0 : Ref sig .tc := ⟨.hbm, 170, rfl⟩
abbrev main_call4_v1 : Ref sig .tc := ⟨.hbm, 171, rfl⟩
abbrev main_call4_cst_0 : Ref sig .tc := ⟨.hbm, 172, rfl⟩
abbrev main_call4_v2 : Ref sig .tc := ⟨.hbm, 173, rfl⟩
abbrev main_call4_v3 : Ref sig .tc := ⟨.hbm, 174, rfl⟩
abbrev main_call4_v4 : Ref sig .tc := ⟨.hbm, 175, rfl⟩
abbrev main_call4_v5 : Ref sig .tc := ⟨.hbm, 176, rfl⟩
abbrev main_call4_v6 : Ref sig .tc := ⟨.hbm, 177, rfl⟩
abbrev main_call4_v7 : Ref sig .tc := ⟨.hbm, 178, rfl⟩
abbrev main_call4_cst_1 : Ref sig .tc := ⟨.hbm, 179, rfl⟩
abbrev main_call4_v8 : Ref sig .tc := ⟨.hbm, 180, rfl⟩
abbrev main_call4_cst_2 : Ref sig .tc := ⟨.hbm, 181, rfl⟩
abbrev main_call4_v9 : Ref sig .tc := ⟨.hbm, 182, rfl⟩
abbrev main_call4_v10 : Ref sig .tc := ⟨.hbm, 183, rfl⟩
abbrev main_call4_v11 : Ref sig .tc := ⟨.hbm, 184, rfl⟩
abbrev main_call4_cst_3 : Ref sig .tc := ⟨.hbm, 185, rfl⟩
abbrev main_call4_v12 : Ref sig .tc := ⟨.hbm, 186, rfl⟩
abbrev main_call4_cst_4 : Ref sig .tc := ⟨.hbm, 187, rfl⟩
abbrev main_call4_call0_v0 : Ref sig .tc := ⟨.hbm, 188, rfl⟩
abbrev main_call4_call0_v1 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_cst_12 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_v102 : Ref sig .tc := ⟨.hbm, 203, rfl⟩
abbrev main_v103 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_v107 : Ref sig .tc := ⟨.hbm, 208, rfl⟩
abbrev main_v108 : Ref sig .tc := ⟨.hbm, 209, rfl⟩
abbrev main_v109 : Ref sig .tc := ⟨.hbm, 210, rfl⟩
abbrev main_v110 : Ref sig .tc := ⟨.hbm, 211, rfl⟩
abbrev main_c_13 : Ref sig .tc := ⟨.hbm, 212, rfl⟩
abbrev main_v111 : Ref sig .tc := ⟨.hbm, 213, rfl⟩
abbrev main_v112 : Ref sig .tc := ⟨.hbm, 214, rfl⟩
abbrev main_c_14 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_v116 : Ref sig .tc := ⟨.hbm, 219, rfl⟩
abbrev main_v117 : Ref sig .tc := ⟨.hbm, 220, rfl⟩
abbrev main_c_15 : Ref sig .tc := ⟨.hbm, 221, rfl⟩
abbrev main_v118 : Ref sig .tc := ⟨.hbm, 222, rfl⟩
abbrev main_v119 : Ref sig .tc := ⟨.hbm, 223, rfl⟩
abbrev main_c_16 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_c_17 : Ref sig .tc := ⟨.hbm, 231, rfl⟩
abbrev main_v126 : Ref sig .tc := ⟨.hbm, 232, rfl⟩
abbrev main_v127 : Ref sig .tc := ⟨.hbm, 233, rfl⟩
abbrev main_c_18 : Ref sig .tc := ⟨.hbm, 234, rfl⟩
abbrev main_v128 : Ref sig .tc := ⟨.hbm, 235, rfl⟩
abbrev main_v129 : Ref sig .tc := ⟨.hbm, 236, rfl⟩
abbrev main_v130 : Ref sig .tc := ⟨.hbm, 237, rfl⟩
abbrev main_v131 : Ref sig .tc := ⟨.hbm, 238, rfl⟩
abbrev main_v132 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_cst_19 : Ref sig .tc := ⟨.hbm, 243, rfl⟩
abbrev main_v136 : Ref sig .tc := ⟨.hbm, 244, rfl⟩
abbrev main_v137 : Ref sig .tc := ⟨.hbm, 245, rfl⟩
abbrev main_v138 : Ref sig .tc := ⟨.hbm, 246, rfl⟩
abbrev main_v139 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_v143 : Ref sig .tc := ⟨.hbm, 251, rfl⟩
abbrev main_v144 : Ref sig .tc := ⟨.hbm, 252, rfl⟩
abbrev main_v145 : Ref sig .tc := ⟨.hbm, 253, rfl⟩
abbrev main_v146 : Ref sig .tc := ⟨.hbm, 254, rfl⟩
abbrev main_v147 : Ref sig .tc := ⟨.hbm, 255, rfl⟩
abbrev main_call5_cst : Ref sig .tc := ⟨.hbm, 256, rfl⟩
abbrev main_call5_v0 : Ref sig .tc := ⟨.hbm, 257, rfl⟩
abbrev main_v148 : Ref sig .tc := ⟨.hbm, 258, rfl⟩
abbrev main_v149 : Ref sig .tc := ⟨.hbm, 259, rfl⟩
abbrev main_v150 : Ref sig .tc := ⟨.hbm, 260, rfl⟩
abbrev main_v151 : Ref sig .tc := ⟨.hbm, 261, rfl⟩
abbrev main_v152 : Ref sig .tc := ⟨.hbm, 262, rfl⟩
abbrev main_v153 : Ref sig .tc := ⟨.hbm, 263, rfl⟩
abbrev main_c_20 : Ref sig .tc := ⟨.hbm, 264, rfl⟩
abbrev main_v154 : Ref sig .tc := ⟨.hbm, 265, rfl⟩
abbrev main_v155 : Ref sig .tc := ⟨.hbm, 266, rfl⟩
abbrev main_c_21 : Ref sig .tc := ⟨.hbm, 267, rfl⟩
abbrev main_v156 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_v160 : Ref sig .tc := ⟨.hbm, 272, rfl⟩
abbrev main_c_22 : Ref sig .tc := ⟨.hbm, 273, rfl⟩
abbrev main_v161 : Ref sig .tc := ⟨.hbm, 274, rfl⟩
abbrev main_v162 : Ref sig .tc := ⟨.hbm, 275, rfl⟩
abbrev main_c_23 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_v167 : Ref sig .tc := ⟨.hbm, 281, rfl⟩
abbrev main_v168 : Ref sig .tc := ⟨.hbm, 282, rfl⟩
abbrev main_c_24 : Ref sig .tc := ⟨.hbm, 283, rfl⟩
abbrev main_v169 : Ref sig .tc := ⟨.hbm, 284, rfl⟩
abbrev main_v170 : Ref sig .tc := ⟨.hbm, 285, rfl⟩
abbrev main_c_25 : Ref sig .tc := ⟨.hbm, 286, rfl⟩
abbrev main_v171 : Ref sig .tc := ⟨.hbm, 287, rfl⟩
abbrev main_v172 : Ref sig .tc := ⟨.hbm, 288, rfl⟩
abbrev main_v173 : Ref sig .tc := ⟨.hbm, 289, rfl⟩
abbrev main_v174 : Ref sig .tc := ⟨.hbm, 290, rfl⟩
abbrev main_v175 : Ref sig .tc := ⟨.hbm, 291, rfl⟩
abbrev main_v176 : Ref sig .tc := ⟨.hbm, 292, rfl⟩
abbrev main_v177 : Ref sig .tc := ⟨.hbm, 293, rfl⟩
abbrev main_v178 : Ref sig .tc := ⟨.hbm, 294, rfl⟩
abbrev main_cst_26 : Ref sig .tc := ⟨.hbm, 295, rfl⟩
abbrev main_v179 : Ref sig .tc := ⟨.hbm, 296, rfl⟩
abbrev main_v180 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_v184 : Ref sig .tc := ⟨.hbm, 301, rfl⟩
abbrev main_v185 : Ref sig .tc := ⟨.hbm, 302, rfl⟩
abbrev main_v186 : Ref sig .tc := ⟨.hbm, 303, rfl⟩
abbrev main_v187 : Ref sig .tc := ⟨.hbm, 304, rfl⟩
abbrev main_v188 : Ref sig .tc := ⟨.hbm, 305, rfl⟩
abbrev main_v189 : Ref sig .tc := ⟨.hbm, 306, rfl⟩
abbrev main_v190 : Ref sig .tc := ⟨.hbm, 307, rfl⟩
abbrev main_call6_cst : Ref sig .tc := ⟨.hbm, 308, rfl⟩
abbrev main_call6_v0 : Ref sig .tc := ⟨.hbm, 309, rfl⟩
abbrev main_v191 : Ref sig .tc := ⟨.hbm, 310, rfl⟩
abbrev main_v192 : Ref sig .tc := ⟨.hbm, 311, rfl⟩
abbrev main_v193 : Ref sig .tc := ⟨.hbm, 312, rfl⟩
abbrev main_v194 : Ref sig .tc := ⟨.hbm, 313, rfl⟩
abbrev main_v195 : Ref sig .tc := ⟨.hbm, 314, rfl⟩
abbrev main_v196 : Ref sig .tc := ⟨.hbm, 315, rfl⟩
abbrev main_c_27 : Ref sig .tc := ⟨.hbm, 316, rfl⟩
abbrev main_v197 : Ref sig .tc := ⟨.hbm, 317, rfl⟩
abbrev main_v198 : Ref sig .tc := ⟨.hbm, 318, rfl⟩
abbrev main_c_28 : Ref sig .tc := ⟨.hbm, 319, rfl⟩
abbrev main_v199 : Ref sig .tc := ⟨.hbm, 320, rfl⟩
abbrev main_v200 : Ref sig .tc := ⟨.hbm, 321, rfl⟩
abbrev main_v201 : Ref sig .tc := ⟨.hbm, 322, rfl⟩
abbrev main_v202 : Ref sig .tc := ⟨.hbm, 323, rfl⟩
abbrev main_v203 : Ref sig .tc := ⟨.hbm, 324, rfl⟩
abbrev main_c_29 : Ref sig .tc := ⟨.hbm, 325, rfl⟩
abbrev main_v204 : Ref sig .tc := ⟨.hbm, 326, rfl⟩
abbrev main_v205 : Ref sig .tc := ⟨.hbm, 327, rfl⟩
abbrev main_c_30 : Ref sig .tc := ⟨.hbm, 328, rfl⟩
abbrev main_v206 : Ref sig .tc := ⟨.hbm, 329, rfl⟩
abbrev main_v207 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_v211 : Ref sig .tc := ⟨.hbm, 334, rfl⟩
abbrev main_c_31 : Ref sig .tc := ⟨.hbm, 335, rfl⟩
abbrev main_v212 : Ref sig .tc := ⟨.hbm, 336, rfl⟩
abbrev main_v213 : Ref sig .tc := ⟨.hbm, 337, rfl⟩
abbrev main_c_32 : Ref sig .tc := ⟨.hbm, 338, rfl⟩
abbrev main_v214 : Ref sig .tc := ⟨.hbm, 339, rfl⟩
abbrev main_v215 : Ref sig .tc := ⟨.hbm, 340, rfl⟩
abbrev main_v216 : Ref sig .tc := ⟨.hbm, 341, rfl⟩
abbrev main_v217 : Ref sig .tc := ⟨.hbm, 342, rfl⟩
abbrev main_v218 : Ref sig .tc := ⟨.hbm, 343, rfl⟩
abbrev main_v219 : Ref sig .tc := ⟨.hbm, 344, rfl⟩
abbrev main_v220 : Ref sig .tc := ⟨.hbm, 345, rfl⟩
abbrev main_v221 : Ref sig .tc := ⟨.hbm, 346, rfl⟩
abbrev main_cst_33 : Ref sig .tc := ⟨.hbm, 347, rfl⟩
abbrev main_v222 : Ref sig .tc := ⟨.hbm, 348, rfl⟩
abbrev main_v223 : Ref sig .tc := ⟨.hbm, 349, rfl⟩
abbrev main_v224 : Ref sig .tc := ⟨.hbm, 350, rfl⟩
abbrev main_v225 : Ref sig .tc := ⟨.hbm, 351, rfl⟩
abbrev main_v226 : Ref sig .tc := ⟨.hbm, 352, rfl⟩
abbrev main_v227 : Ref sig .tc := ⟨.hbm, 353, rfl⟩
abbrev main_v228 : Ref sig .tc := ⟨.hbm, 354, rfl⟩
abbrev main_v229 : Ref sig .tc := ⟨.hbm, 355, rfl⟩
abbrev main_v230 : Ref sig .tc := ⟨.hbm, 356, rfl⟩
abbrev main_v231 : Ref sig .tc := ⟨.hbm, 357, rfl⟩
abbrev main_v232 : Ref sig .tc := ⟨.hbm, 358, rfl⟩
abbrev main_v233 : Ref sig .tc := ⟨.hbm, 359, rfl⟩
abbrev main_call7_cst : Ref sig .tc := ⟨.hbm, 360, rfl⟩
abbrev main_call7_v0 : Ref sig .tc := ⟨.hbm, 361, rfl⟩
abbrev main_v234 : Ref sig .tc := ⟨.hbm, 362, rfl⟩
abbrev main_v235 : Ref sig .tc := ⟨.hbm, 363, rfl⟩
abbrev main_v236 : Ref sig .tc := ⟨.hbm, 364, rfl⟩
abbrev main_v237 : Ref sig .tc := ⟨.hbm, 365, rfl⟩
abbrev main_v238 : Ref sig .tc := ⟨.hbm, 366, rfl⟩
abbrev main_v239 : Ref sig .tc := ⟨.hbm, 367, rfl⟩
abbrev main_c_34 : Ref sig .tc := ⟨.hbm, 368, rfl⟩
abbrev main_v240 : Ref sig .tc := ⟨.hbm, 369, rfl⟩
abbrev main_v241 : Ref sig .tc := ⟨.hbm, 370, rfl⟩
abbrev main_c_35 : Ref sig .tc := ⟨.hbm, 371, rfl⟩
abbrev main_v242 : Ref sig .tc := ⟨.hbm, 372, rfl⟩
abbrev main_v243 : Ref sig .tc := ⟨.hbm, 373, rfl⟩
abbrev main_v244 : Ref sig .tc := ⟨.hbm, 374, rfl⟩
abbrev main_v245 : Ref sig .tc := ⟨.hbm, 375, rfl⟩
abbrev main_v246 : Ref sig .tc := ⟨.hbm, 376, rfl⟩
abbrev main_c_36 : Ref sig .tc := ⟨.hbm, 377, rfl⟩
abbrev main_v247 : Ref sig .tc := ⟨.hbm, 378, rfl⟩
abbrev main_v248 : Ref sig .tc := ⟨.hbm, 379, rfl⟩
abbrev main_c_37 : Ref sig .tc := ⟨.hbm, 380, rfl⟩
abbrev main_v249 : Ref sig .tc := ⟨.hbm, 381, rfl⟩
abbrev main_v250 : Ref sig .tc := ⟨.hbm, 382, rfl⟩
abbrev main_v251 : Ref sig .tc := ⟨.hbm, 383, rfl⟩
abbrev main_v252 : Ref sig .tc := ⟨.hbm, 384, rfl⟩
abbrev main_v253 : Ref sig .tc := ⟨.hbm, 385, rfl⟩
abbrev main_v254 : Ref sig .tc := ⟨.hbm, 386, rfl⟩
abbrev main_c_38 : Ref sig .tc := ⟨.hbm, 387, rfl⟩
abbrev main_v255 : Ref sig .tc := ⟨.hbm, 388, rfl⟩
abbrev main_v256 : Ref sig .tc := ⟨.hbm, 389, rfl⟩
abbrev main_c_39 : Ref sig .tc := ⟨.hbm, 390, rfl⟩
abbrev main_v257 : Ref sig .tc := ⟨.hbm, 391, rfl⟩
abbrev main_v258 : Ref sig .tc := ⟨.hbm, 392, rfl⟩
abbrev main_v259 : Ref sig .tc := ⟨.hbm, 393, rfl⟩
abbrev main_v260 : Ref sig .tc := ⟨.hbm, 394, rfl⟩
abbrev main_v261 : Ref sig .tc := ⟨.hbm, 395, rfl⟩
abbrev main_v262 : Ref sig .tc := ⟨.hbm, 396, rfl⟩
abbrev main_v263 : Ref sig .tc := ⟨.hbm, 397, rfl⟩
abbrev main_v264 : Ref sig .tc := ⟨.hbm, 398, rfl⟩
abbrev main_cst_40 : Ref sig .tc := ⟨.hbm, 399, rfl⟩
abbrev main_v265 : Ref sig .tc := ⟨.hbm, 400, rfl⟩
abbrev main_v266 : Ref sig .tc := ⟨.hbm, 401, rfl⟩
abbrev main_v267 : Ref sig .tc := ⟨.hbm, 402, rfl⟩
abbrev main_v268 : Ref sig .tc := ⟨.hbm, 403, rfl⟩
abbrev main_v269 : Ref sig .tc := ⟨.hbm, 404, rfl⟩
abbrev main_v270 : Ref sig .tc := ⟨.hbm, 405, rfl⟩
abbrev main_v271 : Ref sig .tc := ⟨.hbm, 406, rfl⟩
abbrev main_v272 : Ref sig .tc := ⟨.hbm, 407, rfl⟩
abbrev main_v273 : Ref sig .tc := ⟨.hbm, 408, rfl⟩
abbrev main_v274 : Ref sig .tc := ⟨.hbm, 409, rfl⟩
abbrev main_v275 : Ref sig .tc := ⟨.hbm, 410, rfl⟩
abbrev main_v276 : Ref sig .tc := ⟨.hbm, 411, rfl⟩
abbrev main_call8_cst : Ref sig .tc := ⟨.hbm, 412, rfl⟩
abbrev main_call8_v0 : Ref sig .tc := ⟨.hbm, 413, rfl⟩
abbrev main_v277 : Ref sig .tc := ⟨.hbm, 414, rfl⟩
abbrev main_v278 : Ref sig .tc := ⟨.hbm, 415, rfl⟩
abbrev main_v279 : Ref sig .tc := ⟨.hbm, 416, rfl⟩
abbrev main_v280 : Ref sig .tc := ⟨.hbm, 417, rfl⟩
abbrev main_v281 : Ref sig .tc := ⟨.hbm, 418, rfl⟩
abbrev main_v282 : Ref sig .tc := ⟨.hbm, 419, rfl⟩
abbrev main_c_41 : Ref sig .tc := ⟨.hbm, 420, rfl⟩
abbrev main_v283 : Ref sig .tc := ⟨.hbm, 421, rfl⟩
abbrev main_v284 : Ref sig .tc := ⟨.hbm, 422, rfl⟩
abbrev main_c_42 : Ref sig .tc := ⟨.hbm, 423, rfl⟩
abbrev main_v285 : Ref sig .tc := ⟨.hbm, 424, rfl⟩
abbrev main_v286 : Ref sig .tc := ⟨.hbm, 425, rfl⟩
abbrev main_v287 : Ref sig .tc := ⟨.hbm, 426, rfl⟩
abbrev main_v288 : Ref sig .tc := ⟨.hbm, 427, rfl⟩
abbrev main_v289 : Ref sig .tc := ⟨.hbm, 428, rfl⟩
abbrev main_c_43 : Ref sig .tc := ⟨.hbm, 429, rfl⟩
abbrev main_v290 : Ref sig .tc := ⟨.hbm, 430, rfl⟩
abbrev main_v291 : Ref sig .tc := ⟨.hbm, 431, rfl⟩
abbrev main_c_44 : Ref sig .tc := ⟨.hbm, 432, rfl⟩
abbrev main_v292 : Ref sig .tc := ⟨.hbm, 433, rfl⟩
abbrev main_v293 : Ref sig .tc := ⟨.hbm, 434, rfl⟩
abbrev main_v294 : Ref sig .tc := ⟨.hbm, 435, rfl⟩
abbrev main_v295 : Ref sig .tc := ⟨.hbm, 436, rfl⟩
abbrev main_v296 : Ref sig .tc := ⟨.hbm, 437, rfl⟩
abbrev main_v297 : Ref sig .tc := ⟨.hbm, 438, rfl⟩
abbrev main_c_45 : Ref sig .tc := ⟨.hbm, 439, rfl⟩
abbrev main_v298 : Ref sig .tc := ⟨.hbm, 440, rfl⟩
abbrev main_v299 : Ref sig .tc := ⟨.hbm, 441, rfl⟩
abbrev main_c_46 : Ref sig .tc := ⟨.hbm, 442, rfl⟩
abbrev main_v300 : Ref sig .tc := ⟨.hbm, 443, rfl⟩
abbrev main_v301 : Ref sig .tc := ⟨.hbm, 444, rfl⟩
abbrev main_v302 : Ref sig .tc := ⟨.hbm, 445, rfl⟩
abbrev main_v303 : Ref sig .tc := ⟨.hbm, 446, rfl⟩
abbrev main_v304 : Ref sig .tc := ⟨.hbm, 447, rfl⟩
abbrev main_v305 : Ref sig .tc := ⟨.hbm, 448, rfl⟩
abbrev main_v306 : Ref sig .tc := ⟨.hbm, 449, rfl⟩
abbrev main_v307 : Ref sig .tc := ⟨.hbm, 450, rfl⟩
abbrev main_cst_47 : Ref sig .tc := ⟨.hbm, 451, rfl⟩
abbrev main_v308 : Ref sig .tc := ⟨.hbm, 452, rfl⟩
abbrev main_v309 : Ref sig .tc := ⟨.hbm, 453, rfl⟩
abbrev main_v310 : Ref sig .tc := ⟨.hbm, 454, rfl⟩
abbrev main_v311 : Ref sig .tc := ⟨.hbm, 455, rfl⟩
abbrev main_v312 : Ref sig .tc := ⟨.hbm, 456, rfl⟩
abbrev main_v313 : Ref sig .tc := ⟨.hbm, 457, rfl⟩
abbrev main_v314 : Ref sig .tc := ⟨.hbm, 458, rfl⟩
abbrev main_v315 : Ref sig .tc := ⟨.hbm, 459, rfl⟩
abbrev main_v316 : Ref sig .tc := ⟨.hbm, 460, rfl⟩
abbrev main_v317 : Ref sig .tc := ⟨.hbm, 461, rfl⟩
abbrev main_v318 : Ref sig .tc := ⟨.hbm, 462, rfl⟩
abbrev main_v319 : Ref sig .tc := ⟨.hbm, 463, rfl⟩
abbrev main_call9_cst : Ref sig .tc := ⟨.hbm, 464, rfl⟩
abbrev main_call9_v0 : Ref sig .tc := ⟨.hbm, 465, rfl⟩
abbrev main_v320 : Ref sig .tc := ⟨.hbm, 466, rfl⟩
abbrev main_v321 : Ref sig .tc := ⟨.hbm, 467, rfl⟩
abbrev main_v322 : Ref sig .tc := ⟨.hbm, 468, rfl⟩
abbrev main_v323 : Ref sig .tc := ⟨.hbm, 469, rfl⟩
abbrev main_v324 : Ref sig .tc := ⟨.hbm, 470, rfl⟩
abbrev main_v325 : Ref sig .tc := ⟨.hbm, 471, rfl⟩
abbrev main_c_48 : Ref sig .tc := ⟨.hbm, 472, rfl⟩
abbrev main_v326 : Ref sig .tc := ⟨.hbm, 473, rfl⟩
abbrev main_v327 : Ref sig .tc := ⟨.hbm, 474, rfl⟩
abbrev main_c_49 : Ref sig .tc := ⟨.hbm, 475, rfl⟩
abbrev main_v328 : Ref sig .tc := ⟨.hbm, 476, rfl⟩
abbrev main_v329 : Ref sig .tc := ⟨.hbm, 477, rfl⟩
abbrev main_v330 : Ref sig .tc := ⟨.hbm, 478, rfl⟩
abbrev main_v331 : Ref sig .tc := ⟨.hbm, 479, rfl⟩
abbrev main_v332 : Ref sig .tc := ⟨.hbm, 480, rfl⟩
abbrev main_c_50 : Ref sig .tc := ⟨.hbm, 481, rfl⟩
abbrev main_v333 : Ref sig .tc := ⟨.hbm, 482, rfl⟩
abbrev main_v334 : Ref sig .tc := ⟨.hbm, 483, rfl⟩
abbrev main_c_51 : Ref sig .tc := ⟨.hbm, 484, rfl⟩
abbrev main_v335 : Ref sig .tc := ⟨.hbm, 485, rfl⟩
abbrev main_v336 : Ref sig .tc := ⟨.hbm, 486, rfl⟩
abbrev main_v337 : Ref sig .tc := ⟨.hbm, 487, rfl⟩
abbrev main_v338 : Ref sig .tc := ⟨.hbm, 488, rfl⟩
abbrev main_v339 : Ref sig .tc := ⟨.hbm, 489, rfl⟩
abbrev main_v340 : Ref sig .tc := ⟨.hbm, 490, rfl⟩
abbrev main_c_52 : Ref sig .tc := ⟨.hbm, 491, rfl⟩
abbrev main_v341 : Ref sig .tc := ⟨.hbm, 492, rfl⟩
abbrev main_v342 : Ref sig .tc := ⟨.hbm, 493, rfl⟩
abbrev main_c_53 : Ref sig .tc := ⟨.hbm, 494, rfl⟩
abbrev main_v343 : Ref sig .tc := ⟨.hbm, 495, rfl⟩
abbrev main_v344 : Ref sig .tc := ⟨.hbm, 496, rfl⟩
abbrev main_v345 : Ref sig .tc := ⟨.hbm, 497, rfl⟩
abbrev main_v346 : Ref sig .tc := ⟨.hbm, 498, rfl⟩
abbrev main_v347 : Ref sig .tc := ⟨.hbm, 499, rfl⟩
abbrev main_v348 : Ref sig .tc := ⟨.hbm, 500, rfl⟩
abbrev main_v349 : Ref sig .tc := ⟨.hbm, 501, rfl⟩
abbrev main_v350 : Ref sig .tc := ⟨.hbm, 502, rfl⟩
abbrev main_cst_54 : Ref sig .tc := ⟨.hbm, 503, rfl⟩
abbrev main_v351 : Ref sig .tc := ⟨.hbm, 504, rfl⟩
abbrev main_v352 : Ref sig .tc := ⟨.hbm, 505, rfl⟩
abbrev main_v353 : Ref sig .tc := ⟨.hbm, 506, rfl⟩
abbrev main_v354 : Ref sig .tc := ⟨.hbm, 507, rfl⟩
abbrev main_v355 : Ref sig .tc := ⟨.hbm, 508, rfl⟩
abbrev main_v356 : Ref sig .tc := ⟨.hbm, 509, rfl⟩
abbrev main_v357 : Ref sig .tc := ⟨.hbm, 510, rfl⟩
abbrev main_v358 : Ref sig .tc := ⟨.hbm, 511, rfl⟩
abbrev main_v359 : Ref sig .tc := ⟨.hbm, 512, rfl⟩
abbrev main_v360 : Ref sig .tc := ⟨.hbm, 513, rfl⟩
abbrev main_v361 : Ref sig .tc := ⟨.hbm, 514, rfl⟩
abbrev main_v362 : Ref sig .tc := ⟨.hbm, 515, rfl⟩
abbrev main_v363 : Ref sig .tc := ⟨.hbm, 516, rfl⟩
abbrev main_v364 : Ref sig .tc := ⟨.hbm, 517, rfl⟩
abbrev main_v365 : Ref sig .tc := ⟨.hbm, 518, rfl⟩
abbrev main_v366 : Ref sig .tc := ⟨.hbm, 519, rfl⟩
abbrev main_v367 : Ref sig .tc := ⟨.hbm, 520, rfl⟩
abbrev main_v368 : Ref sig .tc := ⟨.hbm, 521, rfl⟩
abbrev main_v369 : Ref sig .tc := ⟨.hbm, 522, rfl⟩
abbrev main_v370 : Ref sig .tc := ⟨.hbm, 523, rfl⟩
abbrev main_v371 : Ref sig .tc := ⟨.hbm, 524, rfl⟩
abbrev main_v372 : Ref sig .tc := ⟨.hbm, 525, rfl⟩
abbrev main_v373 : Ref sig .tc := ⟨.hbm, 526, rfl⟩
abbrev main_v374 : Ref sig .tc := ⟨.hbm, 527, rfl⟩
abbrev main_cst_55 : Ref sig .tc := ⟨.hbm, 528, rfl⟩
abbrev main_v375 : Ref sig .tc := ⟨.hbm, 529, rfl⟩
abbrev main_cst_56 : Ref sig .tc := ⟨.hbm, 530, rfl⟩
abbrev main_v376 : Ref sig .tc := ⟨.hbm, 531, rfl⟩
abbrev main_v377 : Ref sig .tc := ⟨.hbm, 532, rfl⟩
abbrev main_c_57 : Ref sig .tc := ⟨.hbm, 533, rfl⟩
abbrev main_call10_cst : Ref sig .tc := ⟨.hbm, 534, rfl⟩
abbrev main_call10_v0 : Ref sig .tc := ⟨.hbm, 535, rfl⟩
abbrev main_call10_v1 : Ref sig .tc := ⟨.hbm, 536, rfl⟩
abbrev main_call10_cst_0 : Ref sig .tc := ⟨.hbm, 537, rfl⟩
abbrev main_call10_v2 : Ref sig .tc := ⟨.hbm, 538, rfl⟩
abbrev main_call10_v3 : Ref sig .tc := ⟨.hbm, 539, rfl⟩
abbrev main_call10_v4 : Ref sig .tc := ⟨.hbm, 540, rfl⟩
abbrev main_call10_v5 : Ref sig .tc := ⟨.hbm, 541, rfl⟩
abbrev main_call10_v6 : Ref sig .tc := ⟨.hbm, 542, rfl⟩
abbrev main_call10_v7 : Ref sig .tc := ⟨.hbm, 543, rfl⟩
abbrev main_call10_cst_1 : Ref sig .tc := ⟨.hbm, 544, rfl⟩
abbrev main_call10_v8 : Ref sig .tc := ⟨.hbm, 545, rfl⟩
abbrev main_call10_cst_2 : Ref sig .tc := ⟨.hbm, 546, rfl⟩
abbrev main_call10_v9 : Ref sig .tc := ⟨.hbm, 547, rfl⟩
abbrev main_call10_v10 : Ref sig .tc := ⟨.hbm, 548, rfl⟩
abbrev main_call10_v11 : Ref sig .tc := ⟨.hbm, 549, rfl⟩
abbrev main_call10_cst_3 : Ref sig .tc := ⟨.hbm, 550, rfl⟩
abbrev main_call10_v12 : Ref sig .tc := ⟨.hbm, 551, rfl⟩
abbrev main_call10_cst_4 : Ref sig .tc := ⟨.hbm, 552, rfl⟩
abbrev main_call10_call0_v0 : Ref sig .tc := ⟨.hbm, 553, rfl⟩
abbrev main_call10_call0_v1 : Ref sig .tc := ⟨.hbm, 554, rfl⟩
abbrev main_v378 : Ref sig .tc := ⟨.hbm, 555, rfl⟩
abbrev main_v379 : Ref sig .tc := ⟨.hbm, 556, rfl⟩
abbrev main_v380 : Ref sig .tc := ⟨.hbm, 557, rfl⟩
abbrev main_v381 : Ref sig .tc := ⟨.hbm, 558, rfl⟩
abbrev main_cst_58 : Ref sig .tc := ⟨.hbm, 559, rfl⟩
abbrev main_v382 : Ref sig .tc := ⟨.hbm, 560, rfl⟩
abbrev main_v383 : Ref sig .tc := ⟨.hbm, 561, rfl⟩
abbrev main_v384 : Ref sig .tc := ⟨.hbm, 562, rfl⟩
abbrev main_v385 : Ref sig .tc := ⟨.hbm, 563, rfl⟩
abbrev main_v386 : Ref sig .tc := ⟨.hbm, 564, rfl⟩
abbrev main_v387 : Ref sig .tc := ⟨.hbm, 565, rfl⟩
abbrev main_v388 : Ref sig .tc := ⟨.hbm, 566, rfl⟩
abbrev main_v389 : Ref sig .tc := ⟨.hbm, 567, rfl⟩
abbrev main_v390 : Ref sig .tc := ⟨.hbm, 568, rfl⟩
abbrev main_v391 : Ref sig .tc := ⟨.hbm, 569, rfl⟩
abbrev main_v392 : Ref sig .tc := ⟨.hbm, 570, rfl⟩
abbrev main_v393 : Ref sig .tc := ⟨.hbm, 571, rfl⟩
abbrev main_call11_cst : Ref sig .tc := ⟨.hbm, 572, rfl⟩
abbrev main_call11_v0 : Ref sig .tc := ⟨.hbm, 573, rfl⟩
abbrev main_v394 : Ref sig .tc := ⟨.hbm, 574, rfl⟩
abbrev main_v395 : Ref sig .tc := ⟨.hbm, 575, rfl⟩
abbrev main_v396 : Ref sig .tc := ⟨.hbm, 576, rfl⟩
abbrev main_v397 : Ref sig .tc := ⟨.hbm, 577, rfl⟩
abbrev main_v398 : Ref sig .tc := ⟨.hbm, 578, rfl⟩
abbrev main_v399 : Ref sig .tc := ⟨.hbm, 579, rfl⟩
abbrev main_v400 : Ref sig .tc := ⟨.hbm, 580, rfl⟩
abbrev main_v401 : Ref sig .tc := ⟨.hbm, 581, rfl⟩
abbrev main_v402 : Ref sig .tc := ⟨.hbm, 582, rfl⟩
abbrev main_v403 : Ref sig .tc := ⟨.hbm, 583, rfl⟩
abbrev main_v404 : Ref sig .tc := ⟨.hbm, 584, rfl⟩
abbrev main_v405 : Ref sig .tc := ⟨.hbm, 585, rfl⟩
abbrev main_v406 : Ref sig .tc := ⟨.hbm, 586, rfl⟩
abbrev main_cst_59 : Ref sig .tc := ⟨.hbm, 587, rfl⟩
abbrev main_v407 : Ref sig .tc := ⟨.hbm, 588, rfl⟩
abbrev main_cst_60 : Ref sig .tc := ⟨.hbm, 589, rfl⟩
abbrev main_v408 : Ref sig .tc := ⟨.hbm, 590, rfl⟩
abbrev main_v409 : Ref sig .tc := ⟨.hbm, 591, rfl⟩
abbrev main_c_61 : Ref sig .tc := ⟨.hbm, 592, rfl⟩
abbrev main_call12_cst : Ref sig .tc := ⟨.hbm, 593, rfl⟩
abbrev main_call12_v0 : Ref sig .tc := ⟨.hbm, 594, rfl⟩
abbrev main_call12_v1 : Ref sig .tc := ⟨.hbm, 595, rfl⟩
abbrev main_call12_cst_0 : Ref sig .tc := ⟨.hbm, 596, rfl⟩
abbrev main_call12_v2 : Ref sig .tc := ⟨.hbm, 597, rfl⟩
abbrev main_call12_v3 : Ref sig .tc := ⟨.hbm, 598, rfl⟩
abbrev main_call12_v4 : Ref sig .tc := ⟨.hbm, 599, rfl⟩
abbrev main_call12_v5 : Ref sig .tc := ⟨.hbm, 600, rfl⟩
abbrev main_call12_v6 : Ref sig .tc := ⟨.hbm, 601, rfl⟩
abbrev main_call12_v7 : Ref sig .tc := ⟨.hbm, 602, rfl⟩
abbrev main_call12_cst_1 : Ref sig .tc := ⟨.hbm, 603, rfl⟩
abbrev main_call12_v8 : Ref sig .tc := ⟨.hbm, 604, rfl⟩
abbrev main_call12_cst_2 : Ref sig .tc := ⟨.hbm, 605, rfl⟩
abbrev main_call12_v9 : Ref sig .tc := ⟨.hbm, 606, rfl⟩
abbrev main_call12_v10 : Ref sig .tc := ⟨.hbm, 607, rfl⟩
abbrev main_call12_v11 : Ref sig .tc := ⟨.hbm, 608, rfl⟩
abbrev main_call12_cst_3 : Ref sig .tc := ⟨.hbm, 609, rfl⟩
abbrev main_call12_v12 : Ref sig .tc := ⟨.hbm, 610, rfl⟩
abbrev main_call12_cst_4 : Ref sig .tc := ⟨.hbm, 611, rfl⟩
abbrev main_call12_call0_v0 : Ref sig .tc := ⟨.hbm, 612, rfl⟩
abbrev main_call12_call0_v1 : Ref sig .tc := ⟨.hbm, 613, rfl⟩
abbrev main_v410 : Ref sig .tc := ⟨.hbm, 614, rfl⟩
abbrev main_v411 : Ref sig .tc := ⟨.hbm, 615, rfl⟩
abbrev main_v412 : Ref sig .tc := ⟨.hbm, 616, rfl⟩
abbrev main_v413 : Ref sig .tc := ⟨.hbm, 617, rfl⟩
abbrev main_cst_62 : Ref sig .tc := ⟨.hbm, 618, rfl⟩
abbrev main_v414 : Ref sig .tc := ⟨.hbm, 619, rfl⟩
abbrev main_v415 : Ref sig .tc := ⟨.hbm, 620, rfl⟩
abbrev main_v416 : Ref sig .tc := ⟨.hbm, 621, rfl⟩
abbrev main_v417 : Ref sig .tc := ⟨.hbm, 622, rfl⟩
abbrev main_v418 : Ref sig .tc := ⟨.hbm, 623, rfl⟩
abbrev main_v419 : Ref sig .tc := ⟨.hbm, 624, rfl⟩
abbrev main_v420 : Ref sig .tc := ⟨.hbm, 625, rfl⟩
abbrev main_v421 : Ref sig .tc := ⟨.hbm, 626, rfl⟩
abbrev main_v422 : Ref sig .tc := ⟨.hbm, 627, rfl⟩
abbrev main_v423 : Ref sig .tc := ⟨.hbm, 628, rfl⟩
abbrev main_v424 : Ref sig .tc := ⟨.hbm, 629, rfl⟩
abbrev main_v425 : Ref sig .tc := ⟨.hbm, 630, rfl⟩
abbrev main_call13_cst : Ref sig .tc := ⟨.hbm, 631, rfl⟩
abbrev main_call13_v0 : Ref sig .tc := ⟨.hbm, 632, rfl⟩
abbrev main_v426 : Ref sig .tc := ⟨.hbm, 633, rfl⟩
abbrev main_v427 : Ref sig .tc := ⟨.hbm, 634, rfl⟩
abbrev main_v428 : Ref sig .tc := ⟨.hbm, 635, rfl⟩
abbrev main_v429 : Ref sig .tc := ⟨.hbm, 636, rfl⟩
abbrev main_v430 : Ref sig .tc := ⟨.hbm, 637, rfl⟩
abbrev main_v431 : Ref sig .tc := ⟨.hbm, 638, rfl⟩
abbrev main_v432 : Ref sig .tc := ⟨.hbm, 639, rfl⟩
abbrev main_v433 : Ref sig .tc := ⟨.hbm, 640, rfl⟩
abbrev main_v434 : Ref sig .tc := ⟨.hbm, 641, rfl⟩
abbrev main_v435 : Ref sig .tc := ⟨.hbm, 642, rfl⟩
abbrev main_v436 : Ref sig .tc := ⟨.hbm, 643, rfl⟩
abbrev main_v437 : Ref sig .tc := ⟨.hbm, 644, rfl⟩
abbrev main_v438 : Ref sig .tc := ⟨.hbm, 645, rfl⟩
abbrev main_cst_63 : Ref sig .tc := ⟨.hbm, 646, rfl⟩
abbrev main_v439 : Ref sig .tc := ⟨.hbm, 647, rfl⟩
abbrev main_cst_64 : Ref sig .tc := ⟨.hbm, 648, rfl⟩
abbrev main_v440 : Ref sig .tc := ⟨.hbm, 649, rfl⟩
abbrev main_v441 : Ref sig .tc := ⟨.hbm, 650, rfl⟩
abbrev main_c_65 : Ref sig .tc := ⟨.hbm, 651, rfl⟩
abbrev main_call14_cst : Ref sig .tc := ⟨.hbm, 652, rfl⟩
abbrev main_call14_v0 : Ref sig .tc := ⟨.hbm, 653, rfl⟩
abbrev main_call14_v1 : Ref sig .tc := ⟨.hbm, 654, rfl⟩
abbrev main_call14_cst_0 : Ref sig .tc := ⟨.hbm, 655, rfl⟩
abbrev main_call14_v2 : Ref sig .tc := ⟨.hbm, 656, rfl⟩
abbrev main_call14_v3 : Ref sig .tc := ⟨.hbm, 657, rfl⟩
abbrev main_call14_v4 : Ref sig .tc := ⟨.hbm, 658, rfl⟩
abbrev main_call14_v5 : Ref sig .tc := ⟨.hbm, 659, rfl⟩
abbrev main_call14_v6 : Ref sig .tc := ⟨.hbm, 660, rfl⟩
abbrev main_call14_v7 : Ref sig .tc := ⟨.hbm, 661, rfl⟩
abbrev main_call14_cst_1 : Ref sig .tc := ⟨.hbm, 662, rfl⟩
abbrev main_call14_v8 : Ref sig .tc := ⟨.hbm, 663, rfl⟩
abbrev main_call14_cst_2 : Ref sig .tc := ⟨.hbm, 664, rfl⟩
abbrev main_call14_v9 : Ref sig .tc := ⟨.hbm, 665, rfl⟩
abbrev main_call14_v10 : Ref sig .tc := ⟨.hbm, 666, rfl⟩
abbrev main_call14_v11 : Ref sig .tc := ⟨.hbm, 667, rfl⟩
abbrev main_call14_cst_3 : Ref sig .tc := ⟨.hbm, 668, rfl⟩
abbrev main_call14_v12 : Ref sig .tc := ⟨.hbm, 669, rfl⟩
abbrev main_call14_cst_4 : Ref sig .tc := ⟨.hbm, 670, rfl⟩
abbrev main_call14_call0_v0 : Ref sig .tc := ⟨.hbm, 671, rfl⟩
abbrev main_call14_call0_v1 : Ref sig .tc := ⟨.hbm, 672, rfl⟩
abbrev main_v442 : Ref sig .tc := ⟨.hbm, 673, rfl⟩
abbrev main_v443 : Ref sig .tc := ⟨.hbm, 674, rfl⟩
abbrev main_v444 : Ref sig .tc := ⟨.hbm, 675, rfl⟩
abbrev main_v445 : Ref sig .tc := ⟨.hbm, 676, rfl⟩
abbrev main_cst_66 : Ref sig .tc := ⟨.hbm, 677, rfl⟩
abbrev main_v446 : Ref sig .tc := ⟨.hbm, 678, rfl⟩
abbrev main_v447 : Ref sig .tc := ⟨.hbm, 679, rfl⟩
abbrev main_v448 : Ref sig .tc := ⟨.hbm, 680, rfl⟩
abbrev main_v449 : Ref sig .tc := ⟨.hbm, 681, rfl⟩
abbrev main_v450 : Ref sig .tc := ⟨.hbm, 682, rfl⟩
abbrev main_v451 : Ref sig .tc := ⟨.hbm, 683, rfl⟩
abbrev main_v452 : Ref sig .tc := ⟨.hbm, 684, rfl⟩
abbrev main_v453 : Ref sig .tc := ⟨.hbm, 685, rfl⟩
abbrev main_v454 : Ref sig .tc := ⟨.hbm, 686, rfl⟩
abbrev main_v455 : Ref sig .tc := ⟨.hbm, 687, rfl⟩
abbrev main_v456 : Ref sig .tc := ⟨.hbm, 688, rfl⟩
abbrev main_v457 : Ref sig .tc := ⟨.hbm, 689, rfl⟩
abbrev main_cst_67 : Ref sig .tc := ⟨.hbm, 690, rfl⟩
abbrev main_v458 : Ref sig .tc := ⟨.hbm, 691, rfl⟩
abbrev main_cst_68 : Ref sig .tc := ⟨.hbm, 692, rfl⟩
abbrev main_v459 : Ref sig .tc := ⟨.hbm, 693, rfl⟩
abbrev main_v460 : Ref sig .tc := ⟨.hbm, 694, rfl⟩
abbrev main_v461 : Ref sig .tc := ⟨.hbm, 695, rfl⟩
abbrev main_cst_69 : Ref sig .tc := ⟨.hbm, 696, rfl⟩
abbrev main_v462 : Ref sig .tc := ⟨.hbm, 697, rfl⟩
abbrev main_v463 : Ref sig .tc := ⟨.hbm, 698, rfl⟩
abbrev main_v464 : Ref sig .tc := ⟨.hbm, 699, rfl⟩
abbrev main_cst_70 : Ref sig .tc := ⟨.hbm, 700, rfl⟩
abbrev main_v465 : Ref sig .tc := ⟨.hbm, 701, rfl⟩
abbrev main_v466 : Ref sig .tc := ⟨.hbm, 702, rfl⟩
abbrev main_v467 : Ref sig .tc := ⟨.hbm, 703, rfl⟩
abbrev main_v468 : Ref sig .tc := ⟨.hbm, 704, rfl⟩
abbrev main_v469 : Ref sig .tc := ⟨.hbm, 705, rfl⟩
abbrev main_v470 : Ref sig .tc := ⟨.hbm, 706, rfl⟩
abbrev main_v471 : Ref sig .tc := ⟨.hbm, 707, rfl⟩
abbrev main_v472 : Ref sig .tc := ⟨.hbm, 708, rfl⟩
abbrev main_v473 : Ref sig .tc := ⟨.hbm, 709, rfl⟩
abbrev main_call15_cst : Ref sig .tc := ⟨.hbm, 710, rfl⟩
abbrev main_call15_v0 : Ref sig .tc := ⟨.hbm, 711, rfl⟩
abbrev main_v474 : Ref sig .tc := ⟨.hbm, 712, rfl⟩
abbrev main_v475 : Ref sig .tc := ⟨.hbm, 713, rfl⟩
abbrev main_v476 : Ref sig .tc := ⟨.hbm, 714, rfl⟩
abbrev main_v477 : Ref sig .tc := ⟨.hbm, 715, rfl⟩
abbrev main_v478 : Ref sig .tc := ⟨.hbm, 716, rfl⟩
abbrev main_call16_cst : Ref sig .tc := ⟨.hbm, 717, rfl⟩
abbrev main_call16_v0 : Ref sig .tc := ⟨.hbm, 718, rfl⟩
abbrev main_v479 : Ref sig .tc := ⟨.hbm, 719, rfl⟩
abbrev main_v480 : Ref sig .tc := ⟨.hbm, 720, rfl⟩
abbrev main_v481 : Ref sig .tc := ⟨.hbm, 721, rfl⟩
abbrev main_v482 : Ref sig .tc := ⟨.hbm, 722, rfl⟩
abbrev main_v483 : Ref sig .tc := ⟨.hbm, 723, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S100000x64 : S_.BroadcastsInDim S100000x64 (![] : Fin 0 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  slices_S6x64x64_S1x64x64_0_0_0 : S6x64x64.Slices ![0, 0, 0] S1x64x64
  slices_S6x64_S1x64_0_0 : S6x64.Slices ![0, 0] S1x64
  bcast_S800000x1_S800000x64_0_1 : S800000x1.BroadcastsInDim S800000x64 (![0, 1] : Fin 2 → Fin S800000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S6x64x64_S1x64x64_1_0_0 : S6x64x64.Slices ![1, 0, 0] S1x64x64
  slices_S6x64_S1x64_1_0 : S6x64.Slices ![1, 0] S1x64
  slices_S6x64x64_S1x64x64_2_0_0 : S6x64x64.Slices ![2, 0, 0] S1x64x64
  slices_S6x64_S1x64_2_0 : S6x64.Slices ![2, 0] S1x64
  slices_S6x64x64_S1x64x64_3_0_0 : S6x64x64.Slices ![3, 0, 0] S1x64x64
  slices_S6x64_S1x64_3_0 : S6x64.Slices ![3, 0] S1x64
  slices_S6x64x64_S1x64x64_4_0_0 : S6x64x64.Slices ![4, 0, 0] S1x64x64
  slices_S6x64_S1x64_4_0 : S6x64.Slices ![4, 0] S1x64
  slices_S6x64x64_S1x64x64_5_0_0 : S6x64x64.Slices ![5, 0, 0] S1x64x64
  slices_S6x64_S1x64_5_0 : S6x64.Slices ![5, 0] S1x64
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S800000x1_S800000_n_0_0_1_wf : ScatterDims.WF S100000 S800000x1 S800000 [] [0] [0] 1
  dot_S100000x64_S64x64_S100000x64_1_0_0_1_n_n_wf : DotDims.WF S100000x64 S64x64 S100000x64 [1] [0] [0] [1] [] []
  gather_S100000_S800000x1_S800000_n_0_n_n_0_1_1_wf : GatherDims.WF S100000 S800000x1 S800000 [] [0] [] [0] [] 1 ![1]
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S64_S100000x1_S100000_n_0_0_1_wf : ScatterDims.WF S64 S100000x1 S100000 [] [0] [0] 1
  scatter_S64x64_S100000x1_S100000x64_1_0_0_1_wf : ScatterDims.WF S64x64 S100000x1 S100000x64 [1] [0] [0] 1
  dot_S64x64_S64x64_S64x64_1_0_0_1_n_n_wf : DotDims.WF S64x64 S64x64 S64x64 [1] [0] [0] [1] [] []
  dot_S64x64_S64x2_S64x2_1_0_0_1_n_n_wf : DotDims.WF S64x64 S64x2 S64x2 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.Agree.lean ====
/-
  The two programs are launched from memories that agree on the nineteen arguments.
-/
import proofs.«409001_j25520695673361_2_alg».proof.Defs

noncomputable section

open Idealize.ShloMosaic Idealize.SL.Sem

namespace Cert.Hand

/-- Argument by argument, the reference's launch memory holds what the kernel's holds. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)

end Cert.Hand

end
-- ==== Proof.RefOps0.lean ====
import proofs.«409001_j25520695673361_2_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main's operations from the first statement through the one defining %10, in program order, a called function's
    operations in place of its call (over that call's buffers): 14 operations. -/
abbrev rops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (addf : (⟨S100000, .f32⟩ : BufTy).Contents (Elt F) → (⟨S100000, .f32⟩ : BufTy).Contents (Elt F) → (⟨S100000, .f32⟩ : BufTy).Contents (Elt F)),
    StableHlo.unary main_v9 main_v10 (Host.rsqrt : (⟨S100000, .f32⟩ : BufTy).Contents (Elt F) → (⟨S100000, .f32⟩ : BufTy).Contents (Elt F)) ]

/-- Each touches TensorCore references only. -/
theorem rops0_sub : (rops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub ..⟩

/-- Each determines what it writes. -/
theorem rops0_fresh : (rops0 : List (HloOp τ sig (Elt F))).Forall fun op => op.fresh = ∅ :=
  ⟨rfl, rfl, rfl, rfl, rfl, rfl, rfl, rfl, rfl, rfl, rfl, rfl, rfl, rfl⟩

/-- The buffers written, one per operation, in order. -/
abbrev rops0_W : List (Ref sig .tc) :=
  [ main_v0, main_v1, main_v2, main_v3, main_cst, main_v4, main_cst_0, main_v5, main_v6, main_v7, main_cst_1, main_v8, main_v9, main_v10 ]

private theorem wmem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-- Every operation writes a buffer of that list. -/
theorem rops0_wsub : (rops0 : List (HloOp τ sig (Elt F))).Forall fun op =>
      op.writes ⊆ (rops0_W.map (Proc.devRef (τ := τ) .tc)).toFinset :=
  ⟨wmem (y := main_v0) (by decide),
   wmem (y := main_v1) (by decide),
   wmem (y := main_v2) (by decide),
   wmem (y := main_v3) (by decide),
   wmem (y := main_cst) (by decide),
   wmem (y := main_v4) (by decide),
   wmem (y := main_cst_0) (by decide),
   wmem (y := main_v5) (by decide),
   wmem (y := main_v6) (by decide),
   wmem (y := main_v7) (by decide),
   wmem (y := main_cst_1) (by decide),
   wmem (y := main_v8) (by decide),
   wmem (y := main_v9) (by decide),
   wmem (y := main_v10) (by decide)⟩

/-- A buffer outside that list keeps its contents through the chunk. -/
theorem rops0_keep (V : Valuation τ sig (Elt F)) {r : Ref sig .tc} (hr : r ∉ rops0_W) :
    StableHlo.after rops0 V (Proc.devRef .tc r) = V (Proc.devRef .tc r) :=
  StableHlo.after_of_writes_sub rops0 V rops0_wsub hr

end Cert.ReferenceIdeal.Hand

end
-- ==== Proof.RefOps1.lean ====
import proofs.«409001_j25520695673361_2_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main's operations from the statement after the one defining %10 through the one defining %42, in program order, a called function's
    operations in place of its call (over that call's buffers): 59 operations. -/
abbrev rops1 : List (HloOp τ sig (Elt F)) :=
  [ StableHlo.unary main_arg3 main_v11 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v11 main_v12 rfl shapeCasts_S1x64x64_S64x64,
    StableHlo.binary main_arg0 main_v12 main_v13 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v14 ((extractStridedSlice S1x64 ![0, 0] · slices_S3x64_S1x64_0_0) : (⟨S3x64, .f32⟩ : BufTy).Contents (Elt F) → (⟨S1x64, .f32⟩ : BufTy).Contents (Elt F)),
    StableHlo.reshape main_v14 main_v15 rfl shapeCasts_S1x64_S64,
    StableHlo.unary main_v15 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S100000x64 ![0, 1] bcast_S1x64_S100000x64_0_1 : (⟨S1x64, .f32⟩ : BufTy).Contents (Elt F) → (⟨S100000x64, .f32⟩ : BufTy).Contents (Elt F)),
    StableHlo.binary main_v13 main_v17 main_v18 (addf : (⟨S100000x64, .f32⟩ : BufTy).Contents (Elt F) → (⟨S100000x64, .f32⟩ : BufTy).Contents (Elt F) → (⟨S100000x64, .f32⟩ : BufTy).Contents (Elt F)),
    StableHlo.unary main_arg5 main_v19 ((extractStridedSlice S1x64 ![0, 0] · slices_S3x64_S1x64_0_0) : (⟨S3x64, .f32⟩ : BufTy).Contents (Elt F) → (⟨S1x64, .f32⟩ : BufTy).Contents (Elt F)),
    StableHlo.reshape main_v19 main_v20 rfl shapeCasts_S1x64_S64,
    StableHlo.unary main_arg6 main_v21 ((extractStridedSlice S1x64 ![0, 0] · slices_S3x64_S1x64_0_0) : (⟨S3x64, .f32⟩ : BufTy).Contents (Elt F) → (⟨S1x64, .f32⟩ : BufTy).Contents (Elt F)),
    StableHlo.reshape main_v21 main_v22 rfl shapeCasts_S1x64_S64,
    StableHlo.nullary main_cst_2 (constant S_ .f32 0x00000000#32),
    StableHlo.binary main_v18 main_cst_2 main_v23 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_3 (constant S_ .f32 0x47C35000#32),
    StableHlo.unary main_cst_3 main_v24 (broadcastInDim S64 ![] bcast_S_S64 : (⟨S_, .f32⟩ : BufTy).Contents (Elt F) → (⟨S64, .f32⟩ : BufTy).Contents (Elt F)),
    StableHlo.binary main_v23 main_v24 main_v25 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary (.of main_call0_cst : StableHlo.TRef sig ⟨S_, .f32⟩) (constant S_ .f32 0x00000000#32),
    StableHlo.TRef.binary (.of main_v18 : StableHlo.TRef sig ⟨S100000x64, .f32⟩) (.of main_call0_cst : StableHlo.TRef sig ⟨S_, .f32⟩) (.of main_call0_v0 : StableHlo.TRef sig ⟨S64, .f32⟩) (fun x v => Host.reduceAdd x v reducesTo_S100000x64_S64_d0 h_S_),
    StableHlo.TRef.unary (.of main_call0_v0 : StableHlo.TRef sig ⟨S64, .f32⟩) (.of main_call0_v1 : StableHlo.TRef sig ⟨S1x64, .f32⟩) (broadcastInDim S1x64 ![1] bcast_S64_S1x64_1),
    StableHlo.TRef.nullary (.of main_call0_cst_0 : StableHlo.TRef sig ⟨S_, .f32⟩) (constant S_ .f32 0x47C35000#32),
    StableHlo.TRef.unary (.of main_call0_cst_0 : StableHlo.TRef sig ⟨S_, .f32⟩) (.of main_call0_v2 : StableHlo.TRef sig ⟨S1x64, .f32⟩) (broadcastInDim S1x64 ![] bcast_S_S1x64),
    StableHlo.TRef.binary (.of main_call0_v1 : StableHlo.TRef sig ⟨S1x64, .f32⟩) (.of main_call0_v2 : StableHlo.TRef sig ⟨S1x64, .f32⟩) (.of main_call0_v3 : StableHlo.TRef sig ⟨S1x64, .f32⟩) Host.divf,
    StableHlo.TRef.unary (.of main_call0_v3 : StableHlo.TRef sig ⟨S1x64, .f32⟩) (.of main_call0_v4 : StableHlo.TRef sig ⟨S100000x64, .f32⟩) (broadcastInDim S100000x64 ![0, 1] bcast_S1x64_S100000x64_0_1),
    StableHlo.TRef.binary (.of main_v18 : StableHlo.TRef sig ⟨S100000x64, .f32⟩) (.of main_call0_v4 : StableHlo.TRef sig ⟨S100000x64, .f32⟩) (.of main_call0_v5 : StableHlo.TRef sig ⟨S100000x64, .f32⟩) subf,
    StableHlo.TRef.binary (.of main_call0_v5 : StableHlo.TRef sig ⟨S100000x64, .f32⟩) (.of main_call0_v5 : StableHlo.TRef sig ⟨S100000x64, .f32⟩) (.of main_call0_v6 : StableHlo.TRef sig ⟨S100000x64, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47C35000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S100000x64, .f32⟩) (.of main_call0_cst_2 : StableHlo.TRef sig ⟨S_, .f32⟩) (.of main_call0_v9 : StableHlo.TRef sig ⟨S64, .f32⟩) (fun x v => Host.reduceAdd x v reducesTo_S100000x64_S64_d0 h_S_),
    StableHlo.TRef.unary (.of main_call0_v8 : StableHlo.TRef sig ⟨S_, .f32⟩) (.of main_call0_v10 : StableHlo.TRef sig ⟨S64, .f32⟩) (broadcastInDim S64 ![] bcast_S_S64),
    StableHlo.TRef.binary (.of main_call0_v9 : StableHlo.TRef sig ⟨S64, .f32⟩) (.of main_call0_v10 : StableHlo.TRef sig ⟨S64, .f32⟩) (.of main_call0_v11 : StableHlo.TRef sig ⟨S64, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S64, .f32⟩) (broadcastInDim S64 ![] bcast_S_S64),
    StableHlo.TRef.ternary (.of main_call0_v12 : StableHlo.TRef sig ⟨S_, .i1⟩) (.of main_call0_v11 : StableHlo.TRef sig ⟨S64, .f32⟩) (.of main_call0_call0_v1 : StableHlo.TRef sig ⟨S64, .f32⟩) (.of main_v26 : StableHlo.TRef sig ⟨S64, .f32⟩) (fun p a b => select (broadcastInDim S64 ![] bcast_S_S64 p) a b),
    StableHlo.unary main_v25 main_v27 (broadcastInDim S1x64 ![1] bcast_S64_S1x64_1 : (⟨S64, .f32⟩ : BufTy).Contents (Elt F) → (⟨S1x64, .f32⟩ : BufTy).Contents (Elt F)),
    StableHlo.unary main_v27 main_v28 (broadcastInDim S100000x64 ![0, 1] bcast_S1x64_S100000x64_0_1 : (⟨S1x64, .f32⟩ : BufTy).Contents (Elt F) → (⟨S100000x64, .f32⟩ : BufTy).Contents (Elt F)),
    StableHlo.binary main_v18 main_v28 main_v29 (subf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x3727C5AC#32),
    StableHlo.unary main_cst_4 main_v30 (broadcastInDim S64 ![] bcast_S_S64 : (⟨S_, .f32⟩ : BufTy).Contents (Elt F) → (⟨S64, .f32⟩ : BufTy).Contents (Elt F)),
    StableHlo.binary main_v26 main_v30 main_v31 (addf : (⟨S64, .f32⟩ : BufTy).Contents (Elt F) → (⟨S64, .f32⟩ : BufTy).Contents (Elt F) → (⟨S64, .f32⟩ : BufTy).Contents (Elt F)),
    StableHlo.unary main_v31 main_v32 (Host.rsqrt : (⟨S64, .f32⟩ : BufTy).Contents (Elt F) → (⟨S64, .f32⟩ : BufTy).Contents (Elt F)),
    StableHlo.unary main_v32 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S100000x64 ![0, 1] bcast_S1x64_S100000x64_0_1 : (⟨S1x64, .f32⟩ : BufTy).Contents (Elt F) → (⟨S100000x64, .f32⟩ : BufTy).Contents (Elt F)),
    StableHlo.binary main_v29 main_v34 main_v35 (mulf : (⟨S100000x64, .f32⟩ : BufTy).Contents (Elt F) → (⟨S100000x64, .f32⟩ : BufTy).Contents (Elt F) → (⟨S100000x64, .f32⟩ : BufTy).Contents (Elt F)),
    StableHlo.unary main_v20 main_v36 (broadcastInDim S1x64 ![1] bcast_S64_S1x64_1 : (⟨S64, .f32⟩ : BufTy).Contents (Elt F) → (⟨S1x64, .f32⟩ : BufTy).Contents (Elt F)),
    StableHlo.unary main_v36 main_v37 (broadcastInDim S100000x64 ![0, 1] bcast_S1x64_S100000x64_0_1 : (⟨S1x64, .f32⟩ : BufTy).Contents (Elt F) → (⟨S100000x64, .f32⟩ : BufTy).Contents (Elt F)),
    StableHlo.binary main_v35 main_v37 main_v38 (mulf : (⟨S100000x64, .f32⟩ : BufTy).Contents (Elt F) → (⟨S100000x64, .f32⟩ : BufTy).Contents (Elt F) → (⟨S100000x64, .f32⟩ : BufTy).Contents (Elt F)),
    StableHlo.unary main_v22 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S100000x64 ![0, 1] bcast_S1x64_S100000x64_0_1 : (⟨S1x64, .f32⟩ : BufTy).Contents (Elt F) → (⟨S100000x64, .f32⟩ : BufTy).Contents (Elt F)),
    StableHlo.binary main_v38 main_v40 main_v41 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x64, .f32⟩) (broadcastInDim S100000x64 ![] bcast_S_S100000x64),
    StableHlo.TRef.binary (.of main_v41 : StableHlo.TRef sig ⟨S100000x64, .f32⟩) (.of main_call1_v0 : StableHlo.TRef sig ⟨S100000x64, .f32⟩) (.of main_v42 : StableHlo.TRef sig ⟨S100000x64, .f32⟩) maximumf ]

/-- Each touches TensorCore references only. -/
theorem rops1_sub : (rops1 : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Each determines what it writes. -/
theorem rops1_fresh : (rops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers written, one per operation, in order. -/
abbrev rops1_W : List (Ref sig .tc) :=
  [ main_v11, main_v12, main_v13, main_v14, main_v15, main_v16, main_v17, main_v18, main_v19, main_v20, main_v21, main_v22, main_cst_2, main_v23, main_cst_3, main_v24, main_v25, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v26, main_v27, main_v28, main_v29, main_cst_4, main_v30, main_v31, main_v32, main_v33, main_v34, main_v35, main_v36, main_v37, main_v38, main_v39, main_v40, main_v41, main_call1_cst, main_call1_v0, main_v42 ]

private theorem wmem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-- Every operation writes a buffer of that list. -/
theorem rops1_wsub : (rops1 : List (HloOp τ sig (Elt F))).Forall fun op =>
      op.writes ⊆ (rops1_W.map (Proc.devRef (τ := τ) .tc)).toFinset :=
  ⟨wmem (y := main_v11) (by decide),
   wmem (y := main_v12) (by decide),
   wmem (y := main_v13) (by decide),
   wmem (y := main_v14) (by decide),
   wmem (y := main_v15) (by decide),
   wmem (y := main_v16) (by decide),
   wmem (y := main_v17) (by decide),
   wmem (y := main_v18) (by decide),
   wmem (y := main_v19) (by decide),
   wmem (y := main_v20) (by decide),
   wmem (y := main_v21) (by decide),
   wmem (y := main_v22) (by decide),
   wmem (y := main_cst_2) (by decide),
   wmem (y := main_v23) (by decide),
   wmem (y := main_cst_3) (by decide),
   wmem (y := main_v24) (by decide),
   wmem (y := main_v25) (by decide),
   wmem (y := main_c) (by decide),
   wmem (y := main_call0_cst) (by decide),
   wmem (y := main_call0_v0) (by decide),
   wmem (y := main_call0_v1) (by decide),
   wmem (y := main_call0_cst_0) (by decide),
   wmem (y := main_call0_v2) (by decide),
   wmem (y := main_call0_v3) (by decide),
   wmem (y := main_call0_v4) (by decide),
   wmem (y := main_call0_v5) (by decide),
   wmem (y := main_call0_v6) (by decide),
   wmem (y := main_call0_v7) (by decide),
   wmem (y := main_call0_cst_1) (by decide),
   wmem (y := main_call0_v8) (by decide),
   wmem (y := main_call0_cst_2) (by decide),
   wmem (y := main_call0_v9) (by decide),
   wmem (y := main_call0_v10) (by decide),
   wmem (y := main_call0_v11) (by decide),
   wmem (y := main_call0_cst_3) (by decide),
   wmem (y := main_call0_v12) (by decide),
   wmem (y := main_call0_cst_4) (by decide),
   wmem (y := main_call0_call0_v0) (by decide),
   wmem (y := main_call0_call0_v1) (by decide),
   wmem (y := main_v26) (by decide),
   wmem (y := main_v27) (by decide),
   wmem (y := main_v28) (by decide),
   wmem (y := main_v29) (by decide),
   wmem (y := main_cst_4) (by decide),
   wmem (y := main_v30) (by decide),
   wmem (y := main_v31) (by decide),
   wmem (y := main_v32) (by decide),
   wmem (y := main_v33) (by decide),
   wmem (y := main_v34) (by decide),
   wmem (y := main_v35) (by decide),
   wmem (y := main_v36) (by decide),
   wmem (y := main_v37) (by decide),
   wmem (y := main_v38) (by decide),
   wmem (y := main_v39) (by decide),
   wmem (y := main_v40) (by decide),
   wmem (y := main_v41) (by decide),
   wmem (y := main_call1_cst) (by decide),
   wmem (y := main_call1_v0) (by decide),
   wmem (y := main_v42) (by decide)⟩

/-- A buffer outside that list keeps its contents through the chunk. -/
theorem rops1_keep (V : Valuation τ sig (Elt F)) {r : Ref sig .tc} (hr : r ∉ rops1_W) :
    StableHlo.after rops1 V (Proc.devRef .tc r) = V (Proc.devRef .tc r) :=
  StableHlo.after_of_writes_sub rops1 V rops1_wsub hr

end Cert.ReferenceIdeal.Hand

end
-- ==== Proof.RefOps2.lean ====
import proofs.«409001_j25520695673361_2_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main's operations from the statement after the one defining %42 through the one defining %74, in program order, a called function's
    operations in place of its call (over that call's buffers): 59 operations. -/
abbrev rops2 : List (HloOp τ sig (Elt F)) :=
  [ StableHlo.unary main_arg3 main_v43 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v43 main_v44 rfl shapeCasts_S1x64x64_S64x64,
    StableHlo.binary main_v42 main_v44 main_v45 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v46 ((extractStridedSlice S1x64 ![1, 0] · slices_S3x64_S1x64_1_0) : (⟨S3x64, .f32⟩ : BufTy).Contents (Elt F) → (⟨S1x64, .f32⟩ : BufTy).Contents (Elt F)),
    StableHlo.reshape main_v46 main_v47 rfl shapeCasts_S1x64_S64,
    StableHlo.unary main_v47 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S100000x64 ![0, 1] bcast_S1x64_S100000x64_0_1 : (⟨S1x64, .f32⟩ : BufTy).Contents (Elt F) → (⟨S100000x64, .f32⟩ : BufTy).Contents (Elt F)),
    StableHlo.binary main_v45 main_v49 main_v50 (addf : (⟨S100000x64, .f32⟩ : BufTy).Contents (Elt F) → (⟨S100000x64, .f32⟩ : BufTy).Contents (Elt F) → (⟨S100000x64, .f32⟩ : BufTy).Contents (Elt F)),
    StableHlo.unary main_arg5 main_v51 ((extractStridedSlice S1x64 ![1, 0] · slices_S3x64_S1x64_1_0) : (⟨S3x64, .f32⟩ : BufTy).Contents (Elt F) → (⟨S1x64, .f32⟩ : BufTy).Contents (Elt F)),
    StableHlo.reshape main_v51 main_v52 rfl shapeCasts_S1x64_S64,
    StableHlo.unary main_arg6 main_v53 ((extractStridedSlice S1x64 ![1, 0] · slices_S3x64_S1x64_1_0) : (⟨S3x64, .f32⟩ : BufTy).Contents (Elt F) → (⟨S1x64, .f32⟩ : BufTy).Contents (Elt F)),
    StableHlo.reshape main_v53 main_v54 rfl shapeCasts_S1x64_S64,
    StableHlo.nullary main_cst_5 (constant S_ .f32 0x00000000#32),
    StableHlo.binary main_v50 main_cst_5 main_v55 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_6 (constant S_ .f32 0x47C35000#32),
    StableHlo.unary main_cst_6 main_v56 (broadcastInDim S64 ![] bcast_S_S64 : (⟨S_, .f32⟩ : BufTy).Contents (Elt F) → (⟨S64, .f32⟩ : BufTy).Contents (Elt F)),
    StableHlo.binary main_v55 main_v56 main_v57 (Host.divf : (⟨S64, .f32⟩ : BufTy).Contents (Elt F) → (⟨S64, .f32⟩ : BufTy).Contents (Elt F) → (⟨S64, .f32⟩ : BufTy).Contents (Elt F)),
    StableHlo.nullary main_c_7 (constantI S_ 32 0#32),
    StableHlo.TRef.nullary (.of main_call2_cst : StableHlo.TRef sig ⟨S_, .f32⟩) (constant S_ .f32 0x00000000#32),
    StableHlo.TRef.binary (.of main_v50 : StableHlo.TRef sig ⟨S100000x64, .f32⟩) (.of main_call2_cst : StableHlo.TRef sig ⟨S_, .f32⟩) (.of main_call2_v0 : StableHlo.TRef sig ⟨S64, .f32⟩) (fun x v => Host.reduceAdd x v reducesTo_S100000x64_S64_d0 h_S_),
    StableHlo.TRef.unary (.of main_call2_v0 : StableHlo.TRef sig ⟨S64, .f32⟩) (.of main_call2_v1 : StableHlo.TRef sig ⟨S1x64, .f32⟩) (broadcastInDim S1x64 ![1] bcast_S64_S1x64_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x64, .f32⟩) (broadcastInDim S1x64 ![] bcast_S_S1x64),
    StableHlo.TRef.binary (.of main_call2_v1 : StableHlo.TRef sig ⟨S1x64, .f32⟩) (.of main_call2_v2 : StableHlo.TRef sig ⟨S1x64, .f32⟩) (.of main_call2_v3 : StableHlo.TRef sig ⟨S1x64, .f32⟩) Host.divf,
    StableHlo.TRef.unary (.of main_call2_v3 : StableHlo.TRef sig ⟨S1x64, .f32⟩) (.of main_call2_v4 : StableHlo.TRef sig ⟨S100000x64, .f32⟩) (broadcastInDim S100000x64 ![0, 1] bcast_S1x64_S100000x64_0_1),
    StableHlo.TRef.binary (.of main_v50 : StableHlo.TRef sig ⟨S100000x64, .f32⟩) (.of main_call2_v4 : StableHlo.TRef sig ⟨S100000x64, .f32⟩) (.of main_call2_v5 : StableHlo.TRef sig ⟨S100000x64, .f32⟩) subf,
    StableHlo.TRef.binary (.of main_call2_v5 : StableHlo.TRef sig ⟨S100000x64, .f32⟩) (.of main_call2_v5 : StableHlo.TRef sig ⟨S100000x64, .f32⟩) (.of main_call2_v6 : StableHlo.TRef sig ⟨S100000x64, .f32⟩) mulf,
    StableHlo.TRef.unary (.of main_c_7 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x64, .f32⟩) (.of main_call2_cst_2 : StableHlo.TRef sig ⟨S_, .f32⟩) (.of main_call2_v9 : StableHlo.TRef sig ⟨S64, .f32⟩) (fun x v => Host.reduceAdd x v reducesTo_S100000x64_S64_d0 h_S_),
    StableHlo.TRef.unary (.of main_call2_v8 : StableHlo.TRef sig ⟨S_, .f32⟩) (.of main_call2_v10 : StableHlo.TRef sig ⟨S64, .f32⟩) (broadcastInDim S64 ![] bcast_S_S64),
    StableHlo.TRef.binary (.of main_call2_v9 : StableHlo.TRef sig ⟨S64, .f32⟩) (.of main_call2_v10 : StableHlo.TRef sig ⟨S64, .f32⟩) (.of main_call2_v11 : StableHlo.TRef sig ⟨S64, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S64, .f32⟩) (broadcastInDim S64 ![] bcast_S_S64),
    StableHlo.TRef.ternary (.of main_call2_v12 : StableHlo.TRef sig ⟨S_, .i1⟩) (.of main_call2_v11 : StableHlo.TRef sig ⟨S64, .f32⟩) (.of main_call2_call0_v1 : StableHlo.TRef sig ⟨S64, .f32⟩) (.of main_v58 : StableHlo.TRef sig ⟨S64, .f32⟩) (fun p a b => select (broadcastInDim S64 ![] bcast_S_S64 p) a b),
    StableHlo.unary main_v57 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S100000x64 ![0, 1] bcast_S1x64_S100000x64_0_1 : (⟨S1x64, .f32⟩ : BufTy).Contents (Elt F) → (⟨S100000x64, .f32⟩ : BufTy).Contents (Elt F)),
    StableHlo.binary main_v50 main_v60 main_v61 (subf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x3727C5AC#32),
    StableHlo.unary main_cst_8 main_v62 (broadcastInDim S64 ![] bcast_S_S64 : (⟨S_, .f32⟩ : BufTy).Contents (Elt F) → (⟨S64, .f32⟩ : BufTy).Contents (Elt F)),
    StableHlo.binary main_v58 main_v62 main_v63 (addf : (⟨S64, .f32⟩ : BufTy).Contents (Elt F) → (⟨S64, .f32⟩ : BufTy).Contents (Elt F) → (⟨S64, .f32⟩ : BufTy).Contents (Elt F)),
    StableHlo.unary main_v63 main_v64 (Host.rsqrt : (⟨S64, .f32⟩ : BufTy).Contents (Elt F) → (⟨S64, .f32⟩ : BufTy).Contents (Elt F)),
    StableHlo.unary main_v64 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S100000x64 ![0, 1] bcast_S1x64_S100000x64_0_1 : (⟨S1x64, .f32⟩ : BufTy).Contents (Elt F) → (⟨S100000x64, .f32⟩ : BufTy).Contents (Elt F)),
    StableHlo.binary main_v61 main_v66 main_v67 (mulf : (⟨S100000x64, .f32⟩ : BufTy).Contents (Elt F) → (⟨S100000x64, .f32⟩ : BufTy).Contents (Elt F) → (⟨S100000x64, .f32⟩ : BufTy).Contents (Elt F)),
    StableHlo.unary main_v52 main_v68 (broadcastInDim S1x64 ![1] bcast_S64_S1x64_1 : (⟨S64, .f32⟩ : BufTy).Contents (Elt F) → (⟨S1x64, .f32⟩ : BufTy).Contents (Elt F)),
    StableHlo.unary main_v68 main_v69 (broadcastInDim S100000x64 ![0, 1] bcast_S1x64_S100000x64_0_1 : (⟨S1x64, .f32⟩ : BufTy).Contents (Elt F) → (⟨S100000x64, .f32⟩ : BufTy).Contents (Elt F)),
    StableHlo.binary main_v67 main_v69 main_v70 (mulf : (⟨S100000x64, .f32⟩ : BufTy).Contents (Elt F) → (⟨S100000x64, .f32⟩ : BufTy).Contents (Elt F) → (⟨S100000x64, .f32⟩ : BufTy).Contents (Elt F)),
    StableHlo.unary main_v54 main_v71 (broadcastInDim S1x64 ![1] bcast_S64_S1x64_1 : (⟨S64, .f32⟩ : BufTy).Contents (Elt F) → (⟨S1x64, .f32⟩ : BufTy).Contents (Elt F)),
    StableHlo.unary main_v71 main_v72 (broadcastInDim S100000x64 ![0, 1] bcast_S1x64_S100000x64_0_1 : (⟨S1x64, .f32⟩ : BufTy).Contents (Elt F) → (⟨S100000x64, .f32⟩ : BufTy).Contents (Elt F)),
    StableHlo.binary main_v70 main_v72 main_v73 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x64, .f32⟩) (broadcastInDim S100000x64 ![] bcast_S_S100000x64),
    StableHlo.TRef.binary (.of main_v73 : StableHlo.TRef sig ⟨S100000x64, .f32⟩) (.of main_call3_v0 : StableHlo.TRef sig ⟨S100000x64, .f32⟩) (.of main_v74 : StableHlo.TRef sig ⟨S100000x64, .f32⟩) maximumf ]

/-- Each touches TensorCore references only. -/
theorem rops2_sub : (rops2 : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Each determines what it writes. -/
theorem rops2_fresh : (rops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers written, one per operation, in order. -/
abbrev rops2_W : List (Ref sig .tc) :=
  [ main_v43, main_v44, main_v45, main_v46, main_v47, main_v48, main_v49, main_v50, main_v51, main_v52, main_v53, main_v54, main_cst_5, main_v55, main_cst_6, main_v56, main_v57, main_c_7, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v58, main_v59, main_v60, main_v61, main_cst_8, main_v62, main_v63, main_v64, main_v65, main_v66, main_v67, main_v68, main_v69, main_v70, main_v71, main_v72, main_v73, main_call3_cst, main_call3_v0, main_v74 ]

private theorem wmem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-- Every operation writes a buffer of that list. -/
theorem rops2_wsub : (rops2 : List (HloOp τ sig (Elt F))).Forall fun op =>
      op.writes ⊆ (rops2_W.map (Proc.devRef (τ := τ) .tc)).toFinset :=
  ⟨wmem (y := main_v43) (by decide),
   wmem (y := main_v44) (by decide),
   wmem (y := main_v45) (by decide),
   wmem (y := main_v46) (by decide),
   wmem (y := main_v47) (by decide),
   wmem (y := main_v48) (by decide),
   wmem (y := main_v49) (by decide),
   wmem (y := main_v50) (by decide),
   wmem (y := main_v51) (by decide),
   wmem (y := main_v52) (by decide),
   wmem (y := main_v53) (by decide),
   wmem (y := main_v54) (by decide),
   wmem (y := main_cst_5) (by decide),
   wmem (y := main_v55) (by decide),
   wmem (y := main_cst_6) (by decide),
   wmem (y := main_v56) (by decide),
   wmem (y := main_v57) (by decide),
   wmem (y := main_c_7) (by decide),
   wmem (y := main_call2_cst) (by decide),
   wmem (y := main_call2_v0) (by decide),
   wmem (y := main_call2_v1) (by decide),
   wmem (y := main_call2_cst_0) (by decide),
   wmem (y := main_call2_v2) (by decide),
   wmem (y := main_call2_v3) (by decide),
   wmem (y := main_call2_v4) (by decide),
   wmem (y := main_call2_v5) (by decide),
   wmem (y := main_call2_v6) (by decide),
   wmem (y := main_call2_v7) (by decide),
   wmem (y := main_call2_cst_1) (by decide),
   wmem (y := main_call2_v8) (by decide),
   wmem (y := main_call2_cst_2) (by decide),
   wmem (y := main_call2_v9) (by decide),
   wmem (y := main_call2_v10) (by decide),
   wmem (y := main_call2_v11) (by decide),
   wmem (y := main_call2_cst_3) (by decide),
   wmem (y := main_call2_v12) (by decide),
   wmem (y := main_call2_cst_4) (by decide),
   wmem (y := main_call2_call0_v0) (by decide),
   wmem (y := main_call2_call0_v1) (by decide),
   wmem (y := main_v58) (by decide),
   wmem (y := main_v59) (by decide),
   wmem (y := main_v60) (by decide),
   wmem (y := main_v61) (by decide),
   wmem (y := main_cst_8) (by decide),
   wmem (y := main_v62) (by decide),
   wmem (y := main_v63) (by decide),
   wmem (y := main_v64) (by decide),
   wmem (y := main_v65) (by decide),
   wmem (y := main_v66) (by decide),
   wmem (y := main_v67) (by decide),
   wmem (y := main_v68) (by decide),
   wmem (y := main_v69) (by decide),
   wmem (y := main_v70) (by decide),
   wmem (y := main_v71) (by decide),
   wmem (y := main_v72) (by decide),
   wmem (y := main_v73) (by decide),
   wmem (y := main_call3_cst) (by decide),
   wmem (y := main_call3_v0) (by decide),
   wmem (y := main_v74) (by decide)⟩

/-- A buffer outside that list keeps its contents through the chunk. -/
theorem rops2_keep (V : Valuation τ sig (Elt F)) {r : Ref sig .tc} (hr : r ∉ rops2_W) :
    StableHlo.after rops2 V (Proc.devRef .tc r) = V (Proc.devRef .tc r) :=
  StableHlo.after_of_writes_sub rops2 V rops2_wsub hr

end Cert.ReferenceIdeal.Hand

end
-- ==== Proof.RefOps3.lean ====
import proofs.«409001_j25520695673361_2_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main's operations from the statement after the one defining %74 through the one defining %105, in program order, a called function's
    operations in place of its call (over that call's buffers): 56 operations. -/
abbrev rops3 : List (HloOp τ sig (Elt F)) :=
  [ StableHlo.unary main_arg3 main_v75 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v75 main_v76 rfl shapeCasts_S1x64x64_S64x64,
    StableHlo.binary main_v74 main_v76 main_v77 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v78 ((extractStridedSlice S1x64 ![2, 0] · slices_S3x64_S1x64_2_0) : (⟨S3x64, .f32⟩ : BufTy).Contents (Elt F) → (⟨S1x64, .f32⟩ : BufTy).Contents (Elt F)),
    StableHlo.reshape main_v78 main_v79 rfl shapeCasts_S1x64_S64,
    StableHlo.unary main_v79 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S100000x64 ![0, 1] bcast_S1x64_S100000x64_0_1 : (⟨S1x64, .f32⟩ : BufTy).Contents (Elt F) → (⟨S100000x64, .f32⟩ : BufTy).Contents (Elt F)),
    StableHlo.binary main_v77 main_v81 main_v82 (addf : (⟨S100000x64, .f32⟩ : BufTy).Contents (Elt F) → (⟨S100000x64, .f32⟩ : BufTy).Contents (Elt F) → (⟨S100000x64, .f32⟩ : BufTy).Contents (Elt F)),
    StableHlo.unary main_arg5 main_v83 ((extractStridedSlice S1x64 ![2, 0] · slices_S3x64_S1x64_2_0) : (⟨S3x64, .f32⟩ : BufTy).Contents (Elt F) → (⟨S1x64, .f32⟩ : BufTy).Contents (Elt F)),
    StableHlo.reshape main_v83 main_v84 rfl shapeCasts_S1x64_S64,
    StableHlo.unary main_arg6 main_v85 ((extractStridedSlice S1x64 ![2, 0] · slices_S3x64_S1x64_2_0) : (⟨S3x64, .f32⟩ : BufTy).Contents (Elt F) → (⟨S1x64, .f32⟩ : BufTy).Contents (Elt F)),
    StableHlo.reshape main_v85 main_v86 rfl shapeCasts_S1x64_S64,
    StableHlo.nullary main_cst_9 (constant S_ .f32 0x00000000#32),
    StableHlo.binary main_v82 main_cst_9 main_v87 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_10 (constant S_ .f32 0x47C35000#32),
    StableHlo.unary main_cst_10 main_v88 (broadcastInDim S64 ![] bcast_S_S64 : (⟨S_, .f32⟩ : BufTy).Contents (Elt F) → (⟨S64, .f32⟩ : BufTy).Contents (Elt F)),
    StableHlo.binary main_v87 main_v88 main_v89 (Host.divf : (⟨S64, .f32⟩ : BufTy).Contents (Elt F) → (⟨S64, .f32⟩ : BufTy).Contents (Elt F) → (⟨S64, .f32⟩ : BufTy).Contents (Elt F)),
    StableHlo.nullary main_c_11 (constantI S_ 32 0#32),
    StableHlo.TRef.nullary (.of main_call4_cst : StableHlo.TRef sig ⟨S_, .f32⟩) (constant S_ .f32 0x00000000#32),
    StableHlo.TRef.binary (.of main_v82 : StableHlo.TRef sig ⟨S100000x64, .f32⟩) (.of main_call4_cst : StableHlo.TRef sig ⟨S_, .f32⟩) (.of main_call4_v0 : StableHlo.TRef sig ⟨S64, .f32⟩) (fun x v => Host.reduceAdd x v reducesTo_S100000x64_S64_d0 h_S_),
    StableHlo.TRef.unary (.of main_call4_v0 : StableHlo.TRef sig ⟨S64, .f32⟩) (.of main_call4_v1 : StableHlo.TRef sig ⟨S1x64, .f32⟩) (broadcastInDim S1x64 ![1] bcast_S64_S1x64_1),
    StableHlo.TRef.nullary (.of main_call4_cst_0 : StableHlo.TRef sig ⟨S_, .f32⟩) (constant S_ .f32 0x47C35000#32),
    StableHlo.TRef.unary (.of main_call4_cst_0 : StableHlo.TRef sig ⟨S_, .f32⟩) (.of main_call4_v2 : StableHlo.TRef sig ⟨S1x64, .f32⟩) (broadcastInDim S1x64 ![] bcast_S_S1x64),
    StableHlo.TRef.binary (.of main_call4_v1 : StableHlo.TRef sig ⟨S1x64, .f32⟩) (.of main_call4_v2 : StableHlo.TRef sig ⟨S1x64, .f32⟩) (.of main_call4_v3 : StableHlo.TRef sig ⟨S1x64, .f32⟩) Host.divf,
    StableHlo.TRef.unary (.of main_call4_v3 : StableHlo.TRef sig ⟨S1x64, .f32⟩) (.of main_call4_v4 : StableHlo.TRef sig ⟨S100000x64, .f32⟩) (broadcastInDim S100000x64 ![0, 1] bcast_S1x64_S100000x64_0_1),
    StableHlo.TRef.binary (.of main_v82 : StableHlo.TRef sig ⟨S100000x64, .f32⟩) (.of main_call4_v4 : StableHlo.TRef sig ⟨S100000x64, .f32⟩) (.of main_call4_v5 : StableHlo.TRef sig ⟨S100000x64, .f32⟩) subf,
    StableHlo.TRef.binary (.of main_call4_v5 : StableHlo.TRef sig ⟨S100000x64, .f32⟩) (.of main_call4_v5 : StableHlo.TRef sig ⟨S100000x64, .f32⟩) (.of main_call4_v6 : StableHlo.TRef sig ⟨S100000x64, .f32⟩) mulf,
    StableHlo.TRef.unary (.of main_c_11 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47C35000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S100000x64, .f32⟩) (.of main_call4_cst_2 : StableHlo.TRef sig ⟨S_, .f32⟩) (.of main_call4_v9 : StableHlo.TRef sig ⟨S64, .f32⟩) (fun x v => Host.reduceAdd x v reducesTo_S100000x64_S64_d0 h_S_),
    StableHlo.TRef.unary (.of main_call4_v8 : StableHlo.TRef sig ⟨S_, .f32⟩) (.of main_call4_v10 : StableHlo.TRef sig ⟨S64, .f32⟩) (broadcastInDim S64 ![] bcast_S_S64),
    StableHlo.TRef.binary (.of main_call4_v9 : StableHlo.TRef sig ⟨S64, .f32⟩) (.of main_call4_v10 : StableHlo.TRef sig ⟨S64, .f32⟩) (.of main_call4_v11 : StableHlo.TRef sig ⟨S64, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S64, .f32⟩) (broadcastInDim S64 ![] bcast_S_S64),
    StableHlo.TRef.ternary (.of main_call4_v12 : StableHlo.TRef sig ⟨S_, .i1⟩) (.of main_call4_v11 : StableHlo.TRef sig ⟨S64, .f32⟩) (.of main_call4_call0_v1 : StableHlo.TRef sig ⟨S64, .f32⟩) (.of main_v90 : StableHlo.TRef sig ⟨S64, .f32⟩) (fun p a b => select (broadcastInDim S64 ![] bcast_S_S64 p) a b),
    StableHlo.unary main_v89 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S100000x64 ![0, 1] bcast_S1x64_S100000x64_0_1 : (⟨S1x64, .f32⟩ : BufTy).Contents (Elt F) → (⟨S100000x64, .f32⟩ : BufTy).Contents (Elt F)),
    StableHlo.binary main_v82 main_v92 main_v93 (subf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x3727C5AC#32),
    StableHlo.unary main_cst_12 main_v94 (broadcastInDim S64 ![] bcast_S_S64 : (⟨S_, .f32⟩ : BufTy).Contents (Elt F) → (⟨S64, .f32⟩ : BufTy).Contents (Elt F)),
    StableHlo.binary main_v90 main_v94 main_v95 (addf : (⟨S64, .f32⟩ : BufTy).Contents (Elt F) → (⟨S64, .f32⟩ : BufTy).Contents (Elt F) → (⟨S64, .f32⟩ : BufTy).Contents (Elt F)),
    StableHlo.unary main_v95 main_v96 (Host.rsqrt : (⟨S64, .f32⟩ : BufTy).Contents (Elt F) → (⟨S64, .f32⟩ : BufTy).Contents (Elt F)),
    StableHlo.unary main_v96 main_v97 (broadcastInDim S1x64 ![1] bcast_S64_S1x64_1 : (⟨S64, .f32⟩ : BufTy).Contents (Elt F) → (⟨S1x64, .f32⟩ : BufTy).Contents (Elt F)),
    StableHlo.unary main_v97 main_v98 (broadcastInDim S100000x64 ![0, 1] bcast_S1x64_S100000x64_0_1 : (⟨S1x64, .f32⟩ : BufTy).Contents (Elt F) → (⟨S100000x64, .f32⟩ : BufTy).Contents (Elt F)),
    StableHlo.binary main_v93 main_v98 main_v99 (mulf : (⟨S100000x64, .f32⟩ : BufTy).Contents (Elt F) → (⟨S100000x64, .f32⟩ : BufTy).Contents (Elt F) → (⟨S100000x64, .f32⟩ : BufTy).Contents (Elt F)),
    StableHlo.unary main_v84 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S100000x64 ![0, 1] bcast_S1x64_S100000x64_0_1 : (⟨S1x64, .f32⟩ : BufTy).Contents (Elt F) → (⟨S100000x64, .f32⟩ : BufTy).Contents (Elt F)),
    StableHlo.binary main_v99 main_v101 main_v102 (mulf : (⟨S100000x64, .f32⟩ : BufTy).Contents (Elt F) → (⟨S100000x64, .f32⟩ : BufTy).Contents (Elt F) → (⟨S100000x64, .f32⟩ : BufTy).Contents (Elt F)),
    StableHlo.unary main_v86 main_v103 (broadcastInDim S1x64 ![1] bcast_S64_S1x64_1 : (⟨S64, .f32⟩ : BufTy).Contents (Elt F) → (⟨S1x64, .f32⟩ : BufTy).Contents (Elt F)),
    StableHlo.unary main_v103 main_v104 (broadcastInDim S100000x64 ![0, 1] bcast_S1x64_S100000x64_0_1 : (⟨S1x64, .f32⟩ : BufTy).Contents (Elt F) → (⟨S100000x64, .f32⟩ : BufTy).Contents (Elt F)),
    StableHlo.binary main_v102 main_v104 main_v105 (addf : (⟨S100000x64, .f32⟩ : BufTy).Contents (Elt F) → (⟨S100000x64, .f32⟩ : BufTy).Contents (Elt F) → (⟨S100000x64, .f32⟩ : BufTy).Contents (Elt F)) ]

/-- Each touches TensorCore references only. -/
theorem rops3_sub : (rops3 : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- Each determines what it writes. -/
theorem rops3_fresh : (rops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers written, one per operation, in order. -/
abbrev rops3_W : List (Ref sig .tc) :=
  [ main_v75, main_v76, main_v77, main_v78, main_v79, main_v80, main_v81, main_v82, main_v83, main_v84, main_v85, main_v86, main_cst_9, main_v87, main_cst_10, main_v88, main_v89, main_c_11, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v90, main_v91, main_v92, main_v93, main_cst_12, main_v94, main_v95, main_v96, main_v97, main_v98, main_v99, main_v100, main_v101, main_v102, main_v103, main_v104, main_v105 ]

private theorem wmem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-- Every operation writes a buffer of that list. -/
theorem rops3_wsub : (rops3 : List (HloOp τ sig (Elt F))).Forall fun op =>
      op.writes ⊆ (rops3_W.map (Proc.devRef (τ := τ) .tc)).toFinset :=
  ⟨wmem (y := main_v75) (by decide),
   wmem (y := main_v76) (by decide),
   wmem (y := main_v77) (by decide),
   wmem (y := main_v78) (by decide),
   wmem (y := main_v79) (by decide),
   wmem (y := main_v80) (by decide),
   wmem (y := main_v81) (by decide),
   wmem (y := main_v82) (by decide),
   wmem (y := main_v83) (by decide),
   wmem (y := main_v84) (by decide),
   wmem (y := main_v85) (by decide),
   wmem (y := main_v86) (by decide),
   wmem (y := main_cst_9) (by decide),
   wmem (y := main_v87) (by decide),
   wmem (y := main_cst_10) (by decide),
   wmem (y := main_v88) (by decide),
   wmem (y := main_v89) (by decide),
   wmem (y := main_c_11) (by decide),
   wmem (y := main_call4_cst) (by decide),
   wmem (y := main_call4_v0) (by decide),
   wmem (y := main_call4_v1) (by decide),
   wmem (y := main_call4_cst_0) (by decide),
   wmem (y := main_call4_v2) (by decide),
   wmem (y := main_call4_v3) (by decide),
   wmem (y := main_call4_v4) (by decide),
   wmem (y := main_call4_v5) (by decide),
   wmem (y := main_call4_v6) (by decide),
   wmem (y := main_call4_v7) (by decide),
   wmem (y := main_call4_cst_1) (by decide),
   wmem (y := main_call4_v8) (by decide),
   wmem (y := main_call4_cst_2) (by decide),
   wmem (y := main_call4_v9) (by decide),
   wmem (y := main_call4_v10) (by decide),
   wmem (y := main_call4_v11) (by decide),
   wmem (y := main_call4_cst_3) (by decide),
   wmem (y := main_call4_v12) (by decide),
   wmem (y := main_call4_cst_4) (by decide),
   wmem (y := main_call4_call0_v0) (by decide),
   wmem (y := main_call4_call0_v1) (by decide),
   wmem (y := main_v90) (by decide),
   wmem (y := main_v91) (by decide),
   wmem (y := main_v92) (by decide),
   wmem (y := main_v93) (by decide),
   wmem (y := main_cst_12) (by decide),
   wmem (y := main_v94) (by decide),
   wmem (y := main_v95) (by decide),
   wmem (y := main_v96) (by decide),
   wmem (y := main_v97) (by decide),
   wmem (y := main_v98) (by decide),
   wmem (y := main_v99) (by decide),
   wmem (y := main_v100) (by decide),
   wmem (y := main_v101) (by decide),
   wmem (y := main_v102) (by decide),
   wmem (y := main_v103) (by decide),
   wmem (y := main_v104) (by decide),
   wmem (y := main_v105) (by decide)⟩

/-- A buffer outside that list keeps its contents through the chunk. -/
theorem rops3_keep (V : Valuation τ sig (Elt F)) {r : Ref sig .tc} (hr : r ∉ rops3_W) :
    StableHlo.after rops3 V (Proc.devRef .tc r) = V (Proc.devRef .tc r) :=
  StableHlo.after_of_writes_sub rops3 V rops3_wsub hr

end Cert.ReferenceIdeal.Hand

end
-- ==== Proof.RefOps4.lean ====
import proofs.«409001_j25520695673361_2_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main's operations from the statement after the one defining %105 through the one defining %148, in program order, a called function's
    operations in place of its call (over that call's buffers): 52 operations. -/
abbrev rops4 : List (HloOp τ sig (Elt F)) :=
  [ StableHlo.unary main_arg7 main_v106 ((extractStridedSlice S1x64x64 ![0, 0, 0] · slices_S6x64x64_S1x64x64_0_0_0) : (⟨S6x64x64, .f32⟩ : BufTy).Contents (Elt F) → (⟨S1x64x64, .f32⟩ : BufTy).Contents (Elt F)),
    StableHlo.reshape main_v106 main_v107 rfl shapeCasts_S1x64x64_S64x64,
    StableHlo.unary main_arg8 main_v108 ((extractStridedSlice S1x64 ![0, 0] · slices_S6x64_S1x64_0_0) : (⟨S6x64, .f32⟩ : BufTy).Contents (Elt F) → (⟨S1x64, .f32⟩ : BufTy).Contents (Elt F)),
    StableHlo.reshape main_v108 main_v109 rfl shapeCasts_S1x64_S64,
    StableHlo.binary main_v105 main_v107 main_v110 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_13 (constantI S_ 32 0#32),
    StableHlo.unary main_c_13 main_v111 (broadcastInDim S800000 ![] bcast_S_S800000 : (⟨S_, .i32⟩ : BufTy).Contents (Elt F) → (⟨S800000, .i32⟩ : BufTy).Contents (Elt F)),
    StableHlo.binary main_v1 main_v111 main_v112 (cmpi .slt : (⟨S800000, .i32⟩ : BufTy).Contents (Elt F) → (⟨S800000, .i32⟩ : BufTy).Contents (Elt F) → (⟨S800000, .i1⟩ : BufTy).Contents (Elt F)),
    StableHlo.nullary main_c_14 (constantI S_ 32 100000#32),
    StableHlo.unary main_c_14 main_v113 (broadcastInDim S800000 ![] bcast_S_S800000 : (⟨S_, .i32⟩ : BufTy).Contents (Elt F) → (⟨S800000, .i32⟩ : BufTy).Contents (Elt F)),
    StableHlo.binary main_v1 main_v113 main_v114 (addi : (⟨S800000, .i32⟩ : BufTy).Contents (Elt F) → (⟨S800000, .i32⟩ : BufTy).Contents (Elt F) → (⟨S800000, .i32⟩ : BufTy).Contents (Elt F)),
    StableHlo.ternary main_v112 main_v114 main_v1 main_v115 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v115 main_v116 (broadcastInDim S800000x1 ![0] bcast_S800000_S800000x1_0 : (⟨S800000, .i32⟩ : BufTy).Contents (Elt F) → (⟨S800000x1, .i32⟩ : BufTy).Contents (Elt F)),
    StableHlo.binary main_v10 main_v116 main_v117 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    StableHlo.nullary main_c_15 (constantI S_ 32 0#32),
    StableHlo.unary main_c_15 main_v118 (broadcastInDim S800000 ![] bcast_S_S800000 : (⟨S_, .i32⟩ : BufTy).Contents (Elt F) → (⟨S800000, .i32⟩ : BufTy).Contents (Elt F)),
    StableHlo.binary main_v3 main_v118 main_v119 (cmpi .slt : (⟨S800000, .i32⟩ : BufTy).Contents (Elt F) → (⟨S800000, .i32⟩ : BufTy).Contents (Elt F) → (⟨S800000, .i1⟩ : BufTy).Contents (Elt F)),
    StableHlo.nullary main_c_16 (constantI S_ 32 100000#32),
    StableHlo.unary main_c_16 main_v120 (broadcastInDim S800000 ![] bcast_S_S800000 : (⟨S_, .i32⟩ : BufTy).Contents (Elt F) → (⟨S800000, .i32⟩ : BufTy).Contents (Elt F)),
    StableHlo.binary main_v3 main_v120 main_v121 (addi : (⟨S800000, .i32⟩ : BufTy).Contents (Elt F) → (⟨S800000, .i32⟩ : BufTy).Contents (Elt F) → (⟨S800000, .i32⟩ : BufTy).Contents (Elt F)),
    StableHlo.ternary main_v119 main_v121 main_v3 main_v122 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v122 main_v123 (broadcastInDim S800000x1 ![0] bcast_S800000_S800000x1_0 : (⟨S800000, .i32⟩ : BufTy).Contents (Elt F) → (⟨S800000x1, .i32⟩ : BufTy).Contents (Elt F)),
    StableHlo.binary main_v10 main_v123 main_v124 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    StableHlo.binary main_v117 main_v124 main_v125 (mulf : (⟨S800000, .f32⟩ : BufTy).Contents (Elt F) → (⟨S800000, .f32⟩ : BufTy).Contents (Elt F) → (⟨S800000, .f32⟩ : BufTy).Contents (Elt F)),
    StableHlo.nullary main_c_17 (constantI S_ 32 0#32),
    StableHlo.unary main_c_17 main_v126 (broadcastInDim S800000 ![] bcast_S_S800000 : (⟨S_, .i32⟩ : BufTy).Contents (Elt F) → (⟨S800000, .i32⟩ : BufTy).Contents (Elt F)),
    StableHlo.binary main_v1 main_v126 main_v127 (cmpi .slt : (⟨S800000, .i32⟩ : BufTy).Contents (Elt F) → (⟨S800000, .i32⟩ : BufTy).Contents (Elt F) → (⟨S800000, .i1⟩ : BufTy).Contents (Elt F)),
    StableHlo.nullary main_c_18 (constantI S_ 32 100000#32),
    StableHlo.unary main_c_18 main_v128 (broadcastInDim S800000 ![] bcast_S_S800000 : (⟨S_, .i32⟩ : BufTy).Contents (Elt F) → (⟨S800000, .i32⟩ : BufTy).Contents (Elt F)),
    StableHlo.binary main_v1 main_v128 main_v129 (addi : (⟨S800000, .i32⟩ : BufTy).Contents (Elt F) → (⟨S800000, .i32⟩ : BufTy).Contents (Elt F) → (⟨S800000, .i32⟩ : BufTy).Contents (Elt F)),
    StableHlo.ternary main_v127 main_v129 main_v1 main_v130 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v130 main_v131 (broadcastInDim S800000x1 ![0] bcast_S800000_S800000x1_0 : (⟨S800000, .i32⟩ : BufTy).Contents (Elt F) → (⟨S800000x1, .i32⟩ : BufTy).Contents (Elt F)),
    StableHlo.binary main_v110 main_v131 main_v132 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.unary main_v125 main_v133 (broadcastInDim S800000x1 ![0] bcast_S800000_S800000x1_0 : (⟨S800000, .f32⟩ : BufTy).Contents (Elt F) → (⟨S800000x1, .f32⟩ : BufTy).Contents (Elt F)),
    StableHlo.unary main_v133 main_v134 (broadcastInDim S800000x64 ![0, 1] bcast_S800000x1_S800000x64_0_1 : (⟨S800000x1, .f32⟩ : BufTy).Contents (Elt F) → (⟨S800000x64, .f32⟩ : BufTy).Contents (Elt F)),
    StableHlo.binary main_v132 main_v134 main_v135 (mulf : (⟨S800000x64, .f32⟩ : BufTy).Contents (Elt F) → (⟨S800000x64, .f32⟩ : BufTy).Contents (Elt F) → (⟨S800000x64, .f32⟩ : BufTy).Contents (Elt F)),
    StableHlo.nullary main_cst_19 (constant S_ .f32 0x00000000#32),
    StableHlo.unary main_cst_19 main_v136 (broadcastInDim S100000x64 ![] bcast_S_S100000x64 : (⟨S_, .f32⟩ : BufTy).Contents (Elt F) → (⟨S100000x64, .f32⟩ : BufTy).Contents (Elt F)),
    StableHlo.unary main_v3 main_v137 (broadcastInDim S800000x1 ![0] bcast_S800000_S800000x1_0 : (⟨S800000, .i32⟩ : BufTy).Contents (Elt F) → (⟨S800000x1, .i32⟩ : BufTy).Contents (Elt F)),
    StableHlo.ternary main_v136 main_v137 main_v135 main_v138 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.binary main_v10 main_v10 main_v139 (mulf : (⟨S100000, .f32⟩ : BufTy).Contents (Elt F) → (⟨S100000, .f32⟩ : BufTy).Contents (Elt F) → (⟨S100000, .f32⟩ : BufTy).Contents (Elt F)),
    StableHlo.unary main_v139 main_v140 (broadcastInDim S100000x1 ![0] bcast_S100000_S100000x1_0 : (⟨S100000, .f32⟩ : BufTy).Contents (Elt F) → (⟨S100000x1, .f32⟩ : BufTy).Contents (Elt F)),
    StableHlo.unary main_v140 main_v141 (broadcastInDim S100000x64 ![0, 1] bcast_S100000x1_S100000x64_0_1 : (⟨S100000x1, .f32⟩ : BufTy).Contents (Elt F) → (⟨S100000x64, .f32⟩ : BufTy).Contents (Elt F)),
    StableHlo.binary main_v110 main_v141 main_v142 (mulf : (⟨S100000x64, .f32⟩ : BufTy).Contents (Elt F) → (⟨S100000x64, .f32⟩ : BufTy).Contents (Elt F) → (⟨S100000x64, .f32⟩ : BufTy).Contents (Elt F)),
    StableHlo.binary main_v138 main_v142 main_v143 (addf : (⟨S100000x64, .f32⟩ : BufTy).Contents (Elt F) → (⟨S100000x64, .f32⟩ : BufTy).Contents (Elt F) → (⟨S100000x64, .f32⟩ : BufTy).Contents (Elt F)),
    StableHlo.unary main_v109 main_v144 (broadcastInDim S1x64 ![1] bcast_S64_S1x64_1 : (⟨S64, .f32⟩ : BufTy).Contents (Elt F) → (⟨S1x64, .f32⟩ : BufTy).Contents (Elt F)),
    StableHlo.unary main_v144 main_v145 (broadcastInDim S100000x64 ![0, 1] bcast_S1x64_S100000x64_0_1 : (⟨S1x64, .f32⟩ : BufTy).Contents (Elt F) → (⟨S100000x64, .f32⟩ : BufTy).Contents (Elt F)),
    StableHlo.binary main_v143 main_v145 main_v146 (addf : (⟨S100000x64, .f32⟩ : BufTy).Contents (Elt F) → (⟨S100000x64, .f32⟩ : BufTy).Contents (Elt F) → (⟨S100000x64, .f32⟩ : BufTy).Contents (Elt F)),
    StableHlo.binary main_v146 main_v105 main_v147 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S100000x64, .f32⟩) (broadcastInDim S100000x64 ![] bcast_S_S100000x64),
    StableHlo.TRef.binary (.of main_v147 : StableHlo.TRef sig ⟨S100000x64, .f32⟩) (.of main_call5_v0 : StableHlo.TRef sig ⟨S100000x64, .f32⟩) (.of main_v148 : StableHlo.TRef sig ⟨S100000x64, .f32⟩) maximumf ]

/-- Each touches TensorCore references only. -/
theorem rops4_sub : (rops4 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub ..⟩

/-- Each determines what it writes. -/
theorem rops4_fresh : (rops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers written, one per operation, in order. -/
abbrev rops4_W : List (Ref sig .tc) :=
  [ main_v106, main_v107, main_v108, main_v109, main_v110, main_c_13, main_v111, main_v112, main_c_14, main_v113, main_v114, main_v115, main_v116, main_v117, main_c_15, main_v118, main_v119, main_c_16, main_v120, main_v121, main_v122, main_v123, main_v124, main_v125, main_c_17, main_v126, main_v127, main_c_18, main_v128, main_v129, main_v130, main_v131, main_v132, main_v133, main_v134, main_v135, main_cst_19, main_v136, main_v137, main_v138, main_v139, main_v140, main_v141, main_v142, main_v143, main_v144, main_v145, main_v146, main_v147, main_call5_cst, main_call5_v0, main_v148 ]

private theorem wmem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-- Every operation writes a buffer of that list. -/
theorem rops4_wsub : (rops4 : List (HloOp τ sig (Elt F))).Forall fun op =>
      op.writes ⊆ (rops4_W.map (Proc.devRef (τ := τ) .tc)).toFinset :=
  ⟨wmem (y := main_v106) (by decide),
   wmem (y := main_v107) (by decide),
   wmem (y := main_v108) (by decide),
   wmem (y := main_v109) (by decide),
   wmem (y := main_v110) (by decide),
   wmem (y := main_c_13) (by decide),
   wmem (y := main_v111) (by decide),
   wmem (y := main_v112) (by decide),
   wmem (y := main_c_14) (by decide),
   wmem (y := main_v113) (by decide),
   wmem (y := main_v114) (by decide),
   wmem (y := main_v115) (by decide),
   wmem (y := main_v116) (by decide),
   wmem (y := main_v117) (by decide),
   wmem (y := main_c_15) (by decide),
   wmem (y := main_v118) (by decide),
   wmem (y := main_v119) (by decide),
   wmem (y := main_c_16) (by decide),
   wmem (y := main_v120) (by decide),
   wmem (y := main_v121) (by decide),
   wmem (y := main_v122) (by decide),
   wmem (y := main_v123) (by decide),
   wmem (y := main_v124) (by decide),
   wmem (y := main_v125) (by decide),
   wmem (y := main_c_17) (by decide),
   wmem (y := main_v126) (by decide),
   wmem (y := main_v127) (by decide),
   wmem (y := main_c_18) (by decide),
   wmem (y := main_v128) (by decide),
   wmem (y := main_v129) (by decide),
   wmem (y := main_v130) (by decide),
   wmem (y := main_v131) (by decide),
   wmem (y := main_v132) (by decide),
   wmem (y := main_v133) (by decide),
   wmem (y := main_v134) (by decide),
   wmem (y := main_v135) (by decide),
   wmem (y := main_cst_19) (by decide),
   wmem (y := main_v136) (by decide),
   wmem (y := main_v137) (by decide),
   wmem (y := main_v138) (by decide),
   wmem (y := main_v139) (by decide),
   wmem (y := main_v140) (by decide),
   wmem (y := main_v141) (by decide),
   wmem (y := main_v142) (by decide),
   wmem (y := main_v143) (by decide),
   wmem (y := main_v144) (by decide),
   wmem (y := main_v145) (by decide),
   wmem (y := main_v146) (by decide),
   wmem (y := main_v147) (by decide),
   wmem (y := main_call5_cst) (by decide),
   wmem (y := main_call5_v0) (by decide),
   wmem (y := main_v148) (by decide)⟩

/-- A buffer outside that list keeps its contents through the chunk. -/
theorem rops4_keep (V : Valuation τ sig (Elt F)) {r : Ref sig .tc} (hr : r ∉ rops4_W) :
    StableHlo.after rops4 V (Proc.devRef .tc r) = V (Proc.devRef .tc r) :=
  StableHlo.after_of_writes_sub rops4 V rops4_wsub hr

end Cert.ReferenceIdeal.Hand

end
-- ==== Proof.RefOps5.lean ====
import proofs.«409001_j25520695673361_2_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main's operations from the statement after the one defining %148 through the one defining %191, in program order, a called function's
    operations in place of its call (over that call's buffers): 52 operations. -/
abbrev rops5 : List (HloOp τ sig (Elt F)) :=
  [ StableHlo.unary main_arg7 main_v149 ((extractStridedSlice S1x64x64 ![1, 0, 0] · slices_S6x64x64_S1x64x64_1_0_0) : (⟨S6x64x64, .f32⟩ : BufTy).Contents (Elt F) → (⟨S1x64x64, .f32⟩ : BufTy).Contents (Elt F)),
    StableHlo.reshape main_v149 main_v150 rfl shapeCasts_S1x64x64_S64x64,
    StableHlo.unary main_arg8 main_v151 ((extractStridedSlice S1x64 ![1, 0] · slices_S6x64_S1x64_1_0) : (⟨S6x64, .f32⟩ : BufTy).Contents (Elt F) → (⟨S1x64, .f32⟩ : BufTy).Contents (Elt F)),
    StableHlo.reshape main_v151 main_v152 rfl shapeCasts_S1x64_S64,
    StableHlo.binary main_v148 main_v150 main_v153 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_20 (constantI S_ 32 0#32),
    StableHlo.unary main_c_20 main_v154 (broadcastInDim S800000 ![] bcast_S_S800000 : (⟨S_, .i32⟩ : BufTy).Contents (Elt F) → (⟨S800000, .i32⟩ : BufTy).Contents (Elt F)),
    StableHlo.binary main_v1 main_v154 main_v155 (cmpi .slt : (⟨S800000, .i32⟩ : BufTy).Contents (Elt F) → (⟨S800000, .i32⟩ : BufTy).Contents (Elt F) → (⟨S800000, .i1⟩ : BufTy).Contents (Elt F)),
    StableHlo.nullary main_c_21 (constantI S_ 32 100000#32),
    StableHlo.unary main_c_21 main_v156 (broadcastInDim S800000 ![] bcast_S_S800000 : (⟨S_, .i32⟩ : BufTy).Contents (Elt F) → (⟨S800000, .i32⟩ : BufTy).Contents (Elt F)),
    StableHlo.binary main_v1 main_v156 main_v157 (addi : (⟨S800000, .i32⟩ : BufTy).Contents (Elt F) → (⟨S800000, .i32⟩ : BufTy).Contents (Elt F) → (⟨S800000, .i32⟩ : BufTy).Contents (Elt F)),
    StableHlo.ternary main_v155 main_v157 main_v1 main_v158 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v158 main_v159 (broadcastInDim S800000x1 ![0] bcast_S800000_S800000x1_0 : (⟨S800000, .i32⟩ : BufTy).Contents (Elt F) → (⟨S800000x1, .i32⟩ : BufTy).Contents (Elt F)),
    StableHlo.binary main_v10 main_v159 main_v160 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    StableHlo.nullary main_c_22 (constantI S_ 32 0#32),
    StableHlo.unary main_c_22 main_v161 (broadcastInDim S800000 ![] bcast_S_S800000 : (⟨S_, .i32⟩ : BufTy).Contents (Elt F) → (⟨S800000, .i32⟩ : BufTy).Contents (Elt F)),
    StableHlo.binary main_v3 main_v161 main_v162 (cmpi .slt : (⟨S800000, .i32⟩ : BufTy).Contents (Elt F) → (⟨S800000, .i32⟩ : BufTy).Contents (Elt F) → (⟨S800000, .i1⟩ : BufTy).Contents (Elt F)),
    StableHlo.nullary main_c_23 (constantI S_ 32 100000#32),
    StableHlo.unary main_c_23 main_v163 (broadcastInDim S800000 ![] bcast_S_S800000 : (⟨S_, .i32⟩ : BufTy).Contents (Elt F) → (⟨S800000, .i32⟩ : BufTy).Contents (Elt F)),
    StableHlo.binary main_v3 main_v163 main_v164 (addi : (⟨S800000, .i32⟩ : BufTy).Contents (Elt F) → (⟨S800000, .i32⟩ : BufTy).Contents (Elt F) → (⟨S800000, .i32⟩ : BufTy).Contents (Elt F)),
    StableHlo.ternary main_v162 main_v164 main_v3 main_v165 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v165 main_v166 (broadcastInDim S800000x1 ![0] bcast_S800000_S800000x1_0 : (⟨S800000, .i32⟩ : BufTy).Contents (Elt F) → (⟨S800000x1, .i32⟩ : BufTy).Contents (Elt F)),
    StableHlo.binary main_v10 main_v166 main_v167 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    StableHlo.binary main_v160 main_v167 main_v168 (mulf : (⟨S800000, .f32⟩ : BufTy).Contents (Elt F) → (⟨S800000, .f32⟩ : BufTy).Contents (Elt F) → (⟨S800000, .f32⟩ : BufTy).Contents (Elt F)),
    StableHlo.nullary main_c_24 (constantI S_ 32 0#32),
    StableHlo.unary main_c_24 main_v169 (broadcastInDim S800000 ![] bcast_S_S800000 : (⟨S_, .i32⟩ : BufTy).Contents (Elt F) → (⟨S800000, .i32⟩ : BufTy).Contents (Elt F)),
    StableHlo.binary main_v1 main_v169 main_v170 (cmpi .slt : (⟨S800000, .i32⟩ : BufTy).Contents (Elt F) → (⟨S800000, .i32⟩ : BufTy).Contents (Elt F) → (⟨S800000, .i1⟩ : BufTy).Contents (Elt F)),
    StableHlo.nullary main_c_25 (constantI S_ 32 100000#32),
    StableHlo.unary main_c_25 main_v171 (broadcastInDim S800000 ![] bcast_S_S800000 : (⟨S_, .i32⟩ : BufTy).Contents (Elt F) → (⟨S800000, .i32⟩ : BufTy).Contents (Elt F)),
    StableHlo.binary main_v1 main_v171 main_v172 (addi : (⟨S800000, .i32⟩ : BufTy).Contents (Elt F) → (⟨S800000, .i32⟩ : BufTy).Contents (Elt F) → (⟨S800000, .i32⟩ : BufTy).Contents (Elt F)),
    StableHlo.ternary main_v170 main_v172 main_v1 main_v173 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v173 main_v174 (broadcastInDim S800000x1 ![0] bcast_S800000_S800000x1_0 : (⟨S800000, .i32⟩ : BufTy).Contents (Elt F) → (⟨S800000x1, .i32⟩ : BufTy).Contents (Elt F)),
    StableHlo.binary main_v153 main_v174 main_v175 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.unary main_v168 main_v176 (broadcastInDim S800000x1 ![0] bcast_S800000_S800000x1_0 : (⟨S800000, .f32⟩ : BufTy).Contents (Elt F) → (⟨S800000x1, .f32⟩ : BufTy).Contents (Elt F)),
    StableHlo.unary main_v176 main_v177 (broadcastInDim S800000x64 ![0, 1] bcast_S800000x1_S800000x64_0_1 : (⟨S800000x1, .f32⟩ : BufTy).Contents (Elt F) → (⟨S800000x64, .f32⟩ : BufTy).Contents (Elt F)),
    StableHlo.binary main_v175 main_v177 main_v178 (mulf : (⟨S800000x64, .f32⟩ : BufTy).Contents (Elt F) → (⟨S800000x64, .f32⟩ : BufTy).Contents (Elt F) → (⟨S800000x64, .f32⟩ : BufTy).Contents (Elt F)),
    StableHlo.nullary main_cst_26 (constant S_ .f32 0x00000000#32),
    StableHlo.unary main_cst_26 main_v179 (broadcastInDim S100000x64 ![] bcast_S_S100000x64 : (⟨S_, .f32⟩ : BufTy).Contents (Elt F) → (⟨S100000x64, .f32⟩ : BufTy).Contents (Elt F)),
    StableHlo.unary main_v3 main_v180 (broadcastInDim S800000x1 ![0] bcast_S800000_S800000x1_0 : (⟨S800000, .i32⟩ : BufTy).Contents (Elt F) → (⟨S800000x1, .i32⟩ : BufTy).Contents (Elt F)),
    StableHlo.ternary main_v179 main_v180 main_v178 main_v181 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.binary main_v10 main_v10 main_v182 (mulf : (⟨S100000, .f32⟩ : BufTy).Contents (Elt F) → (⟨S100000, .f32⟩ : BufTy).Contents (Elt F) → (⟨S100000, .f32⟩ : BufTy).Contents (Elt F)),
    StableHlo.unary main_v182 main_v183 (broadcastInDim S100000x1 ![0] bcast_S100000_S100000x1_0 : (⟨S100000, .f32⟩ : BufTy).Contents (Elt F) → (⟨S100000x1, .f32⟩ : BufTy).Contents (Elt F)),
    StableHlo.unary main_v183 main_v184 (broadcastInDim S100000x64 ![0, 1] bcast_S100000x1_S100000x64_0_1 : (⟨S100000x1, .f32⟩ : BufTy).Contents (Elt F) → (⟨S100000x64, .f32⟩ : BufTy).Contents (Elt F)),
    StableHlo.binary main_v153 main_v184 main_v185 (mulf : (⟨S100000x64, .f32⟩ : BufTy).Contents (Elt F) → (⟨S100000x64, .f32⟩ : BufTy).Contents (Elt F) → (⟨S100000x64, .f32⟩ : BufTy).Contents (Elt F)),
    StableHlo.binary main_v181 main_v185 main_v186 (addf : (⟨S100000x64, .f32⟩ : BufTy).Contents (Elt F) → (⟨S100000x64, .f32⟩ : BufTy).Contents (Elt F) → (⟨S100000x64, .f32⟩ : BufTy).Contents (Elt F)),
    StableHlo.unary main_v152 main_v187 (broadcastInDim S1x64 ![1] bcast_S64_S1x64_1 : (⟨S64, .f32⟩ : BufTy).Contents (Elt F) → (⟨S1x64, .f32⟩ : BufTy).Contents (Elt F)),
    StableHlo.unary main_v187 main_v188 (broadcastInDim S100000x64 ![0, 1] bcast_S1x64_S100000x64_0_1 : (⟨S1x64, .f32⟩ : BufTy).Contents (Elt F) → (⟨S100000x64, .f32⟩ : BufTy).Contents (Elt F)),
    StableHlo.binary main_v186 main_v188 main_v189 (addf : (⟨S100000x64, .f32⟩ : BufTy).Contents (Elt F) → (⟨S100000x64, .f32⟩ : BufTy).Contents (Elt F) → (⟨S100000x64, .f32⟩ : BufTy).Contents (Elt F)),
    StableHlo.binary main_v189 main_v148 main_v190 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S100000x64, .f32⟩) (broadcastInDim S100000x64 ![] bcast_S_S100000x64),
    StableHlo.TRef.binary (.of main_v190 : StableHlo.TRef sig ⟨S100000x64, .f32⟩) (.of main_call6_v0 : StableHlo.TRef sig ⟨S100000x64, .f32⟩) (.of main_v191 : StableHlo.TRef sig ⟨S100000x64, .f32⟩) maximumf ]

/-- Each touches TensorCore references only. -/
theorem rops5_sub : (rops5 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub ..⟩

/-- Each determines what it writes. -/
theorem rops5_fresh : (rops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers written, one per operation, in order. -/
abbrev rops5_W : List (Ref sig .tc) :=
  [ main_v149, main_v150, main_v151, main_v152, main_v153, main_c_20, main_v154, main_v155, main_c_21, main_v156, main_v157, main_v158, main_v159, main_v160, main_c_22, main_v161, main_v162, main_c_23, main_v163, main_v164, main_v165, main_v166, main_v167, main_v168, main_c_24, main_v169, main_v170, main_c_25, main_v171, main_v172, main_v173, main_v174, main_v175, main_v176, main_v177, main_v178, main_cst_26, main_v179, main_v180, main_v181, main_v182, main_v183, main_v184, main_v185, main_v186, main_v187, main_v188, main_v189, main_v190, main_call6_cst, main_call6_v0, main_v191 ]

private theorem wmem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-- Every operation writes a buffer of that list. -/
theorem rops5_wsub : (rops5 : List (HloOp τ sig (Elt F))).Forall fun op =>
      op.writes ⊆ (rops5_W.map (Proc.devRef (τ := τ) .tc)).toFinset :=
  ⟨wmem (y := main_v149) (by decide),
   wmem (y := main_v150) (by decide),
   wmem (y := main_v151) (by decide),
   wmem (y := main_v152) (by decide),
   wmem (y := main_v153) (by decide),
   wmem (y := main_c_20) (by decide),
   wmem (y := main_v154) (by decide),
   wmem (y := main_v155) (by decide),
   wmem (y := main_c_21) (by decide),
   wmem (y := main_v156) (by decide),
   wmem (y := main_v157) (by decide),
   wmem (y := main_v158) (by decide),
   wmem (y := main_v159) (by decide),
   wmem (y := main_v160) (by decide),
   wmem (y := main_c_22) (by decide),
   wmem (y := main_v161) (by decide),
   wmem (y := main_v162) (by decide),
   wmem (y := main_c_23) (by decide),
   wmem (y := main_v163) (by decide),
   wmem (y := main_v164) (by decide),
   wmem (y := main_v165) (by decide),
   wmem (y := main_v166) (by decide),
   wmem (y := main_v167) (by decide),
   wmem (y := main_v168) (by decide),
   wmem (y := main_c_24) (by decide),
   wmem (y := main_v169) (by decide),
   wmem (y := main_v170) (by decide),
   wmem (y := main_c_25) (by decide),
   wmem (y := main_v171) (by decide),
   wmem (y := main_v172) (by decide),
   wmem (y := main_v173) (by decide),
   wmem (y := main_v174) (by decide),
   wmem (y := main_v175) (by decide),
   wmem (y := main_v176) (by decide),
   wmem (y := main_v177) (by decide),
   wmem (y := main_v178) (by decide),
   wmem (y := main_cst_26) (by decide),
   wmem (y := main_v179) (by decide),
   wmem (y := main_v180) (by decide),
   wmem (y := main_v181) (by decide),
   wmem (y := main_v182) (by decide),
   wmem (y := main_v183) (by decide),
   wmem (y := main_v184) (by decide),
   wmem (y := main_v185) (by decide),
   wmem (y := main_v186) (by decide),
   wmem (y := main_v187) (by decide),
   wmem (y := main_v188) (by decide),
   wmem (y := main_v189) (by decide),
   wmem (y := main_v190) (by decide),
   wmem (y := main_call6_cst) (by decide),
   wmem (y := main_call6_v0) (by decide),
   wmem (y := main_v191) (by decide)⟩

/-- A buffer outside that list keeps its contents through the chunk. -/
theorem rops5_keep (V : Valuation τ sig (Elt F)) {r : Ref sig .tc} (hr : r ∉ rops5_W) :
    StableHlo.after rops5 V (Proc.devRef .tc r) = V (Proc.devRef .tc r) :=
  StableHlo.after_of_writes_sub rops5 V rops5_wsub hr

end Cert.ReferenceIdeal.Hand

end
-- ==== Proof.RefOps6.lean ====
import proofs.«409001_j25520695673361_2_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main's operations from the statement after the one defining %191 through the one defining %234, in program order, a called function's
    operations in place of its call (over that call's buffers): 52 operations. -/
abbrev rops6 : List (HloOp τ sig (Elt F)) :=
  [ StableHlo.unary main_arg7 main_v192 ((extractStridedSlice S1x64x64 ![2, 0, 0] · slices_S6x64x64_S1x64x64_2_0_0) : (⟨S6x64x64, .f32⟩ : BufTy).Contents (Elt F) → (⟨S1x64x64, .f32⟩ : BufTy).Contents (Elt F)),
    StableHlo.reshape main_v192 main_v193 rfl shapeCasts_S1x64x64_S64x64,
    StableHlo.unary main_arg8 main_v194 ((extractStridedSlice S1x64 ![2, 0] · slices_S6x64_S1x64_2_0) : (⟨S6x64, .f32⟩ : BufTy).Contents (Elt F) → (⟨S1x64, .f32⟩ : BufTy).Contents (Elt F)),
    StableHlo.reshape main_v194 main_v195 rfl shapeCasts_S1x64_S64,
    StableHlo.binary main_v191 main_v193 main_v196 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_27 (constantI S_ 32 0#32),
    StableHlo.unary main_c_27 main_v197 (broadcastInDim S800000 ![] bcast_S_S800000 : (⟨S_, .i32⟩ : BufTy).Contents (Elt F) → (⟨S800000, .i32⟩ : BufTy).Contents (Elt F)),
    StableHlo.binary main_v1 main_v197 main_v198 (cmpi .slt : (⟨S800000, .i32⟩ : BufTy).Contents (Elt F) → (⟨S800000, .i32⟩ : BufTy).Contents (Elt F) → (⟨S800000, .i1⟩ : BufTy).Contents (Elt F)),
    StableHlo.nullary main_c_28 (constantI S_ 32 100000#32),
    StableHlo.unary main_c_28 main_v199 (broadcastInDim S800000 ![] bcast_S_S800000 : (⟨S_, .i32⟩ : BufTy).Contents (Elt F) → (⟨S800000, .i32⟩ : BufTy).Contents (Elt F)),
    StableHlo.binary main_v1 main_v199 main_v200 (addi : (⟨S800000, .i32⟩ : BufTy).Contents (Elt F) → (⟨S800000, .i32⟩ : BufTy).Contents (Elt F) → (⟨S800000, .i32⟩ : BufTy).Contents (Elt F)),
    StableHlo.ternary main_v198 main_v200 main_v1 main_v201 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v201 main_v202 (broadcastInDim S800000x1 ![0] bcast_S800000_S800000x1_0 : (⟨S800000, .i32⟩ : BufTy).Contents (Elt F) → (⟨S800000x1, .i32⟩ : BufTy).Contents (Elt F)),
    StableHlo.binary main_v10 main_v202 main_v203 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    StableHlo.nullary main_c_29 (constantI S_ 32 0#32),
    StableHlo.unary main_c_29 main_v204 (broadcastInDim S800000 ![] bcast_S_S800000 : (⟨S_, .i32⟩ : BufTy).Contents (Elt F) → (⟨S800000, .i32⟩ : BufTy).Contents (Elt F)),
    StableHlo.binary main_v3 main_v204 main_v205 (cmpi .slt : (⟨S800000, .i32⟩ : BufTy).Contents (Elt F) → (⟨S800000, .i32⟩ : BufTy).Contents (Elt F) → (⟨S800000, .i1⟩ : BufTy).Contents (Elt F)),
    StableHlo.nullary main_c_30 (constantI S_ 32 100000#32),
    StableHlo.unary main_c_30 main_v206 (broadcastInDim S800000 ![] bcast_S_S800000 : (⟨S_, .i32⟩ : BufTy).Contents (Elt F) → (⟨S800000, .i32⟩ : BufTy).Contents (Elt F)),
    StableHlo.binary main_v3 main_v206 main_v207 (addi : (⟨S800000, .i32⟩ : BufTy).Contents (Elt F) → (⟨S800000, .i32⟩ : BufTy).Contents (Elt F) → (⟨S800000, .i32⟩ : BufTy).Contents (Elt F)),
    StableHlo.ternary main_v205 main_v207 main_v3 main_v208 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v208 main_v209 (broadcastInDim S800000x1 ![0] bcast_S800000_S800000x1_0 : (⟨S800000, .i32⟩ : BufTy).Contents (Elt F) → (⟨S800000x1, .i32⟩ : BufTy).Contents (Elt F)),
    StableHlo.binary main_v10 main_v209 main_v210 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    StableHlo.binary main_v203 main_v210 main_v211 (mulf : (⟨S800000, .f32⟩ : BufTy).Contents (Elt F) → (⟨S800000, .f32⟩ : BufTy).Contents (Elt F) → (⟨S800000, .f32⟩ : BufTy).Contents (Elt F)),
    StableHlo.nullary main_c_31 (constantI S_ 32 0#32),
    StableHlo.unary main_c_31 main_v212 (broadcastInDim S800000 ![] bcast_S_S800000 : (⟨S_, .i32⟩ : BufTy).Contents (Elt F) → (⟨S800000, .i32⟩ : BufTy).Contents (Elt F)),
    StableHlo.binary main_v1 main_v212 main_v213 (cmpi .slt : (⟨S800000, .i32⟩ : BufTy).Contents (Elt F) → (⟨S800000, .i32⟩ : BufTy).Contents (Elt F) → (⟨S800000, .i1⟩ : BufTy).Contents (Elt F)),
    StableHlo.nullary main_c_32 (constantI S_ 32 100000#32),
    StableHlo.unary main_c_32 main_v214 (broadcastInDim S800000 ![] bcast_S_S800000 : (⟨S_, .i32⟩ : BufTy).Contents (Elt F) → (⟨S800000, .i32⟩ : BufTy).Contents (Elt F)),
    StableHlo.binary main_v1 main_v214 main_v215 (addi : (⟨S800000, .i32⟩ : BufTy).Contents (Elt F) → (⟨S800000, .i32⟩ : BufTy).Contents (Elt F) → (⟨S800000, .i32⟩ : BufTy).Contents (Elt F)),
    StableHlo.ternary main_v213 main_v215 main_v1 main_v216 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v216 main_v217 (broadcastInDim S800000x1 ![0] bcast_S800000_S800000x1_0 : (⟨S800000, .i32⟩ : BufTy).Contents (Elt F) → (⟨S800000x1, .i32⟩ : BufTy).Contents (Elt F)),
    StableHlo.binary main_v196 main_v217 main_v218 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.unary main_v211 main_v219 (broadcastInDim S800000x1 ![0] bcast_S800000_S800000x1_0 : (⟨S800000, .f32⟩ : BufTy).Contents (Elt F) → (⟨S800000x1, .f32⟩ : BufTy).Contents (Elt F)),
    StableHlo.unary main_v219 main_v220 (broadcastInDim S800000x64 ![0, 1] bcast_S800000x1_S800000x64_0_1 : (⟨S800000x1, .f32⟩ : BufTy).Contents (Elt F) → (⟨S800000x64, .f32⟩ : BufTy).Contents (Elt F)),
    StableHlo.binary main_v218 main_v220 main_v221 (mulf : (⟨S800000x64, .f32⟩ : BufTy).Contents (Elt F) → (⟨S800000x64, .f32⟩ : BufTy).Contents (Elt F) → (⟨S800000x64, .f32⟩ : BufTy).Contents (Elt F)),
    StableHlo.nullary main_cst_33 (constant S_ .f32 0x00000000#32),
    StableHlo.unary main_cst_33 main_v222 (broadcastInDim S100000x64 ![] bcast_S_S100000x64 : (⟨S_, .f32⟩ : BufTy).Contents (Elt F) → (⟨S100000x64, .f32⟩ : BufTy).Contents (Elt F)),
    StableHlo.unary main_v3 main_v223 (broadcastInDim S800000x1 ![0] bcast_S800000_S800000x1_0 : (⟨S800000, .i32⟩ : BufTy).Contents (Elt F) → (⟨S800000x1, .i32⟩ : BufTy).Contents (Elt F)),
    StableHlo.ternary main_v222 main_v223 main_v221 main_v224 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.binary main_v10 main_v10 main_v225 (mulf : (⟨S100000, .f32⟩ : BufTy).Contents (Elt F) → (⟨S100000, .f32⟩ : BufTy).Contents (Elt F) → (⟨S100000, .f32⟩ : BufTy).Contents (Elt F)),
    StableHlo.unary main_v225 main_v226 (broadcastInDim S100000x1 ![0] bcast_S100000_S100000x1_0 : (⟨S100000, .f32⟩ : BufTy).Contents (Elt F) → (⟨S100000x1, .f32⟩ : BufTy).Contents (Elt F)),
    StableHlo.unary main_v226 main_v227 (broadcastInDim S100000x64 ![0, 1] bcast_S100000x1_S100000x64_0_1 : (⟨S100000x1, .f32⟩ : BufTy).Contents (Elt F) → (⟨S100000x64, .f32⟩ : BufTy).Contents (Elt F)),
    StableHlo.binary main_v196 main_v227 main_v228 (mulf : (⟨S100000x64, .f32⟩ : BufTy).Contents (Elt F) → (⟨S100000x64, .f32⟩ : BufTy).Contents (Elt F) → (⟨S100000x64, .f32⟩ : BufTy).Contents (Elt F)),
    StableHlo.binary main_v224 main_v228 main_v229 (addf : (⟨S100000x64, .f32⟩ : BufTy).Contents (Elt F) → (⟨S100000x64, .f32⟩ : BufTy).Contents (Elt F) → (⟨S100000x64, .f32⟩ : BufTy).Contents (Elt F)),
    StableHlo.unary main_v195 main_v230 (broadcastInDim S1x64 ![1] bcast_S64_S1x64_1 : (⟨S64, .f32⟩ : BufTy).Contents (Elt F) → (⟨S1x64, .f32⟩ : BufTy).Contents (Elt F)),
    StableHlo.unary main_v230 main_v231 (broadcastInDim S100000x64 ![0, 1] bcast_S1x64_S100000x64_0_1 : (⟨S1x64, .f32⟩ : BufTy).Contents (Elt F) → (⟨S100000x64, .f32⟩ : BufTy).Contents (Elt F)),
    StableHlo.binary main_v229 main_v231 main_v232 (addf : (⟨S100000x64, .f32⟩ : BufTy).Contents (Elt F) → (⟨S100000x64, .f32⟩ : BufTy).Contents (Elt F) → (⟨S100000x64, .f32⟩ : BufTy).Contents (Elt F)),
    StableHlo.binary main_v232 main_v191 main_v233 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S100000x64, .f32⟩) (broadcastInDim S100000x64 ![] bcast_S_S100000x64),
    StableHlo.TRef.binary (.of main_v233 : StableHlo.TRef sig ⟨S100000x64, .f32⟩) (.of main_call7_v0 : StableHlo.TRef sig ⟨S100000x64, .f32⟩) (.of main_v234 : StableHlo.TRef sig ⟨S100000x64, .f32⟩) maximumf ]

/-- Each touches TensorCore references only. -/
theorem rops6_sub : (rops6 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub ..⟩

/-- Each determines what it writes. -/
theorem rops6_fresh : (rops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers written, one per operation, in order. -/
abbrev rops6_W : List (Ref sig .tc) :=
  [ main_v192, main_v193, main_v194, main_v195, main_v196, main_c_27, main_v197, main_v198, main_c_28, main_v199, main_v200, main_v201, main_v202, main_v203, main_c_29, main_v204, main_v205, main_c_30, main_v206, main_v207, main_v208, main_v209, main_v210, main_v211, main_c_31, main_v212, main_v213, main_c_32, main_v214, main_v215, main_v216, main_v217, main_v218, main_v219, main_v220, main_v221, main_cst_33, main_v222, main_v223, main_v224, main_v225, main_v226, main_v227, main_v228, main_v229, main_v230, main_v231, main_v232, main_v233, main_call7_cst, main_call7_v0, main_v234 ]

private theorem wmem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-- Every operation writes a buffer of that list. -/
theorem rops6_wsub : (rops6 : List (HloOp τ sig (Elt F))).Forall fun op =>
      op.writes ⊆ (rops6_W.map (Proc.devRef (τ := τ) .tc)).toFinset :=
  ⟨wmem (y := main_v192) (by decide),
   wmem (y := main_v193) (by decide),
   wmem (y := main_v194) (by decide),
   wmem (y := main_v195) (by decide),
   wmem (y := main_v196) (by decide),
   wmem (y := main_c_27) (by decide),
   wmem (y := main_v197) (by decide),
   wmem (y := main_v198) (by decide),
   wmem (y := main_c_28) (by decide),
   wmem (y := main_v199) (by decide),
   wmem (y := main_v200) (by decide),
   wmem (y := main_v201) (by decide),
   wmem (y := main_v202) (by decide),
   wmem (y := main_v203) (by decide),
   wmem (y := main_c_29) (by decide),
   wmem (y := main_v204) (by decide),
   wmem (y := main_v205) (by decide),
   wmem (y := main_c_30) (by decide),
   wmem (y := main_v206) (by decide),
   wmem (y := main_v207) (by decide),
   wmem (y := main_v208) (by decide),
   wmem (y := main_v209) (by decide),
   wmem (y := main_v210) (by decide),
   wmem (y := main_v211) (by decide),
   wmem (y := main_c_31) (by decide),
   wmem (y := main_v212) (by decide),
   wmem (y := main_v213) (by decide),
   wmem (y := main_c_32) (by decide),
   wmem (y := main_v214) (by decide),
   wmem (y := main_v215) (by decide),
   wmem (y := main_v216) (by decide),
   wmem (y := main_v217) (by decide),
   wmem (y := main_v218) (by decide),
   wmem (y := main_v219) (by decide),
   wmem (y := main_v220) (by decide),
   wmem (y := main_v221) (by decide),
   wmem (y := main_cst_33) (by decide),
   wmem (y := main_v222) (by decide),
   wmem (y := main_v223) (by decide),
   wmem (y := main_v224) (by decide),
   wmem (y := main_v225) (by decide),
   wmem (y := main_v226) (by decide),
   wmem (y := main_v227) (by decide),
   wmem (y := main_v228) (by decide),
   wmem (y := main_v229) (by decide),
   wmem (y := main_v230) (by decide),
   wmem (y := main_v231) (by decide),
   wmem (y := main_v232) (by decide),
   wmem (y := main_v233) (by decide),
   wmem (y := main_call7_cst) (by decide),
   wmem (y := main_call7_v0) (by decide),
   wmem (y := main_v234) (by decide)⟩

/-- A buffer outside that list keeps its contents through the chunk. -/
theorem rops6_keep (V : Valuation τ sig (Elt F)) {r : Ref sig .tc} (hr : r ∉ rops6_W) :
    StableHlo.after rops6 V (Proc.devRef .tc r) = V (Proc.devRef .tc r) :=
  StableHlo.after_of_writes_sub rops6 V rops6_wsub hr

end Cert.ReferenceIdeal.Hand

end
-- ==== Proof.RefOps7.lean ====
import proofs.«409001_j25520695673361_2_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main's operations from the statement after the one defining %234 through the one defining %277, in program order, a called function's
    operations in place of its call (over that call's buffers): 52 operations. -/
abbrev rops7 : List (HloOp τ sig (Elt F)) :=
  [ StableHlo.unary main_arg7 main_v235 ((extractStridedSlice S1x64x64 ![3, 0, 0] · slices_S6x64x64_S1x64x64_3_0_0) : (⟨S6x64x64, .f32⟩ : BufTy).Contents (Elt F) → (⟨S1x64x64, .f32⟩ : BufTy).Contents (Elt F)),
    StableHlo.reshape main_v235 main_v236 rfl shapeCasts_S1x64x64_S64x64,
    StableHlo.unary main_arg8 main_v237 ((extractStridedSlice S1x64 ![3, 0] · slices_S6x64_S1x64_3_0) : (⟨S6x64, .f32⟩ : BufTy).Contents (Elt F) → (⟨S1x64, .f32⟩ : BufTy).Contents (Elt F)),
    StableHlo.reshape main_v237 main_v238 rfl shapeCasts_S1x64_S64,
    StableHlo.binary main_v234 main_v236 main_v239 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_34 (constantI S_ 32 0#32),
    StableHlo.unary main_c_34 main_v240 (broadcastInDim S800000 ![] bcast_S_S800000 : (⟨S_, .i32⟩ : BufTy).Contents (Elt F) → (⟨S800000, .i32⟩ : BufTy).Contents (Elt F)),
    StableHlo.binary main_v1 main_v240 main_v241 (cmpi .slt : (⟨S800000, .i32⟩ : BufTy).Contents (Elt F) → (⟨S800000, .i32⟩ : BufTy).Contents (Elt F) → (⟨S800000, .i1⟩ : BufTy).Contents (Elt F)),
    StableHlo.nullary main_c_35 (constantI S_ 32 100000#32),
    StableHlo.unary main_c_35 main_v242 (broadcastInDim S800000 ![] bcast_S_S800000 : (⟨S_, .i32⟩ : BufTy).Contents (Elt F) → (⟨S800000, .i32⟩ : BufTy).Contents (Elt F)),
    StableHlo.binary main_v1 main_v242 main_v243 (addi : (⟨S800000, .i32⟩ : BufTy).Contents (Elt F) → (⟨S800000, .i32⟩ : BufTy).Contents (Elt F) → (⟨S800000, .i32⟩ : BufTy).Contents (Elt F)),
    StableHlo.ternary main_v241 main_v243 main_v1 main_v244 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v244 main_v245 (broadcastInDim S800000x1 ![0] bcast_S800000_S800000x1_0 : (⟨S800000, .i32⟩ : BufTy).Contents (Elt F) → (⟨S800000x1, .i32⟩ : BufTy).Contents (Elt F)),
    StableHlo.binary main_v10 main_v245 main_v246 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    StableHlo.nullary main_c_36 (constantI S_ 32 0#32),
    StableHlo.unary main_c_36 main_v247 (broadcastInDim S800000 ![] bcast_S_S800000 : (⟨S_, .i32⟩ : BufTy).Contents (Elt F) → (⟨S800000, .i32⟩ : BufTy).Contents (Elt F)),
    StableHlo.binary main_v3 main_v247 main_v248 (cmpi .slt : (⟨S800000, .i32⟩ : BufTy).Contents (Elt F) → (⟨S800000, .i32⟩ : BufTy).Contents (Elt F) → (⟨S800000, .i1⟩ : BufTy).Contents (Elt F)),
    StableHlo.nullary main_c_37 (constantI S_ 32 100000#32),
    StableHlo.unary main_c_37 main_v249 (broadcastInDim S800000 ![] bcast_S_S800000 : (⟨S_, .i32⟩ : BufTy).Contents (Elt F) → (⟨S800000, .i32⟩ : BufTy).Contents (Elt F)),
    StableHlo.binary main_v3 main_v249 main_v250 (addi : (⟨S800000, .i32⟩ : BufTy).Contents (Elt F) → (⟨S800000, .i32⟩ : BufTy).Contents (Elt F) → (⟨S800000, .i32⟩ : BufTy).Contents (Elt F)),
    StableHlo.ternary main_v248 main_v250 main_v3 main_v251 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v251 main_v252 (broadcastInDim S800000x1 ![0] bcast_S800000_S800000x1_0 : (⟨S800000, .i32⟩ : BufTy).Contents (Elt F) → (⟨S800000x1, .i32⟩ : BufTy).Contents (Elt F)),
    StableHlo.binary main_v10 main_v252 main_v253 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    StableHlo.binary main_v246 main_v253 main_v254 (mulf : (⟨S800000, .f32⟩ : BufTy).Contents (Elt F) → (⟨S800000, .f32⟩ : BufTy).Contents (Elt F) → (⟨S800000, .f32⟩ : BufTy).Contents (Elt F)),
    StableHlo.nullary main_c_38 (constantI S_ 32 0#32),
    StableHlo.unary main_c_38 main_v255 (broadcastInDim S800000 ![] bcast_S_S800000 : (⟨S_, .i32⟩ : BufTy).Contents (Elt F) → (⟨S800000, .i32⟩ : BufTy).Contents (Elt F)),
    StableHlo.binary main_v1 main_v255 main_v256 (cmpi .slt : (⟨S800000, .i32⟩ : BufTy).Contents (Elt F) → (⟨S800000, .i32⟩ : BufTy).Contents (Elt F) → (⟨S800000, .i1⟩ : BufTy).Contents (Elt F)),
    StableHlo.nullary main_c_39 (constantI S_ 32 100000#32),
    StableHlo.unary main_c_39 main_v257 (broadcastInDim S800000 ![] bcast_S_S800000 : (⟨S_, .i32⟩ : BufTy).Contents (Elt F) → (⟨S800000, .i32⟩ : BufTy).Contents (Elt F)),
    StableHlo.binary main_v1 main_v257 main_v258 (addi : (⟨S800000, .i32⟩ : BufTy).Contents (Elt F) → (⟨S800000, .i32⟩ : BufTy).Contents (Elt F) → (⟨S800000, .i32⟩ : BufTy).Contents (Elt F)),
    StableHlo.ternary main_v256 main_v258 main_v1 main_v259 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v259 main_v260 (broadcastInDim S800000x1 ![0] bcast_S800000_S800000x1_0 : (⟨S800000, .i32⟩ : BufTy).Contents (Elt F) → (⟨S800000x1, .i32⟩ : BufTy).Contents (Elt F)),
    StableHlo.binary main_v239 main_v260 main_v261 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.unary main_v254 main_v262 (broadcastInDim S800000x1 ![0] bcast_S800000_S800000x1_0 : (⟨S800000, .f32⟩ : BufTy).Contents (Elt F) → (⟨S800000x1, .f32⟩ : BufTy).Contents (Elt F)),
    StableHlo.unary main_v262 main_v263 (broadcastInDim S800000x64 ![0, 1] bcast_S800000x1_S800000x64_0_1 : (⟨S800000x1, .f32⟩ : BufTy).Contents (Elt F) → (⟨S800000x64, .f32⟩ : BufTy).Contents (Elt F)),
    StableHlo.binary main_v261 main_v263 main_v264 (mulf : (⟨S800000x64, .f32⟩ : BufTy).Contents (Elt F) → (⟨S800000x64, .f32⟩ : BufTy).Contents (Elt F) → (⟨S800000x64, .f32⟩ : BufTy).Contents (Elt F)),
    StableHlo.nullary main_cst_40 (constant S_ .f32 0x00000000#32),
    StableHlo.unary main_cst_40 main_v265 (broadcastInDim S100000x64 ![] bcast_S_S100000x64 : (⟨S_, .f32⟩ : BufTy).Contents (Elt F) → (⟨S100000x64, .f32⟩ : BufTy).Contents (Elt F)),
    StableHlo.unary main_v3 main_v266 (broadcastInDim S800000x1 ![0] bcast_S800000_S800000x1_0 : (⟨S800000, .i32⟩ : BufTy).Contents (Elt F) → (⟨S800000x1, .i32⟩ : BufTy).Contents (Elt F)),
    StableHlo.ternary main_v265 main_v266 main_v264 main_v267 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.binary main_v10 main_v10 main_v268 (mulf : (⟨S100000, .f32⟩ : BufTy).Contents (Elt F) → (⟨S100000, .f32⟩ : BufTy).Contents (Elt F) → (⟨S100000, .f32⟩ : BufTy).Contents (Elt F)),
    StableHlo.unary main_v268 main_v269 (broadcastInDim S100000x1 ![0] bcast_S100000_S100000x1_0 : (⟨S100000, .f32⟩ : BufTy).Contents (Elt F) → (⟨S100000x1, .f32⟩ : BufTy).Contents (Elt F)),
    StableHlo.unary main_v269 main_v270 (broadcastInDim S100000x64 ![0, 1] bcast_S100000x1_S100000x64_0_1 : (⟨S100000x1, .f32⟩ : BufTy).Contents (Elt F) → (⟨S100000x64, .f32⟩ : BufTy).Contents (Elt F)),
    StableHlo.binary main_v239 main_v270 main_v271 (mulf : (⟨S100000x64, .f32⟩ : BufTy).Contents (Elt F) → (⟨S100000x64, .f32⟩ : BufTy).Contents (Elt F) → (⟨S100000x64, .f32⟩ : BufTy).Contents (Elt F)),
    StableHlo.binary main_v267 main_v271 main_v272 (addf : (⟨S100000x64, .f32⟩ : BufTy).Contents (Elt F) → (⟨S100000x64, .f32⟩ : BufTy).Contents (Elt F) → (⟨S100000x64, .f32⟩ : BufTy).Contents (Elt F)),
    StableHlo.unary main_v238 main_v273 (broadcastInDim S1x64 ![1] bcast_S64_S1x64_1 : (⟨S64, .f32⟩ : BufTy).Contents (Elt F) → (⟨S1x64, .f32⟩ : BufTy).Contents (Elt F)),
    StableHlo.unary main_v273 main_v274 (broadcastInDim S100000x64 ![0, 1] bcast_S1x64_S100000x64_0_1 : (⟨S1x64, .f32⟩ : BufTy).Contents (Elt F) → (⟨S100000x64, .f32⟩ : BufTy).Contents (Elt F)),
    StableHlo.binary main_v272 main_v274 main_v275 (addf : (⟨S100000x64, .f32⟩ : BufTy).Contents (Elt F) → (⟨S100000x64, .f32⟩ : BufTy).Contents (Elt F) → (⟨S100000x64, .f32⟩ : BufTy).Contents (Elt F)),
    StableHlo.binary main_v275 main_v234 main_v276 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S100000x64, .f32⟩) (broadcastInDim S100000x64 ![] bcast_S_S100000x64),
    StableHlo.TRef.binary (.of main_v276 : StableHlo.TRef sig ⟨S100000x64, .f32⟩) (.of main_call8_v0 : StableHlo.TRef sig ⟨S100000x64, .f32⟩) (.of main_v277 : StableHlo.TRef sig ⟨S100000x64, .f32⟩) maximumf ]

/-- Each touches TensorCore references only. -/
theorem rops7_sub : (rops7 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub ..⟩

/-- Each determines what it writes. -/
theorem rops7_fresh : (rops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers written, one per operation, in order. -/
abbrev rops7_W : List (Ref sig .tc) :=
  [ main_v235, main_v236, main_v237, main_v238, main_v239, main_c_34, main_v240, main_v241, main_c_35, main_v242, main_v243, main_v244, main_v245, main_v246, main_c_36, main_v247, main_v248, main_c_37, main_v249, main_v250, main_v251, main_v252, main_v253, main_v254, main_c_38, main_v255, main_v256, main_c_39, main_v257, main_v258, main_v259, main_v260, main_v261, main_v262, main_v263, main_v264, main_cst_40, main_v265, main_v266, main_v267, main_v268, main_v269, main_v270, main_v271, main_v272, main_v273, main_v274, main_v275, main_v276, main_call8_cst, main_call8_v0, main_v277 ]

private theorem wmem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-- Every operation writes a buffer of that list. -/
theorem rops7_wsub : (rops7 : List (HloOp τ sig (Elt F))).Forall fun op =>
      op.writes ⊆ (rops7_W.map (Proc.devRef (τ := τ) .tc)).toFinset :=
  ⟨wmem (y := main_v235) (by decide),
   wmem (y := main_v236) (by decide),
   wmem (y := main_v237) (by decide),
   wmem (y := main_v238) (by decide),
   wmem (y := main_v239) (by decide),
   wmem (y := main_c_34) (by decide),
   wmem (y := main_v240) (by decide),
   wmem (y := main_v241) (by decide),
   wmem (y := main_c_35) (by decide),
   wmem (y := main_v242) (by decide),
   wmem (y := main_v243) (by decide),
   wmem (y := main_v244) (by decide),
   wmem (y := main_v245) (by decide),
   wmem (y := main_v246) (by decide),
   wmem (y := main_c_36) (by decide),
   wmem (y := main_v247) (by decide),
   wmem (y := main_v248) (by decide),
   wmem (y := main_c_37) (by decide),
   wmem (y := main_v249) (by decide),
   wmem (y := main_v250) (by decide),
   wmem (y := main_v251) (by decide),
   wmem (y := main_v252) (by decide),
   wmem (y := main_v253) (by decide),
   wmem (y := main_v254) (by decide),
   wmem (y := main_c_38) (by decide),
   wmem (y := main_v255) (by decide),
   wmem (y := main_v256) (by decide),
   wmem (y := main_c_39) (by decide),
   wmem (y := main_v257) (by decide),
   wmem (y := main_v258) (by decide),
   wmem (y := main_v259) (by decide),
   wmem (y := main_v260) (by decide),
   wmem (y := main_v261) (by decide),
   wmem (y := main_v262) (by decide),
   wmem (y := main_v263) (by decide),
   wmem (y := main_v264) (by decide),
   wmem (y := main_cst_40) (by decide),
   wmem (y := main_v265) (by decide),
   wmem (y := main_v266) (by decide),
   wmem (y := main_v267) (by decide),
   wmem (y := main_v268) (by decide),
   wmem (y := main_v269) (by decide),
   wmem (y := main_v270) (by decide),
   wmem (y := main_v271) (by decide),
   wmem (y := main_v272) (by decide),
   wmem (y := main_v273) (by decide),
   wmem (y := main_v274) (by decide),
   wmem (y := main_v275) (by decide),
   wmem (y := main_v276) (by decide),
   wmem (y := main_call8_cst) (by decide),
   wmem (y := main_call8_v0) (by decide),
   wmem (y := main_v277) (by decide)⟩

/-- A buffer outside that list keeps its contents through the chunk. -/
theorem rops7_keep (V : Valuation τ sig (Elt F)) {r : Ref sig .tc} (hr : r ∉ rops7_W) :
    StableHlo.after rops7 V (Proc.devRef .tc r) = V (Proc.devRef .tc r) :=
  StableHlo.after_of_writes_sub rops7 V rops7_wsub hr

end Cert.ReferenceIdeal.Hand

end
-- ==== Proof.RefOps8.lean ====
import proofs.«409001_j25520695673361_2_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main's operations from the statement after the one defining %277 through the one defining %320, in program order, a called function's
    operations in place of its call (over that call's buffers): 52 operations. -/
abbrev rops8 : List (HloOp τ sig (Elt F)) :=
  [ StableHlo.unary main_arg7 main_v278 ((extractStridedSlice S1x64x64 ![4, 0, 0] · slices_S6x64x64_S1x64x64_4_0_0) : (⟨S6x64x64, .f32⟩ : BufTy).Contents (Elt F) → (⟨S1x64x64, .f32⟩ : BufTy).Contents (Elt F)),
    StableHlo.reshape main_v278 main_v279 rfl shapeCasts_S1x64x64_S64x64,
    StableHlo.unary main_arg8 main_v280 ((extractStridedSlice S1x64 ![4, 0] · slices_S6x64_S1x64_4_0) : (⟨S6x64, .f32⟩ : BufTy).Contents (Elt F) → (⟨S1x64, .f32⟩ : BufTy).Contents (Elt F)),
    StableHlo.reshape main_v280 main_v281 rfl shapeCasts_S1x64_S64,
    StableHlo.binary main_v277 main_v279 main_v282 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_41 (constantI S_ 32 0#32),
    StableHlo.unary main_c_41 main_v283 (broadcastInDim S800000 ![] bcast_S_S800000 : (⟨S_, .i32⟩ : BufTy).Contents (Elt F) → (⟨S800000, .i32⟩ : BufTy).Contents (Elt F)),
    StableHlo.binary main_v1 main_v283 main_v284 (cmpi .slt : (⟨S800000, .i32⟩ : BufTy).Contents (Elt F) → (⟨S800000, .i32⟩ : BufTy).Contents (Elt F) → (⟨S800000, .i1⟩ : BufTy).Contents (Elt F)),
    StableHlo.nullary main_c_42 (constantI S_ 32 100000#32),
    StableHlo.unary main_c_42 main_v285 (broadcastInDim S800000 ![] bcast_S_S800000 : (⟨S_, .i32⟩ : BufTy).Contents (Elt F) → (⟨S800000, .i32⟩ : BufTy).Contents (Elt F)),
    StableHlo.binary main_v1 main_v285 main_v286 (addi : (⟨S800000, .i32⟩ : BufTy).Contents (Elt F) → (⟨S800000, .i32⟩ : BufTy).Contents (Elt F) → (⟨S800000, .i32⟩ : BufTy).Contents (Elt F)),
    StableHlo.ternary main_v284 main_v286 main_v1 main_v287 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v287 main_v288 (broadcastInDim S800000x1 ![0] bcast_S800000_S800000x1_0 : (⟨S800000, .i32⟩ : BufTy).Contents (Elt F) → (⟨S800000x1, .i32⟩ : BufTy).Contents (Elt F)),
    StableHlo.binary main_v10 main_v288 main_v289 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    StableHlo.nullary main_c_43 (constantI S_ 32 0#32),
    StableHlo.unary main_c_43 main_v290 (broadcastInDim S800000 ![] bcast_S_S800000 : (⟨S_, .i32⟩ : BufTy).Contents (Elt F) → (⟨S800000, .i32⟩ : BufTy).Contents (Elt F)),
    StableHlo.binary main_v3 main_v290 main_v291 (cmpi .slt : (⟨S800000, .i32⟩ : BufTy).Contents (Elt F) → (⟨S800000, .i32⟩ : BufTy).Contents (Elt F) → (⟨S800000, .i1⟩ : BufTy).Contents (Elt F)),
    StableHlo.nullary main_c_44 (constantI S_ 32 100000#32),
    StableHlo.unary main_c_44 main_v292 (broadcastInDim S800000 ![] bcast_S_S800000 : (⟨S_, .i32⟩ : BufTy).Contents (Elt F) → (⟨S800000, .i32⟩ : BufTy).Contents (Elt F)),
    StableHlo.binary main_v3 main_v292 main_v293 (addi : (⟨S800000, .i32⟩ : BufTy).Contents (Elt F) → (⟨S800000, .i32⟩ : BufTy).Contents (Elt F) → (⟨S800000, .i32⟩ : BufTy).Contents (Elt F)),
    StableHlo.ternary main_v291 main_v293 main_v3 main_v294 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v294 main_v295 (broadcastInDim S800000x1 ![0] bcast_S800000_S800000x1_0 : (⟨S800000, .i32⟩ : BufTy).Contents (Elt F) → (⟨S800000x1, .i32⟩ : BufTy).Contents (Elt F)),
    StableHlo.binary main_v10 main_v295 main_v296 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    StableHlo.binary main_v289 main_v296 main_v297 (mulf : (⟨S800000, .f32⟩ : BufTy).Contents (Elt F) → (⟨S800000, .f32⟩ : BufTy).Contents (Elt F) → (⟨S800000, .f32⟩ : BufTy).Contents (Elt F)),
    StableHlo.nullary main_c_45 (constantI S_ 32 0#32),
    StableHlo.unary main_c_45 main_v298 (broadcastInDim S800000 ![] bcast_S_S800000 : (⟨S_, .i32⟩ : BufTy).Contents (Elt F) → (⟨S800000, .i32⟩ : BufTy).Contents (Elt F)),
    StableHlo.binary main_v1 main_v298 main_v299 (cmpi .slt : (⟨S800000, .i32⟩ : BufTy).Contents (Elt F) → (⟨S800000, .i32⟩ : BufTy).Contents (Elt F) → (⟨S800000, .i1⟩ : BufTy).Contents (Elt F)),
    StableHlo.nullary main_c_46 (constantI S_ 32 100000#32),
    StableHlo.unary main_c_46 main_v300 (broadcastInDim S800000 ![] bcast_S_S800000 : (⟨S_, .i32⟩ : BufTy).Contents (Elt F) → (⟨S800000, .i32⟩ : BufTy).Contents (Elt F)),
    StableHlo.binary main_v1 main_v300 main_v301 (addi : (⟨S800000, .i32⟩ : BufTy).Contents (Elt F) → (⟨S800000, .i32⟩ : BufTy).Contents (Elt F) → (⟨S800000, .i32⟩ : BufTy).Contents (Elt F)),
    StableHlo.ternary main_v299 main_v301 main_v1 main_v302 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v302 main_v303 (broadcastInDim S800000x1 ![0] bcast_S800000_S800000x1_0 : (⟨S800000, .i32⟩ : BufTy).Contents (Elt F) → (⟨S800000x1, .i32⟩ : BufTy).Contents (Elt F)),
    StableHlo.binary main_v282 main_v303 main_v304 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.unary main_v297 main_v305 (broadcastInDim S800000x1 ![0] bcast_S800000_S800000x1_0 : (⟨S800000, .f32⟩ : BufTy).Contents (Elt F) → (⟨S800000x1, .f32⟩ : BufTy).Contents (Elt F)),
    StableHlo.unary main_v305 main_v306 (broadcastInDim S800000x64 ![0, 1] bcast_S800000x1_S800000x64_0_1 : (⟨S800000x1, .f32⟩ : BufTy).Contents (Elt F) → (⟨S800000x64, .f32⟩ : BufTy).Contents (Elt F)),
    StableHlo.binary main_v304 main_v306 main_v307 (mulf : (⟨S800000x64, .f32⟩ : BufTy).Contents (Elt F) → (⟨S800000x64, .f32⟩ : BufTy).Contents (Elt F) → (⟨S800000x64, .f32⟩ : BufTy).Contents (Elt F)),
    StableHlo.nullary main_cst_47 (constant S_ .f32 0x00000000#32),
    StableHlo.unary main_cst_47 main_v308 (broadcastInDim S100000x64 ![] bcast_S_S100000x64 : (⟨S_, .f32⟩ : BufTy).Contents (Elt F) → (⟨S100000x64, .f32⟩ : BufTy).Contents (Elt F)),
    StableHlo.unary main_v3 main_v309 (broadcastInDim S800000x1 ![0] bcast_S800000_S800000x1_0 : (⟨S800000, .i32⟩ : BufTy).Contents (Elt F) → (⟨S800000x1, .i32⟩ : BufTy).Contents (Elt F)),
    StableHlo.ternary main_v308 main_v309 main_v307 main_v310 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.binary main_v10 main_v10 main_v311 (mulf : (⟨S100000, .f32⟩ : BufTy).Contents (Elt F) → (⟨S100000, .f32⟩ : BufTy).Contents (Elt F) → (⟨S100000, .f32⟩ : BufTy).Contents (Elt F)),
    StableHlo.unary main_v311 main_v312 (broadcastInDim S100000x1 ![0] bcast_S100000_S100000x1_0 : (⟨S100000, .f32⟩ : BufTy).Contents (Elt F) → (⟨S100000x1, .f32⟩ : BufTy).Contents (Elt F)),
    StableHlo.unary main_v312 main_v313 (broadcastInDim S100000x64 ![0, 1] bcast_S100000x1_S100000x64_0_1 : (⟨S100000x1, .f32⟩ : BufTy).Contents (Elt F) → (⟨S100000x64, .f32⟩ : BufTy).Contents (Elt F)),
    StableHlo.binary main_v282 main_v313 main_v314 (mulf : (⟨S100000x64, .f32⟩ : BufTy).Contents (Elt F) → (⟨S100000x64, .f32⟩ : BufTy).Contents (Elt F) → (⟨S100000x64, .f32⟩ : BufTy).Contents (Elt F)),
    StableHlo.binary main_v310 main_v314 main_v315 (addf : (⟨S100000x64, .f32⟩ : BufTy).Contents (Elt F) → (⟨S100000x64, .f32⟩ : BufTy).Contents (Elt F) → (⟨S100000x64, .f32⟩ : BufTy).Contents (Elt F)),
    StableHlo.unary main_v281 main_v316 (broadcastInDim S1x64 ![1] bcast_S64_S1x64_1 : (⟨S64, .f32⟩ : BufTy).Contents (Elt F) → (⟨S1x64, .f32⟩ : BufTy).Contents (Elt F)),
    StableHlo.unary main_v316 main_v317 (broadcastInDim S100000x64 ![0, 1] bcast_S1x64_S100000x64_0_1 : (⟨S1x64, .f32⟩ : BufTy).Contents (Elt F) → (⟨S100000x64, .f32⟩ : BufTy).Contents (Elt F)),
    StableHlo.binary main_v315 main_v317 main_v318 (addf : (⟨S100000x64, .f32⟩ : BufTy).Contents (Elt F) → (⟨S100000x64, .f32⟩ : BufTy).Contents (Elt F) → (⟨S100000x64, .f32⟩ : BufTy).Contents (Elt F)),
    StableHlo.binary main_v318 main_v277 main_v319 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S100000x64, .f32⟩) (broadcastInDim S100000x64 ![] bcast_S_S100000x64),
    StableHlo.TRef.binary (.of main_v319 : StableHlo.TRef sig ⟨S100000x64, .f32⟩) (.of main_call9_v0 : StableHlo.TRef sig ⟨S100000x64, .f32⟩) (.of main_v320 : StableHlo.TRef sig ⟨S100000x64, .f32⟩) maximumf ]

/-- Each touches TensorCore references only. -/
theorem rops8_sub : (rops8 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub ..⟩

/-- Each determines what it writes. -/
theorem rops8_fresh : (rops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers written, one per operation, in order. -/
abbrev rops8_W : List (Ref sig .tc) :=
  [ main_v278, main_v279, main_v280, main_v281, main_v282, main_c_41, main_v283, main_v284, main_c_42, main_v285, main_v286, main_v287, main_v288, main_v289, main_c_43, main_v290, main_v291, main_c_44, main_v292, main_v293, main_v294, main_v295, main_v296, main_v297, main_c_45, main_v298, main_v299, main_c_46, main_v300, main_v301, main_v302, main_v303, main_v304, main_v305, main_v306, main_v307, main_cst_47, main_v308, main_v309, main_v310, main_v311, main_v312, main_v313, main_v314, main_v315, main_v316, main_v317, main_v318, main_v319, main_call9_cst, main_call9_v0, main_v320 ]

private theorem wmem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-- Every operation writes a buffer of that list. -/
theorem rops8_wsub : (rops8 : List (HloOp τ sig (Elt F))).Forall fun op =>
      op.writes ⊆ (rops8_W.map (Proc.devRef (τ := τ) .tc)).toFinset :=
  ⟨wmem (y := main_v278) (by decide),
   wmem (y := main_v279) (by decide),
   wmem (y := main_v280) (by decide),
   wmem (y := main_v281) (by decide),
   wmem (y := main_v282) (by decide),
   wmem (y := main_c_41) (by decide),
   wmem (y := main_v283) (by decide),
   wmem (y := main_v284) (by decide),
   wmem (y := main_c_42) (by decide),
   wmem (y := main_v285) (by decide),
   wmem (y := main_v286) (by decide),
   wmem (y := main_v287) (by decide),
   wmem (y := main_v288) (by decide),
   wmem (y := main_v289) (by decide),
   wmem (y := main_c_43) (by decide),
   wmem (y := main_v290) (by decide),
   wmem (y := main_v291) (by decide),
   wmem (y := main_c_44) (by decide),
   wmem (y := main_v292) (by decide),
   wmem (y := main_v293) (by decide),
   wmem (y := main_v294) (by decide),
   wmem (y := main_v295) (by decide),
   wmem (y := main_v296) (by decide),
   wmem (y := main_v297) (by decide),
   wmem (y := main_c_45) (by decide),
   wmem (y := main_v298) (by decide),
   wmem (y := main_v299) (by decide),
   wmem (y := main_c_46) (by decide),
   wmem (y := main_v300) (by decide),
   wmem (y := main_v301) (by decide),
   wmem (y := main_v302) (by decide),
   wmem (y := main_v303) (by decide),
   wmem (y := main_v304) (by decide),
   wmem (y := main_v305) (by decide),
   wmem (y := main_v306) (by decide),
   wmem (y := main_v307) (by decide),
   wmem (y := main_cst_47) (by decide),
   wmem (y := main_v308) (by decide),
   wmem (y := main_v309) (by decide),
   wmem (y := main_v310) (by decide),
   wmem (y := main_v311) (by decide),
   wmem (y := main_v312) (by decide),
   wmem (y := main_v313) (by decide),
   wmem (y := main_v314) (by decide),
   wmem (y := main_v315) (by decide),
   wmem (y := main_v316) (by decide),
   wmem (y := main_v317) (by decide),
   wmem (y := main_v318) (by decide),
   wmem (y := main_v319) (by decide),
   wmem (y := main_call9_cst) (by decide),
   wmem (y := main_call9_v0) (by decide),
   wmem (y := main_v320) (by decide)⟩

/-- A buffer outside that list keeps its contents through the chunk. -/
theorem rops8_keep (V : Valuation τ sig (Elt F)) {r : Ref sig .tc} (hr : r ∉ rops8_W) :
    StableHlo.after rops8 V (Proc.devRef .tc r) = V (Proc.devRef .tc r) :=
  StableHlo.after_of_writes_sub rops8 V rops8_wsub hr

end Cert.ReferenceIdeal.Hand

end
-- ==== Proof.RefOps9.lean ====
import proofs.«409001_j25520695673361_2_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main's operations from the statement after the one defining %320 through the one defining %362, in program order, a called function's
    operations in place of its call (over that call's buffers): 49 operations. -/
abbrev rops9 : List (HloOp τ sig (Elt F)) :=
  [ StableHlo.unary main_arg7 main_v321 ((extractStridedSlice S1x64x64 ![5, 0, 0] · slices_S6x64x64_S1x64x64_5_0_0) : (⟨S6x64x64, .f32⟩ : BufTy).Contents (Elt F) → (⟨S1x64x64, .f32⟩ : BufTy).Contents (Elt F)),
    StableHlo.reshape main_v321 main_v322 rfl shapeCasts_S1x64x64_S64x64,
    StableHlo.unary main_arg8 main_v323 ((extractStridedSlice S1x64 ![5, 0] · slices_S6x64_S1x64_5_0) : (⟨S6x64, .f32⟩ : BufTy).Contents (Elt F) → (⟨S1x64, .f32⟩ : BufTy).Contents (Elt F)),
    StableHlo.reshape main_v323 main_v324 rfl shapeCasts_S1x64_S64,
    StableHlo.binary main_v320 main_v322 main_v325 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_48 (constantI S_ 32 0#32),
    StableHlo.unary main_c_48 main_v326 (broadcastInDim S800000 ![] bcast_S_S800000 : (⟨S_, .i32⟩ : BufTy).Contents (Elt F) → (⟨S800000, .i32⟩ : BufTy).Contents (Elt F)),
    StableHlo.binary main_v1 main_v326 main_v327 (cmpi .slt : (⟨S800000, .i32⟩ : BufTy).Contents (Elt F) → (⟨S800000, .i32⟩ : BufTy).Contents (Elt F) → (⟨S800000, .i1⟩ : BufTy).Contents (Elt F)),
    StableHlo.nullary main_c_49 (constantI S_ 32 100000#32),
    StableHlo.unary main_c_49 main_v328 (broadcastInDim S800000 ![] bcast_S_S800000 : (⟨S_, .i32⟩ : BufTy).Contents (Elt F) → (⟨S800000, .i32⟩ : BufTy).Contents (Elt F)),
    StableHlo.binary main_v1 main_v328 main_v329 (addi : (⟨S800000, .i32⟩ : BufTy).Contents (Elt F) → (⟨S800000, .i32⟩ : BufTy).Contents (Elt F) → (⟨S800000, .i32⟩ : BufTy).Contents (Elt F)),
    StableHlo.ternary main_v327 main_v329 main_v1 main_v330 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v330 main_v331 (broadcastInDim S800000x1 ![0] bcast_S800000_S800000x1_0 : (⟨S800000, .i32⟩ : BufTy).Contents (Elt F) → (⟨S800000x1, .i32⟩ : BufTy).Contents (Elt F)),
    StableHlo.binary main_v10 main_v331 main_v332 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    StableHlo.nullary main_c_50 (constantI S_ 32 0#32),
    StableHlo.unary main_c_50 main_v333 (broadcastInDim S800000 ![] bcast_S_S800000 : (⟨S_, .i32⟩ : BufTy).Contents (Elt F) → (⟨S800000, .i32⟩ : BufTy).Contents (Elt F)),
    StableHlo.binary main_v3 main_v333 main_v334 (cmpi .slt : (⟨S800000, .i32⟩ : BufTy).Contents (Elt F) → (⟨S800000, .i32⟩ : BufTy).Contents (Elt F) → (⟨S800000, .i1⟩ : BufTy).Contents (Elt F)),
    StableHlo.nullary main_c_51 (constantI S_ 32 100000#32),
    StableHlo.unary main_c_51 main_v335 (broadcastInDim S800000 ![] bcast_S_S800000 : (⟨S_, .i32⟩ : BufTy).Contents (Elt F) → (⟨S800000, .i32⟩ : BufTy).Contents (Elt F)),
    StableHlo.binary main_v3 main_v335 main_v336 (addi : (⟨S800000, .i32⟩ : BufTy).Contents (Elt F) → (⟨S800000, .i32⟩ : BufTy).Contents (Elt F) → (⟨S800000, .i32⟩ : BufTy).Contents (Elt F)),
    StableHlo.ternary main_v334 main_v336 main_v3 main_v337 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v337 main_v338 (broadcastInDim S800000x1 ![0] bcast_S800000_S800000x1_0 : (⟨S800000, .i32⟩ : BufTy).Contents (Elt F) → (⟨S800000x1, .i32⟩ : BufTy).Contents (Elt F)),
    StableHlo.binary main_v10 main_v338 main_v339 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    StableHlo.binary main_v332 main_v339 main_v340 (mulf : (⟨S800000, .f32⟩ : BufTy).Contents (Elt F) → (⟨S800000, .f32⟩ : BufTy).Contents (Elt F) → (⟨S800000, .f32⟩ : BufTy).Contents (Elt F)),
    StableHlo.nullary main_c_52 (constantI S_ 32 0#32),
    StableHlo.unary main_c_52 main_v341 (broadcastInDim S800000 ![] bcast_S_S800000 : (⟨S_, .i32⟩ : BufTy).Contents (Elt F) → (⟨S800000, .i32⟩ : BufTy).Contents (Elt F)),
    StableHlo.binary main_v1 main_v341 main_v342 (cmpi .slt : (⟨S800000, .i32⟩ : BufTy).Contents (Elt F) → (⟨S800000, .i32⟩ : BufTy).Contents (Elt F) → (⟨S800000, .i1⟩ : BufTy).Contents (Elt F)),
    StableHlo.nullary main_c_53 (constantI S_ 32 100000#32),
    StableHlo.unary main_c_53 main_v343 (broadcastInDim S800000 ![] bcast_S_S800000 : (⟨S_, .i32⟩ : BufTy).Contents (Elt F) → (⟨S800000, .i32⟩ : BufTy).Contents (Elt F)),
    StableHlo.binary main_v1 main_v343 main_v344 (addi : (⟨S800000, .i32⟩ : BufTy).Contents (Elt F) → (⟨S800000, .i32⟩ : BufTy).Contents (Elt F) → (⟨S800000, .i32⟩ : BufTy).Contents (Elt F)),
    StableHlo.ternary main_v342 main_v344 main_v1 main_v345 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v345 main_v346 (broadcastInDim S800000x1 ![0] bcast_S800000_S800000x1_0 : (⟨S800000, .i32⟩ : BufTy).Contents (Elt F) → (⟨S800000x1, .i32⟩ : BufTy).Contents (Elt F)),
    StableHlo.binary main_v325 main_v346 main_v347 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.unary main_v340 main_v348 (broadcastInDim S800000x1 ![0] bcast_S800000_S800000x1_0 : (⟨S800000, .f32⟩ : BufTy).Contents (Elt F) → (⟨S800000x1, .f32⟩ : BufTy).Contents (Elt F)),
    StableHlo.unary main_v348 main_v349 (broadcastInDim S800000x64 ![0, 1] bcast_S800000x1_S800000x64_0_1 : (⟨S800000x1, .f32⟩ : BufTy).Contents (Elt F) → (⟨S800000x64, .f32⟩ : BufTy).Contents (Elt F)),
    StableHlo.binary main_v347 main_v349 main_v350 (mulf : (⟨S800000x64, .f32⟩ : BufTy).Contents (Elt F) → (⟨S800000x64, .f32⟩ : BufTy).Contents (Elt F) → (⟨S800000x64, .f32⟩ : BufTy).Contents (Elt F)),
    StableHlo.nullary main_cst_54 (constant S_ .f32 0x00000000#32),
    StableHlo.unary main_cst_54 main_v351 (broadcastInDim S100000x64 ![] bcast_S_S100000x64 : (⟨S_, .f32⟩ : BufTy).Contents (Elt F) → (⟨S100000x64, .f32⟩ : BufTy).Contents (Elt F)),
    StableHlo.unary main_v3 main_v352 (broadcastInDim S800000x1 ![0] bcast_S800000_S800000x1_0 : (⟨S800000, .i32⟩ : BufTy).Contents (Elt F) → (⟨S800000x1, .i32⟩ : BufTy).Contents (Elt F)),
    StableHlo.ternary main_v351 main_v352 main_v350 main_v353 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.binary main_v10 main_v10 main_v354 (mulf : (⟨S100000, .f32⟩ : BufTy).Contents (Elt F) → (⟨S100000, .f32⟩ : BufTy).Contents (Elt F) → (⟨S100000, .f32⟩ : BufTy).Contents (Elt F)),
    StableHlo.unary main_v354 main_v355 (broadcastInDim S100000x1 ![0] bcast_S100000_S100000x1_0 : (⟨S100000, .f32⟩ : BufTy).Contents (Elt F) → (⟨S100000x1, .f32⟩ : BufTy).Contents (Elt F)),
    StableHlo.unary main_v355 main_v356 (broadcastInDim S100000x64 ![0, 1] bcast_S100000x1_S100000x64_0_1 : (⟨S100000x1, .f32⟩ : BufTy).Contents (Elt F) → (⟨S100000x64, .f32⟩ : BufTy).Contents (Elt F)),
    StableHlo.binary main_v325 main_v356 main_v357 (mulf : (⟨S100000x64, .f32⟩ : BufTy).Contents (Elt F) → (⟨S100000x64, .f32⟩ : BufTy).Contents (Elt F) → (⟨S100000x64, .f32⟩ : BufTy).Contents (Elt F)),
    StableHlo.binary main_v353 main_v357 main_v358 (addf : (⟨S100000x64, .f32⟩ : BufTy).Contents (Elt F) → (⟨S100000x64, .f32⟩ : BufTy).Contents (Elt F) → (⟨S100000x64, .f32⟩ : BufTy).Contents (Elt F)),
    StableHlo.unary main_v324 main_v359 (broadcastInDim S1x64 ![1] bcast_S64_S1x64_1 : (⟨S64, .f32⟩ : BufTy).Contents (Elt F) → (⟨S1x64, .f32⟩ : BufTy).Contents (Elt F)),
    StableHlo.unary main_v359 main_v360 (broadcastInDim S100000x64 ![0, 1] bcast_S1x64_S100000x64_0_1 : (⟨S1x64, .f32⟩ : BufTy).Contents (Elt F) → (⟨S100000x64, .f32⟩ : BufTy).Contents (Elt F)),
    StableHlo.binary main_v358 main_v360 main_v361 (addf : (⟨S100000x64, .f32⟩ : BufTy).Contents (Elt F) → (⟨S100000x64, .f32⟩ : BufTy).Contents (Elt F) → (⟨S100000x64, .f32⟩ : BufTy).Contents (Elt F)),
    StableHlo.binary main_v361 main_v320 main_v362 (addf : (⟨S100000x64, .f32⟩ : BufTy).Contents (Elt F) → (⟨S100000x64, .f32⟩ : BufTy).Contents (Elt F) → (⟨S100000x64, .f32⟩ : BufTy).Contents (Elt F)) ]

/-- Each touches TensorCore references only. -/
theorem rops9_sub : (rops9 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub ..⟩

/-- Each determines what it writes. -/
theorem rops9_fresh : (rops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers written, one per operation, in order. -/
abbrev rops9_W : List (Ref sig .tc) :=
  [ main_v321, main_v322, main_v323, main_v324, main_v325, main_c_48, main_v326, main_v327, main_c_49, main_v328, main_v329, main_v330, main_v331, main_v332, main_c_50, main_v333, main_v334, main_c_51, main_v335, main_v336, main_v337, main_v338, main_v339, main_v340, main_c_52, main_v341, main_v342, main_c_53, main_v343, main_v344, main_v345, main_v346, main_v347, main_v348, main_v349, main_v350, main_cst_54, main_v351, main_v352, main_v353, main_v354, main_v355, main_v356, main_v357, main_v358, main_v359, main_v360, main_v361, main_v362 ]

private theorem wmem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-- Every operation writes a buffer of that list. -/
theorem rops9_wsub : (rops9 : List (HloOp τ sig (Elt F))).Forall fun op =>
      op.writes ⊆ (rops9_W.map (Proc.devRef (τ := τ) .tc)).toFinset :=
  ⟨wmem (y := main_v321) (by decide),
   wmem (y := main_v322) (by decide),
   wmem (y := main_v323) (by decide),
   wmem (y := main_v324) (by decide),
   wmem (y := main_v325) (by decide),
   wmem (y := main_c_48) (by decide),
   wmem (y := main_v326) (by decide),
   wmem (y := main_v327) (by decide),
   wmem (y := main_c_49) (by decide),
   wmem (y := main_v328) (by decide),
   wmem (y := main_v329) (by decide),
   wmem (y := main_v330) (by decide),
   wmem (y := main_v331) (by decide),
   wmem (y := main_v332) (by decide),
   wmem (y := main_c_50) (by decide),
   wmem (y := main_v333) (by decide),
   wmem (y := main_v334) (by decide),
   wmem (y := main_c_51) (by decide),
   wmem (y := main_v335) (by decide),
   wmem (y := main_v336) (by decide),
   wmem (y := main_v337) (by decide),
   wmem (y := main_v338) (by decide),
   wmem (y := main_v339) (by decide),
   wmem (y := main_v340) (by decide),
   wmem (y := main_c_52) (by decide),
   wmem (y := main_v341) (by decide),
   wmem (y := main_v342) (by decide),
   wmem (y := main_c_53) (by decide),
   wmem (y := main_v343) (by decide),
   wmem (y := main_v344) (by decide),
   wmem (y := main_v345) (by decide),
   wmem (y := main_v346) (by decide),
   wmem (y := main_v347) (by decide),
   wmem (y := main_v348) (by decide),
   wmem (y := main_v349) (by decide),
   wmem (y := main_v350) (by decide),
   wmem (y := main_cst_54) (by decide),
   wmem (y := main_v351) (by decide),
   wmem (y := main_v352) (by decide),
   wmem (y := main_v353) (by decide),
   wmem (y := main_v354) (by decide),
   wmem (y := main_v355) (by decide),
   wmem (y := main_v356) (by decide),
   wmem (y := main_v357) (by decide),
   wmem (y := main_v358) (by decide),
   wmem (y := main_v359) (by decide),
   wmem (y := main_v360) (by decide),
   wmem (y := main_v361) (by decide),
   wmem (y := main_v362) (by decide)⟩

/-- A buffer outside that list keeps its contents through the chunk. -/
theorem rops9_keep (V : Valuation τ sig (Elt F)) {r : Ref sig .tc} (hr : r ∉ rops9_W) :
    StableHlo.after rops9 V (Proc.devRef .tc r) = V (Proc.devRef .tc r) :=
  StableHlo.after_of_writes_sub rops9 V rops9_wsub hr

end Cert.ReferenceIdeal.Hand

end
-- ==== Proof.RefOps10.lean ====
import proofs.«409001_j25520695673361_2_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main's operations from the statement after the one defining %362 through the one defining %394, in program order, a called function's
    operations in place of its call (over that call's buffers): 59 operations. -/
abbrev rops10 : List (HloOp τ sig (Elt F)) :=
  [ StableHlo.unary main_arg9 main_v363 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v363 main_v364 rfl shapeCasts_S1x64x64_S64x64,
    StableHlo.binary main_v362 main_v364 main_v365 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v366 ((extractStridedSlice S1x64 ![0, 0] · slices_S3x64_S1x64_0_0) : (⟨S3x64, .f32⟩ : BufTy).Contents (Elt F) → (⟨S1x64, .f32⟩ : BufTy).Contents (Elt F)),
    StableHlo.reshape main_v366 main_v367 rfl shapeCasts_S1x64_S64,
    StableHlo.unary main_v367 main_v368 (broadcastInDim S1x64 ![1] bcast_S64_S1x64_1 : (⟨S64, .f32⟩ : BufTy).Contents (Elt F) → (⟨S1x64, .f32⟩ : BufTy).Contents (Elt F)),
    StableHlo.unary main_v368 main_v369 (broadcastInDim S100000x64 ![0, 1] bcast_S1x64_S100000x64_0_1 : (⟨S1x64, .f32⟩ : BufTy).Contents (Elt F) → (⟨S100000x64, .f32⟩ : BufTy).Contents (Elt F)),
    StableHlo.binary main_v365 main_v369 main_v370 (addf : (⟨S100000x64, .f32⟩ : BufTy).Contents (Elt F) → (⟨S100000x64, .f32⟩ : BufTy).Contents (Elt F) → (⟨S100000x64, .f32⟩ : BufTy).Contents (Elt F)),
    StableHlo.unary main_arg11 main_v371 ((extractStridedSlice S1x64 ![0, 0] · slices_S3x64_S1x64_0_0) : (⟨S3x64, .f32⟩ : BufTy).Contents (Elt F) → (⟨S1x64, .f32⟩ : BufTy).Contents (Elt F)),
    StableHlo.reshape main_v371 main_v372 rfl shapeCasts_S1x64_S64,
    StableHlo.unary main_arg12 main_v373 ((extractStridedSlice S1x64 ![0, 0] · slices_S3x64_S1x64_0_0) : (⟨S3x64, .f32⟩ : BufTy).Contents (Elt F) → (⟨S1x64, .f32⟩ : BufTy).Contents (Elt F)),
    StableHlo.reshape main_v373 main_v374 rfl shapeCasts_S1x64_S64,
    StableHlo.nullary main_cst_55 (constant S_ .f32 0x00000000#32),
    StableHlo.binary main_v370 main_cst_55 main_v375 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_56 (constant S_ .f32 0x47C35000#32),
    StableHlo.unary main_cst_56 main_v376 (broadcastInDim S64 ![] bcast_S_S64 : (⟨S_, .f32⟩ : BufTy).Contents (Elt F) → (⟨S64, .f32⟩ : BufTy).Contents (Elt F)),
    StableHlo.binary main_v375 main_v376 main_v377 (Host.divf : (⟨S64, .f32⟩ : BufTy).Contents (Elt F) → (⟨S64, .f32⟩ : BufTy).Contents (Elt F) → (⟨S64, .f32⟩ : BufTy).Contents (Elt F)),
    StableHlo.nullary main_c_57 (constantI S_ 32 0#32),
    StableHlo.TRef.nullary (.of main_call10_cst : StableHlo.TRef sig ⟨S_, .f32⟩) (constant S_ .f32 0x00000000#32),
    StableHlo.TRef.binary (.of main_v370 : StableHlo.TRef sig ⟨S100000x64, .f32⟩) (.of main_call10_cst : StableHlo.TRef sig ⟨S_, .f32⟩) (.of main_call10_v0 : StableHlo.TRef sig ⟨S64, .f32⟩) (fun x v => Host.reduceAdd x v reducesTo_S100000x64_S64_d0 h_S_),
    StableHlo.TRef.unary (.of main_call10_v0 : StableHlo.TRef sig ⟨S64, .f32⟩) (.of main_call10_v1 : StableHlo.TRef sig ⟨S1x64, .f32⟩) (broadcastInDim S1x64 ![1] bcast_S64_S1x64_1),
    StableHlo.TRef.nullary (.of main_call10_cst_0 : StableHlo.TRef sig ⟨S_, .f32⟩) (constant S_ .f32 0x47C35000#32),
    StableHlo.TRef.unary (.of main_call10_cst_0 : StableHlo.TRef sig ⟨S_, .f32⟩) (.of main_call10_v2 : StableHlo.TRef sig ⟨S1x64, .f32⟩) (broadcastInDim S1x64 ![] bcast_S_S1x64),
    StableHlo.TRef.binary (.of main_call10_v1 : StableHlo.TRef sig ⟨S1x64, .f32⟩) (.of main_call10_v2 : StableHlo.TRef sig ⟨S1x64, .f32⟩) (.of main_call10_v3 : StableHlo.TRef sig ⟨S1x64, .f32⟩) Host.divf,
    StableHlo.TRef.unary (.of main_call10_v3 : StableHlo.TRef sig ⟨S1x64, .f32⟩) (.of main_call10_v4 : StableHlo.TRef sig ⟨S100000x64, .f32⟩) (broadcastInDim S100000x64 ![0, 1] bcast_S1x64_S100000x64_0_1),
    StableHlo.TRef.binary (.of main_v370 : StableHlo.TRef sig ⟨S100000x64, .f32⟩) (.of main_call10_v4 : StableHlo.TRef sig ⟨S100000x64, .f32⟩) (.of main_call10_v5 : StableHlo.TRef sig ⟨S100000x64, .f32⟩) subf,
    StableHlo.TRef.binary (.of main_call10_v5 : StableHlo.TRef sig ⟨S100000x64, .f32⟩) (.of main_call10_v5 : StableHlo.TRef sig ⟨S100000x64, .f32⟩) (.of main_call10_v6 : StableHlo.TRef sig ⟨S100000x64, .f32⟩) mulf,
    StableHlo.TRef.unary (.of main_c_57 : StableHlo.TRef sig ⟨S_, .i32⟩) (.of main_call10_v7 : StableHlo.TRef sig ⟨S_, .f32⟩) (sitofp .f32),
    StableHlo.TRef.nullary (.of main_call10_cst_1 : StableHlo.TRef sig ⟨S_, .f32⟩) (constant S_ .f32 0x47C35000#32),
    StableHlo.TRef.binary (.of main_call10_cst_1 : StableHlo.TRef sig ⟨S_, .f32⟩) (.of main_call10_v7 : StableHlo.TRef sig ⟨S_, .f32⟩) (.of main_call10_v8 : StableHlo.TRef sig ⟨S_, .f32⟩) subf,
    StableHlo.TRef.nullary (.of main_call10_cst_2 : StableHlo.TRef sig ⟨S_, .f32⟩) (constant S_ .f32 0x00000000#32),
    StableHlo.TRef.binary (.of main_call10_v6 : StableHlo.TRef sig ⟨S100000x64, .f32⟩) (.of main_call10_cst_2 : StableHlo.TRef sig ⟨S_, .f32⟩) (.of main_call10_v9 : StableHlo.TRef sig ⟨S64, .f32⟩) (fun x v => Host.reduceAdd x v reducesTo_S100000x64_S64_d0 h_S_),
    StableHlo.TRef.unary (.of main_call10_v8 : StableHlo.TRef sig ⟨S_, .f32⟩) (.of main_call10_v10 : StableHlo.TRef sig ⟨S64, .f32⟩) (broadcastInDim S64 ![] bcast_S_S64),
    StableHlo.TRef.binary (.of main_call10_v9 : StableHlo.TRef sig ⟨S64, .f32⟩) (.of main_call10_v10 : StableHlo.TRef sig ⟨S64, .f32⟩) (.of main_call10_v11 : StableHlo.TRef sig ⟨S64, .f32⟩) Host.divf,
    StableHlo.TRef.nullary (.of main_call10_cst_3 : StableHlo.TRef sig ⟨S_, .f32⟩) (constant S_ .f32 0x00000000#32),
    StableHlo.TRef.binary (.of main_call10_v8 : StableHlo.TRef sig ⟨S_, .f32⟩) (.of main_call10_cst_3 : StableHlo.TRef sig ⟨S_, .f32⟩) (.of main_call10_v12 : StableHlo.TRef sig ⟨S_, .i1⟩) (cmpf .ogt),
    StableHlo.TRef.nullary (.of main_call10_cst_4 : StableHlo.TRef sig ⟨S_, .f32⟩) (constant S_ .f32 0x7FC00000#32),
    StableHlo.TRef.unary (.of main_call10_cst_4 : StableHlo.TRef sig ⟨S_, .f32⟩) (.of main_call10_call0_v0 : StableHlo.TRef sig ⟨S_, .f32⟩) id,
    StableHlo.TRef.unary (.of main_call10_call0_v0 : StableHlo.TRef sig ⟨S_, .f32⟩) (.of main_call10_call0_v1 : StableHlo.TRef sig ⟨S64, .f32⟩) (broadcastInDim S64 ![] bcast_S_S64),
    StableHlo.TRef.ternary (.of main_call10_v12 : StableHlo.TRef sig ⟨S_, .i1⟩) (.of main_call10_v11 : StableHlo.TRef sig ⟨S64, .f32⟩) (.of main_call10_call0_v1 : StableHlo.TRef sig ⟨S64, .f32⟩) (.of main_v378 : StableHlo.TRef sig ⟨S64, .f32⟩) (fun p a b => select (broadcastInDim S64 ![] bcast_S_S64 p) a b),
    StableHlo.unary main_v377 main_v379 (broadcastInDim S1x64 ![1] bcast_S64_S1x64_1 : (⟨S64, .f32⟩ : BufTy).Contents (Elt F) → (⟨S1x64, .f32⟩ : BufTy).Contents (Elt F)),
    StableHlo.unary main_v379 main_v380 (broadcastInDim S100000x64 ![0, 1] bcast_S1x64_S100000x64_0_1 : (⟨S1x64, .f32⟩ : BufTy).Contents (Elt F) → (⟨S100000x64, .f32⟩ : BufTy).Contents (Elt F)),
    StableHlo.binary main_v370 main_v380 main_v381 (subf : (⟨S100000x64, .f32⟩ : BufTy).Contents (Elt F) → (⟨S100000x64, .f32⟩ : BufTy).Contents (Elt F) → (⟨S100000x64, .f32⟩ : BufTy).Contents (Elt F)),
    StableHlo.nullary main_cst_58 (constant S_ .f32 0x3727C5AC#32),
    StableHlo.unary main_cst_58 main_v382 (broadcastInDim S64 ![] bcast_S_S64 : (⟨S_, .f32⟩ : BufTy).Contents (Elt F) → (⟨S64, .f32⟩ : BufTy).Contents (Elt F)),
    StableHlo.binary main_v378 main_v382 main_v383 (addf : (⟨S64, .f32⟩ : BufTy).Contents (Elt F) → (⟨S64, .f32⟩ : BufTy).Contents (Elt F) → (⟨S64, .f32⟩ : BufTy).Contents (Elt F)),
    StableHlo.unary main_v383 main_v384 (Host.rsqrt : (⟨S64, .f32⟩ : BufTy).Contents (Elt F) → (⟨S64, .f32⟩ : BufTy).Contents (Elt F)),
    StableHlo.unary main_v384 main_v385 (broadcastInDim S1x64 ![1] bcast_S64_S1x64_1 : (⟨S64, .f32⟩ : BufTy).Contents (Elt F) → (⟨S1x64, .f32⟩ : BufTy).Contents (Elt F)),
    StableHlo.unary main_v385 main_v386 (broadcastInDim S100000x64 ![0, 1] bcast_S1x64_S100000x64_0_1 : (⟨S1x64, .f32⟩ : BufTy).Contents (Elt F) → (⟨S100000x64, .f32⟩ : BufTy).Contents (Elt F)),
    StableHlo.binary main_v381 main_v386 main_v387 (mulf : (⟨S100000x64, .f32⟩ : BufTy).Contents (Elt F) → (⟨S100000x64, .f32⟩ : BufTy).Contents (Elt F) → (⟨S100000x64, .f32⟩ : BufTy).Contents (Elt F)),
    StableHlo.unary main_v372 main_v388 (broadcastInDim S1x64 ![1] bcast_S64_S1x64_1 : (⟨S64, .f32⟩ : BufTy).Contents (Elt F) → (⟨S1x64, .f32⟩ : BufTy).Contents (Elt F)),
    StableHlo.unary main_v388 main_v389 (broadcastInDim S100000x64 ![0, 1] bcast_S1x64_S100000x64_0_1 : (⟨S1x64, .f32⟩ : BufTy).Contents (Elt F) → (⟨S100000x64, .f32⟩ : BufTy).Contents (Elt F)),
    StableHlo.binary main_v387 main_v389 main_v390 (mulf : (⟨S100000x64, .f32⟩ : BufTy).Contents (Elt F) → (⟨S100000x64, .f32⟩ : BufTy).Contents (Elt F) → (⟨S100000x64, .f32⟩ : BufTy).Contents (Elt F)),
    StableHlo.unary main_v374 main_v391 (broadcastInDim S1x64 ![1] bcast_S64_S1x64_1 : (⟨S64, .f32⟩ : BufTy).Contents (Elt F) → (⟨S1x64, .f32⟩ : BufTy).Contents (Elt F)),
    StableHlo.unary main_v391 main_v392 (broadcastInDim S100000x64 ![0, 1] bcast_S1x64_S100000x64_0_1 : (⟨S1x64, .f32⟩ : BufTy).Contents (Elt F) → (⟨S100000x64, .f32⟩ : BufTy).Contents (Elt F)),
    StableHlo.binary main_v390 main_v392 main_v393 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call11_cst : StableHlo.TRef sig ⟨S_, .f32⟩) (constant S_ .f32 0x00000000#32),
    StableHlo.TRef.unary (.of main_call11_cst : StableHlo.TRef sig ⟨S_, .f32⟩) (.of main_call11_v0 : StableHlo.TRef sig ⟨S100000x64, .f32⟩) (broadcastInDim S100000x64 ![] bcast_S_S100000x64),
    StableHlo.TRef.binary (.of main_v393 : StableHlo.TRef sig ⟨S100000x64, .f32⟩) (.of main_call11_v0 : StableHlo.TRef sig ⟨S100000x64, .f32⟩) (.of main_v394 : StableHlo.TRef sig ⟨S100000x64, .f32⟩) maximumf ]

/-- Each touches TensorCore references only. -/
theorem rops10_sub : (rops10 : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Each determines what it writes. -/
theorem rops10_fresh : (rops10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers written, one per operation, in order. -/
abbrev rops10_W : List (Ref sig .tc) :=
  [ main_v363, main_v364, main_v365, main_v366, main_v367, main_v368, main_v369, main_v370, main_v371, main_v372, main_v373, main_v374, main_cst_55, main_v375, main_cst_56, main_v376, main_v377, main_c_57, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v378, main_v379, main_v380, main_v381, main_cst_58, main_v382, main_v383, main_v384, main_v385, main_v386, main_v387, main_v388, main_v389, main_v390, main_v391, main_v392, main_v393, main_call11_cst, main_call11_v0, main_v394 ]

private theorem wmem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-- Every operation writes a buffer of that list. -/
theorem rops10_wsub : (rops10 : List (HloOp τ sig (Elt F))).Forall fun op =>
      op.writes ⊆ (rops10_W.map (Proc.devRef (τ := τ) .tc)).toFinset :=
  ⟨wmem (y := main_v363) (by decide),
   wmem (y := main_v364) (by decide),
   wmem (y := main_v365) (by decide),
   wmem (y := main_v366) (by decide),
   wmem (y := main_v367) (by decide),
   wmem (y := main_v368) (by decide),
   wmem (y := main_v369) (by decide),
   wmem (y := main_v370) (by decide),
   wmem (y := main_v371) (by decide),
   wmem (y := main_v372) (by decide),
   wmem (y := main_v373) (by decide),
   wmem (y := main_v374) (by decide),
   wmem (y := main_cst_55) (by decide),
   wmem (y := main_v375) (by decide),
   wmem (y := main_cst_56) (by decide),
   wmem (y := main_v376) (by decide),
   wmem (y := main_v377) (by decide),
   wmem (y := main_c_57) (by decide),
   wmem (y := main_call10_cst) (by decide),
   wmem (y := main_call10_v0) (by decide),
   wmem (y := main_call10_v1) (by decide),
   wmem (y := main_call10_cst_0) (by decide),
   wmem (y := main_call10_v2) (by decide),
   wmem (y := main_call10_v3) (by decide),
   wmem (y := main_call10_v4) (by decide),
   wmem (y := main_call10_v5) (by decide),
   wmem (y := main_call10_v6) (by decide),
   wmem (y := main_call10_v7) (by decide),
   wmem (y := main_call10_cst_1) (by decide),
   wmem (y := main_call10_v8) (by decide),
   wmem (y := main_call10_cst_2) (by decide),
   wmem (y := main_call10_v9) (by decide),
   wmem (y := main_call10_v10) (by decide),
   wmem (y := main_call10_v11) (by decide),
   wmem (y := main_call10_cst_3) (by decide),
   wmem (y := main_call10_v12) (by decide),
   wmem (y := main_call10_cst_4) (by decide),
   wmem (y := main_call10_call0_v0) (by decide),
   wmem (y := main_call10_call0_v1) (by decide),
   wmem (y := main_v378) (by decide),
   wmem (y := main_v379) (by decide),
   wmem (y := main_v380) (by decide),
   wmem (y := main_v381) (by decide),
   wmem (y := main_cst_58) (by decide),
   wmem (y := main_v382) (by decide),
   wmem (y := main_v383) (by decide),
   wmem (y := main_v384) (by decide),
   wmem (y := main_v385) (by decide),
   wmem (y := main_v386) (by decide),
   wmem (y := main_v387) (by decide),
   wmem (y := main_v388) (by decide),
   wmem (y := main_v389) (by decide),
   wmem (y := main_v390) (by decide),
   wmem (y := main_v391) (by decide),
   wmem (y := main_v392) (by decide),
   wmem (y := main_v393) (by decide),
   wmem (y := main_call11_cst) (by decide),
   wmem (y := main_call11_v0) (by decide),
   wmem (y := main_v394) (by decide)⟩

/-- A buffer outside that list keeps its contents through the chunk. -/
theorem rops10_keep (V : Valuation τ sig (Elt F)) {r : Ref sig .tc} (hr : r ∉ rops10_W) :
    StableHlo.after rops10 V (Proc.devRef .tc r) = V (Proc.devRef .tc r) :=
  StableHlo.after_of_writes_sub rops10 V rops10_wsub hr

end Cert.ReferenceIdeal.Hand

end
-- ==== Proof.RefOps11.lean ====
import proofs.«409001_j25520695673361_2_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main's operations from the statement after the one defining %394 through the one defining %426, in program order, a called function's
    operations in place of its call (over that call's buffers): 59 operations. -/
abbrev rops11 : List (HloOp τ sig (Elt F)) :=
  [ StableHlo.unary main_arg9 main_v395 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v395 main_v396 rfl shapeCasts_S1x64x64_S64x64,
    StableHlo.binary main_v394 main_v396 main_v397 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v398 ((extractStridedSlice S1x64 ![1, 0] · slices_S3x64_S1x64_1_0) : (⟨S3x64, .f32⟩ : BufTy).Contents (Elt F) → (⟨S1x64, .f32⟩ : BufTy).Contents (Elt F)),
    StableHlo.reshape main_v398 main_v399 rfl shapeCasts_S1x64_S64,
    StableHlo.unary main_v399 main_v400 (broadcastInDim S1x64 ![1] bcast_S64_S1x64_1 : (⟨S64, .f32⟩ : BufTy).Contents (Elt F) → (⟨S1x64, .f32⟩ : BufTy).Contents (Elt F)),
    StableHlo.unary main_v400 main_v401 (broadcastInDim S100000x64 ![0, 1] bcast_S1x64_S100000x64_0_1 : (⟨S1x64, .f32⟩ : BufTy).Contents (Elt F) → (⟨S100000x64, .f32⟩ : BufTy).Contents (Elt F)),
    StableHlo.binary main_v397 main_v401 main_v402 (addf : (⟨S100000x64, .f32⟩ : BufTy).Contents (Elt F) → (⟨S100000x64, .f32⟩ : BufTy).Contents (Elt F) → (⟨S100000x64, .f32⟩ : BufTy).Contents (Elt F)),
    StableHlo.unary main_arg11 main_v403 ((extractStridedSlice S1x64 ![1, 0] · slices_S3x64_S1x64_1_0) : (⟨S3x64, .f32⟩ : BufTy).Contents (Elt F) → (⟨S1x64, .f32⟩ : BufTy).Contents (Elt F)),
    StableHlo.reshape main_v403 main_v404 rfl shapeCasts_S1x64_S64,
    StableHlo.unary main_arg12 main_v405 ((extractStridedSlice S1x64 ![1, 0] · slices_S3x64_S1x64_1_0) : (⟨S3x64, .f32⟩ : BufTy).Contents (Elt F) → (⟨S1x64, .f32⟩ : BufTy).Contents (Elt F)),
    StableHlo.reshape main_v405 main_v406 rfl shapeCasts_S1x64_S64,
    StableHlo.nullary main_cst_59 (constant S_ .f32 0x00000000#32),
    StableHlo.binary main_v402 main_cst_59 main_v407 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_60 (constant S_ .f32 0x47C35000#32),
    StableHlo.unary main_cst_60 main_v408 (broadcastInDim S64 ![] bcast_S_S64 : (⟨S_, .f32⟩ : BufTy).Contents (Elt F) → (⟨S64, .f32⟩ : BufTy).Contents (Elt F)),
    StableHlo.binary main_v407 main_v408 main_v409 (Host.divf : (⟨S64, .f32⟩ : BufTy).Contents (Elt F) → (⟨S64, .f32⟩ : BufTy).Contents (Elt F) → (⟨S64, .f32⟩ : BufTy).Contents (Elt F)),
    StableHlo.nullary main_c_61 (constantI S_ 32 0#32),
    StableHlo.TRef.nullary (.of main_call12_cst : StableHlo.TRef sig ⟨S_, .f32⟩) (constant S_ .f32 0x00000000#32),
    StableHlo.TRef.binary (.of main_v402 : StableHlo.TRef sig ⟨S100000x64, .f32⟩) (.of main_call12_cst : StableHlo.TRef sig ⟨S_, .f32⟩) (.of main_call12_v0 : StableHlo.TRef sig ⟨S64, .f32⟩) (fun x v => Host.reduceAdd x v reducesTo_S100000x64_S64_d0 h_S_),
    StableHlo.TRef.unary (.of main_call12_v0 : StableHlo.TRef sig ⟨S64, .f32⟩) (.of main_call12_v1 : StableHlo.TRef sig ⟨S1x64, .f32⟩) (broadcastInDim S1x64 ![1] bcast_S64_S1x64_1),
    StableHlo.TRef.nullary (.of main_call12_cst_0 : StableHlo.TRef sig ⟨S_, .f32⟩) (constant S_ .f32 0x47C35000#32),
    StableHlo.TRef.unary (.of main_call12_cst_0 : StableHlo.TRef sig ⟨S_, .f32⟩) (.of main_call12_v2 : StableHlo.TRef sig ⟨S1x64, .f32⟩) (broadcastInDim S1x64 ![] bcast_S_S1x64),
    StableHlo.TRef.binary (.of main_call12_v1 : StableHlo.TRef sig ⟨S1x64, .f32⟩) (.of main_call12_v2 : StableHlo.TRef sig ⟨S1x64, .f32⟩) (.of main_call12_v3 : StableHlo.TRef sig ⟨S1x64, .f32⟩) Host.divf,
    StableHlo.TRef.unary (.of main_call12_v3 : StableHlo.TRef sig ⟨S1x64, .f32⟩) (.of main_call12_v4 : StableHlo.TRef sig ⟨S100000x64, .f32⟩) (broadcastInDim S100000x64 ![0, 1] bcast_S1x64_S100000x64_0_1),
    StableHlo.TRef.binary (.of main_v402 : StableHlo.TRef sig ⟨S100000x64, .f32⟩) (.of main_call12_v4 : StableHlo.TRef sig ⟨S100000x64, .f32⟩) (.of main_call12_v5 : StableHlo.TRef sig ⟨S100000x64, .f32⟩) subf,
    StableHlo.TRef.binary (.of main_call12_v5 : StableHlo.TRef sig ⟨S100000x64, .f32⟩) (.of main_call12_v5 : StableHlo.TRef sig ⟨S100000x64, .f32⟩) (.of main_call12_v6 : StableHlo.TRef sig ⟨S100000x64, .f32⟩) mulf,
    StableHlo.TRef.unary (.of main_c_61 : StableHlo.TRef sig ⟨S_, .i32⟩) (.of main_call12_v7 : StableHlo.TRef sig ⟨S_, .f32⟩) (sitofp .f32),
    StableHlo.TRef.nullary (.of main_call12_cst_1 : StableHlo.TRef sig ⟨S_, .f32⟩) (constant S_ .f32 0x47C35000#32),
    StableHlo.TRef.binary (.of main_call12_cst_1 : StableHlo.TRef sig ⟨S_, .f32⟩) (.of main_call12_v7 : StableHlo.TRef sig ⟨S_, .f32⟩) (.of main_call12_v8 : StableHlo.TRef sig ⟨S_, .f32⟩) subf,
    StableHlo.TRef.nullary (.of main_call12_cst_2 : StableHlo.TRef sig ⟨S_, .f32⟩) (constant S_ .f32 0x00000000#32),
    StableHlo.TRef.binary (.of main_call12_v6 : StableHlo.TRef sig ⟨S100000x64, .f32⟩) (.of main_call12_cst_2 : StableHlo.TRef sig ⟨S_, .f32⟩) (.of main_call12_v9 : StableHlo.TRef sig ⟨S64, .f32⟩) (fun x v => Host.reduceAdd x v reducesTo_S100000x64_S64_d0 h_S_),
    StableHlo.TRef.unary (.of main_call12_v8 : StableHlo.TRef sig ⟨S_, .f32⟩) (.of main_call12_v10 : StableHlo.TRef sig ⟨S64, .f32⟩) (broadcastInDim S64 ![] bcast_S_S64),
    StableHlo.TRef.binary (.of main_call12_v9 : StableHlo.TRef sig ⟨S64, .f32⟩) (.of main_call12_v10 : StableHlo.TRef sig ⟨S64, .f32⟩) (.of main_call12_v11 : StableHlo.TRef sig ⟨S64, .f32⟩) Host.divf,
    StableHlo.TRef.nullary (.of main_call12_cst_3 : StableHlo.TRef sig ⟨S_, .f32⟩) (constant S_ .f32 0x00000000#32),
    StableHlo.TRef.binary (.of main_call12_v8 : StableHlo.TRef sig ⟨S_, .f32⟩) (.of main_call12_cst_3 : StableHlo.TRef sig ⟨S_, .f32⟩) (.of main_call12_v12 : StableHlo.TRef sig ⟨S_, .i1⟩) (cmpf .ogt),
    StableHlo.TRef.nullary (.of main_call12_cst_4 : StableHlo.TRef sig ⟨S_, .f32⟩) (constant S_ .f32 0x7FC00000#32),
    StableHlo.TRef.unary (.of main_call12_cst_4 : StableHlo.TRef sig ⟨S_, .f32⟩) (.of main_call12_call0_v0 : StableHlo.TRef sig ⟨S_, .f32⟩) id,
    StableHlo.TRef.unary (.of main_call12_call0_v0 : StableHlo.TRef sig ⟨S_, .f32⟩) (.of main_call12_call0_v1 : StableHlo.TRef sig ⟨S64, .f32⟩) (broadcastInDim S64 ![] bcast_S_S64),
    StableHlo.TRef.ternary (.of main_call12_v12 : StableHlo.TRef sig ⟨S_, .i1⟩) (.of main_call12_v11 : StableHlo.TRef sig ⟨S64, .f32⟩) (.of main_call12_call0_v1 : StableHlo.TRef sig ⟨S64, .f32⟩) (.of main_v410 : StableHlo.TRef sig ⟨S64, .f32⟩) (fun p a b => select (broadcastInDim S64 ![] bcast_S_S64 p) a b),
    StableHlo.unary main_v409 main_v411 (broadcastInDim S1x64 ![1] bcast_S64_S1x64_1 : (⟨S64, .f32⟩ : BufTy).Contents (Elt F) → (⟨S1x64, .f32⟩ : BufTy).Contents (Elt F)),
    StableHlo.unary main_v411 main_v412 (broadcastInDim S100000x64 ![0, 1] bcast_S1x64_S100000x64_0_1 : (⟨S1x64, .f32⟩ : BufTy).Contents (Elt F) → (⟨S100000x64, .f32⟩ : BufTy).Contents (Elt F)),
    StableHlo.binary main_v402 main_v412 main_v413 (subf : (⟨S100000x64, .f32⟩ : BufTy).Contents (Elt F) → (⟨S100000x64, .f32⟩ : BufTy).Contents (Elt F) → (⟨S100000x64, .f32⟩ : BufTy).Contents (Elt F)),
    StableHlo.nullary main_cst_62 (constant S_ .f32 0x3727C5AC#32),
    StableHlo.unary main_cst_62 main_v414 (broadcastInDim S64 ![] bcast_S_S64 : (⟨S_, .f32⟩ : BufTy).Contents (Elt F) → (⟨S64, .f32⟩ : BufTy).Contents (Elt F)),
    StableHlo.binary main_v410 main_v414 main_v415 (addf : (⟨S64, .f32⟩ : BufTy).Contents (Elt F) → (⟨S64, .f32⟩ : BufTy).Contents (Elt F) → (⟨S64, .f32⟩ : BufTy).Contents (Elt F)),
    StableHlo.unary main_v415 main_v416 (Host.rsqrt : (⟨S64, .f32⟩ : BufTy).Contents (Elt F) → (⟨S64, .f32⟩ : BufTy).Contents (Elt F)),
    StableHlo.unary main_v416 main_v417 (broadcastInDim S1x64 ![1] bcast_S64_S1x64_1 : (⟨S64, .f32⟩ : BufTy).Contents (Elt F) → (⟨S1x64, .f32⟩ : BufTy).Contents (Elt F)),
    StableHlo.unary main_v417 main_v418 (broadcastInDim S100000x64 ![0, 1] bcast_S1x64_S100000x64_0_1 : (⟨S1x64, .f32⟩ : BufTy).Contents (Elt F) → (⟨S100000x64, .f32⟩ : BufTy).Contents (Elt F)),
    StableHlo.binary main_v413 main_v418 main_v419 (mulf : (⟨S100000x64, .f32⟩ : BufTy).Contents (Elt F) → (⟨S100000x64, .f32⟩ : BufTy).Contents (Elt F) → (⟨S100000x64, .f32⟩ : BufTy).Contents (Elt F)),
    StableHlo.unary main_v404 main_v420 (broadcastInDim S1x64 ![1] bcast_S64_S1x64_1 : (⟨S64, .f32⟩ : BufTy).Contents (Elt F) → (⟨S1x64, .f32⟩ : BufTy).Contents (Elt F)),
    StableHlo.unary main_v420 main_v421 (broadcastInDim S100000x64 ![0, 1] bcast_S1x64_S100000x64_0_1 : (⟨S1x64, .f32⟩ : BufTy).Contents (Elt F) → (⟨S100000x64, .f32⟩ : BufTy).Contents (Elt F)),
    StableHlo.binary main_v419 main_v421 main_v422 (mulf : (⟨S100000x64, .f32⟩ : BufTy).Contents (Elt F) → (⟨S100000x64, .f32⟩ : BufTy).Contents (Elt F) → (⟨S100000x64, .f32⟩ : BufTy).Contents (Elt F)),
    StableHlo.unary main_v406 main_v423 (broadcastInDim S1x64 ![1] bcast_S64_S1x64_1 : (⟨S64, .f32⟩ : BufTy).Contents (Elt F) → (⟨S1x64, .f32⟩ : BufTy).Contents (Elt F)),
    StableHlo.unary main_v423 main_v424 (broadcastInDim S100000x64 ![0, 1] bcast_S1x64_S100000x64_0_1 : (⟨S1x64, .f32⟩ : BufTy).Contents (Elt F) → (⟨S100000x64, .f32⟩ : BufTy).Contents (Elt F)),
    StableHlo.binary main_v422 main_v424 main_v425 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call13_cst : StableHlo.TRef sig ⟨S_, .f32⟩) (constant S_ .f32 0x00000000#32),
    StableHlo.TRef.unary (.of main_call13_cst : StableHlo.TRef sig ⟨S_, .f32⟩) (.of main_call13_v0 : StableHlo.TRef sig ⟨S100000x64, .f32⟩) (broadcastInDim S100000x64 ![] bcast_S_S100000x64),
    StableHlo.TRef.binary (.of main_v425 : StableHlo.TRef sig ⟨S100000x64, .f32⟩) (.of main_call13_v0 : StableHlo.TRef sig ⟨S100000x64, .f32⟩) (.of main_v426 : StableHlo.TRef sig ⟨S100000x64, .f32⟩) maximumf ]

/-- Each touches TensorCore references only. -/
theorem rops11_sub : (rops11 : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Each determines what it writes. -/
theorem rops11_fresh : (rops11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers written, one per operation, in order. -/
abbrev rops11_W : List (Ref sig .tc) :=
  [ main_v395, main_v396, main_v397, main_v398, main_v399, main_v400, main_v401, main_v402, main_v403, main_v404, main_v405, main_v406, main_cst_59, main_v407, main_cst_60, main_v408, main_v409, main_c_61, main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3, main_call12_v12, main_call12_cst_4, main_call12_call0_v0, main_call12_call0_v1, main_v410, main_v411, main_v412, main_v413, main_cst_62, main_v414, main_v415, main_v416, main_v417, main_v418, main_v419, main_v420, main_v421, main_v422, main_v423, main_v424, main_v425, main_call13_cst, main_call13_v0, main_v426 ]

private theorem wmem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-- Every operation writes a buffer of that list. -/
theorem rops11_wsub : (rops11 : List (HloOp τ sig (Elt F))).Forall fun op =>
      op.writes ⊆ (rops11_W.map (Proc.devRef (τ := τ) .tc)).toFinset :=
  ⟨wmem (y := main_v395) (by decide),
   wmem (y := main_v396) (by decide),
   wmem (y := main_v397) (by decide),
   wmem (y := main_v398) (by decide),
   wmem (y := main_v399) (by decide),
   wmem (y := main_v400) (by decide),
   wmem (y := main_v401) (by decide),
   wmem (y := main_v402) (by decide),
   wmem (y := main_v403) (by decide),
   wmem (y := main_v404) (by decide),
   wmem (y := main_v405) (by decide),
   wmem (y := main_v406) (by decide),
   wmem (y := main_cst_59) (by decide),
   wmem (y := main_v407) (by decide),
   wmem (y := main_cst_60) (by decide),
   wmem (y := main_v408) (by decide),
   wmem (y := main_v409) (by decide),
   wmem (y := main_c_61) (by decide),
   wmem (y := main_call12_cst) (by decide),
   wmem (y := main_call12_v0) (by decide),
   wmem (y := main_call12_v1) (by decide),
   wmem (y := main_call12_cst_0) (by decide),
   wmem (y := main_call12_v2) (by decide),
   wmem (y := main_call12_v3) (by decide),
   wmem (y := main_call12_v4) (by decide),
   wmem (y := main_call12_v5) (by decide),
   wmem (y := main_call12_v6) (by decide),
   wmem (y := main_call12_v7) (by decide),
   wmem (y := main_call12_cst_1) (by decide),
   wmem (y := main_call12_v8) (by decide),
   wmem (y := main_call12_cst_2) (by decide),
   wmem (y := main_call12_v9) (by decide),
   wmem (y := main_call12_v10) (by decide),
   wmem (y := main_call12_v11) (by decide),
   wmem (y := main_call12_cst_3) (by decide),
   wmem (y := main_call12_v12) (by decide),
   wmem (y := main_call12_cst_4) (by decide),
   wmem (y := main_call12_call0_v0) (by decide),
   wmem (y := main_call12_call0_v1) (by decide),
   wmem (y := main_v410) (by decide),
   wmem (y := main_v411) (by decide),
   wmem (y := main_v412) (by decide),
   wmem (y := main_v413) (by decide),
   wmem (y := main_cst_62) (by decide),
   wmem (y := main_v414) (by decide),
   wmem (y := main_v415) (by decide),
   wmem (y := main_v416) (by decide),
   wmem (y := main_v417) (by decide),
   wmem (y := main_v418) (by decide),
   wmem (y := main_v419) (by decide),
   wmem (y := main_v420) (by decide),
   wmem (y := main_v421) (by decide),
   wmem (y := main_v422) (by decide),
   wmem (y := main_v423) (by decide),
   wmem (y := main_v424) (by decide),
   wmem (y := main_v425) (by decide),
   wmem (y := main_call13_cst) (by decide),
   wmem (y := main_call13_v0) (by decide),
   wmem (y := main_v426) (by decide)⟩

/-- A buffer outside that list keeps its contents through the chunk. -/
theorem rops11_keep (V : Valuation τ sig (Elt F)) {r : Ref sig .tc} (hr : r ∉ rops11_W) :
    StableHlo.after rops11 V (Proc.devRef .tc r) = V (Proc.devRef .tc r) :=
  StableHlo.after_of_writes_sub rops11 V rops11_wsub hr

end Cert.ReferenceIdeal.Hand

end
-- ==== Proof.RefOps12.lean ====
import proofs.«409001_j25520695673361_2_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main's operations from the statement after the one defining %426 through the one defining %457, in program order, a called function's
    operations in place of its call (over that call's buffers): 56 operations. -/
abbrev rops12 : List (HloOp τ sig (Elt F)) :=
  [ StableHlo.unary main_arg9 main_v427 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v427 main_v428 rfl shapeCasts_S1x64x64_S64x64,
    StableHlo.binary main_v426 main_v428 main_v429 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v430 ((extractStridedSlice S1x64 ![2, 0] · slices_S3x64_S1x64_2_0) : (⟨S3x64, .f32⟩ : BufTy).Contents (Elt F) → (⟨S1x64, .f32⟩ : BufTy).Contents (Elt F)),
    StableHlo.reshape main_v430 main_v431 rfl shapeCasts_S1x64_S64,
    StableHlo.unary main_v431 main_v432 (broadcastInDim S1x64 ![1] bcast_S64_S1x64_1 : (⟨S64, .f32⟩ : BufTy).Contents (Elt F) → (⟨S1x64, .f32⟩ : BufTy).Contents (Elt F)),
    StableHlo.unary main_v432 main_v433 (broadcastInDim S100000x64 ![0, 1] bcast_S1x64_S100000x64_0_1 : (⟨S1x64, .f32⟩ : BufTy).Contents (Elt F) → (⟨S100000x64, .f32⟩ : BufTy).Contents (Elt F)),
    StableHlo.binary main_v429 main_v433 main_v434 (addf : (⟨S100000x64, .f32⟩ : BufTy).Contents (Elt F) → (⟨S100000x64, .f32⟩ : BufTy).Contents (Elt F) → (⟨S100000x64, .f32⟩ : BufTy).Contents (Elt F)),
    StableHlo.unary main_arg11 main_v435 ((extractStridedSlice S1x64 ![2, 0] · slices_S3x64_S1x64_2_0) : (⟨S3x64, .f32⟩ : BufTy).Contents (Elt F) → (⟨S1x64, .f32⟩ : BufTy).Contents (Elt F)),
    StableHlo.reshape main_v435 main_v436 rfl shapeCasts_S1x64_S64,
    StableHlo.unary main_arg12 main_v437 ((extractStridedSlice S1x64 ![2, 0] · slices_S3x64_S1x64_2_0) : (⟨S3x64, .f32⟩ : BufTy).Contents (Elt F) → (⟨S1x64, .f32⟩ : BufTy).Contents (Elt F)),
    StableHlo.reshape main_v437 main_v438 rfl shapeCasts_S1x64_S64,
    StableHlo.nullary main_cst_63 (constant S_ .f32 0x00000000#32),
    StableHlo.binary main_v434 main_cst_63 main_v439 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_64 (constant S_ .f32 0x47C35000#32),
    StableHlo.unary main_cst_64 main_v440 (broadcastInDim S64 ![] bcast_S_S64 : (⟨S_, .f32⟩ : BufTy).Contents (Elt F) → (⟨S64, .f32⟩ : BufTy).Contents (Elt F)),
    StableHlo.binary main_v439 main_v440 main_v441 (Host.divf : (⟨S64, .f32⟩ : BufTy).Contents (Elt F) → (⟨S64, .f32⟩ : BufTy).Contents (Elt F) → (⟨S64, .f32⟩ : BufTy).Contents (Elt F)),
    StableHlo.nullary main_c_65 (constantI S_ 32 0#32),
    StableHlo.TRef.nullary (.of main_call14_cst : StableHlo.TRef sig ⟨S_, .f32⟩) (constant S_ .f32 0x00000000#32),
    StableHlo.TRef.binary (.of main_v434 : StableHlo.TRef sig ⟨S100000x64, .f32⟩) (.of main_call14_cst : StableHlo.TRef sig ⟨S_, .f32⟩) (.of main_call14_v0 : StableHlo.TRef sig ⟨S64, .f32⟩) (fun x v => Host.reduceAdd x v reducesTo_S100000x64_S64_d0 h_S_),
    StableHlo.TRef.unary (.of main_call14_v0 : StableHlo.TRef sig ⟨S64, .f32⟩) (.of main_call14_v1 : StableHlo.TRef sig ⟨S1x64, .f32⟩) (broadcastInDim S1x64 ![1] bcast_S64_S1x64_1),
    StableHlo.TRef.nullary (.of main_call14_cst_0 : StableHlo.TRef sig ⟨S_, .f32⟩) (constant S_ .f32 0x47C35000#32),
    StableHlo.TRef.unary (.of main_call14_cst_0 : StableHlo.TRef sig ⟨S_, .f32⟩) (.of main_call14_v2 : StableHlo.TRef sig ⟨S1x64, .f32⟩) (broadcastInDim S1x64 ![] bcast_S_S1x64),
    StableHlo.TRef.binary (.of main_call14_v1 : StableHlo.TRef sig ⟨S1x64, .f32⟩) (.of main_call14_v2 : StableHlo.TRef sig ⟨S1x64, .f32⟩) (.of main_call14_v3 : StableHlo.TRef sig ⟨S1x64, .f32⟩) Host.divf,
    StableHlo.TRef.unary (.of main_call14_v3 : StableHlo.TRef sig ⟨S1x64, .f32⟩) (.of main_call14_v4 : StableHlo.TRef sig ⟨S100000x64, .f32⟩) (broadcastInDim S100000x64 ![0, 1] bcast_S1x64_S100000x64_0_1),
    StableHlo.TRef.binary (.of main_v434 : StableHlo.TRef sig ⟨S100000x64, .f32⟩) (.of main_call14_v4 : StableHlo.TRef sig ⟨S100000x64, .f32⟩) (.of main_call14_v5 : StableHlo.TRef sig ⟨S100000x64, .f32⟩) subf,
    StableHlo.TRef.binary (.of main_call14_v5 : StableHlo.TRef sig ⟨S100000x64, .f32⟩) (.of main_call14_v5 : StableHlo.TRef sig ⟨S100000x64, .f32⟩) (.of main_call14_v6 : StableHlo.TRef sig ⟨S100000x64, .f32⟩) mulf,
    StableHlo.TRef.unary (.of main_c_65 : StableHlo.TRef sig ⟨S_, .i32⟩) (.of main_call14_v7 : StableHlo.TRef sig ⟨S_, .f32⟩) (sitofp .f32),
    StableHlo.TRef.nullary (.of main_call14_cst_1 : StableHlo.TRef sig ⟨S_, .f32⟩) (constant S_ .f32 0x47C35000#32),
    StableHlo.TRef.binary (.of main_call14_cst_1 : StableHlo.TRef sig ⟨S_, .f32⟩) (.of main_call14_v7 : StableHlo.TRef sig ⟨S_, .f32⟩) (.of main_call14_v8 : StableHlo.TRef sig ⟨S_, .f32⟩) subf,
    StableHlo.TRef.nullary (.of main_call14_cst_2 : StableHlo.TRef sig ⟨S_, .f32⟩) (constant S_ .f32 0x00000000#32),
    StableHlo.TRef.binary (.of main_call14_v6 : StableHlo.TRef sig ⟨S100000x64, .f32⟩) (.of main_call14_cst_2 : StableHlo.TRef sig ⟨S_, .f32⟩) (.of main_call14_v9 : StableHlo.TRef sig ⟨S64, .f32⟩) (fun x v => Host.reduceAdd x v reducesTo_S100000x64_S64_d0 h_S_),
    StableHlo.TRef.unary (.of main_call14_v8 : StableHlo.TRef sig ⟨S_, .f32⟩) (.of main_call14_v10 : StableHlo.TRef sig ⟨S64, .f32⟩) (broadcastInDim S64 ![] bcast_S_S64),
    StableHlo.TRef.binary (.of main_call14_v9 : StableHlo.TRef sig ⟨S64, .f32⟩) (.of main_call14_v10 : StableHlo.TRef sig ⟨S64, .f32⟩) (.of main_call14_v11 : StableHlo.TRef sig ⟨S64, .f32⟩) Host.divf,
    StableHlo.TRef.nullary (.of main_call14_cst_3 : StableHlo.TRef sig ⟨S_, .f32⟩) (constant S_ .f32 0x00000000#32),
    StableHlo.TRef.binary (.of main_call14_v8 : StableHlo.TRef sig ⟨S_, .f32⟩) (.of main_call14_cst_3 : StableHlo.TRef sig ⟨S_, .f32⟩) (.of main_call14_v12 : StableHlo.TRef sig ⟨S_, .i1⟩) (cmpf .ogt),
    StableHlo.TRef.nullary (.of main_call14_cst_4 : StableHlo.TRef sig ⟨S_, .f32⟩) (constant S_ .f32 0x7FC00000#32),
    StableHlo.TRef.unary (.of main_call14_cst_4 : StableHlo.TRef sig ⟨S_, .f32⟩) (.of main_call14_call0_v0 : StableHlo.TRef sig ⟨S_, .f32⟩) id,
    StableHlo.TRef.unary (.of main_call14_call0_v0 : StableHlo.TRef sig ⟨S_, .f32⟩) (.of main_call14_call0_v1 : StableHlo.TRef sig ⟨S64, .f32⟩) (broadcastInDim S64 ![] bcast_S_S64),
    StableHlo.TRef.ternary (.of main_call14_v12 : StableHlo.TRef sig ⟨S_, .i1⟩) (.of main_call14_v11 : StableHlo.TRef sig ⟨S64, .f32⟩) (.of main_call14_call0_v1 : StableHlo.TRef sig ⟨S64, .f32⟩) (.of main_v442 : StableHlo.TRef sig ⟨S64, .f32⟩) (fun p a b => select (broadcastInDim S64 ![] bcast_S_S64 p) a b),
    StableHlo.unary main_v441 main_v443 (broadcastInDim S1x64 ![1] bcast_S64_S1x64_1 : (⟨S64, .f32⟩ : BufTy).Contents (Elt F) → (⟨S1x64, .f32⟩ : BufTy).Contents (Elt F)),
    StableHlo.unary main_v443 main_v444 (broadcastInDim S100000x64 ![0, 1] bcast_S1x64_S100000x64_0_1 : (⟨S1x64, .f32⟩ : BufTy).Contents (Elt F) → (⟨S100000x64, .f32⟩ : BufTy).Contents (Elt F)),
    StableHlo.binary main_v434 main_v444 main_v445 (subf : (⟨S100000x64, .f32⟩ : BufTy).Contents (Elt F) → (⟨S100000x64, .f32⟩ : BufTy).Contents (Elt F) → (⟨S100000x64, .f32⟩ : BufTy).Contents (Elt F)),
    StableHlo.nullary main_cst_66 (constant S_ .f32 0x3727C5AC#32),
    StableHlo.unary main_cst_66 main_v446 (broadcastInDim S64 ![] bcast_S_S64 : (⟨S_, .f32⟩ : BufTy).Contents (Elt F) → (⟨S64, .f32⟩ : BufTy).Contents (Elt F)),
    StableHlo.binary main_v442 main_v446 main_v447 (addf : (⟨S64, .f32⟩ : BufTy).Contents (Elt F) → (⟨S64, .f32⟩ : BufTy).Contents (Elt F) → (⟨S64, .f32⟩ : BufTy).Contents (Elt F)),
    StableHlo.unary main_v447 main_v448 (Host.rsqrt : (⟨S64, .f32⟩ : BufTy).Contents (Elt F) → (⟨S64, .f32⟩ : BufTy).Contents (Elt F)),
    StableHlo.unary main_v448 main_v449 (broadcastInDim S1x64 ![1] bcast_S64_S1x64_1 : (⟨S64, .f32⟩ : BufTy).Contents (Elt F) → (⟨S1x64, .f32⟩ : BufTy).Contents (Elt F)),
    StableHlo.unary main_v449 main_v450 (broadcastInDim S100000x64 ![0, 1] bcast_S1x64_S100000x64_0_1 : (⟨S1x64, .f32⟩ : BufTy).Contents (Elt F) → (⟨S100000x64, .f32⟩ : BufTy).Contents (Elt F)),
    StableHlo.binary main_v445 main_v450 main_v451 (mulf : (⟨S100000x64, .f32⟩ : BufTy).Contents (Elt F) → (⟨S100000x64, .f32⟩ : BufTy).Contents (Elt F) → (⟨S100000x64, .f32⟩ : BufTy).Contents (Elt F)),
    StableHlo.unary main_v436 main_v452 (broadcastInDim S1x64 ![1] bcast_S64_S1x64_1 : (⟨S64, .f32⟩ : BufTy).Contents (Elt F) → (⟨S1x64, .f32⟩ : BufTy).Contents (Elt F)),
    StableHlo.unary main_v452 main_v453 (broadcastInDim S100000x64 ![0, 1] bcast_S1x64_S100000x64_0_1 : (⟨S1x64, .f32⟩ : BufTy).Contents (Elt F) → (⟨S100000x64, .f32⟩ : BufTy).Contents (Elt F)),
    StableHlo.binary main_v451 main_v453 main_v454 (mulf : (⟨S100000x64, .f32⟩ : BufTy).Contents (Elt F) → (⟨S100000x64, .f32⟩ : BufTy).Contents (Elt F) → (⟨S100000x64, .f32⟩ : BufTy).Contents (Elt F)),
    StableHlo.unary main_v438 main_v455 (broadcastInDim S1x64 ![1] bcast_S64_S1x64_1 : (⟨S64, .f32⟩ : BufTy).Contents (Elt F) → (⟨S1x64, .f32⟩ : BufTy).Contents (Elt F)),
    StableHlo.unary main_v455 main_v456 (broadcastInDim S100000x64 ![0, 1] bcast_S1x64_S100000x64_0_1 : (⟨S1x64, .f32⟩ : BufTy).Contents (Elt F) → (⟨S100000x64, .f32⟩ : BufTy).Contents (Elt F)),
    StableHlo.binary main_v454 main_v456 main_v457 (addf : (⟨S100000x64, .f32⟩ : BufTy).Contents (Elt F) → (⟨S100000x64, .f32⟩ : BufTy).Contents (Elt F) → (⟨S100000x64, .f32⟩ : BufTy).Contents (Elt F)) ]

/-- Each touches TensorCore references only. -/
theorem rops12_sub : (rops12 : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- Each determines what it writes. -/
theorem rops12_fresh : (rops12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers written, one per operation, in order. -/
abbrev rops12_W : List (Ref sig .tc) :=
  [ main_v427, main_v428, main_v429, main_v430, main_v431, main_v432, main_v433, main_v434, main_v435, main_v436, main_v437, main_v438, main_cst_63, main_v439, main_cst_64, main_v440, main_v441, main_c_65, main_call14_cst, main_call14_v0, main_call14_v1, main_call14_cst_0, main_call14_v2, main_call14_v3, main_call14_v4, main_call14_v5, main_call14_v6, main_call14_v7, main_call14_cst_1, main_call14_v8, main_call14_cst_2, main_call14_v9, main_call14_v10, main_call14_v11, main_call14_cst_3, main_call14_v12, main_call14_cst_4, main_call14_call0_v0, main_call14_call0_v1, main_v442, main_v443, main_v444, main_v445, main_cst_66, main_v446, main_v447, main_v448, main_v449, main_v450, main_v451, main_v452, main_v453, main_v454, main_v455, main_v456, main_v457 ]

private theorem wmem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-- Every operation writes a buffer of that list. -/
theorem rops12_wsub : (rops12 : List (HloOp τ sig (Elt F))).Forall fun op =>
      op.writes ⊆ (rops12_W.map (Proc.devRef (τ := τ) .tc)).toFinset :=
  ⟨wmem (y := main_v427) (by decide),
   wmem (y := main_v428) (by decide),
   wmem (y := main_v429) (by decide),
   wmem (y := main_v430) (by decide),
   wmem (y := main_v431) (by decide),
   wmem (y := main_v432) (by decide),
   wmem (y := main_v433) (by decide),
   wmem (y := main_v434) (by decide),
   wmem (y := main_v435) (by decide),
   wmem (y := main_v436) (by decide),
   wmem (y := main_v437) (by decide),
   wmem (y := main_v438) (by decide),
   wmem (y := main_cst_63) (by decide),
   wmem (y := main_v439) (by decide),
   wmem (y := main_cst_64) (by decide),
   wmem (y := main_v440) (by decide),
   wmem (y := main_v441) (by decide),
   wmem (y := main_c_65) (by decide),
   wmem (y := main_call14_cst) (by decide),
   wmem (y := main_call14_v0) (by decide),
   wmem (y := main_call14_v1) (by decide),
   wmem (y := main_call14_cst_0) (by decide),
   wmem (y := main_call14_v2) (by decide),
   wmem (y := main_call14_v3) (by decide),
   wmem (y := main_call14_v4) (by decide),
   wmem (y := main_call14_v5) (by decide),
   wmem (y := main_call14_v6) (by decide),
   wmem (y := main_call14_v7) (by decide),
   wmem (y := main_call14_cst_1) (by decide),
   wmem (y := main_call14_v8) (by decide),
   wmem (y := main_call14_cst_2) (by decide),
   wmem (y := main_call14_v9) (by decide),
   wmem (y := main_call14_v10) (by decide),
   wmem (y := main_call14_v11) (by decide),
   wmem (y := main_call14_cst_3) (by decide),
   wmem (y := main_call14_v12) (by decide),
   wmem (y := main_call14_cst_4) (by decide),
   wmem (y := main_call14_call0_v0) (by decide),
   wmem (y := main_call14_call0_v1) (by decide),
   wmem (y := main_v442) (by decide),
   wmem (y := main_v443) (by decide),
   wmem (y := main_v444) (by decide),
   wmem (y := main_v445) (by decide),
   wmem (y := main_cst_66) (by decide),
   wmem (y := main_v446) (by decide),
   wmem (y := main_v447) (by decide),
   wmem (y := main_v448) (by decide),
   wmem (y := main_v449) (by decide),
   wmem (y := main_v450) (by decide),
   wmem (y := main_v451) (by decide),
   wmem (y := main_v452) (by decide),
   wmem (y := main_v453) (by decide),
   wmem (y := main_v454) (by decide),
   wmem (y := main_v455) (by decide),
   wmem (y := main_v456) (by decide),
   wmem (y := main_v457) (by decide)⟩

/-- A buffer outside that list keeps its contents through the chunk. -/
theorem rops12_keep (V : Valuation τ sig (Elt F)) {r : Ref sig .tc} (hr : r ∉ rops12_W) :
    StableHlo.after rops12 V (Proc.devRef .tc r) = V (Proc.devRef .tc r) :=
  StableHlo.after_of_writes_sub rops12 V rops12_wsub hr

end Cert.ReferenceIdeal.Hand

end
-- ==== Proof.RefOps13.lean ====
import proofs.«409001_j25520695673361_2_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main's operations from the statement after the one defining %457 through the one defining %483, in program order, a called function's
    operations in place of its call (over that call's buffers): 34 operations. -/
abbrev rops13 : List (HloOp τ sig (Elt F)) :=
  [ StableHlo.nullary main_cst_67 (constant S_ .f32 0x3F800000#32),
    StableHlo.unary main_cst_67 main_v458 (broadcastInDim S100000 ![] bcast_S_S100000 : (⟨S_, .f32⟩ : BufTy).Contents (Elt F) → (⟨S100000, .f32⟩ : BufTy).Contents (Elt F)),
    StableHlo.nullary main_cst_68 (constant S_ .f32 0x00000000#32),
    StableHlo.unary main_cst_68 main_v459 (broadcastInDim S64 ![] bcast_S_S64 : (⟨S_, .f32⟩ : BufTy).Contents (Elt F) → (⟨S64, .f32⟩ : BufTy).Contents (Elt F)),
    StableHlo.unary main_arg2 main_v460 (broadcastInDim S100000x1 ![0] bcast_S100000_S100000x1_0 : (⟨S100000, .i32⟩ : BufTy).Contents (Elt F) → (⟨S100000x1, .i32⟩ : BufTy).Contents (Elt F)),
    StableHlo.ternary main_v459 main_v460 main_v458 main_v461 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_69 (constant S_ .f32 0x00000000#32),
    StableHlo.unary main_cst_69 main_v462 (broadcastInDim S64x64 ![] bcast_S_S64x64 : (⟨S_, .f32⟩ : BufTy).Contents (Elt F) → (⟨S64x64, .f32⟩ : BufTy).Contents (Elt F)),
    StableHlo.unary main_arg2 main_v463 (broadcastInDim S100000x1 ![0] bcast_S100000_S100000x1_0 : (⟨S100000, .i32⟩ : BufTy).Contents (Elt F) → (⟨S100000x1, .i32⟩ : BufTy).Contents (Elt F)),
    StableHlo.ternary main_v462 main_v463 main_v457 main_v464 ((fun x i u => Host.scatterAdd scatter_S64x64_S100000x1_S100000x64_1_0_0_1 x i u) : (⟨S64x64, .f32⟩ : BufTy).Contents (Elt F) → (⟨S100000x1, .i32⟩ : BufTy).Contents (Elt F) → (⟨S100000x64, .f32⟩ : BufTy).Contents (Elt F) → (⟨S64x64, .f32⟩ : BufTy).Contents (Elt F)),
    StableHlo.nullary main_cst_70 (constant S_ .f32 0x3F800000#32),
    StableHlo.unary main_cst_70 main_v465 (broadcastInDim S64 ![] bcast_S_S64 : (⟨S_, .f32⟩ : BufTy).Contents (Elt F) → (⟨S64, .f32⟩ : BufTy).Contents (Elt F)),
    StableHlo.binary main_v461 main_v465 main_v466 (maximumf : (⟨S64, .f32⟩ : BufTy).Contents (Elt F) → (⟨S64, .f32⟩ : BufTy).Contents (Elt F) → (⟨S64, .f32⟩ : BufTy).Contents (Elt F)),
    StableHlo.unary main_v466 main_v467 (broadcastInDim S64x1 ![0] bcast_S64_S64x1_0 : (⟨S64, .f32⟩ : BufTy).Contents (Elt F) → (⟨S64x1, .f32⟩ : BufTy).Contents (Elt F)),
    StableHlo.unary main_v467 main_v468 (broadcastInDim S64x64 ![0, 1] bcast_S64x1_S64x64_0_1 : (⟨S64x1, .f32⟩ : BufTy).Contents (Elt F) → (⟨S64x64, .f32⟩ : BufTy).Contents (Elt F)),
    StableHlo.binary main_v464 main_v468 main_v469 (Host.divf : (⟨S64x64, .f32⟩ : BufTy).Contents (Elt F) → (⟨S64x64, .f32⟩ : BufTy).Contents (Elt F) → (⟨S64x64, .f32⟩ : BufTy).Contents (Elt F)),
    StableHlo.binary main_v469 main_arg13 main_v470 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.unary main_arg14 main_v471 (broadcastInDim S1x64 ![1] bcast_S64_S1x64_1 : (⟨S64, .f32⟩ : BufTy).Contents (Elt F) → (⟨S1x64, .f32⟩ : BufTy).Contents (Elt F)),
    StableHlo.unary main_v471 main_v472 (broadcastInDim S64x64 ![0, 1] bcast_S1x64_S64x64_0_1 : (⟨S1x64, .f32⟩ : BufTy).Contents (Elt F) → (⟨S64x64, .f32⟩ : BufTy).Contents (Elt F)),
    StableHlo.binary main_v470 main_v472 main_v473 (addf : (⟨S64x64, .f32⟩ : BufTy).Contents (Elt F) → (⟨S64x64, .f32⟩ : BufTy).Contents (Elt F) → (⟨S64x64, .f32⟩ : BufTy).Contents (Elt F)),
    StableHlo.TRef.nullary (.of main_call15_cst : StableHlo.TRef sig ⟨S_, .f32⟩) (constant S_ .f32 0x00000000#32),
    StableHlo.TRef.unary (.of main_call15_cst : StableHlo.TRef sig ⟨S_, .f32⟩) (.of main_call15_v0 : StableHlo.TRef sig ⟨S64x64, .f32⟩) (broadcastInDim S64x64 ![] bcast_S_S64x64),
    StableHlo.TRef.binary (.of main_v473 : StableHlo.TRef sig ⟨S64x64, .f32⟩) (.of main_call15_v0 : StableHlo.TRef sig ⟨S64x64, .f32⟩) (.of main_v474 : StableHlo.TRef sig ⟨S64x64, .f32⟩) maximumf,
    StableHlo.binary main_v474 main_arg15 main_v475 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.unary main_arg16 main_v476 (broadcastInDim S1x64 ![1] bcast_S64_S1x64_1 : (⟨S64, .f32⟩ : BufTy).Contents (Elt F) → (⟨S1x64, .f32⟩ : BufTy).Contents (Elt F)),
    StableHlo.unary main_v476 main_v477 (broadcastInDim S64x64 ![0, 1] bcast_S1x64_S64x64_0_1 : (⟨S1x64, .f32⟩ : BufTy).Contents (Elt F) → (⟨S64x64, .f32⟩ : BufTy).Contents (Elt F)),
    StableHlo.binary main_v475 main_v477 main_v478 (addf : (⟨S64x64, .f32⟩ : BufTy).Contents (Elt F) → (⟨S64x64, .f32⟩ : BufTy).Contents (Elt F) → (⟨S64x64, .f32⟩ : BufTy).Contents (Elt F)),
    StableHlo.TRef.nullary (.of main_call16_cst : StableHlo.TRef sig ⟨S_, .f32⟩) (constant S_ .f32 0x00000000#32),
    StableHlo.TRef.unary (.of main_call16_cst : StableHlo.TRef sig ⟨S_, .f32⟩) (.of main_call16_v0 : StableHlo.TRef sig ⟨S64x64, .f32⟩) (broadcastInDim S64x64 ![] bcast_S_S64x64),
    StableHlo.TRef.binary (.of main_v478 : StableHlo.TRef sig ⟨S64x64, .f32⟩) (.of main_call16_v0 : StableHlo.TRef sig ⟨S64x64, .f32⟩) (.of main_v479 : StableHlo.TRef sig ⟨S64x64, .f32⟩) maximumf,
    StableHlo.binary main_v479 main_arg17 main_v480 ((fun l r => Host.dotGeneral dot_S64x64_S64x2_S64x2_1_0_0_1_n_n none l r) : (⟨S64x64, .f32⟩ : BufTy).Contents (Elt F) → (⟨S64x2, .f32⟩ : BufTy).Contents (Elt F) → (⟨S64x2, .f32⟩ : BufTy).Contents (Elt F)),
    StableHlo.unary main_arg18 main_v481 (broadcastInDim S1x2 ![1] bcast_S2_S1x2_1 : (⟨S2, .f32⟩ : BufTy).Contents (Elt F) → (⟨S1x2, .f32⟩ : BufTy).Contents (Elt F)),
    StableHlo.unary main_v481 main_v482 (broadcastInDim S64x2 ![0, 1] bcast_S1x2_S64x2_0_1 : (⟨S1x2, .f32⟩ : BufTy).Contents (Elt F) → (⟨S64x2, .f32⟩ : BufTy).Contents (Elt F)),
    StableHlo.binary main_v480 main_v482 main_v483 (addf : (⟨S64x2, .f32⟩ : BufTy).Contents (Elt F) → (⟨S64x2, .f32⟩ : BufTy).Contents (Elt F) → (⟨S64x2, .f32⟩ : BufTy).Contents (Elt F)) ]

/-- Each touches TensorCore references only. -/
theorem rops13_sub : (rops13 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

/-- Each determines what it writes. -/
theorem rops13_fresh : (rops13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers written, one per operation, in order. -/
abbrev rops13_W : List (Ref sig .tc) :=
  [ main_cst_67, main_v458, main_cst_68, main_v459, main_v460, main_v461, main_cst_69, main_v462, main_v463, main_v464, main_cst_70, main_v465, main_v466, main_v467, main_v468, main_v469, main_v470, main_v471, main_v472, main_v473, main_call15_cst, main_call15_v0, main_v474, main_v475, main_v476, main_v477, main_v478, main_call16_cst, main_call16_v0, main_v479, main_v480, main_v481, main_v482, main_v483 ]

private theorem wmem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-- Every operation writes a buffer of that list. -/
theorem rops13_wsub : (rops13 : List (HloOp τ sig (Elt F))).Forall fun op =>
      op.writes ⊆ (rops13_W.map (Proc.devRef (τ := τ) .tc)).toFinset :=
  ⟨wmem (y := main_cst_67) (by decide),
   wmem (y := main_v458) (by decide),
   wmem (y := main_cst_68) (by decide),
   wmem (y := main_v459) (by decide),
   wmem (y := main_v460) (by decide),
   wmem (y := main_v461) (by decide),
   wmem (y := main_cst_69) (by decide),
   wmem (y := main_v462) (by decide),
   wmem (y := main_v463) (by decide),
   wmem (y := main_v464) (by decide),
   wmem (y := main_cst_70) (by decide),
   wmem (y := main_v465) (by decide),
   wmem (y := main_v466) (by decide),
   wmem (y := main_v467) (by decide),
   wmem (y := main_v468) (by decide),
   wmem (y := main_v469) (by decide),
   wmem (y := main_v470) (by decide),
   wmem (y := main_v471) (by decide),
   wmem (y := main_v472) (by decide),
   wmem (y := main_v473) (by decide),
   wmem (y := main_call15_cst) (by decide),
   wmem (y := main_call15_v0) (by decide),
   wmem (y := main_v474) (by decide),
   wmem (y := main_v475) (by decide),
   wmem (y := main_v476) (by decide),
   wmem (y := main_v477) (by decide),
   wmem (y := main_v478) (by decide),
   wmem (y := main_call16_cst) (by decide),
   wmem (y := main_call16_v0) (by decide),
   wmem (y := main_v479) (by decide),
   wmem (y := main_v480) (by decide),
   wmem (y := main_v481) (by decide),
   wmem (y := main_v482) (by decide),
   wmem (y := main_v483) (by decide)⟩

/-- A buffer outside that list keeps its contents through the chunk. -/
theorem rops13_keep (V : Valuation τ sig (Elt F)) {r : Ref sig .tc} (hr : r ∉ rops13_W) :
    StableHlo.after rops13 V (Proc.devRef .tc r) = V (Proc.devRef .tc r) :=
  StableHlo.after_of_writes_sub rops13 V rops13_wsub hr

end Cert.ReferenceIdeal.Hand

end
-- ==== Proof.RefVal.lean ====
import proofs.«409001_j25520695673361_2_alg».proof.Proof.Gen.ReferenceIdeal
import Idealize.ShloMosaic.Lib.StableHlo.Run
import proofs.«409001_j25520695673361_2_alg».proof.Proof.RefOps0
import proofs.«409001_j25520695673361_2_alg».proof.Proof.RefOps1
import proofs.«409001_j25520695673361_2_alg».proof.Proof.RefOps2
import proofs.«409001_j25520695673361_2_alg».proof.Proof.RefOps3
import proofs.«409001_j25520695673361_2_alg».proof.Proof.RefOps4
import proofs.«409001_j25520695673361_2_alg».proof.Proof.RefOps5
import proofs.«409001_j25520695673361_2_alg».proof.Proof.RefOps6
import proofs.«409001_j25520695673361_2_alg».proof.Proof.RefOps7
import proofs.«409001_j25520695673361_2_alg».proof.Proof.RefOps8
import proofs.«409001_j25520695673361_2_alg».proof.Proof.RefOps9
import proofs.«409001_j25520695673361_2_alg».proof.Proof.RefOps10
import proofs.«409001_j25520695673361_2_alg».proof.Proof.RefOps11
import proofs.«409001_j25520695673361_2_alg».proof.Proof.RefOps12
import proofs.«409001_j25520695673361_2_alg».proof.Proof.RefOps13
set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

variable (m : (ℓ : Loc nD τ sig) → Buf (Elt F) ℓ) (c : Dev nD)

/-- The device's buffers at launch. -/
abbrev RV0 : Valuation τ sig (Elt F) := StableHlo.launchContents m c
/-- After chunk 0 (through the statement defining %10). -/
abbrev RV1 : Valuation τ sig (Elt F) := StableHlo.after rops0 (RV0 m c)
/-- After chunk 1 (through the statement defining %42). -/
abbrev RV2 : Valuation τ sig (Elt F) := StableHlo.after rops1 (RV1 m c)
/-- After chunk 2 (through the statement defining %74). -/
abbrev RV3 : Valuation τ sig (Elt F) := StableHlo.after rops2 (RV2 m c)
/-- After chunk 3 (through the statement defining %105). -/
abbrev RV4 : Valuation τ sig (Elt F) := StableHlo.after rops3 (RV3 m c)
/-- After chunk 4 (through the statement defining %148). -/
abbrev RV5 : Valuation τ sig (Elt F) := StableHlo.after rops4 (RV4 m c)
/-- After chunk 5 (through the statement defining %191). -/
abbrev RV6 : Valuation τ sig (Elt F) := StableHlo.after rops5 (RV5 m c)
/-- After chunk 6 (through the statement defining %234). -/
abbrev RV7 : Valuation τ sig (Elt F) := StableHlo.after rops6 (RV6 m c)
/-- After chunk 7 (through the statement defining %277). -/
abbrev RV8 : Valuation τ sig (Elt F) := StableHlo.after rops7 (RV7 m c)
/-- After chunk 8 (through the statement defining %320). -/
abbrev RV9 : Valuation τ sig (Elt F) := StableHlo.after rops8 (RV8 m c)
/-- After chunk 9 (through the statement defining %362). -/
abbrev RV10 : Valuation τ sig (Elt F) := StableHlo.after rops9 (RV9 m c)
/-- After chunk 10 (through the statement defining %394). -/
abbrev RV11 : Valuation τ sig (Elt F) := StableHlo.after rops10 (RV10 m c)
/-- After chunk 11 (through the statement defining %426). -/
abbrev RV12 : Valuation τ sig (Elt F) := StableHlo.after rops11 (RV11 m c)
/-- After chunk 12 (through the statement defining %457). -/
abbrev RV13 : Valuation τ sig (Elt F) := StableHlo.after rops12 (RV12 m c)
/-- After chunk 13 (through the statement defining %483). -/
abbrev RV14 : Valuation τ sig (Elt F) := StableHlo.after rops13 (RV13 m c)

theorem RV0_at (b : Ref sig .tc) : RV0 m c (Proc.devRef .tc b) = m ((c.tc : Thread nD τ).loc b) := rfl

/-! ## The arguments keep their launch contents: no operation writes one -/

theorem RV1_arg0 : RV1 m c (Proc.devRef .tc main_arg0) = m ((c.tc : Thread nD τ).loc main_arg0) :=
  (rops0_keep (RV0 m c) (r := main_arg0) (by decide)).trans (RV0_at m c main_arg0)
theorem RV1_arg1 : RV1 m c (Proc.devRef .tc main_arg1) = m ((c.tc : Thread nD τ).loc main_arg1) :=
  (rops0_keep (RV0 m c) (r := main_arg1) (by decide)).trans (RV0_at m c main_arg1)
theorem RV1_arg2 : RV1 m c (Proc.devRef .tc main_arg2) = m ((c.tc : Thread nD τ).loc main_arg2) :=
  (rops0_keep (RV0 m c) (r := main_arg2) (by decide)).trans (RV0_at m c main_arg2)
theorem RV1_arg3 : RV1 m c (Proc.devRef .tc main_arg3) = m ((c.tc : Thread nD τ).loc main_arg3) :=
  (rops0_keep (RV0 m c) (r := main_arg3) (by decide)).trans (RV0_at m c main_arg3)
theorem RV1_arg4 : RV1 m c (Proc.devRef .tc main_arg4) = m ((c.tc : Thread nD τ).loc main_arg4) :=
  (rops0_keep (RV0 m c) (r := main_arg4) (by decide)).trans (RV0_at m c main_arg4)
theorem RV1_arg5 : RV1 m c (Proc.devRef .tc main_arg5) = m ((c.tc : Thread nD τ).loc main_arg5) :=
  (rops0_keep (RV0 m c) (r := main_arg5) (by decide)).trans (RV0_at m c main_arg5)
theorem RV1_arg6 : RV1 m c (Proc.devRef .tc main_arg6) = m ((c.tc : Thread nD τ).loc main_arg6) :=
  (rops0_keep (RV0 m c) (r := main_arg6) (by decide)).trans (RV0_at m c main_arg6)
theorem RV1_arg7 : RV1 m c (Proc.devRef .tc main_arg7) = m ((c.tc : Thread nD τ).loc main_arg7) :=
  (rops0_keep (RV0 m c) (r := main_arg7) (by decide)).trans (RV0_at m c main_arg7)
theorem RV1_arg8 : RV1 m c (Proc.devRef .tc main_arg8) = m ((c.tc : Thread nD τ).loc main_arg8) :=
  (rops0_keep (RV0 m c) (r := main_arg8) (by decide)).trans (RV0_at m c main_arg8)
theorem RV1_arg9 : RV1 m c (Proc.devRef .tc main_arg9) = m ((c.tc : Thread nD τ).loc main_arg9) :=
  (rops0_keep (RV0 m c) (r := main_arg9) (by decide)).trans (RV0_at m c main_arg9)
theorem RV1_arg10 : RV1 m c (Proc.devRef .tc main_arg10) = m ((c.tc : Thread nD τ).loc main_arg10) :=
  (rops0_keep (RV0 m c) (r := main_arg10) (by decide)).trans (RV0_at m c main_arg10)
theorem RV1_arg11 : RV1 m c (Proc.devRef .tc main_arg11) = m ((c.tc : Thread nD τ).loc main_arg11) :=
  (rops0_keep (RV0 m c) (r := main_arg11) (by decide)).trans (RV0_at m c main_arg11)
theorem RV1_arg12 : RV1 m c (Proc.devRef .tc main_arg12) = m ((c.tc : Thread nD τ).loc main_arg12) :=
  (rops0_keep (RV0 m c) (r := main_arg12) (by decide)).trans (RV0_at m c main_arg12)
theorem RV1_arg13 : RV1 m c (Proc.devRef .tc main_arg13) = m ((c.tc : Thread nD τ).loc main_arg13) :=
  (rops0_keep (RV0 m c) (r := main_arg13) (by decide)).trans (RV0_at m c main_arg13)
theorem RV1_arg14 : RV1 m c (Proc.devRef .tc main_arg14) = m ((c.tc : Thread nD τ).loc main_arg14) :=
  (rops0_keep (RV0 m c) (r := main_arg14) (by decide)).trans (RV0_at m c main_arg14)
theorem RV1_arg15 : RV1 m c (Proc.devRef .tc main_arg15) = m ((c.tc : Thread nD τ).loc main_arg15) :=
  (rops0_keep (RV0 m c) (r := main_arg15) (by decide)).trans (RV0_at m c main_arg15)
theorem RV1_arg16 : RV1 m c (Proc.devRef .tc main_arg16) = m ((c.tc : Thread nD τ).loc main_arg16) :=
  (rops0_keep (RV0 m c) (r := main_arg16) (by decide)).trans (RV0_at m c main_arg16)
theorem RV1_arg17 : RV1 m c (Proc.devRef .tc main_arg17) = m ((c.tc : Thread nD τ).loc main_arg17) :=
  (rops0_keep (RV0 m c) (r := main_arg17) (by decide)).trans (RV0_at m c main_arg17)
theorem RV1_arg18 : RV1 m c (Proc.devRef .tc main_arg18) = m ((c.tc : Thread nD τ).loc main_arg18) :=
  (rops0_keep (RV0 m c) (r := main_arg18) (by decide)).trans (RV0_at m c main_arg18)
theorem RV2_arg0 : RV2 m c (Proc.devRef .tc main_arg0) = m ((c.tc : Thread nD τ).loc main_arg0) :=
  (rops1_keep (RV1 m c) (r := main_arg0) (by decide)).trans (RV1_arg0 m c)
theorem RV2_arg1 : RV2 m c (Proc.devRef .tc main_arg1) = m ((c.tc : Thread nD τ).loc main_arg1) :=
  (rops1_keep (RV1 m c) (r := main_arg1) (by decide)).trans (RV1_arg1 m c)
theorem RV2_arg2 : RV2 m c (Proc.devRef .tc main_arg2) = m ((c.tc : Thread nD τ).loc main_arg2) :=
  (rops1_keep (RV1 m c) (r := main_arg2) (by decide)).trans (RV1_arg2 m c)
theorem RV2_arg3 : RV2 m c (Proc.devRef .tc main_arg3) = m ((c.tc : Thread nD τ).loc main_arg3) :=
  (rops1_keep (RV1 m c) (r := main_arg3) (by decide)).trans (RV1_arg3 m c)
theorem RV2_arg4 : RV2 m c (Proc.devRef .tc main_arg4) = m ((c.tc : Thread nD τ).loc main_arg4) :=
  (rops1_keep (RV1 m c) (r := main_arg4) (by decide)).trans (RV1_arg4 m c)
theorem RV2_arg5 : RV2 m c (Proc.devRef .tc main_arg5) = m ((c.tc : Thread nD τ).loc main_arg5) :=
  (rops1_keep (RV1 m c) (r := main_arg5) (by decide)).trans (RV1_arg5 m c)
theorem RV2_arg6 : RV2 m c (Proc.devRef .tc main_arg6) = m ((c.tc : Thread nD τ).loc main_arg6) :=
  (rops1_keep (RV1 m c) (r := main_arg6) (by decide)).trans (RV1_arg6 m c)
theorem RV2_arg7 : RV2 m c (Proc.devRef .tc main_arg7) = m ((c.tc : Thread nD τ).loc main_arg7) :=
  (rops1_keep (RV1 m c) (r := main_arg7) (by decide)).trans (RV1_arg7 m c)
theorem RV2_arg8 : RV2 m c (Proc.devRef .tc main_arg8) = m ((c.tc : Thread nD τ).loc main_arg8) :=
  (rops1_keep (RV1 m c) (r := main_arg8) (by decide)).trans (RV1_arg8 m c)
theorem RV2_arg9 : RV2 m c (Proc.devRef .tc main_arg9) = m ((c.tc : Thread nD τ).loc main_arg9) :=
  (rops1_keep (RV1 m c) (r := main_arg9) (by decide)).trans (RV1_arg9 m c)
theorem RV2_arg10 : RV2 m c (Proc.devRef .tc main_arg10) = m ((c.tc : Thread nD τ).loc main_arg10) :=
  (rops1_keep (RV1 m c) (r := main_arg10) (by decide)).trans (RV1_arg10 m c)
theorem RV2_arg11 : RV2 m c (Proc.devRef .tc main_arg11) = m ((c.tc : Thread nD τ).loc main_arg11) :=
  (rops1_keep (RV1 m c) (r := main_arg11) (by decide)).trans (RV1_arg11 m c)
theorem RV2_arg12 : RV2 m c (Proc.devRef .tc main_arg12) = m ((c.tc : Thread nD τ).loc main_arg12) :=
  (rops1_keep (RV1 m c) (r := main_arg12) (by decide)).trans (RV1_arg12 m c)
theorem RV2_arg13 : RV2 m c (Proc.devRef .tc main_arg13) = m ((c.tc : Thread nD τ).loc main_arg13) :=
  (rops1_keep (RV1 m c) (r := main_arg13) (by decide)).trans (RV1_arg13 m c)
theorem RV2_arg14 : RV2 m c (Proc.devRef .tc main_arg14) = m ((c.tc : Thread nD τ).loc main_arg14) :=
  (rops1_keep (RV1 m c) (r := main_arg14) (by decide)).trans (RV1_arg14 m c)
theorem RV2_arg15 : RV2 m c (Proc.devRef .tc main_arg15) = m ((c.tc : Thread nD τ).loc main_arg15) :=
  (rops1_keep (RV1 m c) (r := main_arg15) (by decide)).trans (RV1_arg15 m c)
theorem RV2_arg16 : RV2 m c (Proc.devRef .tc main_arg16) = m ((c.tc : Thread nD τ).loc main_arg16) :=
  (rops1_keep (RV1 m c) (r := main_arg16) (by decide)).trans (RV1_arg16 m c)
theorem RV2_arg17 : RV2 m c (Proc.devRef .tc main_arg17) = m ((c.tc : Thread nD τ).loc main_arg17) :=
  (rops1_keep (RV1 m c) (r := main_arg17) (by decide)).trans (RV1_arg17 m c)
theorem RV2_arg18 : RV2 m c (Proc.devRef .tc main_arg18) = m ((c.tc : Thread nD τ).loc main_arg18) :=
  (rops1_keep (RV1 m c) (r := main_arg18) (by decide)).trans (RV1_arg18 m c)
theorem RV3_arg0 : RV3 m c (Proc.devRef .tc main_arg0) = m ((c.tc : Thread nD τ).loc main_arg0) :=
  (rops2_keep (RV2 m c) (r := main_arg0) (by decide)).trans (RV2_arg0 m c)
theorem RV3_arg1 : RV3 m c (Proc.devRef .tc main_arg1) = m ((c.tc : Thread nD τ).loc main_arg1) :=
  (rops2_keep (RV2 m c) (r := main_arg1) (by decide)).trans (RV2_arg1 m c)
theorem RV3_arg2 : RV3 m c (Proc.devRef .tc main_arg2) = m ((c.tc : Thread nD τ).loc main_arg2) :=
  (rops2_keep (RV2 m c) (r := main_arg2) (by decide)).trans (RV2_arg2 m c)
theorem RV3_arg3 : RV3 m c (Proc.devRef .tc main_arg3) = m ((c.tc : Thread nD τ).loc main_arg3) :=
  (rops2_keep (RV2 m c) (r := main_arg3) (by decide)).trans (RV2_arg3 m c)
theorem RV3_arg4 : RV3 m c (Proc.devRef .tc main_arg4) = m ((c.tc : Thread nD τ).loc main_arg4) :=
  (rops2_keep (RV2 m c) (r := main_arg4) (by decide)).trans (RV2_arg4 m c)
theorem RV3_arg5 : RV3 m c (Proc.devRef .tc main_arg5) = m ((c.tc : Thread nD τ).loc main_arg5) :=
  (rops2_keep (RV2 m c) (r := main_arg5) (by decide)).trans (RV2_arg5 m c)
theorem RV3_arg6 : RV3 m c (Proc.devRef .tc main_arg6) = m ((c.tc : Thread nD τ).loc main_arg6) :=
  (rops2_keep (RV2 m c) (r := main_arg6) (by decide)).trans (RV2_arg6 m c)
theorem RV3_arg7 : RV3 m c (Proc.devRef .tc main_arg7) = m ((c.tc : Thread nD τ).loc main_arg7) :=
  (rops2_keep (RV2 m c) (r := main_arg7) (by decide)).trans (RV2_arg7 m c)
theorem RV3_arg8 : RV3 m c (Proc.devRef .tc main_arg8) = m ((c.tc : Thread nD τ).loc main_arg8) :=
  (rops2_keep (RV2 m c) (r := main_arg8) (by decide)).trans (RV2_arg8 m c)
theorem RV3_arg9 : RV3 m c (Proc.devRef .tc main_arg9) = m ((c.tc : Thread nD τ).loc main_arg9) :=
  (rops2_keep (RV2 m c) (r := main_arg9) (by decide)).trans (RV2_arg9 m c)
theorem RV3_arg10 : RV3 m c (Proc.devRef .tc main_arg10) = m ((c.tc : Thread nD τ).loc main_arg10) :=
  (rops2_keep (RV2 m c) (r := main_arg10) (by decide)).trans (RV2_arg10 m c)
theorem RV3_arg11 : RV3 m c (Proc.devRef .tc main_arg11) = m ((c.tc : Thread nD τ).loc main_arg11) :=
  (rops2_keep (RV2 m c) (r := main_arg11) (by decide)).trans (RV2_arg11 m c)
theorem RV3_arg12 : RV3 m c (Proc.devRef .tc main_arg12) = m ((c.tc : Thread nD τ).loc main_arg12) :=
  (rops2_keep (RV2 m c) (r := main_arg12) (by decide)).trans (RV2_arg12 m c)
theorem RV3_arg13 : RV3 m c (Proc.devRef .tc main_arg13) = m ((c.tc : Thread nD τ).loc main_arg13) :=
  (rops2_keep (RV2 m c) (r := main_arg13) (by decide)).trans (RV2_arg13 m c)
theorem RV3_arg14 : RV3 m c (Proc.devRef .tc main_arg14) = m ((c.tc : Thread nD τ).loc main_arg14) :=
  (rops2_keep (RV2 m c) (r := main_arg14) (by decide)).trans (RV2_arg14 m c)
theorem RV3_arg15 : RV3 m c (Proc.devRef .tc main_arg15) = m ((c.tc : Thread nD τ).loc main_arg15) :=
  (rops2_keep (RV2 m c) (r := main_arg15) (by decide)).trans (RV2_arg15 m c)
theorem RV3_arg16 : RV3 m c (Proc.devRef .tc main_arg16) = m ((c.tc : Thread nD τ).loc main_arg16) :=
  (rops2_keep (RV2 m c) (r := main_arg16) (by decide)).trans (RV2_arg16 m c)
theorem RV3_arg17 : RV3 m c (Proc.devRef .tc main_arg17) = m ((c.tc : Thread nD τ).loc main_arg17) :=
  (rops2_keep (RV2 m c) (r := main_arg17) (by decide)).trans (RV2_arg17 m c)
theorem RV3_arg18 : RV3 m c (Proc.devRef .tc main_arg18) = m ((c.tc : Thread nD τ).loc main_arg18) :=
  (rops2_keep (RV2 m c) (r := main_arg18) (by decide)).trans (RV2_arg18 m c)
theorem RV4_arg0 : RV4 m c (Proc.devRef .tc main_arg0) = m ((c.tc : Thread nD τ).loc main_arg0) :=
  (rops3_keep (RV3 m c) (r := main_arg0) (by decide)).trans (RV3_arg0 m c)
theorem RV4_arg1 : RV4 m c (Proc.devRef .tc main_arg1) = m ((c.tc : Thread nD τ).loc main_arg1) :=
  (rops3_keep (RV3 m c) (r := main_arg1) (by decide)).trans (RV3_arg1 m c)
theorem RV4_arg2 : RV4 m c (Proc.devRef .tc main_arg2) = m ((c.tc : Thread nD τ).loc main_arg2) :=
  (rops3_keep (RV3 m c) (r := main_arg2) (by decide)).trans (RV3_arg2 m c)
theorem RV4_arg3 : RV4 m c (Proc.devRef .tc main_arg3) = m ((c.tc : Thread nD τ).loc main_arg3) :=
  (rops3_keep (RV3 m c) (r := main_arg3) (by decide)).trans (RV3_arg3 m c)
theorem RV4_arg4 : RV4 m c (Proc.devRef .tc main_arg4) = m ((c.tc : Thread nD τ).loc main_arg4) :=
  (rops3_keep (RV3 m c) (r := main_arg4) (by decide)).trans (RV3_arg4 m c)
theorem RV4_arg5 : RV4 m c (Proc.devRef .tc main_arg5) = m ((c.tc : Thread nD τ).loc main_arg5) :=
  (rops3_keep (RV3 m c) (r := main_arg5) (by decide)).trans (RV3_arg5 m c)
theorem RV4_arg6 : RV4 m c (Proc.devRef .tc main_arg6) = m ((c.tc : Thread nD τ).loc main_arg6) :=
  (rops3_keep (RV3 m c) (r := main_arg6) (by decide)).trans (RV3_arg6 m c)
theorem RV4_arg7 : RV4 m c (Proc.devRef .tc main_arg7) = m ((c.tc : Thread nD τ).loc main_arg7) :=
  (rops3_keep (RV3 m c) (r := main_arg7) (by decide)).trans (RV3_arg7 m c)
theorem RV4_arg8 : RV4 m c (Proc.devRef .tc main_arg8) = m ((c.tc : Thread nD τ).loc main_arg8) :=
  (rops3_keep (RV3 m c) (r := main_arg8) (by decide)).trans (RV3_arg8 m c)
theorem RV4_arg9 : RV4 m c (Proc.devRef .tc main_arg9) = m ((c.tc : Thread nD τ).loc main_arg9) :=
  (rops3_keep (RV3 m c) (r := main_arg9) (by decide)).trans (RV3_arg9 m c)
theorem RV4_arg10 : RV4 m c (Proc.devRef .tc main_arg10) = m ((c.tc : Thread nD τ).loc main_arg10) :=
  (rops3_keep (RV3 m c) (r := main_arg10) (by decide)).trans (RV3_arg10 m c)
theorem RV4_arg11 : RV4 m c (Proc.devRef .tc main_arg11) = m ((c.tc : Thread nD τ).loc main_arg11) :=
  (rops3_keep (RV3 m c) (r := main_arg11) (by decide)).trans (RV3_arg11 m c)
theorem RV4_arg12 : RV4 m c (Proc.devRef .tc main_arg12) = m ((c.tc : Thread nD τ).loc main_arg12) :=
  (rops3_keep (RV3 m c) (r := main_arg12) (by decide)).trans (RV3_arg12 m c)
theorem RV4_arg13 : RV4 m c (Proc.devRef .tc main_arg13) = m ((c.tc : Thread nD τ).loc main_arg13) :=
  (rops3_keep (RV3 m c) (r := main_arg13) (by decide)).trans (RV3_arg13 m c)
theorem RV4_arg14 : RV4 m c (Proc.devRef .tc main_arg14) = m ((c.tc : Thread nD τ).loc main_arg14) :=
  (rops3_keep (RV3 m c) (r := main_arg14) (by decide)).trans (RV3_arg14 m c)
theorem RV4_arg15 : RV4 m c (Proc.devRef .tc main_arg15) = m ((c.tc : Thread nD τ).loc main_arg15) :=
  (rops3_keep (RV3 m c) (r := main_arg15) (by decide)).trans (RV3_arg15 m c)
theorem RV4_arg16 : RV4 m c (Proc.devRef .tc main_arg16) = m ((c.tc : Thread nD τ).loc main_arg16) :=
  (rops3_keep (RV3 m c) (r := main_arg16) (by decide)).trans (RV3_arg16 m c)
theorem RV4_arg17 : RV4 m c (Proc.devRef .tc main_arg17) = m ((c.tc : Thread nD τ).loc main_arg17) :=
  (rops3_keep (RV3 m c) (r := main_arg17) (by decide)).trans (RV3_arg17 m c)
theorem RV4_arg18 : RV4 m c (Proc.devRef .tc main_arg18) = m ((c.tc : Thread nD τ).loc main_arg18) :=
  (rops3_keep (RV3 m c) (r := main_arg18) (by decide)).trans (RV3_arg18 m c)
theorem RV5_arg0 : RV5 m c (Proc.devRef .tc main_arg0) = m ((c.tc : Thread nD τ).loc main_arg0) :=
  (rops4_keep (RV4 m c) (r := main_arg0) (by decide)).trans (RV4_arg0 m c)
theorem RV5_arg1 : RV5 m c (Proc.devRef .tc main_arg1) = m ((c.tc : Thread nD τ).loc main_arg1) :=
  (rops4_keep (RV4 m c) (r := main_arg1) (by decide)).trans (RV4_arg1 m c)
theorem RV5_arg2 : RV5 m c (Proc.devRef .tc main_arg2) = m ((c.tc : Thread nD τ).loc main_arg2) :=
  (rops4_keep (RV4 m c) (r := main_arg2) (by decide)).trans (RV4_arg2 m c)
theorem RV5_arg3 : RV5 m c (Proc.devRef .tc main_arg3) = m ((c.tc : Thread nD τ).loc main_arg3) :=
  (rops4_keep (RV4 m c) (r := main_arg3) (by decide)).trans (RV4_arg3 m c)
theorem RV5_arg4 : RV5 m c (Proc.devRef .tc main_arg4) = m ((c.tc : Thread nD τ).loc main_arg4) :=
  (rops4_keep (RV4 m c) (r := main_arg4) (by decide)).trans (RV4_arg4 m c)
theorem RV5_arg5 : RV5 m c (Proc.devRef .tc main_arg5) = m ((c.tc : Thread nD τ).loc main_arg5) :=
  (rops4_keep (RV4 m c) (r := main_arg5) (by decide)).trans (RV4_arg5 m c)
theorem RV5_arg6 : RV5 m c (Proc.devRef .tc main_arg6) = m ((c.tc : Thread nD τ).loc main_arg6) :=
  (rops4_keep (RV4 m c) (r := main_arg6) (by decide)).trans (RV4_arg6 m c)
theorem RV5_arg7 : RV5 m c (Proc.devRef .tc main_arg7) = m ((c.tc : Thread nD τ).loc main_arg7) :=
  (rops4_keep (RV4 m c) (r := main_arg7) (by decide)).trans (RV4_arg7 m c)
theorem RV5_arg8 : RV5 m c (Proc.devRef .tc main_arg8) = m ((c.tc : Thread nD τ).loc main_arg8) :=
  (rops4_keep (RV4 m c) (r := main_arg8) (by decide)).trans (RV4_arg8 m c)
theorem RV5_arg9 : RV5 m c (Proc.devRef .tc main_arg9) = m ((c.tc : Thread nD τ).loc main_arg9) :=
  (rops4_keep (RV4 m c) (r := main_arg9) (by decide)).trans (RV4_arg9 m c)
theorem RV5_arg10 : RV5 m c (Proc.devRef .tc main_arg10) = m ((c.tc : Thread nD τ).loc main_arg10) :=
  (rops4_keep (RV4 m c) (r := main_arg10) (by decide)).trans (RV4_arg10 m c)
theorem RV5_arg11 : RV5 m c (Proc.devRef .tc main_arg11) = m ((c.tc : Thread nD τ).loc main_arg11) :=
  (rops4_keep (RV4 m c) (r := main_arg11) (by decide)).trans (RV4_arg11 m c)
theorem RV5_arg12 : RV5 m c (Proc.devRef .tc main_arg12) = m ((c.tc : Thread nD τ).loc main_arg12) :=
  (rops4_keep (RV4 m c) (r := main_arg12) (by decide)).trans (RV4_arg12 m c)
theorem RV5_arg13 : RV5 m c (Proc.devRef .tc main_arg13) = m ((c.tc : Thread nD τ).loc main_arg13) :=
  (rops4_keep (RV4 m c) (r := main_arg13) (by decide)).trans (RV4_arg13 m c)
theorem RV5_arg14 : RV5 m c (Proc.devRef .tc main_arg14) = m ((c.tc : Thread nD τ).loc main_arg14) :=
  (rops4_keep (RV4 m c) (r := main_arg14) (by decide)).trans (RV4_arg14 m c)
theorem RV5_arg15 : RV5 m c (Proc.devRef .tc main_arg15) = m ((c.tc : Thread nD τ).loc main_arg15) :=
  (rops4_keep (RV4 m c) (r := main_arg15) (by decide)).trans (RV4_arg15 m c)
theorem RV5_arg16 : RV5 m c (Proc.devRef .tc main_arg16) = m ((c.tc : Thread nD τ).loc main_arg16) :=
  (rops4_keep (RV4 m c) (r := main_arg16) (by decide)).trans (RV4_arg16 m c)
theorem RV5_arg17 : RV5 m c (Proc.devRef .tc main_arg17) = m ((c.tc : Thread nD τ).loc main_arg17) :=
  (rops4_keep (RV4 m c) (r := main_arg17) (by decide)).trans (RV4_arg17 m c)
theorem RV5_arg18 : RV5 m c (Proc.devRef .tc main_arg18) = m ((c.tc : Thread nD τ).loc main_arg18) :=
  (rops4_keep (RV4 m c) (r := main_arg18) (by decide)).trans (RV4_arg18 m c)
theorem RV6_arg0 : RV6 m c (Proc.devRef .tc main_arg0) = m ((c.tc : Thread nD τ).loc main_arg0) :=
  (rops5_keep (RV5 m c) (r := main_arg0) (by decide)).trans (RV5_arg0 m c)
theorem RV6_arg1 : RV6 m c (Proc.devRef .tc main_arg1) = m ((c.tc : Thread nD τ).loc main_arg1) :=
  (rops5_keep (RV5 m c) (r := main_arg1) (by decide)).trans (RV5_arg1 m c)
theorem RV6_arg2 : RV6 m c (Proc.devRef .tc main_arg2) = m ((c.tc : Thread nD τ).loc main_arg2) :=
  (rops5_keep (RV5 m c) (r := main_arg2) (by decide)).trans (RV5_arg2 m c)
theorem RV6_arg3 : RV6 m c (Proc.devRef .tc main_arg3) = m ((c.tc : Thread nD τ).loc main_arg3) :=
  (rops5_keep (RV5 m c) (r := main_arg3) (by decide)).trans (RV5_arg3 m c)
theorem RV6_arg4 : RV6 m c (Proc.devRef .tc main_arg4) = m ((c.tc : Thread nD τ).loc main_arg4) :=
  (rops5_keep (RV5 m c) (r := main_arg4) (by decide)).trans (RV5_arg4 m c)
theorem RV6_arg5 : RV6 m c (Proc.devRef .tc main_arg5) = m ((c.tc : Thread nD τ).loc main_arg5) :=
  (rops5_keep (RV5 m c) (r := main_arg5) (by decide)).trans (RV5_arg5 m c)
theorem RV6_arg6 : RV6 m c (Proc.devRef .tc main_arg6) = m ((c.tc : Thread nD τ).loc main_arg6) :=
  (rops5_keep (RV5 m c) (r := main_arg6) (by decide)).trans (RV5_arg6 m c)
theorem RV6_arg7 : RV6 m c (Proc.devRef .tc main_arg7) = m ((c.tc : Thread nD τ).loc main_arg7) :=
  (rops5_keep (RV5 m c) (r := main_arg7) (by decide)).trans (RV5_arg7 m c)
theorem RV6_arg8 : RV6 m c (Proc.devRef .tc main_arg8) = m ((c.tc : Thread nD τ).loc main_arg8) :=
  (rops5_keep (RV5 m c) (r := main_arg8) (by decide)).trans (RV5_arg8 m c)
theorem RV6_arg9 : RV6 m c (Proc.devRef .tc main_arg9) = m ((c.tc : Thread nD τ).loc main_arg9) :=
  (rops5_keep (RV5 m c) (r := main_arg9) (by decide)).trans (RV5_arg9 m c)
theorem RV6_arg10 : RV6 m c (Proc.devRef .tc main_arg10) = m ((c.tc : Thread nD τ).loc main_arg10) :=
  (rops5_keep (RV5 m c) (r := main_arg10) (by decide)).trans (RV5_arg10 m c)
theorem RV6_arg11 : RV6 m c (Proc.devRef .tc main_arg11) = m ((c.tc : Thread nD τ).loc main_arg11) :=
  (rops5_keep (RV5 m c) (r := main_arg11) (by decide)).trans (RV5_arg11 m c)
theorem RV6_arg12 : RV6 m c (Proc.devRef .tc main_arg12) = m ((c.tc : Thread nD τ).loc main_arg12) :=
  (rops5_keep (RV5 m c) (r := main_arg12) (by decide)).trans (RV5_arg12 m c)
theorem RV6_arg13 : RV6 m c (Proc.devRef .tc main_arg13) = m ((c.tc : Thread nD τ).loc main_arg13) :=
  (rops5_keep (RV5 m c) (r := main_arg13) (by decide)).trans (RV5_arg13 m c)
theorem RV6_arg14 : RV6 m c (Proc.devRef .tc main_arg14) = m ((c.tc : Thread nD τ).loc main_arg14) :=
  (rops5_keep (RV5 m c) (r := main_arg14) (by decide)).trans (RV5_arg14 m c)
theorem RV6_arg15 : RV6 m c (Proc.devRef .tc main_arg15) = m ((c.tc : Thread nD τ).loc main_arg15) :=
  (rops5_keep (RV5 m c) (r := main_arg15) (by decide)).trans (RV5_arg15 m c)
theorem RV6_arg16 : RV6 m c (Proc.devRef .tc main_arg16) = m ((c.tc : Thread nD τ).loc main_arg16) :=
  (rops5_keep (RV5 m c) (r := main_arg16) (by decide)).trans (RV5_arg16 m c)
theorem RV6_arg17 : RV6 m c (Proc.devRef .tc main_arg17) = m ((c.tc : Thread nD τ).loc main_arg17) :=
  (rops5_keep (RV5 m c) (r := main_arg17) (by decide)).trans (RV5_arg17 m c)
theorem RV6_arg18 : RV6 m c (Proc.devRef .tc main_arg18) = m ((c.tc : Thread nD τ).loc main_arg18) :=
  (rops5_keep (RV5 m c) (r := main_arg18) (by decide)).trans (RV5_arg18 m c)
theorem RV7_arg0 : RV7 m c (Proc.devRef .tc main_arg0) = m ((c.tc : Thread nD τ).loc main_arg0) :=
  (rops6_keep (RV6 m c) (r := main_arg0) (by decide)).trans (RV6_arg0 m c)
theorem RV7_arg1 : RV7 m c (Proc.devRef .tc main_arg1) = m ((c.tc : Thread nD τ).loc main_arg1) :=
  (rops6_keep (RV6 m c) (r := main_arg1) (by decide)).trans (RV6_arg1 m c)
theorem RV7_arg2 : RV7 m c (Proc.devRef .tc main_arg2) = m ((c.tc : Thread nD τ).loc main_arg2) :=
  (rops6_keep (RV6 m c) (r := main_arg2) (by decide)).trans (RV6_arg2 m c)
theorem RV7_arg3 : RV7 m c (Proc.devRef .tc main_arg3) = m ((c.tc : Thread nD τ).loc main_arg3) :=
  (rops6_keep (RV6 m c) (r := main_arg3) (by decide)).trans (RV6_arg3 m c)
theorem RV7_arg4 : RV7 m c (Proc.devRef .tc main_arg4) = m ((c.tc : Thread nD τ).loc main_arg4) :=
  (rops6_keep (RV6 m c) (r := main_arg4) (by decide)).trans (RV6_arg4 m c)
theorem RV7_arg5 : RV7 m c (Proc.devRef .tc main_arg5) = m ((c.tc : Thread nD τ).loc main_arg5) :=
  (rops6_keep (RV6 m c) (r := main_arg5) (by decide)).trans (RV6_arg5 m c)
theorem RV7_arg6 : RV7 m c (Proc.devRef .tc main_arg6) = m ((c.tc : Thread nD τ).loc main_arg6) :=
  (rops6_keep (RV6 m c) (r := main_arg6) (by decide)).trans (RV6_arg6 m c)
theorem RV7_arg7 : RV7 m c (Proc.devRef .tc main_arg7) = m ((c.tc : Thread nD τ).loc main_arg7) :=
  (rops6_keep (RV6 m c) (r := main_arg7) (by decide)).trans (RV6_arg7 m c)
theorem RV7_arg8 : RV7 m c (Proc.devRef .tc main_arg8) = m ((c.tc : Thread nD τ).loc main_arg8) :=
  (rops6_keep (RV6 m c) (r := main_arg8) (by decide)).trans (RV6_arg8 m c)
theorem RV7_arg9 : RV7 m c (Proc.devRef .tc main_arg9) = m ((c.tc : Thread nD τ).loc main_arg9) :=
  (rops6_keep (RV6 m c) (r := main_arg9) (by decide)).trans (RV6_arg9 m c)
theorem RV7_arg10 : RV7 m c (Proc.devRef .tc main_arg10) = m ((c.tc : Thread nD τ).loc main_arg10) :=
  (rops6_keep (RV6 m c) (r := main_arg10) (by decide)).trans (RV6_arg10 m c)
theorem RV7_arg11 : RV7 m c (Proc.devRef .tc main_arg11) = m ((c.tc : Thread nD τ).loc main_arg11) :=
  (rops6_keep (RV6 m c) (r := main_arg11) (by decide)).trans (RV6_arg11 m c)
theorem RV7_arg12 : RV7 m c (Proc.devRef .tc main_arg12) = m ((c.tc : Thread nD τ).loc main_arg12) :=
  (rops6_keep (RV6 m c) (r := main_arg12) (by decide)).trans (RV6_arg12 m c)
theorem RV7_arg13 : RV7 m c (Proc.devRef .tc main_arg13) = m ((c.tc : Thread nD τ).loc main_arg13) :=
  (rops6_keep (RV6 m c) (r := main_arg13) (by decide)).trans (RV6_arg13 m c)
theorem RV7_arg14 : RV7 m c (Proc.devRef .tc main_arg14) = m ((c.tc : Thread nD τ).loc main_arg14) :=
  (rops6_keep (RV6 m c) (r := main_arg14) (by decide)).trans (RV6_arg14 m c)
theorem RV7_arg15 : RV7 m c (Proc.devRef .tc main_arg15) = m ((c.tc : Thread nD τ).loc main_arg15) :=
  (rops6_keep (RV6 m c) (r := main_arg15) (by decide)).trans (RV6_arg15 m c)
theorem RV7_arg16 : RV7 m c (Proc.devRef .tc main_arg16) = m ((c.tc : Thread nD τ).loc main_arg16) :=
  (rops6_keep (RV6 m c) (r := main_arg16) (by decide)).trans (RV6_arg16 m c)
theorem RV7_arg17 : RV7 m c (Proc.devRef .tc main_arg17) = m ((c.tc : Thread nD τ).loc main_arg17) :=
  (rops6_keep (RV6 m c) (r := main_arg17) (by decide)).trans (RV6_arg17 m c)
theorem RV7_arg18 : RV7 m c (Proc.devRef .tc main_arg18) = m ((c.tc : Thread nD τ).loc main_arg18) :=
  (rops6_keep (RV6 m c) (r := main_arg18) (by decide)).trans (RV6_arg18 m c)
theorem RV8_arg0 : RV8 m c (Proc.devRef .tc main_arg0) = m ((c.tc : Thread nD τ).loc main_arg0) :=
  (rops7_keep (RV7 m c) (r := main_arg0) (by decide)).trans (RV7_arg0 m c)
theorem RV8_arg1 : RV8 m c (Proc.devRef .tc main_arg1) = m ((c.tc : Thread nD τ).loc main_arg1) :=
  (rops7_keep (RV7 m c) (r := main_arg1) (by decide)).trans (RV7_arg1 m c)
theorem RV8_arg2 : RV8 m c (Proc.devRef .tc main_arg2) = m ((c.tc : Thread nD τ).loc main_arg2) :=
  (rops7_keep (RV7 m c) (r := main_arg2) (by decide)).trans (RV7_arg2 m c)
theorem RV8_arg3 : RV8 m c (Proc.devRef .tc main_arg3) = m ((c.tc : Thread nD τ).loc main_arg3) :=
  (rops7_keep (RV7 m c) (r := main_arg3) (by decide)).trans (RV7_arg3 m c)
theorem RV8_arg4 : RV8 m c (Proc.devRef .tc main_arg4) = m ((c.tc : Thread nD τ).loc main_arg4) :=
  (rops7_keep (RV7 m c) (r := main_arg4) (by decide)).trans (RV7_arg4 m c)
theorem RV8_arg5 : RV8 m c (Proc.devRef .tc main_arg5) = m ((c.tc : Thread nD τ).loc main_arg5) :=
  (rops7_keep (RV7 m c) (r := main_arg5) (by decide)).trans (RV7_arg5 m c)
theorem RV8_arg6 : RV8 m c (Proc.devRef .tc main_arg6) = m ((c.tc : Thread nD τ).loc main_arg6) :=
  (rops7_keep (RV7 m c) (r := main_arg6) (by decide)).trans (RV7_arg6 m c)
theorem RV8_arg7 : RV8 m c (Proc.devRef .tc main_arg7) = m ((c.tc : Thread nD τ).loc main_arg7) :=
  (rops7_keep (RV7 m c) (r := main_arg7) (by decide)).trans (RV7_arg7 m c)
theorem RV8_arg8 : RV8 m c (Proc.devRef .tc main_arg8) = m ((c.tc : Thread nD τ).loc main_arg8) :=
  (rops7_keep (RV7 m c) (r := main_arg8) (by decide)).trans (RV7_arg8 m c)
theorem RV8_arg9 : RV8 m c (Proc.devRef .tc main_arg9) = m ((c.tc : Thread nD τ).loc main_arg9) :=
  (rops7_keep (RV7 m c) (r := main_arg9) (by decide)).trans (RV7_arg9 m c)
theorem RV8_arg10 : RV8 m c (Proc.devRef .tc main_arg10) = m ((c.tc : Thread nD τ).loc main_arg10) :=
  (rops7_keep (RV7 m c) (r := main_arg10) (by decide)).trans (RV7_arg10 m c)
theorem RV8_arg11 : RV8 m c (Proc.devRef .tc main_arg11) = m ((c.tc : Thread nD τ).loc main_arg11) :=
  (rops7_keep (RV7 m c) (r := main_arg11) (by decide)).trans (RV7_arg11 m c)
theorem RV8_arg12 : RV8 m c (Proc.devRef .tc main_arg12) = m ((c.tc : Thread nD τ).loc main_arg12) :=
  (rops7_keep (RV7 m c) (r := main_arg12) (by decide)).trans (RV7_arg12 m c)
theorem RV8_arg13 : RV8 m c (Proc.devRef .tc main_arg13) = m ((c.tc : Thread nD τ).loc main_arg13) :=
  (rops7_keep (RV7 m c) (r := main_arg13) (by decide)).trans (RV7_arg13 m c)
theorem RV8_arg14 : RV8 m c (Proc.devRef .tc main_arg14) = m ((c.tc : Thread nD τ).loc main_arg14) :=
  (rops7_keep (RV7 m c) (r := main_arg14) (by decide)).trans (RV7_arg14 m c)
theorem RV8_arg15 : RV8 m c (Proc.devRef .tc main_arg15) = m ((c.tc : Thread nD τ).loc main_arg15) :=
  (rops7_keep (RV7 m c) (r := main_arg15) (by decide)).trans (RV7_arg15 m c)
theorem RV8_arg16 : RV8 m c (Proc.devRef .tc main_arg16) = m ((c.tc : Thread nD τ).loc main_arg16) :=
  (rops7_keep (RV7 m c) (r := main_arg16) (by decide)).trans (RV7_arg16 m c)
theorem RV8_arg17 : RV8 m c (Proc.devRef .tc main_arg17) = m ((c.tc : Thread nD τ).loc main_arg17) :=
  (rops7_keep (RV7 m c) (r := main_arg17) (by decide)).trans (RV7_arg17 m c)
theorem RV8_arg18 : RV8 m c (Proc.devRef .tc main_arg18) = m ((c.tc : Thread nD τ).loc main_arg18) :=
  (rops7_keep (RV7 m c) (r := main_arg18) (by decide)).trans (RV7_arg18 m c)
theorem RV9_arg0 : RV9 m c (Proc.devRef .tc main_arg0) = m ((c.tc : Thread nD τ).loc main_arg0) :=
  (rops8_keep (RV8 m c) (r := main_arg0) (by decide)).trans (RV8_arg0 m c)
theorem RV9_arg1 : RV9 m c (Proc.devRef .tc main_arg1) = m ((c.tc : Thread nD τ).loc main_arg1) :=
  (rops8_keep (RV8 m c) (r := main_arg1) (by decide)).trans (RV8_arg1 m c)
theorem RV9_arg2 : RV9 m c (Proc.devRef .tc main_arg2) = m ((c.tc : Thread nD τ).loc main_arg2) :=
  (rops8_keep (RV8 m c) (r := main_arg2) (by decide)).trans (RV8_arg2 m c)
theorem RV9_arg3 : RV9 m c (Proc.devRef .tc main_arg3) = m ((c.tc : Thread nD τ).loc main_arg3) :=
  (rops8_keep (RV8 m c) (r := main_arg3) (by decide)).trans (RV8_arg3 m c)
theorem RV9_arg4 : RV9 m c (Proc.devRef .tc main_arg4) = m ((c.tc : Thread nD τ).loc main_arg4) :=
  (rops8_keep (RV8 m c) (r := main_arg4) (by decide)).trans (RV8_arg4 m c)
theorem RV9_arg5 : RV9 m c (Proc.devRef .tc main_arg5) = m ((c.tc : Thread nD τ).loc main_arg5) :=
  (rops8_keep (RV8 m c) (r := main_arg5) (by decide)).trans (RV8_arg5 m c)
theorem RV9_arg6 : RV9 m c (Proc.devRef .tc main_arg6) = m ((c.tc : Thread nD τ).loc main_arg6) :=
  (rops8_keep (RV8 m c) (r := main_arg6) (by decide)).trans (RV8_arg6 m c)
theorem RV9_arg7 : RV9 m c (Proc.devRef .tc main_arg7) = m ((c.tc : Thread nD τ).loc main_arg7) :=
  (rops8_keep (RV8 m c) (r := main_arg7) (by decide)).trans (RV8_arg7 m c)
theorem RV9_arg8 : RV9 m c (Proc.devRef .tc main_arg8) = m ((c.tc : Thread nD τ).loc main_arg8) :=
  (rops8_keep (RV8 m c) (r := main_arg8) (by decide)).trans (RV8_arg8 m c)
theorem RV9_arg9 : RV9 m c (Proc.devRef .tc main_arg9) = m ((c.tc : Thread nD τ).loc main_arg9) :=
  (rops8_keep (RV8 m c) (r := main_arg9) (by decide)).trans (RV8_arg9 m c)
theorem RV9_arg10 : RV9 m c (Proc.devRef .tc main_arg10) = m ((c.tc : Thread nD τ).loc main_arg10) :=
  (rops8_keep (RV8 m c) (r := main_arg10) (by decide)).trans (RV8_arg10 m c)
theorem RV9_arg11 : RV9 m c (Proc.devRef .tc main_arg11) = m ((c.tc : Thread nD τ).loc main_arg11) :=
  (rops8_keep (RV8 m c) (r := main_arg11) (by decide)).trans (RV8_arg11 m c)
theorem RV9_arg12 : RV9 m c (Proc.devRef .tc main_arg12) = m ((c.tc : Thread nD τ).loc main_arg12) :=
  (rops8_keep (RV8 m c) (r := main_arg12) (by decide)).trans (RV8_arg12 m c)
theorem RV9_arg13 : RV9 m c (Proc.devRef .tc main_arg13) = m ((c.tc : Thread nD τ).loc main_arg13) :=
  (rops8_keep (RV8 m c) (r := main_arg13) (by decide)).trans (RV8_arg13 m c)
theorem RV9_arg14 : RV9 m c (Proc.devRef .tc main_arg14) = m ((c.tc : Thread nD τ).loc main_arg14) :=
  (rops8_keep (RV8 m c) (r := main_arg14) (by decide)).trans (RV8_arg14 m c)
theorem RV9_arg15 : RV9 m c (Proc.devRef .tc main_arg15) = m ((c.tc : Thread nD τ).loc main_arg15) :=
  (rops8_keep (RV8 m c) (r := main_arg15) (by decide)).trans (RV8_arg15 m c)
theorem RV9_arg16 : RV9 m c (Proc.devRef .tc main_arg16) = m ((c.tc : Thread nD τ).loc main_arg16) :=
  (rops8_keep (RV8 m c) (r := main_arg16) (by decide)).trans (RV8_arg16 m c)
theorem RV9_arg17 : RV9 m c (Proc.devRef .tc main_arg17) = m ((c.tc : Thread nD τ).loc main_arg17) :=
  (rops8_keep (RV8 m c) (r := main_arg17) (by decide)).trans (RV8_arg17 m c)
theorem RV9_arg18 : RV9 m c (Proc.devRef .tc main_arg18) = m ((c.tc : Thread nD τ).loc main_arg18) :=
  (rops8_keep (RV8 m c) (r := main_arg18) (by decide)).trans (RV8_arg18 m c)
theorem RV10_arg0 : RV10 m c (Proc.devRef .tc main_arg0) = m ((c.tc : Thread nD τ).loc main_arg0) :=
  (rops9_keep (RV9 m c) (r := main_arg0) (by decide)).trans (RV9_arg0 m c)
theorem RV10_arg1 : RV10 m c (Proc.devRef .tc main_arg1) = m ((c.tc : Thread nD τ).loc main_arg1) :=
  (rops9_keep (RV9 m c) (r := main_arg1) (by decide)).trans (RV9_arg1 m c)
theorem RV10_arg2 : RV10 m c (Proc.devRef .tc main_arg2) = m ((c.tc : Thread nD τ).loc main_arg2) :=
  (rops9_keep (RV9 m c) (r := main_arg2) (by decide)).trans (RV9_arg2 m c)
theorem RV10_arg3 : RV10 m c (Proc.devRef .tc main_arg3) = m ((c.tc : Thread nD τ).loc main_arg3) :=
  (rops9_keep (RV9 m c) (r := main_arg3) (by decide)).trans (RV9_arg3 m c)
theorem RV10_arg4 : RV10 m c (Proc.devRef .tc main_arg4) = m ((c.tc : Thread nD τ).loc main_arg4) :=
  (rops9_keep (RV9 m c) (r := main_arg4) (by decide)).trans (RV9_arg4 m c)
theorem RV10_arg5 : RV10 m c (Proc.devRef .tc main_arg5) = m ((c.tc : Thread nD τ).loc main_arg5) :=
  (rops9_keep (RV9 m c) (r := main_arg5) (by decide)).trans (RV9_arg5 m c)
theorem RV10_arg6 : RV10 m c (Proc.devRef .tc main_arg6) = m ((c.tc : Thread nD τ).loc main_arg6) :=
  (rops9_keep (RV9 m c) (r := main_arg6) (by decide)).trans (RV9_arg6 m c)
theorem RV10_arg7 : RV10 m c (Proc.devRef .tc main_arg7) = m ((c.tc : Thread nD τ).loc main_arg7) :=
  (rops9_keep (RV9 m c) (r := main_arg7) (by decide)).trans (RV9_arg7 m c)
theorem RV10_arg8 : RV10 m c (Proc.devRef .tc main_arg8) = m ((c.tc : Thread nD τ).loc main_arg8) :=
  (rops9_keep (RV9 m c) (r := main_arg8) (by decide)).trans (RV9_arg8 m c)
theorem RV10_arg9 : RV10 m c (Proc.devRef .tc main_arg9) = m ((c.tc : Thread nD τ).loc main_arg9) :=
  (rops9_keep (RV9 m c) (r := main_arg9) (by decide)).trans (RV9_arg9 m c)
theorem RV10_arg10 : RV10 m c (Proc.devRef .tc main_arg10) = m ((c.tc : Thread nD τ).loc main_arg10) :=
  (rops9_keep (RV9 m c) (r := main_arg10) (by decide)).trans (RV9_arg10 m c)
theorem RV10_arg11 : RV10 m c (Proc.devRef .tc main_arg11) = m ((c.tc : Thread nD τ).loc main_arg11) :=
  (rops9_keep (RV9 m c) (r := main_arg11) (by decide)).trans (RV9_arg11 m c)
theorem RV10_arg12 : RV10 m c (Proc.devRef .tc main_arg12) = m ((c.tc : Thread nD τ).loc main_arg12) :=
  (rops9_keep (RV9 m c) (r := main_arg12) (by decide)).trans (RV9_arg12 m c)
theorem RV10_arg13 : RV10 m c (Proc.devRef .tc main_arg13) = m ((c.tc : Thread nD τ).loc main_arg13) :=
  (rops9_keep (RV9 m c) (r := main_arg13) (by decide)).trans (RV9_arg13 m c)
theorem RV10_arg14 : RV10 m c (Proc.devRef .tc main_arg14) = m ((c.tc : Thread nD τ).loc main_arg14) :=
  (rops9_keep (RV9 m c) (r := main_arg14) (by decide)).trans (RV9_arg14 m c)
theorem RV10_arg15 : RV10 m c (Proc.devRef .tc main_arg15) = m ((c.tc : Thread nD τ).loc main_arg15) :=
  (rops9_keep (RV9 m c) (r := main_arg15) (by decide)).trans (RV9_arg15 m c)
theorem RV10_arg16 : RV10 m c (Proc.devRef .tc main_arg16) = m ((c.tc : Thread nD τ).loc main_arg16) :=
  (rops9_keep (RV9 m c) (r := main_arg16) (by decide)).trans (RV9_arg16 m c)
theorem RV10_arg17 : RV10 m c (Proc.devRef .tc main_arg17) = m ((c.tc : Thread nD τ).loc main_arg17) :=
  (rops9_keep (RV9 m c) (r := main_arg17) (by decide)).trans (RV9_arg17 m c)
theorem RV10_arg18 : RV10 m c (Proc.devRef .tc main_arg18) = m ((c.tc : Thread nD τ).loc main_arg18) :=
  (rops9_keep (RV9 m c) (r := main_arg18) (by decide)).trans (RV9_arg18 m c)
theorem RV11_arg0 : RV11 m c (Proc.devRef .tc main_arg0) = m ((c.tc : Thread nD τ).loc main_arg0) :=
  (rops10_keep (RV10 m c) (r := main_arg0) (by decide)).trans (RV10_arg0 m c)
theorem RV11_arg1 : RV11 m c (Proc.devRef .tc main_arg1) = m ((c.tc : Thread nD τ).loc main_arg1) :=
  (rops10_keep (RV10 m c) (r := main_arg1) (by decide)).trans (RV10_arg1 m c)
theorem RV11_arg2 : RV11 m c (Proc.devRef .tc main_arg2) = m ((c.tc : Thread nD τ).loc main_arg2) :=
  (rops10_keep (RV10 m c) (r := main_arg2) (by decide)).trans (RV10_arg2 m c)
theorem RV11_arg3 : RV11 m c (Proc.devRef .tc main_arg3) = m ((c.tc : Thread nD τ).loc main_arg3) :=
  (rops10_keep (RV10 m c) (r := main_arg3) (by decide)).trans (RV10_arg3 m c)
theorem RV11_arg4 : RV11 m c (Proc.devRef .tc main_arg4) = m ((c.tc : Thread nD τ).loc main_arg4) :=
  (rops10_keep (RV10 m c) (r := main_arg4) (by decide)).trans (RV10_arg4 m c)
theorem RV11_arg5 : RV11 m c (Proc.devRef .tc main_arg5) = m ((c.tc : Thread nD τ).loc main_arg5) :=
  (rops10_keep (RV10 m c) (r := main_arg5) (by decide)).trans (RV10_arg5 m c)
theorem RV11_arg6 : RV11 m c (Proc.devRef .tc main_arg6) = m ((c.tc : Thread nD τ).loc main_arg6) :=
  (rops10_keep (RV10 m c) (r := main_arg6) (by decide)).trans (RV10_arg6 m c)
theorem RV11_arg7 : RV11 m c (Proc.devRef .tc main_arg7) = m ((c.tc : Thread nD τ).loc main_arg7) :=
  (rops10_keep (RV10 m c) (r := main_arg7) (by decide)).trans (RV10_arg7 m c)
theorem RV11_arg8 : RV11 m c (Proc.devRef .tc main_arg8) = m ((c.tc : Thread nD τ).loc main_arg8) :=
  (rops10_keep (RV10 m c) (r := main_arg8) (by decide)).trans (RV10_arg8 m c)
theorem RV11_arg9 : RV11 m c (Proc.devRef .tc main_arg9) = m ((c.tc : Thread nD τ).loc main_arg9) :=
  (rops10_keep (RV10 m c) (r := main_arg9) (by decide)).trans (RV10_arg9 m c)
theorem RV11_arg10 : RV11 m c (Proc.devRef .tc main_arg10) = m ((c.tc : Thread nD τ).loc main_arg10) :=
  (rops10_keep (RV10 m c) (r := main_arg10) (by decide)).trans (RV10_arg10 m c)
theorem RV11_arg11 : RV11 m c (Proc.devRef .tc main_arg11) = m ((c.tc : Thread nD τ).loc main_arg11) :=
  (rops10_keep (RV10 m c) (r := main_arg11) (by decide)).trans (RV10_arg11 m c)
theorem RV11_arg12 : RV11 m c (Proc.devRef .tc main_arg12) = m ((c.tc : Thread nD τ).loc main_arg12) :=
  (rops10_keep (RV10 m c) (r := main_arg12) (by decide)).trans (RV10_arg12 m c)
theorem RV11_arg13 : RV11 m c (Proc.devRef .tc main_arg13) = m ((c.tc : Thread nD τ).loc main_arg13) :=
  (rops10_keep (RV10 m c) (r := main_arg13) (by decide)).trans (RV10_arg13 m c)
theorem RV11_arg14 : RV11 m c (Proc.devRef .tc main_arg14) = m ((c.tc : Thread nD τ).loc main_arg14) :=
  (rops10_keep (RV10 m c) (r := main_arg14) (by decide)).trans (RV10_arg14 m c)
theorem RV11_arg15 : RV11 m c (Proc.devRef .tc main_arg15) = m ((c.tc : Thread nD τ).loc main_arg15) :=
  (rops10_keep (RV10 m c) (r := main_arg15) (by decide)).trans (RV10_arg15 m c)
theorem RV11_arg16 : RV11 m c (Proc.devRef .tc main_arg16) = m ((c.tc : Thread nD τ).loc main_arg16) :=
  (rops10_keep (RV10 m c) (r := main_arg16) (by decide)).trans (RV10_arg16 m c)
theorem RV11_arg17 : RV11 m c (Proc.devRef .tc main_arg17) = m ((c.tc : Thread nD τ).loc main_arg17) :=
  (rops10_keep (RV10 m c) (r := main_arg17) (by decide)).trans (RV10_arg17 m c)
theorem RV11_arg18 : RV11 m c (Proc.devRef .tc main_arg18) = m ((c.tc : Thread nD τ).loc main_arg18) :=
  (rops10_keep (RV10 m c) (r := main_arg18) (by decide)).trans (RV10_arg18 m c)
theorem RV12_arg0 : RV12 m c (Proc.devRef .tc main_arg0) = m ((c.tc : Thread nD τ).loc main_arg0) :=
  (rops11_keep (RV11 m c) (r := main_arg0) (by decide)).trans (RV11_arg0 m c)
theorem RV12_arg1 : RV12 m c (Proc.devRef .tc main_arg1) = m ((c.tc : Thread nD τ).loc main_arg1) :=
  (rops11_keep (RV11 m c) (r := main_arg1) (by decide)).trans (RV11_arg1 m c)
theorem RV12_arg2 : RV12 m c (Proc.devRef .tc main_arg2) = m ((c.tc : Thread nD τ).loc main_arg2) :=
  (rops11_keep (RV11 m c) (r := main_arg2) (by decide)).trans (RV11_arg2 m c)
theorem RV12_arg3 : RV12 m c (Proc.devRef .tc main_arg3) = m ((c.tc : Thread nD τ).loc main_arg3) :=
  (rops11_keep (RV11 m c) (r := main_arg3) (by decide)).trans (RV11_arg3 m c)
theorem RV12_arg4 : RV12 m c (Proc.devRef .tc main_arg4) = m ((c.tc : Thread nD τ).loc main_arg4) :=
  (rops11_keep (RV11 m c) (r := main_arg4) (by decide)).trans (RV11_arg4 m c)
theorem RV12_arg5 : RV12 m c (Proc.devRef .tc main_arg5) = m ((c.tc : Thread nD τ).loc main_arg5) :=
  (rops11_keep (RV11 m c) (r := main_arg5) (by decide)).trans (RV11_arg5 m c)
theorem RV12_arg6 : RV12 m c (Proc.devRef .tc main_arg6) = m ((c.tc : Thread nD τ).loc main_arg6) :=
  (rops11_keep (RV11 m c) (r := main_arg6) (by decide)).trans (RV11_arg6 m c)
theorem RV12_arg7 : RV12 m c (Proc.devRef .tc main_arg7) = m ((c.tc : Thread nD τ).loc main_arg7) :=
  (rops11_keep (RV11 m c) (r := main_arg7) (by decide)).trans (RV11_arg7 m c)
theorem RV12_arg8 : RV12 m c (Proc.devRef .tc main_arg8) = m ((c.tc : Thread nD τ).loc main_arg8) :=
  (rops11_keep (RV11 m c) (r := main_arg8) (by decide)).trans (RV11_arg8 m c)
theorem RV12_arg9 : RV12 m c (Proc.devRef .tc main_arg9) = m ((c.tc : Thread nD τ).loc main_arg9) :=
  (rops11_keep (RV11 m c) (r := main_arg9) (by decide)).trans (RV11_arg9 m c)
theorem RV12_arg10 : RV12 m c (Proc.devRef .tc main_arg10) = m ((c.tc : Thread nD τ).loc main_arg10) :=
  (rops11_keep (RV11 m c) (r := main_arg10) (by decide)).trans (RV11_arg10 m c)
theorem RV12_arg11 : RV12 m c (Proc.devRef .tc main_arg11) = m ((c.tc : Thread nD τ).loc main_arg11) :=
  (rops11_keep (RV11 m c) (r := main_arg11) (by decide)).trans (RV11_arg11 m c)
theorem RV12_arg12 : RV12 m c (Proc.devRef .tc main_arg12) = m ((c.tc : Thread nD τ).loc main_arg12) :=
  (rops11_keep (RV11 m c) (r := main_arg12) (by decide)).trans (RV11_arg12 m c)
theorem RV12_arg13 : RV12 m c (Proc.devRef .tc main_arg13) = m ((c.tc : Thread nD τ).loc main_arg13) :=
  (rops11_keep (RV11 m c) (r := main_arg13) (by decide)).trans (RV11_arg13 m c)
theorem RV12_arg14 : RV12 m c (Proc.devRef .tc main_arg14) = m ((c.tc : Thread nD τ).loc main_arg14) :=
  (rops11_keep (RV11 m c) (r := main_arg14) (by decide)).trans (RV11_arg14 m c)
theorem RV12_arg15 : RV12 m c (Proc.devRef .tc main_arg15) = m ((c.tc : Thread nD τ).loc main_arg15) :=
  (rops11_keep (RV11 m c) (r := main_arg15) (by decide)).trans (RV11_arg15 m c)
theorem RV12_arg16 : RV12 m c (Proc.devRef .tc main_arg16) = m ((c.tc : Thread nD τ).loc main_arg16) :=
  (rops11_keep (RV11 m c) (r := main_arg16) (by decide)).trans (RV11_arg16 m c)
theorem RV12_arg17 : RV12 m c (Proc.devRef .tc main_arg17) = m ((c.tc : Thread nD τ).loc main_arg17) :=
  (rops11_keep (RV11 m c) (r := main_arg17) (by decide)).trans (RV11_arg17 m c)
theorem RV12_arg18 : RV12 m c (Proc.devRef .tc main_arg18) = m ((c.tc : Thread nD τ).loc main_arg18) :=
  (rops11_keep (RV11 m c) (r := main_arg18) (by decide)).trans (RV11_arg18 m c)
theorem RV13_arg0 : RV13 m c (Proc.devRef .tc main_arg0) = m ((c.tc : Thread nD τ).loc main_arg0) :=
  (rops12_keep (RV12 m c) (r := main_arg0) (by decide)).trans (RV12_arg0 m c)
theorem RV13_arg1 : RV13 m c (Proc.devRef .tc main_arg1) = m ((c.tc : Thread nD τ).loc main_arg1) :=
  (rops12_keep (RV12 m c) (r := main_arg1) (by decide)).trans (RV12_arg1 m c)
theorem RV13_arg2 : RV13 m c (Proc.devRef .tc main_arg2) = m ((c.tc : Thread nD τ).loc main_arg2) :=
  (rops12_keep (RV12 m c) (r := main_arg2) (by decide)).trans (RV12_arg2 m c)
theorem RV13_arg3 : RV13 m c (Proc.devRef .tc main_arg3) = m ((c.tc : Thread nD τ).loc main_arg3) :=
  (rops12_keep (RV12 m c) (r := main_arg3) (by decide)).trans (RV12_arg3 m c)
theorem RV13_arg4 : RV13 m c (Proc.devRef .tc main_arg4) = m ((c.tc : Thread nD τ).loc main_arg4) :=
  (rops12_keep (RV12 m c) (r := main_arg4) (by decide)).trans (RV12_arg4 m c)
theorem RV13_arg5 : RV13 m c (Proc.devRef .tc main_arg5) = m ((c.tc : Thread nD τ).loc main_arg5) :=
  (rops12_keep (RV12 m c) (r := main_arg5) (by decide)).trans (RV12_arg5 m c)
theorem RV13_arg6 : RV13 m c (Proc.devRef .tc main_arg6) = m ((c.tc : Thread nD τ).loc main_arg6) :=
  (rops12_keep (RV12 m c) (r := main_arg6) (by decide)).trans (RV12_arg6 m c)
theorem RV13_arg7 : RV13 m c (Proc.devRef .tc main_arg7) = m ((c.tc : Thread nD τ).loc main_arg7) :=
  (rops12_keep (RV12 m c) (r := main_arg7) (by decide)).trans (RV12_arg7 m c)
theorem RV13_arg8 : RV13 m c (Proc.devRef .tc main_arg8) = m ((c.tc : Thread nD τ).loc main_arg8) :=
  (rops12_keep (RV12 m c) (r := main_arg8) (by decide)).trans (RV12_arg8 m c)
theorem RV13_arg9 : RV13 m c (Proc.devRef .tc main_arg9) = m ((c.tc : Thread nD τ).loc main_arg9) :=
  (rops12_keep (RV12 m c) (r := main_arg9) (by decide)).trans (RV12_arg9 m c)
theorem RV13_arg10 : RV13 m c (Proc.devRef .tc main_arg10) = m ((c.tc : Thread nD τ).loc main_arg10) :=
  (rops12_keep (RV12 m c) (r := main_arg10) (by decide)).trans (RV12_arg10 m c)
theorem RV13_arg11 : RV13 m c (Proc.devRef .tc main_arg11) = m ((c.tc : Thread nD τ).loc main_arg11) :=
  (rops12_keep (RV12 m c) (r := main_arg11) (by decide)).trans (RV12_arg11 m c)
theorem RV13_arg12 : RV13 m c (Proc.devRef .tc main_arg12) = m ((c.tc : Thread nD τ).loc main_arg12) :=
  (rops12_keep (RV12 m c) (r := main_arg12) (by decide)).trans (RV12_arg12 m c)
theorem RV13_arg13 : RV13 m c (Proc.devRef .tc main_arg13) = m ((c.tc : Thread nD τ).loc main_arg13) :=
  (rops12_keep (RV12 m c) (r := main_arg13) (by decide)).trans (RV12_arg13 m c)
theorem RV13_arg14 : RV13 m c (Proc.devRef .tc main_arg14) = m ((c.tc : Thread nD τ).loc main_arg14) :=
  (rops12_keep (RV12 m c) (r := main_arg14) (by decide)).trans (RV12_arg14 m c)
theorem RV13_arg15 : RV13 m c (Proc.devRef .tc main_arg15) = m ((c.tc : Thread nD τ).loc main_arg15) :=
  (rops12_keep (RV12 m c) (r := main_arg15) (by decide)).trans (RV12_arg15 m c)
theorem RV13_arg16 : RV13 m c (Proc.devRef .tc main_arg16) = m ((c.tc : Thread nD τ).loc main_arg16) :=
  (rops12_keep (RV12 m c) (r := main_arg16) (by decide)).trans (RV12_arg16 m c)
theorem RV13_arg17 : RV13 m c (Proc.devRef .tc main_arg17) = m ((c.tc : Thread nD τ).loc main_arg17) :=
  (rops12_keep (RV12 m c) (r := main_arg17) (by decide)).trans (RV12_arg17 m c)
theorem RV13_arg18 : RV13 m c (Proc.devRef .tc main_arg18) = m ((c.tc : Thread nD τ).loc main_arg18) :=
  (rops12_keep (RV12 m c) (r := main_arg18) (by decide)).trans (RV12_arg18 m c)
theorem RV14_arg0 : RV14 m c (Proc.devRef .tc main_arg0) = m ((c.tc : Thread nD τ).loc main_arg0) :=
  (rops13_keep (RV13 m c) (r := main_arg0) (by decide)).trans (RV13_arg0 m c)
theorem RV14_arg1 : RV14 m c (Proc.devRef .tc main_arg1) = m ((c.tc : Thread nD τ).loc main_arg1) :=
  (rops13_keep (RV13 m c) (r := main_arg1) (by decide)).trans (RV13_arg1 m c)
theorem RV14_arg2 : RV14 m c (Proc.devRef .tc main_arg2) = m ((c.tc : Thread nD τ).loc main_arg2) :=
  (rops13_keep (RV13 m c) (r := main_arg2) (by decide)).trans (RV13_arg2 m c)
theorem RV14_arg3 : RV14 m c (Proc.devRef .tc main_arg3) = m ((c.tc : Thread nD τ).loc main_arg3) :=
  (rops13_keep (RV13 m c) (r := main_arg3) (by decide)).trans (RV13_arg3 m c)
theorem RV14_arg4 : RV14 m c (Proc.devRef .tc main_arg4) = m ((c.tc : Thread nD τ).loc main_arg4) :=
  (rops13_keep (RV13 m c) (r := main_arg4) (by decide)).trans (RV13_arg4 m c)
theorem RV14_arg5 : RV14 m c (Proc.devRef .tc main_arg5) = m ((c.tc : Thread nD τ).loc main_arg5) :=
  (rops13_keep (RV13 m c) (r := main_arg5) (by decide)).trans (RV13_arg5 m c)
theorem RV14_arg6 : RV14 m c (Proc.devRef .tc main_arg6) = m ((c.tc : Thread nD τ).loc main_arg6) :=
  (rops13_keep (RV13 m c) (r := main_arg6) (by decide)).trans (RV13_arg6 m c)
theorem RV14_arg7 : RV14 m c (Proc.devRef .tc main_arg7) = m ((c.tc : Thread nD τ).loc main_arg7) :=
  (rops13_keep (RV13 m c) (r := main_arg7) (by decide)).trans (RV13_arg7 m c)
theorem RV14_arg8 : RV14 m c (Proc.devRef .tc main_arg8) = m ((c.tc : Thread nD τ).loc main_arg8) :=
  (rops13_keep (RV13 m c) (r := main_arg8) (by decide)).trans (RV13_arg8 m c)
theorem RV14_arg9 : RV14 m c (Proc.devRef .tc main_arg9) = m ((c.tc : Thread nD τ).loc main_arg9) :=
  (rops13_keep (RV13 m c) (r := main_arg9) (by decide)).trans (RV13_arg9 m c)
theorem RV14_arg10 : RV14 m c (Proc.devRef .tc main_arg10) = m ((c.tc : Thread nD τ).loc main_arg10) :=
  (rops13_keep (RV13 m c) (r := main_arg10) (by decide)).trans (RV13_arg10 m c)
theorem RV14_arg11 : RV14 m c (Proc.devRef .tc main_arg11) = m ((c.tc : Thread nD τ).loc main_arg11) :=
  (rops13_keep (RV13 m c) (r := main_arg11) (by decide)).trans (RV13_arg11 m c)
theorem RV14_arg12 : RV14 m c (Proc.devRef .tc main_arg12) = m ((c.tc : Thread nD τ).loc main_arg12) :=
  (rops13_keep (RV13 m c) (r := main_arg12) (by decide)).trans (RV13_arg12 m c)
theorem RV14_arg13 : RV14 m c (Proc.devRef .tc main_arg13) = m ((c.tc : Thread nD τ).loc main_arg13) :=
  (rops13_keep (RV13 m c) (r := main_arg13) (by decide)).trans (RV13_arg13 m c)
theorem RV14_arg14 : RV14 m c (Proc.devRef .tc main_arg14) = m ((c.tc : Thread nD τ).loc main_arg14) :=
  (rops13_keep (RV13 m c) (r := main_arg14) (by decide)).trans (RV13_arg14 m c)
theorem RV14_arg15 : RV14 m c (Proc.devRef .tc main_arg15) = m ((c.tc : Thread nD τ).loc main_arg15) :=
  (rops13_keep (RV13 m c) (r := main_arg15) (by decide)).trans (RV13_arg15 m c)
theorem RV14_arg16 : RV14 m c (Proc.devRef .tc main_arg16) = m ((c.tc : Thread nD τ).loc main_arg16) :=
  (rops13_keep (RV13 m c) (r := main_arg16) (by decide)).trans (RV13_arg16 m c)
theorem RV14_arg17 : RV14 m c (Proc.devRef .tc main_arg17) = m ((c.tc : Thread nD τ).loc main_arg17) :=
  (rops13_keep (RV13 m c) (r := main_arg17) (by decide)).trans (RV13_arg17 m c)
theorem RV14_arg18 : RV14 m c (Proc.devRef .tc main_arg18) = m ((c.tc : Thread nD τ).loc main_arg18) :=
  (rops13_keep (RV13 m c) (r := main_arg18) (by decide)).trans (RV13_arg18 m c)

/-! ## The long-lived values of chunk 0 through the chunks that read them -/

theorem RV2_v1 : RV2 m c (Proc.devRef .tc main_v1) = RV1 m c (Proc.devRef .tc main_v1) :=
  rops1_keep (RV1 m c) (r := main_v1) (by decide)
theorem RV3_v1 : RV3 m c (Proc.devRef .tc main_v1) = RV1 m c (Proc.devRef .tc main_v1) :=
  (rops2_keep (RV2 m c) (r := main_v1) (by decide)).trans (RV2_v1 m c)
theorem RV4_v1 : RV4 m c (Proc.devRef .tc main_v1) = RV1 m c (Proc.devRef .tc main_v1) :=
  (rops3_keep (RV3 m c) (r := main_v1) (by decide)).trans (RV3_v1 m c)
theorem RV5_v1 : RV5 m c (Proc.devRef .tc main_v1) = RV1 m c (Proc.devRef .tc main_v1) :=
  (rops4_keep (RV4 m c) (r := main_v1) (by decide)).trans (RV4_v1 m c)
theorem RV6_v1 : RV6 m c (Proc.devRef .tc main_v1) = RV1 m c (Proc.devRef .tc main_v1) :=
  (rops5_keep (RV5 m c) (r := main_v1) (by decide)).trans (RV5_v1 m c)
theorem RV7_v1 : RV7 m c (Proc.devRef .tc main_v1) = RV1 m c (Proc.devRef .tc main_v1) :=
  (rops6_keep (RV6 m c) (r := main_v1) (by decide)).trans (RV6_v1 m c)
theorem RV8_v1 : RV8 m c (Proc.devRef .tc main_v1) = RV1 m c (Proc.devRef .tc main_v1) :=
  (rops7_keep (RV7 m c) (r := main_v1) (by decide)).trans (RV7_v1 m c)
theorem RV9_v1 : RV9 m c (Proc.devRef .tc main_v1) = RV1 m c (Proc.devRef .tc main_v1) :=
  (rops8_keep (RV8 m c) (r := main_v1) (by decide)).trans (RV8_v1 m c)
theorem RV2_v3 : RV2 m c (Proc.devRef .tc main_v3) = RV1 m c (Proc.devRef .tc main_v3) :=
  rops1_keep (RV1 m c) (r := main_v3) (by decide)
theorem RV3_v3 : RV3 m c (Proc.devRef .tc main_v3) = RV1 m c (Proc.devRef .tc main_v3) :=
  (rops2_keep (RV2 m c) (r := main_v3) (by decide)).trans (RV2_v3 m c)
theorem RV4_v3 : RV4 m c (Proc.devRef .tc main_v3) = RV1 m c (Proc.devRef .tc main_v3) :=
  (rops3_keep (RV3 m c) (r := main_v3) (by decide)).trans (RV3_v3 m c)
theorem RV5_v3 : RV5 m c (Proc.devRef .tc main_v3) = RV1 m c (Proc.devRef .tc main_v3) :=
  (rops4_keep (RV4 m c) (r := main_v3) (by decide)).trans (RV4_v3 m c)
theorem RV6_v3 : RV6 m c (Proc.devRef .tc main_v3) = RV1 m c (Proc.devRef .tc main_v3) :=
  (rops5_keep (RV5 m c) (r := main_v3) (by decide)).trans (RV5_v3 m c)
theorem RV7_v3 : RV7 m c (Proc.devRef .tc main_v3) = RV1 m c (Proc.devRef .tc main_v3) :=
  (rops6_keep (RV6 m c) (r := main_v3) (by decide)).trans (RV6_v3 m c)
theorem RV8_v3 : RV8 m c (Proc.devRef .tc main_v3) = RV1 m c (Proc.devRef .tc main_v3) :=
  (rops7_keep (RV7 m c) (r := main_v3) (by decide)).trans (RV7_v3 m c)
theorem RV9_v3 : RV9 m c (Proc.devRef .tc main_v3) = RV1 m c (Proc.devRef .tc main_v3) :=
  (rops8_keep (RV8 m c) (r := main_v3) (by decide)).trans (RV8_v3 m c)
theorem RV2_v10 : RV2 m c (Proc.devRef .tc main_v10) = RV1 m c (Proc.devRef .tc main_v10) :=
  rops1_keep (RV1 m c) (r := main_v10) (by decide)
theorem RV3_v10 : RV3 m c (Proc.devRef .tc main_v10) = RV1 m c (Proc.devRef .tc main_v10) :=
  (rops2_keep (RV2 m c) (r := main_v10) (by decide)).trans (RV2_v10 m c)
theorem RV4_v10 : RV4 m c (Proc.devRef .tc main_v10) = RV1 m c (Proc.devRef .tc main_v10) :=
  (rops3_keep (RV3 m c) (r := main_v10) (by decide)).trans (RV3_v10 m c)
theorem RV5_v10 : RV5 m c (Proc.devRef .tc main_v10) = RV1 m c (Proc.devRef .tc main_v10) :=
  (rops4_keep (RV4 m c) (r := main_v10) (by decide)).trans (RV4_v10 m c)
theorem RV6_v10 : RV6 m c (Proc.devRef .tc main_v10) = RV1 m c (Proc.devRef .tc main_v10) :=
  (rops5_keep (RV5 m c) (r := main_v10) (by decide)).trans (RV5_v10 m c)
theorem RV7_v10 : RV7 m c (Proc.devRef .tc main_v10) = RV1 m c (Proc.devRef .tc main_v10) :=
  (rops6_keep (RV6 m c) (r := main_v10) (by decide)).trans (RV6_v10 m c)
theorem RV8_v10 : RV8 m c (Proc.devRef .tc main_v10) = RV1 m c (Proc.devRef .tc main_v10) :=
  (rops7_keep (RV7 m c) (r := main_v10) (by decide)).trans (RV7_v10 m c)
theorem RV9_v10 : RV9 m c (Proc.devRef .tc main_v10) = RV1 m c (Proc.devRef .tc main_v10) :=
  (rops8_keep (RV8 m c) (r := main_v10) (by decide)).trans (RV8_v10 m c)

end Cert.ReferenceIdeal.Hand

end
-- ==== Proof.RefWin.lean ====
import proofs.«409001_j25520695673361_2_alg».proof.Proof.Gen.ReferenceIdeal
import Idealize.ShloMosaic.Lib.StableHlo.Run
import proofs.«409001_j25520695673361_2_alg».proof.Proof.RefVal
import Idealize.ShloMosaic.Lib.Pipeline.Regions
set_option maxRecDepth 4096

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main's operations as consecutive pieces: a piece lies inside one window of @main, inside one call's body or
    between calls, and inside one chunk (a slice of that chunk's list). -/
abbrev rpieces : List (List (HloOp τ sig (Elt F))) :=
  [ rops0,
    List.take 18 rops1,
    List.take 22 (List.drop 18 rops1),
    List.take 16 (List.drop 40 rops1),
    List.drop 56 rops1,
    List.take 10 rops2,
    List.take 8 (List.drop 10 rops2),
    List.take 22 (List.drop 18 rops2),
    List.take 16 (List.drop 40 rops2),
    List.drop 56 rops2,
    List.take 18 rops3,
    List.take 22 (List.drop 18 rops3),
    List.take 15 (List.drop 40 rops3),
    List.drop 55 rops3,
    List.take 49 rops4,
    List.drop 49 rops4,
    List.take 9 rops5,
    List.take 40 (List.drop 9 rops5),
    List.drop 49 rops5,
    List.take 19 rops6,
    List.take 30 (List.drop 19 rops6),
    List.drop 49 rops6,
    List.take 29 rops7,
    List.take 20 (List.drop 29 rops7),
    List.drop 49 rops7,
    List.take 39 rops8,
    List.take 10 (List.drop 39 rops8),
    List.drop 49 rops8,
    rops9,
    List.take 18 rops10,
    List.take 22 (List.drop 18 rops10),
    List.take 16 (List.drop 40 rops10),
    List.drop 56 rops10,
    List.take 18 rops11,
    List.take 22 (List.drop 18 rops11),
    List.take 5 (List.drop 40 rops11),
    List.take 11 (List.drop 45 rops11),
    List.drop 56 rops11,
    List.take 18 rops12,
    List.take 22 (List.drop 18 rops12),
    List.drop 40 rops12,
    List.take 13 rops13,
    List.take 7 (List.drop 13 rops13),
    List.take 3 (List.drop 20 rops13),
    List.take 4 (List.drop 23 rops13),
    List.take 3 (List.drop 27 rops13),
    List.drop 30 rops13 ]

/-- Window 0 of @main is the chain of its pieces, the last in tail position. -/
theorem main_part0_chain (c : Dev nD) : main_part0 (F := F) c = (Pipeline.chainK
  [ StableHlo.seq rops0,
    StableHlo.seq (List.take 18 rops1),
    StableHlo.seq (List.take 22 (List.drop 18 rops1)),
    StableHlo.seq (List.take 16 (List.drop 40 rops1)),
    StableHlo.seq (List.drop 56 rops1) ]
  (StableHlo.seq (List.take 10 rops2)) : Prog (TpuEff nD τ sig (Elt F) (Pipeline.Sig Λ₀ (Fin 0) fun p => (pcfgs (F := F) p).Adm) .tc) PUnit) := by
  chain_rfl

/-- Window 1 of @main is the chain of its pieces, the last in tail position. -/
theorem main_part1_chain (c : Dev nD) : main_part1 (F := F) c = (Pipeline.chainK
  [ StableHlo.seq (List.take 8 (List.drop 10 rops2)),
    StableHlo.seq (List.take 22 (List.drop 18 rops2)),
    StableHlo.seq (List.take 16 (List.drop 40 rops2)),
    StableHlo.seq (List.drop 56 rops2),
    StableHlo.seq (List.take 18 rops3),
    StableHlo.seq (List.take 22 (List.drop 18 rops3)) ]
  (StableHlo.seq (List.take 15 (List.drop 40 rops3))) : Prog (TpuEff nD τ sig (Elt F) (Pipeline.Sig Λ₀ (Fin 0) fun p => (pcfgs (F := F) p).Adm) .tc) PUnit) := by
  chain_rfl

/-- Window 2 of @main is the chain of its pieces, the last in tail position. -/
theorem main_part2_chain (c : Dev nD) : main_part2 (F := F) c = (Pipeline.chainK
  [ StableHlo.seq (List.drop 55 rops3),
    StableHlo.seq (List.take 49 rops4),
    StableHlo.seq (List.drop 49 rops4) ]
  (StableHlo.seq (List.take 9 rops5)) : Prog (TpuEff nD τ sig (Elt F) (Pipeline.Sig Λ₀ (Fin 0) fun p => (pcfgs (F := F) p).Adm) .tc) PUnit) := by
  chain_rfl

/-- Window 3 of @main is the chain of its pieces, the last in tail position. -/
theorem main_part3_chain (c : Dev nD) : main_part3 (F := F) c = (Pipeline.chainK
  [ StableHlo.seq (List.take 40 (List.drop 9 rops5)),
    StableHlo.seq (List.drop 49 rops5) ]
  (StableHlo.seq (List.take 19 rops6)) : Prog (TpuEff nD τ sig (Elt F) (Pipeline.Sig Λ₀ (Fin 0) fun p => (pcfgs (F := F) p).Adm) .tc) PUnit) := by
  chain_rfl

/-- Window 4 of @main is the chain of its pieces, the last in tail position. -/
theorem main_part4_chain (c : Dev nD) : main_part4 (F := F) c = (Pipeline.chainK
  [ StableHlo.seq (List.take 30 (List.drop 19 rops6)),
    StableHlo.seq (List.drop 49 rops6) ]
  (StableHlo.seq (List.take 29 rops7)) : Prog (TpuEff nD τ sig (Elt F) (Pipeline.Sig Λ₀ (Fin 0) fun p => (pcfgs (F := F) p).Adm) .tc) PUnit) := by
  chain_rfl

/-- Window 5 of @main is the chain of its pieces, the last in tail position. -/
theorem main_part5_chain (c : Dev nD) : main_part5 (F := F) c = (Pipeline.chainK
  [ StableHlo.seq (List.take 20 (List.drop 29 rops7)),
    StableHlo.seq (List.drop 49 rops7) ]
  (StableHlo.seq (List.take 39 rops8)) : Prog (TpuEff nD τ sig (Elt F) (Pipeline.Sig Λ₀ (Fin 0) fun p => (pcfgs (F := F) p).Adm) .tc) PUnit) := by
  chain_rfl

/-- Window 6 of @main is the chain of its pieces, the last in tail position. -/
theorem main_part6_chain (c : Dev nD) : main_part6 (F := F) c = (Pipeline.chainK
  [ StableHlo.seq (List.take 10 (List.drop 39 rops8)),
    StableHlo.seq (List.drop 49 rops8) ]
  (StableHlo.seq rops9) : Prog (TpuEff nD τ sig (Elt F) (Pipeline.Sig Λ₀ (Fin 0) fun p => (pcfgs (F := F) p).Adm) .tc) PUnit) := by
  chain_rfl

/-- Window 7 of @main is the chain of its pieces, the last in tail position. -/
theorem main_part7_chain (c : Dev nD) : main_part7 (F := F) c = (Pipeline.chainK
  [ StableHlo.seq (List.take 18 rops10),
    StableHlo.seq (List.take 22 (List.drop 18 rops10)),
    StableHlo.seq (List.take 16 (List.drop 40 rops10)),
    StableHlo.seq (List.drop 56 rops10),
    StableHlo.seq (List.take 18 rops11),
    StableHlo.seq (List.take 22 (List.drop 18 rops11)) ]
  (StableHlo.seq (List.take 5 (List.drop 40 rops11))) : Prog (TpuEff nD τ sig (Elt F) (Pipeline.Sig Λ₀ (Fin 0) fun p => (pcfgs (F := F) p).Adm) .tc) PUnit) := by
  chain_rfl

/-- Window 8 of @main is the chain of its pieces, the last in tail position. -/
theorem main_part8_chain (c : Dev nD) : main_part8 (F := F) c = (Pipeline.chainK
  [ StableHlo.seq (List.take 11 (List.drop 45 rops11)),
    StableHlo.seq (List.drop 56 rops11),
    StableHlo.seq (List.take 18 rops12),
    StableHlo.seq (List.take 22 (List.drop 18 rops12)),
    StableHlo.seq (List.drop 40 rops12) ]
  (StableHlo.seq (List.take 13 rops13)) : Prog (TpuEff nD τ sig (Elt F) (Pipeline.Sig Λ₀ (Fin 0) fun p => (pcfgs (F := F) p).Adm) .tc) PUnit) := by
  chain_rfl

/-- The last window of @main is the chain of its pieces. -/
theorem main_part9_chain (c : Dev nD) : main_part9 (F := F) c = (Pipeline.chain
  [ StableHlo.seq (List.take 7 (List.drop 13 rops13)),
    StableHlo.seq (List.take 3 (List.drop 20 rops13)),
    StableHlo.seq (List.take 4 (List.drop 23 rops13)),
    StableHlo.seq (List.take 3 (List.drop 27 rops13)),
    StableHlo.seq (List.drop 30 rops13) ] : Prog (TpuEff nD τ sig (Elt F) (Pipeline.Sig Λ₀ (Fin 0) fun p => (pcfgs (F := F) p).Adm) .tc) PUnit) := by
  chain_rfl

/-- @main is the chain of all its pieces: the windows' equations, joined at each window boundary. -/
theorem main_chain (c : Dev nD) : main (F := F) c = (Pipeline.chain (rpieces.map fun l => StableHlo.seq l) : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c >>= fun _ => main_part9 (F := F) c) = _
  rewrite [main_part9_chain, main_part8_chain, Pipeline.chainK_bind_chain, main_part7_chain, Pipeline.chainK_bind_chain, main_part6_chain, Pipeline.chainK_bind_chain, main_part5_chain, Pipeline.chainK_bind_chain, main_part4_chain, Pipeline.chainK_bind_chain, main_part3_chain, Pipeline.chainK_bind_chain, main_part2_chain, Pipeline.chainK_bind_chain, main_part1_chain, Pipeline.chainK_bind_chain, main_part0_chain, Pipeline.chainK_bind_chain]
  chain_rfl

/-- The pieces, concatenated, are the chunks, concatenated. -/
theorem rpieces_flatten : (rpieces : List (List (HloOp τ sig (Elt F)))).flatten = rops0 ++ (rops1 ++ (rops2 ++ (rops3 ++ (rops4 ++ (rops5 ++ (rops6 ++ (rops7 ++ (rops8 ++ (rops9 ++ (rops10 ++ (rops11 ++ (rops12 ++ (rops13))))))))))))) := by
  chain_rfl

end Cert.ReferenceIdeal.Hand

end
-- ==== Proof.RefRun.lean ====
import proofs.«409001_j25520695673361_2_alg».proof.Proof.RefWin
import Idealize.ShloMosaic.Lib.Pipeline.Frame

set_option maxRecDepth 8192

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-- The chain of straight lines is the straight line of their concatenation: sequencing two lines is running the
    appended line, and the empty chain and the empty line both return at once. -/
theorem chain_seq {Λ : Labels} (L : List (List (HloOp τ sig (Elt F)))) :
    (Pipeline.chain (L.map fun l => (seq l : Prog (TpuEff nD τ sig (Elt F) Λ .tc) PUnit))) = seq L.flatten := by
  induction L with
  | nil => rfl
  | cons l L ih => rw [List.map_cons, Pipeline.chain_cons, ih, List.flatten_cons, seq_append]

/-- All of @main's operations: the fourteen chunks in order. -/
abbrev ropsAll : List (HloOp τ sig (Elt F)) :=
  rops0 ++ (rops1 ++ (rops2 ++ (rops3 ++ (rops4 ++ (rops5 ++ (rops6 ++ (rops7 ++ (rops8 ++ (rops9 ++ (rops10 ++ (rops11 ++ (rops12 ++ (rops13)))))))))))))

/-- @main is the straight line of its operations, the called functions' operations in place of the calls: it is the
    chain of its pieces, a chain of lines is the line of the concatenation, and the pieces concatenate to the chunks. -/
theorem main_eq (c : Dev nD) : main (F := F) c = seq ropsAll :=
  (main_chain c).trans ((chain_seq rpieces).trans (congrArg seq rpieces_flatten))

/-- The fold over all the operations is the folds over the chunks, one after the other. -/
theorem after_ropsAll (V : Valuation τ sig (Elt F)) :
    after ropsAll V = after rops13 (after rops12 (after rops11 (after rops10 (after rops9 (after rops8 (after rops7 (after rops6 (after rops5 (after rops4 (after rops3 (after rops2 (after rops1 (after rops0 (V)))))))))))))) := by
  simp only [ropsAll, StableHlo.after_append]

theorem scopedRefs_eq : (Finset.univ.filter fun b : Ref sig .tc => b.isScoped) = ∅ := by decide
theorem scopedSems_eq : (Finset.univ.filter fun sm : SemLoc sig => sm.isScoped .tc) = ∅ := by decide

theorem ropsAll_sub : (ropsAll : List (HloOp τ sig (Elt F))).Forall fun op => op.bufs ⊆ tcRefs τ sig :=
  List.forall_append.mpr ⟨rops0_sub, List.forall_append.mpr ⟨rops1_sub, List.forall_append.mpr ⟨rops2_sub, List.forall_append.mpr ⟨rops3_sub, List.forall_append.mpr ⟨rops4_sub, List.forall_append.mpr ⟨rops5_sub, List.forall_append.mpr ⟨rops6_sub, List.forall_append.mpr ⟨rops7_sub, List.forall_append.mpr ⟨rops8_sub, List.forall_append.mpr ⟨rops9_sub, List.forall_append.mpr ⟨rops10_sub, List.forall_append.mpr ⟨rops11_sub, List.forall_append.mpr ⟨rops12_sub, rops13_sub⟩⟩⟩⟩⟩⟩⟩⟩⟩⟩⟩⟩⟩

theorem ropsAll_fresh : (ropsAll : List (HloOp τ sig (Elt F))).Forall fun op => op.fresh = ∅ :=
  List.forall_append.mpr ⟨rops0_fresh, List.forall_append.mpr ⟨rops1_fresh, List.forall_append.mpr ⟨rops2_fresh, List.forall_append.mpr ⟨rops3_fresh, List.forall_append.mpr ⟨rops4_fresh, List.forall_append.mpr ⟨rops5_fresh, List.forall_append.mpr ⟨rops6_fresh, List.forall_append.mpr ⟨rops7_fresh, List.forall_append.mpr ⟨rops8_fresh, List.forall_append.mpr ⟨rops9_fresh, List.forall_append.mpr ⟨rops10_fresh, List.forall_append.mpr ⟨rops11_fresh, List.forall_append.mpr ⟨rops12_fresh, rops13_fresh⟩⟩⟩⟩⟩⟩⟩⟩⟩⟩⟩⟩⟩

/-- On every device, for any float values, from any memory with zero counters: every weakly fair execution of the
    reference's @main terminates, and every final state has each TensorCore buffer at the contents after the last
    chunk, the chunks folded in order over the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = RV14 m c (Proc.devRef .tc b) :=
  (θ_run defs _ _).mono (fun _ h c b => (h c b).trans (congrFun (after_ropsAll (launchContents m c)) _))
    (run_seq scopedRefs_eq scopedSems_eq defs main (fun _ => ropsAll) main_eq (fun _ => ropsAll_sub) m ρ
      (fun _ => List.forall_iff_forall_mem.mp ropsAll_fresh))

end Cert.ReferenceIdeal.Hand

end
-- ==== Proof.KKeepSteps.lean ====
import proofs.«409001_j25520695673361_2_alg».proof.Proof.Gen.KernelIdeal.Frame

set_option maxRecDepth 16384

noncomputable section

namespace Cert.KernelIdeal.Hand

open Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-! # What each segment of @main writes, and that it leaves every other buffer alone -/

theorem not_mem_left {α : Type} {b : α} {l₁ l₂ : List α} (h : b ∉ l₁ ++ l₂) : b ∉ l₁ := fun hm => h (List.mem_append_left _ hm)
theorem not_mem_right {α : Type} {b : α} {l₁ l₂ : List α} (h : b ∉ l₁ ++ l₂) : b ∉ l₂ := fun hm => h (List.mem_append_right _ hm)

/-- The references written between boundaries 0 and 1 (the results of `hostOps0`). -/
abbrev wr1 : List (Ref sig .tc) := [main_v0, main_v1, main_v2, main_v3, main_cst, main_v4, main_cst_0, main_v5, main_v6, main_v7, main_cst_1, main_v8, main_v9, main_v10, main_v11, main_v12, main_v13, main_v14, main_v15, main_v16]
theorem wr1_sub : (hostOps0 : List (HloOp τ sig (Elt F))).Forall fun op => op.writes ⊆ (wr1.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W1_keep (c : Dev nD) (b : Ref sig .tc) (h : b ∉ wr1) :
    W1 m ρ c (Proc.devRef .tc b) = W0 m ρ c (Proc.devRef .tc b) :=
  StableHlo.after_of_writes_sub hostOps0 _ (wr1_sub (F := F)) h

/-- The references written between boundaries 1 and 2 (region 0's output array). -/
abbrev wr2 : List (Ref sig .tc) := [main_v17]
theorem wr2_out : ∀ w : Fin cfg0.W, (cfg0.win w).isOut = true → Pipeline.arrRef spec0 w ∈ wr2 := by decide
theorem W2_keep (c : Dev nD) (b : Ref sig .tc) (h : b ∉ wr2) :
    W2 m ρ c (Proc.devRef .tc b) = W1 m ρ c (Proc.devRef .tc b) := by
  by_cases hb : ∃ w, Pipeline.arrRef spec0 w = b
  · obtain ⟨w, rfl⟩ := hb
    have hin : (cfg0.win w).isOut = false := by
      cases e : (cfg0.win w).isOut with
      | false => rfl
      | true => exact absurd (wr2_out w e) h
    exact (W2_arr m ρ c w).trans (((dat0 (V1 m ρ) c).arrAt_in w hin _).trans (A_eq0 (V1 m ρ) c w))
  · exact W2_of_ne m ρ c b fun w e => hb ⟨w, e⟩

/-- The references written between boundaries 2 and 3 (the results of `hostOps1`). -/
abbrev wr3 : List (Ref sig .tc) := [main_cst_2, main_v18, main_v19, main_cst_3, main_v20, main_v21, main_c]
theorem wr3_sub : (hostOps1 : List (HloOp τ sig (Elt F))).Forall fun op => op.writes ⊆ (wr3.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W3_keep (c : Dev nD) (b : Ref sig .tc) (h : b ∉ wr3) :
    W3 m ρ c (Proc.devRef .tc b) = W2 m ρ c (Proc.devRef .tc b) :=
  StableHlo.after_of_writes_sub hostOps1 _ (wr3_sub (F := F)) h

/-- The references written between boundaries 3 and 4 (the results of `hostOps1_1`). -/
abbrev wr4 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v22]
theorem wr4_sub : (hostOps1_1 : List (HloOp τ sig (Elt F))).Forall fun op => op.writes ⊆ (wr4.map (Proc.devRef (τ := τ) .tc)).toFinset := by
  simp only [hostOps1_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W4_keep (c : Dev nD) (b : Ref sig .tc) (h : b ∉ wr4) :
    W4 m ρ c (Proc.devRef .tc b) = W3 m ρ c (Proc.devRef .tc b) :=
  StableHlo.after_of_writes_sub hostOps1_1 _ (wr4_sub (F := F)) h

/-- The references written between boundaries 4 and 5 (the results of `hostOps1_2`). -/
abbrev wr5 : List (Ref sig .tc) := [main_v23, main_v24, main_v25, main_v26, main_v27, main_v28]
theorem wr5_sub : (hostOps1_2 : List (HloOp τ sig (Elt F))).Forall fun op => op.writes ⊆ (wr5.map (Proc.devRef (τ := τ) .tc)).toFinset := by
  simp only [hostOps1_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W5_keep (c : Dev nD) (b : Ref sig .tc) (h : b ∉ wr5) :
    W5 m ρ c (Proc.devRef .tc b) = W4 m ρ c (Proc.devRef .tc b) :=
  StableHlo.after_of_writes_sub hostOps1_2 _ (wr5_sub (F := F)) h

/-- The references written between boundaries 5 and 6 (region 1's output array). -/
abbrev wr6 : List (Ref sig .tc) := [main_v29]
theorem wr6_out : ∀ w : Fin cfg1.W, (cfg1.win w).isOut = true → Pipeline.arrRef spec1 w ∈ wr6 := by decide
theorem W6_keep (c : Dev nD) (b : Ref sig .tc) (h : b ∉ wr6) :
    W6 m ρ c (Proc.devRef .tc b) = W5 m ρ c (Proc.devRef .tc b) := by
  by_cases hb : ∃ w, Pipeline.arrRef spec1 w = b
  · obtain ⟨w, rfl⟩ := hb
    have hin : (cfg1.win w).isOut = false := by
      cases e : (cfg1.win w).isOut with
      | false => rfl
      | true => exact absurd (wr6_out w e) h
    exact (W6_arr m ρ c w).trans (((dat1 (V5 m ρ) c).arrAt_in w hin _).trans (A_eq1 (V5 m ρ) c w))
  · exact W6_of_ne m ρ c b fun w e => hb ⟨w, e⟩

/-- The references written between boundaries 6 and 7 (the results of `hostOps2`). -/
abbrev wr7 : List (Ref sig .tc) := [main_v30, main_v31, main_v32, main_v33, main_v34]
theorem wr7_sub : (hostOps2 : List (HloOp τ sig (Elt F))).Forall fun op => op.writes ⊆ (wr7.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W7_keep (c : Dev nD) (b : Ref sig .tc) (h : b ∉ wr7) :
    W7 m ρ c (Proc.devRef .tc b) = W6 m ρ c (Proc.devRef .tc b) :=
  StableHlo.after_of_writes_sub hostOps2 _ (wr7_sub (F := F)) h

/-- The references written between boundaries 7 and 8 (region 2's output array). -/
abbrev wr8 : List (Ref sig .tc) := [main_v35]
theorem wr8_out : ∀ w : Fin cfg2.W, (cfg2.win w).isOut = true → Pipeline.arrRef spec2 w ∈ wr8 := by decide
theorem W8_keep (c : Dev nD) (b : Ref sig .tc) (h : b ∉ wr8) :
    W8 m ρ c (Proc.devRef .tc b) = W7 m ρ c (Proc.devRef .tc b) := by
  by_cases hb : ∃ w, Pipeline.arrRef spec2 w = b
  · obtain ⟨w, rfl⟩ := hb
    have hin : (cfg2.win w).isOut = false := by
      cases e : (cfg2.win w).isOut with
      | false => rfl
      | true => exact absurd (wr8_out w e) h
    exact (W8_arr m ρ c w).trans (((dat2 (V7 m ρ) c).arrAt_in w hin _).trans (A_eq2 (V7 m ρ) c w))
  · exact W8_of_ne m ρ c b fun w e => hb ⟨w, e⟩

/-- The references written between boundaries 8 and 9 (the results of `hostOps3`). -/
abbrev wr9 : List (Ref sig .tc) := [main_cst_4, main_v36, main_v37, main_cst_5, main_v38, main_v39, main_c_6]
theorem wr9_sub : (hostOps3 : List (HloOp τ sig (Elt F))).Forall fun op => op.writes ⊆ (wr9.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W9_keep (c : Dev nD) (b : Ref sig .tc) (h : b ∉ wr9) :
    W9 m ρ c (Proc.devRef .tc b) = W8 m ρ c (Proc.devRef .tc b) :=
  StableHlo.after_of_writes_sub hostOps3 _ (wr9_sub (F := F)) h

/-- The references written between boundaries 9 and 10 (the results of `hostOps3_1`). -/
abbrev wr10 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v40]
theorem wr10_sub : (hostOps3_1 : List (HloOp τ sig (Elt F))).Forall fun op => op.writes ⊆ (wr10.map (Proc.devRef (τ := τ) .tc)).toFinset := by
  simp only [hostOps3_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W10_keep (c : Dev nD) (b : Ref sig .tc) (h : b ∉ wr10) :
    W10 m ρ c (Proc.devRef .tc b) = W9 m ρ c (Proc.devRef .tc b) :=
  StableHlo.after_of_writes_sub hostOps3_1 _ (wr10_sub (F := F)) h

/-- The references written between boundaries 10 and 11 (the results of `hostOps3_2`). -/
abbrev wr11 : List (Ref sig .tc) := [main_v41, main_v42, main_v43, main_v44, main_v45, main_v46]
theorem wr11_sub : (hostOps3_2 : List (HloOp τ sig (Elt F))).Forall fun op => op.writes ⊆ (wr11.map (Proc.devRef (τ := τ) .tc)).toFinset := by
  simp only [hostOps3_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W11_keep (c : Dev nD) (b : Ref sig .tc) (h : b ∉ wr11) :
    W11 m ρ c (Proc.devRef .tc b) = W10 m ρ c (Proc.devRef .tc b) :=
  StableHlo.after_of_writes_sub hostOps3_2 _ (wr11_sub (F := F)) h

/-- The references written between boundaries 11 and 12 (region 3's output array). -/
abbrev wr12 : List (Ref sig .tc) := [main_v47]
theorem wr12_out : ∀ w : Fin cfg3.W, (cfg3.win w).isOut = true → Pipeline.arrRef spec3 w ∈ wr12 := by decide
theorem W12_keep (c : Dev nD) (b : Ref sig .tc) (h : b ∉ wr12) :
    W12 m ρ c (Proc.devRef .tc b) = W11 m ρ c (Proc.devRef .tc b) := by
  by_cases hb : ∃ w, Pipeline.arrRef spec3 w = b
  · obtain ⟨w, rfl⟩ := hb
    have hin : (cfg3.win w).isOut = false := by
      cases e : (cfg3.win w).isOut with
      | false => rfl
      | true => exact absurd (wr12_out w e) h
    exact (W12_arr m ρ c w).trans (((dat3 (V11 m ρ) c).arrAt_in w hin _).trans (A_eq3 (V11 m ρ) c w))
  · exact W12_of_ne m ρ c b fun w e => hb ⟨w, e⟩

/-- The references written between boundaries 12 and 13 (the results of `hostOps4`). -/
abbrev wr13 : List (Ref sig .tc) := [main_v48, main_v49, main_v50, main_v51, main_v52]
theorem wr13_sub : (hostOps4 : List (HloOp τ sig (Elt F))).Forall fun op => op.writes ⊆ (wr13.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W13_keep (c : Dev nD) (b : Ref sig .tc) (h : b ∉ wr13) :
    W13 m ρ c (Proc.devRef .tc b) = W12 m ρ c (Proc.devRef .tc b) :=
  StableHlo.after_of_writes_sub hostOps4 _ (wr13_sub (F := F)) h

/-- The references written between boundaries 13 and 14 (region 4's output array). -/
abbrev wr14 : List (Ref sig .tc) := [main_v53]
theorem wr14_out : ∀ w : Fin cfg4.W, (cfg4.win w).isOut = true → Pipeline.arrRef spec4 w ∈ wr14 := by decide
theorem W14_keep (c : Dev nD) (b : Ref sig .tc) (h : b ∉ wr14) :
    W14 m ρ c (Proc.devRef .tc b) = W13 m ρ c (Proc.devRef .tc b) := by
  by_cases hb : ∃ w, Pipeline.arrRef spec4 w = b
  · obtain ⟨w, rfl⟩ := hb
    have hin : (cfg4.win w).isOut = false := by
      cases e : (cfg4.win w).isOut with
      | false => rfl
      | true => exact absurd (wr14_out w e) h
    exact (W14_arr m ρ c w).trans (((dat4 (V13 m ρ) c).arrAt_in w hin _).trans (A_eq4 (V13 m ρ) c w))
  · exact W14_of_ne m ρ c b fun w e => hb ⟨w, e⟩

/-- The references written between boundaries 14 and 15 (the results of `hostOps5`). -/
abbrev wr15 : List (Ref sig .tc) := [main_cst_7, main_v54, main_v55, main_cst_8, main_v56, main_v57, main_c_9]
theorem wr15_sub : (hostOps5 : List (HloOp τ sig (Elt F))).Forall fun op => op.writes ⊆ (wr15.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W15_keep (c : Dev nD) (b : Ref sig .tc) (h : b ∉ wr15) :
    W15 m ρ c (Proc.devRef .tc b) = W14 m ρ c (Proc.devRef .tc b) :=
  StableHlo.after_of_writes_sub hostOps5 _ (wr15_sub (F := F)) h

/-- The references written between boundaries 15 and 16 (the results of `hostOps5_1`). -/
abbrev wr16 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v58]
theorem wr16_sub : (hostOps5_1 : List (HloOp τ sig (Elt F))).Forall fun op => op.writes ⊆ (wr16.map (Proc.devRef (τ := τ) .tc)).toFinset := by
  simp only [hostOps5_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W16_keep (c : Dev nD) (b : Ref sig .tc) (h : b ∉ wr16) :
    W16 m ρ c (Proc.devRef .tc b) = W15 m ρ c (Proc.devRef .tc b) :=
  StableHlo.after_of_writes_sub hostOps5_1 _ (wr16_sub (F := F)) h

/-- The references written between boundaries 16 and 17 (the results of `hostOps5_2`). -/
abbrev wr17 : List (Ref sig .tc) := [main_v59, main_v60, main_v61, main_v62, main_v63, main_v64]
theorem wr17_sub : (hostOps5_2 : List (HloOp τ sig (Elt F))).Forall fun op => op.writes ⊆ (wr17.map (Proc.devRef (τ := τ) .tc)).toFinset := by
  simp only [hostOps5_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W17_keep (c : Dev nD) (b : Ref sig .tc) (h : b ∉ wr17) :
    W17 m ρ c (Proc.devRef .tc b) = W16 m ρ c (Proc.devRef .tc b) :=
  StableHlo.after_of_writes_sub hostOps5_2 _ (wr17_sub (F := F)) h

/-- The references written between boundaries 17 and 18 (region 5's output array). -/
abbrev wr18 : List (Ref sig .tc) := [main_v65]
theorem wr18_out : ∀ w : Fin cfg5.W, (cfg5.win w).isOut = true → Pipeline.arrRef spec5 w ∈ wr18 := by decide
theorem W18_keep (c : Dev nD) (b : Ref sig .tc) (h : b ∉ wr18) :
    W18 m ρ c (Proc.devRef .tc b) = W17 m ρ c (Proc.devRef .tc b) := by
  by_cases hb : ∃ w, Pipeline.arrRef spec5 w = b
  · obtain ⟨w, rfl⟩ := hb
    have hin : (cfg5.win w).isOut = false := by
      cases e : (cfg5.win w).isOut with
      | false => rfl
      | true => exact absurd (wr18_out w e) h
    exact (W18_arr m ρ c w).trans (((dat5 (V17 m ρ) c).arrAt_in w hin _).trans (A_eq5 (V17 m ρ) c w))
  · exact W18_of_ne m ρ c b fun w e => hb ⟨w, e⟩

/-- The references written between boundaries 18 and 19 (the results of `hostOps6`). -/
abbrev wr19 : List (Ref sig .tc) := [main_cst_10, main_v66, main_v67, main_v68, main_v69]
theorem wr19_sub : (hostOps6 : List (HloOp τ sig (Elt F))).Forall fun op => op.writes ⊆ (wr19.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W19_keep (c : Dev nD) (b : Ref sig .tc) (h : b ∉ wr19) :
    W19 m ρ c (Proc.devRef .tc b) = W18 m ρ c (Proc.devRef .tc b) :=
  StableHlo.after_of_writes_sub hostOps6 _ (wr19_sub (F := F)) h

/-- The references written between boundaries 19 and 20 (region 6's output array). -/
abbrev wr20 : List (Ref sig .tc) := [main_v70]
theorem wr20_out : ∀ w : Fin cfg6.W, (cfg6.win w).isOut = true → Pipeline.arrRef spec6 w ∈ wr20 := by decide
theorem W20_keep (c : Dev nD) (b : Ref sig .tc) (h : b ∉ wr20) :
    W20 m ρ c (Proc.devRef .tc b) = W19 m ρ c (Proc.devRef .tc b) := by
  by_cases hb : ∃ w, Pipeline.arrRef spec6 w = b
  · obtain ⟨w, rfl⟩ := hb
    have hin : (cfg6.win w).isOut = false := by
      cases e : (cfg6.win w).isOut with
      | false => rfl
      | true => exact absurd (wr20_out w e) h
    exact (W20_arr m ρ c w).trans (((dat6 (V19 m ρ) c).arrAt_in w hin _).trans (A_eq6 (V19 m ρ) c w))
  · exact W20_of_ne m ρ c b fun w e => hb ⟨w, e⟩

/-- The references written between boundaries 20 and 21 (the results of `hostOps7`). -/
abbrev wr21 : List (Ref sig .tc) := [main_c_11, main_v71, main_v72, main_c_12, main_v73, main_v74, main_v75, main_v76, main_v77, main_c_13, main_v78, main_v79, main_c_14, main_v80, main_v81, main_v82, main_v83, main_v84, main_v85]
theorem wr21_sub : (hostOps7 : List (HloOp τ sig (Elt F))).Forall fun op => op.writes ⊆ (wr21.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W21_keep (c : Dev nD) (b : Ref sig .tc) (h : b ∉ wr21) :
    W21 m ρ c (Proc.devRef .tc b) = W20 m ρ c (Proc.devRef .tc b) :=
  StableHlo.after_of_writes_sub hostOps7 _ (wr21_sub (F := F)) h

/-- The references written between boundaries 21 and 22 (the results of `hostOps7_1`). -/
abbrev wr22 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v86]
theorem wr22_sub : (hostOps7_1 : List (HloOp τ sig (Elt F))).Forall fun op => op.writes ⊆ (wr22.map (Proc.devRef (τ := τ) .tc)).toFinset := by
  simp only [hostOps7_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W22_keep (c : Dev nD) (b : Ref sig .tc) (h : b ∉ wr22) :
    W22 m ρ c (Proc.devRef .tc b) = W21 m ρ c (Proc.devRef .tc b) :=
  StableHlo.after_of_writes_sub hostOps7_1 _ (wr22_sub (F := F)) h

/-- The references written between boundaries 22 and 23 (the results of `hostOps7_2`). -/
abbrev wr23 : List (Ref sig .tc) := [main_v87, main_v88, main_v89, main_cst_15, main_v90, main_v91, main_v92, main_v93, main_v94, main_v95, main_v96, main_v97, main_v98]
theorem wr23_sub : (hostOps7_2 : List (HloOp τ sig (Elt F))).Forall fun op => op.writes ⊆ (wr23.map (Proc.devRef (τ := τ) .tc)).toFinset := by
  simp only [hostOps7_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W23_keep (c : Dev nD) (b : Ref sig .tc) (h : b ∉ wr23) :
    W23 m ρ c (Proc.devRef .tc b) = W22 m ρ c (Proc.devRef .tc b) :=
  StableHlo.after_of_writes_sub hostOps7_2 _ (wr23_sub (F := F)) h

/-- The references written between boundaries 23 and 24 (region 7's output array). -/
abbrev wr24 : List (Ref sig .tc) := [main_v99]
theorem wr24_out : ∀ w : Fin cfg7.W, (cfg7.win w).isOut = true → Pipeline.arrRef spec7 w ∈ wr24 := by decide
theorem W24_keep (c : Dev nD) (b : Ref sig .tc) (h : b ∉ wr24) :
    W24 m ρ c (Proc.devRef .tc b) = W23 m ρ c (Proc.devRef .tc b) := by
  by_cases hb : ∃ w, Pipeline.arrRef spec7 w = b
  · obtain ⟨w, rfl⟩ := hb
    have hin : (cfg7.win w).isOut = false := by
      cases e : (cfg7.win w).isOut with
      | false => rfl
      | true => exact absurd (wr24_out w e) h
    exact (W24_arr m ρ c w).trans (((dat7 (V23 m ρ) c).arrAt_in w hin _).trans (A_eq7 (V23 m ρ) c w))
  · exact W24_of_ne m ρ c b fun w e => hb ⟨w, e⟩

/-- The references written between boundaries 24 and 25 (the results of `hostOps8`). -/
abbrev wr25 : List (Ref sig .tc) := [main_v100, main_v101, main_v102]
theorem wr25_sub : (hostOps8 : List (HloOp τ sig (Elt F))).Forall fun op => op.writes ⊆ (wr25.map (Proc.devRef (τ := τ) .tc)).toFinset := by
  simp only [hostOps8, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W25_keep (c : Dev nD) (b : Ref sig .tc) (h : b ∉ wr25) :
    W25 m ρ c (Proc.devRef .tc b) = W24 m ρ c (Proc.devRef .tc b) :=
  StableHlo.after_of_writes_sub hostOps8 _ (wr25_sub (F := F)) h

/-- The references written between boundaries 25 and 26 (region 8's output array). -/
abbrev wr26 : List (Ref sig .tc) := [main_v103]
theorem wr26_out : ∀ w : Fin cfg8.W, (cfg8.win w).isOut = true → Pipeline.arrRef spec8 w ∈ wr26 := by decide
theorem W26_keep (c : Dev nD) (b : Ref sig .tc) (h : b ∉ wr26) :
    W26 m ρ c (Proc.devRef .tc b) = W25 m ρ c (Proc.devRef .tc b) := by
  by_cases hb : ∃ w, Pipeline.arrRef spec8 w = b
  · obtain ⟨w, rfl⟩ := hb
    have hin : (cfg8.win w).isOut = false := by
      cases e : (cfg8.win w).isOut with
      | false => rfl
      | true => exact absurd (wr26_out w e) h
    exact (W26_arr m ρ c w).trans (((dat8 (V25 m ρ) c).arrAt_in w hin _).trans (A_eq8 (V25 m ρ) c w))
  · exact W26_of_ne m ρ c b fun w e => hb ⟨w, e⟩

/-- The references written between boundaries 26 and 27 (the results of `hostOps9`). -/
abbrev wr27 : List (Ref sig .tc) := [main_c_16, main_v104, main_v105, main_c_17, main_v106, main_v107, main_v108, main_v109, main_v110, main_c_18, main_v111, main_v112, main_c_19, main_v113, main_v114, main_v115, main_v116, main_v117, main_v118]
theorem wr27_sub : (hostOps9 : List (HloOp τ sig (Elt F))).Forall fun op => op.writes ⊆ (wr27.map (Proc.devRef (τ := τ) .tc)).toFinset := by
  simp only [hostOps9, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W27_keep (c : Dev nD) (b : Ref sig .tc) (h : b ∉ wr27) :
    W27 m ρ c (Proc.devRef .tc b) = W26 m ρ c (Proc.devRef .tc b) :=
  StableHlo.after_of_writes_sub hostOps9 _ (wr27_sub (F := F)) h

/-- The references written between boundaries 27 and 28 (the results of `hostOps9_1`). -/
abbrev wr28 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v119]
theorem wr28_sub : (hostOps9_1 : List (HloOp τ sig (Elt F))).Forall fun op => op.writes ⊆ (wr28.map (Proc.devRef (τ := τ) .tc)).toFinset := by
  simp only [hostOps9_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W28_keep (c : Dev nD) (b : Ref sig .tc) (h : b ∉ wr28) :
    W28 m ρ c (Proc.devRef .tc b) = W27 m ρ c (Proc.devRef .tc b) :=
  StableHlo.after_of_writes_sub hostOps9_1 _ (wr28_sub (F := F)) h

/-- The references written between boundaries 28 and 29 (the results of `hostOps9_2`). -/
abbrev wr29 : List (Ref sig .tc) := [main_v120, main_v121, main_v122, main_cst_20, main_v123, main_v124, main_v125, main_v126, main_v127, main_v128, main_v129, main_v130, main_v131]
theorem wr29_sub : (hostOps9_2 : List (HloOp τ sig (Elt F))).Forall fun op => op.writes ⊆ (wr29.map (Proc.devRef (τ := τ) .tc)).toFinset := by
  simp only [hostOps9_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W29_keep (c : Dev nD) (b : Ref sig .tc) (h : b ∉ wr29) :
    W29 m ρ c (Proc.devRef .tc b) = W28 m ρ c (Proc.devRef .tc b) :=
  StableHlo.after_of_writes_sub hostOps9_2 _ (wr29_sub (F := F)) h

/-- The references written between boundaries 29 and 30 (region 9's output array). -/
abbrev wr30 : List (Ref sig .tc) := [main_v132]
theorem wr30_out : ∀ w : Fin cfg9.W, (cfg9.win w).isOut = true → Pipeline.arrRef spec9 w ∈ wr30 := by decide
theorem W30_keep (c : Dev nD) (b : Ref sig .tc) (h : b ∉ wr30) :
    W30 m ρ c (Proc.devRef .tc b) = W29 m ρ c (Proc.devRef .tc b) := by
  by_cases hb : ∃ w, Pipeline.arrRef spec9 w = b
  · obtain ⟨w, rfl⟩ := hb
    have hin : (cfg9.win w).isOut = false := by
      cases e : (cfg9.win w).isOut with
      | false => rfl
      | true => exact absurd (wr30_out w e) h
    exact (W30_arr m ρ c w).trans (((dat9 (V29 m ρ) c).arrAt_in w hin _).trans (A_eq9 (V29 m ρ) c w))
  · exact W30_of_ne m ρ c b fun w e => hb ⟨w, e⟩

/-- The references written between boundaries 30 and 31 (the results of `hostOps10`). -/
abbrev wr31 : List (Ref sig .tc) := [main_v133, main_v134, main_v135]
theorem wr31_sub : (hostOps10 : List (HloOp τ sig (Elt F))).Forall fun op => op.writes ⊆ (wr31.map (Proc.devRef (τ := τ) .tc)).toFinset := by
  simp only [hostOps10, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W31_keep (c : Dev nD) (b : Ref sig .tc) (h : b ∉ wr31) :
    W31 m ρ c (Proc.devRef .tc b) = W30 m ρ c (Proc.devRef .tc b) :=
  StableHlo.after_of_writes_sub hostOps10 _ (wr31_sub (F := F)) h

/-- The references written between boundaries 31 and 32 (region 10's output array). -/
abbrev wr32 : List (Ref sig .tc) := [main_v136]
theorem wr32_out : ∀ w : Fin cfg10.W, (cfg10.win w).isOut = true → Pipeline.arrRef spec10 w ∈ wr32 := by decide
theorem W32_keep (c : Dev nD) (b : Ref sig .tc) (h : b ∉ wr32) :
    W32 m ρ c (Proc.devRef .tc b) = W31 m ρ c (Proc.devRef .tc b) := by
  by_cases hb : ∃ w, Pipeline.arrRef spec10 w = b
  · obtain ⟨w, rfl⟩ := hb
    have hin : (cfg10.win w).isOut = false := by
      cases e : (cfg10.win w).isOut with
      | false => rfl
      | true => exact absurd (wr32_out w e) h
    exact (W32_arr m ρ c w).trans (((dat10 (V31 m ρ) c).arrAt_in w hin _).trans (A_eq10 (V31 m ρ) c w))
  · exact W32_of_ne m ρ c b fun w e => hb ⟨w, e⟩

/-- The references written between boundaries 32 and 33 (the results of `hostOps11`). -/
abbrev wr33 : List (Ref sig .tc) := [main_c_21, main_v137, main_v138, main_c_22, main_v139, main_v140, main_v141, main_v142, main_v143, main_c_23, main_v144, main_v145, main_c_24, main_v146, main_v147, main_v148, main_v149, main_v150, main_v151]
theorem wr33_sub : (hostOps11 : List (HloOp τ sig (Elt F))).Forall fun op => op.writes ⊆ (wr33.map (Proc.devRef (τ := τ) .tc)).toFinset := by
  simp only [hostOps11, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W33_keep (c : Dev nD) (b : Ref sig .tc) (h : b ∉ wr33) :
    W33 m ρ c (Proc.devRef .tc b) = W32 m ρ c (Proc.devRef .tc b) :=
  StableHlo.after_of_writes_sub hostOps11 _ (wr33_sub (F := F)) h

/-- The references written between boundaries 33 and 34 (the results of `hostOps11_1`). -/
abbrev wr34 : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v152]
theorem wr34_sub : (hostOps11_1 : List (HloOp τ sig (Elt F))).Forall fun op => op.writes ⊆ (wr34.map (Proc.devRef (τ := τ) .tc)).toFinset := by
  simp only [hostOps11_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W34_keep (c : Dev nD) (b : Ref sig .tc) (h : b ∉ wr34) :
    W34 m ρ c (Proc.devRef .tc b) = W33 m ρ c (Proc.devRef .tc b) :=
  StableHlo.after_of_writes_sub hostOps11_1 _ (wr34_sub (F := F)) h

/-- The references written between boundaries 34 and 35 (the results of `hostOps11_2`). -/
abbrev wr35 : List (Ref sig .tc) := [main_v153, main_v154, main_v155, main_cst_25, main_v156, main_v157, main_v158, main_v159, main_v160, main_v161, main_v162, main_v163, main_v164]
theorem wr35_sub : (hostOps11_2 : List (HloOp τ sig (Elt F))).Forall fun op => op.writes ⊆ (wr35.map (Proc.devRef (τ := τ) .tc)).toFinset := by
  simp only [hostOps11_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W35_keep (c : Dev nD) (b : Ref sig .tc) (h : b ∉ wr35) :
    W35 m ρ c (Proc.devRef .tc b) = W34 m ρ c (Proc.devRef .tc b) :=
  StableHlo.after_of_writes_sub hostOps11_2 _ (wr35_sub (F := F)) h

/-- The references written between boundaries 35 and 36 (region 11's output array). -/
abbrev wr36 : List (Ref sig .tc) := [main_v165]
theorem wr36_out : ∀ w : Fin cfg11.W, (cfg11.win w).isOut = true → Pipeline.arrRef spec11 w ∈ wr36 := by decide
theorem W36_keep (c : Dev nD) (b : Ref sig .tc) (h : b ∉ wr36) :
    W36 m ρ c (Proc.devRef .tc b) = W35 m ρ c (Proc.devRef .tc b) := by
  by_cases hb : ∃ w, Pipeline.arrRef spec11 w = b
  · obtain ⟨w, rfl⟩ := hb
    have hin : (cfg11.win w).isOut = false := by
      cases e : (cfg11.win w).isOut with
      | false => rfl
      | true => exact absurd (wr36_out w e) h
    exact (W36_arr m ρ c w).trans (((dat11 (V35 m ρ) c).arrAt_in w hin _).trans (A_eq11 (V35 m ρ) c w))
  · exact W36_of_ne m ρ c b fun w e => hb ⟨w, e⟩

/-- The references written between boundaries 36 and 37 (the results of `hostOps12`). -/
abbrev wr37 : List (Ref sig .tc) := [main_v166, main_v167, main_v168]
theorem wr37_sub : (hostOps12 : List (HloOp τ sig (Elt F))).Forall fun op => op.writes ⊆ (wr37.map (Proc.devRef (τ := τ) .tc)).toFinset := by
  simp only [hostOps12, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W37_keep (c : Dev nD) (b : Ref sig .tc) (h : b ∉ wr37) :
    W37 m ρ c (Proc.devRef .tc b) = W36 m ρ c (Proc.devRef .tc b) :=
  StableHlo.after_of_writes_sub hostOps12 _ (wr37_sub (F := F)) h

/-- The references written between boundaries 37 and 38 (region 12's output array). -/
abbrev wr38 : List (Ref sig .tc) := [main_v169]
theorem wr38_out : ∀ w : Fin cfg12.W, (cfg12.win w).isOut = true → Pipeline.arrRef spec12 w ∈ wr38 := by decide
theorem W38_keep (c : Dev nD) (b : Ref sig .tc) (h : b ∉ wr38) :
    W38 m ρ c (Proc.devRef .tc b) = W37 m ρ c (Proc.devRef .tc b) := by
  by_cases hb : ∃ w, Pipeline.arrRef spec12 w = b
  · obtain ⟨w, rfl⟩ := hb
    have hin : (cfg12.win w).isOut = false := by
      cases e : (cfg12.win w).isOut with
      | false => rfl
      | true => exact absurd (wr38_out w e) h
    exact (W38_arr m ρ c w).trans (((dat12 (V37 m ρ) c).arrAt_in w hin _).trans (A_eq12 (V37 m ρ) c w))
  · exact W38_of_ne m ρ c b fun w e => hb ⟨w, e⟩

/-- The references written between boundaries 38 and 39 (the results of `hostOps13`). -/
abbrev wr39 : List (Ref sig .tc) := [main_c_26, main_v170, main_v171, main_c_27, main_v172, main_v173, main_v174, main_v175, main_v176, main_c_28, main_v177, main_v178, main_c_29, main_v179, main_v180, main_v181, main_v182, main_v183, main_v184]
theorem wr39_sub : (hostOps13 : List (HloOp τ sig (Elt F))).Forall fun op => op.writes ⊆ (wr39.map (Proc.devRef (τ := τ) .tc)).toFinset := by
  simp only [hostOps13, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W39_keep (c : Dev nD) (b : Ref sig .tc) (h : b ∉ wr39) :
    W39 m ρ c (Proc.devRef .tc b) = W38 m ρ c (Proc.devRef .tc b) :=
  StableHlo.after_of_writes_sub hostOps13 _ (wr39_sub (F := F)) h

/-- The references written between boundaries 39 and 40 (the results of `hostOps13_1`). -/
abbrev wr40 : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v185]
theorem wr40_sub : (hostOps13_1 : List (HloOp τ sig (Elt F))).Forall fun op => op.writes ⊆ (wr40.map (Proc.devRef (τ := τ) .tc)).toFinset := by
  simp only [hostOps13_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W40_keep (c : Dev nD) (b : Ref sig .tc) (h : b ∉ wr40) :
    W40 m ρ c (Proc.devRef .tc b) = W39 m ρ c (Proc.devRef .tc b) :=
  StableHlo.after_of_writes_sub hostOps13_1 _ (wr40_sub (F := F)) h

/-- The references written between boundaries 40 and 41 (the results of `hostOps13_2`). -/
abbrev wr41 : List (Ref sig .tc) := [main_v186, main_v187, main_v188, main_cst_30, main_v189, main_v190, main_v191, main_v192, main_v193, main_v194, main_v195, main_v196, main_v197]
theorem wr41_sub : (hostOps13_2 : List (HloOp τ sig (Elt F))).Forall fun op => op.writes ⊆ (wr41.map (Proc.devRef (τ := τ) .tc)).toFinset := by
  simp only [hostOps13_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W41_keep (c : Dev nD) (b : Ref sig .tc) (h : b ∉ wr41) :
    W41 m ρ c (Proc.devRef .tc b) = W40 m ρ c (Proc.devRef .tc b) :=
  StableHlo.after_of_writes_sub hostOps13_2 _ (wr41_sub (F := F)) h

/-- The references written between boundaries 41 and 42 (region 13's output array). -/
abbrev wr42 : List (Ref sig .tc) := [main_v198]
theorem wr42_out : ∀ w : Fin cfg13.W, (cfg13.win w).isOut = true → Pipeline.arrRef spec13 w ∈ wr42 := by decide
theorem W42_keep (c : Dev nD) (b : Ref sig .tc) (h : b ∉ wr42) :
    W42 m ρ c (Proc.devRef .tc b) = W41 m ρ c (Proc.devRef .tc b) := by
  by_cases hb : ∃ w, Pipeline.arrRef spec13 w = b
  · obtain ⟨w, rfl⟩ := hb
    have hin : (cfg13.win w).isOut = false := by
      cases e : (cfg13.win w).isOut with
      | false => rfl
      | true => exact absurd (wr42_out w e) h
    exact (W42_arr m ρ c w).trans (((dat13 (V41 m ρ) c).arrAt_in w hin _).trans (A_eq13 (V41 m ρ) c w))
  · exact W42_of_ne m ρ c b fun w e => hb ⟨w, e⟩

/-- The references written between boundaries 42 and 43 (the results of `hostOps14`). -/
abbrev wr43 : List (Ref sig .tc) := [main_v199, main_v200, main_v201]
theorem wr43_sub : (hostOps14 : List (HloOp τ sig (Elt F))).Forall fun op => op.writes ⊆ (wr43.map (Proc.devRef (τ := τ) .tc)).toFinset := by
  simp only [hostOps14, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W43_keep (c : Dev nD) (b : Ref sig .tc) (h : b ∉ wr43) :
    W43 m ρ c (Proc.devRef .tc b) = W42 m ρ c (Proc.devRef .tc b) :=
  StableHlo.after_of_writes_sub hostOps14 _ (wr43_sub (F := F)) h

/-- The references written between boundaries 43 and 44 (region 14's output array). -/
abbrev wr44 : List (Ref sig .tc) := [main_v202]
theorem wr44_out : ∀ w : Fin cfg14.W, (cfg14.win w).isOut = true → Pipeline.arrRef spec14 w ∈ wr44 := by decide
theorem W44_keep (c : Dev nD) (b : Ref sig .tc) (h : b ∉ wr44) :
    W44 m ρ c (Proc.devRef .tc b) = W43 m ρ c (Proc.devRef .tc b) := by
  by_cases hb : ∃ w, Pipeline.arrRef spec14 w = b
  · obtain ⟨w, rfl⟩ := hb
    have hin : (cfg14.win w).isOut = false := by
      cases e : (cfg14.win w).isOut with
      | false => rfl
      | true => exact absurd (wr44_out w e) h
    exact (W44_arr m ρ c w).trans (((dat14 (V43 m ρ) c).arrAt_in w hin _).trans (A_eq14 (V43 m ρ) c w))
  · exact W44_of_ne m ρ c b fun w e => hb ⟨w, e⟩

/-- The references written between boundaries 44 and 45 (the results of `hostOps15`). -/
abbrev wr45 : List (Ref sig .tc) := [main_c_31, main_v203, main_v204, main_c_32, main_v205, main_v206, main_v207, main_v208, main_v209, main_c_33, main_v210, main_v211, main_c_34, main_v212, main_v213, main_v214, main_v215, main_v216, main_v217]
theorem wr45_sub : (hostOps15 : List (HloOp τ sig (Elt F))).Forall fun op => op.writes ⊆ (wr45.map (Proc.devRef (τ := τ) .tc)).toFinset := by
  simp only [hostOps15, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W45_keep (c : Dev nD) (b : Ref sig .tc) (h : b ∉ wr45) :
    W45 m ρ c (Proc.devRef .tc b) = W44 m ρ c (Proc.devRef .tc b) :=
  StableHlo.after_of_writes_sub hostOps15 _ (wr45_sub (F := F)) h

/-- The references written between boundaries 45 and 46 (the results of `hostOps15_1`). -/
abbrev wr46 : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v218]
theorem wr46_sub : (hostOps15_1 : List (HloOp τ sig (Elt F))).Forall fun op => op.writes ⊆ (wr46.map (Proc.devRef (τ := τ) .tc)).toFinset := by
  simp only [hostOps15_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W46_keep (c : Dev nD) (b : Ref sig .tc) (h : b ∉ wr46) :
    W46 m ρ c (Proc.devRef .tc b) = W45 m ρ c (Proc.devRef .tc b) :=
  StableHlo.after_of_writes_sub hostOps15_1 _ (wr46_sub (F := F)) h

/-- The references written between boundaries 46 and 47 (the results of `hostOps15_2`). -/
abbrev wr47 : List (Ref sig .tc) := [main_v219, main_v220, main_v221, main_cst_35, main_v222, main_v223, main_v224, main_v225, main_v226, main_v227, main_v228, main_v229, main_v230]
theorem wr47_sub : (hostOps15_2 : List (HloOp τ sig (Elt F))).Forall fun op => op.writes ⊆ (wr47.map (Proc.devRef (τ := τ) .tc)).toFinset := by
  simp only [hostOps15_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W47_keep (c : Dev nD) (b : Ref sig .tc) (h : b ∉ wr47) :
    W47 m ρ c (Proc.devRef .tc b) = W46 m ρ c (Proc.devRef .tc b) :=
  StableHlo.after_of_writes_sub hostOps15_2 _ (wr47_sub (F := F)) h

/-- The references written between boundaries 47 and 48 (region 15's output array). -/
abbrev wr48 : List (Ref sig .tc) := [main_v231]
theorem wr48_out : ∀ w : Fin cfg15.W, (cfg15.win w).isOut = true → Pipeline.arrRef spec15 w ∈ wr48 := by decide
theorem W48_keep (c : Dev nD) (b : Ref sig .tc) (h : b ∉ wr48) :
    W48 m ρ c (Proc.devRef .tc b) = W47 m ρ c (Proc.devRef .tc b) := by
  by_cases hb : ∃ w, Pipeline.arrRef spec15 w = b
  · obtain ⟨w, rfl⟩ := hb
    have hin : (cfg15.win w).isOut = false := by
      cases e : (cfg15.win w).isOut with
      | false => rfl
      | true => exact absurd (wr48_out w e) h
    exact (W48_arr m ρ c w).trans (((dat15 (V47 m ρ) c).arrAt_in w hin _).trans (A_eq15 (V47 m ρ) c w))
  · exact W48_of_ne m ρ c b fun w e => hb ⟨w, e⟩

/-- The references written between boundaries 48 and 49 (the results of `hostOps16`). -/
abbrev wr49 : List (Ref sig .tc) := [main_v232, main_v233, main_v234]
theorem wr49_sub : (hostOps16 : List (HloOp τ sig (Elt F))).Forall fun op => op.writes ⊆ (wr49.map (Proc.devRef (τ := τ) .tc)).toFinset := by
  simp only [hostOps16, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W49_keep (c : Dev nD) (b : Ref sig .tc) (h : b ∉ wr49) :
    W49 m ρ c (Proc.devRef .tc b) = W48 m ρ c (Proc.devRef .tc b) :=
  StableHlo.after_of_writes_sub hostOps16 _ (wr49_sub (F := F)) h

/-- The references written between boundaries 49 and 50 (region 16's output array). -/
abbrev wr50 : List (Ref sig .tc) := [main_v235]
theorem wr50_out : ∀ w : Fin cfg16.W, (cfg16.win w).isOut = true → Pipeline.arrRef spec16 w ∈ wr50 := by decide
theorem W50_keep (c : Dev nD) (b : Ref sig .tc) (h : b ∉ wr50) :
    W50 m ρ c (Proc.devRef .tc b) = W49 m ρ c (Proc.devRef .tc b) := by
  by_cases hb : ∃ w, Pipeline.arrRef spec16 w = b
  · obtain ⟨w, rfl⟩ := hb
    have hin : (cfg16.win w).isOut = false := by
      cases e : (cfg16.win w).isOut with
      | false => rfl
      | true => exact absurd (wr50_out w e) h
    exact (W50_arr m ρ c w).trans (((dat16 (V49 m ρ) c).arrAt_in w hin _).trans (A_eq16 (V49 m ρ) c w))
  · exact W50_of_ne m ρ c b fun w e => hb ⟨w, e⟩

/-- The references written between boundaries 50 and 51 (the results of `hostOps17`). -/
abbrev wr51 : List (Ref sig .tc) := [main_c_36, main_v236, main_v237, main_c_37, main_v238, main_v239, main_v240, main_v241, main_v242, main_c_38, main_v243, main_v244, main_c_39, main_v245, main_v246, main_v247, main_v248, main_v249, main_v250]
theorem wr51_sub : (hostOps17 : List (HloOp τ sig (Elt F))).Forall fun op => op.writes ⊆ (wr51.map (Proc.devRef (τ := τ) .tc)).toFinset := by
  simp only [hostOps17, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W51_keep (c : Dev nD) (b : Ref sig .tc) (h : b ∉ wr51) :
    W51 m ρ c (Proc.devRef .tc b) = W50 m ρ c (Proc.devRef .tc b) :=
  StableHlo.after_of_writes_sub hostOps17 _ (wr51_sub (F := F)) h

/-- The references written between boundaries 51 and 52 (the results of `hostOps17_1`). -/
abbrev wr52 : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v251]
theorem wr52_sub : (hostOps17_1 : List (HloOp τ sig (Elt F))).Forall fun op => op.writes ⊆ (wr52.map (Proc.devRef (τ := τ) .tc)).toFinset := by
  simp only [hostOps17_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W52_keep (c : Dev nD) (b : Ref sig .tc) (h : b ∉ wr52) :
    W52 m ρ c (Proc.devRef .tc b) = W51 m ρ c (Proc.devRef .tc b) :=
  StableHlo.after_of_writes_sub hostOps17_1 _ (wr52_sub (F := F)) h

/-- The references written between boundaries 52 and 53 (the results of `hostOps17_2`). -/
abbrev wr53 : List (Ref sig .tc) := [main_v252, main_v253, main_v254, main_cst_40, main_v255, main_v256, main_v257, main_v258, main_v259, main_v260, main_v261, main_v262, main_v263]
theorem wr53_sub : (hostOps17_2 : List (HloOp τ sig (Elt F))).Forall fun op => op.writes ⊆ (wr53.map (Proc.devRef (τ := τ) .tc)).toFinset := by
  simp only [hostOps17_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W53_keep (c : Dev nD) (b : Ref sig .tc) (h : b ∉ wr53) :
    W53 m ρ c (Proc.devRef .tc b) = W52 m ρ c (Proc.devRef .tc b) :=
  StableHlo.after_of_writes_sub hostOps17_2 _ (wr53_sub (F := F)) h

/-- The references written between boundaries 53 and 54 (region 17's output array). -/
abbrev wr54 : List (Ref sig .tc) := [main_v264]
theorem wr54_out : ∀ w : Fin cfg17.W, (cfg17.win w).isOut = true → Pipeline.arrRef spec17 w ∈ wr54 := by decide
theorem W54_keep (c : Dev nD) (b : Ref sig .tc) (h : b ∉ wr54) :
    W54 m ρ c (Proc.devRef .tc b) = W53 m ρ c (Proc.devRef .tc b) := by
  by_cases hb : ∃ w, Pipeline.arrRef spec17 w = b
  · obtain ⟨w, rfl⟩ := hb
    have hin : (cfg17.win w).isOut = false := by
      cases e : (cfg17.win w).isOut with
      | false => rfl
      | true => exact absurd (wr54_out w e) h
    exact (W54_arr m ρ c w).trans (((dat17 (V53 m ρ) c).arrAt_in w hin _).trans (A_eq17 (V53 m ρ) c w))
  · exact W54_of_ne m ρ c b fun w e => hb ⟨w, e⟩

/-- The references written between boundaries 54 and 55 (the results of `hostOps18`). -/
abbrev wr55 : List (Ref sig .tc) := [main_v265, main_v266, main_v267, main_v268, main_v269]
theorem wr55_sub : (hostOps18 : List (HloOp τ sig (Elt F))).Forall fun op => op.writes ⊆ (wr55.map (Proc.devRef (τ := τ) .tc)).toFinset := by
  simp only [hostOps18, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W55_keep (c : Dev nD) (b : Ref sig .tc) (h : b ∉ wr55) :
    W55 m ρ c (Proc.devRef .tc b) = W54 m ρ c (Proc.devRef .tc b) :=
  StableHlo.after_of_writes_sub hostOps18 _ (wr55_sub (F := F)) h

/-- The references written between boundaries 55 and 56 (region 18's output array). -/
abbrev wr56 : List (Ref sig .tc) := [main_v270]
theorem wr56_out : ∀ w : Fin cfg18.W, (cfg18.win w).isOut = true → Pipeline.arrRef spec18 w ∈ wr56 := by decide
theorem W56_keep (c : Dev nD) (b : Ref sig .tc) (h : b ∉ wr56) :
    W56 m ρ c (Proc.devRef .tc b) = W55 m ρ c (Proc.devRef .tc b) := by
  by_cases hb : ∃ w, Pipeline.arrRef spec18 w = b
  · obtain ⟨w, rfl⟩ := hb
    have hin : (cfg18.win w).isOut = false := by
      cases e : (cfg18.win w).isOut with
      | false => rfl
      | true => exact absurd (wr56_out w e) h
    exact (W56_arr m ρ c w).trans (((dat18 (V55 m ρ) c).arrAt_in w hin _).trans (A_eq18 (V55 m ρ) c w))
  · exact W56_of_ne m ρ c b fun w e => hb ⟨w, e⟩

/-- The references written between boundaries 56 and 57 (the results of `hostOps19`). -/
abbrev wr57 : List (Ref sig .tc) := [main_cst_41, main_v271, main_v272, main_cst_42, main_v273, main_v274, main_c_43]
theorem wr57_sub : (hostOps19 : List (HloOp τ sig (Elt F))).Forall fun op => op.writes ⊆ (wr57.map (Proc.devRef (τ := τ) .tc)).toFinset := by
  simp only [hostOps19, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W57_keep (c : Dev nD) (b : Ref sig .tc) (h : b ∉ wr57) :
    W57 m ρ c (Proc.devRef .tc b) = W56 m ρ c (Proc.devRef .tc b) :=
  StableHlo.after_of_writes_sub hostOps19 _ (wr57_sub (F := F)) h

/-- The references written between boundaries 57 and 58 (the results of `hostOps19_1`). -/
abbrev wr58 : List (Ref sig .tc) := [main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_v12, main_call9_cst_3, main_call9_v13, main_call9_cst_4, main_call9_call0_v0, main_call9_call0_v1, main_v275]
theorem wr58_sub : (hostOps19_1 : List (HloOp τ sig (Elt F))).Forall fun op => op.writes ⊆ (wr58.map (Proc.devRef (τ := τ) .tc)).toFinset := by
  simp only [hostOps19_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W58_keep (c : Dev nD) (b : Ref sig .tc) (h : b ∉ wr58) :
    W58 m ρ c (Proc.devRef .tc b) = W57 m ρ c (Proc.devRef .tc b) :=
  StableHlo.after_of_writes_sub hostOps19_1 _ (wr58_sub (F := F)) h

/-- The references written between boundaries 58 and 59 (the results of `hostOps19_2`). -/
abbrev wr59 : List (Ref sig .tc) := [main_v276, main_v277, main_v278, main_v279, main_v280, main_v281]
theorem wr59_sub : (hostOps19_2 : List (HloOp τ sig (Elt F))).Forall fun op => op.writes ⊆ (wr59.map (Proc.devRef (τ := τ) .tc)).toFinset := by
  simp only [hostOps19_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W59_keep (c : Dev nD) (b : Ref sig .tc) (h : b ∉ wr59) :
    W59 m ρ c (Proc.devRef .tc b) = W58 m ρ c (Proc.devRef .tc b) :=
  StableHlo.after_of_writes_sub hostOps19_2 _ (wr59_sub (F := F)) h

/-- The references written between boundaries 59 and 60 (region 19's output array). -/
abbrev wr60 : List (Ref sig .tc) := [main_v282]
theorem wr60_out : ∀ w : Fin cfg19.W, (cfg19.win w).isOut = true → Pipeline.arrRef spec19 w ∈ wr60 := by decide
theorem W60_keep (c : Dev nD) (b : Ref sig .tc) (h : b ∉ wr60) :
    W60 m ρ c (Proc.devRef .tc b) = W59 m ρ c (Proc.devRef .tc b) := by
  by_cases hb : ∃ w, Pipeline.arrRef spec19 w = b
  · obtain ⟨w, rfl⟩ := hb
    have hin : (cfg19.win w).isOut = false := by
      cases e : (cfg19.win w).isOut with
      | false => rfl
      | true => exact absurd (wr60_out w e) h
    exact (W60_arr m ρ c w).trans (((dat19 (V59 m ρ) c).arrAt_in w hin _).trans (A_eq19 (V59 m ρ) c w))
  · exact W60_of_ne m ρ c b fun w e => hb ⟨w, e⟩

/-- The references written between boundaries 60 and 61 (the results of `hostOps20`). -/
abbrev wr61 : List (Ref sig .tc) := [main_v283, main_v284, main_v285, main_v286, main_v287]
theorem wr61_sub : (hostOps20 : List (HloOp τ sig (Elt F))).Forall fun op => op.writes ⊆ (wr61.map (Proc.devRef (τ := τ) .tc)).toFinset := by
  simp only [hostOps20, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W61_keep (c : Dev nD) (b : Ref sig .tc) (h : b ∉ wr61) :
    W61 m ρ c (Proc.devRef .tc b) = W60 m ρ c (Proc.devRef .tc b) :=
  StableHlo.after_of_writes_sub hostOps20 _ (wr61_sub (F := F)) h

/-- The references written between boundaries 61 and 62 (region 20's output array). -/
abbrev wr62 : List (Ref sig .tc) := [main_v288]
theorem wr62_out : ∀ w : Fin cfg20.W, (cfg20.win w).isOut = true → Pipeline.arrRef spec20 w ∈ wr62 := by decide
theorem W62_keep (c : Dev nD) (b : Ref sig .tc) (h : b ∉ wr62) :
    W62 m ρ c (Proc.devRef .tc b) = W61 m ρ c (Proc.devRef .tc b) := by
  by_cases hb : ∃ w, Pipeline.arrRef spec20 w = b
  · obtain ⟨w, rfl⟩ := hb
    have hin : (cfg20.win w).isOut = false := by
      cases e : (cfg20.win w).isOut with
      | false => rfl
      | true => exact absurd (wr62_out w e) h
    exact (W62_arr m ρ c w).trans (((dat20 (V61 m ρ) c).arrAt_in w hin _).trans (A_eq20 (V61 m ρ) c w))
  · exact W62_of_ne m ρ c b fun w e => hb ⟨w, e⟩

/-- The references written between boundaries 62 and 63 (the results of `hostOps21`). -/
abbrev wr63 : List (Ref sig .tc) := [main_cst_44, main_v289, main_v290, main_cst_45, main_v291, main_v292, main_c_46]
theorem wr63_sub : (hostOps21 : List (HloOp τ sig (Elt F))).Forall fun op => op.writes ⊆ (wr63.map (Proc.devRef (τ := τ) .tc)).toFinset := by
  simp only [hostOps21, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W63_keep (c : Dev nD) (b : Ref sig .tc) (h : b ∉ wr63) :
    W63 m ρ c (Proc.devRef .tc b) = W62 m ρ c (Proc.devRef .tc b) :=
  StableHlo.after_of_writes_sub hostOps21 _ (wr63_sub (F := F)) h

/-- The references written between boundaries 63 and 64 (the results of `hostOps21_1`). -/
abbrev wr64 : List (Ref sig .tc) := [main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_v12, main_call10_cst_3, main_call10_v13, main_call10_cst_4, main_call10_call0_v0, main_call10_call0_v1, main_v293]
theorem wr64_sub : (hostOps21_1 : List (HloOp τ sig (Elt F))).Forall fun op => op.writes ⊆ (wr64.map (Proc.devRef (τ := τ) .tc)).toFinset := by
  simp only [hostOps21_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W64_keep (c : Dev nD) (b : Ref sig .tc) (h : b ∉ wr64) :
    W64 m ρ c (Proc.devRef .tc b) = W63 m ρ c (Proc.devRef .tc b) :=
  StableHlo.after_of_writes_sub hostOps21_1 _ (wr64_sub (F := F)) h

/-- The references written between boundaries 64 and 65 (the results of `hostOps21_2`). -/
abbrev wr65 : List (Ref sig .tc) := [main_v294, main_v295, main_v296, main_v297, main_v298, main_v299]
theorem wr65_sub : (hostOps21_2 : List (HloOp τ sig (Elt F))).Forall fun op => op.writes ⊆ (wr65.map (Proc.devRef (τ := τ) .tc)).toFinset := by
  simp only [hostOps21_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W65_keep (c : Dev nD) (b : Ref sig .tc) (h : b ∉ wr65) :
    W65 m ρ c (Proc.devRef .tc b) = W64 m ρ c (Proc.devRef .tc b) :=
  StableHlo.after_of_writes_sub hostOps21_2 _ (wr65_sub (F := F)) h

/-- The references written between boundaries 65 and 66 (region 21's output array). -/
abbrev wr66 : List (Ref sig .tc) := [main_v300]
theorem wr66_out : ∀ w : Fin cfg21.W, (cfg21.win w).isOut = true → Pipeline.arrRef spec21 w ∈ wr66 := by decide
theorem W66_keep (c : Dev nD) (b : Ref sig .tc) (h : b ∉ wr66) :
    W66 m ρ c (Proc.devRef .tc b) = W65 m ρ c (Proc.devRef .tc b) := by
  by_cases hb : ∃ w, Pipeline.arrRef spec21 w = b
  · obtain ⟨w, rfl⟩ := hb
    have hin : (cfg21.win w).isOut = false := by
      cases e : (cfg21.win w).isOut with
      | false => rfl
      | true => exact absurd (wr66_out w e) h
    exact (W66_arr m ρ c w).trans (((dat21 (V65 m ρ) c).arrAt_in w hin _).trans (A_eq21 (V65 m ρ) c w))
  · exact W66_of_ne m ρ c b fun w e => hb ⟨w, e⟩

/-- The references written between boundaries 66 and 67 (the results of `hostOps22`). -/
abbrev wr67 : List (Ref sig .tc) := [main_v301, main_v302, main_v303, main_v304, main_v305]
theorem wr67_sub : (hostOps22 : List (HloOp τ sig (Elt F))).Forall fun op => op.writes ⊆ (wr67.map (Proc.devRef (τ := τ) .tc)).toFinset := by
  simp only [hostOps22, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W67_keep (c : Dev nD) (b : Ref sig .tc) (h : b ∉ wr67) :
    W67 m ρ c (Proc.devRef .tc b) = W66 m ρ c (Proc.devRef .tc b) :=
  StableHlo.after_of_writes_sub hostOps22 _ (wr67_sub (F := F)) h

/-- The references written between boundaries 67 and 68 (region 22's output array). -/
abbrev wr68 : List (Ref sig .tc) := [main_v306]
theorem wr68_out : ∀ w : Fin cfg22.W, (cfg22.win w).isOut = true → Pipeline.arrRef spec22 w ∈ wr68 := by decide
theorem W68_keep (c : Dev nD) (b : Ref sig .tc) (h : b ∉ wr68) :
    W68 m ρ c (Proc.devRef .tc b) = W67 m ρ c (Proc.devRef .tc b) := by
  by_cases hb : ∃ w, Pipeline.arrRef spec22 w = b
  · obtain ⟨w, rfl⟩ := hb
    have hin : (cfg22.win w).isOut = false := by
      cases e : (cfg22.win w).isOut with
      | false => rfl
      | true => exact absurd (wr68_out w e) h
    exact (W68_arr m ρ c w).trans (((dat22 (V67 m ρ) c).arrAt_in w hin _).trans (A_eq22 (V67 m ρ) c w))
  · exact W68_of_ne m ρ c b fun w e => hb ⟨w, e⟩

/-- The references written between boundaries 68 and 69 (the results of `hostOps23`). -/
abbrev wr69 : List (Ref sig .tc) := [main_cst_47, main_v307, main_v308, main_cst_48, main_v309, main_v310, main_c_49]
theorem wr69_sub : (hostOps23 : List (HloOp τ sig (Elt F))).Forall fun op => op.writes ⊆ (wr69.map (Proc.devRef (τ := τ) .tc)).toFinset := by
  simp only [hostOps23, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W69_keep (c : Dev nD) (b : Ref sig .tc) (h : b ∉ wr69) :
    W69 m ρ c (Proc.devRef .tc b) = W68 m ρ c (Proc.devRef .tc b) :=
  StableHlo.after_of_writes_sub hostOps23 _ (wr69_sub (F := F)) h

/-- The references written between boundaries 69 and 70 (the results of `hostOps23_1`). -/
abbrev wr70 : List (Ref sig .tc) := [main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_v12, main_call11_cst_3, main_call11_v13, main_call11_cst_4, main_call11_call0_v0, main_call11_call0_v1, main_v311]
theorem wr70_sub : (hostOps23_1 : List (HloOp τ sig (Elt F))).Forall fun op => op.writes ⊆ (wr70.map (Proc.devRef (τ := τ) .tc)).toFinset := by
  simp only [hostOps23_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W70_keep (c : Dev nD) (b : Ref sig .tc) (h : b ∉ wr70) :
    W70 m ρ c (Proc.devRef .tc b) = W69 m ρ c (Proc.devRef .tc b) :=
  StableHlo.after_of_writes_sub hostOps23_1 _ (wr70_sub (F := F)) h

/-- The references written between boundaries 70 and 71 (the results of `hostOps23_2`). -/
abbrev wr71 : List (Ref sig .tc) := [main_v312, main_v313, main_v314, main_v315, main_v316, main_v317]
theorem wr71_sub : (hostOps23_2 : List (HloOp τ sig (Elt F))).Forall fun op => op.writes ⊆ (wr71.map (Proc.devRef (τ := τ) .tc)).toFinset := by
  simp only [hostOps23_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W71_keep (c : Dev nD) (b : Ref sig .tc) (h : b ∉ wr71) :
    W71 m ρ c (Proc.devRef .tc b) = W70 m ρ c (Proc.devRef .tc b) :=
  StableHlo.after_of_writes_sub hostOps23_2 _ (wr71_sub (F := F)) h

/-- The references written between boundaries 71 and 72 (region 23's output array). -/
abbrev wr72 : List (Ref sig .tc) := [main_v318]
theorem wr72_out : ∀ w : Fin cfg23.W, (cfg23.win w).isOut = true → Pipeline.arrRef spec23 w ∈ wr72 := by decide
theorem W72_keep (c : Dev nD) (b : Ref sig .tc) (h : b ∉ wr72) :
    W72 m ρ c (Proc.devRef .tc b) = W71 m ρ c (Proc.devRef .tc b) := by
  by_cases hb : ∃ w, Pipeline.arrRef spec23 w = b
  · obtain ⟨w, rfl⟩ := hb
    have hin : (cfg23.win w).isOut = false := by
      cases e : (cfg23.win w).isOut with
      | false => rfl
      | true => exact absurd (wr72_out w e) h
    exact (W72_arr m ρ c w).trans (((dat23 (V71 m ρ) c).arrAt_in w hin _).trans (A_eq23 (V71 m ρ) c w))
  · exact W72_of_ne m ρ c b fun w e => hb ⟨w, e⟩

/-- The references written between boundaries 72 and 73 (the results of `hostOps24`). -/
abbrev wr73 : List (Ref sig .tc) := [main_cst_50, main_v319, main_cst_51, main_v320, main_v321, main_v322, main_cst_52, main_v323, main_v324, main_v325, main_cst_53, main_v326, main_v327, main_v328, main_v329, main_v330, main_v331, main_v332, main_v333, main_v334]
theorem wr73_sub : (hostOps24 : List (HloOp τ sig (Elt F))).Forall fun op => op.writes ⊆ (wr73.map (Proc.devRef (τ := τ) .tc)).toFinset := by
  simp only [hostOps24, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W73_keep (c : Dev nD) (b : Ref sig .tc) (h : b ∉ wr73) :
    W73 m ρ c (Proc.devRef .tc b) = W72 m ρ c (Proc.devRef .tc b) :=
  StableHlo.after_of_writes_sub hostOps24 _ (wr73_sub (F := F)) h

/-- The references written between boundaries 73 and 74 (the results of `hostOps24_1`). -/
abbrev wr74 : List (Ref sig .tc) := [main_call12_cst, main_call12_v0, main_v335]
theorem wr74_sub : (hostOps24_1 : List (HloOp τ sig (Elt F))).Forall fun op => op.writes ⊆ (wr74.map (Proc.devRef (τ := τ) .tc)).toFinset := by
  simp only [hostOps24_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W74_keep (c : Dev nD) (b : Ref sig .tc) (h : b ∉ wr74) :
    W74 m ρ c (Proc.devRef .tc b) = W73 m ρ c (Proc.devRef .tc b) :=
  StableHlo.after_of_writes_sub hostOps24_1 _ (wr74_sub (F := F)) h

/-- The references written between boundaries 74 and 75 (the results of `hostOps24_2`). -/
abbrev wr75 : List (Ref sig .tc) := [main_v336, main_v337, main_v338, main_v339]
theorem wr75_sub : (hostOps24_2 : List (HloOp τ sig (Elt F))).Forall fun op => op.writes ⊆ (wr75.map (Proc.devRef (τ := τ) .tc)).toFinset := by
  simp only [hostOps24_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W75_keep (c : Dev nD) (b : Ref sig .tc) (h : b ∉ wr75) :
    W75 m ρ c (Proc.devRef .tc b) = W74 m ρ c (Proc.devRef .tc b) :=
  StableHlo.after_of_writes_sub hostOps24_2 _ (wr75_sub (F := F)) h

/-- The references written between boundaries 75 and 76 (the results of `hostOps24_3`). -/
abbrev wr76 : List (Ref sig .tc) := [main_call13_cst, main_call13_v0, main_v340]
theorem wr76_sub : (hostOps24_3 : List (HloOp τ sig (Elt F))).Forall fun op => op.writes ⊆ (wr76.map (Proc.devRef (τ := τ) .tc)).toFinset := by
  simp only [hostOps24_3, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W76_keep (c : Dev nD) (b : Ref sig .tc) (h : b ∉ wr76) :
    W76 m ρ c (Proc.devRef .tc b) = W75 m ρ c (Proc.devRef .tc b) :=
  StableHlo.after_of_writes_sub hostOps24_3 _ (wr76_sub (F := F)) h

/-- The references written between boundaries 76 and 77 (the results of `hostOps24_4`). -/
abbrev wr77 : List (Ref sig .tc) := [main_v341, main_v342, main_v343, main_v344]
theorem wr77_sub : (hostOps24_4 : List (HloOp τ sig (Elt F))).Forall fun op => op.writes ⊆ (wr77.map (Proc.devRef (τ := τ) .tc)).toFinset := by
  simp only [hostOps24_4, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)
theorem W77_keep (c : Dev nD) (b : Ref sig .tc) (h : b ∉ wr77) :
    W77 m ρ c (Proc.devRef .tc b) = W76 m ρ c (Proc.devRef .tc b) :=
  StableHlo.after_of_writes_sub hostOps24_4 _ (wr77_sub (F := F)) h

/-! # A layer at a time: boundaries 6l to 6l+6 -/

/-- The references layer 0 (boundaries 0 to 6) writes. -/
abbrev wrL0 : List (Ref sig .tc) := wr1 ++ (wr2 ++ (wr3 ++ (wr4 ++ (wr5 ++ (wr6)))))
theorem L0_keep (c : Dev nD) (b : Ref sig .tc) (h : b ∉ wrL0) :
    W6 m ρ c (Proc.devRef .tc b) = W0 m ρ c (Proc.devRef .tc b) :=
  (W6_keep m ρ c b (not_mem_right (not_mem_right (not_mem_right (not_mem_right (not_mem_right h)))))).trans ((W5_keep m ρ c b (not_mem_left (not_mem_right (not_mem_right (not_mem_right (not_mem_right h)))))).trans ((W4_keep m ρ c b (not_mem_left (not_mem_right (not_mem_right (not_mem_right h))))).trans ((W3_keep m ρ c b (not_mem_left (not_mem_right (not_mem_right h)))).trans ((W2_keep m ρ c b (not_mem_left (not_mem_right h))).trans (W1_keep m ρ c b (not_mem_left h))))))

/-- The references layer 1 (boundaries 6 to 12) writes. -/
abbrev wrL1 : List (Ref sig .tc) := wr7 ++ (wr8 ++ (wr9 ++ (wr10 ++ (wr11 ++ (wr12)))))
theorem L1_keep (c : Dev nD) (b : Ref sig .tc) (h : b ∉ wrL1) :
    W12 m ρ c (Proc.devRef .tc b) = W6 m ρ c (Proc.devRef .tc b) :=
  (W12_keep m ρ c b (not_mem_right (not_mem_right (not_mem_right (not_mem_right (not_mem_right h)))))).trans ((W11_keep m ρ c b (not_mem_left (not_mem_right (not_mem_right (not_mem_right (not_mem_right h)))))).trans ((W10_keep m ρ c b (not_mem_left (not_mem_right (not_mem_right (not_mem_right h))))).trans ((W9_keep m ρ c b (not_mem_left (not_mem_right (not_mem_right h)))).trans ((W8_keep m ρ c b (not_mem_left (not_mem_right h))).trans (W7_keep m ρ c b (not_mem_left h))))))

/-- The references layer 2 (boundaries 12 to 18) writes. -/
abbrev wrL2 : List (Ref sig .tc) := wr13 ++ (wr14 ++ (wr15 ++ (wr16 ++ (wr17 ++ (wr18)))))
theorem L2_keep (c : Dev nD) (b : Ref sig .tc) (h : b ∉ wrL2) :
    W18 m ρ c (Proc.devRef .tc b) = W12 m ρ c (Proc.devRef .tc b) :=
  (W18_keep m ρ c b (not_mem_right (not_mem_right (not_mem_right (not_mem_right (not_mem_right h)))))).trans ((W17_keep m ρ c b (not_mem_left (not_mem_right (not_mem_right (not_mem_right (not_mem_right h)))))).trans ((W16_keep m ρ c b (not_mem_left (not_mem_right (not_mem_right (not_mem_right h))))).trans ((W15_keep m ρ c b (not_mem_left (not_mem_right (not_mem_right h)))).trans ((W14_keep m ρ c b (not_mem_left (not_mem_right h))).trans (W13_keep m ρ c b (not_mem_left h))))))

/-- The references layer 3 (boundaries 18 to 24) writes. -/
abbrev wrL3 : List (Ref sig .tc) := wr19 ++ (wr20 ++ (wr21 ++ (wr22 ++ (wr23 ++ (wr24)))))
theorem L3_keep (c : Dev nD) (b : Ref sig .tc) (h : b ∉ wrL3) :
    W24 m ρ c (Proc.devRef .tc b) = W18 m ρ c (Proc.devRef .tc b) :=
  (W24_keep m ρ c b (not_mem_right (not_mem_right (not_mem_right (not_mem_right (not_mem_right h)))))).trans ((W23_keep m ρ c b (not_mem_left (not_mem_right (not_mem_right (not_mem_right (not_mem_right h)))))).trans ((W22_keep m ρ c b (not_mem_left (not_mem_right (not_mem_right (not_mem_right h))))).trans ((W21_keep m ρ c b (not_mem_left (not_mem_right (not_mem_right h)))).trans ((W20_keep m ρ c b (not_mem_left (not_mem_right h))).trans (W19_keep m ρ c b (not_mem_left h))))))

/-- The references layer 4 (boundaries 24 to 30) writes. -/
abbrev wrL4 : List (Ref sig .tc) := wr25 ++ (wr26 ++ (wr27 ++ (wr28 ++ (wr29 ++ (wr30)))))
theorem L4_keep (c : Dev nD) (b : Ref sig .tc) (h : b ∉ wrL4) :
    W30 m ρ c (Proc.devRef .tc b) = W24 m ρ c (Proc.devRef .tc b) :=
  (W30_keep m ρ c b (not_mem_right (not_mem_right (not_mem_right (not_mem_right (not_mem_right h)))))).trans ((W29_keep m ρ c b (not_mem_left (not_mem_right (not_mem_right (not_mem_right (not_mem_right h)))))).trans ((W28_keep m ρ c b (not_mem_left (not_mem_right (not_mem_right (not_mem_right h))))).trans ((W27_keep m ρ c b (not_mem_left (not_mem_right (not_mem_right h)))).trans ((W26_keep m ρ c b (not_mem_left (not_mem_right h))).trans (W25_keep m ρ c b (not_mem_left h))))))

/-- The references layer 5 (boundaries 30 to 36) writes. -/
abbrev wrL5 : List (Ref sig .tc) := wr31 ++ (wr32 ++ (wr33 ++ (wr34 ++ (wr35 ++ (wr36)))))
theorem L5_keep (c : Dev nD) (b : Ref sig .tc) (h : b ∉ wrL5) :
    W36 m ρ c (Proc.devRef .tc b) = W30 m ρ c (Proc.devRef .tc b) :=
  (W36_keep m ρ c b (not_mem_right (not_mem_right (not_mem_right (not_mem_right (not_mem_right h)))))).trans ((W35_keep m ρ c b (not_mem_left (not_mem_right (not_mem_right (not_mem_right (not_mem_right h)))))).trans ((W34_keep m ρ c b (not_mem_left (not_mem_right (not_mem_right (not_mem_right h))))).trans ((W33_keep m ρ c b (not_mem_left (not_mem_right (not_mem_right h)))).trans ((W32_keep m ρ c b (not_mem_left (not_mem_right h))).trans (W31_keep m ρ c b (not_mem_left h))))))

/-- The references layer 6 (boundaries 36 to 42) writes. -/
abbrev wrL6 : List (Ref sig .tc) := wr37 ++ (wr38 ++ (wr39 ++ (wr40 ++ (wr41 ++ (wr42)))))
theorem L6_keep (c : Dev nD) (b : Ref sig .tc) (h : b ∉ wrL6) :
    W42 m ρ c (Proc.devRef .tc b) = W36 m ρ c (Proc.devRef .tc b) :=
  (W42_keep m ρ c b (not_mem_right (not_mem_right (not_mem_right (not_mem_right (not_mem_right h)))))).trans ((W41_keep m ρ c b (not_mem_left (not_mem_right (not_mem_right (not_mem_right (not_mem_right h)))))).trans ((W40_keep m ρ c b (not_mem_left (not_mem_right (not_mem_right (not_mem_right h))))).trans ((W39_keep m ρ c b (not_mem_left (not_mem_right (not_mem_right h)))).trans ((W38_keep m ρ c b (not_mem_left (not_mem_right h))).trans (W37_keep m ρ c b (not_mem_left h))))))

/-- The references layer 7 (boundaries 42 to 48) writes. -/
abbrev wrL7 : List (Ref sig .tc) := wr43 ++ (wr44 ++ (wr45 ++ (wr46 ++ (wr47 ++ (wr48)))))
theorem L7_keep (c : Dev nD) (b : Ref sig .tc) (h : b ∉ wrL7) :
    W48 m ρ c (Proc.devRef .tc b) = W42 m ρ c (Proc.devRef .tc b) :=
  (W48_keep m ρ c b (not_mem_right (not_mem_right (not_mem_right (not_mem_right (not_mem_right h)))))).trans ((W47_keep m ρ c b (not_mem_left (not_mem_right (not_mem_right (not_mem_right (not_mem_right h)))))).trans ((W46_keep m ρ c b (not_mem_left (not_mem_right (not_mem_right (not_mem_right h))))).trans ((W45_keep m ρ c b (not_mem_left (not_mem_right (not_mem_right h)))).trans ((W44_keep m ρ c b (not_mem_left (not_mem_right h))).trans (W43_keep m ρ c b (not_mem_left h))))))

/-- The references layer 8 (boundaries 48 to 54) writes. -/
abbrev wrL8 : List (Ref sig .tc) := wr49 ++ (wr50 ++ (wr51 ++ (wr52 ++ (wr53 ++ (wr54)))))
theorem L8_keep (c : Dev nD) (b : Ref sig .tc) (h : b ∉ wrL8) :
    W54 m ρ c (Proc.devRef .tc b) = W48 m ρ c (Proc.devRef .tc b) :=
  (W54_keep m ρ c b (not_mem_right (not_mem_right (not_mem_right (not_mem_right (not_mem_right h)))))).trans ((W53_keep m ρ c b (not_mem_left (not_mem_right (not_mem_right (not_mem_right (not_mem_right h)))))).trans ((W52_keep m ρ c b (not_mem_left (not_mem_right (not_mem_right (not_mem_right h))))).trans ((W51_keep m ρ c b (not_mem_left (not_mem_right (not_mem_right h)))).trans ((W50_keep m ρ c b (not_mem_left (not_mem_right h))).trans (W49_keep m ρ c b (not_mem_left h))))))

/-- The references layer 9 (boundaries 54 to 60) writes. -/
abbrev wrL9 : List (Ref sig .tc) := wr55 ++ (wr56 ++ (wr57 ++ (wr58 ++ (wr59 ++ (wr60)))))
theorem L9_keep (c : Dev nD) (b : Ref sig .tc) (h : b ∉ wrL9) :
    W60 m ρ c (Proc.devRef .tc b) = W54 m ρ c (Proc.devRef .tc b) :=
  (W60_keep m ρ c b (not_mem_right (not_mem_right (not_mem_right (not_mem_right (not_mem_right h)))))).trans ((W59_keep m ρ c b (not_mem_left (not_mem_right (not_mem_right (not_mem_right (not_mem_right h)))))).trans ((W58_keep m ρ c b (not_mem_left (not_mem_right (not_mem_right (not_mem_right h))))).trans ((W57_keep m ρ c b (not_mem_left (not_mem_right (not_mem_right h)))).trans ((W56_keep m ρ c b (not_mem_left (not_mem_right h))).trans (W55_keep m ρ c b (not_mem_left h))))))

/-- The references layer 10 (boundaries 60 to 66) writes. -/
abbrev wrL10 : List (Ref sig .tc) := wr61 ++ (wr62 ++ (wr63 ++ (wr64 ++ (wr65 ++ (wr66)))))
theorem L10_keep (c : Dev nD) (b : Ref sig .tc) (h : b ∉ wrL10) :
    W66 m ρ c (Proc.devRef .tc b) = W60 m ρ c (Proc.devRef .tc b) :=
  (W66_keep m ρ c b (not_mem_right (not_mem_right (not_mem_right (not_mem_right (not_mem_right h)))))).trans ((W65_keep m ρ c b (not_mem_left (not_mem_right (not_mem_right (not_mem_right (not_mem_right h)))))).trans ((W64_keep m ρ c b (not_mem_left (not_mem_right (not_mem_right (not_mem_right h))))).trans ((W63_keep m ρ c b (not_mem_left (not_mem_right (not_mem_right h)))).trans ((W62_keep m ρ c b (not_mem_left (not_mem_right h))).trans (W61_keep m ρ c b (not_mem_left h))))))

/-- The references layer 11 (boundaries 66 to 72) writes. -/
abbrev wrL11 : List (Ref sig .tc) := wr67 ++ (wr68 ++ (wr69 ++ (wr70 ++ (wr71 ++ (wr72)))))
theorem L11_keep (c : Dev nD) (b : Ref sig .tc) (h : b ∉ wrL11) :
    W72 m ρ c (Proc.devRef .tc b) = W66 m ρ c (Proc.devRef .tc b) :=
  (W72_keep m ρ c b (not_mem_right (not_mem_right (not_mem_right (not_mem_right (not_mem_right h)))))).trans ((W71_keep m ρ c b (not_mem_left (not_mem_right (not_mem_right (not_mem_right (not_mem_right h)))))).trans ((W70_keep m ρ c b (not_mem_left (not_mem_right (not_mem_right (not_mem_right h))))).trans ((W69_keep m ρ c b (not_mem_left (not_mem_right (not_mem_right h)))).trans ((W68_keep m ρ c b (not_mem_left (not_mem_right h))).trans (W67_keep m ρ c b (not_mem_left h))))))

end Cert.KernelIdeal.Hand

end
-- ==== Proof.KKeep.lean ====
import proofs.«409001_j25520695673361_2_alg».proof.Proof.KKeepSteps

set_option maxRecDepth 16384

noncomputable section

namespace Cert.KernelIdeal.Hand

open Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-! # The arguments at the layer boundaries: as launched -/

theorem W6_arg0 (c : Dev nD) : W6 m ρ c (Proc.devRef .tc main_arg0) = m ((c : Thread nD τ).loc main_arg0) :=
  (L0_keep m ρ c main_arg0 (by decide)).trans (rfl)
theorem W6_arg1 (c : Dev nD) : W6 m ρ c (Proc.devRef .tc main_arg1) = m ((c : Thread nD τ).loc main_arg1) :=
  (L0_keep m ρ c main_arg1 (by decide)).trans (rfl)
theorem W6_arg2 (c : Dev nD) : W6 m ρ c (Proc.devRef .tc main_arg2) = m ((c : Thread nD τ).loc main_arg2) :=
  (L0_keep m ρ c main_arg2 (by decide)).trans (rfl)
theorem W6_arg3 (c : Dev nD) : W6 m ρ c (Proc.devRef .tc main_arg3) = m ((c : Thread nD τ).loc main_arg3) :=
  (L0_keep m ρ c main_arg3 (by decide)).trans (rfl)
theorem W6_arg4 (c : Dev nD) : W6 m ρ c (Proc.devRef .tc main_arg4) = m ((c : Thread nD τ).loc main_arg4) :=
  (L0_keep m ρ c main_arg4 (by decide)).trans (rfl)
theorem W6_arg5 (c : Dev nD) : W6 m ρ c (Proc.devRef .tc main_arg5) = m ((c : Thread nD τ).loc main_arg5) :=
  (L0_keep m ρ c main_arg5 (by decide)).trans (rfl)
theorem W6_arg6 (c : Dev nD) : W6 m ρ c (Proc.devRef .tc main_arg6) = m ((c : Thread nD τ).loc main_arg6) :=
  (L0_keep m ρ c main_arg6 (by decide)).trans (rfl)
theorem W6_arg7 (c : Dev nD) : W6 m ρ c (Proc.devRef .tc main_arg7) = m ((c : Thread nD τ).loc main_arg7) :=
  (L0_keep m ρ c main_arg7 (by decide)).trans (rfl)
theorem W6_arg8 (c : Dev nD) : W6 m ρ c (Proc.devRef .tc main_arg8) = m ((c : Thread nD τ).loc main_arg8) :=
  (L0_keep m ρ c main_arg8 (by decide)).trans (rfl)
theorem W6_arg9 (c : Dev nD) : W6 m ρ c (Proc.devRef .tc main_arg9) = m ((c : Thread nD τ).loc main_arg9) :=
  (L0_keep m ρ c main_arg9 (by decide)).trans (rfl)
theorem W6_arg10 (c : Dev nD) : W6 m ρ c (Proc.devRef .tc main_arg10) = m ((c : Thread nD τ).loc main_arg10) :=
  (L0_keep m ρ c main_arg10 (by decide)).trans (rfl)
theorem W6_arg11 (c : Dev nD) : W6 m ρ c (Proc.devRef .tc main_arg11) = m ((c : Thread nD τ).loc main_arg11) :=
  (L0_keep m ρ c main_arg11 (by decide)).trans (rfl)
theorem W6_arg12 (c : Dev nD) : W6 m ρ c (Proc.devRef .tc main_arg12) = m ((c : Thread nD τ).loc main_arg12) :=
  (L0_keep m ρ c main_arg12 (by decide)).trans (rfl)
theorem W6_arg13 (c : Dev nD) : W6 m ρ c (Proc.devRef .tc main_arg13) = m ((c : Thread nD τ).loc main_arg13) :=
  (L0_keep m ρ c main_arg13 (by decide)).trans (rfl)
theorem W6_arg14 (c : Dev nD) : W6 m ρ c (Proc.devRef .tc main_arg14) = m ((c : Thread nD τ).loc main_arg14) :=
  (L0_keep m ρ c main_arg14 (by decide)).trans (rfl)
theorem W6_arg15 (c : Dev nD) : W6 m ρ c (Proc.devRef .tc main_arg15) = m ((c : Thread nD τ).loc main_arg15) :=
  (L0_keep m ρ c main_arg15 (by decide)).trans (rfl)
theorem W6_arg16 (c : Dev nD) : W6 m ρ c (Proc.devRef .tc main_arg16) = m ((c : Thread nD τ).loc main_arg16) :=
  (L0_keep m ρ c main_arg16 (by decide)).trans (rfl)
theorem W6_arg17 (c : Dev nD) : W6 m ρ c (Proc.devRef .tc main_arg17) = m ((c : Thread nD τ).loc main_arg17) :=
  (L0_keep m ρ c main_arg17 (by decide)).trans (rfl)
theorem W6_arg18 (c : Dev nD) : W6 m ρ c (Proc.devRef .tc main_arg18) = m ((c : Thread nD τ).loc main_arg18) :=
  (L0_keep m ρ c main_arg18 (by decide)).trans (rfl)

theorem W12_arg0 (c : Dev nD) : W12 m ρ c (Proc.devRef .tc main_arg0) = m ((c : Thread nD τ).loc main_arg0) :=
  (L1_keep m ρ c main_arg0 (by decide)).trans (W6_arg0 m ρ c)
theorem W12_arg1 (c : Dev nD) : W12 m ρ c (Proc.devRef .tc main_arg1) = m ((c : Thread nD τ).loc main_arg1) :=
  (L1_keep m ρ c main_arg1 (by decide)).trans (W6_arg1 m ρ c)
theorem W12_arg2 (c : Dev nD) : W12 m ρ c (Proc.devRef .tc main_arg2) = m ((c : Thread nD τ).loc main_arg2) :=
  (L1_keep m ρ c main_arg2 (by decide)).trans (W6_arg2 m ρ c)
theorem W12_arg3 (c : Dev nD) : W12 m ρ c (Proc.devRef .tc main_arg3) = m ((c : Thread nD τ).loc main_arg3) :=
  (L1_keep m ρ c main_arg3 (by decide)).trans (W6_arg3 m ρ c)
theorem W12_arg4 (c : Dev nD) : W12 m ρ c (Proc.devRef .tc main_arg4) = m ((c : Thread nD τ).loc main_arg4) :=
  (L1_keep m ρ c main_arg4 (by decide)).trans (W6_arg4 m ρ c)
theorem W12_arg5 (c : Dev nD) : W12 m ρ c (Proc.devRef .tc main_arg5) = m ((c : Thread nD τ).loc main_arg5) :=
  (L1_keep m ρ c main_arg5 (by decide)).trans (W6_arg5 m ρ c)
theorem W12_arg6 (c : Dev nD) : W12 m ρ c (Proc.devRef .tc main_arg6) = m ((c : Thread nD τ).loc main_arg6) :=
  (L1_keep m ρ c main_arg6 (by decide)).trans (W6_arg6 m ρ c)
theorem W12_arg7 (c : Dev nD) : W12 m ρ c (Proc.devRef .tc main_arg7) = m ((c : Thread nD τ).loc main_arg7) :=
  (L1_keep m ρ c main_arg7 (by decide)).trans (W6_arg7 m ρ c)
theorem W12_arg8 (c : Dev nD) : W12 m ρ c (Proc.devRef .tc main_arg8) = m ((c : Thread nD τ).loc main_arg8) :=
  (L1_keep m ρ c main_arg8 (by decide)).trans (W6_arg8 m ρ c)
theorem W12_arg9 (c : Dev nD) : W12 m ρ c (Proc.devRef .tc main_arg9) = m ((c : Thread nD τ).loc main_arg9) :=
  (L1_keep m ρ c main_arg9 (by decide)).trans (W6_arg9 m ρ c)
theorem W12_arg10 (c : Dev nD) : W12 m ρ c (Proc.devRef .tc main_arg10) = m ((c : Thread nD τ).loc main_arg10) :=
  (L1_keep m ρ c main_arg10 (by decide)).trans (W6_arg10 m ρ c)
theorem W12_arg11 (c : Dev nD) : W12 m ρ c (Proc.devRef .tc main_arg11) = m ((c : Thread nD τ).loc main_arg11) :=
  (L1_keep m ρ c main_arg11 (by decide)).trans (W6_arg11 m ρ c)
theorem W12_arg12 (c : Dev nD) : W12 m ρ c (Proc.devRef .tc main_arg12) = m ((c : Thread nD τ).loc main_arg12) :=
  (L1_keep m ρ c main_arg12 (by decide)).trans (W6_arg12 m ρ c)
theorem W12_arg13 (c : Dev nD) : W12 m ρ c (Proc.devRef .tc main_arg13) = m ((c : Thread nD τ).loc main_arg13) :=
  (L1_keep m ρ c main_arg13 (by decide)).trans (W6_arg13 m ρ c)
theorem W12_arg14 (c : Dev nD) : W12 m ρ c (Proc.devRef .tc main_arg14) = m ((c : Thread nD τ).loc main_arg14) :=
  (L1_keep m ρ c main_arg14 (by decide)).trans (W6_arg14 m ρ c)
theorem W12_arg15 (c : Dev nD) : W12 m ρ c (Proc.devRef .tc main_arg15) = m ((c : Thread nD τ).loc main_arg15) :=
  (L1_keep m ρ c main_arg15 (by decide)).trans (W6_arg15 m ρ c)
theorem W12_arg16 (c : Dev nD) : W12 m ρ c (Proc.devRef .tc main_arg16) = m ((c : Thread nD τ).loc main_arg16) :=
  (L1_keep m ρ c main_arg16 (by decide)).trans (W6_arg16 m ρ c)
theorem W12_arg17 (c : Dev nD) : W12 m ρ c (Proc.devRef .tc main_arg17) = m ((c : Thread nD τ).loc main_arg17) :=
  (L1_keep m ρ c main_arg17 (by decide)).trans (W6_arg17 m ρ c)
theorem W12_arg18 (c : Dev nD) : W12 m ρ c (Proc.devRef .tc main_arg18) = m ((c : Thread nD τ).loc main_arg18) :=
  (L1_keep m ρ c main_arg18 (by decide)).trans (W6_arg18 m ρ c)

theorem W18_arg0 (c : Dev nD) : W18 m ρ c (Proc.devRef .tc main_arg0) = m ((c : Thread nD τ).loc main_arg0) :=
  (L2_keep m ρ c main_arg0 (by decide)).trans (W12_arg0 m ρ c)
theorem W18_arg1 (c : Dev nD) : W18 m ρ c (Proc.devRef .tc main_arg1) = m ((c : Thread nD τ).loc main_arg1) :=
  (L2_keep m ρ c main_arg1 (by decide)).trans (W12_arg1 m ρ c)
theorem W18_arg2 (c : Dev nD) : W18 m ρ c (Proc.devRef .tc main_arg2) = m ((c : Thread nD τ).loc main_arg2) :=
  (L2_keep m ρ c main_arg2 (by decide)).trans (W12_arg2 m ρ c)
theorem W18_arg3 (c : Dev nD) : W18 m ρ c (Proc.devRef .tc main_arg3) = m ((c : Thread nD τ).loc main_arg3) :=
  (L2_keep m ρ c main_arg3 (by decide)).trans (W12_arg3 m ρ c)
theorem W18_arg4 (c : Dev nD) : W18 m ρ c (Proc.devRef .tc main_arg4) = m ((c : Thread nD τ).loc main_arg4) :=
  (L2_keep m ρ c main_arg4 (by decide)).trans (W12_arg4 m ρ c)
theorem W18_arg5 (c : Dev nD) : W18 m ρ c (Proc.devRef .tc main_arg5) = m ((c : Thread nD τ).loc main_arg5) :=
  (L2_keep m ρ c main_arg5 (by decide)).trans (W12_arg5 m ρ c)
theorem W18_arg6 (c : Dev nD) : W18 m ρ c (Proc.devRef .tc main_arg6) = m ((c : Thread nD τ).loc main_arg6) :=
  (L2_keep m ρ c main_arg6 (by decide)).trans (W12_arg6 m ρ c)
theorem W18_arg7 (c : Dev nD) : W18 m ρ c (Proc.devRef .tc main_arg7) = m ((c : Thread nD τ).loc main_arg7) :=
  (L2_keep m ρ c main_arg7 (by decide)).trans (W12_arg7 m ρ c)
theorem W18_arg8 (c : Dev nD) : W18 m ρ c (Proc.devRef .tc main_arg8) = m ((c : Thread nD τ).loc main_arg8) :=
  (L2_keep m ρ c main_arg8 (by decide)).trans (W12_arg8 m ρ c)
theorem W18_arg9 (c : Dev nD) : W18 m ρ c (Proc.devRef .tc main_arg9) = m ((c : Thread nD τ).loc main_arg9) :=
  (L2_keep m ρ c main_arg9 (by decide)).trans (W12_arg9 m ρ c)
theorem W18_arg10 (c : Dev nD) : W18 m ρ c (Proc.devRef .tc main_arg10) = m ((c : Thread nD τ).loc main_arg10) :=
  (L2_keep m ρ c main_arg10 (by decide)).trans (W12_arg10 m ρ c)
theorem W18_arg11 (c : Dev nD) : W18 m ρ c (Proc.devRef .tc main_arg11) = m ((c : Thread nD τ).loc main_arg11) :=
  (L2_keep m ρ c main_arg11 (by decide)).trans (W12_arg11 m ρ c)
theorem W18_arg12 (c : Dev nD) : W18 m ρ c (Proc.devRef .tc main_arg12) = m ((c : Thread nD τ).loc main_arg12) :=
  (L2_keep m ρ c main_arg12 (by decide)).trans (W12_arg12 m ρ c)
theorem W18_arg13 (c : Dev nD) : W18 m ρ c (Proc.devRef .tc main_arg13) = m ((c : Thread nD τ).loc main_arg13) :=
  (L2_keep m ρ c main_arg13 (by decide)).trans (W12_arg13 m ρ c)
theorem W18_arg14 (c : Dev nD) : W18 m ρ c (Proc.devRef .tc main_arg14) = m ((c : Thread nD τ).loc main_arg14) :=
  (L2_keep m ρ c main_arg14 (by decide)).trans (W12_arg14 m ρ c)
theorem W18_arg15 (c : Dev nD) : W18 m ρ c (Proc.devRef .tc main_arg15) = m ((c : Thread nD τ).loc main_arg15) :=
  (L2_keep m ρ c main_arg15 (by decide)).trans (W12_arg15 m ρ c)
theorem W18_arg16 (c : Dev nD) : W18 m ρ c (Proc.devRef .tc main_arg16) = m ((c : Thread nD τ).loc main_arg16) :=
  (L2_keep m ρ c main_arg16 (by decide)).trans (W12_arg16 m ρ c)
theorem W18_arg17 (c : Dev nD) : W18 m ρ c (Proc.devRef .tc main_arg17) = m ((c : Thread nD τ).loc main_arg17) :=
  (L2_keep m ρ c main_arg17 (by decide)).trans (W12_arg17 m ρ c)
theorem W18_arg18 (c : Dev nD) : W18 m ρ c (Proc.devRef .tc main_arg18) = m ((c : Thread nD τ).loc main_arg18) :=
  (L2_keep m ρ c main_arg18 (by decide)).trans (W12_arg18 m ρ c)

theorem W24_arg0 (c : Dev nD) : W24 m ρ c (Proc.devRef .tc main_arg0) = m ((c : Thread nD τ).loc main_arg0) :=
  (L3_keep m ρ c main_arg0 (by decide)).trans (W18_arg0 m ρ c)
theorem W24_arg1 (c : Dev nD) : W24 m ρ c (Proc.devRef .tc main_arg1) = m ((c : Thread nD τ).loc main_arg1) :=
  (L3_keep m ρ c main_arg1 (by decide)).trans (W18_arg1 m ρ c)
theorem W24_arg2 (c : Dev nD) : W24 m ρ c (Proc.devRef .tc main_arg2) = m ((c : Thread nD τ).loc main_arg2) :=
  (L3_keep m ρ c main_arg2 (by decide)).trans (W18_arg2 m ρ c)
theorem W24_arg3 (c : Dev nD) : W24 m ρ c (Proc.devRef .tc main_arg3) = m ((c : Thread nD τ).loc main_arg3) :=
  (L3_keep m ρ c main_arg3 (by decide)).trans (W18_arg3 m ρ c)
theorem W24_arg4 (c : Dev nD) : W24 m ρ c (Proc.devRef .tc main_arg4) = m ((c : Thread nD τ).loc main_arg4) :=
  (L3_keep m ρ c main_arg4 (by decide)).trans (W18_arg4 m ρ c)
theorem W24_arg5 (c : Dev nD) : W24 m ρ c (Proc.devRef .tc main_arg5) = m ((c : Thread nD τ).loc main_arg5) :=
  (L3_keep m ρ c main_arg5 (by decide)).trans (W18_arg5 m ρ c)
theorem W24_arg6 (c : Dev nD) : W24 m ρ c (Proc.devRef .tc main_arg6) = m ((c : Thread nD τ).loc main_arg6) :=
  (L3_keep m ρ c main_arg6 (by decide)).trans (W18_arg6 m ρ c)
theorem W24_arg7 (c : Dev nD) : W24 m ρ c (Proc.devRef .tc main_arg7) = m ((c : Thread nD τ).loc main_arg7) :=
  (L3_keep m ρ c main_arg7 (by decide)).trans (W18_arg7 m ρ c)
theorem W24_arg8 (c : Dev nD) : W24 m ρ c (Proc.devRef .tc main_arg8) = m ((c : Thread nD τ).loc main_arg8) :=
  (L3_keep m ρ c main_arg8 (by decide)).trans (W18_arg8 m ρ c)
theorem W24_arg9 (c : Dev nD) : W24 m ρ c (Proc.devRef .tc main_arg9) = m ((c : Thread nD τ).loc main_arg9) :=
  (L3_keep m ρ c main_arg9 (by decide)).trans (W18_arg9 m ρ c)
theorem W24_arg10 (c : Dev nD) : W24 m ρ c (Proc.devRef .tc main_arg10) = m ((c : Thread nD τ).loc main_arg10) :=
  (L3_keep m ρ c main_arg10 (by decide)).trans (W18_arg10 m ρ c)
theorem W24_arg11 (c : Dev nD) : W24 m ρ c (Proc.devRef .tc main_arg11) = m ((c : Thread nD τ).loc main_arg11) :=
  (L3_keep m ρ c main_arg11 (by decide)).trans (W18_arg11 m ρ c)
theorem W24_arg12 (c : Dev nD) : W24 m ρ c (Proc.devRef .tc main_arg12) = m ((c : Thread nD τ).loc main_arg12) :=
  (L3_keep m ρ c main_arg12 (by decide)).trans (W18_arg12 m ρ c)
theorem W24_arg13 (c : Dev nD) : W24 m ρ c (Proc.devRef .tc main_arg13) = m ((c : Thread nD τ).loc main_arg13) :=
  (L3_keep m ρ c main_arg13 (by decide)).trans (W18_arg13 m ρ c)
theorem W24_arg14 (c : Dev nD) : W24 m ρ c (Proc.devRef .tc main_arg14) = m ((c : Thread nD τ).loc main_arg14) :=
  (L3_keep m ρ c main_arg14 (by decide)).trans (W18_arg14 m ρ c)
theorem W24_arg15 (c : Dev nD) : W24 m ρ c (Proc.devRef .tc main_arg15) = m ((c : Thread nD τ).loc main_arg15) :=
  (L3_keep m ρ c main_arg15 (by decide)).trans (W18_arg15 m ρ c)
theorem W24_arg16 (c : Dev nD) : W24 m ρ c (Proc.devRef .tc main_arg16) = m ((c : Thread nD τ).loc main_arg16) :=
  (L3_keep m ρ c main_arg16 (by decide)).trans (W18_arg16 m ρ c)
theorem W24_arg17 (c : Dev nD) : W24 m ρ c (Proc.devRef .tc main_arg17) = m ((c : Thread nD τ).loc main_arg17) :=
  (L3_keep m ρ c main_arg17 (by decide)).trans (W18_arg17 m ρ c)
theorem W24_arg18 (c : Dev nD) : W24 m ρ c (Proc.devRef .tc main_arg18) = m ((c : Thread nD τ).loc main_arg18) :=
  (L3_keep m ρ c main_arg18 (by decide)).trans (W18_arg18 m ρ c)

theorem W30_arg0 (c : Dev nD) : W30 m ρ c (Proc.devRef .tc main_arg0) = m ((c : Thread nD τ).loc main_arg0) :=
  (L4_keep m ρ c main_arg0 (by decide)).trans (W24_arg0 m ρ c)
theorem W30_arg1 (c : Dev nD) : W30 m ρ c (Proc.devRef .tc main_arg1) = m ((c : Thread nD τ).loc main_arg1) :=
  (L4_keep m ρ c main_arg1 (by decide)).trans (W24_arg1 m ρ c)
theorem W30_arg2 (c : Dev nD) : W30 m ρ c (Proc.devRef .tc main_arg2) = m ((c : Thread nD τ).loc main_arg2) :=
  (L4_keep m ρ c main_arg2 (by decide)).trans (W24_arg2 m ρ c)
theorem W30_arg3 (c : Dev nD) : W30 m ρ c (Proc.devRef .tc main_arg3) = m ((c : Thread nD τ).loc main_arg3) :=
  (L4_keep m ρ c main_arg3 (by decide)).trans (W24_arg3 m ρ c)
theorem W30_arg4 (c : Dev nD) : W30 m ρ c (Proc.devRef .tc main_arg4) = m ((c : Thread nD τ).loc main_arg4) :=
  (L4_keep m ρ c main_arg4 (by decide)).trans (W24_arg4 m ρ c)
theorem W30_arg5 (c : Dev nD) : W30 m ρ c (Proc.devRef .tc main_arg5) = m ((c : Thread nD τ).loc main_arg5) :=
  (L4_keep m ρ c main_arg5 (by decide)).trans (W24_arg5 m ρ c)
theorem W30_arg6 (c : Dev nD) : W30 m ρ c (Proc.devRef .tc main_arg6) = m ((c : Thread nD τ).loc main_arg6) :=
  (L4_keep m ρ c main_arg6 (by decide)).trans (W24_arg6 m ρ c)
theorem W30_arg7 (c : Dev nD) : W30 m ρ c (Proc.devRef .tc main_arg7) = m ((c : Thread nD τ).loc main_arg7) :=
  (L4_keep m ρ c main_arg7 (by decide)).trans (W24_arg7 m ρ c)
theorem W30_arg8 (c : Dev nD) : W30 m ρ c (Proc.devRef .tc main_arg8) = m ((c : Thread nD τ).loc main_arg8) :=
  (L4_keep m ρ c main_arg8 (by decide)).trans (W24_arg8 m ρ c)
theorem W30_arg9 (c : Dev nD) : W30 m ρ c (Proc.devRef .tc main_arg9) = m ((c : Thread nD τ).loc main_arg9) :=
  (L4_keep m ρ c main_arg9 (by decide)).trans (W24_arg9 m ρ c)
theorem W30_arg10 (c : Dev nD) : W30 m ρ c (Proc.devRef .tc main_arg10) = m ((c : Thread nD τ).loc main_arg10) :=
  (L4_keep m ρ c main_arg10 (by decide)).trans (W24_arg10 m ρ c)
theorem W30_arg11 (c : Dev nD) : W30 m ρ c (Proc.devRef .tc main_arg11) = m ((c : Thread nD τ).loc main_arg11) :=
  (L4_keep m ρ c main_arg11 (by decide)).trans (W24_arg11 m ρ c)
theorem W30_arg12 (c : Dev nD) : W30 m ρ c (Proc.devRef .tc main_arg12) = m ((c : Thread nD τ).loc main_arg12) :=
  (L4_keep m ρ c main_arg12 (by decide)).trans (W24_arg12 m ρ c)
theorem W30_arg13 (c : Dev nD) : W30 m ρ c (Proc.devRef .tc main_arg13) = m ((c : Thread nD τ).loc main_arg13) :=
  (L4_keep m ρ c main_arg13 (by decide)).trans (W24_arg13 m ρ c)
theorem W30_arg14 (c : Dev nD) : W30 m ρ c (Proc.devRef .tc main_arg14) = m ((c : Thread nD τ).loc main_arg14) :=
  (L4_keep m ρ c main_arg14 (by decide)).trans (W24_arg14 m ρ c)
theorem W30_arg15 (c : Dev nD) : W30 m ρ c (Proc.devRef .tc main_arg15) = m ((c : Thread nD τ).loc main_arg15) :=
  (L4_keep m ρ c main_arg15 (by decide)).trans (W24_arg15 m ρ c)
theorem W30_arg16 (c : Dev nD) : W30 m ρ c (Proc.devRef .tc main_arg16) = m ((c : Thread nD τ).loc main_arg16) :=
  (L4_keep m ρ c main_arg16 (by decide)).trans (W24_arg16 m ρ c)
theorem W30_arg17 (c : Dev nD) : W30 m ρ c (Proc.devRef .tc main_arg17) = m ((c : Thread nD τ).loc main_arg17) :=
  (L4_keep m ρ c main_arg17 (by decide)).trans (W24_arg17 m ρ c)
theorem W30_arg18 (c : Dev nD) : W30 m ρ c (Proc.devRef .tc main_arg18) = m ((c : Thread nD τ).loc main_arg18) :=
  (L4_keep m ρ c main_arg18 (by decide)).trans (W24_arg18 m ρ c)

theorem W36_arg0 (c : Dev nD) : W36 m ρ c (Proc.devRef .tc main_arg0) = m ((c : Thread nD τ).loc main_arg0) :=
  (L5_keep m ρ c main_arg0 (by decide)).trans (W30_arg0 m ρ c)
theorem W36_arg1 (c : Dev nD) : W36 m ρ c (Proc.devRef .tc main_arg1) = m ((c : Thread nD τ).loc main_arg1) :=
  (L5_keep m ρ c main_arg1 (by decide)).trans (W30_arg1 m ρ c)
theorem W36_arg2 (c : Dev nD) : W36 m ρ c (Proc.devRef .tc main_arg2) = m ((c : Thread nD τ).loc main_arg2) :=
  (L5_keep m ρ c main_arg2 (by decide)).trans (W30_arg2 m ρ c)
theorem W36_arg3 (c : Dev nD) : W36 m ρ c (Proc.devRef .tc main_arg3) = m ((c : Thread nD τ).loc main_arg3) :=
  (L5_keep m ρ c main_arg3 (by decide)).trans (W30_arg3 m ρ c)
theorem W36_arg4 (c : Dev nD) : W36 m ρ c (Proc.devRef .tc main_arg4) = m ((c : Thread nD τ).loc main_arg4) :=
  (L5_keep m ρ c main_arg4 (by decide)).trans (W30_arg4 m ρ c)
theorem W36_arg5 (c : Dev nD) : W36 m ρ c (Proc.devRef .tc main_arg5) = m ((c : Thread nD τ).loc main_arg5) :=
  (L5_keep m ρ c main_arg5 (by decide)).trans (W30_arg5 m ρ c)
theorem W36_arg6 (c : Dev nD) : W36 m ρ c (Proc.devRef .tc main_arg6) = m ((c : Thread nD τ).loc main_arg6) :=
  (L5_keep m ρ c main_arg6 (by decide)).trans (W30_arg6 m ρ c)
theorem W36_arg7 (c : Dev nD) : W36 m ρ c (Proc.devRef .tc main_arg7) = m ((c : Thread nD τ).loc main_arg7) :=
  (L5_keep m ρ c main_arg7 (by decide)).trans (W30_arg7 m ρ c)
theorem W36_arg8 (c : Dev nD) : W36 m ρ c (Proc.devRef .tc main_arg8) = m ((c : Thread nD τ).loc main_arg8) :=
  (L5_keep m ρ c main_arg8 (by decide)).trans (W30_arg8 m ρ c)
theorem W36_arg9 (c : Dev nD) : W36 m ρ c (Proc.devRef .tc main_arg9) = m ((c : Thread nD τ).loc main_arg9) :=
  (L5_keep m ρ c main_arg9 (by decide)).trans (W30_arg9 m ρ c)
theorem W36_arg10 (c : Dev nD) : W36 m ρ c (Proc.devRef .tc main_arg10) = m ((c : Thread nD τ).loc main_arg10) :=
  (L5_keep m ρ c main_arg10 (by decide)).trans (W30_arg10 m ρ c)
theorem W36_arg11 (c : Dev nD) : W36 m ρ c (Proc.devRef .tc main_arg11) = m ((c : Thread nD τ).loc main_arg11) :=
  (L5_keep m ρ c main_arg11 (by decide)).trans (W30_arg11 m ρ c)
theorem W36_arg12 (c : Dev nD) : W36 m ρ c (Proc.devRef .tc main_arg12) = m ((c : Thread nD τ).loc main_arg12) :=
  (L5_keep m ρ c main_arg12 (by decide)).trans (W30_arg12 m ρ c)
theorem W36_arg13 (c : Dev nD) : W36 m ρ c (Proc.devRef .tc main_arg13) = m ((c : Thread nD τ).loc main_arg13) :=
  (L5_keep m ρ c main_arg13 (by decide)).trans (W30_arg13 m ρ c)
theorem W36_arg14 (c : Dev nD) : W36 m ρ c (Proc.devRef .tc main_arg14) = m ((c : Thread nD τ).loc main_arg14) :=
  (L5_keep m ρ c main_arg14 (by decide)).trans (W30_arg14 m ρ c)
theorem W36_arg15 (c : Dev nD) : W36 m ρ c (Proc.devRef .tc main_arg15) = m ((c : Thread nD τ).loc main_arg15) :=
  (L5_keep m ρ c main_arg15 (by decide)).trans (W30_arg15 m ρ c)
theorem W36_arg16 (c : Dev nD) : W36 m ρ c (Proc.devRef .tc main_arg16) = m ((c : Thread nD τ).loc main_arg16) :=
  (L5_keep m ρ c main_arg16 (by decide)).trans (W30_arg16 m ρ c)
theorem W36_arg17 (c : Dev nD) : W36 m ρ c (Proc.devRef .tc main_arg17) = m ((c : Thread nD τ).loc main_arg17) :=
  (L5_keep m ρ c main_arg17 (by decide)).trans (W30_arg17 m ρ c)
theorem W36_arg18 (c : Dev nD) : W36 m ρ c (Proc.devRef .tc main_arg18) = m ((c : Thread nD τ).loc main_arg18) :=
  (L5_keep m ρ c main_arg18 (by decide)).trans (W30_arg18 m ρ c)

theorem W42_arg0 (c : Dev nD) : W42 m ρ c (Proc.devRef .tc main_arg0) = m ((c : Thread nD τ).loc main_arg0) :=
  (L6_keep m ρ c main_arg0 (by decide)).trans (W36_arg0 m ρ c)
theorem W42_arg1 (c : Dev nD) : W42 m ρ c (Proc.devRef .tc main_arg1) = m ((c : Thread nD τ).loc main_arg1) :=
  (L6_keep m ρ c main_arg1 (by decide)).trans (W36_arg1 m ρ c)
theorem W42_arg2 (c : Dev nD) : W42 m ρ c (Proc.devRef .tc main_arg2) = m ((c : Thread nD τ).loc main_arg2) :=
  (L6_keep m ρ c main_arg2 (by decide)).trans (W36_arg2 m ρ c)
theorem W42_arg3 (c : Dev nD) : W42 m ρ c (Proc.devRef .tc main_arg3) = m ((c : Thread nD τ).loc main_arg3) :=
  (L6_keep m ρ c main_arg3 (by decide)).trans (W36_arg3 m ρ c)
theorem W42_arg4 (c : Dev nD) : W42 m ρ c (Proc.devRef .tc main_arg4) = m ((c : Thread nD τ).loc main_arg4) :=
  (L6_keep m ρ c main_arg4 (by decide)).trans (W36_arg4 m ρ c)
theorem W42_arg5 (c : Dev nD) : W42 m ρ c (Proc.devRef .tc main_arg5) = m ((c : Thread nD τ).loc main_arg5) :=
  (L6_keep m ρ c main_arg5 (by decide)).trans (W36_arg5 m ρ c)
theorem W42_arg6 (c : Dev nD) : W42 m ρ c (Proc.devRef .tc main_arg6) = m ((c : Thread nD τ).loc main_arg6) :=
  (L6_keep m ρ c main_arg6 (by decide)).trans (W36_arg6 m ρ c)
theorem W42_arg7 (c : Dev nD) : W42 m ρ c (Proc.devRef .tc main_arg7) = m ((c : Thread nD τ).loc main_arg7) :=
  (L6_keep m ρ c main_arg7 (by decide)).trans (W36_arg7 m ρ c)
theorem W42_arg8 (c : Dev nD) : W42 m ρ c (Proc.devRef .tc main_arg8) = m ((c : Thread nD τ).loc main_arg8) :=
  (L6_keep m ρ c main_arg8 (by decide)).trans (W36_arg8 m ρ c)
theorem W42_arg9 (c : Dev nD) : W42 m ρ c (Proc.devRef .tc main_arg9) = m ((c : Thread nD τ).loc main_arg9) :=
  (L6_keep m ρ c main_arg9 (by decide)).trans (W36_arg9 m ρ c)
theorem W42_arg10 (c : Dev nD) : W42 m ρ c (Proc.devRef .tc main_arg10) = m ((c : Thread nD τ).loc main_arg10) :=
  (L6_keep m ρ c main_arg10 (by decide)).trans (W36_arg10 m ρ c)
theorem W42_arg11 (c : Dev nD) : W42 m ρ c (Proc.devRef .tc main_arg11) = m ((c : Thread nD τ).loc main_arg11) :=
  (L6_keep m ρ c main_arg11 (by decide)).trans (W36_arg11 m ρ c)
theorem W42_arg12 (c : Dev nD) : W42 m ρ c (Proc.devRef .tc main_arg12) = m ((c : Thread nD τ).loc main_arg12) :=
  (L6_keep m ρ c main_arg12 (by decide)).trans (W36_arg12 m ρ c)
theorem W42_arg13 (c : Dev nD) : W42 m ρ c (Proc.devRef .tc main_arg13) = m ((c : Thread nD τ).loc main_arg13) :=
  (L6_keep m ρ c main_arg13 (by decide)).trans (W36_arg13 m ρ c)
theorem W42_arg14 (c : Dev nD) : W42 m ρ c (Proc.devRef .tc main_arg14) = m ((c : Thread nD τ).loc main_arg14) :=
  (L6_keep m ρ c main_arg14 (by decide)).trans (W36_arg14 m ρ c)
theorem W42_arg15 (c : Dev nD) : W42 m ρ c (Proc.devRef .tc main_arg15) = m ((c : Thread nD τ).loc main_arg15) :=
  (L6_keep m ρ c main_arg15 (by decide)).trans (W36_arg15 m ρ c)
theorem W42_arg16 (c : Dev nD) : W42 m ρ c (Proc.devRef .tc main_arg16) = m ((c : Thread nD τ).loc main_arg16) :=
  (L6_keep m ρ c main_arg16 (by decide)).trans (W36_arg16 m ρ c)
theorem W42_arg17 (c : Dev nD) : W42 m ρ c (Proc.devRef .tc main_arg17) = m ((c : Thread nD τ).loc main_arg17) :=
  (L6_keep m ρ c main_arg17 (by decide)).trans (W36_arg17 m ρ c)
theorem W42_arg18 (c : Dev nD) : W42 m ρ c (Proc.devRef .tc main_arg18) = m ((c : Thread nD τ).loc main_arg18) :=
  (L6_keep m ρ c main_arg18 (by decide)).trans (W36_arg18 m ρ c)

theorem W48_arg0 (c : Dev nD) : W48 m ρ c (Proc.devRef .tc main_arg0) = m ((c : Thread nD τ).loc main_arg0) :=
  (L7_keep m ρ c main_arg0 (by decide)).trans (W42_arg0 m ρ c)
theorem W48_arg1 (c : Dev nD) : W48 m ρ c (Proc.devRef .tc main_arg1) = m ((c : Thread nD τ).loc main_arg1) :=
  (L7_keep m ρ c main_arg1 (by decide)).trans (W42_arg1 m ρ c)
theorem W48_arg2 (c : Dev nD) : W48 m ρ c (Proc.devRef .tc main_arg2) = m ((c : Thread nD τ).loc main_arg2) :=
  (L7_keep m ρ c main_arg2 (by decide)).trans (W42_arg2 m ρ c)
theorem W48_arg3 (c : Dev nD) : W48 m ρ c (Proc.devRef .tc main_arg3) = m ((c : Thread nD τ).loc main_arg3) :=
  (L7_keep m ρ c main_arg3 (by decide)).trans (W42_arg3 m ρ c)
theorem W48_arg4 (c : Dev nD) : W48 m ρ c (Proc.devRef .tc main_arg4) = m ((c : Thread nD τ).loc main_arg4) :=
  (L7_keep m ρ c main_arg4 (by decide)).trans (W42_arg4 m ρ c)
theorem W48_arg5 (c : Dev nD) : W48 m ρ c (Proc.devRef .tc main_arg5) = m ((c : Thread nD τ).loc main_arg5) :=
  (L7_keep m ρ c main_arg5 (by decide)).trans (W42_arg5 m ρ c)
theorem W48_arg6 (c : Dev nD) : W48 m ρ c (Proc.devRef .tc main_arg6) = m ((c : Thread nD τ).loc main_arg6) :=
  (L7_keep m ρ c main_arg6 (by decide)).trans (W42_arg6 m ρ c)
theorem W48_arg7 (c : Dev nD) : W48 m ρ c (Proc.devRef .tc main_arg7) = m ((c : Thread nD τ).loc main_arg7) :=
  (L7_keep m ρ c main_arg7 (by decide)).trans (W42_arg7 m ρ c)
theorem W48_arg8 (c : Dev nD) : W48 m ρ c (Proc.devRef .tc main_arg8) = m ((c : Thread nD τ).loc main_arg8) :=
  (L7_keep m ρ c main_arg8 (by decide)).trans (W42_arg8 m ρ c)
theorem W48_arg9 (c : Dev nD) : W48 m ρ c (Proc.devRef .tc main_arg9) = m ((c : Thread nD τ).loc main_arg9) :=
  (L7_keep m ρ c main_arg9 (by decide)).trans (W42_arg9 m ρ c)
theorem W48_arg10 (c : Dev nD) : W48 m ρ c (Proc.devRef .tc main_arg10) = m ((c : Thread nD τ).loc main_arg10) :=
  (L7_keep m ρ c main_arg10 (by decide)).trans (W42_arg10 m ρ c)
theorem W48_arg11 (c : Dev nD) : W48 m ρ c (Proc.devRef .tc main_arg11) = m ((c : Thread nD τ).loc main_arg11) :=
  (L7_keep m ρ c main_arg11 (by decide)).trans (W42_arg11 m ρ c)
theorem W48_arg12 (c : Dev nD) : W48 m ρ c (Proc.devRef .tc main_arg12) = m ((c : Thread nD τ).loc main_arg12) :=
  (L7_keep m ρ c main_arg12 (by decide)).trans (W42_arg12 m ρ c)
theorem W48_arg13 (c : Dev nD) : W48 m ρ c (Proc.devRef .tc main_arg13) = m ((c : Thread nD τ).loc main_arg13) :=
  (L7_keep m ρ c main_arg13 (by decide)).trans (W42_arg13 m ρ c)
theorem W48_arg14 (c : Dev nD) : W48 m ρ c (Proc.devRef .tc main_arg14) = m ((c : Thread nD τ).loc main_arg14) :=
  (L7_keep m ρ c main_arg14 (by decide)).trans (W42_arg14 m ρ c)
theorem W48_arg15 (c : Dev nD) : W48 m ρ c (Proc.devRef .tc main_arg15) = m ((c : Thread nD τ).loc main_arg15) :=
  (L7_keep m ρ c main_arg15 (by decide)).trans (W42_arg15 m ρ c)
theorem W48_arg16 (c : Dev nD) : W48 m ρ c (Proc.devRef .tc main_arg16) = m ((c : Thread nD τ).loc main_arg16) :=
  (L7_keep m ρ c main_arg16 (by decide)).trans (W42_arg16 m ρ c)
theorem W48_arg17 (c : Dev nD) : W48 m ρ c (Proc.devRef .tc main_arg17) = m ((c : Thread nD τ).loc main_arg17) :=
  (L7_keep m ρ c main_arg17 (by decide)).trans (W42_arg17 m ρ c)
theorem W48_arg18 (c : Dev nD) : W48 m ρ c (Proc.devRef .tc main_arg18) = m ((c : Thread nD τ).loc main_arg18) :=
  (L7_keep m ρ c main_arg18 (by decide)).trans (W42_arg18 m ρ c)

theorem W54_arg0 (c : Dev nD) : W54 m ρ c (Proc.devRef .tc main_arg0) = m ((c : Thread nD τ).loc main_arg0) :=
  (L8_keep m ρ c main_arg0 (by decide)).trans (W48_arg0 m ρ c)
theorem W54_arg1 (c : Dev nD) : W54 m ρ c (Proc.devRef .tc main_arg1) = m ((c : Thread nD τ).loc main_arg1) :=
  (L8_keep m ρ c main_arg1 (by decide)).trans (W48_arg1 m ρ c)
theorem W54_arg2 (c : Dev nD) : W54 m ρ c (Proc.devRef .tc main_arg2) = m ((c : Thread nD τ).loc main_arg2) :=
  (L8_keep m ρ c main_arg2 (by decide)).trans (W48_arg2 m ρ c)
theorem W54_arg3 (c : Dev nD) : W54 m ρ c (Proc.devRef .tc main_arg3) = m ((c : Thread nD τ).loc main_arg3) :=
  (L8_keep m ρ c main_arg3 (by decide)).trans (W48_arg3 m ρ c)
theorem W54_arg4 (c : Dev nD) : W54 m ρ c (Proc.devRef .tc main_arg4) = m ((c : Thread nD τ).loc main_arg4) :=
  (L8_keep m ρ c main_arg4 (by decide)).trans (W48_arg4 m ρ c)
theorem W54_arg5 (c : Dev nD) : W54 m ρ c (Proc.devRef .tc main_arg5) = m ((c : Thread nD τ).loc main_arg5) :=
  (L8_keep m ρ c main_arg5 (by decide)).trans (W48_arg5 m ρ c)
theorem W54_arg6 (c : Dev nD) : W54 m ρ c (Proc.devRef .tc main_arg6) = m ((c : Thread nD τ).loc main_arg6) :=
  (L8_keep m ρ c main_arg6 (by decide)).trans (W48_arg6 m ρ c)
theorem W54_arg7 (c : Dev nD) : W54 m ρ c (Proc.devRef .tc main_arg7) = m ((c : Thread nD τ).loc main_arg7) :=
  (L8_keep m ρ c main_arg7 (by decide)).trans (W48_arg7 m ρ c)
theorem W54_arg8 (c : Dev nD) : W54 m ρ c (Proc.devRef .tc main_arg8) = m ((c : Thread nD τ).loc main_arg8) :=
  (L8_keep m ρ c main_arg8 (by decide)).trans (W48_arg8 m ρ c)
theorem W54_arg9 (c : Dev nD) : W54 m ρ c (Proc.devRef .tc main_arg9) = m ((c : Thread nD τ).loc main_arg9) :=
  (L8_keep m ρ c main_arg9 (by decide)).trans (W48_arg9 m ρ c)
theorem W54_arg10 (c : Dev nD) : W54 m ρ c (Proc.devRef .tc main_arg10) = m ((c : Thread nD τ).loc main_arg10) :=
  (L8_keep m ρ c main_arg10 (by decide)).trans (W48_arg10 m ρ c)
theorem W54_arg11 (c : Dev nD) : W54 m ρ c (Proc.devRef .tc main_arg11) = m ((c : Thread nD τ).loc main_arg11) :=
  (L8_keep m ρ c main_arg11 (by decide)).trans (W48_arg11 m ρ c)
theorem W54_arg12 (c : Dev nD) : W54 m ρ c (Proc.devRef .tc main_arg12) = m ((c : Thread nD τ).loc main_arg12) :=
  (L8_keep m ρ c main_arg12 (by decide)).trans (W48_arg12 m ρ c)
theorem W54_arg13 (c : Dev nD) : W54 m ρ c (Proc.devRef .tc main_arg13) = m ((c : Thread nD τ).loc main_arg13) :=
  (L8_keep m ρ c main_arg13 (by decide)).trans (W48_arg13 m ρ c)
theorem W54_arg14 (c : Dev nD) : W54 m ρ c (Proc.devRef .tc main_arg14) = m ((c : Thread nD τ).loc main_arg14) :=
  (L8_keep m ρ c main_arg14 (by decide)).trans (W48_arg14 m ρ c)
theorem W54_arg15 (c : Dev nD) : W54 m ρ c (Proc.devRef .tc main_arg15) = m ((c : Thread nD τ).loc main_arg15) :=
  (L8_keep m ρ c main_arg15 (by decide)).trans (W48_arg15 m ρ c)
theorem W54_arg16 (c : Dev nD) : W54 m ρ c (Proc.devRef .tc main_arg16) = m ((c : Thread nD τ).loc main_arg16) :=
  (L8_keep m ρ c main_arg16 (by decide)).trans (W48_arg16 m ρ c)
theorem W54_arg17 (c : Dev nD) : W54 m ρ c (Proc.devRef .tc main_arg17) = m ((c : Thread nD τ).loc main_arg17) :=
  (L8_keep m ρ c main_arg17 (by decide)).trans (W48_arg17 m ρ c)
theorem W54_arg18 (c : Dev nD) : W54 m ρ c (Proc.devRef .tc main_arg18) = m ((c : Thread nD τ).loc main_arg18) :=
  (L8_keep m ρ c main_arg18 (by decide)).trans (W48_arg18 m ρ c)

theorem W60_arg0 (c : Dev nD) : W60 m ρ c (Proc.devRef .tc main_arg0) = m ((c : Thread nD τ).loc main_arg0) :=
  (L9_keep m ρ c main_arg0 (by decide)).trans (W54_arg0 m ρ c)
theorem W60_arg1 (c : Dev nD) : W60 m ρ c (Proc.devRef .tc main_arg1) = m ((c : Thread nD τ).loc main_arg1) :=
  (L9_keep m ρ c main_arg1 (by decide)).trans (W54_arg1 m ρ c)
theorem W60_arg2 (c : Dev nD) : W60 m ρ c (Proc.devRef .tc main_arg2) = m ((c : Thread nD τ).loc main_arg2) :=
  (L9_keep m ρ c main_arg2 (by decide)).trans (W54_arg2 m ρ c)
theorem W60_arg3 (c : Dev nD) : W60 m ρ c (Proc.devRef .tc main_arg3) = m ((c : Thread nD τ).loc main_arg3) :=
  (L9_keep m ρ c main_arg3 (by decide)).trans (W54_arg3 m ρ c)
theorem W60_arg4 (c : Dev nD) : W60 m ρ c (Proc.devRef .tc main_arg4) = m ((c : Thread nD τ).loc main_arg4) :=
  (L9_keep m ρ c main_arg4 (by decide)).trans (W54_arg4 m ρ c)
theorem W60_arg5 (c : Dev nD) : W60 m ρ c (Proc.devRef .tc main_arg5) = m ((c : Thread nD τ).loc main_arg5) :=
  (L9_keep m ρ c main_arg5 (by decide)).trans (W54_arg5 m ρ c)
theorem W60_arg6 (c : Dev nD) : W60 m ρ c (Proc.devRef .tc main_arg6) = m ((c : Thread nD τ).loc main_arg6) :=
  (L9_keep m ρ c main_arg6 (by decide)).trans (W54_arg6 m ρ c)
theorem W60_arg7 (c : Dev nD) : W60 m ρ c (Proc.devRef .tc main_arg7) = m ((c : Thread nD τ).loc main_arg7) :=
  (L9_keep m ρ c main_arg7 (by decide)).trans (W54_arg7 m ρ c)
theorem W60_arg8 (c : Dev nD) : W60 m ρ c (Proc.devRef .tc main_arg8) = m ((c : Thread nD τ).loc main_arg8) :=
  (L9_keep m ρ c main_arg8 (by decide)).trans (W54_arg8 m ρ c)
theorem W60_arg9 (c : Dev nD) : W60 m ρ c (Proc.devRef .tc main_arg9) = m ((c : Thread nD τ).loc main_arg9) :=
  (L9_keep m ρ c main_arg9 (by decide)).trans (W54_arg9 m ρ c)
theorem W60_arg10 (c : Dev nD) : W60 m ρ c (Proc.devRef .tc main_arg10) = m ((c : Thread nD τ).loc main_arg10) :=
  (L9_keep m ρ c main_arg10 (by decide)).trans (W54_arg10 m ρ c)
theorem W60_arg11 (c : Dev nD) : W60 m ρ c (Proc.devRef .tc main_arg11) = m ((c : Thread nD τ).loc main_arg11) :=
  (L9_keep m ρ c main_arg11 (by decide)).trans (W54_arg11 m ρ c)
theorem W60_arg12 (c : Dev nD) : W60 m ρ c (Proc.devRef .tc main_arg12) = m ((c : Thread nD τ).loc main_arg12) :=
  (L9_keep m ρ c main_arg12 (by decide)).trans (W54_arg12 m ρ c)
theorem W60_arg13 (c : Dev nD) : W60 m ρ c (Proc.devRef .tc main_arg13) = m ((c : Thread nD τ).loc main_arg13) :=
  (L9_keep m ρ c main_arg13 (by decide)).trans (W54_arg13 m ρ c)
theorem W60_arg14 (c : Dev nD) : W60 m ρ c (Proc.devRef .tc main_arg14) = m ((c : Thread nD τ).loc main_arg14) :=
  (L9_keep m ρ c main_arg14 (by decide)).trans (W54_arg14 m ρ c)
theorem W60_arg15 (c : Dev nD) : W60 m ρ c (Proc.devRef .tc main_arg15) = m ((c : Thread nD τ).loc main_arg15) :=
  (L9_keep m ρ c main_arg15 (by decide)).trans (W54_arg15 m ρ c)
theorem W60_arg16 (c : Dev nD) : W60 m ρ c (Proc.devRef .tc main_arg16) = m ((c : Thread nD τ).loc main_arg16) :=
  (L9_keep m ρ c main_arg16 (by decide)).trans (W54_arg16 m ρ c)
theorem W60_arg17 (c : Dev nD) : W60 m ρ c (Proc.devRef .tc main_arg17) = m ((c : Thread nD τ).loc main_arg17) :=
  (L9_keep m ρ c main_arg17 (by decide)).trans (W54_arg17 m ρ c)
theorem W60_arg18 (c : Dev nD) : W60 m ρ c (Proc.devRef .tc main_arg18) = m ((c : Thread nD τ).loc main_arg18) :=
  (L9_keep m ρ c main_arg18 (by decide)).trans (W54_arg18 m ρ c)

theorem W66_arg0 (c : Dev nD) : W66 m ρ c (Proc.devRef .tc main_arg0) = m ((c : Thread nD τ).loc main_arg0) :=
  (L10_keep m ρ c main_arg0 (by decide)).trans (W60_arg0 m ρ c)
theorem W66_arg1 (c : Dev nD) : W66 m ρ c (Proc.devRef .tc main_arg1) = m ((c : Thread nD τ).loc main_arg1) :=
  (L10_keep m ρ c main_arg1 (by decide)).trans (W60_arg1 m ρ c)
theorem W66_arg2 (c : Dev nD) : W66 m ρ c (Proc.devRef .tc main_arg2) = m ((c : Thread nD τ).loc main_arg2) :=
  (L10_keep m ρ c main_arg2 (by decide)).trans (W60_arg2 m ρ c)
theorem W66_arg3 (c : Dev nD) : W66 m ρ c (Proc.devRef .tc main_arg3) = m ((c : Thread nD τ).loc main_arg3) :=
  (L10_keep m ρ c main_arg3 (by decide)).trans (W60_arg3 m ρ c)
theorem W66_arg4 (c : Dev nD) : W66 m ρ c (Proc.devRef .tc main_arg4) = m ((c : Thread nD τ).loc main_arg4) :=
  (L10_keep m ρ c main_arg4 (by decide)).trans (W60_arg4 m ρ c)
theorem W66_arg5 (c : Dev nD) : W66 m ρ c (Proc.devRef .tc main_arg5) = m ((c : Thread nD τ).loc main_arg5) :=
  (L10_keep m ρ c main_arg5 (by decide)).trans (W60_arg5 m ρ c)
theorem W66_arg6 (c : Dev nD) : W66 m ρ c (Proc.devRef .tc main_arg6) = m ((c : Thread nD τ).loc main_arg6) :=
  (L10_keep m ρ c main_arg6 (by decide)).trans (W60_arg6 m ρ c)
theorem W66_arg7 (c : Dev nD) : W66 m ρ c (Proc.devRef .tc main_arg7) = m ((c : Thread nD τ).loc main_arg7) :=
  (L10_keep m ρ c main_arg7 (by decide)).trans (W60_arg7 m ρ c)
theorem W66_arg8 (c : Dev nD) : W66 m ρ c (Proc.devRef .tc main_arg8) = m ((c : Thread nD τ).loc main_arg8) :=
  (L10_keep m ρ c main_arg8 (by decide)).trans (W60_arg8 m ρ c)
theorem W66_arg9 (c : Dev nD) : W66 m ρ c (Proc.devRef .tc main_arg9) = m ((c : Thread nD τ).loc main_arg9) :=
  (L10_keep m ρ c main_arg9 (by decide)).trans (W60_arg9 m ρ c)
theorem W66_arg10 (c : Dev nD) : W66 m ρ c (Proc.devRef .tc main_arg10) = m ((c : Thread nD τ).loc main_arg10) :=
  (L10_keep m ρ c main_arg10 (by decide)).trans (W60_arg10 m ρ c)
theorem W66_arg11 (c : Dev nD) : W66 m ρ c (Proc.devRef .tc main_arg11) = m ((c : Thread nD τ).loc main_arg11) :=
  (L10_keep m ρ c main_arg11 (by decide)).trans (W60_arg11 m ρ c)
theorem W66_arg12 (c : Dev nD) : W66 m ρ c (Proc.devRef .tc main_arg12) = m ((c : Thread nD τ).loc main_arg12) :=
  (L10_keep m ρ c main_arg12 (by decide)).trans (W60_arg12 m ρ c)
theorem W66_arg13 (c : Dev nD) : W66 m ρ c (Proc.devRef .tc main_arg13) = m ((c : Thread nD τ).loc main_arg13) :=
  (L10_keep m ρ c main_arg13 (by decide)).trans (W60_arg13 m ρ c)
theorem W66_arg14 (c : Dev nD) : W66 m ρ c (Proc.devRef .tc main_arg14) = m ((c : Thread nD τ).loc main_arg14) :=
  (L10_keep m ρ c main_arg14 (by decide)).trans (W60_arg14 m ρ c)
theorem W66_arg15 (c : Dev nD) : W66 m ρ c (Proc.devRef .tc main_arg15) = m ((c : Thread nD τ).loc main_arg15) :=
  (L10_keep m ρ c main_arg15 (by decide)).trans (W60_arg15 m ρ c)
theorem W66_arg16 (c : Dev nD) : W66 m ρ c (Proc.devRef .tc main_arg16) = m ((c : Thread nD τ).loc main_arg16) :=
  (L10_keep m ρ c main_arg16 (by decide)).trans (W60_arg16 m ρ c)
theorem W66_arg17 (c : Dev nD) : W66 m ρ c (Proc.devRef .tc main_arg17) = m ((c : Thread nD τ).loc main_arg17) :=
  (L10_keep m ρ c main_arg17 (by decide)).trans (W60_arg17 m ρ c)
theorem W66_arg18 (c : Dev nD) : W66 m ρ c (Proc.devRef .tc main_arg18) = m ((c : Thread nD τ).loc main_arg18) :=
  (L10_keep m ρ c main_arg18 (by decide)).trans (W60_arg18 m ρ c)

theorem W72_arg0 (c : Dev nD) : W72 m ρ c (Proc.devRef .tc main_arg0) = m ((c : Thread nD τ).loc main_arg0) :=
  (L11_keep m ρ c main_arg0 (by decide)).trans (W66_arg0 m ρ c)
theorem W72_arg1 (c : Dev nD) : W72 m ρ c (Proc.devRef .tc main_arg1) = m ((c : Thread nD τ).loc main_arg1) :=
  (L11_keep m ρ c main_arg1 (by decide)).trans (W66_arg1 m ρ c)
theorem W72_arg2 (c : Dev nD) : W72 m ρ c (Proc.devRef .tc main_arg2) = m ((c : Thread nD τ).loc main_arg2) :=
  (L11_keep m ρ c main_arg2 (by decide)).trans (W66_arg2 m ρ c)
theorem W72_arg3 (c : Dev nD) : W72 m ρ c (Proc.devRef .tc main_arg3) = m ((c : Thread nD τ).loc main_arg3) :=
  (L11_keep m ρ c main_arg3 (by decide)).trans (W66_arg3 m ρ c)
theorem W72_arg4 (c : Dev nD) : W72 m ρ c (Proc.devRef .tc main_arg4) = m ((c : Thread nD τ).loc main_arg4) :=
  (L11_keep m ρ c main_arg4 (by decide)).trans (W66_arg4 m ρ c)
theorem W72_arg5 (c : Dev nD) : W72 m ρ c (Proc.devRef .tc main_arg5) = m ((c : Thread nD τ).loc main_arg5) :=
  (L11_keep m ρ c main_arg5 (by decide)).trans (W66_arg5 m ρ c)
theorem W72_arg6 (c : Dev nD) : W72 m ρ c (Proc.devRef .tc main_arg6) = m ((c : Thread nD τ).loc main_arg6) :=
  (L11_keep m ρ c main_arg6 (by decide)).trans (W66_arg6 m ρ c)
theorem W72_arg7 (c : Dev nD) : W72 m ρ c (Proc.devRef .tc main_arg7) = m ((c : Thread nD τ).loc main_arg7) :=
  (L11_keep m ρ c main_arg7 (by decide)).trans (W66_arg7 m ρ c)
theorem W72_arg8 (c : Dev nD) : W72 m ρ c (Proc.devRef .tc main_arg8) = m ((c : Thread nD τ).loc main_arg8) :=
  (L11_keep m ρ c main_arg8 (by decide)).trans (W66_arg8 m ρ c)
theorem W72_arg9 (c : Dev nD) : W72 m ρ c (Proc.devRef .tc main_arg9) = m ((c : Thread nD τ).loc main_arg9) :=
  (L11_keep m ρ c main_arg9 (by decide)).trans (W66_arg9 m ρ c)
theorem W72_arg10 (c : Dev nD) : W72 m ρ c (Proc.devRef .tc main_arg10) = m ((c : Thread nD τ).loc main_arg10) :=
  (L11_keep m ρ c main_arg10 (by decide)).trans (W66_arg10 m ρ c)
theorem W72_arg11 (c : Dev nD) : W72 m ρ c (Proc.devRef .tc main_arg11) = m ((c : Thread nD τ).loc main_arg11) :=
  (L11_keep m ρ c main_arg11 (by decide)).trans (W66_arg11 m ρ c)
theorem W72_arg12 (c : Dev nD) : W72 m ρ c (Proc.devRef .tc main_arg12) = m ((c : Thread nD τ).loc main_arg12) :=
  (L11_keep m ρ c main_arg12 (by decide)).trans (W66_arg12 m ρ c)
theorem W72_arg13 (c : Dev nD) : W72 m ρ c (Proc.devRef .tc main_arg13) = m ((c : Thread nD τ).loc main_arg13) :=
  (L11_keep m ρ c main_arg13 (by decide)).trans (W66_arg13 m ρ c)
theorem W72_arg14 (c : Dev nD) : W72 m ρ c (Proc.devRef .tc main_arg14) = m ((c : Thread nD τ).loc main_arg14) :=
  (L11_keep m ρ c main_arg14 (by decide)).trans (W66_arg14 m ρ c)
theorem W72_arg15 (c : Dev nD) : W72 m ρ c (Proc.devRef .tc main_arg15) = m ((c : Thread nD τ).loc main_arg15) :=
  (L11_keep m ρ c main_arg15 (by decide)).trans (W66_arg15 m ρ c)
theorem W72_arg16 (c : Dev nD) : W72 m ρ c (Proc.devRef .tc main_arg16) = m ((c : Thread nD τ).loc main_arg16) :=
  (L11_keep m ρ c main_arg16 (by decide)).trans (W66_arg16 m ρ c)
theorem W72_arg17 (c : Dev nD) : W72 m ρ c (Proc.devRef .tc main_arg17) = m ((c : Thread nD τ).loc main_arg17) :=
  (L11_keep m ρ c main_arg17 (by decide)).trans (W66_arg17 m ρ c)
theorem W72_arg18 (c : Dev nD) : W72 m ρ c (Proc.devRef .tc main_arg18) = m ((c : Thread nD τ).loc main_arg18) :=
  (L11_keep m ρ c main_arg18 (by decide)).trans (W66_arg18 m ρ c)

/-! # The long-lived buffers of the prologue (edge rows, degree scalings) through the convolution layers -/

theorem W6_v1 (c : Dev nD) : W6 m ρ c (Proc.devRef .tc main_v1) = W1 m ρ c (Proc.devRef .tc main_v1) :=
  (W6_keep m ρ c main_v1 (by decide)).trans ((W5_keep m ρ c main_v1 (by decide)).trans ((W4_keep m ρ c main_v1 (by decide)).trans ((W3_keep m ρ c main_v1 (by decide)).trans (W2_keep m ρ c main_v1 (by decide)))))
theorem W12_v1 (c : Dev nD) : W12 m ρ c (Proc.devRef .tc main_v1) = W1 m ρ c (Proc.devRef .tc main_v1) :=
  (L1_keep m ρ c main_v1 (by decide)).trans (W6_v1 m ρ c)
theorem W18_v1 (c : Dev nD) : W18 m ρ c (Proc.devRef .tc main_v1) = W1 m ρ c (Proc.devRef .tc main_v1) :=
  (L2_keep m ρ c main_v1 (by decide)).trans (W12_v1 m ρ c)
theorem W24_v1 (c : Dev nD) : W24 m ρ c (Proc.devRef .tc main_v1) = W1 m ρ c (Proc.devRef .tc main_v1) :=
  (L3_keep m ρ c main_v1 (by decide)).trans (W18_v1 m ρ c)
theorem W30_v1 (c : Dev nD) : W30 m ρ c (Proc.devRef .tc main_v1) = W1 m ρ c (Proc.devRef .tc main_v1) :=
  (L4_keep m ρ c main_v1 (by decide)).trans (W24_v1 m ρ c)
theorem W36_v1 (c : Dev nD) : W36 m ρ c (Proc.devRef .tc main_v1) = W1 m ρ c (Proc.devRef .tc main_v1) :=
  (L5_keep m ρ c main_v1 (by decide)).trans (W30_v1 m ρ c)
theorem W42_v1 (c : Dev nD) : W42 m ρ c (Proc.devRef .tc main_v1) = W1 m ρ c (Proc.devRef .tc main_v1) :=
  (L6_keep m ρ c main_v1 (by decide)).trans (W36_v1 m ρ c)
theorem W48_v1 (c : Dev nD) : W48 m ρ c (Proc.devRef .tc main_v1) = W1 m ρ c (Proc.devRef .tc main_v1) :=
  (L7_keep m ρ c main_v1 (by decide)).trans (W42_v1 m ρ c)

theorem W6_v3 (c : Dev nD) : W6 m ρ c (Proc.devRef .tc main_v3) = W1 m ρ c (Proc.devRef .tc main_v3) :=
  (W6_keep m ρ c main_v3 (by decide)).trans ((W5_keep m ρ c main_v3 (by decide)).trans ((W4_keep m ρ c main_v3 (by decide)).trans ((W3_keep m ρ c main_v3 (by decide)).trans (W2_keep m ρ c main_v3 (by decide)))))
theorem W12_v3 (c : Dev nD) : W12 m ρ c (Proc.devRef .tc main_v3) = W1 m ρ c (Proc.devRef .tc main_v3) :=
  (L1_keep m ρ c main_v3 (by decide)).trans (W6_v3 m ρ c)
theorem W18_v3 (c : Dev nD) : W18 m ρ c (Proc.devRef .tc main_v3) = W1 m ρ c (Proc.devRef .tc main_v3) :=
  (L2_keep m ρ c main_v3 (by decide)).trans (W12_v3 m ρ c)
theorem W24_v3 (c : Dev nD) : W24 m ρ c (Proc.devRef .tc main_v3) = W1 m ρ c (Proc.devRef .tc main_v3) :=
  (L3_keep m ρ c main_v3 (by decide)).trans (W18_v3 m ρ c)
theorem W30_v3 (c : Dev nD) : W30 m ρ c (Proc.devRef .tc main_v3) = W1 m ρ c (Proc.devRef .tc main_v3) :=
  (L4_keep m ρ c main_v3 (by decide)).trans (W24_v3 m ρ c)
theorem W36_v3 (c : Dev nD) : W36 m ρ c (Proc.devRef .tc main_v3) = W1 m ρ c (Proc.devRef .tc main_v3) :=
  (L5_keep m ρ c main_v3 (by decide)).trans (W30_v3 m ρ c)
theorem W42_v3 (c : Dev nD) : W42 m ρ c (Proc.devRef .tc main_v3) = W1 m ρ c (Proc.devRef .tc main_v3) :=
  (L6_keep m ρ c main_v3 (by decide)).trans (W36_v3 m ρ c)
theorem W48_v3 (c : Dev nD) : W48 m ρ c (Proc.devRef .tc main_v3) = W1 m ρ c (Proc.devRef .tc main_v3) :=
  (L7_keep m ρ c main_v3 (by decide)).trans (W42_v3 m ρ c)

theorem W6_v10 (c : Dev nD) : W6 m ρ c (Proc.devRef .tc main_v10) = W1 m ρ c (Proc.devRef .tc main_v10) :=
  (W6_keep m ρ c main_v10 (by decide)).trans ((W5_keep m ρ c main_v10 (by decide)).trans ((W4_keep m ρ c main_v10 (by decide)).trans ((W3_keep m ρ c main_v10 (by decide)).trans (W2_keep m ρ c main_v10 (by decide)))))
theorem W12_v10 (c : Dev nD) : W12 m ρ c (Proc.devRef .tc main_v10) = W1 m ρ c (Proc.devRef .tc main_v10) :=
  (L1_keep m ρ c main_v10 (by decide)).trans (W6_v10 m ρ c)
theorem W18_v10 (c : Dev nD) : W18 m ρ c (Proc.devRef .tc main_v10) = W1 m ρ c (Proc.devRef .tc main_v10) :=
  (L2_keep m ρ c main_v10 (by decide)).trans (W12_v10 m ρ c)
theorem W24_v10 (c : Dev nD) : W24 m ρ c (Proc.devRef .tc main_v10) = W1 m ρ c (Proc.devRef .tc main_v10) :=
  (L3_keep m ρ c main_v10 (by decide)).trans (W18_v10 m ρ c)
theorem W30_v10 (c : Dev nD) : W30 m ρ c (Proc.devRef .tc main_v10) = W1 m ρ c (Proc.devRef .tc main_v10) :=
  (L4_keep m ρ c main_v10 (by decide)).trans (W24_v10 m ρ c)
theorem W36_v10 (c : Dev nD) : W36 m ρ c (Proc.devRef .tc main_v10) = W1 m ρ c (Proc.devRef .tc main_v10) :=
  (L5_keep m ρ c main_v10 (by decide)).trans (W30_v10 m ρ c)
theorem W42_v10 (c : Dev nD) : W42 m ρ c (Proc.devRef .tc main_v10) = W1 m ρ c (Proc.devRef .tc main_v10) :=
  (L6_keep m ρ c main_v10 (by decide)).trans (W36_v10 m ρ c)
theorem W48_v10 (c : Dev nD) : W48 m ρ c (Proc.devRef .tc main_v10) = W1 m ρ c (Proc.devRef .tc main_v10) :=
  (L7_keep m ρ c main_v10 (by decide)).trans (W42_v10 m ρ c)

theorem W6_v11 (c : Dev nD) : W6 m ρ c (Proc.devRef .tc main_v11) = W1 m ρ c (Proc.devRef .tc main_v11) :=
  (W6_keep m ρ c main_v11 (by decide)).trans ((W5_keep m ρ c main_v11 (by decide)).trans ((W4_keep m ρ c main_v11 (by decide)).trans ((W3_keep m ρ c main_v11 (by decide)).trans (W2_keep m ρ c main_v11 (by decide)))))
theorem W12_v11 (c : Dev nD) : W12 m ρ c (Proc.devRef .tc main_v11) = W1 m ρ c (Proc.devRef .tc main_v11) :=
  (L1_keep m ρ c main_v11 (by decide)).trans (W6_v11 m ρ c)
theorem W18_v11 (c : Dev nD) : W18 m ρ c (Proc.devRef .tc main_v11) = W1 m ρ c (Proc.devRef .tc main_v11) :=
  (L2_keep m ρ c main_v11 (by decide)).trans (W12_v11 m ρ c)
theorem W24_v11 (c : Dev nD) : W24 m ρ c (Proc.devRef .tc main_v11) = W1 m ρ c (Proc.devRef .tc main_v11) :=
  (L3_keep m ρ c main_v11 (by decide)).trans (W18_v11 m ρ c)
theorem W30_v11 (c : Dev nD) : W30 m ρ c (Proc.devRef .tc main_v11) = W1 m ρ c (Proc.devRef .tc main_v11) :=
  (L4_keep m ρ c main_v11 (by decide)).trans (W24_v11 m ρ c)
theorem W36_v11 (c : Dev nD) : W36 m ρ c (Proc.devRef .tc main_v11) = W1 m ρ c (Proc.devRef .tc main_v11) :=
  (L5_keep m ρ c main_v11 (by decide)).trans (W30_v11 m ρ c)
theorem W42_v11 (c : Dev nD) : W42 m ρ c (Proc.devRef .tc main_v11) = W1 m ρ c (Proc.devRef .tc main_v11) :=
  (L6_keep m ρ c main_v11 (by decide)).trans (W36_v11 m ρ c)
theorem W48_v11 (c : Dev nD) : W48 m ρ c (Proc.devRef .tc main_v11) = W1 m ρ c (Proc.devRef .tc main_v11) :=
  (L7_keep m ρ c main_v11 (by decide)).trans (W42_v11 m ρ c)

/-! # The zero bias of the convolution layers -/

theorem W24_v66 (c : Dev nD) : W24 m ρ c (Proc.devRef .tc main_v66) = W19 m ρ c (Proc.devRef .tc main_v66) :=
  (W24_keep m ρ c main_v66 (by decide)).trans ((W23_keep m ρ c main_v66 (by decide)).trans ((W22_keep m ρ c main_v66 (by decide)).trans ((W21_keep m ρ c main_v66 (by decide)).trans (W20_keep m ρ c main_v66 (by decide)))))
theorem W30_v66 (c : Dev nD) : W30 m ρ c (Proc.devRef .tc main_v66) = W19 m ρ c (Proc.devRef .tc main_v66) :=
  (L4_keep m ρ c main_v66 (by decide)).trans (W24_v66 m ρ c)
theorem W36_v66 (c : Dev nD) : W36 m ρ c (Proc.devRef .tc main_v66) = W19 m ρ c (Proc.devRef .tc main_v66) :=
  (L5_keep m ρ c main_v66 (by decide)).trans (W30_v66 m ρ c)
theorem W42_v66 (c : Dev nD) : W42 m ρ c (Proc.devRef .tc main_v66) = W19 m ρ c (Proc.devRef .tc main_v66) :=
  (L6_keep m ρ c main_v66 (by decide)).trans (W36_v66 m ρ c)
theorem W48_v66 (c : Dev nD) : W48 m ρ c (Proc.devRef .tc main_v66) = W19 m ρ c (Proc.devRef .tc main_v66) :=
  (L7_keep m ρ c main_v66 (by decide)).trans (W42_v66 m ρ c)

end Cert.KernelIdeal.Hand

end
-- ==== Proof.Spec.lean ====
/-
  The three dense per-node stages of the message-passing network, each as ONE function of whole arrays, index by index,
  on the extended reals.  N = 100000 nodes, 64 features.

  * `linear x w b`      : row i, column j  ↦  (Σ_k x[i,k] · w[k,j]) + b[0,j]           (a Linear layer, the bias kept as a 1×64 row)
  * `normalize r x μ v g β` : ((x[i,j] − μ[0,j]) · rsqrt(v[0,j] + ε)) · g[0,j] + β[0,j], then max(·,0) when `r`
                             (batch normalisation from given column statistics; ε is the binary value of f32 1e-5)
  * `combine r a s h b` : ((a[i,j] + s[i,j]) + h[i,j]) + b[0,j], then max(·,0) when `r`    (the graph convolution's residual sum)
-/
import Idealize.ShloMosaic.Lib.ValueIdx
import Idealize.ShloMosaic.PureOps.Ideal
import Idealize.ShloMosaic.PureOps.Ideal.Laws

noncomputable section

namespace Cert.Hand.Spec

open Idealize.ShloMosaic Idealize.ShloMosaic.ValueIdx

/-- node features, a weight matrix, a row of per-column parameters -/
abbrev SN : Shape := ⟨2, ![100000, 64]⟩
abbrev SW : Shape := ⟨2, ![64, 64]⟩
abbrev SR : Shape := ⟨2, ![1, 64]⟩

/-- ε of the normalisation: the extended real the f32 pattern of 1e-5 denotes. -/
def eps : EReal := Ideal.ofBits .f32 0x3727C5AC#32

/-- `max(·, 0)` when `r`, the identity otherwise. -/
def act (r : Bool) (y : EReal) : EReal := if r then max y 0 else y

/-- A Linear layer: `x · w + b`, the bias a 1×64 row. -/
def linear (x : SN.Idx → EReal) (w : SW.Idx → EReal) (b : SR.Idx → EReal) : SN.Idx → EReal :=
  fun i => (∑ k : Fin 64, x (ix2 (i 0) k) * w (ix2 k (i 1))) + b (ix2 0 (i 1))

/-- Batch normalisation of `x` from column means `μ` and variances `v`, scale `g`, shift `β`; `max(·,0)` when `r`. -/
def normalize (r : Bool) (x : SN.Idx → EReal) (μ v g β : SR.Idx → EReal) : SN.Idx → EReal :=
  fun i => act r ((((x i - μ (ix2 0 (i 1))) * Ideal.rsqrt (v (ix2 0 (i 1)) + eps)) * g (ix2 0 (i 1))) + β (ix2 0 (i 1)))

/-- The convolution's sum: aggregated neighbours, the self loop, the residual input and the bias row; `max(·,0)` when `r`. -/
def combine (r : Bool) (a s h : SN.Idx → EReal) (b : SR.Idx → EReal) : SN.Idx → EReal :=
  fun i => act r (((a i + s i) + h i) + b (ix2 0 (i 1)))

end Cert.Hand.Spec

end
-- ==== Proof.PreRead.lean ====
/-
  The precondition, read at the edge list. The printed predicate is a conjunction (a chain of `and` over one-bit scalars) of
  reductions by `and`. Its last two conjuncts say of the source row of the edge list — row 0 of the [2 × 800000] array, taken
  as a vector of 800000 words — that every entry is ≥ 0 and that every entry is < 100000, both signed. A conjunction that is 1
  has every conjunct 1; a reduction by `and` into a scalar that is 1 met a 1 at every index; a signed compare that is 1 is
  the order of the two words read as integers; the scalars 0 and 100000 broadcast to every index read 0 and 100000.
-/
import proofs.«409001_j25520695673361_2_alg».proof.Defs
import proofs.«409001_j25520695673361_2_alg».proof.Proof.Gen.Pre_finite_inputs
import Idealize.ShloMosaic.Lib.ReduceAll

noncomputable section

namespace Cert.Hand.PreRead

open Idealize.ShloMosaic Idealize.SL.Sem
open Cert.Pre_finite_inputs Cert.Pre_finite_inputs.Facts

/-- A scalar has one index. -/
instance : Subsingleton S_.Idx := ⟨fun a b => funext fun d => d.elim0⟩

/-- The one index of a scalar. -/
def i0 : S_.Idx := fun a => a.elim0

/-- The last part of the predicate (its final two conjuncts, joined to whatever came before): when it is 1, the vector
    `v85` it compares with 0 is ≥ 0 everywhere, and the source row of `a1` is < 100000 everywhere. -/
theorem part5 (a1 : IVec S2x800000 32) (v83 : IVec S_ 1) (v85 : IVec S800000 32)
    (h : fn_part5 (F := Ideal) a1 v83 v85 = fun _ => 1#1) :
    (∀ e, 0 ≤ (v85 e).toInt) ∧
      ∀ e, ((shapeCast S800000 ((extractStridedSlice S1x800000 ![0, 0] · slices_S2x800000_S1x800000_0_0) a1) shapeCasts_S1x800000_S800000) e).toInt < 100000 := by
  have h0 := congrFun h i0
  dsimp only [fn_part5] at h0
  simp only [andi] at h0
  rw [IntOp.andi_eq_one, IntOp.andi_eq_one] at h0
  obtain ⟨⟨-, h88⟩, h94⟩ := h0
  refine ⟨fun e => ?_, fun e => ?_⟩
  · have h1 := Host.reduce_andi_all _ _ _ _ _ h88 e
    simp only [cmpi] at h1
    rw [IntOp.cmpi_sge] at h1
    exact h1
  · have h1 := Host.reduce_andi_all _ _ _ _ _ h94 e
    simp only [cmpi] at h1
    rw [IntOp.cmpi_slt] at h1
    exact h1

/-- The precondition, read at the source row of the edge list: every entry is a node index, 0 ≤ · < 100000. The earlier
    parts of the predicate only pass the edge list along and hand the last part the same source row twice. -/
theorem src_range (m : (ℓ : Loc Cert.KernelIdeal.nD Cert.KernelIdeal.τ Cert.KernelIdeal.sig) → Buf (Elt Ideal) ℓ)
    (hpre : Cert.Pre_KernelIdeal m) (c : Dev Cert.KernelIdeal.nD) (e : S800000.Idx) :
    0 ≤ ((shapeCast S800000 ((extractStridedSlice S1x800000 ![0, 0] · slices_S2x800000_S1x800000_0_0)
        (m ((c.tc : Thread Cert.KernelIdeal.nD Cert.KernelIdeal.τ).loc Cert.KernelIdeal.main_arg1))) shapeCasts_S1x800000_S800000) e).toInt
    ∧ ((shapeCast S800000 ((extractStridedSlice S1x800000 ![0, 0] · slices_S2x800000_S1x800000_0_0)
        (m ((c.tc : Thread Cert.KernelIdeal.nD Cert.KernelIdeal.τ).loc Cert.KernelIdeal.main_arg1))) shapeCasts_S1x800000_S800000) e).toInt < 100000 := by
  have h := hpre c
  dsimp only [Cert.Pre_finite_inputs.fn, fn_part1, fn_part2, fn_part3, fn_part4] at h
  have h5 := part5 _ _ _ h
  exact ⟨h5.1 e, h5.2 e⟩

end Cert.Hand.PreRead

end
-- ==== Proof.EndsFn.lean ====
/-
  The two ends of the network, as functions of whole arrays. Kernel and reference both begin by cutting the edge list into
  its source and destination rows and computing (1 + in-degree)^(-1/2) per node, and both end by averaging the node rows of
  each graph and applying three dense layers. On both sides these are the same operations applied in the same order, so each
  is written here once; the scatter-adds, the contractions and the elementwise operations inside are never opened — only
  equal arguments are ever needed.
-/
import proofs.«409001_j25520695673361_2_alg».proof.Proof.Gen.KernelIdeal
import Idealize.ShloMosaic.PureOps.Ideal

set_option maxRecDepth 16384

noncomputable section

namespace Cert.Hand.Ends

open Idealize.ShloMosaic Idealize.SL.Sem
open Cert.KernelIdeal Cert.KernelIdeal.Gen

/-- Row 0 of the edge list (the sources), as a vector. -/
def srcOf (a1 : IVec S2x800000 32) : IVec S800000 32 :=
  shapeCast S800000 ((extractStridedSlice S1x800000 ![0, 0] · slices_S2x800000_S1x800000_0_0) a1) shapeCasts_S1x800000_S800000

/-- Row 1 of the edge list (the destinations), as a vector. -/
def dstOf (a1 : IVec S2x800000 32) : IVec S800000 32 :=
  shapeCast S800000 ((extractStridedSlice S1x800000 ![1, 0] · slices_S2x800000_S1x800000_1_0) a1) shapeCasts_S1x800000_S800000

/-- (1 + the number of edges into each node)^(-1/2): ones scatter-added by destination onto zeros, plus one, then the
    reciprocal square root. The scatter-add is never opened. -/
def dinvOf (a1 : IVec S2x800000 32) : FVec Ideal S100000 .f32 :=
  Host.rsqrt (addf
    (Host.scatterAdd scatter_S100000_S800000x1_S800000_n_0_0_1
      (broadcastInDim S100000 ![] bcast_S_S100000 (constant (F := Ideal) S_ .f32 0x00000000#32))
      (broadcastInDim S800000x1 ![0] bcast_S800000_S800000x1_0 (dstOf a1))
      (broadcastInDim S800000 ![] bcast_S_S800000 (constant (F := Ideal) S_ .f32 0x3F800000#32)))
    (broadcastInDim S100000 ![] bcast_S_S100000 (constant (F := Ideal) S_ .f32 0x3F800000#32)))

/-- Nodes per graph, at least one: ones scatter-added by graph id onto zeros, then the maximum with one. -/
def counts (batch : IVec S100000 32) : FVec Ideal S64 .f32 :=
  maximumf
    (Host.scatterAdd scatter_S64_S100000x1_S100000_n_0_0_1
      (broadcastInDim S64 ![] bcast_S_S64 (constant (F := Ideal) S_ .f32 0x00000000#32))
      (broadcastInDim S100000x1 ![0] bcast_S100000_S100000x1_0 batch)
      (broadcastInDim S100000 ![] bcast_S_S100000 (constant (F := Ideal) S_ .f32 0x3F800000#32)))
    (broadcastInDim S64 ![] bcast_S_S64 (constant (F := Ideal) S_ .f32 0x3F800000#32))

/-- The mean of the node rows of each graph: rows scatter-added by graph id onto zeros, divided by the node count. -/
def pooled (h : FVec Ideal S100000x64 .f32) (batch : IVec S100000 32) : FVec Ideal S64x64 .f32 :=
  Host.divf
    (Host.scatterAdd scatter_S64x64_S100000x1_S100000x64_1_0_0_1
      (broadcastInDim S64x64 ![] bcast_S_S64x64 (constant (F := Ideal) S_ .f32 0x00000000#32))
      (broadcastInDim S100000x1 ![0] bcast_S100000_S100000x1_0 batch)
      h)
    (broadcastInDim S64x64 ![0, 1] bcast_S64x1_S64x64_0_1 (broadcastInDim S64x1 ![0] bcast_S64_S64x1_0 (counts batch)))

/-- x · w + b over [64 × 64], the bias along the rows. -/
def dense (x w : FVec Ideal S64x64 .f32) (b : FVec Ideal S64 .f32) : FVec Ideal S64x64 .f32 :=
  addf (Host.dotGeneral dot_S64x64_S64x64_S64x64_1_0_0_1_n_n none x w)
    (broadcastInDim S64x64 ![0, 1] bcast_S1x64_S64x64_0_1 (broadcastInDim S1x64 ![1] bcast_S64_S1x64_1 b))

/-- The maximum with zero. -/
def relu (x : FVec Ideal S64x64 .f32) : FVec Ideal S64x64 .f32 :=
  maximumf x (broadcastInDim S64x64 ![] bcast_S_S64x64 (constant (F := Ideal) S_ .f32 0x00000000#32))

/-- x · w + b from [64 × 64] to [64 × 2]. -/
def out (x : FVec Ideal S64x64 .f32) (w : FVec Ideal S64x2 .f32) (b : FVec Ideal S2 .f32) : FVec Ideal S64x2 .f32 :=
  addf (Host.dotGeneral dot_S64x64_S64x2_S64x2_1_0_0_1_n_n none x w)
    (broadcastInDim S64x2 ![0, 1] bcast_S1x2_S64x2_0_1 (broadcastInDim S1x2 ![1] bcast_S2_S1x2_1 b))

/-- The pooling and the head: mean per graph, two dense layers with the maximum with zero, one dense layer out. -/
def head (h : FVec Ideal S100000x64 .f32) (batch : IVec S100000 32) (w13 : FVec Ideal S64x64 .f32) (b14 : FVec Ideal S64 .f32)
    (w15 : FVec Ideal S64x64 .f32) (b16 : FVec Ideal S64 .f32) (w17 : FVec Ideal S64x2 .f32) (b18 : FVec Ideal S2 .f32) :
    FVec Ideal S64x2 .f32 :=
  out (relu (dense (relu (dense (pooled h batch) w13 b14)) w15 b16)) w17 b18

end Cert.Hand.Ends

end
-- ==== Proof.EndsK.lean ====
/-
  The kernel's two ends, read off its host operations from ANY buffer contents `V` at the stretch's entry: what the first
  stretch leaves in the source row, the destination row, (1 + in-degree)^(-1/2) and its square; and what each of the five
  last stretches leaves in its result, as the functions of `Ends` applied to the contents it read.
-/
import proofs.«409001_j25520695673361_2_alg».proof.Proof.Gen.KernelIdeal.Launch
import proofs.«409001_j25520695673361_2_alg».proof.Proof.EndsFn

set_option maxRecDepth 16384

noncomputable section

namespace Cert.Hand.Ends

open Idealize.ShloMosaic Idealize.ShloMosaic.TcCoe Idealize.SL.Sem
open Cert.KernelIdeal Cert.KernelIdeal.Gen

/-! ### The first stretch -/

theorem k_v1 (V : Valuation τ sig (Elt Ideal)) :
    (StableHlo.after (hostOps0 (F := Ideal)) V (Proc.devRef .tc main_v1) : S800000.Idx → BitVec 32) = srcOf (V (Proc.devRef .tc main_arg1)) := by
  dsimp only [hostOps0]
  after_results
  rfl

theorem k_v3 (V : Valuation τ sig (Elt Ideal)) :
    (StableHlo.after (hostOps0 (F := Ideal)) V (Proc.devRef .tc main_v3) : S800000.Idx → BitVec 32) = dstOf (V (Proc.devRef .tc main_arg1)) := by
  dsimp only [hostOps0]
  after_results
  rfl

theorem k_v10 (V : Valuation τ sig (Elt Ideal)) :
    (StableHlo.after (hostOps0 (F := Ideal)) V (Proc.devRef .tc main_v10) : S100000.Idx → EReal) = dinvOf (V (Proc.devRef .tc main_arg1)) := by
  dsimp only [hostOps0]
  after_results
  rfl

theorem k_v11 (V : Valuation τ sig (Elt Ideal)) :
    (StableHlo.after (hostOps0 (F := Ideal)) V (Proc.devRef .tc main_v11) : S100000.Idx → EReal)
      = mulf (dinvOf (V (Proc.devRef .tc main_arg1))) (dinvOf (V (Proc.devRef .tc main_arg1))) := by
  dsimp only [hostOps0]
  after_results
  rfl

/-! ### The tail, stretch by stretch, from any contents `V` at the stretch's entry -/

theorem t24 (V : Valuation τ sig (Elt Ideal)) :
    (StableHlo.after (hostOps24 (F := Ideal)) V (Proc.devRef .tc main_v334) : S64x64.Idx → EReal)
      = dense (pooled (V (Proc.devRef .tc main_v318)) (V (Proc.devRef .tc main_arg2))) (V (Proc.devRef .tc main_arg13)) (V (Proc.devRef .tc main_arg14)) := by
  dsimp only [hostOps24]
  after_results
  rfl

theorem t24_1 (V : Valuation τ sig (Elt Ideal)) :
    (StableHlo.after (hostOps24_1 (F := Ideal)) V (Proc.devRef .tc main_v335) : S64x64.Idx → EReal) = relu (V (Proc.devRef .tc main_v334)) := by
  dsimp only [hostOps24_1]
  after_results
  rfl

theorem t24_2 (V : Valuation τ sig (Elt Ideal)) :
    (StableHlo.after (hostOps24_2 (F := Ideal)) V (Proc.devRef .tc main_v339) : S64x64.Idx → EReal)
      = dense (V (Proc.devRef .tc main_v335)) (V (Proc.devRef .tc main_arg15)) (V (Proc.devRef .tc main_arg16)) := by
  dsimp only [hostOps24_2]
  after_results
  rfl

theorem t24_3 (V : Valuation τ sig (Elt Ideal)) :
    (StableHlo.after (hostOps24_3 (F := Ideal)) V (Proc.devRef .tc main_v340) : S64x64.Idx → EReal) = relu (V (Proc.devRef .tc main_v339)) := by
  dsimp only [hostOps24_3]
  after_results
  rfl

theorem t24_4 (V : Valuation τ sig (Elt Ideal)) :
    (StableHlo.after (hostOps24_4 (F := Ideal)) V (Proc.devRef .tc main_v344) : S64x2.Idx → EReal)
      = out (V (Proc.devRef .tc main_v340)) (V (Proc.devRef .tc main_arg17)) (V (Proc.devRef .tc main_arg18)) := by
  dsimp only [hostOps24_4]
  after_results
  rfl

end Cert.Hand.Ends

end
-- ==== Proof.EndsR.lean ====
/-
  The reference's two ends, read off its operations from ANY buffer contents `V` at the chunk's entry, as the same functions
  of `Ends` the kernel's ends are: the reference's operations there are the kernel's, over its own buffers. The shapes, the
  scatter and contraction dimension records and the side facts of the two programs are the same literals, so a term printed
  over one program's names IS the term over the other's.
-/
import proofs.«409001_j25520695673361_2_alg».proof.Proof.RefOps0
import proofs.«409001_j25520695673361_2_alg».proof.Proof.RefOps13
import proofs.«409001_j25520695673361_2_alg».proof.Proof.EndsFn

set_option maxRecDepth 16384

noncomputable section

namespace Cert.Hand.Ends

open Idealize.ShloMosaic Idealize.ShloMosaic.TcCoe Idealize.SL.Sem
open Cert.ReferenceIdeal Cert.ReferenceIdeal.Gen Cert.ReferenceIdeal.Hand

/-! ### The first chunk -/

theorem r_v1 (V : Valuation τ sig (Elt Ideal)) :
    (StableHlo.after (rops0 (F := Ideal)) V (Proc.devRef .tc main_v1) : S800000.Idx → BitVec 32) = srcOf (V (Proc.devRef .tc main_arg1)) := by
  dsimp only [rops0]
  after_results
  rfl

theorem r_v3 (V : Valuation τ sig (Elt Ideal)) :
    (StableHlo.after (rops0 (F := Ideal)) V (Proc.devRef .tc main_v3) : S800000.Idx → BitVec 32) = dstOf (V (Proc.devRef .tc main_arg1)) := by
  dsimp only [rops0]
  after_results
  rfl

theorem r_v10 (V : Valuation τ sig (Elt Ideal)) :
    (StableHlo.after (rops0 (F := Ideal)) V (Proc.devRef .tc main_v10) : S100000.Idx → EReal) = dinvOf (V (Proc.devRef .tc main_arg1)) := by
  dsimp only [rops0]
  after_results
  rfl

/-! ### The last chunk -/

theorem r_tail (V : Valuation τ sig (Elt Ideal)) :
    (StableHlo.after (rops13 (F := Ideal)) V (Proc.devRef .tc main_v483) : S64x2.Idx → EReal)
      = head (V (Proc.devRef .tc main_v457)) (V (Proc.devRef .tc main_arg2)) (V (Proc.devRef .tc main_arg13))
          (V (Proc.devRef .tc main_arg14)) (V (Proc.devRef .tc main_arg15)) (V (Proc.devRef .tc main_arg16))
          (V (Proc.devRef .tc main_arg17)) (V (Proc.devRef .tc main_arg18)) := by
  dsimp only [rops13]
  after_results_simp
  rfl

end Cert.Hand.Ends

end
-- ==== Proof.StepEnds.lean ====
/-
  The two ends of the comparison, and the index range the precondition gives.

  * `prologue`: after the kernel's first stretch and the reference's first chunk, the source row, the destination row and
    (1 + in-degree)^(-1/2) are the same arrays in both programs — the same operations on the same edge list — and the
    kernel's fourth array is the square of its third.
  * `tail`: if the last layer's output agrees, the results agree — pooling and head are the same operations on both sides,
    on that output and on arguments that agree.
  * `range_of_pre`: the kernel's source row is the row the precondition speaks of, so each entry is in [0, 100000).
-/
import proofs.«409001_j25520695673361_2_alg».proof.Proof.Gen.KernelIdeal.Frame
import proofs.«409001_j25520695673361_2_alg».proof.Proof.KKeep
import proofs.«409001_j25520695673361_2_alg».proof.Proof.RefVal
import proofs.«409001_j25520695673361_2_alg».proof.Proof.Agree
import proofs.«409001_j25520695673361_2_alg».proof.Proof.Spec
import proofs.«409001_j25520695673361_2_alg».proof.Proof.PreRead
import proofs.«409001_j25520695673361_2_alg».proof.Proof.EndsK
import proofs.«409001_j25520695673361_2_alg».proof.Proof.EndsR

set_option maxRecDepth 16384

noncomputable section

namespace Cert.Hand.StepEnds

open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The kernel's source row after its first stretch is row 0 of the launched edge list. -/
theorem W1_src : (Cert.KernelIdeal.Gen.W1 m ρ c (Proc.devRef .tc Cert.KernelIdeal.main_v1) : Cert.KernelIdeal.S800000.Idx → BitVec 32) = Ends.srcOf (m ((c.tc : Thread Cert.KernelIdeal.nD Cert.KernelIdeal.τ).loc Cert.KernelIdeal.main_arg1)) :=
  Ends.k_v1 (Cert.KernelIdeal.Gen.W0 m ρ c)

theorem prologue (hagree : Cert.Hand.Agree m m') :
    (Cert.KernelIdeal.Gen.W1 m ρ c (Proc.devRef .tc Cert.KernelIdeal.main_v1) : Cert.KernelIdeal.S800000.Idx → BitVec 32) = Cert.ReferenceIdeal.Hand.RV1 m' c (Proc.devRef .tc Cert.ReferenceIdeal.main_v1)
    ∧ (Cert.KernelIdeal.Gen.W1 m ρ c (Proc.devRef .tc Cert.KernelIdeal.main_v3) : Cert.KernelIdeal.S800000.Idx → BitVec 32) = Cert.ReferenceIdeal.Hand.RV1 m' c (Proc.devRef .tc Cert.ReferenceIdeal.main_v3)
    ∧ (Cert.KernelIdeal.Gen.W1 m ρ c (Proc.devRef .tc Cert.KernelIdeal.main_v10) : Cert.KernelIdeal.S100000.Idx → EReal) = Cert.ReferenceIdeal.Hand.RV1 m' c (Proc.devRef .tc Cert.ReferenceIdeal.main_v10)
    ∧ (Cert.KernelIdeal.Gen.W1 m ρ c (Proc.devRef .tc Cert.KernelIdeal.main_v11) : Cert.KernelIdeal.S100000.Idx → EReal) = mulf (F := Ideal) (s := Cert.KernelIdeal.S100000) (φ := FTy.f32) (Cert.KernelIdeal.Gen.W1 m ρ c (Proc.devRef .tc Cert.KernelIdeal.main_v10)) (Cert.KernelIdeal.Gen.W1 m ρ c (Proc.devRef .tc Cert.KernelIdeal.main_v10)) := by
  have ha : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) := (hagree c).2.1
  have k1 : (Cert.KernelIdeal.Gen.W1 m ρ c (Proc.devRef .tc Cert.KernelIdeal.main_v1) : Cert.KernelIdeal.S800000.Idx → BitVec 32) = Ends.srcOf (m ((c.tc : Thread Cert.KernelIdeal.nD Cert.KernelIdeal.τ).loc Cert.KernelIdeal.main_arg1)) := Ends.k_v1 (Cert.KernelIdeal.Gen.W0 m ρ c)
  have k3 : (Cert.KernelIdeal.Gen.W1 m ρ c (Proc.devRef .tc Cert.KernelIdeal.main_v3) : Cert.KernelIdeal.S800000.Idx → BitVec 32) = Ends.dstOf (m ((c.tc : Thread Cert.KernelIdeal.nD Cert.KernelIdeal.τ).loc Cert.KernelIdeal.main_arg1)) := Ends.k_v3 (Cert.KernelIdeal.Gen.W0 m ρ c)
  have k10 : (Cert.KernelIdeal.Gen.W1 m ρ c (Proc.devRef .tc Cert.KernelIdeal.main_v10) : Cert.KernelIdeal.S100000.Idx → EReal) = Ends.dinvOf (m ((c.tc : Thread Cert.KernelIdeal.nD Cert.KernelIdeal.τ).loc Cert.KernelIdeal.main_arg1)) := Ends.k_v10 (Cert.KernelIdeal.Gen.W0 m ρ c)
  have k11 : (Cert.KernelIdeal.Gen.W1 m ρ c (Proc.devRef .tc Cert.KernelIdeal.main_v11) : Cert.KernelIdeal.S100000.Idx → EReal) = mulf (Ends.dinvOf (m ((c.tc : Thread Cert.KernelIdeal.nD Cert.KernelIdeal.τ).loc Cert.KernelIdeal.main_arg1))) (Ends.dinvOf (m ((c.tc : Thread Cert.KernelIdeal.nD Cert.KernelIdeal.τ).loc Cert.KernelIdeal.main_arg1))) := Ends.k_v11 (Cert.KernelIdeal.Gen.W0 m ρ c)
  have r1 : (Cert.ReferenceIdeal.Hand.RV1 m' c (Proc.devRef .tc Cert.ReferenceIdeal.main_v1) : Cert.KernelIdeal.S800000.Idx → BitVec 32) = Ends.srcOf (m' ((c.tc : Thread Cert.ReferenceIdeal.nD Cert.ReferenceIdeal.τ).loc Cert.ReferenceIdeal.main_arg1)) := Ends.r_v1 (Cert.ReferenceIdeal.Hand.RV0 m' c)
  have r3 : (Cert.ReferenceIdeal.Hand.RV1 m' c (Proc.devRef .tc Cert.ReferenceIdeal.main_v3) : Cert.KernelIdeal.S800000.Idx → BitVec 32) = Ends.dstOf (m' ((c.tc : Thread Cert.ReferenceIdeal.nD Cert.ReferenceIdeal.τ).loc Cert.ReferenceIdeal.main_arg1)) := Ends.r_v3 (Cert.ReferenceIdeal.Hand.RV0 m' c)
  have r10 : (Cert.ReferenceIdeal.Hand.RV1 m' c (Proc.devRef .tc Cert.ReferenceIdeal.main_v10) : Cert.KernelIdeal.S100000.Idx → EReal) = Ends.dinvOf (m' ((c.tc : Thread Cert.ReferenceIdeal.nD Cert.ReferenceIdeal.τ).loc Cert.ReferenceIdeal.main_arg1)) := Ends.r_v10 (Cert.ReferenceIdeal.Hand.RV0 m' c)
  refine ⟨?_, ?_, ?_, ?_⟩
  · rw [k1, r1, ha]
  · rw [k3, r3, ha]
  · rw [k10, r10, ha]
  · rw [k11, k10]

theorem tail (hagree : Cert.Hand.Agree m m')
    (hin : (Cert.KernelIdeal.Gen.W72 m ρ c (Proc.devRef .tc Cert.KernelIdeal.main_v318) : Cert.Hand.Spec.SN.Idx → EReal) = Cert.ReferenceIdeal.Hand.RV13 m' c (Proc.devRef .tc Cert.ReferenceIdeal.main_v457)) :
    (Cert.KernelIdeal.Gen.W77 m ρ c (Proc.devRef .tc Cert.KernelIdeal.main_v344) : Cert.KernelIdeal.S64x2.Idx → EReal) = Cert.ReferenceIdeal.Hand.RV14 m' c (Proc.devRef .tc Cert.ReferenceIdeal.main_v483) := by
  -- the kernel's five last stretches, each from the boundary before it
  have e5 : (Cert.KernelIdeal.Gen.W77 m ρ c (Proc.devRef .tc Cert.KernelIdeal.main_v344) : Cert.KernelIdeal.S64x2.Idx → EReal)
      = Ends.out (Cert.KernelIdeal.Gen.W76 m ρ c (Proc.devRef .tc Cert.KernelIdeal.main_v340)) (Cert.KernelIdeal.Gen.W76 m ρ c (Proc.devRef .tc Cert.KernelIdeal.main_arg17)) (Cert.KernelIdeal.Gen.W76 m ρ c (Proc.devRef .tc Cert.KernelIdeal.main_arg18)) := Ends.t24_4 (Cert.KernelIdeal.Gen.W76 m ρ c)
  have e4 : (Cert.KernelIdeal.Gen.W76 m ρ c (Proc.devRef .tc Cert.KernelIdeal.main_v340) : Cert.KernelIdeal.S64x64.Idx → EReal) = Ends.relu (Cert.KernelIdeal.Gen.W75 m ρ c (Proc.devRef .tc Cert.KernelIdeal.main_v339)) := Ends.t24_3 (Cert.KernelIdeal.Gen.W75 m ρ c)
  have e3 : (Cert.KernelIdeal.Gen.W75 m ρ c (Proc.devRef .tc Cert.KernelIdeal.main_v339) : Cert.KernelIdeal.S64x64.Idx → EReal)
      = Ends.dense (Cert.KernelIdeal.Gen.W74 m ρ c (Proc.devRef .tc Cert.KernelIdeal.main_v335)) (Cert.KernelIdeal.Gen.W74 m ρ c (Proc.devRef .tc Cert.KernelIdeal.main_arg15)) (Cert.KernelIdeal.Gen.W74 m ρ c (Proc.devRef .tc Cert.KernelIdeal.main_arg16)) := Ends.t24_2 (Cert.KernelIdeal.Gen.W74 m ρ c)
  have e2 : (Cert.KernelIdeal.Gen.W74 m ρ c (Proc.devRef .tc Cert.KernelIdeal.main_v335) : Cert.KernelIdeal.S64x64.Idx → EReal) = Ends.relu (Cert.KernelIdeal.Gen.W73 m ρ c (Proc.devRef .tc Cert.KernelIdeal.main_v334)) := Ends.t24_1 (Cert.KernelIdeal.Gen.W73 m ρ c)
  have e1 : (Cert.KernelIdeal.Gen.W73 m ρ c (Proc.devRef .tc Cert.KernelIdeal.main_v334) : Cert.KernelIdeal.S64x64.Idx → EReal)
      = Ends.dense (Ends.pooled (Cert.KernelIdeal.Gen.W72 m ρ c (Proc.devRef .tc Cert.KernelIdeal.main_v318)) (Cert.KernelIdeal.Gen.W72 m ρ c (Proc.devRef .tc Cert.KernelIdeal.main_arg2))) (Cert.KernelIdeal.Gen.W72 m ρ c (Proc.devRef .tc Cert.KernelIdeal.main_arg13)) (Cert.KernelIdeal.Gen.W72 m ρ c (Proc.devRef .tc Cert.KernelIdeal.main_arg14)) := Ends.t24 (Cert.KernelIdeal.Gen.W72 m ρ c)
  -- no stretch writes an argument
  have k17 : Cert.KernelIdeal.Gen.W76 m ρ c (Proc.devRef .tc Cert.KernelIdeal.main_arg17) = m ((c.tc : Thread Cert.KernelIdeal.nD Cert.KernelIdeal.τ).loc Cert.KernelIdeal.main_arg17) := (Cert.KernelIdeal.Hand.W76_keep m ρ c Cert.KernelIdeal.main_arg17 (by decide)).trans ((Cert.KernelIdeal.Hand.W75_keep m ρ c Cert.KernelIdeal.main_arg17 (by decide)).trans ((Cert.KernelIdeal.Hand.W74_keep m ρ c Cert.KernelIdeal.main_arg17 (by decide)).trans ((Cert.KernelIdeal.Hand.W73_keep m ρ c Cert.KernelIdeal.main_arg17 (by decide)).trans (Cert.KernelIdeal.Hand.W72_arg17 m ρ c))))
  have k18 : Cert.KernelIdeal.Gen.W76 m ρ c (Proc.devRef .tc Cert.KernelIdeal.main_arg18) = m ((c.tc : Thread Cert.KernelIdeal.nD Cert.KernelIdeal.τ).loc Cert.KernelIdeal.main_arg18) := (Cert.KernelIdeal.Hand.W76_keep m ρ c Cert.KernelIdeal.main_arg18 (by decide)).trans ((Cert.KernelIdeal.Hand.W75_keep m ρ c Cert.KernelIdeal.main_arg18 (by decide)).trans ((Cert.KernelIdeal.Hand.W74_keep m ρ c Cert.KernelIdeal.main_arg18 (by decide)).trans ((Cert.KernelIdeal.Hand.W73_keep m ρ c Cert.KernelIdeal.main_arg18 (by decide)).trans (Cert.KernelIdeal.Hand.W72_arg18 m ρ c))))
  have k15 : Cert.KernelIdeal.Gen.W74 m ρ c (Proc.devRef .tc Cert.KernelIdeal.main_arg15) = m ((c.tc : Thread Cert.KernelIdeal.nD Cert.KernelIdeal.τ).loc Cert.KernelIdeal.main_arg15) := (Cert.KernelIdeal.Hand.W74_keep m ρ c Cert.KernelIdeal.main_arg15 (by decide)).trans ((Cert.KernelIdeal.Hand.W73_keep m ρ c Cert.KernelIdeal.main_arg15 (by decide)).trans (Cert.KernelIdeal.Hand.W72_arg15 m ρ c))
  have k16 : Cert.KernelIdeal.Gen.W74 m ρ c (Proc.devRef .tc Cert.KernelIdeal.main_arg16) = m ((c.tc : Thread Cert.KernelIdeal.nD Cert.KernelIdeal.τ).loc Cert.KernelIdeal.main_arg16) := (Cert.KernelIdeal.Hand.W74_keep m ρ c Cert.KernelIdeal.main_arg16 (by decide)).trans ((Cert.KernelIdeal.Hand.W73_keep m ρ c Cert.KernelIdeal.main_arg16 (by decide)).trans (Cert.KernelIdeal.Hand.W72_arg16 m ρ c))
  -- the reference's last chunk
  have eR : (Cert.ReferenceIdeal.Hand.RV14 m' c (Proc.devRef .tc Cert.ReferenceIdeal.main_v483) : Cert.KernelIdeal.S64x2.Idx → EReal)
      = Ends.head (Cert.ReferenceIdeal.Hand.RV13 m' c (Proc.devRef .tc Cert.ReferenceIdeal.main_v457)) (Cert.ReferenceIdeal.Hand.RV13 m' c (Proc.devRef .tc Cert.ReferenceIdeal.main_arg2)) (Cert.ReferenceIdeal.Hand.RV13 m' c (Proc.devRef .tc Cert.ReferenceIdeal.main_arg13)) (Cert.ReferenceIdeal.Hand.RV13 m' c (Proc.devRef .tc Cert.ReferenceIdeal.main_arg14))
          (Cert.ReferenceIdeal.Hand.RV13 m' c (Proc.devRef .tc Cert.ReferenceIdeal.main_arg15)) (Cert.ReferenceIdeal.Hand.RV13 m' c (Proc.devRef .tc Cert.ReferenceIdeal.main_arg16)) (Cert.ReferenceIdeal.Hand.RV13 m' c (Proc.devRef .tc Cert.ReferenceIdeal.main_arg17)) (Cert.ReferenceIdeal.Hand.RV13 m' c (Proc.devRef .tc Cert.ReferenceIdeal.main_arg18)) := Ends.r_tail (Cert.ReferenceIdeal.Hand.RV13 m' c)
  rw [e5, e4, e3, e2, e1, k17, k18, k15, k16, Cert.KernelIdeal.Hand.W72_arg2 m ρ c, Cert.KernelIdeal.Hand.W72_arg13 m ρ c, Cert.KernelIdeal.Hand.W72_arg14 m ρ c,
    eR, Cert.ReferenceIdeal.Hand.RV13_arg2 m' c, Cert.ReferenceIdeal.Hand.RV13_arg13 m' c, Cert.ReferenceIdeal.Hand.RV13_arg14 m' c, Cert.ReferenceIdeal.Hand.RV13_arg15 m' c, Cert.ReferenceIdeal.Hand.RV13_arg16 m' c,
    Cert.ReferenceIdeal.Hand.RV13_arg17 m' c, Cert.ReferenceIdeal.Hand.RV13_arg18 m' c,
    (hagree c).2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2, ← hin]
  rfl

theorem range_of_pre (hpre : Cert.Pre_KernelIdeal m) :
    ∀ e : Cert.KernelIdeal.S800000.Idx, 0 ≤ ((Cert.KernelIdeal.Gen.W1 m ρ c (Proc.devRef .tc Cert.KernelIdeal.main_v1) : Cert.KernelIdeal.S800000.Idx → BitVec 32) e).toInt
      ∧ ((Cert.KernelIdeal.Gen.W1 m ρ c (Proc.devRef .tc Cert.KernelIdeal.main_v1) : Cert.KernelIdeal.S800000.Idx → BitVec 32) e).toInt < 100000 := by
  intro e
  rw [W1_src m ρ c]
  exact Cert.Hand.PreRead.src_range m hpre c e

end Cert.Hand.StepEnds

end
-- ==== Proof.NormMath.lean ====
/-
  A Linear layer followed by batch normalisation over the 100000 nodes, as the two programs spell it on whole arrays,
  each spelling a function of the arrays going in.

  * The column statistics, kept as a 1×64 row: `meanRow y` = (Σ_i y[i,j]) / 100000 and `varRow y` = (Σ_i (y[i,j] − mean[j])²) / (100000 − 0),
    the latter guarded by the test 100000 − 0 > 0 (a quiet-NaN word otherwise). The two sums over the 100000 rows are never opened:
    both spellings apply the same reduction to the same array.
  * The second spelling keeps its statistics as vectors of 64 entries (`meanVec`, `varVec`), lays every per-column vector along
    the rows by two broadcasts, and normalises with pointwise operations (`affine`), then takes `max(·,0)` when asked (`normalized`);
    its Linear layer is the matrix product plus the bias vector laid along the rows (`dense`).
  * The laws: `dense x w b = Spec.linear x w (row b)` and `normalized r y g β = Spec.normalize r y (meanRow y) (varRow y) (row g) (row β)`,
    where `row v` is the vector recast as a 1×64 row. Index by index: a broadcast reads its operand, a recast reads the same entry,
    the product at (i,j) is Σ_k x[i,k]·w[k,j].
-/
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws
import proofs.«409001_j25520695673361_2_alg».proof.Proof.Spec

noncomputable section

namespace Cert.Hand.NormMath

open Idealize.ShloMosaic Idealize.ShloMosaic.ValueIdx Cert.Hand.Spec

/-- a vector of per-column values; a single value -/
abbrev SV : Shape := ⟨1, ![64]⟩
abbrev S0 : Shape := ⟨0, ![]⟩

/-! ## The shape relations the operations below take -/

theorem red : SN.ReducesTo [0] SV := by decide
theorem pos0 : 0 < S0.numel := by decide
theorem bVR : SV.BroadcastsInDim SR (![1] : Fin 1 → Fin SR.rank) := by decide
theorem b0R : S0.BroadcastsInDim SR (![] : Fin 0 → Fin SR.rank) := by decide
theorem b0V : S0.BroadcastsInDim SV (![] : Fin 0 → Fin SV.rank) := by decide
theorem b0N : S0.BroadcastsInDim SN (![] : Fin 0 → Fin SN.rank) := by decide
theorem bRN : SR.BroadcastsInDim SN (![0, 1] : Fin 2 → Fin SN.rank) := by decide
theorem cVR : SV.ShapeCasts SR := by decide

/-! ## The statistics as a 1×64 row -/

/-- The number of rows, 100000, as a single value; and the divisor of the variance, 100000 − 0. -/
def rows : FVec Ideal S0 .f32 := constant (F := Ideal) S0 .f32 0x47C35000#32
def count : FVec Ideal S0 .f32 := subf rows (sitofp .f32 (constantI S0 32 0#32))

/-- Column sums of `y`, from zero. -/
def colSum (y : FVec Ideal SN .f32) : FVec Ideal SV .f32 :=
  Host.reduceAdd y (constant (F := Ideal) S0 .f32 0x00000000#32) red pos0

/-- The column means as a row: the column sums over 100000. -/
def meanRow (y : FVec Ideal SN .f32) : FVec Ideal SR .f32 :=
  Host.divf (broadcastInDim SR ![1] bVR (colSum y)) (broadcastInDim SR ![] b0R rows)

/-- The squared distance of every entry from its column's mean. -/
def centredSq (y : FVec Ideal SN .f32) : FVec Ideal SN .f32 :=
  mulf (subf y (broadcastInDim SN ![0, 1] bRN (meanRow y))) (subf y (broadcastInDim SN ![0, 1] bRN (meanRow y)))

/-- The column variances as a row: the column sums of the squared distances over `count`, where `count > 0`. -/
def varRow (y : FVec Ideal SN .f32) : FVec Ideal SR .f32 :=
  select (broadcastInDim SR ![] b0R (cmpf .ogt count (constant (F := Ideal) S0 .f32 0x00000000#32)))
    (Host.divf (broadcastInDim SR ![1] bVR (colSum (centredSq y))) (broadcastInDim SR ![] b0R count))
    (broadcastInDim SR ![] b0R (constant (F := Ideal) S0 .f32 0x7FC00000#32))

/-! ## The statistics as vectors, and the normalisation by pointwise operations -/

def meanVec (y : FVec Ideal SN .f32) : FVec Ideal SV .f32 :=
  Host.divf (colSum y) (broadcastInDim SV ![] b0V rows)

def varVec (y : FVec Ideal SN .f32) : FVec Ideal SV .f32 :=
  select (broadcastInDim SV ![] b0V (cmpf .ogt count (constant (F := Ideal) S0 .f32 0x00000000#32)))
    (Host.divf (colSum (centredSq y)) (broadcastInDim SV ![] b0V count))
    (broadcastInDim SV ![] b0V (constant (F := Ideal) S0 .f32 0x7FC00000#32))

/-- A vector of per-column values laid along every row. -/
def alongRows (v : FVec Ideal SV .f32) : FVec Ideal SN .f32 :=
  broadcastInDim SN ![0, 1] bRN (broadcastInDim SR ![1] bVR v)

/-- ((y − mean) · rsqrt(var + ε)) · g + β, every per-column vector laid along the rows. -/
def affine (y : FVec Ideal SN .f32) (g β : FVec Ideal SV .f32) : FVec Ideal SN .f32 :=
  addf (mulf (mulf (subf y (alongRows (meanVec y)))
      (alongRows (Host.rsqrt (addf (varVec y) (broadcastInDim SV ![] b0V (constant (F := Ideal) S0 .f32 0x3727C5AC#32))))))
      (alongRows g)) (alongRows β)

/-- `affine`, then `max(·, 0)` when `r`. -/
def normalized : Bool → FVec Ideal SN .f32 → FVec Ideal SV .f32 → FVec Ideal SV .f32 → FVec Ideal SN .f32
  | true, y, g, β => maximumf (affine y g β) (broadcastInDim SN ![] b0N (constant (F := Ideal) S0 .f32 0x00000000#32))
  | false, y, g, β => affine y g β

/-- The contraction of a 100000×64 array with a 64×64 one over the former's columns and the latter's rows. -/
def dotNW : DotDims SN SW SN where
  lhsContracting := [1]
  rhsContracting := [0]
  lhsNonContracting := [0]
  rhsNonContracting := [1]
  lhsBatch := []
  rhsBatch := []
  wf := by decide

/-- x · w + b, the bias vector laid along the rows. -/
def dense (x : FVec Ideal SN .f32) (w : FVec Ideal SW .f32) (b : FVec Ideal SV .f32) : FVec Ideal SN .f32 :=
  addf (Host.dotGeneral dotNW none x w) (alongRows b)

/-- A vector of 64 entries recast as a 1×64 row. -/
def row (v : FVec Ideal SV .f32) : FVec Ideal SR .f32 := shapeCast SR v cVR

/-! ## One layer's parameters out of a stack of three

Layer `i`'s 64×64 weight matrix out of a 3×64×64 stack and its vector of 64 entries out of a 3×64 stack: the block at offset `i` on the
leading axis, recast without that axis. Both programs apply these to the same stacks, so they are never read at an index. -/

abbrev S3W : Shape := ⟨3, ![3, 64, 64]⟩
abbrev S1W : Shape := ⟨3, ![1, 64, 64]⟩
abbrev S3V : Shape := ⟨2, ![3, 64]⟩

theorem cWW : S1W.ShapeCasts SW := by decide
theorem cRV : SR.ShapeCasts SV := by decide
theorem sW0 : S3W.Slices ![0, 0, 0] S1W := by decide
theorem sW1 : S3W.Slices ![1, 0, 0] S1W := by decide
theorem sW2 : S3W.Slices ![2, 0, 0] S1W := by decide
theorem sV0 : S3V.Slices ![0, 0] SR := by decide
theorem sV1 : S3V.Slices ![1, 0] SR := by decide
theorem sV2 : S3V.Slices ![2, 0] SR := by decide

def wmat (i : Nat) (h : S3W.Slices ![i, 0, 0] S1W) (a : FVec Ideal S3W .f32) : FVec Ideal SW .f32 :=
  shapeCast SW (extractStridedSlice S1W ![i, 0, 0] a h) cWW

def vec (i : Nat) (h : S3V.Slices ![i, 0] SR) (a : FVec Ideal S3V .f32) : FVec Ideal SV .f32 :=
  shapeCast SV (extractStridedSlice SR ![i, 0] a h) cRV

/-! ## A whole layer: Linear, then normalisation from the Linear output's own column statistics

`layer r i x W B G Z`: with y = x · W[i] + B[i], the array ((y − mean y) · rsqrt(var y + ε)) · G[i] + Z[i], and `max(·,0)` when `r`;
`layerV` is the same layer spelled with vectors laid along the rows. They are one function. -/

def layer (r : Bool) (i : Nat) (hW : S3W.Slices ![i, 0, 0] S1W) (hV : S3V.Slices ![i, 0] SR) (x : FVec Ideal SN .f32)
    (W : FVec Ideal S3W .f32) (B G Z : FVec Ideal S3V .f32) : FVec Ideal SN .f32 :=
  Spec.normalize r (Spec.linear x (wmat i hW W) (row (vec i hV B)))
    (meanRow (Spec.linear x (wmat i hW W) (row (vec i hV B)))) (varRow (Spec.linear x (wmat i hW W) (row (vec i hV B))))
    (row (vec i hV G)) (row (vec i hV Z))

def layerV (r : Bool) (i : Nat) (hW : S3W.Slices ![i, 0, 0] S1W) (hV : S3V.Slices ![i, 0] SR) (x : FVec Ideal SN .f32)
    (W : FVec Ideal S3W .f32) (B G Z : FVec Ideal S3V .f32) : FVec Ideal SN .f32 :=
  normalized r (dense x (wmat i hW W) (vec i hV B)) (vec i hV G) (vec i hV Z)

/-! ## Reading the layout operations at an index -/

/-- A vector laid out as one row reads, at (0, t), its entry t. -/
theorem vecRow_apply {α : Type} (v : SV.Idx → α) (t : Fin 64) :
    broadcastInDim SR ![1] bVR v (ix2 (0 : Fin 1) t) = v (ix1 t) := by
  refine broadcastInDim_apply ![1] bVR v (ix2 (0 : Fin 1) t) (ix1 t) ?_
  intro a
  match a with
  | ⟨0, _⟩ => rfl

theorem alongRows_apply (v : FVec Ideal SV .f32) (p : Fin 100000) (q : Fin 64) : alongRows v (ix2 p q) = v (ix1 q) := by
  unfold alongRows
  rw [broadcastInDim_oneRow_apply bRN _ p q, vecRow_apply]

theorem row_apply (v : FVec Ideal SV .f32) (q : Fin 64) : row v (ix2 (0 : Fin 1) q) = v (ix1 q) :=
  shapeCast_a_1a_apply v cVR 0 q

/-! ## The statistics: the vector and the row hold the same entries -/

theorem meanVec_apply (y : FVec Ideal SN .f32) (q : Fin 64) : meanVec y (ix1 q) = meanRow y (ix2 (0 : Fin 1) q) := by
  unfold meanVec meanRow
  rw [hostDivf_apply, hostDivf_apply, broadcastInDim_scalar_apply, broadcastInDim_scalar_apply, vecRow_apply]

theorem varVec_apply (y : FVec Ideal SN .f32) (q : Fin 64) : varVec y (ix1 q) = varRow y (ix2 (0 : Fin 1) q) := by
  unfold varVec varRow
  rw [select_apply, select_apply, hostDivf_apply, hostDivf_apply,
    broadcastInDim_scalar_apply b0V, broadcastInDim_scalar_apply b0V, broadcastInDim_scalar_apply b0V,
    broadcastInDim_scalar_apply b0R, broadcastInDim_scalar_apply b0R, broadcastInDim_scalar_apply b0R, vecRow_apply]

/-! ## The normalisation -/

theorem normalized_eq (r : Bool) (y : FVec Ideal SN .f32) (g β : FVec Ideal SV .f32) :
    normalized r y g β = Spec.normalize r y (meanRow y) (varRow y) (row g) (row β) := by
  funext i
  obtain ⟨p, q, rfl⟩ : ∃ (p : Fin 100000) (q : Fin 64), i = ix2 p q := ⟨i 0, i 1, eq_ix2 i⟩
  have hq : (ix2 p q : SN.Idx) 1 = q := rfl
  have hr : alongRows (Host.rsqrt (addf (varVec y) (broadcastInDim SV ![] b0V (constant (F := Ideal) S0 .f32 0x3727C5AC#32)))) (ix2 p q)
      = Ideal.rsqrt (varRow y (ix2 0 q) + eps) := by
    rw [alongRows_apply]
    show Ideal.rsqrt (varVec y (ix1 q) + broadcastInDim SV ![] b0V (constant (F := Ideal) S0 .f32 0x3727C5AC#32) (ix1 q)) = _
    rw [varVec_apply, broadcastInDim_scalar_apply b0V]
    rfl
  have core : affine y g β (ix2 p q)
      = (((y (ix2 p q) - meanRow y (ix2 0 q)) * Ideal.rsqrt (varRow y (ix2 0 q) + eps)) * row g (ix2 0 q)) + row β (ix2 0 q) := by
    unfold affine
    rw [addf_apply, mulf_apply, mulf_apply, subf_apply, hr, alongRows_apply, alongRows_apply, alongRows_apply,
      meanVec_apply, row_apply, row_apply]
  cases r
  · show affine y g β (ix2 p q) = _
    rw [core]; unfold Spec.normalize Spec.act; rw [hq]; rfl
  · show max (affine y g β (ix2 p q)) (broadcastInDim SN ![] b0N (constant (F := Ideal) S0 .f32 0x00000000#32) (ix2 p q)) = _
    rw [core, broadcastInDim_scalar_apply, constant_apply, Ideal.ofBits_zero_f32]
    unfold Spec.normalize Spec.act; rw [hq]; rfl

/-! ## The Linear layer -/

theorem lhs_dotNW_0 (j : SN.Idx) (k : dotNW.contr.Idx) : (dotNW.lhsIdx j k 0).val = (j 0).val := rfl
theorem lhs_dotNW_1 (j : SN.Idx) (k : dotNW.contr.Idx) : (dotNW.lhsIdx j k 1).val = (k ⟨0, by decide⟩).val := rfl
theorem rhs_dotNW_0 (j : SN.Idx) (k : dotNW.contr.Idx) : (dotNW.rhsIdx j k 0).val = (k ⟨0, by decide⟩).val := rfl
theorem rhs_dotNW_1 (j : SN.Idx) (k : dotNW.contr.Idx) : (dotNW.rhsIdx j k 1).val = (j 1).val := rfl

/-- The product at (p, q) is the sum over k of x[p,k] · w[k,q]. -/
theorem dot_apply (x : FVec Ideal SN .f32) (w : FVec Ideal SW .f32) (p : Fin 100000) (q : Fin 64) :
    Host.dotGeneral dotNW none x w (ix2 p q) = ∑ k : Fin 64, x (ix2 p k) * w (ix2 k q) := by
  simp only [Host.dotGeneral]
  rw [Ideal.dotGeneral_apply, ← Equiv.sum_comp (contrEquiv1 dotNW 64 rfl rfl).symm]
  refine Finset.sum_congr rfl fun k _ => ?_
  have hk := contrEquiv1_symm_val dotNW 64 rfl rfl k
  congr 2
  · funext a
    refine Fin.ext ?_
    match a with
    | ⟨0, _⟩ => exact lhs_dotNW_0 _ _
    | ⟨1, _⟩ => exact (lhs_dotNW_1 _ _).trans hk
  · funext a
    refine Fin.ext ?_
    match a with
    | ⟨0, _⟩ => exact (rhs_dotNW_0 _ _).trans hk
    | ⟨1, _⟩ => exact rhs_dotNW_1 _ _

theorem dense_eq (x : FVec Ideal SN .f32) (w : FVec Ideal SW .f32) (b : FVec Ideal SV .f32) :
    dense x w b = Spec.linear x w (row b) := by
  funext i
  obtain ⟨p, q, rfl⟩ : ∃ (p : Fin 100000) (q : Fin 64), i = ix2 p q := ⟨i 0, i 1, eq_ix2 i⟩
  unfold dense Spec.linear
  rw [addf_apply, dot_apply, alongRows_apply]
  show _ = (∑ k : Fin 64, x (ix2 p k) * w (ix2 k q)) + row b (ix2 0 q)
  rw [row_apply]

theorem layerV_eq (r : Bool) (i : Nat) (hW : S3W.Slices ![i, 0, 0] S1W) (hV : S3V.Slices ![i, 0] SR) (x : FVec Ideal SN .f32)
    (W : FVec Ideal S3W .f32) (B G Z : FVec Ideal S3V .f32) : layerV r i hW hV x W B G Z = layer r i hW hV x W B G Z := by
  unfold layerV layer
  rw [normalized_eq, dense_eq]

end Cert.Hand.NormMath

end
-- ==== Proof.StepNorm0K.lean ====
/-
  Norm layer 0 (the network's layer 0) on the kernel's side.  Between the layer's entry and the exit of region 1 the kernel cuts
  the layer's weight matrix and bias out of their stacks, runs the Linear region (region 0) on the layer's input, takes the column
  means and variances of the Linear output on the host as 1×64 rows, cuts out the scale and the shift, and runs the normalisation
  region (region 1).  So the array region 1 leaves is `NormMath.layer true 0` of the layer's input and the four parameter stacks
  as the kernel holds them at the layer's entry.
-/
import proofs.«409001_j25520695673361_2_alg».proof.Proof.Gen.KernelIdeal.Frame
import proofs.«409001_j25520695673361_2_alg».proof.Proof.NormMath
import Idealize.ShloMosaic.Lib.StableHlo.Run

set_option maxRecDepth 16384
set_option maxHeartbeats 1000000

noncomputable section

open Idealize.ShloMosaic Idealize.ShloMosaic.TcCoe Idealize.ShloMosaic.ValueIdx Idealize.SL.Sem Idealize.ShloMosaic.StableHlo

namespace Cert.Hand.StepNorm0

open Cert.KernelIdeal Cert.KernelIdeal.Gen Cert.Hand.NormMath Cert.Hand.Spec

variable (m : (ℓ : Loc nD τ sig) → Buf (Elt Ideal) ℓ) (ρ : Dev nD → PrngReg) (c : Dev nD)

/-! ## What the Linear region finds: the layer's input, and the layer's matrix and bias row cut out on the host -/

theorem lin_x : (W1 m ρ c (Proc.devRef .tc main_arg0) : SN.Idx → EReal) = W0 m ρ c (Proc.devRef .tc main_arg0) := by
  dsimp only [W1, hostOps0]
  after_results

theorem lin_w : (W1 m ρ c (Proc.devRef .tc main_v13) : SW.Idx → EReal) = wmat 0 sW0 (W0 m ρ c (Proc.devRef .tc main_arg3)) := by
  dsimp only [W1, hostOps0]
  after_results
  rfl

theorem lin_b : (W1 m ρ c (Proc.devRef .tc main_v16) : SR.Idx → EReal) = row (vec 0 sV0 (W0 m ρ c (Proc.devRef .tc main_arg4))) := by
  dsimp only [W1, hostOps0]
  after_results
  rfl

/-! ## What the normalisation region finds -/

/-- The Linear output is not touched between the two regions. -/
theorem norm_y : (W5 m ρ c (Proc.devRef .tc main_v17) : SN.Idx → EReal) = W2 m ρ c (Proc.devRef .tc main_v17) := by
  dsimp only [W5, W4, W3, hostOps1_2, hostOps1_1, hostOps1]
  after_results

/-- The mean row is computed from the Linear output by the first host stretch after the Linear region. -/
theorem norm_mean : (W5 m ρ c (Proc.devRef .tc main_v21) : SR.Idx → EReal) = meanRow (W2 m ρ c (Proc.devRef .tc main_v17)) := by
  dsimp only [W5, W4, W3, hostOps1_2, hostOps1_1, hostOps1]
  after_results
  rfl

/-- The variance row by the second. -/
theorem norm_var : (W5 m ρ c (Proc.devRef .tc main_v22) : SR.Idx → EReal) = varRow (W2 m ρ c (Proc.devRef .tc main_v17)) := by
  dsimp only [W5, W4, W3, hostOps1_2, hostOps1_1, hostOps1]
  after_results_simp
  rfl

/-- The two remaining parameter stacks are as at the layer's entry when the third stretch cuts the scale and the shift out of them. -/
theorem keep_g : W4 m ρ c (Proc.devRef .tc main_arg5) = W0 m ρ c (Proc.devRef .tc main_arg5) := by
  have h1 : W4 m ρ c (Proc.devRef .tc main_arg5) = W2 m ρ c (Proc.devRef .tc main_arg5) := by
    dsimp only [W4, W3, hostOps1_1, hostOps1]
    after_results
  have h2 : W1 m ρ c (Proc.devRef .tc main_arg5) = W0 m ρ c (Proc.devRef .tc main_arg5) := by
    dsimp only [W1, hostOps0]
    after_results
  exact h1.trans ((W2_of_ne m ρ c main_arg5 (by decide)).trans h2)

theorem keep_z : W4 m ρ c (Proc.devRef .tc main_arg6) = W0 m ρ c (Proc.devRef .tc main_arg6) := by
  have h1 : W4 m ρ c (Proc.devRef .tc main_arg6) = W2 m ρ c (Proc.devRef .tc main_arg6) := by
    dsimp only [W4, W3, hostOps1_1, hostOps1]
    after_results
  have h2 : W1 m ρ c (Proc.devRef .tc main_arg6) = W0 m ρ c (Proc.devRef .tc main_arg6) := by
    dsimp only [W1, hostOps0]
    after_results
  exact h1.trans ((W2_of_ne m ρ c main_arg6 (by decide)).trans h2)

theorem norm_g : (W5 m ρ c (Proc.devRef .tc main_v27) : SR.Idx → EReal) = row (vec 0 sV0 (W0 m ρ c (Proc.devRef .tc main_arg5))) := by
  rw [← keep_g m ρ c]
  dsimp only [W5]
  generalize W4 m ρ c = U
  dsimp only [hostOps1_2]
  after_results
  rfl

theorem norm_z : (W5 m ρ c (Proc.devRef .tc main_v28) : SR.Idx → EReal) = row (vec 0 sV0 (W0 m ρ c (Proc.devRef .tc main_arg6))) := by
  rw [← keep_z m ρ c]
  dsimp only [W5]
  generalize W4 m ρ c = U
  dsimp only [hostOps1_2]
  after_results
  rfl

/-! ## The two regions, and the layer

`hlin`, `hnorm`: each region leaves in its output array the stage's function of the arrays it finds in its input windows. -/

variable (hlin : ∀ (V : (c : Dev nD) → (b : Ref sig .tc) → Buf (Elt Ideal) ((c : Thread nD τ).loc b)) (c : Dev nD),
    (dat0 (F := Ideal) V c).arrAt 3 cfg0.N
      = Spec.linear (V c (Pipeline.arrRef spec0 0)) (V c (Pipeline.arrRef spec0 1)) (V c (Pipeline.arrRef spec0 2)))
variable (hnorm : ∀ (V : (c : Dev nD) → (b : Ref sig .tc) → Buf (Elt Ideal) ((c : Thread nD τ).loc b)) (c : Dev nD),
    (dat1 (F := Ideal) V c).arrAt 5 cfg1.N
      = Spec.normalize true (V c (Pipeline.arrRef spec1 0)) (V c (Pipeline.arrRef spec1 1)) (V c (Pipeline.arrRef spec1 2))
          (V c (Pipeline.arrRef spec1 3)) (V c (Pipeline.arrRef spec1 4)))

include hlin in
/-- The Linear region's output. -/
theorem linear_out : (W2 m ρ c (Proc.devRef .tc main_v17) : SN.Idx → EReal)
    = Spec.linear (W0 m ρ c (Proc.devRef .tc main_arg0)) (wmat 0 sW0 (W0 m ρ c (Proc.devRef .tc main_arg3)))
        (row (vec 0 sV0 (W0 m ρ c (Proc.devRef .tc main_arg4)))) := by
  rw [← lin_x m ρ c, ← lin_w m ρ c, ← lin_b m ρ c]
  exact (W2_arr m ρ c 3).trans (hlin (V1 m ρ) c)

include hlin hnorm in
/-- The layer's output on the kernel's side. -/
theorem kernel : (W6 m ρ c (Proc.devRef .tc main_v29) : SN.Idx → EReal)
    = layer true 0 sW0 sV0 (W0 m ρ c (Proc.devRef .tc main_arg0)) (W0 m ρ c (Proc.devRef .tc main_arg3))
        (W0 m ρ c (Proc.devRef .tc main_arg4)) (W0 m ρ c (Proc.devRef .tc main_arg5)) (W0 m ρ c (Proc.devRef .tc main_arg6)) := by
  unfold layer
  rw [← linear_out m ρ c hlin, ← norm_mean m ρ c, ← norm_var m ρ c, ← norm_g m ρ c, ← norm_z m ρ c, ← norm_y m ρ c]
  exact (W6_arr m ρ c 5).trans (hnorm (V5 m ρ) c)

end Cert.Hand.StepNorm0

end
-- ==== Proof.StepNorm0R.lean ====
/-
  Norm layer 0 (the network's layer 0) on the reference's side.  From the layer's input and the four parameter stacks as the
  reference holds them when the layer starts, its operations cut the layer's parameters out, form x · w + b with the bias laid
  along the rows, take the column means and variances of that array as vectors of 64 entries, and normalise with every per-column
  vector laid along the rows (then `max(·,0)` where the layer has it): the array `NormMath.layerV true 0` of those five arrays.
-/
import proofs.«409001_j25520695673361_2_alg».proof.Proof.RefVal
import proofs.«409001_j25520695673361_2_alg».proof.Proof.NormMath

set_option maxRecDepth 4096

noncomputable section

open Idealize.ShloMosaic Idealize.ShloMosaic.TcCoe Idealize.ShloMosaic.ValueIdx Idealize.SL.Sem Idealize.ShloMosaic.StableHlo

namespace Cert.Hand.StepNorm0

open Cert.ReferenceIdeal Cert.ReferenceIdeal.Gen Cert.ReferenceIdeal.Hand Cert.Hand.NormMath Cert.Hand.Spec

/-- Contents moved to a typed reference's buffer type and back are the contents: both moves are along the same equation of types. -/
private theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

set_option maxHeartbeats 4000000 in
/-- What the layer's operations leave in its result, from ANY contents `V` at the layer's start: each operation's result is its
    function of its operands' contents, and a buffer none of them writes is as the layer found it. -/
theorem reference_of (V : Valuation τ sig (Elt Ideal)) :
    (StableHlo.after (rops1 (F := Ideal)) V (Proc.devRef .tc main_v42) : SN.Idx → EReal)
      = layerV true 0 sW0 sV0 (V (Proc.devRef .tc main_arg0)) (V (Proc.devRef .tc main_arg3))
          (V (Proc.devRef .tc main_arg4)) (V (Proc.devRef .tc main_arg5)) (V (Proc.devRef .tc main_arg6)) := by
  after_results_simp
  try simp only [ofBuf_toBuf]
  rfl

/-- The layer's output on the reference's side. -/
theorem reference (m' : (ℓ : Loc nD τ sig) → Buf (Elt Ideal) ℓ) (c : Dev nD) :
    (RV2 m' c (Proc.devRef .tc main_v42) : SN.Idx → EReal)
      = layerV true 0 sW0 sV0 (RV1 m' c (Proc.devRef .tc main_arg0)) (RV1 m' c (Proc.devRef .tc main_arg3))
          (RV1 m' c (Proc.devRef .tc main_arg4)) (RV1 m' c (Proc.devRef .tc main_arg5)) (RV1 m' c (Proc.devRef .tc main_arg6)) :=
  reference_of (RV1 m' c)

end Cert.Hand.StepNorm0

end
-- ==== Proof.RegLinear0.lean ====
/-
  Region 0 of the network: a Linear layer on all 100000 nodes, run as ten row blocks of 10000 × 64.
  Each grid point reads its row block of x, the whole 64 × 64 weight matrix and the whole 1 × 64 bias row, and leaves
  (x_block · w) + b in its row block of the result.  Read on the extended reals, where the narrowing of both
  factors to bf16 is the identity, the ten blocks together are `Spec.linear x w b`:
    row i, column j  ↦  (Σ_k x[i,k] · w[k,j]) + b[0,j].
  The steps: the block product at an index as a sum over the contraction coordinate (`pay_apply`); each window's
  block as rows of its array (`xblk_apply`, `wblk_eq`, `bblk_eq`); what point t writes back is block t of
  `Spec.linear x w b` (`flushed_eq`); the ten blocks cover the result, row r lying in block r / 10000 (`cover`);
  so the result array is `Spec.linear x w b` (`value`).
-/
import proofs.«409001_j25520695673361_2_alg».proof.Proof.Gen.KernelIdeal.Frame
import proofs.«409001_j25520695673361_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.Hand.RegLinear0

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

/-- Axis 0 of the left factor's index is the output's row. -/
theorem lhs_0 (j : S10000x64.Idx) (k : dot_S10000x64_S64x64_S10000x64_1_0_0_1_n_n.contr.Idx) :
    (dot_S10000x64_S64x64_S10000x64_1_0_0_1_n_n.lhsIdx j k 0).val = (j 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- Axis 1 of the left factor's index is the contraction coordinate. -/
theorem lhs_1 (j : S10000x64.Idx) (k : dot_S10000x64_S64x64_S10000x64_1_0_0_1_n_n.contr.Idx) :
    (dot_S10000x64_S64x64_S10000x64_1_0_0_1_n_n.lhsIdx j k 1).val = (k ⟨0, by decide⟩).val :=
  dot_S10000x64_S64x64_S10000x64_1_0_0_1_n_n.lhsIdx_val_of_single rfl j k

/-- Axis 0 of the right factor's index is the contraction coordinate. -/
theorem rhs_0 (j : S10000x64.Idx) (k : dot_S10000x64_S64x64_S10000x64_1_0_0_1_n_n.contr.Idx) :
    (dot_S10000x64_S64x64_S10000x64_1_0_0_1_n_n.rhsIdx j k 0).val = (k ⟨0, by decide⟩).val :=
  dot_S10000x64_S64x64_S10000x64_1_0_0_1_n_n.rhsIdx_val_of_single rfl j k

/-- Axis 1 of the right factor's index is the output's column. -/
theorem rhs_1 (j : S10000x64.Idx) (k : dot_S10000x64_S64x64_S10000x64_1_0_0_1_n_n.contr.Idx) :
    (dot_S10000x64_S64x64_S10000x64_1_0_0_1_n_n.rhsIdx j k 1).val = (j 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- What the body stores, at row p and column q of the block: the row of the first block times the column of the
    second, summed over the 64 contraction coordinates, plus the bias row's entry in that column. On the extended reals
    the two narrowings to bf16 change nothing and the accumulator's zero splat adds nothing. -/
theorem pay_apply (x0 : Vec Ideal S10000x64 .f32) (x1 : Vec Ideal S64x64 .f32) (x2 : Vec Ideal S1x64 .f32)
    (p : Fin 10000) (q : Fin 64) :
    k0_pay1 (F := Ideal) x0 x1 x2 (ix2 p q) = (∑ k : Fin 64, x0 (ix2 p k) * x1 (ix2 k q)) + x2 (ix2 (0 : Fin 1) q) := by
  unfold k0_pay1
  simp only [shapeCast_self]
  refine congrArg₂ (· + ·) ?_ (broadcastTo_1b_ab_apply x2 broadcasts_S1x64_S10000x64 p q)
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hl : dot_S10000x64_S64x64_S10000x64_1_0_0_1_n_n.lhsIdx (ix2 p q)
      ((contrEquiv1 dot_S10000x64_S64x64_S10000x64_1_0_0_1_n_n 64 rfl rfl).symm k) = ix2 p k := by
    funext a; apply Fin.ext
    match a with
    | ⟨0, _⟩ => exact lhs_0 _ _
    | ⟨1, _⟩ => exact (lhs_1 _ _).trans (contrEquiv1_symm_val dot_S10000x64_S64x64_S10000x64_1_0_0_1_n_n 64 rfl rfl k)
  have hr : dot_S10000x64_S64x64_S10000x64_1_0_0_1_n_n.rhsIdx (ix2 p q)
      ((contrEquiv1 dot_S10000x64_S64x64_S10000x64_1_0_0_1_n_n 64 rfl rfl).symm k) = ix2 k q := by
    funext a; apply Fin.ext
    match a with
    | ⟨0, _⟩ => exact (rhs_0 _ _).trans (contrEquiv1_symm_val dot_S10000x64_S64x64_S10000x64_1_0_0_1_n_n 64 rfl rfl k)
    | ⟨1, _⟩ => exact rhs_1 _ _
  show x0 _ * x1 _ = _
  rw [hl, hr]

/-- One row block of the layer. If the first block is rows `10000 r …` of an array X, the second is W and the third is B,
    then at local index y, which is index i of the whole array, the body's value is `Spec.linear X W B` at i. -/
theorem pay_linear (x0 : Vec Ideal S10000x64 .f32) (x1 : Vec Ideal S64x64 .f32) (x2 : Vec Ideal S1x64 .f32)
    (X : Spec.SN.Idx → EReal) (W : Spec.SW.Idx → EReal) (B : Spec.SR.Idx → EReal) (r : ℕ)
    (hX : ∀ (y : S10000x64.Idx) (i : Spec.SN.Idx), (i 0).val = r * 10000 + (y 0).val → (i 1).val = (y 1).val → x0 y = X i)
    (hW : x1 = W) (hB : x2 = B)
    (y : S10000x64.Idx) (i : Spec.SN.Idx) (h0 : (i 0).val = r * 10000 + (y 0).val) (h1 : (i 1).val = (y 1).val) :
    k0_pay1 (F := Ideal) x0 x1 x2 y = Spec.linear X W B i := by
  obtain ⟨p, q, rfl⟩ : ∃ (p : Fin 10000) (q : Fin 64), y = ix2 p q := ⟨y 0, y 1, eq_ix2 y⟩
  have hq : (i 1 : Fin 64) = q := Fin.ext h1
  subst hW hB
  refine (pay_apply x0 x1 x2 p q).trans ?_
  show _ = (∑ k : Fin 64, X (ix2 (i 0) k) * x1 (ix2 k (i 1))) + x2 (ix2 0 (i 1))
  refine congrArg₂ (· + ·) (Finset.sum_congr rfl fun k _ => congrArg₂ (· * ·) ?_ ?_) ?_
  · exact hX (ix2 p k) (ix2 (i 0) k) h0 rfl
  · exact (congrArg (fun z : Fin 64 => x1 (ix2 k z)) hq).symm
  · exact (congrArg (fun z : Fin 64 => x2 (ix2 (0 : Fin 1) z)) hq).symm

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the ten row blocks: x and the result move down with the point, w and b stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row block t of x: rows `10000 t … 10000 t + 9999` of the array. -/
theorem xblk_apply (c : Dev nD) (t : Fin cfg0.N) (y : S10000x64.Idx) (i : Spec.SN.Idx)
    (h0 : (i 0).val = t.val * 10000 + (y 0).val) (h1 : (i 1).val = (y 1).val) :
    (iblk0 V c 0 t : Vec Ideal S10000x64 .f32) y = (V c (Pipeline.arrRef spec0 0) : Spec.SN.Idx → EReal) i := by
  obtain ⟨e0, e1, -⟩ := idx_facts t
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 10000 + 1 * (y 0).val = (i 0).val; omega
  | ⟨1, _⟩ => show win0_0.index t (1 : Fin 2) * 64 + 1 * (y 1).val = (i 1).val; omega

/-- The weights' one block is the whole matrix. -/
theorem wblk_eq (c : Dev nD) (t : Fin cfg0.N) :
    (iblk0 V c 1 t : Vec Ideal S64x64 .f32) = (V c (Pipeline.arrRef spec0 1) : Spec.SW.Idx → EReal) := by
  obtain ⟨-, -, e0, e1, -⟩ := idx_facts t
  funext y
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- The bias row's one block is the whole row. -/
theorem bblk_eq (c : Dev nD) (t : Fin cfg0.N) :
    (iblk0 V c 2 t : Vec Ideal S1x64 .f32) = (V c (Pipeline.arrRef spec0 2) : Spec.SR.Idx → EReal) := by
  obtain ⟨-, -, -, -, e0, e1, -⟩ := idx_facts t
  funext y
  unfold iblk0
  rw [View.read_apply]
  show V c (Pipeline.arrRef spec0 2) _ = V c (Pipeline.arrRef spec0 2) _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- What the result array ends holding: the Linear layer of the three arrays as the region finds them. -/
abbrev G (c : Dev nD) : Spec.SN.Idx → EReal :=
  Spec.linear (V c (Pipeline.arrRef spec0 0)) (V c (Pipeline.arrRef spec0 1)) (V c (Pipeline.arrRef spec0 2))

/-- What point t writes back is block t of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x64) hz, View.ld_unit_zero (S := S1x64) hz]
  obtain ⟨-, -, -, -, -, -, e0, e1⟩ := idx_facts t
  funext y
  rw [View.read_apply]
  show k0_pay1 (F := Ideal) (iblk0 V c 0 t) (iblk0 V c 1 t) (iblk0 V c 2 t) ((cfg0.win 3).xinj (grid0.coords t) y)
    = G V c (((cfg0.win 3).blk t).view.emb y)
  exact pay_linear (iblk0 V c 0 t) (iblk0 V c 1 t) (iblk0 V c 2 t)
    (V c (Pipeline.arrRef spec0 0)) (V c (Pipeline.arrRef spec0 1)) (V c (Pipeline.arrRef spec0 2)) t.val
    (xblk_apply V c t) (wblk_eq V c t) (bblk_eq V c t)
    ((cfg0.win 3).xinj (grid0.coords t) y) (((cfg0.win 3).blk t).view.emb y)
    (by show win0_3.index t (0 : Fin 2) * 10000 + 1 * (y 0).val = t.val * 10000 + (y 0).val; omega)
    (by show win0_3.index t (1 : Fin 2) * 64 + 1 * (y 1).val = (y 1).val; omega)

/-- An index of the result is in point t's block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v17).slice (win0_3.rect t)).set ↔ _
  rw [View.set_slice_whole, Rect.mem_set_unit]
  exact Iff.rfl

/-- The ten row blocks cover the result: row r is in block r / 10000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 10 := N_0
  let t : Fin cfg0.N := ⟨(i 0).val / 10000, by show _ < grid0.N; omega⟩
  obtain ⟨-, -, -, -, -, -, e0, e1⟩ := idx_facts t
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000
              have : t.val = (i 0).val / 10000 := rfl
              omega
  | ⟨1, _⟩ => show win0_3.index t (1 : Fin 2) * 64 ≤ (i 1).val ∧ (i 1).val < win0_3.index t (1 : Fin 2) * 64 + 64; omega

/-- The region's result: after its ten write-backs the output array is the Linear layer of the three input arrays as
    the region finds them. -/
theorem value (c : Dev nD) :
    (dat0 (F := Ideal) V c).arrAt 3 cfg0.N
      = Spec.linear (V c (Pipeline.arrRef spec0 0)) (V c (Pipeline.arrRef spec0 1)) (V c (Pipeline.arrRef spec0 2)) :=
  (dat0 V c).arrAt_eq_of_cover 3 (G V c) (fun t _ => flushed_eq V c t) cover

end Cert.Hand.RegLinear0

end
-- ==== Proof.RegNorm1.lean ====
/-
  Region 1: batch normalisation followed by max(·, 0), read as ONE function of the five arrays it reads.

  The region walks the 100000 × 64 array x in ten blocks of 10000 rows; the column mean μ, the column variance v, the
  scale g and the shift β are 1 × 64 rows read whole at every block.  At row p, column q of block t the body stores
  max((((x − μ_q) · rsqrt(v_q + ε)) · g_q) + β_q, 0), with x taken at row 10000·t + p, column q, of the array: the rows
  are broadcast down the block, every operation is elementwise, and ε is the splat of the f32 word 0x3727C5AC.  Block t is
  written back to rows 10000·t … 10000·t + 9999 of the output, so the ten blocks tile the output (row r lies in block
  r / 10000) and the output ends as `Spec.normalize true x μ v g β`.
-/
import proofs.«409001_j25520695673361_2_alg».proof.Proof.Gen.KernelIdeal.Frame
import proofs.«409001_j25520695673361_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Hand.RegNorm1

open Idealize.ShloMosaic Idealize.ShloMosaic.TcCoe Idealize.ShloMosaic.ValueIdx Idealize.SL.Sem
open Idealize.ShloMosaic.Pipeline (Dat)
open Cert.KernelIdeal Cert.KernelIdeal.Gen
open Cert.Hand

variable (V : (c : Dev nD) → (b : Ref sig .tc) → Buf (Elt Ideal) ((c : Thread nD τ).loc b))

/-- The zero offsets of a whole-buffer access, as a constant function. -/
theorem hz : (![0, 0] : Fin 2 → Nat) = fun _ => 0 := funext fun a => by fin_cases a <;> rfl

/-! ## The specification read at an index whose column is known -/

/-- `Spec.normalize` at an index of column `q`: only column `q` of the four rows enters. -/
theorem normalize_apply (r : Bool) (x : Spec.SN.Idx → EReal) (μ v g β : Spec.SR.Idx → EReal) (i : Spec.SN.Idx) (q : Fin 64)
    (hq : i 1 = q) :
    Spec.normalize r x μ v g β i
      = Spec.act r ((((x i - μ (ix2 0 q)) * Ideal.rsqrt (v (ix2 0 q) + Spec.eps)) * g (ix2 0 q)) + β (ix2 0 q)) := by
  subst hq; rfl

/-- The normalised value depends on its five entries only. -/
theorem act_congr (r : Bool) {a a' b b' s s' d d' e e' : EReal} (ha : a = a') (hb : b = b') (hs : s = s') (hd : d = d')
    (he : e = e') :
    Spec.act r ((((a - b) * Ideal.rsqrt (s + Spec.eps)) * d) + e)
      = Spec.act r ((((a' - b') * Ideal.rsqrt (s' + Spec.eps)) * d') + e') := by
  subst ha hb hs hd he; rfl

/-! ## The body's stored value at row `p`, column `q` of a block -/

/-- The stored block at `(p, q)`, from the loaded blocks (`v5` the block of x, `v7` the means, `v0` the variances,
    `v13` the scales, `v17` the shifts): every operation is elementwise, and a broadcast row is read at its column. -/
theorem pay_apply (v0 : Vec Ideal S1x64 .f32) (v5 : Vec Ideal S10000x64 .f32) (v7 v13 v17 : Vec Ideal S1x64 .f32)
    (p : Fin 10000) (q : Fin 64) :
    k1_pay1 (F := Ideal) v0 v5 v7 v13 v17 (ix2 p q)
      = Spec.act true ((((v5 (ix2 p q) - v7 (ix2 0 q)) * Ideal.rsqrt (v0 (ix2 0 q) + Spec.eps)) * v13 (ix2 0 q)) + v17 (ix2 0 q)) := by
  unfold k1_pay1 Spec.act Spec.eps
  rw [if_pos rfl]
  simp only [shapeCast_self]
  rw [maximumf_apply, addf_apply, mulf_apply, mulf_apply, subf_apply]
  rw [broadcastTo_1b_ab_apply, broadcastTo_1b_ab_apply, broadcastTo_1b_ab_apply, broadcastTo_1b_ab_apply]
  show max (_ * Ideal.rsqrt (v0 (ix2 0 q) + Ideal.ofBits .f32 0x3727C5AC#32) * _ + _) (Ideal.ofBits .f32 0x00000000#32) = _
  rw [Ideal.ofBits_zero_f32]

/-! ## Where each block sits in its array -/

/-- The block indices at grid point `t`: x's block moves with the output's, which is block `(t, 0)`; the four rows
    stay at block `(0, 0)`. -/
theorem idx_facts : ∀ t : Fin cfg1.N,
      win1_0.index t (0 : Fin 2) = win1_5.index t (0 : Fin 2) ∧ win1_0.index t (1 : Fin 2) = win1_5.index t (1 : Fin 2)
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Entry `(p, q)` of x's block at `t` and entry `(p, q)` of the output's block at `t` have the same array index. -/
theorem emb_x (t : Fin cfg1.N) (p : Fin 10000) (q : Fin 64) :
    ((cfg1.win 0).blk t).view.emb (ix2 p q) = ((cfg1.win 5).blk t).view.emb (ix2 p q) := by
  obtain ⟨a0, a1, -⟩ := idx_facts t
  funext a; apply Fin.ext
  match a with
  | ⟨0, _⟩ => show win1_0.index t (0 : Fin 2) * 10000 + 1 * p.val = win1_5.index t (0 : Fin 2) * 10000 + 1 * p.val; omega
  | ⟨1, _⟩ => show win1_0.index t (1 : Fin 2) * 64 + 1 * q.val = win1_5.index t (1 : Fin 2) * 64 + 1 * q.val; omega

/-- An entry of the output's block keeps its column in the array. -/
theorem emb_out_col (t : Fin cfg1.N) (p : Fin 10000) (q : Fin 64) :
    (((cfg1.win 5).blk t).view.emb (ix2 p q) : Spec.SN.Idx) 1 = q := by
  obtain ⟨-, -, -, e51, -⟩ := idx_facts t
  apply Fin.ext
  show win1_5.index t (1 : Fin 2) * 64 + 1 * q.val = q.val
  omega

/-- The block of the means is the whole row: entry `(0, q)` is the array's. -/
theorem emb_row1 (t : Fin cfg1.N) (q : Fin 64) :
    ((cfg1.win 1).blk t).view.emb (ix2 (0 : Fin 1) q) = (ix2 (0 : Fin 1) q : S1x64.Idx) := by
  obtain ⟨-, -, -, -, r0, r1, -⟩ := idx_facts t
  funext a; apply Fin.ext
  match a with
  | ⟨0, _⟩ => show win1_1.index t (0 : Fin 2) * 1 + 1 * 0 = 0; omega
  | ⟨1, _⟩ => show win1_1.index t (1 : Fin 2) * 64 + 1 * q.val = q.val; omega

/-- The block of the variances is the whole row. -/
theorem emb_row2 (t : Fin cfg1.N) (q : Fin 64) :
    ((cfg1.win 2).blk t).view.emb (ix2 (0 : Fin 1) q) = (ix2 (0 : Fin 1) q : S1x64.Idx) := by
  obtain ⟨-, -, -, -, -, -, r0, r1, -⟩ := idx_facts t
  funext a; apply Fin.ext
  match a with
  | ⟨0, _⟩ => show win1_2.index t (0 : Fin 2) * 1 + 1 * 0 = 0; omega
  | ⟨1, _⟩ => show win1_2.index t (1 : Fin 2) * 64 + 1 * q.val = q.val; omega

/-- The block of the scales is the whole row. -/
theorem emb_row3 (t : Fin cfg1.N) (q : Fin 64) :
    ((cfg1.win 3).blk t).view.emb (ix2 (0 : Fin 1) q) = (ix2 (0 : Fin 1) q : S1x64.Idx) := by
  obtain ⟨-, -, -, -, -, -, -, -, r0, r1, -⟩ := idx_facts t
  funext a; apply Fin.ext
  match a with
  | ⟨0, _⟩ => show win1_3.index t (0 : Fin 2) * 1 + 1 * 0 = 0; omega
  | ⟨1, _⟩ => show win1_3.index t (1 : Fin 2) * 64 + 1 * q.val = q.val; omega

/-- The block of the shifts is the whole row. -/
theorem emb_row4 (t : Fin cfg1.N) (q : Fin 64) :
    ((cfg1.win 4).blk t).view.emb (ix2 (0 : Fin 1) q) = (ix2 (0 : Fin 1) q : S1x64.Idx) := by
  obtain ⟨-, -, -, -, -, -, -, -, -, -, r0, r1⟩ := idx_facts t
  funext a; apply Fin.ext
  match a with
  | ⟨0, _⟩ => show win1_4.index t (0 : Fin 2) * 1 + 1 * 0 = 0; omega
  | ⟨1, _⟩ => show win1_4.index t (1 : Fin 2) * 64 + 1 * q.val = q.val; omega

/-! ## What a grid point stores, against the specification -/

/-- Entry `(p, q)` of what the body stores at point `t` is the specification at the array index of that entry. -/
theorem point_eq (c : Dev nD) (t : Fin cfg1.N) (p : Fin 10000) (q : Fin 64) :
    k1_pay1 (F := Ideal) (iblk1 V c 2 t) (iblk1 V c 0 t) (iblk1 V c 1 t) (iblk1 V c 3 t) (iblk1 V c 4 t) (ix2 p q)
      = Spec.normalize true (V c (Pipeline.arrRef spec1 0)) (V c (Pipeline.arrRef spec1 1)) (V c (Pipeline.arrRef spec1 2))
          (V c (Pipeline.arrRef spec1 3)) (V c (Pipeline.arrRef spec1 4)) (((cfg1.win 5).blk t).view.emb (ix2 p q)) := by
  refine (pay_apply (iblk1 V c 2 t) (iblk1 V c 0 t) (iblk1 V c 1 t) (iblk1 V c 3 t) (iblk1 V c 4 t) p q).trans ?_
  refine Eq.trans ?_ (normalize_apply true (V c (Pipeline.arrRef spec1 0)) (V c (Pipeline.arrRef spec1 1))
    (V c (Pipeline.arrRef spec1 2)) (V c (Pipeline.arrRef spec1 3)) (V c (Pipeline.arrRef spec1 4))
    (((cfg1.win 5).blk t).view.emb (ix2 p q)) q (emb_out_col t p q)).symm
  have hx : iblk1 V c 0 t (ix2 p q) = V c (Pipeline.arrRef spec1 0) (((cfg1.win 5).blk t).view.emb (ix2 p q)) := by
    show V c (Pipeline.arrRef spec1 0) (((cfg1.win 0).blk t).view.emb (ix2 p q)) = _
    rw [emb_x t p q]
  have h1 : iblk1 V c 1 t (ix2 0 q) = V c (Pipeline.arrRef spec1 1) (ix2 0 q) := by
    show V c (Pipeline.arrRef spec1 1) (((cfg1.win 1).blk t).view.emb (ix2 (0 : Fin 1) q)) = _
    rw [emb_row1 t q]
  have h2 : iblk1 V c 2 t (ix2 0 q) = V c (Pipeline.arrRef spec1 2) (ix2 0 q) := by
    show V c (Pipeline.arrRef spec1 2) (((cfg1.win 2).blk t).view.emb (ix2 (0 : Fin 1) q)) = _
    rw [emb_row2 t q]
  have h3 : iblk1 V c 3 t (ix2 0 q) = V c (Pipeline.arrRef spec1 3) (ix2 0 q) := by
    show V c (Pipeline.arrRef spec1 3) (((cfg1.win 3).blk t).view.emb (ix2 (0 : Fin 1) q)) = _
    rw [emb_row3 t q]
  have h4 : iblk1 V c 4 t (ix2 0 q) = V c (Pipeline.arrRef spec1 4) (ix2 0 q) := by
    show V c (Pipeline.arrRef spec1 4) (((cfg1.win 4).blk t).view.emb (ix2 (0 : Fin 1) q)) = _
    rw [emb_row4 t q]
  exact act_congr true hx h1 h2 h3 h4

/-- WHAT POINT `t` WRITES BACK is block `t` of the specification of the arrays as the region finds them. -/
theorem flushed_eq (c : Dev nD) (t : Fin cfg1.N) :
    (dat1 (F := Ideal) V c).flushed 5 t
      = ((cfg1.win 5).blk t).view.read (Elt Ideal)
          (Spec.normalize true (V c (Pipeline.arrRef spec1 0)) (V c (Pipeline.arrRef spec1 1)) (V c (Pipeline.arrRef spec1 2))
            (V c (Pipeline.arrRef spec1 3)) (V c (Pipeline.arrRef spec1 4))) := by
  show (cfg1.win 5).cut (grid1.coords t) ((dat1 (F := Ideal) V c).after 5 t) = _
  rw [after1_5]
  unfold out1_5
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 (n0 := 10000) (n1 := 64) j⟩
  exact point_eq V c t p q

/-! ## The blocks tile the output -/

/-- An index of the output array is in point `t`'s block iff each coordinate is in the block's range on its axis. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v29).slice (win1_5.rect t)).set ↔ _
  rw [View.set_slice_whole, Rect.mem_set_unit]
  exact Iff.rfl

/-- Row `r` of the output lies in the block of point `r / 10000`, and every point writes its block back. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : grid1.N = 10 := N_1
  obtain ⟨t, ht⟩ : ∃ t : Fin cfg1.N, t.val = (i 0).val / 10000 :=
    ⟨⟨(i 0).val / 10000, by show (i 0).val / 10000 < grid1.N; rw [hN]; omega⟩, rfl⟩
  obtain ⟨-, -, e50, e51, -⟩ := idx_facts t
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-! ## The region's output array -/

/-- THE OUTPUT ARRAY after the region's ten write-backs is the specification of the five arrays the region reads, as
    the region finds them. -/
theorem value (c : Dev nD) :
    (Gen.dat1 (F := Ideal) V c).arrAt 5 cfg1.N
      = Spec.normalize true (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5 _ (fun t _ => flushed_eq V c t) cover

end Cert.Hand.RegNorm1

end
-- ==== Proof.StepNorm0.lean ====
/-
  Norm layer 0 (the network's layer 0): the two programs enter it with the same input array, and hold the same four parameter
  stacks (both still hold their arguments as launched, and the launches agree); each side's output is the one function
  `NormMath.layer true 0` of those five arrays, so the outputs agree.
-/
import proofs.«409001_j25520695673361_2_alg».proof.Proof.StepNorm0K
import proofs.«409001_j25520695673361_2_alg».proof.Proof.StepNorm0R
import proofs.«409001_j25520695673361_2_alg».proof.Proof.RegLinear0
import proofs.«409001_j25520695673361_2_alg».proof.Proof.RegNorm1
import proofs.«409001_j25520695673361_2_alg».proof.Proof.KKeep
import proofs.«409001_j25520695673361_2_alg».proof.Proof.Agree

noncomputable section

open Idealize.ShloMosaic Idealize.ShloMosaic.TcCoe Idealize.SL.Sem

namespace Cert.Hand.StepNorm0

open Cert.Hand.NormMath Cert.Hand.Spec

theorem step (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hagree : Cert.Hand.Agree m m')
    (hin : (Cert.KernelIdeal.Gen.W0 m ρ c (Proc.devRef .tc Cert.KernelIdeal.main_arg0) : SN.Idx → EReal)
      = Cert.ReferenceIdeal.Hand.RV1 m' c (Proc.devRef .tc Cert.ReferenceIdeal.main_arg0)) :
    (Cert.KernelIdeal.Gen.W6 m ρ c (Proc.devRef .tc Cert.KernelIdeal.main_v29) : SN.Idx → EReal)
      = Cert.ReferenceIdeal.Hand.RV2 m' c (Proc.devRef .tc Cert.ReferenceIdeal.main_v42) := by
  -- the kernel still holds each parameter stack as launched
  have k3 : Cert.KernelIdeal.Gen.W0 m ρ c (Proc.devRef .tc Cert.KernelIdeal.main_arg3)
      = m ((c : Thread Cert.KernelIdeal.nD Cert.KernelIdeal.τ).loc Cert.KernelIdeal.main_arg3) := rfl
  have k4 : Cert.KernelIdeal.Gen.W0 m ρ c (Proc.devRef .tc Cert.KernelIdeal.main_arg4)
      = m ((c : Thread Cert.KernelIdeal.nD Cert.KernelIdeal.τ).loc Cert.KernelIdeal.main_arg4) := rfl
  have k5 : Cert.KernelIdeal.Gen.W0 m ρ c (Proc.devRef .tc Cert.KernelIdeal.main_arg5)
      = m ((c : Thread Cert.KernelIdeal.nD Cert.KernelIdeal.τ).loc Cert.KernelIdeal.main_arg5) := rfl
  have k6 : Cert.KernelIdeal.Gen.W0 m ρ c (Proc.devRef .tc Cert.KernelIdeal.main_arg6)
      = m ((c : Thread Cert.KernelIdeal.nD Cert.KernelIdeal.τ).loc Cert.KernelIdeal.main_arg6) := rfl
  -- so does the reference, and the launches agree
  have e3 : (Cert.KernelIdeal.Gen.W0 m ρ c (Proc.devRef .tc Cert.KernelIdeal.main_arg3) : S3W.Idx → EReal)
      = Cert.ReferenceIdeal.Hand.RV1 m' c (Proc.devRef .tc Cert.ReferenceIdeal.main_arg3) :=
    k3.trans (((hagree c).2.2.2.1).symm.trans (Cert.ReferenceIdeal.Hand.RV1_arg3 m' c).symm)
  have e4 : (Cert.KernelIdeal.Gen.W0 m ρ c (Proc.devRef .tc Cert.KernelIdeal.main_arg4) : S3V.Idx → EReal)
      = Cert.ReferenceIdeal.Hand.RV1 m' c (Proc.devRef .tc Cert.ReferenceIdeal.main_arg4) :=
    k4.trans (((hagree c).2.2.2.2.1).symm.trans (Cert.ReferenceIdeal.Hand.RV1_arg4 m' c).symm)
  have e5 : (Cert.KernelIdeal.Gen.W0 m ρ c (Proc.devRef .tc Cert.KernelIdeal.main_arg5) : S3V.Idx → EReal)
      = Cert.ReferenceIdeal.Hand.RV1 m' c (Proc.devRef .tc Cert.ReferenceIdeal.main_arg5) :=
    k5.trans (((hagree c).2.2.2.2.2.1).symm.trans (Cert.ReferenceIdeal.Hand.RV1_arg5 m' c).symm)
  have e6 : (Cert.KernelIdeal.Gen.W0 m ρ c (Proc.devRef .tc Cert.KernelIdeal.main_arg6) : S3V.Idx → EReal)
      = Cert.ReferenceIdeal.Hand.RV1 m' c (Proc.devRef .tc Cert.ReferenceIdeal.main_arg6) :=
    k6.trans (((hagree c).2.2.2.2.2.2.1).symm.trans (Cert.ReferenceIdeal.Hand.RV1_arg6 m' c).symm)
  rw [kernel m ρ c (fun V c => Cert.Hand.RegLinear0.value V c) (fun V c => Cert.Hand.RegNorm1.value V c),
    reference m' c, layerV_eq, hin, e3, e4, e5, e6]

end Cert.Hand.StepNorm0

end
-- ==== Proof.StepNorm1K.lean ====
/-
  Norm layer 1 (the network's layer 1) on the kernel's side.  Between the layer's entry and the exit of region 3 the kernel cuts
  the layer's weight matrix and bias out of their stacks, runs the Linear region (region 2) on the layer's input, takes the column
  means and variances of the Linear output on the host as 1×64 rows, cuts out the scale and the shift, and runs the normalisation
  region (region 3).  So the array region 3 leaves is `NormMath.layer true 1` of the layer's input and the four parameter stacks
  as the kernel holds them at the layer's entry.
-/
import proofs.«409001_j25520695673361_2_alg».proof.Proof.Gen.KernelIdeal.Frame
import proofs.«409001_j25520695673361_2_alg».proof.Proof.NormMath
import Idealize.ShloMosaic.Lib.StableHlo.Run

set_option maxRecDepth 16384
set_option maxHeartbeats 1000000

noncomputable section

open Idealize.ShloMosaic Idealize.ShloMosaic.TcCoe Idealize.ShloMosaic.ValueIdx Idealize.SL.Sem Idealize.ShloMosaic.StableHlo

namespace Cert.Hand.StepNorm1

open Cert.KernelIdeal Cert.KernelIdeal.Gen Cert.Hand.NormMath Cert.Hand.Spec

variable (m : (ℓ : Loc nD τ sig) → Buf (Elt Ideal) ℓ) (ρ : Dev nD → PrngReg) (c : Dev nD)

/-! ## What the Linear region finds: the layer's input, and the layer's matrix and bias row cut out on the host -/

theorem lin_x : (W7 m ρ c (Proc.devRef .tc main_v29) : SN.Idx → EReal) = W6 m ρ c (Proc.devRef .tc main_v29) := by
  dsimp only [W7, hostOps2]
  after_results

theorem lin_w : (W7 m ρ c (Proc.devRef .tc main_v31) : SW.Idx → EReal) = wmat 1 sW1 (W6 m ρ c (Proc.devRef .tc main_arg3)) := by
  dsimp only [W7, hostOps2]
  after_results
  rfl

theorem lin_b : (W7 m ρ c (Proc.devRef .tc main_v34) : SR.Idx → EReal) = row (vec 1 sV1 (W6 m ρ c (Proc.devRef .tc main_arg4))) := by
  dsimp only [W7, hostOps2]
  after_results
  rfl

/-! ## What the normalisation region finds -/

/-- The Linear output is not touched between the two regions. -/
theorem norm_y : (W11 m ρ c (Proc.devRef .tc main_v35) : SN.Idx → EReal) = W8 m ρ c (Proc.devRef .tc main_v35) := by
  dsimp only [W11, W10, W9, hostOps3_2, hostOps3_1, hostOps3]
  after_results

/-- The mean row is computed from the Linear output by the first host stretch after the Linear region. -/
theorem norm_mean : (W11 m ρ c (Proc.devRef .tc main_v39) : SR.Idx → EReal) = meanRow (W8 m ρ c (Proc.devRef .tc main_v35)) := by
  dsimp only [W11, W10, W9, hostOps3_2, hostOps3_1, hostOps3]
  after_results
  rfl

/-- The variance row by the second. -/
theorem norm_var : (W11 m ρ c (Proc.devRef .tc main_v40) : SR.Idx → EReal) = varRow (W8 m ρ c (Proc.devRef .tc main_v35)) := by
  dsimp only [W11, W10, W9, hostOps3_2, hostOps3_1, hostOps3]
  after_results_simp
  rfl

/-- The two remaining parameter stacks are as at the layer's entry when the third stretch cuts the scale and the shift out of them. -/
theorem keep_g : W10 m ρ c (Proc.devRef .tc main_arg5) = W6 m ρ c (Proc.devRef .tc main_arg5) := by
  have h1 : W10 m ρ c (Proc.devRef .tc main_arg5) = W8 m ρ c (Proc.devRef .tc main_arg5) := by
    dsimp only [W10, W9, hostOps3_1, hostOps3]
    after_results
  have h2 : W7 m ρ c (Proc.devRef .tc main_arg5) = W6 m ρ c (Proc.devRef .tc main_arg5) := by
    dsimp only [W7, hostOps2]
    after_results
  exact h1.trans ((W8_of_ne m ρ c main_arg5 (by decide)).trans h2)

theorem keep_z : W10 m ρ c (Proc.devRef .tc main_arg6) = W6 m ρ c (Proc.devRef .tc main_arg6) := by
  have h1 : W10 m ρ c (Proc.devRef .tc main_arg6) = W8 m ρ c (Proc.devRef .tc main_arg6) := by
    dsimp only [W10, W9, hostOps3_1, hostOps3]
    after_results
  have h2 : W7 m ρ c (Proc.devRef .tc main_arg6) = W6 m ρ c (Proc.devRef .tc main_arg6) := by
    dsimp only [W7, hostOps2]
    after_results
  exact h1.trans ((W8_of_ne m ρ c main_arg6 (by decide)).trans h2)

theorem norm_g : (W11 m ρ c (Proc.devRef .tc main_v45) : SR.Idx → EReal) = row (vec 1 sV1 (W6 m ρ c (Proc.devRef .tc main_arg5))) := by
  rw [← keep_g m ρ c]
  dsimp only [W11]
  generalize W10 m ρ c = U
  dsimp only [hostOps3_2]
  after_results
  rfl

theorem norm_z : (W11 m ρ c (Proc.devRef .tc main_v46) : SR.Idx → EReal) = row (vec 1 sV1 (W6 m ρ c (Proc.devRef .tc main_arg6))) := by
  rw [← keep_z m ρ c]
  dsimp only [W11]
  generalize W10 m ρ c = U
  dsimp only [hostOps3_2]
  after_results
  rfl

/-! ## The two regions, and the layer

`hlin`, `hnorm`: each region leaves in its output array the stage's function of the arrays it finds in its input windows. -/

variable (hlin : ∀ (V : (c : Dev nD) → (b : Ref sig .tc) → Buf (Elt Ideal) ((c : Thread nD τ).loc b)) (c : Dev nD),
    (dat2 (F := Ideal) V c).arrAt 3 cfg2.N
      = Spec.linear (V c (Pipeline.arrRef spec2 0)) (V c (Pipeline.arrRef spec2 1)) (V c (Pipeline.arrRef spec2 2)))
variable (hnorm : ∀ (V : (c : Dev nD) → (b : Ref sig .tc) → Buf (Elt Ideal) ((c : Thread nD τ).loc b)) (c : Dev nD),
    (dat3 (F := Ideal) V c).arrAt 5 cfg3.N
      = Spec.normalize true (V c (Pipeline.arrRef spec3 0)) (V c (Pipeline.arrRef spec3 1)) (V c (Pipeline.arrRef spec3 2))
          (V c (Pipeline.arrRef spec3 3)) (V c (Pipeline.arrRef spec3 4)))

include hlin in
/-- The Linear region's output. -/
theorem linear_out : (W8 m ρ c (Proc.devRef .tc main_v35) : SN.Idx → EReal)
    = Spec.linear (W6 m ρ c (Proc.devRef .tc main_v29)) (wmat 1 sW1 (W6 m ρ c (Proc.devRef .tc main_arg3)))
        (row (vec 1 sV1 (W6 m ρ c (Proc.devRef .tc main_arg4)))) := by
  rw [← lin_x m ρ c, ← lin_w m ρ c, ← lin_b m ρ c]
  exact (W8_arr m ρ c 3).trans (hlin (V7 m ρ) c)

include hlin hnorm in
/-- The layer's output on the kernel's side. -/
theorem kernel : (W12 m ρ c (Proc.devRef .tc main_v47) : SN.Idx → EReal)
    = layer true 1 sW1 sV1 (W6 m ρ c (Proc.devRef .tc main_v29)) (W6 m ρ c (Proc.devRef .tc main_arg3))
        (W6 m ρ c (Proc.devRef .tc main_arg4)) (W6 m ρ c (Proc.devRef .tc main_arg5)) (W6 m ρ c (Proc.devRef .tc main_arg6)) := by
  unfold layer
  rw [← linear_out m ρ c hlin, ← norm_mean m ρ c, ← norm_var m ρ c, ← norm_g m ρ c, ← norm_z m ρ c, ← norm_y m ρ c]
  exact (W12_arr m ρ c 5).trans (hnorm (V11 m ρ) c)

end Cert.Hand.StepNorm1

end
-- ==== Proof.StepNorm1R.lean ====
/-
  Norm layer 1 (the network's layer 1) on the reference's side.  From the layer's input and the four parameter stacks as the
  reference holds them when the layer starts, its operations cut the layer's parameters out, form x · w + b with the bias laid
  along the rows, take the column means and variances of that array as vectors of 64 entries, and normalise with every per-column
  vector laid along the rows (then `max(·,0)` where the layer has it): the array `NormMath.layerV true 1` of those five arrays.
-/
import proofs.«409001_j25520695673361_2_alg».proof.Proof.RefVal
import proofs.«409001_j25520695673361_2_alg».proof.Proof.NormMath

set_option maxRecDepth 4096

noncomputable section

open Idealize.ShloMosaic Idealize.ShloMosaic.TcCoe Idealize.ShloMosaic.ValueIdx Idealize.SL.Sem Idealize.ShloMosaic.StableHlo

namespace Cert.Hand.StepNorm1

open Cert.ReferenceIdeal Cert.ReferenceIdeal.Gen Cert.ReferenceIdeal.Hand Cert.Hand.NormMath Cert.Hand.Spec

/-- Contents moved to a typed reference's buffer type and back are the contents: both moves are along the same equation of types. -/
private theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

set_option maxHeartbeats 4000000 in
/-- What the layer's operations leave in its result, from ANY contents `V` at the layer's start: each operation's result is its
    function of its operands' contents, and a buffer none of them writes is as the layer found it. -/
theorem reference_of (V : Valuation τ sig (Elt Ideal)) :
    (StableHlo.after (rops2 (F := Ideal)) V (Proc.devRef .tc main_v74) : SN.Idx → EReal)
      = layerV true 1 sW1 sV1 (V (Proc.devRef .tc main_v42)) (V (Proc.devRef .tc main_arg3))
          (V (Proc.devRef .tc main_arg4)) (V (Proc.devRef .tc main_arg5)) (V (Proc.devRef .tc main_arg6)) := by
  after_results_simp
  try simp only [ofBuf_toBuf]
  rfl

/-- The layer's output on the reference's side. -/
theorem reference (m' : (ℓ : Loc nD τ sig) → Buf (Elt Ideal) ℓ) (c : Dev nD) :
    (RV3 m' c (Proc.devRef .tc main_v74) : SN.Idx → EReal)
      = layerV true 1 sW1 sV1 (RV2 m' c (Proc.devRef .tc main_v42)) (RV2 m' c (Proc.devRef .tc main_arg3))
          (RV2 m' c (Proc.devRef .tc main_arg4)) (RV2 m' c (Proc.devRef .tc main_arg5)) (RV2 m' c (Proc.devRef .tc main_arg6)) :=
  reference_of (RV2 m' c)

end Cert.Hand.StepNorm1

end
-- ==== Proof.RegLinear2.lean ====
/-
  Region 2 of the network: a Linear layer on all 100000 nodes, run as ten row blocks of 10000 × 64.
  Each grid point reads its row block of x, the whole 64 × 64 weight matrix and the whole 1 × 64 bias row, and leaves
  (x_block · w) + b in its row block of the result.  Read on the extended reals, where the narrowing of both
  factors to bf16 is the identity, the ten blocks together are `Spec.linear x w b`:
    row i, column j  ↦  (Σ_k x[i,k] · w[k,j]) + b[0,j].
  The steps: the block product at an index as a sum over the contraction coordinate (`pay_apply`); each window's
  block as rows of its array (`xblk_apply`, `wblk_eq`, `bblk_eq`); what point t writes back is block t of
  `Spec.linear x w b` (`flushed_eq`); the ten blocks cover the result, row r lying in block r / 10000 (`cover`);
  so the result array is `Spec.linear x w b` (`value`).
-/
import proofs.«409001_j25520695673361_2_alg».proof.Proof.Gen.KernelIdeal.Frame
import proofs.«409001_j25520695673361_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.Hand.RegLinear2

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

/-- Axis 0 of the left factor's index is the output's row. -/
theorem lhs_0 (j : S10000x64.Idx) (k : dot_S10000x64_S64x64_S10000x64_1_0_0_1_n_n.contr.Idx) :
    (dot_S10000x64_S64x64_S10000x64_1_0_0_1_n_n.lhsIdx j k 0).val = (j 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- Axis 1 of the left factor's index is the contraction coordinate. -/
theorem lhs_1 (j : S10000x64.Idx) (k : dot_S10000x64_S64x64_S10000x64_1_0_0_1_n_n.contr.Idx) :
    (dot_S10000x64_S64x64_S10000x64_1_0_0_1_n_n.lhsIdx j k 1).val = (k ⟨0, by decide⟩).val :=
  dot_S10000x64_S64x64_S10000x64_1_0_0_1_n_n.lhsIdx_val_of_single rfl j k

/-- Axis 0 of the right factor's index is the contraction coordinate. -/
theorem rhs_0 (j : S10000x64.Idx) (k : dot_S10000x64_S64x64_S10000x64_1_0_0_1_n_n.contr.Idx) :
    (dot_S10000x64_S64x64_S10000x64_1_0_0_1_n_n.rhsIdx j k 0).val = (k ⟨0, by decide⟩).val :=
  dot_S10000x64_S64x64_S10000x64_1_0_0_1_n_n.rhsIdx_val_of_single rfl j k

/-- Axis 1 of the right factor's index is the output's column. -/
theorem rhs_1 (j : S10000x64.Idx) (k : dot_S10000x64_S64x64_S10000x64_1_0_0_1_n_n.contr.Idx) :
    (dot_S10000x64_S64x64_S10000x64_1_0_0_1_n_n.rhsIdx j k 1).val = (j 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- What the body stores, at row p and column q of the block: the row of the first block times the column of the
    second, summed over the 64 contraction coordinates, plus the bias row's entry in that column. On the extended reals
    the two narrowings to bf16 change nothing and the accumulator's zero splat adds nothing. -/
theorem pay_apply (x0 : Vec Ideal S10000x64 .f32) (x1 : Vec Ideal S64x64 .f32) (x2 : Vec Ideal S1x64 .f32)
    (p : Fin 10000) (q : Fin 64) :
    k2_pay1 (F := Ideal) x0 x1 x2 (ix2 p q) = (∑ k : Fin 64, x0 (ix2 p k) * x1 (ix2 k q)) + x2 (ix2 (0 : Fin 1) q) := by
  unfold k2_pay1
  simp only [shapeCast_self]
  refine congrArg₂ (· + ·) ?_ (broadcastTo_1b_ab_apply x2 broadcasts_S1x64_S10000x64 p q)
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hl : dot_S10000x64_S64x64_S10000x64_1_0_0_1_n_n.lhsIdx (ix2 p q)
      ((contrEquiv1 dot_S10000x64_S64x64_S10000x64_1_0_0_1_n_n 64 rfl rfl).symm k) = ix2 p k := by
    funext a; apply Fin.ext
    match a with
    | ⟨0, _⟩ => exact lhs_0 _ _
    | ⟨1, _⟩ => exact (lhs_1 _ _).trans (contrEquiv1_symm_val dot_S10000x64_S64x64_S10000x64_1_0_0_1_n_n 64 rfl rfl k)
  have hr : dot_S10000x64_S64x64_S10000x64_1_0_0_1_n_n.rhsIdx (ix2 p q)
      ((contrEquiv1 dot_S10000x64_S64x64_S10000x64_1_0_0_1_n_n 64 rfl rfl).symm k) = ix2 k q := by
    funext a; apply Fin.ext
    match a with
    | ⟨0, _⟩ => exact (rhs_0 _ _).trans (contrEquiv1_symm_val dot_S10000x64_S64x64_S10000x64_1_0_0_1_n_n 64 rfl rfl k)
    | ⟨1, _⟩ => exact rhs_1 _ _
  show x0 _ * x1 _ = _
  rw [hl, hr]

/-- One row block of the layer. If the first block is rows `10000 r …` of an array X, the second is W and the third is B,
    then at local index y, which is index i of the whole array, the body's value is `Spec.linear X W B` at i. -/
theorem pay_linear (x0 : Vec Ideal S10000x64 .f32) (x1 : Vec Ideal S64x64 .f32) (x2 : Vec Ideal S1x64 .f32)
    (X : Spec.SN.Idx → EReal) (W : Spec.SW.Idx → EReal) (B : Spec.SR.Idx → EReal) (r : ℕ)
    (hX : ∀ (y : S10000x64.Idx) (i : Spec.SN.Idx), (i 0).val = r * 10000 + (y 0).val → (i 1).val = (y 1).val → x0 y = X i)
    (hW : x1 = W) (hB : x2 = B)
    (y : S10000x64.Idx) (i : Spec.SN.Idx) (h0 : (i 0).val = r * 10000 + (y 0).val) (h1 : (i 1).val = (y 1).val) :
    k2_pay1 (F := Ideal) x0 x1 x2 y = Spec.linear X W B i := by
  obtain ⟨p, q, rfl⟩ : ∃ (p : Fin 10000) (q : Fin 64), y = ix2 p q := ⟨y 0, y 1, eq_ix2 y⟩
  have hq : (i 1 : Fin 64) = q := Fin.ext h1
  subst hW hB
  refine (pay_apply x0 x1 x2 p q).trans ?_
  show _ = (∑ k : Fin 64, X (ix2 (i 0) k) * x1 (ix2 k (i 1))) + x2 (ix2 0 (i 1))
  refine congrArg₂ (· + ·) (Finset.sum_congr rfl fun k _ => congrArg₂ (· * ·) ?_ ?_) ?_
  · exact hX (ix2 p k) (ix2 (i 0) k) h0 rfl
  · exact (congrArg (fun z : Fin 64 => x1 (ix2 k z)) hq).symm
  · exact (congrArg (fun z : Fin 64 => x2 (ix2 (0 : Fin 1) z)) hq).symm

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the ten row blocks: x and the result move down with the point, w and b stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row block t of x: rows `10000 t … 10000 t + 9999` of the array. -/
theorem xblk_apply (c : Dev nD) (t : Fin cfg2.N) (y : S10000x64.Idx) (i : Spec.SN.Idx)
    (h0 : (i 0).val = t.val * 10000 + (y 0).val) (h1 : (i 1).val = (y 1).val) :
    (iblk2 V c 0 t : Vec Ideal S10000x64 .f32) y = (V c (Pipeline.arrRef spec2 0) : Spec.SN.Idx → EReal) i := by
  obtain ⟨e0, e1, -⟩ := idx_facts t
  unfold iblk2
  rw [View.read_apply]
  show V c (Pipeline.arrRef spec2 0) _ = V c (Pipeline.arrRef spec2 0) _
  refine congrArg _ (funext fun a => Fin.ext ?_)
  match a with
  | ⟨0, _⟩ => show win2_0.index t (0 : Fin 2) * 10000 + 1 * (y 0).val = (i 0).val; omega
  | ⟨1, _⟩ => show win2_0.index t (1 : Fin 2) * 64 + 1 * (y 1).val = (i 1).val; omega

/-- The weights' one block is the whole matrix. -/
theorem wblk_eq (c : Dev nD) (t : Fin cfg2.N) :
    (iblk2 V c 1 t : Vec Ideal S64x64 .f32) = (V c (Pipeline.arrRef spec2 1) : Spec.SW.Idx → EReal) := by
  obtain ⟨-, -, e0, e1, -⟩ := idx_facts t
  funext y
  unfold iblk2
  rw [View.read_apply]
  show V c (Pipeline.arrRef spec2 1) _ = V c (Pipeline.arrRef spec2 1) _
  refine congrArg _ (funext fun a => Fin.ext ?_)
  match a with
  | ⟨0, _⟩ => show win2_1.index t (0 : Fin 2) * 64 + 1 * (y 0).val = (y 0).val; omega
  | ⟨1, _⟩ => show win2_1.index t (1 : Fin 2) * 64 + 1 * (y 1).val = (y 1).val; omega

/-- The bias row's one block is the whole row. -/
theorem bblk_eq (c : Dev nD) (t : Fin cfg2.N) :
    (iblk2 V c 2 t : Vec Ideal S1x64 .f32) = (V c (Pipeline.arrRef spec2 2) : Spec.SR.Idx → EReal) := by
  obtain ⟨-, -, -, -, e0, e1, -⟩ := idx_facts t
  funext y
  unfold iblk2
  rw [View.read_apply]
  show V c (Pipeline.arrRef spec2 2) _ = V c (Pipeline.arrRef spec2 2) _
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- What the result array ends holding: the Linear layer of the three arrays as the region finds them. -/
abbrev G (c : Dev nD) : Spec.SN.Idx → EReal :=
  Spec.linear (V c (Pipeline.arrRef spec2 0)) (V c (Pipeline.arrRef spec2 1)) (V c (Pipeline.arrRef spec2 2))

/-- What point t writes back is block t of `G`. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S10000x64) hz, View.ld_unit_zero (S := S64x64) hz, View.ld_unit_zero (S := S1x64) hz]
  obtain ⟨-, -, -, -, -, -, e0, e1⟩ := idx_facts t
  funext y
  rw [View.read_apply]
  show k2_pay1 (F := Ideal) (iblk2 V c 0 t) (iblk2 V c 1 t) (iblk2 V c 2 t) ((cfg2.win 3).xinj (grid2.coords t) y)
    = G V c (((cfg2.win 3).blk t).view.emb y)
  exact pay_linear (iblk2 V c 0 t) (iblk2 V c 1 t) (iblk2 V c 2 t)
    (V c (Pipeline.arrRef spec2 0)) (V c (Pipeline.arrRef spec2 1)) (V c (Pipeline.arrRef spec2 2)) t.val
    (xblk_apply V c t) (wblk_eq V c t) (bblk_eq V c t)
    ((cfg2.win 3).xinj (grid2.coords t) y) (((cfg2.win 3).blk t).view.emb y)
    (by show win2_3.index t (0 : Fin 2) * 10000 + 1 * (y 0).val = t.val * 10000 + (y 0).val; omega)
    (by show win2_3.index t (1 : Fin 2) * 64 + 1 * (y 1).val = (y 1).val; omega)

/-- An index of the result is in point t's block iff each coordinate is in the block's range on its axis. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v35).slice (win2_3.rect t)).set ↔ _
  rw [View.set_slice_whole, Rect.mem_set_unit]
  exact Iff.rfl

/-- The ten row blocks cover the result: row r is in block r / 10000. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : grid2.N = 10 := N_2
  let t : Fin cfg2.N := ⟨(i 0).val / 10000, by show _ < grid2.N; omega⟩
  obtain ⟨-, -, -, -, -, -, e0, e1⟩ := idx_facts t
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000
              have : t.val = (i 0).val / 10000 := rfl
              omega
  | ⟨1, _⟩ => show win2_3.index t (1 : Fin 2) * 64 ≤ (i 1).val ∧ (i 1).val < win2_3.index t (1 : Fin 2) * 64 + 64; omega

/-- The region's result: after its ten write-backs the output array is the Linear layer of the three input arrays as
    the region finds them. -/
theorem value (c : Dev nD) :
    (dat2 (F := Ideal) V c).arrAt 3 cfg2.N
      = Spec.linear (V c (Pipeline.arrRef spec2 0)) (V c (Pipeline.arrRef spec2 1)) (V c (Pipeline.arrRef spec2 2)) :=
  (dat2 V c).arrAt_eq_of_cover 3 (G V c) (fun t _ => flushed_eq V c t) cover

end Cert.Hand.RegLinear2

end
-- ==== Proof.RegNorm3.lean ====
/-
  Region 3: batch normalisation followed by max(·, 0), read as ONE function of the five arrays it reads.

  The region walks the 100000 × 64 array x in ten blocks of 10000 rows; the column mean μ, the column variance v, the
  scale g and the shift β are 1 × 64 rows read whole at every block.  At row p, column q of block t the body stores
  max((((x − μ_q) · rsqrt(v_q + ε)) · g_q) + β_q, 0), with x taken at row 10000·t + p, column q, of the array: the rows
  are broadcast down the block, every operation is elementwise, and ε is the splat of the f32 word 0x3727C5AC.  Block t is
  written back to rows 10000·t … 10000·t + 9999 of the output, so the ten blocks tile the output (row r lies in block
  r / 10000) and the output ends as `Spec.normalize true x μ v g β`.
-/
import proofs.«409001_j25520695673361_2_alg».proof.Proof.Gen.KernelIdeal.Frame
import proofs.«409001_j25520695673361_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Hand.RegNorm3

open Idealize.ShloMosaic Idealize.ShloMosaic.TcCoe Idealize.ShloMosaic.ValueIdx Idealize.SL.Sem
open Idealize.ShloMosaic.Pipeline (Dat)
open Cert.KernelIdeal Cert.KernelIdeal.Gen
open Cert.Hand

variable (V : (c : Dev nD) → (b : Ref sig .tc) → Buf (Elt Ideal) ((c : Thread nD τ).loc b))

/-- The zero offsets of a whole-buffer access, as a constant function. -/
theorem hz : (![0, 0] : Fin 2 → Nat) = fun _ => 0 := funext fun a => by fin_cases a <;> rfl

/-! ## The specification read at an index whose column is known -/

/-- `Spec.normalize` at an index of column `q`: only column `q` of the four rows enters. -/
theorem normalize_apply (r : Bool) (x : Spec.SN.Idx → EReal) (μ v g β : Spec.SR.Idx → EReal) (i : Spec.SN.Idx) (q : Fin 64)
    (hq : i 1 = q) :
    Spec.normalize r x μ v g β i
      = Spec.act r ((((x i - μ (ix2 0 q)) * Ideal.rsqrt (v (ix2 0 q) + Spec.eps)) * g (ix2 0 q)) + β (ix2 0 q)) := by
  subst hq; rfl

/-- The normalised value depends on its five entries only. -/
theorem act_congr (r : Bool) {a a' b b' s s' d d' e e' : EReal} (ha : a = a') (hb : b = b') (hs : s = s') (hd : d = d')
    (he : e = e') :
    Spec.act r ((((a - b) * Ideal.rsqrt (s + Spec.eps)) * d) + e)
      = Spec.act r ((((a' - b') * Ideal.rsqrt (s' + Spec.eps)) * d') + e') := by
  subst ha hb hs hd he; rfl

/-! ## The body's stored value at row `p`, column `q` of a block -/

/-- The stored block at `(p, q)`, from the loaded blocks (`v5` the block of x, `v7` the means, `v0` the variances,
    `v13` the scales, `v17` the shifts): every operation is elementwise, and a broadcast row is read at its column. -/
theorem pay_apply (v0 : Vec Ideal S1x64 .f32) (v5 : Vec Ideal S10000x64 .f32) (v7 v13 v17 : Vec Ideal S1x64 .f32)
    (p : Fin 10000) (q : Fin 64) :
    k3_pay1 (F := Ideal) v0 v5 v7 v13 v17 (ix2 p q)
      = Spec.act true ((((v5 (ix2 p q) - v7 (ix2 0 q)) * Ideal.rsqrt (v0 (ix2 0 q) + Spec.eps)) * v13 (ix2 0 q)) + v17 (ix2 0 q)) := by
  unfold k3_pay1 Spec.act Spec.eps
  rw [if_pos rfl]
  simp only [shapeCast_self]
  rw [maximumf_apply, addf_apply, mulf_apply, mulf_apply, subf_apply]
  rw [broadcastTo_1b_ab_apply, broadcastTo_1b_ab_apply, broadcastTo_1b_ab_apply, broadcastTo_1b_ab_apply]
  show max (_ * Ideal.rsqrt (v0 (ix2 0 q) + Ideal.ofBits .f32 0x3727C5AC#32) * _ + _) (Ideal.ofBits .f32 0x00000000#32) = _
  rw [Ideal.ofBits_zero_f32]

/-! ## Where each block sits in its array -/

/-- The block indices at grid point `t`: x's block moves with the output's, which is block `(t, 0)`; the four rows
    stay at block `(0, 0)`. -/
theorem idx_facts : ∀ t : Fin cfg3.N,
      win3_0.index t (0 : Fin 2) = win3_5.index t (0 : Fin 2) ∧ win3_0.index t (1 : Fin 2) = win3_5.index t (1 : Fin 2)
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Entry `(p, q)` of x's block at `t` and entry `(p, q)` of the output's block at `t` have the same array index. -/
theorem emb_x (t : Fin cfg3.N) (p : Fin 10000) (q : Fin 64) :
    ((cfg3.win 0).blk t).view.emb (ix2 p q) = ((cfg3.win 5).blk t).view.emb (ix2 p q) := by
  obtain ⟨a0, a1, -⟩ := idx_facts t
  funext a; apply Fin.ext
  match a with
  | ⟨0, _⟩ => show win3_0.index t (0 : Fin 2) * 10000 + 1 * p.val = win3_5.index t (0 : Fin 2) * 10000 + 1 * p.val; omega
  | ⟨1, _⟩ => show win3_0.index t (1 : Fin 2) * 64 + 1 * q.val = win3_5.index t (1 : Fin 2) * 64 + 1 * q.val; omega

/-- An entry of the output's block keeps its column in the array. -/
theorem emb_out_col (t : Fin cfg3.N) (p : Fin 10000) (q : Fin 64) :
    (((cfg3.win 5).blk t).view.emb (ix2 p q) : Spec.SN.Idx) 1 = q := by
  obtain ⟨-, -, -, e51, -⟩ := idx_facts t
  apply Fin.ext
  show win3_5.index t (1 : Fin 2) * 64 + 1 * q.val = q.val
  omega

/-- The block of the means is the whole row: entry `(0, q)` is the array's. -/
theorem emb_row1 (t : Fin cfg3.N) (q : Fin 64) :
    ((cfg3.win 1).blk t).view.emb (ix2 (0 : Fin 1) q) = (ix2 (0 : Fin 1) q : S1x64.Idx) := by
  obtain ⟨-, -, -, -, r0, r1, -⟩ := idx_facts t
  funext a; apply Fin.ext
  match a with
  | ⟨0, _⟩ => show win3_1.index t (0 : Fin 2) * 1 + 1 * 0 = 0; omega
  | ⟨1, _⟩ => show win3_1.index t (1 : Fin 2) * 64 + 1 * q.val = q.val; omega

/-- The block of the variances is the whole row. -/
theorem emb_row2 (t : Fin cfg3.N) (q : Fin 64) :
    ((cfg3.win 2).blk t).view.emb (ix2 (0 : Fin 1) q) = (ix2 (0 : Fin 1) q : S1x64.Idx) := by
  obtain ⟨-, -, -, -, -, -, r0, r1, -⟩ := idx_facts t
  funext a; apply Fin.ext
  match a with
  | ⟨0, _⟩ => show win3_2.index t (0 : Fin 2) * 1 + 1 * 0 = 0; omega
  | ⟨1, _⟩ => show win3_2.index t (1 : Fin 2) * 64 + 1 * q.val = q.val; omega

/-- The block of the scales is the whole row. -/
theorem emb_row3 (t : Fin cfg3.N) (q : Fin 64) :
    ((cfg3.win 3).blk t).view.emb (ix2 (0 : Fin 1) q) = (ix2 (0 : Fin 1) q : S1x64.Idx) := by
  obtain ⟨-, -, -, -, -, -, -, -, r0, r1, -⟩ := idx_facts t
  funext a; apply Fin.ext
  match a with
  | ⟨0, _⟩ => show win3_3.index t (0 : Fin 2) * 1 + 1 * 0 = 0; omega
  | ⟨1, _⟩ => show win3_3.index t (1 : Fin 2) * 64 + 1 * q.val = q.val; omega

/-- The block of the shifts is the whole row. -/
theorem emb_row4 (t : Fin cfg3.N) (q : Fin 64) :
    ((cfg3.win 4).blk t).view.emb (ix2 (0 : Fin 1) q) = (ix2 (0 : Fin 1) q : S1x64.Idx) := by
  obtain ⟨-, -, -, -, -, -, -, -, -, -, r0, r1⟩ := idx_facts t
  funext a; apply Fin.ext
  match a with
  | ⟨0, _⟩ => show win3_4.index t (0 : Fin 2) * 1 + 1 * 0 = 0; omega
  | ⟨1, _⟩ => show win3_4.index t (1 : Fin 2) * 64 + 1 * q.val = q.val; omega

/-! ## What a grid point stores, against the specification -/

/-- Entry `(p, q)` of what the body stores at point `t` is the specification at the array index of that entry. -/
theorem point_eq (c : Dev nD) (t : Fin cfg3.N) (p : Fin 10000) (q : Fin 64) :
    k3_pay1 (F := Ideal) (iblk3 V c 2 t) (iblk3 V c 0 t) (iblk3 V c 1 t) (iblk3 V c 3 t) (iblk3 V c 4 t) (ix2 p q)
      = Spec.normalize true (V c (Pipeline.arrRef spec3 0)) (V c (Pipeline.arrRef spec3 1)) (V c (Pipeline.arrRef spec3 2))
          (V c (Pipeline.arrRef spec3 3)) (V c (Pipeline.arrRef spec3 4)) (((cfg3.win 5).blk t).view.emb (ix2 p q)) := by
  refine (pay_apply (iblk3 V c 2 t) (iblk3 V c 0 t) (iblk3 V c 1 t) (iblk3 V c 3 t) (iblk3 V c 4 t) p q).trans ?_
  refine Eq.trans ?_ (normalize_apply true (V c (Pipeline.arrRef spec3 0)) (V c (Pipeline.arrRef spec3 1))
    (V c (Pipeline.arrRef spec3 2)) (V c (Pipeline.arrRef spec3 3)) (V c (Pipeline.arrRef spec3 4))
    (((cfg3.win 5).blk t).view.emb (ix2 p q)) q (emb_out_col t p q)).symm
  have hx : iblk3 V c 0 t (ix2 p q) = V c (Pipeline.arrRef spec3 0) (((cfg3.win 5).blk t).view.emb (ix2 p q)) := by
    show V c (Pipeline.arrRef spec3 0) (((cfg3.win 0).blk t).view.emb (ix2 p q)) = _
    rw [emb_x t p q]
  have h1 : iblk3 V c 1 t (ix2 0 q) = V c (Pipeline.arrRef spec3 1) (ix2 0 q) := by
    show V c (Pipeline.arrRef spec3 1) (((cfg3.win 1).blk t).view.emb (ix2 (0 : Fin 1) q)) = _
    rw [emb_row1 t q]
  have h2 : iblk3 V c 2 t (ix2 0 q) = V c (Pipeline.arrRef spec3 2) (ix2 0 q) := by
    show V c (Pipeline.arrRef spec3 2) (((cfg3.win 2).blk t).view.emb (ix2 (0 : Fin 1) q)) = _
    rw [emb_row2 t q]
  have h3 : iblk3 V c 3 t (ix2 0 q) = V c (Pipeline.arrRef spec3 3) (ix2 0 q) := by
    show V c (Pipeline.arrRef spec3 3) (((cfg3.win 3).blk t).view.emb (ix2 (0 : Fin 1) q)) = _
    rw [emb_row3 t q]
  have h4 : iblk3 V c 4 t (ix2 0 q) = V c (Pipeline.arrRef spec3 4) (ix2 0 q) := by
    show V c (Pipeline.arrRef spec3 4) (((cfg3.win 4).blk t).view.emb (ix2 (0 : Fin 1) q)) = _
    rw [emb_row4 t q]
  exact act_congr true hx h1 h2 h3 h4

/-- WHAT POINT `t` WRITES BACK is block `t` of the specification of the arrays as the region finds them. -/
theorem flushed_eq (c : Dev nD) (t : Fin cfg3.N) :
    (dat3 (F := Ideal) V c).flushed 5 t
      = ((cfg3.win 5).blk t).view.read (Elt Ideal)
          (Spec.normalize true (V c (Pipeline.arrRef spec3 0)) (V c (Pipeline.arrRef spec3 1)) (V c (Pipeline.arrRef spec3 2))
            (V c (Pipeline.arrRef spec3 3)) (V c (Pipeline.arrRef spec3 4))) := by
  show (cfg3.win 5).cut (grid3.coords t) ((dat3 (F := Ideal) V c).after 5 t) = _
  rw [after3_5]
  unfold out3_5
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 (n0 := 10000) (n1 := 64) j⟩
  exact point_eq V c t p q

/-! ## The blocks tile the output -/

/-- An index of the output array is in point `t`'s block iff each coordinate is in the block's range on its axis. -/
theorem mem_blk (t : Fin cfg3.N) (i : S100000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v47).slice (win3_5.rect t)).set ↔ _
  rw [View.set_slice_whole, Rect.mem_set_unit]
  exact Iff.rfl

/-- Row `r` of the output lies in the block of point `r / 10000`, and every point writes its block back. -/
theorem cover (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  have hN : grid3.N = 10 := N_3
  obtain ⟨t, ht⟩ : ∃ t : Fin cfg3.N, t.val = (i 0).val / 10000 :=
    ⟨⟨(i 0).val / 10000, by show (i 0).val / 10000 < grid3.N; rw [hN]; omega⟩, rfl⟩
  obtain ⟨-, -, e50, e51, -⟩ := idx_facts t
  refine ⟨t, flush3_5 t, ?_⟩
  rw [mem_blk]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 64 ≤ (i 1).val ∧ (i 1).val < win3_5.index t (1 : Fin 2) * 64 + 64; omega

/-! ## The region's output array -/

/-- THE OUTPUT ARRAY after the region's ten write-backs is the specification of the five arrays the region reads, as
    the region finds them. -/
theorem value (c : Dev nD) :
    (Gen.dat3 (F := Ideal) V c).arrAt 5 cfg3.N
      = Spec.normalize true (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5 _ (fun t _ => flushed_eq V c t) cover

end Cert.Hand.RegNorm3

end
-- ==== Proof.StepNorm1.lean ====
/-
  Norm layer 1 (the network's layer 1): the two programs enter it with the same input array, and hold the same four parameter
  stacks (both still hold their arguments as launched, and the launches agree); each side's output is the one function
  `NormMath.layer true 1` of those five arrays, so the outputs agree.
-/
import proofs.«409001_j25520695673361_2_alg».proof.Proof.StepNorm1K
import proofs.«409001_j25520695673361_2_alg».proof.Proof.StepNorm1R
import proofs.«409001_j25520695673361_2_alg».proof.Proof.RegLinear2
import proofs.«409001_j25520695673361_2_alg».proof.Proof.RegNorm3
import proofs.«409001_j25520695673361_2_alg».proof.Proof.KKeep
import proofs.«409001_j25520695673361_2_alg».proof.Proof.Agree

noncomputable section

open Idealize.ShloMosaic Idealize.ShloMosaic.TcCoe Idealize.SL.Sem

namespace Cert.Hand.StepNorm1

open Cert.Hand.NormMath Cert.Hand.Spec

theorem step (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hagree : Cert.Hand.Agree m m')
    (hin : (Cert.KernelIdeal.Gen.W6 m ρ c (Proc.devRef .tc Cert.KernelIdeal.main_v29) : SN.Idx → EReal)
      = Cert.ReferenceIdeal.Hand.RV2 m' c (Proc.devRef .tc Cert.ReferenceIdeal.main_v42)) :
    (Cert.KernelIdeal.Gen.W12 m ρ c (Proc.devRef .tc Cert.KernelIdeal.main_v47) : SN.Idx → EReal)
      = Cert.ReferenceIdeal.Hand.RV3 m' c (Proc.devRef .tc Cert.ReferenceIdeal.main_v74) := by
  -- the kernel still holds each parameter stack as launched
  have k3 : Cert.KernelIdeal.Gen.W6 m ρ c (Proc.devRef .tc Cert.KernelIdeal.main_arg3)
      = m ((c : Thread Cert.KernelIdeal.nD Cert.KernelIdeal.τ).loc Cert.KernelIdeal.main_arg3) := Cert.KernelIdeal.Hand.W6_arg3 m ρ c
  have k4 : Cert.KernelIdeal.Gen.W6 m ρ c (Proc.devRef .tc Cert.KernelIdeal.main_arg4)
      = m ((c : Thread Cert.KernelIdeal.nD Cert.KernelIdeal.τ).loc Cert.KernelIdeal.main_arg4) := Cert.KernelIdeal.Hand.W6_arg4 m ρ c
  have k5 : Cert.KernelIdeal.Gen.W6 m ρ c (Proc.devRef .tc Cert.KernelIdeal.main_arg5)
      = m ((c : Thread Cert.KernelIdeal.nD Cert.KernelIdeal.τ).loc Cert.KernelIdeal.main_arg5) := Cert.KernelIdeal.Hand.W6_arg5 m ρ c
  have k6 : Cert.KernelIdeal.Gen.W6 m ρ c (Proc.devRef .tc Cert.KernelIdeal.main_arg6)
      = m ((c : Thread Cert.KernelIdeal.nD Cert.KernelIdeal.τ).loc Cert.KernelIdeal.main_arg6) := Cert.KernelIdeal.Hand.W6_arg6 m ρ c
  -- so does the reference, and the launches agree
  have e3 : (Cert.KernelIdeal.Gen.W6 m ρ c (Proc.devRef .tc Cert.KernelIdeal.main_arg3) : S3W.Idx → EReal)
      = Cert.ReferenceIdeal.Hand.RV2 m' c (Proc.devRef .tc Cert.ReferenceIdeal.main_arg3) :=
    k3.trans (((hagree c).2.2.2.1).symm.trans (Cert.ReferenceIdeal.Hand.RV2_arg3 m' c).symm)
  have e4 : (Cert.KernelIdeal.Gen.W6 m ρ c (Proc.devRef .tc Cert.KernelIdeal.main_arg4) : S3V.Idx → EReal)
      = Cert.ReferenceIdeal.Hand.RV2 m' c (Proc.devRef .tc Cert.ReferenceIdeal.main_arg4) :=
    k4.trans (((hagree c).2.2.2.2.1).symm.trans (Cert.ReferenceIdeal.Hand.RV2_arg4 m' c).symm)
  have e5 : (Cert.KernelIdeal.Gen.W6 m ρ c (Proc.devRef .tc Cert.KernelIdeal.main_arg5) : S3V.Idx → EReal)
      = Cert.ReferenceIdeal.Hand.RV2 m' c (Proc.devRef .tc Cert.ReferenceIdeal.main_arg5) :=
    k5.trans (((hagree c).2.2.2.2.2.1).symm.trans (Cert.ReferenceIdeal.Hand.RV2_arg5 m' c).symm)
  have e6 : (Cert.KernelIdeal.Gen.W6 m ρ c (Proc.devRef .tc Cert.KernelIdeal.main_arg6) : S3V.Idx → EReal)
      = Cert.ReferenceIdeal.Hand.RV2 m' c (Proc.devRef .tc Cert.ReferenceIdeal.main_arg6) :=
    k6.trans (((hagree c).2.2.2.2.2.2.1).symm.trans (Cert.ReferenceIdeal.Hand.RV2_arg6 m' c).symm)
  rw [kernel m ρ c (fun V c => Cert.Hand.RegLinear2.value V c) (fun V c => Cert.Hand.RegNorm3.value V c),
    reference m' c, layerV_eq, hin, e3, e4, e5, e6]

end Cert.Hand.StepNorm1

end
-- ==== Proof.StepNorm2K.lean ====
/-
  Norm layer 2 (the network's layer 2) on the kernel's side.  Between the layer's entry and the exit of region 5 the kernel cuts
  the layer's weight matrix and bias out of their stacks, runs the Linear region (region 4) on the layer's input, takes the column
  means and variances of the Linear output on the host as 1×64 rows, cuts out the scale and the shift, and runs the normalisation
  region (region 5).  So the array region 5 leaves is `NormMath.layer false 2` of the layer's input and the four parameter stacks
  as the kernel holds them at the layer's entry.
-/
import proofs.«409001_j25520695673361_2_alg».proof.Proof.Gen.KernelIdeal.Frame
import proofs.«409001_j25520695673361_2_alg».proof.Proof.NormMath
import Idealize.ShloMosaic.Lib.StableHlo.Run

set_option maxRecDepth 16384
set_option maxHeartbeats 1000000

noncomputable section

open Idealize.ShloMosaic Idealize.ShloMosaic.TcCoe Idealize.ShloMosaic.ValueIdx Idealize.SL.Sem Idealize.ShloMosaic.StableHlo

namespace Cert.Hand.StepNorm2

open Cert.KernelIdeal Cert.KernelIdeal.Gen Cert.Hand.NormMath Cert.Hand.Spec

variable (m : (ℓ : Loc nD τ sig) → Buf (Elt Ideal) ℓ) (ρ : Dev nD → PrngReg) (c : Dev nD)

/-! ## What the Linear region finds: the layer's input, and the layer's matrix and bias row cut out on the host -/

theorem lin_x : (W13 m ρ c (Proc.devRef .tc main_v47) : SN.Idx → EReal) = W12 m ρ c (Proc.devRef .tc main_v47) := by
  dsimp only [W13, hostOps4]
  after_results

theorem lin_w : (W13 m ρ c (Proc.devRef .tc main_v49) : SW.Idx → EReal) = wmat 2 sW2 (W12 m ρ c (Proc.devRef .tc main_arg3)) := by
  dsimp only [W13, hostOps4]
  after_results
  rfl

theorem lin_b : (W13 m ρ c (Proc.devRef .tc main_v52) : SR.Idx → EReal) = row (vec 2 sV2 (W12 m ρ c (Proc.devRef .tc main_arg4))) := by
  dsimp only [W13, hostOps4]
  after_results
  rfl

/-! ## What the normalisation region finds -/

/-- The Linear output is not touched between the two regions. -/
theorem norm_y : (W17 m ρ c (Proc.devRef .tc main_v53) : SN.Idx → EReal) = W14 m ρ c (Proc.devRef .tc main_v53) := by
  dsimp only [W17, W16, W15, hostOps5_2, hostOps5_1, hostOps5]
  after_results

/-- The mean row is computed from the Linear output by the first host stretch after the Linear region. -/
theorem norm_mean : (W17 m ρ c (Proc.devRef .tc main_v57) : SR.Idx → EReal) = meanRow (W14 m ρ c (Proc.devRef .tc main_v53)) := by
  dsimp only [W17, W16, W15, hostOps5_2, hostOps5_1, hostOps5]
  after_results
  rfl

/-- The variance row by the second. -/
theorem norm_var : (W17 m ρ c (Proc.devRef .tc main_v58) : SR.Idx → EReal) = varRow (W14 m ρ c (Proc.devRef .tc main_v53)) := by
  dsimp only [W17, W16, W15, hostOps5_2, hostOps5_1, hostOps5]
  after_results_simp
  rfl

/-- The two remaining parameter stacks are as at the layer's entry when the third stretch cuts the scale and the shift out of them. -/
theorem keep_g : W16 m ρ c (Proc.devRef .tc main_arg5) = W12 m ρ c (Proc.devRef .tc main_arg5) := by
  have h1 : W16 m ρ c (Proc.devRef .tc main_arg5) = W14 m ρ c (Proc.devRef .tc main_arg5) := by
    dsimp only [W16, W15, hostOps5_1, hostOps5]
    after_results
  have h2 : W13 m ρ c (Proc.devRef .tc main_arg5) = W12 m ρ c (Proc.devRef .tc main_arg5) := by
    dsimp only [W13, hostOps4]
    after_results
  exact h1.trans ((W14_of_ne m ρ c main_arg5 (by decide)).trans h2)

theorem keep_z : W16 m ρ c (Proc.devRef .tc main_arg6) = W12 m ρ c (Proc.devRef .tc main_arg6) := by
  have h1 : W16 m ρ c (Proc.devRef .tc main_arg6) = W14 m ρ c (Proc.devRef .tc main_arg6) := by
    dsimp only [W16, W15, hostOps5_1, hostOps5]
    after_results
  have h2 : W13 m ρ c (Proc.devRef .tc main_arg6) = W12 m ρ c (Proc.devRef .tc main_arg6) := by
    dsimp only [W13, hostOps4]
    after_results
  exact h1.trans ((W14_of_ne m ρ c main_arg6 (by decide)).trans h2)

theorem norm_g : (W17 m ρ c (Proc.devRef .tc main_v63) : SR.Idx → EReal) = row (vec 2 sV2 (W12 m ρ c (Proc.devRef .tc main_arg5))) := by
  rw [← keep_g m ρ c]
  dsimp only [W17]
  generalize W16 m ρ c = U
  dsimp only [hostOps5_2]
  after_results
  rfl

theorem norm_z : (W17 m ρ c (Proc.devRef .tc main_v64) : SR.Idx → EReal) = row (vec 2 sV2 (W12 m ρ c (Proc.devRef .tc main_arg6))) := by
  rw [← keep_z m ρ c]
  dsimp only [W17]
  generalize W16 m ρ c = U
  dsimp only [hostOps5_2]
  after_results
  rfl

/-! ## The two regions, and the layer

`hlin`, `hnorm`: each region leaves in its output array the stage's function of the arrays it finds in its input windows. -/

variable (hlin : ∀ (V : (c : Dev nD) → (b : Ref sig .tc) → Buf (Elt Ideal) ((c : Thread nD τ).loc b)) (c : Dev nD),
    (dat4 (F := Ideal) V c).arrAt 3 cfg4.N
      = Spec.linear (V c (Pipeline.arrRef spec4 0)) (V c (Pipeline.arrRef spec4 1)) (V c (Pipeline.arrRef spec4 2)))
variable (hnorm : ∀ (V : (c : Dev nD) → (b : Ref sig .tc) → Buf (Elt Ideal) ((c : Thread nD τ).loc b)) (c : Dev nD),
    (dat5 (F := Ideal) V c).arrAt 5 cfg5.N
      = Spec.normalize false (V c (Pipeline.arrRef spec5 0)) (V c (Pipeline.arrRef spec5 1)) (V c (Pipeline.arrRef spec5 2))
          (V c (Pipeline.arrRef spec5 3)) (V c (Pipeline.arrRef spec5 4)))

include hlin in
/-- The Linear region's output. -/
theorem linear_out : (W14 m ρ c (Proc.devRef .tc main_v53) : SN.Idx → EReal)
    = Spec.linear (W12 m ρ c (Proc.devRef .tc main_v47)) (wmat 2 sW2 (W12 m ρ c (Proc.devRef .tc main_arg3)))
        (row (vec 2 sV2 (W12 m ρ c (Proc.devRef .tc main_arg4)))) := by
  rw [← lin_x m ρ c, ← lin_w m ρ c, ← lin_b m ρ c]
  exact (W14_arr m ρ c 3).trans (hlin (V13 m ρ) c)

include hlin hnorm in
/-- The layer's output on the kernel's side. -/
theorem kernel : (W18 m ρ c (Proc.devRef .tc main_v65) : SN.Idx → EReal)
    = layer false 2 sW2 sV2 (W12 m ρ c (Proc.devRef .tc main_v47)) (W12 m ρ c (Proc.devRef .tc main_arg3))
        (W12 m ρ c (Proc.devRef .tc main_arg4)) (W12 m ρ c (Proc.devRef .tc main_arg5)) (W12 m ρ c (Proc.devRef .tc main_arg6)) := by
  unfold layer
  rw [← linear_out m ρ c hlin, ← norm_mean m ρ c, ← norm_var m ρ c, ← norm_g m ρ c, ← norm_z m ρ c, ← norm_y m ρ c]
  exact (W18_arr m ρ c 5).trans (hnorm (V17 m ρ) c)

end Cert.Hand.StepNorm2

end
-- ==== Proof.StepNorm2R.lean ====
/-
  Norm layer 2 (the network's layer 2) on the reference's side.  From the layer's input and the four parameter stacks as the
  reference holds them when the layer starts, its operations cut the layer's parameters out, form x · w + b with the bias laid
  along the rows, take the column means and variances of that array as vectors of 64 entries, and normalise with every per-column
  vector laid along the rows (then `max(·,0)` where the layer has it): the array `NormMath.layerV false 2` of those five arrays.
-/
import proofs.«409001_j25520695673361_2_alg».proof.Proof.RefVal
import proofs.«409001_j25520695673361_2_alg».proof.Proof.NormMath

set_option maxRecDepth 4096

noncomputable section

open Idealize.ShloMosaic Idealize.ShloMosaic.TcCoe Idealize.ShloMosaic.ValueIdx Idealize.SL.Sem Idealize.ShloMosaic.StableHlo

namespace Cert.Hand.StepNorm2

open Cert.ReferenceIdeal Cert.ReferenceIdeal.Gen Cert.ReferenceIdeal.Hand Cert.Hand.NormMath Cert.Hand.Spec

/-- Contents moved to a typed reference's buffer type and back are the contents: both moves are along the same equation of types. -/
private theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

set_option maxHeartbeats 4000000 in
/-- What the layer's operations leave in its result, from ANY contents `V` at the layer's start: each operation's result is its
    function of its operands' contents, and a buffer none of them writes is as the layer found it. -/
theorem reference_of (V : Valuation τ sig (Elt Ideal)) :
    (StableHlo.after (rops3 (F := Ideal)) V (Proc.devRef .tc main_v105) : SN.Idx → EReal)
      = layerV false 2 sW2 sV2 (V (Proc.devRef .tc main_v74)) (V (Proc.devRef .tc main_arg3))
          (V (Proc.devRef .tc main_arg4)) (V (Proc.devRef .tc main_arg5)) (V (Proc.devRef .tc main_arg6)) := by
  after_results_simp
  try simp only [ofBuf_toBuf]
  rfl

/-- The layer's output on the reference's side. -/
theorem reference (m' : (ℓ : Loc nD τ sig) → Buf (Elt Ideal) ℓ) (c : Dev nD) :
    (RV4 m' c (Proc.devRef .tc main_v105) : SN.Idx → EReal)
      = layerV false 2 sW2 sV2 (RV3 m' c (Proc.devRef .tc main_v74)) (RV3 m' c (Proc.devRef .tc main_arg3))
          (RV3 m' c (Proc.devRef .tc main_arg4)) (RV3 m' c (Proc.devRef .tc main_arg5)) (RV3 m' c (Proc.devRef .tc main_arg6)) :=
  reference_of (RV3 m' c)

end Cert.Hand.StepNorm2

end
-- ==== Proof.RegLinear4.lean ====
/-
  Region 4 of the network: a Linear layer on all 100000 nodes, run as ten row blocks of 10000 × 64.
  Each grid point reads its row block of x, the whole 64 × 64 weight matrix and the whole 1 × 64 bias row, and leaves
  (x_block · w) + b in its row block of the result.  Read on the extended reals, where the narrowing of both
  factors to bf16 is the identity, the ten blocks together are `Spec.linear x w b`:
    row i, column j  ↦  (Σ_k x[i,k] · w[k,j]) + b[0,j].
  The steps: the block product at an index as a sum over the contraction coordinate (`pay_apply`); each window's
  block as rows of its array (`xblk_apply`, `wblk_eq`, `bblk_eq`); what point t writes back is block t of
  `Spec.linear x w b` (`flushed_eq`); the ten blocks cover the result, row r lying in block r / 10000 (`cover`);
  so the result array is `Spec.linear x w b` (`value`).
-/
import proofs.«409001_j25520695673361_2_alg».proof.Proof.Gen.KernelIdeal.Frame
import proofs.«409001_j25520695673361_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.Hand.RegLinear4

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

/-- Axis 0 of the left factor's index is the output's row. -/
theorem lhs_0 (j : S10000x64.Idx) (k : dot_S10000x64_S64x64_S10000x64_1_0_0_1_n_n.contr.Idx) :
    (dot_S10000x64_S64x64_S10000x64_1_0_0_1_n_n.lhsIdx j k 0).val = (j 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- Axis 1 of the left factor's index is the contraction coordinate. -/
theorem lhs_1 (j : S10000x64.Idx) (k : dot_S10000x64_S64x64_S10000x64_1_0_0_1_n_n.contr.Idx) :
    (dot_S10000x64_S64x64_S10000x64_1_0_0_1_n_n.lhsIdx j k 1).val = (k ⟨0, by decide⟩).val :=
  dot_S10000x64_S64x64_S10000x64_1_0_0_1_n_n.lhsIdx_val_of_single rfl j k

/-- Axis 0 of the right factor's index is the contraction coordinate. -/
theorem rhs_0 (j : S10000x64.Idx) (k : dot_S10000x64_S64x64_S10000x64_1_0_0_1_n_n.contr.Idx) :
    (dot_S10000x64_S64x64_S10000x64_1_0_0_1_n_n.rhsIdx j k 0).val = (k ⟨0, by decide⟩).val :=
  dot_S10000x64_S64x64_S10000x64_1_0_0_1_n_n.rhsIdx_val_of_single rfl j k

/-- Axis 1 of the right factor's index is the output's column. -/
theorem rhs_1 (j : S10000x64.Idx) (k : dot_S10000x64_S64x64_S10000x64_1_0_0_1_n_n.contr.Idx) :
    (dot_S10000x64_S64x64_S10000x64_1_0_0_1_n_n.rhsIdx j k 1).val = (j 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- What the body stores, at row p and column q of the block: the row of the first block times the column of the
    second, summed over the 64 contraction coordinates, plus the bias row's entry in that column. On the extended reals
    the two narrowings to bf16 change nothing and the accumulator's zero splat adds nothing. -/
theorem pay_apply (x0 : Vec Ideal S10000x64 .f32) (x1 : Vec Ideal S64x64 .f32) (x2 : Vec Ideal S1x64 .f32)
    (p : Fin 10000) (q : Fin 64) :
    k4_pay1 (F := Ideal) x0 x1 x2 (ix2 p q) = (∑ k : Fin 64, x0 (ix2 p k) * x1 (ix2 k q)) + x2 (ix2 (0 : Fin 1) q) := by
  unfold k4_pay1
  simp only [shapeCast_self]
  refine congrArg₂ (· + ·) ?_ (broadcastTo_1b_ab_apply x2 broadcasts_S1x64_S10000x64 p q)
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hl : dot_S10000x64_S64x64_S10000x64_1_0_0_1_n_n.lhsIdx (ix2 p q)
      ((contrEquiv1 dot_S10000x64_S64x64_S10000x64_1_0_0_1_n_n 64 rfl rfl).symm k) = ix2 p k := by
    funext a; apply Fin.ext
    match a with
    | ⟨0, _⟩ => exact lhs_0 _ _
    | ⟨1, _⟩ => exact (lhs_1 _ _).trans (contrEquiv1_symm_val dot_S10000x64_S64x64_S10000x64_1_0_0_1_n_n 64 rfl rfl k)
  have hr : dot_S10000x64_S64x64_S10000x64_1_0_0_1_n_n.rhsIdx (ix2 p q)
      ((contrEquiv1 dot_S10000x64_S64x64_S10000x64_1_0_0_1_n_n 64 rfl rfl).symm k) = ix2 k q := by
    funext a; apply Fin.ext
    match a with
    | ⟨0, _⟩ => exact (rhs_0 _ _).trans (contrEquiv1_symm_val dot_S10000x64_S64x64_S10000x64_1_0_0_1_n_n 64 rfl rfl k)
    | ⟨1, _⟩ => exact rhs_1 _ _
  show x0 _ * x1 _ = _
  rw [hl, hr]

/-- One row block of the layer. If the first block is rows `10000 r …` of an array X, the second is W and the third is B,
    then at local index y, which is index i of the whole array, the body's value is `Spec.linear X W B` at i. -/
theorem pay_linear (x0 : Vec Ideal S10000x64 .f32) (x1 : Vec Ideal S64x64 .f32) (x2 : Vec Ideal S1x64 .f32)
    (X : Spec.SN.Idx → EReal) (W : Spec.SW.Idx → EReal) (B : Spec.SR.Idx → EReal) (r : ℕ)
    (hX : ∀ (y : S10000x64.Idx) (i : Spec.SN.Idx), (i 0).val = r * 10000 + (y 0).val → (i 1).val = (y 1).val → x0 y = X i)
    (hW : x1 = W) (hB : x2 = B)
    (y : S10000x64.Idx) (i : Spec.SN.Idx) (h0 : (i 0).val = r * 10000 + (y 0).val) (h1 : (i 1).val = (y 1).val) :
    k4_pay1 (F := Ideal) x0 x1 x2 y = Spec.linear X W B i := by
  obtain ⟨p, q, rfl⟩ : ∃ (p : Fin 10000) (q : Fin 64), y = ix2 p q := ⟨y 0, y 1, eq_ix2 y⟩
  have hq : (i 1 : Fin 64) = q := Fin.ext h1
  subst hW hB
  refine (pay_apply x0 x1 x2 p q).trans ?_
  show _ = (∑ k : Fin 64, X (ix2 (i 0) k) * x1 (ix2 k (i 1))) + x2 (ix2 0 (i 1))
  refine congrArg₂ (· + ·) (Finset.sum_congr rfl fun k _ => congrArg₂ (· * ·) ?_ ?_) ?_
  · exact hX (ix2 p k) (ix2 (i 0) k) h0 rfl
  · exact (congrArg (fun z : Fin 64 => x1 (ix2 k z)) hq).symm
  · exact (congrArg (fun z : Fin 64 => x2 (ix2 (0 : Fin 1) z)) hq).symm

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the ten row blocks: x and the result move down with the point, w and b stay. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row block t of x: rows `10000 t … 10000 t + 9999` of the array. -/
theorem xblk_apply (c : Dev nD) (t : Fin cfg4.N) (y : S10000x64.Idx) (i : Spec.SN.Idx)
    (h0 : (i 0).val = t.val * 10000 + (y 0).val) (h1 : (i 1).val = (y 1).val) :
    (iblk4 V c 0 t : Vec Ideal S10000x64 .f32) y = (V c (Pipeline.arrRef spec4 0) : Spec.SN.Idx → EReal) i := by
  obtain ⟨e0, e1, -⟩ := idx_facts t
  unfold iblk4
  rw [View.read_apply]
  show V c (Pipeline.arrRef spec4 0) _ = V c (Pipeline.arrRef spec4 0) _
  refine congrArg _ (funext fun a => Fin.ext ?_)
  match a with
  | ⟨0, _⟩ => show win4_0.index t (0 : Fin 2) * 10000 + 1 * (y 0).val = (i 0).val; omega
  | ⟨1, _⟩ => show win4_0.index t (1 : Fin 2) * 64 + 1 * (y 1).val = (i 1).val; omega

/-- The weights' one block is the whole matrix. -/
theorem wblk_eq (c : Dev nD) (t : Fin cfg4.N) :
    (iblk4 V c 1 t : Vec Ideal S64x64 .f32) = (V c (Pipeline.arrRef spec4 1) : Spec.SW.Idx → EReal) := by
  obtain ⟨-, -, e0, e1, -⟩ := idx_facts t
  funext y
  unfold iblk4
  rw [View.read_apply]
  show V c (Pipeline.arrRef spec4 1) _ = V c (Pipeline.arrRef spec4 1) _
  refine congrArg _ (funext fun a => Fin.ext ?_)
  match a with
  | ⟨0, _⟩ => show win4_1.index t (0 : Fin 2) * 64 + 1 * (y 0).val = (y 0).val; omega
  | ⟨1, _⟩ => show win4_1.index t (1 : Fin 2) * 64 + 1 * (y 1).val = (y 1).val; omega

/-- The bias row's one block is the whole row. -/
theorem bblk_eq (c : Dev nD) (t : Fin cfg4.N) :
    (iblk4 V c 2 t : Vec Ideal S1x64 .f32) = (V c (Pipeline.arrRef spec4 2) : Spec.SR.Idx → EReal) := by
  obtain ⟨-, -, -, -, e0, e1, -⟩ := idx_facts t
  funext y
  unfold iblk4
  rw [View.read_apply]
  show V c (Pipeline.arrRef spec4 2) _ = V c (Pipeline.arrRef spec4 2) _
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 64 + 1 * (y 1).val = (y 1).val; omega

/-- What the result array ends holding: the Linear layer of the three arrays as the region finds them. -/
abbrev G (c : Dev nD) : Spec.SN.Idx → EReal :=
  Spec.linear (V c (Pipeline.arrRef spec4 0)) (V c (Pipeline.arrRef spec4 1)) (V c (Pipeline.arrRef spec4 2))

/-- What point t writes back is block t of `G`. -/
theorem flushed_eq (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S10000x64) hz, View.ld_unit_zero (S := S64x64) hz, View.ld_unit_zero (S := S1x64) hz]
  obtain ⟨-, -, -, -, -, -, e0, e1⟩ := idx_facts t
  funext y
  rw [View.read_apply]
  show k4_pay1 (F := Ideal) (iblk4 V c 0 t) (iblk4 V c 1 t) (iblk4 V c 2 t) ((cfg4.win 3).xinj (grid4.coords t) y)
    = G V c (((cfg4.win 3).blk t).view.emb y)
  exact pay_linear (iblk4 V c 0 t) (iblk4 V c 1 t) (iblk4 V c 2 t)
    (V c (Pipeline.arrRef spec4 0)) (V c (Pipeline.arrRef spec4 1)) (V c (Pipeline.arrRef spec4 2)) t.val
    (xblk_apply V c t) (wblk_eq V c t) (bblk_eq V c t)
    ((cfg4.win 3).xinj (grid4.coords t) y) (((cfg4.win 3).blk t).view.emb y)
    (by show win4_3.index t (0 : Fin 2) * 10000 + 1 * (y 0).val = t.val * 10000 + (y 0).val; omega)
    (by show win4_3.index t (1 : Fin 2) * 64 + 1 * (y 1).val = (y 1).val; omega)

/-- An index of the result is in point t's block iff each coordinate is in the block's range on its axis. -/
theorem mem_blk (t : Fin cfg4.N) (i : S100000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v53).slice (win4_3.rect t)).set ↔ _
  rw [View.set_slice_whole, Rect.mem_set_unit]
  exact Iff.rfl

/-- The ten row blocks cover the result: row r is in block r / 10000. -/
theorem cover (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  have hN : grid4.N = 10 := N_4
  let t : Fin cfg4.N := ⟨(i 0).val / 10000, by show _ < grid4.N; omega⟩
  obtain ⟨-, -, -, -, -, -, e0, e1⟩ := idx_facts t
  refine ⟨t, flush4_3 t, ?_⟩
  rw [mem_blk]
  intro a
  match a with
  | ⟨0, _⟩ => show win4_3.index t (0 : Fin 2) * 10000 ≤ (i 0).val ∧ (i 0).val < win4_3.index t (0 : Fin 2) * 10000 + 10000
              have : t.val = (i 0).val / 10000 := rfl
              omega
  | ⟨1, _⟩ => show win4_3.index t (1 : Fin 2) * 64 ≤ (i 1).val ∧ (i 1).val < win4_3.index t (1 : Fin 2) * 64 + 64; omega

/-- The region's result: after its ten write-backs the output array is the Linear layer of the three input arrays as
    the region finds them. -/
theorem value (c : Dev nD) :
    (dat4 (F := Ideal) V c).arrAt 3 cfg4.N
      = Spec.linear (V c (Pipeline.arrRef spec4 0)) (V c (Pipeline.arrRef spec4 1)) (V c (Pipeline.arrRef spec4 2)) :=
  (dat4 V c).arrAt_eq_of_cover 3 (G V c) (fun t _ => flushed_eq V c t) cover

end Cert.Hand.RegLinear4

end
-- ==== Proof.RegNorm5.lean ====
/-
  Region 5: batch normalisation with no activation after it, read as ONE function of the five arrays it reads.

  The region walks the 100000 × 64 array x in ten blocks of 10000 rows; the column mean μ, the column variance v, the
  scale g and the shift β are 1 × 64 rows read whole at every block.  At row p, column q of block t the body stores
  (((x − μ_q) · rsqrt(v_q + ε)) · g_q) + β_q, with x taken at row 10000·t + p, column q, of the array: the rows are
  broadcast down the block, every operation is elementwise, and ε is the splat of the f32 word 0x3727C5AC.  Block t is
  written back to rows 10000·t … 10000·t + 9999 of the output, so the ten blocks tile the output (row r lies in block
  r / 10000) and the output ends as `Spec.normalize false x μ v g β`.
-/
import proofs.«409001_j25520695673361_2_alg».proof.Proof.Gen.KernelIdeal.Frame
import proofs.«409001_j25520695673361_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Hand.RegNorm5

open Idealize.ShloMosaic Idealize.ShloMosaic.TcCoe Idealize.ShloMosaic.ValueIdx Idealize.SL.Sem
open Idealize.ShloMosaic.Pipeline (Dat)
open Cert.KernelIdeal Cert.KernelIdeal.Gen
open Cert.Hand

variable (V : (c : Dev nD) → (b : Ref sig .tc) → Buf (Elt Ideal) ((c : Thread nD τ).loc b))

/-- The zero offsets of a whole-buffer access, as a constant function. -/
theorem hz : (![0, 0] : Fin 2 → Nat) = fun _ => 0 := funext fun a => by fin_cases a <;> rfl

/-! ## The specification read at an index whose column is known -/

/-- `Spec.normalize` at an index of column `q`: only column `q` of the four rows enters. -/
theorem normalize_apply (r : Bool) (x : Spec.SN.Idx → EReal) (μ v g β : Spec.SR.Idx → EReal) (i : Spec.SN.Idx) (q : Fin 64)
    (hq : i 1 = q) :
    Spec.normalize r x μ v g β i
      = Spec.act r ((((x i - μ (ix2 0 q)) * Ideal.rsqrt (v (ix2 0 q) + Spec.eps)) * g (ix2 0 q)) + β (ix2 0 q)) := by
  subst hq; rfl

/-- The normalised value depends on its five entries only. -/
theorem act_congr (r : Bool) {a a' b b' s s' d d' e e' : EReal} (ha : a = a') (hb : b = b') (hs : s = s') (hd : d = d')
    (he : e = e') :
    Spec.act r ((((a - b) * Ideal.rsqrt (s + Spec.eps)) * d) + e)
      = Spec.act r ((((a' - b') * Ideal.rsqrt (s' + Spec.eps)) * d') + e') := by
  subst ha hb hs hd he; rfl

/-! ## The body's stored value at row `p`, column `q` of a block -/

/-- The stored block at `(p, q)`, from the loaded blocks (`v5` the block of x, `v7` the means, `v0` the variances,
    `v13` the scales, `v17` the shifts): every operation is elementwise, and a broadcast row is read at its column. -/
theorem pay_apply (v0 : Vec Ideal S1x64 .f32) (v5 : Vec Ideal S10000x64 .f32) (v7 v13 v17 : Vec Ideal S1x64 .f32)
    (p : Fin 10000) (q : Fin 64) :
    k5_pay1 (F := Ideal) v0 v5 v7 v13 v17 (ix2 p q)
      = Spec.act false ((((v5 (ix2 p q) - v7 (ix2 0 q)) * Ideal.rsqrt (v0 (ix2 0 q) + Spec.eps)) * v13 (ix2 0 q)) + v17 (ix2 0 q)) := by
  unfold k5_pay1 Spec.act Spec.eps
  rw [if_neg Bool.false_ne_true]
  simp only [shapeCast_self]
  rw [addf_apply, mulf_apply, mulf_apply, subf_apply]
  rw [broadcastTo_1b_ab_apply, broadcastTo_1b_ab_apply, broadcastTo_1b_ab_apply, broadcastTo_1b_ab_apply]
  rfl

/-! ## Where each block sits in its array -/

/-- The block indices at grid point `t`: x's block moves with the output's, which is block `(t, 0)`; the four rows
    stay at block `(0, 0)`. -/
theorem idx_facts : ∀ t : Fin cfg5.N,
      win5_0.index t (0 : Fin 2) = win5_5.index t (0 : Fin 2) ∧ win5_0.index t (1 : Fin 2) = win5_5.index t (1 : Fin 2)
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Entry `(p, q)` of x's block at `t` and entry `(p, q)` of the output's block at `t` have the same array index. -/
theorem emb_x (t : Fin cfg5.N) (p : Fin 10000) (q : Fin 64) :
    ((cfg5.win 0).blk t).view.emb (ix2 p q) = ((cfg5.win 5).blk t).view.emb (ix2 p q) := by
  obtain ⟨a0, a1, -⟩ := idx_facts t
  funext a; apply Fin.ext
  match a with
  | ⟨0, _⟩ => show win5_0.index t (0 : Fin 2) * 10000 + 1 * p.val = win5_5.index t (0 : Fin 2) * 10000 + 1 * p.val; omega
  | ⟨1, _⟩ => show win5_0.index t (1 : Fin 2) * 64 + 1 * q.val = win5_5.index t (1 : Fin 2) * 64 + 1 * q.val; omega

/-- An entry of the output's block keeps its column in the array. -/
theorem emb_out_col (t : Fin cfg5.N) (p : Fin 10000) (q : Fin 64) :
    (((cfg5.win 5).blk t).view.emb (ix2 p q) : Spec.SN.Idx) 1 = q := by
  obtain ⟨-, -, -, e51, -⟩ := idx_facts t
  apply Fin.ext
  show win5_5.index t (1 : Fin 2) * 64 + 1 * q.val = q.val
  omega

/-- The block of the means is the whole row: entry `(0, q)` is the array's. -/
theorem emb_row1 (t : Fin cfg5.N) (q : Fin 64) :
    ((cfg5.win 1).blk t).view.emb (ix2 (0 : Fin 1) q) = (ix2 (0 : Fin 1) q : S1x64.Idx) := by
  obtain ⟨-, -, -, -, r0, r1, -⟩ := idx_facts t
  funext a; apply Fin.ext
  match a with
  | ⟨0, _⟩ => show win5_1.index t (0 : Fin 2) * 1 + 1 * 0 = 0; omega
  | ⟨1, _⟩ => show win5_1.index t (1 : Fin 2) * 64 + 1 * q.val = q.val; omega

/-- The block of the variances is the whole row. -/
theorem emb_row2 (t : Fin cfg5.N) (q : Fin 64) :
    ((cfg5.win 2).blk t).view.emb (ix2 (0 : Fin 1) q) = (ix2 (0 : Fin 1) q : S1x64.Idx) := by
  obtain ⟨-, -, -, -, -, -, r0, r1, -⟩ := idx_facts t
  funext a; apply Fin.ext
  match a with
  | ⟨0, _⟩ => show win5_2.index t (0 : Fin 2) * 1 + 1 * 0 = 0; omega
  | ⟨1, _⟩ => show win5_2.index t (1 : Fin 2) * 64 + 1 * q.val = q.val; omega

/-- The block of the scales is the whole row. -/
theorem emb_row3 (t : Fin cfg5.N) (q : Fin 64) :
    ((cfg5.win 3).blk t).view.emb (ix2 (0 : Fin 1) q) = (ix2 (0 : Fin 1) q : S1x64.Idx) := by
  obtain ⟨-, -, -, -, -, -, -, -, r0, r1, -⟩ := idx_facts t
  funext a; apply Fin.ext
  match a with
  | ⟨0, _⟩ => show win5_3.index t (0 : Fin 2) * 1 + 1 * 0 = 0; omega
  | ⟨1, _⟩ => show win5_3.index t (1 : Fin 2) * 64 + 1 * q.val = q.val; omega

/-- The block of the shifts is the whole row. -/
theorem emb_row4 (t : Fin cfg5.N) (q : Fin 64) :
    ((cfg5.win 4).blk t).view.emb (ix2 (0 : Fin 1) q) = (ix2 (0 : Fin 1) q : S1x64.Idx) := by
  obtain ⟨-, -, -, -, -, -, -, -, -, -, r0, r1⟩ := idx_facts t
  funext a; apply Fin.ext
  match a with
  | ⟨0, _⟩ => show win5_4.index t (0 : Fin 2) * 1 + 1 * 0 = 0; omega
  | ⟨1, _⟩ => show win5_4.index t (1 : Fin 2) * 64 + 1 * q.val = q.val; omega

/-! ## What a grid point stores, against the specification -/

/-- Entry `(p, q)` of what the body stores at point `t` is the specification at the array index of that entry. -/
theorem point_eq (c : Dev nD) (t : Fin cfg5.N) (p : Fin 10000) (q : Fin 64) :
    k5_pay1 (F := Ideal) (iblk5 V c 2 t) (iblk5 V c 0 t) (iblk5 V c 1 t) (iblk5 V c 3 t) (iblk5 V c 4 t) (ix2 p q)
      = Spec.normalize false (V c (Pipeline.arrRef spec5 0)) (V c (Pipeline.arrRef spec5 1)) (V c (Pipeline.arrRef spec5 2))
          (V c (Pipeline.arrRef spec5 3)) (V c (Pipeline.arrRef spec5 4)) (((cfg5.win 5).blk t).view.emb (ix2 p q)) := by
  refine (pay_apply (iblk5 V c 2 t) (iblk5 V c 0 t) (iblk5 V c 1 t) (iblk5 V c 3 t) (iblk5 V c 4 t) p q).trans ?_
  refine Eq.trans ?_ (normalize_apply false (V c (Pipeline.arrRef spec5 0)) (V c (Pipeline.arrRef spec5 1))
    (V c (Pipeline.arrRef spec5 2)) (V c (Pipeline.arrRef spec5 3)) (V c (Pipeline.arrRef spec5 4))
    (((cfg5.win 5).blk t).view.emb (ix2 p q)) q (emb_out_col t p q)).symm
  have hx : iblk5 V c 0 t (ix2 p q) = V c (Pipeline.arrRef spec5 0) (((cfg5.win 5).blk t).view.emb (ix2 p q)) := by
    show V c (Pipeline.arrRef spec5 0) (((cfg5.win 0).blk t).view.emb (ix2 p q)) = _
    rw [emb_x t p q]
  have h1 : iblk5 V c 1 t (ix2 0 q) = V c (Pipeline.arrRef spec5 1) (ix2 0 q) := by
    show V c (Pipeline.arrRef spec5 1) (((cfg5.win 1).blk t).view.emb (ix2 (0 : Fin 1) q)) = _
    rw [emb_row1 t q]
  have h2 : iblk5 V c 2 t (ix2 0 q) = V c (Pipeline.arrRef spec5 2) (ix2 0 q) := by
    show V c (Pipeline.arrRef spec5 2) (((cfg5.win 2).blk t).view.emb (ix2 (0 : Fin 1) q)) = _
    rw [emb_row2 t q]
  have h3 : iblk5 V c 3 t (ix2 0 q) = V c (Pipeline.arrRef spec5 3) (ix2 0 q) := by
    show V c (Pipeline.arrRef spec5 3) (((cfg5.win 3).blk t).view.emb (ix2 (0 : Fin 1) q)) = _
    rw [emb_row3 t q]
  have h4 : iblk5 V c 4 t (ix2 0 q) = V c (Pipeline.arrRef spec5 4) (ix2 0 q) := by
    show V c (Pipeline.arrRef spec5 4) (((cfg5.win 4).blk t).view.emb (ix2 (0 : Fin 1) q)) = _
    rw [emb_row4 t q]
  exact act_congr false hx h1 h2 h3 h4

/-- WHAT POINT `t` WRITES BACK is block `t` of the specification of the arrays as the region finds them. -/
theorem flushed_eq (c : Dev nD) (t : Fin cfg5.N) :
    (dat5 (F := Ideal) V c).flushed 5 t
      = ((cfg5.win 5).blk t).view.read (Elt Ideal)
          (Spec.normalize false (V c (Pipeline.arrRef spec5 0)) (V c (Pipeline.arrRef spec5 1)) (V c (Pipeline.arrRef spec5 2))
            (V c (Pipeline.arrRef spec5 3)) (V c (Pipeline.arrRef spec5 4))) := by
  show (cfg5.win 5).cut (grid5.coords t) ((dat5 (F := Ideal) V c).after 5 t) = _
  rw [after5_5]
  unfold out5_5
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 (n0 := 10000) (n1 := 64) j⟩
  exact point_eq V c t p q

/-! ## The blocks tile the output -/

/-- An index of the output array is in point `t`'s block iff each coordinate is in the block's range on its axis. -/
theorem mem_blk (t : Fin cfg5.N) (i : S100000x64.Idx) :
    i ∈ ((cfg5.win 5).blk t).view.set ↔ ∀ a : Fin 2, win5_5.index t a * S10000x64.size a ≤ (i a).val ∧ (i a).val < win5_5.index t a * S10000x64.size a + S10000x64.size a := by
  show i ∈ ((View.whole main_v65).slice (win5_5.rect t)).set ↔ _
  rw [View.set_slice_whole, Rect.mem_set_unit]
  exact Iff.rfl

/-- Row `r` of the output lies in the block of point `r / 10000`, and every point writes its block back. -/
theorem cover (i : S100000x64.Idx) : ∃ t : Fin cfg5.N, (cfg5.win 5).flush t = true ∧ i ∈ ((cfg5.win 5).blk t).view.set := by
  have hi0 : (i 0).val < 100000 := (i 0).isLt
  have hi1 : (i 1).val < 64 := (i 1).isLt
  have hN : grid5.N = 10 := N_5
  obtain ⟨t, ht⟩ : ∃ t : Fin cfg5.N, t.val = (i 0).val / 10000 :=
    ⟨⟨(i 0).val / 10000, by show (i 0).val / 10000 < grid5.N; rw [hN]; omega⟩, rfl⟩
  obtain ⟨-, -, e50, e51, -⟩ := idx_facts t
  refine ⟨t, flush5_5 t, ?_⟩
  rw [mem_blk]
  intro a
  match a with
  | ⟨0, _⟩ => show win5_5.index t (0 : Fin 2) * 10000 ≤ (i 0).val ∧ (i 0).val < win5_5.index t (0 : Fin 2) * 10000 + 10000; omega
  | ⟨1, _⟩ => show win5_5.index t (1 : Fin 2) * 64 ≤ (i 1).val ∧ (i 1).val < win5_5.index t (1 : Fin 2) * 64 + 64; omega

/-! ## The region's output array -/

/-- THE OUTPUT ARRAY after the region's ten write-backs is the specification of the five arrays the region reads, as
    the region finds them. -/
theorem value (c : Dev nD) :
    (Gen.dat5 (F := Ideal) V c).arrAt 5 cfg5.N
      = Spec.normalize false (V c (Pipeline.arrRef spec5 0)) (V c (Pipeline.arrRef spec5 1)) (V c (Pipeline.arrRef spec5 2))
          (V c (Pipeline.arrRef spec5 3)) (V c (Pipeline.arrRef spec5 4)) :=
  (dat5 (F := Ideal) V c).arrAt_eq_of_cover 5 _ (fun t _ => flushed_eq V c t) cover

end Cert.Hand.RegNorm5

end
-- ==== Proof.StepNorm2.lean ====
/-
  Norm layer 2 (the network's layer 2): the two programs enter it with the same input array, and hold the same four parameter
  stacks (both still hold their arguments as launched, and the launches agree); each side's output is the one function
  `NormMath.layer false 2` of those five arrays, so the outputs agree.
-/
import proofs.«409001_j25520695673361_2_alg».proof.Proof.StepNorm2K
import proofs.«409001_j25520695673361_2_alg».proof.Proof.StepNorm2R
import proofs.«409001_j25520695673361_2_alg».proof.Proof.RegLinear4
import proofs.«409001_j25520695673361_2_alg».proof.Proof.RegNorm5
import proofs.«409001_j25520695673361_2_alg».proof.Proof.KKeep
import proofs.«409001_j25520695673361_2_alg».proof.Proof.Agree

noncomputable section

open Idealize.ShloMosaic Idealize.ShloMosaic.TcCoe Idealize.SL.Sem

namespace Cert.Hand.StepNorm2

open Cert.Hand.NormMath Cert.Hand.Spec

theorem step (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hagree : Cert.Hand.Agree m m')
    (hin : (Cert.KernelIdeal.Gen.W12 m ρ c (Proc.devRef .tc Cert.KernelIdeal.main_v47) : SN.Idx → EReal)
      = Cert.ReferenceIdeal.Hand.RV3 m' c (Proc.devRef .tc Cert.ReferenceIdeal.main_v74)) :
    (Cert.KernelIdeal.Gen.W18 m ρ c (Proc.devRef .tc Cert.KernelIdeal.main_v65) : SN.Idx → EReal)
      = Cert.ReferenceIdeal.Hand.RV4 m' c (Proc.devRef .tc Cert.ReferenceIdeal.main_v105) := by
  -- the kernel still holds each parameter stack as launched
  have k3 : Cert.KernelIdeal.Gen.W12 m ρ c (Proc.devRef .tc Cert.KernelIdeal.main_arg3)
      = m ((c : Thread Cert.KernelIdeal.nD Cert.KernelIdeal.τ).loc Cert.KernelIdeal.main_arg3) := Cert.KernelIdeal.Hand.W12_arg3 m ρ c
  have k4 : Cert.KernelIdeal.Gen.W12 m ρ c (Proc.devRef .tc Cert.KernelIdeal.main_arg4)
      = m ((c : Thread Cert.KernelIdeal.nD Cert.KernelIdeal.τ).loc Cert.KernelIdeal.main_arg4) := Cert.KernelIdeal.Hand.W12_arg4 m ρ c
  have k5 : Cert.KernelIdeal.Gen.W12 m ρ c (Proc.devRef .tc Cert.KernelIdeal.main_arg5)
      = m ((c : Thread Cert.KernelIdeal.nD Cert.KernelIdeal.τ).loc Cert.KernelIdeal.main_arg5) := Cert.KernelIdeal.Hand.W12_arg5 m ρ c
  have k6 : Cert.KernelIdeal.Gen.W12 m ρ c (Proc.devRef .tc Cert.KernelIdeal.main_arg6)
      = m ((c : Thread Cert.KernelIdeal.nD Cert.KernelIdeal.τ).loc Cert.KernelIdeal.main_arg6) := Cert.KernelIdeal.Hand.W12_arg6 m ρ c
  -- so does the reference, and the launches agree
  have e3 : (Cert.KernelIdeal.Gen.W12 m ρ c (Proc.devRef .tc Cert.KernelIdeal.main_arg3) : S3W.Idx → EReal)
      = Cert.ReferenceIdeal.Hand.RV3 m' c (Proc.devRef .tc Cert.ReferenceIdeal.main_arg3) :=
    k3.trans (((hagree c).2.2.2.1).symm.trans (Cert.ReferenceIdeal.Hand.RV3_arg3 m' c).symm)
  have e4 : (Cert.KernelIdeal.Gen.W12 m ρ c (Proc.devRef .tc Cert.KernelIdeal.main_arg4) : S3V.Idx → EReal)
      = Cert.ReferenceIdeal.Hand.RV3 m' c (Proc.devRef .tc Cert.ReferenceIdeal.main_arg4) :=
    k4.trans (((hagree c).2.2.2.2.1).symm.trans (Cert.ReferenceIdeal.Hand.RV3_arg4 m' c).symm)
  have e5 : (Cert.KernelIdeal.Gen.W12 m ρ c (Proc.devRef .tc Cert.KernelIdeal.main_arg5) : S3V.Idx → EReal)
      = Cert.ReferenceIdeal.Hand.RV3 m' c (Proc.devRef .tc Cert.ReferenceIdeal.main_arg5) :=
    k5.trans (((hagree c).2.2.2.2.2.1).symm.trans (Cert.ReferenceIdeal.Hand.RV3_arg5 m' c).symm)
  have e6 : (Cert.KernelIdeal.Gen.W12 m ρ c (Proc.devRef .tc Cert.KernelIdeal.main_arg6) : S3V.Idx → EReal)
      = Cert.ReferenceIdeal.Hand.RV3 m' c (Proc.devRef .tc Cert.ReferenceIdeal.main_arg6) :=
    k6.trans (((hagree c).2.2.2.2.2.2.1).symm.trans (Cert.ReferenceIdeal.Hand.RV3_arg6 m' c).symm)
  rw [kernel m ρ c (fun V c => Cert.Hand.RegLinear4.value V c) (fun V c => Cert.Hand.RegNorm5.value V c),
    reference m' c, layerV_eq, hin, e3, e4, e5, e6]

end Cert.Hand.StepNorm2

end
-- ==== Proof.StepNorm3K.lean ====
/-
  Norm layer 3 (the network's layer 9) on the kernel's side.  Between the layer's entry and the exit of region 19 the kernel cuts
  the layer's weight matrix and bias out of their stacks, runs the Linear region (region 18) on the layer's input, takes the column
  means and variances of the Linear output on the host as 1×64 rows, cuts out the scale and the shift, and runs the normalisation
  region (region 19).  So the array region 19 leaves is `NormMath.layer true 0` of the layer's input and the four parameter stacks
  as the kernel holds them at the layer's entry.
-/
import proofs.«409001_j25520695673361_2_alg».proof.Proof.Gen.KernelIdeal.Frame
import proofs.«409001_j25520695673361_2_alg».proof.Proof.NormMath
import Idealize.ShloMosaic.Lib.StableHlo.Run

set_option maxRecDepth 16384
set_option maxHeartbeats 1000000

noncomputable section

open Idealize.ShloMosaic Idealize.ShloMosaic.TcCoe Idealize.ShloMosaic.ValueIdx Idealize.SL.Sem Idealize.ShloMosaic.StableHlo

namespace Cert.Hand.StepNorm3

open Cert.KernelIdeal Cert.KernelIdeal.Gen Cert.Hand.NormMath Cert.Hand.Spec

variable (m : (ℓ : Loc nD τ sig) → Buf (Elt Ideal) ℓ) (ρ : Dev nD → PrngReg) (c : Dev nD)

/-! ## What the Linear region finds: the layer's input, and the layer's matrix and bias row cut out on the host -/

theorem lin_x : (W55 m ρ c (Proc.devRef .tc main_v264) : SN.Idx → EReal) = W54 m ρ c (Proc.devRef .tc main_v264) := by
  dsimp only [W55, hostOps18]
  after_results

theorem lin_w : (W55 m ρ c (Proc.devRef .tc main_v266) : SW.Idx → EReal) = wmat 0 sW0 (W54 m ρ c (Proc.devRef .tc main_arg9)) := by
  dsimp only [W55, hostOps18]
  after_results
  rfl

theorem lin_b : (W55 m ρ c (Proc.devRef .tc main_v269) : SR.Idx → EReal) = row (vec 0 sV0 (W54 m ρ c (Proc.devRef .tc main_arg10))) := by
  dsimp only [W55, hostOps18]
  after_results
  rfl

/-! ## What the normalisation region finds -/

/-- The Linear output is not touched between the two regions. -/
theorem norm_y : (W59 m ρ c (Proc.devRef .tc main_v270) : SN.Idx → EReal) = W56 m ρ c (Proc.devRef .tc main_v270) := by
  dsimp only [W59, W58, W57, hostOps19_2, hostOps19_1, hostOps19]
  after_results

/-- The mean row is computed from the Linear output by the first host stretch after the Linear region. -/
theorem norm_mean : (W59 m ρ c (Proc.devRef .tc main_v274) : SR.Idx → EReal) = meanRow (W56 m ρ c (Proc.devRef .tc main_v270)) := by
  dsimp only [W59, W58, W57, hostOps19_2, hostOps19_1, hostOps19]
  after_results
  rfl

/-- The variance row by the second. -/
theorem norm_var : (W59 m ρ c (Proc.devRef .tc main_v275) : SR.Idx → EReal) = varRow (W56 m ρ c (Proc.devRef .tc main_v270)) := by
  dsimp only [W59, W58, W57, hostOps19_2, hostOps19_1, hostOps19]
  after_results_simp
  rfl

/-- The two remaining parameter stacks are as at the layer's entry when the third stretch cuts the scale and the shift out of them. -/
theorem keep_g : W58 m ρ c (Proc.devRef .tc main_arg11) = W54 m ρ c (Proc.devRef .tc main_arg11) := by
  have h1 : W58 m ρ c (Proc.devRef .tc main_arg11) = W56 m ρ c (Proc.devRef .tc main_arg11) := by
    dsimp only [W58, W57, hostOps19_1, hostOps19]
    after_results
  have h2 : W55 m ρ c (Proc.devRef .tc main_arg11) = W54 m ρ c (Proc.devRef .tc main_arg11) := by
    dsimp only [W55, hostOps18]
    after_results
  exact h1.trans ((W56_of_ne m ρ c main_arg11 (by decide)).trans h2)

theorem keep_z : W58 m ρ c (Proc.devRef .tc main_arg12) = W54 m ρ c (Proc.devRef .tc main_arg12) := by
  have h1 : W58 m ρ c (Proc.devRef .tc main_arg12) = W56 m ρ c (Proc.devRef .tc main_arg12) := by
    dsimp only [W58, W57, hostOps19_1, hostOps19]
    after_results
  have h2 : W55 m ρ c (Proc.devRef .tc main_arg12) = W54 m ρ c (Proc.devRef .tc main_arg12) := by
    dsimp only [W55, hostOps18]
    after_results
  exact h1.trans ((W56_of_ne m ρ c main_arg12 (by decide)).trans h2)

theorem norm_g : (W59 m ρ c (Proc.devRef .tc main_v280) : SR.Idx → EReal) = row (vec 0 sV0 (W54 m ρ c (Proc.devRef .tc main_arg11))) := by
  rw [← keep_g m ρ c]
  dsimp only [W59]
  generalize W58 m ρ c = U
  dsimp only [hostOps19_2]
  after_results
  rfl

theorem norm_z : (W59 m ρ c (Proc.devRef .tc main_v281) : SR.Idx → EReal) = row (vec 0 sV0 (W54 m ρ c (Proc.devRef .tc main_arg12))) := by
  rw [← keep_z m ρ c]
  dsimp only [W59]
  generalize W58 m ρ c = U
  dsimp only [hostOps19_2]
  after_results
  rfl

/-! ## The two regions, and the layer

`hlin`, `hnorm`: each region leaves in its output array the stage's function of the arrays it finds in its input windows. -/

variable (hlin : ∀ (V : (c : Dev nD) → (b : Ref sig .tc) → Buf (Elt Ideal) ((c : Thread nD τ).loc b)) (c : Dev nD),
    (dat18 (F := Ideal) V c).arrAt 3 cfg18.N
      = Spec.linear (V c (Pipeline.arrRef spec18 0)) (V c (Pipeline.arrRef spec18 1)) (V c (Pipeline.arrRef spec18 2)))
variable (hnorm : ∀ (V : (c : Dev nD) → (b : Ref sig .tc) → Buf (Elt Ideal) ((c : Thread nD τ).loc b)) (c : Dev nD),
    (dat19 (F := Ideal) V c).arrAt 5 cfg19.N
      = Spec.normalize true (V c (Pipeline.arrRef spec19 0)) (V c (Pipeline.arrRef spec19 1)) (V c (Pipeline.arrRef spec19 2))
          (V c (Pipeline.arrRef spec19 3)) (V c (Pipeline.arrRef spec19 4)))

include hlin in
/-- The Linear region's output. -/
theorem linear_out : (W56 m ρ c (Proc.devRef .tc main_v270) : SN.Idx → EReal)
    = Spec.linear (W54 m ρ c (Proc.devRef .tc main_v264)) (wmat 0 sW0 (W54 m ρ c (Proc.devRef .tc main_arg9)))
        (row (vec 0 sV0 (W54 m ρ c (Proc.devRef .tc main_arg10)))) := by
  rw [← lin_x m ρ c, ← lin_w m ρ c, ← lin_b m ρ c]
  exact (W56_arr m ρ c 3).trans (hlin (V55 m ρ) c)

include hlin hnorm in
/-- The layer's output on the kernel's side. -/
theorem kernel : (W60 m ρ c (Proc.devRef .tc main_v282) : SN.Idx → EReal)
    = layer true 0 sW0 sV0 (W54 m ρ c (Proc.devRef .tc main_v264)) (W54 m ρ c (Proc.devRef .tc main_arg9))
        (W54 m ρ c (Proc.devRef .tc main_arg10)) (W54 m ρ c (Proc.devRef .tc main_arg11)) (W54 m ρ c (Proc.devRef .tc main_arg12)) := by
  unfold layer
  rw [← linear_out m ρ c hlin, ← norm_mean m ρ c, ← norm_var m ρ c, ← norm_g m ρ c, ← norm_z m ρ c, ← norm_y m ρ c]
  exact (W60_arr m ρ c 5).trans (hnorm (V59 m ρ) c)

end Cert.Hand.StepNorm3

end
-- ==== Proof.StepNorm3R.lean ====
/-
  Norm layer 3 (the network's layer 9) on the reference's side.  From the layer's input and the four parameter stacks as the
  reference holds them when the layer starts, its operations cut the layer's parameters out, form x · w + b with the bias laid
  along the rows, take the column means and variances of that array as vectors of 64 entries, and normalise with every per-column
  vector laid along the rows (then `max(·,0)` where the layer has it): the array `NormMath.layerV true 0` of those five arrays.
-/
import proofs.«409001_j25520695673361_2_alg».proof.Proof.RefVal
import proofs.«409001_j25520695673361_2_alg».proof.Proof.NormMath

set_option maxRecDepth 4096

noncomputable section

open Idealize.ShloMosaic Idealize.ShloMosaic.TcCoe Idealize.ShloMosaic.ValueIdx Idealize.SL.Sem Idealize.ShloMosaic.StableHlo

namespace Cert.Hand.StepNorm3

open Cert.ReferenceIdeal Cert.ReferenceIdeal.Gen Cert.ReferenceIdeal.Hand Cert.Hand.NormMath Cert.Hand.Spec

/-- Contents moved to a typed reference's buffer type and back are the contents: both moves are along the same equation of types. -/
private theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

set_option maxHeartbeats 4000000 in
/-- What the layer's operations leave in its result, from ANY contents `V` at the layer's start: each operation's result is its
    function of its operands' contents, and a buffer none of them writes is as the layer found it. -/
theorem reference_of (V : Valuation τ sig (Elt Ideal)) :
    (StableHlo.after (rops10 (F := Ideal)) V (Proc.devRef .tc main_v394) : SN.Idx → EReal)
      = layerV true 0 sW0 sV0 (V (Proc.devRef .tc main_v362)) (V (Proc.devRef .tc main_arg9))
          (V (Proc.devRef .tc main_arg10)) (V (Proc.devRef .tc main_arg11)) (V (Proc.devRef .tc main_arg12)) := by
  after_results_simp
  try simp only [ofBuf_toBuf]
  rfl

/-- The layer's output on the reference's side. -/
theorem reference (m' : (ℓ : Loc nD τ sig) → Buf (Elt Ideal) ℓ) (c : Dev nD) :
    (RV11 m' c (Proc.devRef .tc main_v394) : SN.Idx → EReal)
      = layerV true 0 sW0 sV0 (RV10 m' c (Proc.devRef .tc main_v362)) (RV10 m' c (Proc.devRef .tc main_arg9))
          (RV10 m' c (Proc.devRef .tc main_arg10)) (RV10 m' c (Proc.devRef .tc main_arg11)) (RV10 m' c (Proc.devRef .tc main_arg12)) :=
  reference_of (RV10 m' c)

end Cert.Hand.StepNorm3

end
-- ==== Proof.RegLinear18.lean ====
/-
  Region 18 of the network: a Linear layer on all 100000 nodes, run as ten row blocks of 10000 × 64.
  Each grid point reads its row block of x, the whole 64 × 64 weight matrix and the whole 1 × 64 bias row, and leaves
  (x_block · w) + b in its row block of the result.  Read on the extended reals, where the narrowing of both
  factors to bf16 is the identity, the ten blocks together are `Spec.linear x w b`:
    row i, column j  ↦  (Σ_k x[i,k] · w[k,j]) + b[0,j].
  The steps: the block product at an index as a sum over the contraction coordinate (`pay_apply`); each window's
  block as rows of its array (`xblk_apply`, `wblk_eq`, `bblk_eq`); what point t writes back is block t of
  `Spec.linear x w b` (`flushed_eq`); the ten blocks cover the result, row r lying in block r / 10000 (`cover`);
  so the result array is `Spec.linear x w b` (`value`).
-/
import proofs.«409001_j25520695673361_2_alg».proof.Proof.Gen.KernelIdeal.Frame
import proofs.«409001_j25520695673361_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.Hand.RegLinear18

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

/-- Axis 0 of the left factor's index is the output's row. -/
theorem lhs_0 (j : S10000x64.Idx) (k : dot_S10000x64_S64x64_S10000x64_1_0_0_1_n_n.contr.Idx) :
    (dot_S10000x64_S64x64_S10000x64_1_0_0_1_n_n.lhsIdx j k 0).val = (j 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- Axis 1 of the left factor's index is the contraction coordinate. -/
theorem lhs_1 (j : S10000x64.Idx) (k : dot_S10000x64_S64x64_S10000x64_1_0_0_1_n_n.contr.Idx) :
    (dot_S10000x64_S64x64_S10000x64_1_0_0_1_n_n.lhsIdx j k 1).val = (k ⟨0, by decide⟩).val :=
  dot_S10000x64_S64x64_S10000x64_1_0_0_1_n_n.lhsIdx_val_of_single rfl j k

/-- Axis 0 of the right factor's index is the contraction coordinate. -/
theorem rhs_0 (j : S10000x64.Idx) (k : dot_S10000x64_S64x64_S10000x64_1_0_0_1_n_n.contr.Idx) :
    (dot_S10000x64_S64x64_S10000x64_1_0_0_1_n_n.rhsIdx j k 0).val = (k ⟨0, by decide⟩).val :=
  dot_S10000x64_S64x64_S10000x64_1_0_0_1_n_n.rhsIdx_val_of_single rfl j k

/-- Axis 1 of the right factor's index is the output's column. -/
theorem rhs_1 (j : S10000x64.Idx) (k : dot_S10000x64_S64x64_S10000x64_1_0_0_1_n_n.contr.Idx) :
    (dot_S10000x64_S64x64_S10000x64_1_0_0_1_n_n.rhsIdx j k 1).val = (j 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- What the body stores, at row p and column q of the block: the row of the first block times the column of the
    second, summed over the 64 contraction coordinates, plus the bias row's entry in that column. On the extended reals
    the two narrowings to bf16 change nothing and the accumulator's zero splat adds nothing. -/
theorem pay_apply (x0 : Vec Ideal S10000x64 .f32) (x1 : Vec Ideal S64x64 .f32) (x2 : Vec Ideal S1x64 .f32)
    (p : Fin 10000) (q : Fin 64) :
    k18_pay1 (F := Ideal) x0 x1 x2 (ix2 p q) = (∑ k : Fin 64, x0 (ix2 p k) * x1 (ix2 k q)) + x2 (ix2 (0 : Fin 1) q) := by
  unfold k18_pay1
  simp only [shapeCast_self]
  refine congrArg₂ (· + ·) ?_ (broadcastTo_1b_ab_apply x2 broadcasts_S1x64_S10000x64 p q)
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hl : dot_S10000x64_S64x64_S10000x64_1_0_0_1_n_n.lhsIdx (ix2 p q)
      ((contrEquiv1 dot_S10000x64_S64x64_S10000x64_1_0_0_1_n_n 64 rfl rfl).symm k) = ix2 p k := by
    funext a; apply Fin.ext
    match a with
    | ⟨0, _⟩ => exact lhs_0 _ _
    | ⟨1, _⟩ => exact (lhs_1 _ _).trans (contrEquiv1_symm_val dot_S10000x64_S64x64_S10000x64_1_0_0_1_n_n 64 rfl rfl k)
  have hr : dot_S10000x64_S64x64_S10000x64_1_0_0_1_n_n.rhsIdx (ix2 p q)
      ((contrEquiv1 dot_S10000x64_S64x64_S10000x64_1_0_0_1_n_n 64 rfl rfl).symm k) = ix2 k q := by
    funext a; apply Fin.ext
    match a with
    | ⟨0, _⟩ => exact (rhs_0 _ _).trans (contrEquiv1_symm_val dot_S10000x64_S64x64_S10000x64_1_0_0_1_n_n 64 rfl rfl k)
    | ⟨1, _⟩ => exact rhs_1 _ _
  show x0 _ * x1 _ = _
  rw [hl, hr]

/-- One row block of the layer. If the first block is rows `10000 r …` of an array X, the second is W and the third is B,
    then at local index y, which is index i of the whole array, the body's value is `Spec.linear X W B` at i. -/
theorem pay_linear (x0 : Vec Ideal S10000x64 .f32) (x1 : Vec Ideal S64x64 .f32) (x2 : Vec Ideal S1x64 .f32)
    (X : Spec.SN.Idx → EReal) (W : Spec.SW.Idx → EReal) (B : Spec.SR.Idx → EReal) (r : ℕ)
    (hX : ∀ (y : S10000x64.Idx) (i : Spec.SN.Idx), (i 0).val = r * 10000 + (y 0).val → (i 1).val = (y 1).val → x0 y = X i)
    (hW : x1 = W) (hB : x2 = B)
    (y : S10000x64.Idx) (i : Spec.SN.Idx) (h0 : (i 0).val = r * 10000 + (y 0).val) (h1 : (i 1).val = (y 1).val) :
    k18_pay1 (F := Ideal) x0 x1 x2 y = Spec.linear X W B i := by
  obtain ⟨p, q, rfl⟩ : ∃ (p : Fin 10000) (q : Fin 64), y = ix2 p q := ⟨y 0, y 1, eq_ix2 y⟩
  have hq : (i 1 : Fin 64) = q := Fin.ext h1
  subst hW hB
  refine (pay_apply x0 x1 x2 p q).trans ?_
  show _ = (∑ k : Fin 64, X (ix2 (i 0) k) * x1 (ix2 k (i 1))) + x2 (ix2 0 (i 1))
  refine congrArg₂ (· + ·) (Finset.sum_congr rfl fun k _ => congrArg₂ (· * ·) ?_ ?_) ?_
  · exact hX (ix2 p k) (ix2 (i 0) k) h0 rfl
  · exact (congrArg (fun z : Fin 64 => x1 (ix2 k z)) hq).symm
  · exact (congrArg (fun z : Fin 64 => x2 (ix2 (0 : Fin 1) z)) hq).symm

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the ten row blocks: x and the result move down with the point, w and b stay. -/
theorem idx_facts : ∀ t : Fin cfg18.N,
    win18_0.index t (0 : Fin 2) = t.val ∧ win18_0.index t (1 : Fin 2) = 0
    ∧ win18_1.index t (0 : Fin 2) = 0 ∧ win18_1.index t (1 : Fin 2) = 0
    ∧ win18_2.index t (0 : Fin 2) = 0 ∧ win18_2.index t (1 : Fin 2) = 0
    ∧ win18_3.index t (0 : Fin 2) = t.val ∧ win18_3.index t (1 : Fin 2) = 0 :=
  (by decide +kernel : ∀ t : Fin grid18.N, _)

/-- Row block t of x: rows `10000 t … 10000 t + 9999` of the array. -/
theorem xblk_apply (c : Dev nD) (t : Fin cfg18.N) (y : S10000x64.Idx) (i : Spec.SN.Idx)
    (h0 : (i 0).val = t.val * 10000 + (y 0).val) (h1 : (i 1).val = (y 1).val) :
    (iblk18 V c 0 t : Vec Ideal S10000x64 .f32) y = (V c (Pipeline.arrRef spec18 0) : Spec.SN.Idx → EReal) i := by
  obtain ⟨e0, e1, -⟩ := idx_facts t
  unfold iblk18
  rw [View.read_apply]
  show V c (Pipeline.arrRef spec18 0) _ = V c (Pipeline.arrRef spec18 0) _
  refine congrArg _ (funext fun a => Fin.ext ?_)
  match a with
  | ⟨0, _⟩ => show win18_0.index t (0 : Fin 2) * 10000 + 1 * (y 0).val = (i 0).val; omega
  | ⟨1, _⟩ => show win18_0.index t (1 : Fin 2) * 64 + 1 * (y 1).val = (i 1).val; omega

/-- The weights' one block is the whole matrix. -/
theorem wblk_eq (c : Dev nD) (t : Fin cfg18.N) :
    (iblk18 V c 1 t : Vec Ideal S64x64 .f32) = (V c (Pipeline.arrRef spec18 1) : Spec.SW.Idx → EReal) := by
  obtain ⟨-, -, e0, e1, -⟩ := idx_facts t
  funext y
  unfold iblk18
  rw [View.read_apply]
  show V c (Pipeline.arrRef spec18 1) _ = V c (Pipeline.arrRef spec18 1) _
  refine congrArg _ (funext fun a => Fin.ext ?_)
  match a with
  | ⟨0, _⟩ => show win18_1.index t (0 : Fin 2) * 64 + 1 * (y 0).val = (y 0).val; omega
  | ⟨1, _⟩ => show win18_1.index t (1 : Fin 2) * 64 + 1 * (y 1).val = (y 1).val; omega

/-- The bias row's one block is the whole row. -/
theorem bblk_eq (c : Dev nD) (t : Fin cfg18.N) :
    (iblk18 V c 2 t : Vec Ideal S1x64 .f32) = (V c (Pipeline.arrRef spec18 2) : Spec.SR.Idx → EReal) := by
  obtain ⟨-, -, -, -, e0, e1, -⟩ := idx_facts t
  funext y
  unfold iblk18
  rw [View.read_apply]
  show V c (Pipeline.arrRef spec18 2) _ = V c (Pipeline.arrRef spec18 2) _
  refine congrArg _ (funext fun a => Fin.ext ?_)
  match a with
  | ⟨0, _⟩ => show win18_2.index t (0 : Fin 2) * 1 + 1 * (y 0).val = (y 0).val; omega
  | ⟨1, _⟩ => show win18_2.index t (1 : Fin 2) * 64 + 1 * (y 1).val = (y 1).val; omega

/-- What the result array ends holding: the Linear layer of the three arrays as the region finds them. -/
abbrev G (c : Dev nD) : Spec.SN.Idx → EReal :=
  Spec.linear (V c (Pipeline.arrRef spec18 0)) (V c (Pipeline.arrRef spec18 1)) (V c (Pipeline.arrRef spec18 2))

/-- What point t writes back is block t of `G`. -/
theorem flushed_eq (c : Dev nD) (t : Fin cfg18.N) :
    (dat18 V c).flushed 3 t = ((cfg18.win 3).blk t).view.read (Elt Ideal) (G V c) := by
  show (cfg18.win 3).cut (grid18.coords t) ((dat18 V c).after 3 t) = _
  rw [after18_3]
  unfold out18_3
  rw [View.canon_unit_zero hz]
  simp only [View.ld_unit_zero (S := S10000x64) hz, View.ld_unit_zero (S := S64x64) hz, View.ld_unit_zero (S := S1x64) hz]
  obtain ⟨-, -, -, -, -, -, e0, e1⟩ := idx_facts t
  funext y
  rw [View.read_apply]
  show k18_pay1 (F := Ideal) (iblk18 V c 0 t) (iblk18 V c 1 t) (iblk18 V c 2 t) ((cfg18.win 3).xinj (grid18.coords t) y)
    = G V c (((cfg18.win 3).blk t).view.emb y)
  exact pay_linear (iblk18 V c 0 t) (iblk18 V c 1 t) (iblk18 V c 2 t)
    (V c (Pipeline.arrRef spec18 0)) (V c (Pipeline.arrRef spec18 1)) (V c (Pipeline.arrRef spec18 2)) t.val
    (xblk_apply V c t) (wblk_eq V c t) (bblk_eq V c t)
    ((cfg18.win 3).xinj (grid18.coords t) y) (((cfg18.win 3).blk t).view.emb y)
    (by show win18_3.index t (0 : Fin 2) * 10000 + 1 * (y 0).val = t.val * 10000 + (y 0).val; omega)
    (by show win18_3.index t (1 : Fin 2) * 64 + 1 * (y 1).val = (y 1).val; omega)

/-- An index of the result is in point t's block iff each coordinate is in the block's range on its axis. -/
theorem mem_blk (t : Fin cfg18.N) (i : S100000x64.Idx) :
    i ∈ ((cfg18.win 3).blk t).view.set ↔ ∀ a : Fin 2, win18_3.index t a * S10000x64.size a ≤ (i a).val ∧ (i a).val < win18_3.index t a * S10000x64.size a + S10000x64.size a := by
  show i ∈ ((View.whole main_v270).slice (win18_3.rect t)).set ↔ _
  rw [View.set_slice_whole, Rect.mem_set_unit]
  exact Iff.rfl

/-- The ten row blocks cover the result: row r is in block r / 10000. -/
theorem cover (i : S100000x64.Idx) : ∃ t : Fin cfg18.N, (cfg18.win 3).flush t = true ∧ i ∈ ((cfg18.win 3).blk t).view.set := by
  have hi0 : (i 0).val < 100000 := (i 0).isLt
  have hi1 : (i 1).val < 64 := (i 1).isLt
  have hN : grid18.N = 10 := N_18
  let t : Fin cfg18.N := ⟨(i 0).val / 10000, by show _ < grid18.N; omega⟩
  obtain ⟨-, -, -, -, -, -, e0, e1⟩ := idx_facts t
  refine ⟨t, flush18_3 t, ?_⟩
  rw [mem_blk]
  intro a
  match a with
  | ⟨0, _⟩ => show win18_3.index t (0 : Fin 2) * 10000 ≤ (i 0).val ∧ (i 0).val < win18_3.index t (0 : Fin 2) * 10000 + 10000
              have : t.val = (i 0).val / 10000 := rfl
              omega
  | ⟨1, _⟩ => show win18_3.index t (1 : Fin 2) * 64 ≤ (i 1).val ∧ (i 1).val < win18_3.index t (1 : Fin 2) * 64 + 64; omega

/-- The region's result: after its ten write-backs the output array is the Linear layer of the three input arrays as
    the region finds them. -/
theorem value (c : Dev nD) :
    (dat18 (F := Ideal) V c).arrAt 3 cfg18.N
      = Spec.linear (V c (Pipeline.arrRef spec18 0)) (V c (Pipeline.arrRef spec18 1)) (V c (Pipeline.arrRef spec18 2)) :=
  (dat18 V c).arrAt_eq_of_cover 3 (G V c) (fun t _ => flushed_eq V c t) cover

end Cert.Hand.RegLinear18

end
-- ==== Proof.RegNorm19.lean ====
/-
  Region 19: batch normalisation followed by max(·, 0), read as ONE function of the five arrays it reads.

  The region walks the 100000 × 64 array x in ten blocks of 10000 rows; the column mean μ, the column variance v, the
  scale g and the shift β are 1 × 64 rows read whole at every block.  At row p, column q of block t the body stores
  max((((x − μ_q) · rsqrt(v_q + ε)) · g_q) + β_q, 0), with x taken at row 10000·t + p, column q, of the array: the rows
  are broadcast down the block, every operation is elementwise, and ε is the splat of the f32 word 0x3727C5AC.  Block t is
  written back to rows 10000·t … 10000·t + 9999 of the output, so the ten blocks tile the output (row r lies in block
  r / 10000) and the output ends as `Spec.normalize true x μ v g β`.
-/
import proofs.«409001_j25520695673361_2_alg».proof.Proof.Gen.KernelIdeal.Frame
import proofs.«409001_j25520695673361_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Hand.RegNorm19

open Idealize.ShloMosaic Idealize.ShloMosaic.TcCoe Idealize.ShloMosaic.ValueIdx Idealize.SL.Sem
open Idealize.ShloMosaic.Pipeline (Dat)
open Cert.KernelIdeal Cert.KernelIdeal.Gen
open Cert.Hand

variable (V : (c : Dev nD) → (b : Ref sig .tc) → Buf (Elt Ideal) ((c : Thread nD τ).loc b))

/-- The zero offsets of a whole-buffer access, as a constant function. -/
theorem hz : (![0, 0] : Fin 2 → Nat) = fun _ => 0 := funext fun a => by fin_cases a <;> rfl

/-! ## The specification read at an index whose column is known -/

/-- `Spec.normalize` at an index of column `q`: only column `q` of the four rows enters. -/
theorem normalize_apply (r : Bool) (x : Spec.SN.Idx → EReal) (μ v g β : Spec.SR.Idx → EReal) (i : Spec.SN.Idx) (q : Fin 64)
    (hq : i 1 = q) :
    Spec.normalize r x μ v g β i
      = Spec.act r ((((x i - μ (ix2 0 q)) * Ideal.rsqrt (v (ix2 0 q) + Spec.eps)) * g (ix2 0 q)) + β (ix2 0 q)) := by
  subst hq; rfl

/-- The normalised value depends on its five entries only. -/
theorem act_congr (r : Bool) {a a' b b' s s' d d' e e' : EReal} (ha : a = a') (hb : b = b') (hs : s = s') (hd : d = d')
    (he : e = e') :
    Spec.act r ((((a - b) * Ideal.rsqrt (s + Spec.eps)) * d) + e)
      = Spec.act r ((((a' - b') * Ideal.rsqrt (s' + Spec.eps)) * d') + e') := by
  subst ha hb hs hd he; rfl

/-! ## The body's stored value at row `p`, column `q` of a block -/

/-- The stored block at `(p, q)`, from the loaded blocks (`v5` the block of x, `v7` the means, `v0` the variances,
    `v13` the scales, `v17` the shifts): every operation is elementwise, and a broadcast row is read at its column. -/
theorem pay_apply (v0 : Vec Ideal S1x64 .f32) (v5 : Vec Ideal S10000x64 .f32) (v7 v13 v17 : Vec Ideal S1x64 .f32)
    (p : Fin 10000) (q : Fin 64) :
    k19_pay1 (F := Ideal) v0 v5 v7 v13 v17 (ix2 p q)
      = Spec.act true ((((v5 (ix2 p q) - v7 (ix2 0 q)) * Ideal.rsqrt (v0 (ix2 0 q) + Spec.eps)) * v13 (ix2 0 q)) + v17 (ix2 0 q)) := by
  unfold k19_pay1 Spec.act Spec.eps
  rw [if_pos rfl]
  simp only [shapeCast_self]
  rw [maximumf_apply, addf_apply, mulf_apply, mulf_apply, subf_apply]
  rw [broadcastTo_1b_ab_apply, broadcastTo_1b_ab_apply, broadcastTo_1b_ab_apply, broadcastTo_1b_ab_apply]
  show max (_ * Ideal.rsqrt (v0 (ix2 0 q) + Ideal.ofBits .f32 0x3727C5AC#32) * _ + _) (Ideal.ofBits .f32 0x00000000#32) = _
  rw [Ideal.ofBits_zero_f32]

/-! ## Where each block sits in its array -/

/-- The block indices at grid point `t`: x's block moves with the output's, which is block `(t, 0)`; the four rows
    stay at block `(0, 0)`. -/
theorem idx_facts : ∀ t : Fin cfg19.N,
      win19_0.index t (0 : Fin 2) = win19_5.index t (0 : Fin 2) ∧ win19_0.index t (1 : Fin 2) = win19_5.index t (1 : Fin 2)
    ∧ win19_5.index t (0 : Fin 2) = t.val ∧ win19_5.index t (1 : Fin 2) = 0
    ∧ win19_1.index t (0 : Fin 2) = 0 ∧ win19_1.index t (1 : Fin 2) = 0
    ∧ win19_2.index t (0 : Fin 2) = 0 ∧ win19_2.index t (1 : Fin 2) = 0
    ∧ win19_3.index t (0 : Fin 2) = 0 ∧ win19_3.index t (1 : Fin 2) = 0
    ∧ win19_4.index t (0 : Fin 2) = 0 ∧ win19_4.index t (1 : Fin 2) = 0 :=
  (by decide +kernel : ∀ t : Fin grid19.N, _)

/-- Entry `(p, q)` of x's block at `t` and entry `(p, q)` of the output's block at `t` have the same array index. -/
theorem emb_x (t : Fin cfg19.N) (p : Fin 10000) (q : Fin 64) :
    ((cfg19.win 0).blk t).view.emb (ix2 p q) = ((cfg19.win 5).blk t).view.emb (ix2 p q) := by
  obtain ⟨a0, a1, -⟩ := idx_facts t
  funext a; apply Fin.ext
  match a with
  | ⟨0, _⟩ => show win19_0.index t (0 : Fin 2) * 10000 + 1 * p.val = win19_5.index t (0 : Fin 2) * 10000 + 1 * p.val; omega
  | ⟨1, _⟩ => show win19_0.index t (1 : Fin 2) * 64 + 1 * q.val = win19_5.index t (1 : Fin 2) * 64 + 1 * q.val; omega

/-- An entry of the output's block keeps its column in the array. -/
theorem emb_out_col (t : Fin cfg19.N) (p : Fin 10000) (q : Fin 64) :
    (((cfg19.win 5).blk t).view.emb (ix2 p q) : Spec.SN.Idx) 1 = q := by
  obtain ⟨-, -, -, e51, -⟩ := idx_facts t
  apply Fin.ext
  show win19_5.index t (1 : Fin 2) * 64 + 1 * q.val = q.val
  omega

/-- The block of the means is the whole row: entry `(0, q)` is the array's. -/
theorem emb_row1 (t : Fin cfg19.N) (q : Fin 64) :
    ((cfg19.win 1).blk t).view.emb (ix2 (0 : Fin 1) q) = (ix2 (0 : Fin 1) q : S1x64.Idx) := by
  obtain ⟨-, -, -, -, r0, r1, -⟩ := idx_facts t
  funext a; apply Fin.ext
  match a with
  | ⟨0, _⟩ => show win19_1.index t (0 : Fin 2) * 1 + 1 * 0 = 0; omega
  | ⟨1, _⟩ => show win19_1.index t (1 : Fin 2) * 64 + 1 * q.val = q.val; omega

/-- The block of the variances is the whole row. -/
theorem emb_row2 (t : Fin cfg19.N) (q : Fin 64) :
    ((cfg19.win 2).blk t).view.emb (ix2 (0 : Fin 1) q) = (ix2 (0 : Fin 1) q : S1x64.Idx) := by
  obtain ⟨-, -, -, -, -, -, r0, r1, -⟩ := idx_facts t
  funext a; apply Fin.ext
  match a with
  | ⟨0, _⟩ => show win19_2.index t (0 : Fin 2) * 1 + 1 * 0 = 0; omega
  | ⟨1, _⟩ => show win19_2.index t (1 : Fin 2) * 64 + 1 * q.val = q.val; omega

/-- The block of the scales is the whole row. -/
theorem emb_row3 (t : Fin cfg19.N) (q : Fin 64) :
    ((cfg19.win 3).blk t).view.emb (ix2 (0 : Fin 1) q) = (ix2 (0 : Fin 1) q : S1x64.Idx) := by
  obtain ⟨-, -, -, -, -, -, -, -, r0, r1, -⟩ := idx_facts t
  funext a; apply Fin.ext
  match a with
  | ⟨0, _⟩ => show win19_3.index t (0 : Fin 2) * 1 + 1 * 0 = 0; omega
  | ⟨1, _⟩ => show win19_3.index t (1 : Fin 2) * 64 + 1 * q.val = q.val; omega

/-- The block of the shifts is the whole row. -/
theorem emb_row4 (t : Fin cfg19.N) (q : Fin 64) :
    ((cfg19.win 4).blk t).view.emb (ix2 (0 : Fin 1) q) = (ix2 (0 : Fin 1) q : S1x64.Idx) := by
  obtain ⟨-, -, -, -, -, -, -, -, -, -, r0, r1⟩ := idx_facts t
  funext a; apply Fin.ext
  match a with
  | ⟨0, _⟩ => show win19_4.index t (0 : Fin 2) * 1 + 1 * 0 = 0; omega
  | ⟨1, _⟩ => show win19_4.index t (1 : Fin 2) * 64 + 1 * q.val = q.val; omega

/-! ## What a grid point stores, against the specification -/

/-- Entry `(p, q)` of what the body stores at point `t` is the specification at the array index of that entry. -/
theorem point_eq (c : Dev nD) (t : Fin cfg19.N) (p : Fin 10000) (q : Fin 64) :
    k19_pay1 (F := Ideal) (iblk19 V c 2 t) (iblk19 V c 0 t) (iblk19 V c 1 t) (iblk19 V c 3 t) (iblk19 V c 4 t) (ix2 p q)
      = Spec.normalize true (V c (Pipeline.arrRef spec19 0)) (V c (Pipeline.arrRef spec19 1)) (V c (Pipeline.arrRef spec19 2))
          (V c (Pipeline.arrRef spec19 3)) (V c (Pipeline.arrRef spec19 4)) (((cfg19.win 5).blk t).view.emb (ix2 p q)) := by
  refine (pay_apply (iblk19 V c 2 t) (iblk19 V c 0 t) (iblk19 V c 1 t) (iblk19 V c 3 t) (iblk19 V c 4 t) p q).trans ?_
  refine Eq.trans ?_ (normalize_apply true (V c (Pipeline.arrRef spec19 0)) (V c (Pipeline.arrRef spec19 1))
    (V c (Pipeline.arrRef spec19 2)) (V c (Pipeline.arrRef spec19 3)) (V c (Pipeline.arrRef spec19 4))
    (((cfg19.win 5).blk t).view.emb (ix2 p q)) q (emb_out_col t p q)).symm
  have hx : iblk19 V c 0 t (ix2 p q) = V c (Pipeline.arrRef spec19 0) (((cfg19.win 5).blk t).view.emb (ix2 p q)) := by
    show V c (Pipeline.arrRef spec19 0) (((cfg19.win 0).blk t).view.emb (ix2 p q)) = _
    rw [emb_x t p q]
  have h1 : iblk19 V c 1 t (ix2 0 q) = V c (Pipeline.arrRef spec19 1) (ix2 0 q) := by
    show V c (Pipeline.arrRef spec19 1) (((cfg19.win 1).blk t).view.emb (ix2 (0 : Fin 1) q)) = _
    rw [emb_row1 t q]
  have h2 : iblk19 V c 2 t (ix2 0 q) = V c (Pipeline.arrRef spec19 2) (ix2 0 q) := by
    show V c (Pipeline.arrRef spec19 2) (((cfg19.win 2).blk t).view.emb (ix2 (0 : Fin 1) q)) = _
    rw [emb_row2 t q]
  have h3 : iblk19 V c 3 t (ix2 0 q) = V c (Pipeline.arrRef spec19 3) (ix2 0 q) := by
    show V c (Pipeline.arrRef spec19 3) (((cfg19.win 3).blk t).view.emb (ix2 (0 : Fin 1) q)) = _
    rw [emb_row3 t q]
  have h4 : iblk19 V c 4 t (ix2 0 q) = V c (Pipeline.arrRef spec19 4) (ix2 0 q) := by
    show V c (Pipeline.arrRef spec19 4) (((cfg19.win 4).blk t).view.emb (ix2 (0 : Fin 1) q)) = _
    rw [emb_row4 t q]
  exact act_congr true hx h1 h2 h3 h4

/-- WHAT POINT `t` WRITES BACK is block `t` of the specification of the arrays as the region finds them. -/
theorem flushed_eq (c : Dev nD) (t : Fin cfg19.N) :
    (dat19 (F := Ideal) V c).flushed 5 t
      = ((cfg19.win 5).blk t).view.read (Elt Ideal)
          (Spec.normalize true (V c (Pipeline.arrRef spec19 0)) (V c (Pipeline.arrRef spec19 1)) (V c (Pipeline.arrRef spec19 2))
            (V c (Pipeline.arrRef spec19 3)) (V c (Pipeline.arrRef spec19 4))) := by
  show (cfg19.win 5).cut (grid19.coords t) ((dat19 (F := Ideal) V c).after 5 t) = _
  rw [after19_5]
  unfold out19_5
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 (n0 := 10000) (n1 := 64) j⟩
  exact point_eq V c t p q

/-! ## The blocks tile the output -/

/-- An index of the output array is in point `t`'s block iff each coordinate is in the block's range on its axis. -/
theorem mem_blk (t : Fin cfg19.N) (i : S100000x64.Idx) :
    i ∈ ((cfg19.win 5).blk t).view.set ↔ ∀ a : Fin 2, win19_5.index t a * S10000x64.size a ≤ (i a).val ∧ (i a).val < win19_5.index t a * S10000x64.size a + S10000x64.size a := by
  show i ∈ ((View.whole main_v282).slice (win19_5.rect t)).set ↔ _
  rw [View.set_slice_whole, Rect.mem_set_unit]
  exact Iff.rfl

/-- Row `r` of the output lies in the block of point `r / 10000`, and every point writes its block back. -/
theorem cover (i : S100000x64.Idx) : ∃ t : Fin cfg19.N, (cfg19.win 5).flush t = true ∧ i ∈ ((cfg19.win 5).blk t).view.set := by
  have hi0 : (i 0).val < 100000 := (i 0).isLt
  have hi1 : (i 1).val < 64 := (i 1).isLt
  have hN : grid19.N = 10 := N_19
  obtain ⟨t, ht⟩ : ∃ t : Fin cfg19.N, t.val = (i 0).val / 10000 :=
    ⟨⟨(i 0).val / 10000, by show (i 0).val / 10000 < grid19.N; rw [hN]; omega⟩, rfl⟩
  obtain ⟨-, -, e50, e51, -⟩ := idx_facts t
  refine ⟨t, flush19_5 t, ?_⟩
  rw [mem_blk]
  intro a
  match a with
  | ⟨0, _⟩ => show win19_5.index t (0 : Fin 2) * 10000 ≤ (i 0).val ∧ (i 0).val < win19_5.index t (0 : Fin 2) * 10000 + 10000; omega
  | ⟨1, _⟩ => show win19_5.index t (1 : Fin 2) * 64 ≤ (i 1).val ∧ (i 1).val < win19_5.index t (1 : Fin 2) * 64 + 64; omega

/-! ## The region's output array -/

/-- THE OUTPUT ARRAY after the region's ten write-backs is the specification of the five arrays the region reads, as
    the region finds them. -/
theorem value (c : Dev nD) :
    (Gen.dat19 (F := Ideal) V c).arrAt 5 cfg19.N
      = Spec.normalize true (V c (Pipeline.arrRef spec19 0)) (V c (Pipeline.arrRef spec19 1)) (V c (Pipeline.arrRef spec19 2))
          (V c (Pipeline.arrRef spec19 3)) (V c (Pipeline.arrRef spec19 4)) :=
  (dat19 (F := Ideal) V c).arrAt_eq_of_cover 5 _ (fun t _ => flushed_eq V c t) cover

end Cert.Hand.RegNorm19

end
-- ==== Proof.StepNorm3.lean ====
/-
  Norm layer 3 (the network's layer 9): the two programs enter it with the same input array, and hold the same four parameter
  stacks (both still hold their arguments as launched, and the launches agree); each side's output is the one function
  `NormMath.layer true 0` of those five arrays, so the outputs agree.
-/
import proofs.«409001_j25520695673361_2_alg».proof.Proof.StepNorm3K
import proofs.«409001_j25520695673361_2_alg».proof.Proof.StepNorm3R
import proofs.«409001_j25520695673361_2_alg».proof.Proof.RegLinear18
import proofs.«409001_j25520695673361_2_alg».proof.Proof.RegNorm19
import proofs.«409001_j25520695673361_2_alg».proof.Proof.KKeep
import proofs.«409001_j25520695673361_2_alg».proof.Proof.Agree

noncomputable section

open Idealize.ShloMosaic Idealize.ShloMosaic.TcCoe Idealize.SL.Sem

namespace Cert.Hand.StepNorm3

open Cert.Hand.NormMath Cert.Hand.Spec

theorem step (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hagree : Cert.Hand.Agree m m')
    (hin : (Cert.KernelIdeal.Gen.W54 m ρ c (Proc.devRef .tc Cert.KernelIdeal.main_v264) : SN.Idx → EReal)
      = Cert.ReferenceIdeal.Hand.RV10 m' c (Proc.devRef .tc Cert.ReferenceIdeal.main_v362)) :
    (Cert.KernelIdeal.Gen.W60 m ρ c (Proc.devRef .tc Cert.KernelIdeal.main_v282) : SN.Idx → EReal)
      = Cert.ReferenceIdeal.Hand.RV11 m' c (Proc.devRef .tc Cert.ReferenceIdeal.main_v394) := by
  -- the kernel still holds each parameter stack as launched
  have k3 : Cert.KernelIdeal.Gen.W54 m ρ c (Proc.devRef .tc Cert.KernelIdeal.main_arg9)
      = m ((c : Thread Cert.KernelIdeal.nD Cert.KernelIdeal.τ).loc Cert.KernelIdeal.main_arg9) := Cert.KernelIdeal.Hand.W54_arg9 m ρ c
  have k4 : Cert.KernelIdeal.Gen.W54 m ρ c (Proc.devRef .tc Cert.KernelIdeal.main_arg10)
      = m ((c : Thread Cert.KernelIdeal.nD Cert.KernelIdeal.τ).loc Cert.KernelIdeal.main_arg10) := Cert.KernelIdeal.Hand.W54_arg10 m ρ c
  have k5 : Cert.KernelIdeal.Gen.W54 m ρ c (Proc.devRef .tc Cert.KernelIdeal.main_arg11)
      = m ((c : Thread Cert.KernelIdeal.nD Cert.KernelIdeal.τ).loc Cert.KernelIdeal.main_arg11) := Cert.KernelIdeal.Hand.W54_arg11 m ρ c
  have k6 : Cert.KernelIdeal.Gen.W54 m ρ c (Proc.devRef .tc Cert.KernelIdeal.main_arg12)
      = m ((c : Thread Cert.KernelIdeal.nD Cert.KernelIdeal.τ).loc Cert.KernelIdeal.main_arg12) := Cert.KernelIdeal.Hand.W54_arg12 m ρ c
  -- so does the reference, and the launches agree
  have e3 : (Cert.KernelIdeal.Gen.W54 m ρ c (Proc.devRef .tc Cert.KernelIdeal.main_arg9) : S3W.Idx → EReal)
      = Cert.ReferenceIdeal.Hand.RV10 m' c (Proc.devRef .tc Cert.ReferenceIdeal.main_arg9) :=
    k3.trans (((hagree c).2.2.2.2.2.2.2.2.2.1).symm.trans (Cert.ReferenceIdeal.Hand.RV10_arg9 m' c).symm)
  have e4 : (Cert.KernelIdeal.Gen.W54 m ρ c (Proc.devRef .tc Cert.KernelIdeal.main_arg10) : S3V.Idx → EReal)
      = Cert.ReferenceIdeal.Hand.RV10 m' c (Proc.devRef .tc Cert.ReferenceIdeal.main_arg10) :=
    k4.trans (((hagree c).2.2.2.2.2.2.2.2.2.2.1).symm.trans (Cert.ReferenceIdeal.Hand.RV10_arg10 m' c).symm)
  have e5 : (Cert.KernelIdeal.Gen.W54 m ρ c (Proc.devRef .tc Cert.KernelIdeal.main_arg11) : S3V.Idx → EReal)
      = Cert.ReferenceIdeal.Hand.RV10 m' c (Proc.devRef .tc Cert.ReferenceIdeal.main_arg11) :=
    k5.trans (((hagree c).2.2.2.2.2.2.2.2.2.2.2.1).symm.trans (Cert.ReferenceIdeal.Hand.RV10_arg11 m' c).symm)
  have e6 : (Cert.KernelIdeal.Gen.W54 m ρ c (Proc.devRef .tc Cert.KernelIdeal.main_arg12) : S3V.Idx → EReal)
      = Cert.ReferenceIdeal.Hand.RV10 m' c (Proc.devRef .tc Cert.ReferenceIdeal.main_arg12) :=
    k6.trans (((hagree c).2.2.2.2.2.2.2.2.2.2.2.2.1).symm.trans (Cert.ReferenceIdeal.Hand.RV10_arg12 m' c).symm)
  rw [kernel m ρ c (fun V c => Cert.Hand.RegLinear18.value V c) (fun V c => Cert.Hand.RegNorm19.value V c),
    reference m' c, layerV_eq, hin, e3, e4, e5, e6]

end Cert.Hand.StepNorm3

end
-- ==== Proof.StepNorm4K.lean ====
/-
  Norm layer 4 (the network's layer 10) on the kernel's side.  Between the layer's entry and the exit of region 21 the kernel cuts
  the layer's weight matrix and bias out of their stacks, runs the Linear region (region 20) on the layer's input, takes the column
  means and variances of the Linear output on the host as 1×64 rows, cuts out the scale and the shift, and runs the normalisation
  region (region 21).  So the array region 21 leaves is `NormMath.layer true 1` of the layer's input and the four parameter stacks
  as the kernel holds them at the layer's entry.
-/
import proofs.«409001_j25520695673361_2_alg».proof.Proof.Gen.KernelIdeal.Frame
import proofs.«409001_j25520695673361_2_alg».proof.Proof.NormMath
import Idealize.ShloMosaic.Lib.StableHlo.Run

set_option maxRecDepth 16384
set_option maxHeartbeats 1000000

noncomputable section

open Idealize.ShloMosaic Idealize.ShloMosaic.TcCoe Idealize.ShloMosaic.ValueIdx Idealize.SL.Sem Idealize.ShloMosaic.StableHlo

namespace Cert.Hand.StepNorm4

open Cert.KernelIdeal Cert.KernelIdeal.Gen Cert.Hand.NormMath Cert.Hand.Spec

variable (m : (ℓ : Loc nD τ sig) → Buf (Elt Ideal) ℓ) (ρ : Dev nD → PrngReg) (c : Dev nD)

/-! ## What the Linear region finds: the layer's input, and the layer's matrix and bias row cut out on the host -/

theorem lin_x : (W61 m ρ c (Proc.devRef .tc main_v282) : SN.Idx → EReal) = W60 m ρ c (Proc.devRef .tc main_v282) := by
  dsimp only [W61, hostOps20]
  after_results

theorem lin_w : (W61 m ρ c (Proc.devRef .tc main_v284) : SW.Idx → EReal) = wmat 1 sW1 (W60 m ρ c (Proc.devRef .tc main_arg9)) := by
  dsimp only [W61, hostOps20]
  after_results
  rfl

theorem lin_b : (W61 m ρ c (Proc.devRef .tc main_v287) : SR.Idx → EReal) = row (vec 1 sV1 (W60 m ρ c (Proc.devRef .tc main_arg10))) := by
  dsimp only [W61, hostOps20]
  after_results
  rfl

/-! ## What the normalisation region finds -/

/-- The Linear output is not touched between the two regions. -/
theorem norm_y : (W65 m ρ c (Proc.devRef .tc main_v288) : SN.Idx → EReal) = W62 m ρ c (Proc.devRef .tc main_v288) := by
  dsimp only [W65, W64, W63, hostOps21_2, hostOps21_1, hostOps21]
  after_results

/-- The mean row is computed from the Linear output by the first host stretch after the Linear region. -/
theorem norm_mean : (W65 m ρ c (Proc.devRef .tc main_v292) : SR.Idx → EReal) = meanRow (W62 m ρ c (Proc.devRef .tc main_v288)) := by
  dsimp only [W65, W64, W63, hostOps21_2, hostOps21_1, hostOps21]
  after_results
  rfl

/-- The variance row by the second. -/
theorem norm_var : (W65 m ρ c (Proc.devRef .tc main_v293) : SR.Idx → EReal) = varRow (W62 m ρ c (Proc.devRef .tc main_v288)) := by
  dsimp only [W65, W64, W63, hostOps21_2, hostOps21_1, hostOps21]
  after_results_simp
  rfl

/-- The two remaining parameter stacks are as at the layer's entry when the third stretch cuts the scale and the shift out of them. -/
theorem keep_g : W64 m ρ c (Proc.devRef .tc main_arg11) = W60 m ρ c (Proc.devRef .tc main_arg11) := by
  have h1 : W64 m ρ c (Proc.devRef .tc main_arg11) = W62 m ρ c (Proc.devRef .tc main_arg11) := by
    dsimp only [W64, W63, hostOps21_1, hostOps21]
    after_results
  have h2 : W61 m ρ c (Proc.devRef .tc main_arg11) = W60 m ρ c (Proc.devRef .tc main_arg11) := by
    dsimp only [W61, hostOps20]
    after_results
  exact h1.trans ((W62_of_ne m ρ c main_arg11 (by decide)).trans h2)

theorem keep_z : W64 m ρ c (Proc.devRef .tc main_arg12) = W60 m ρ c (Proc.devRef .tc main_arg12) := by
  have h1 : W64 m ρ c (Proc.devRef .tc main_arg12) = W62 m ρ c (Proc.devRef .tc main_arg12) := by
    dsimp only [W64, W63, hostOps21_1, hostOps21]
    after_results
  have h2 : W61 m ρ c (Proc.devRef .tc main_arg12) = W60 m ρ c (Proc.devRef .tc main_arg12) := by
    dsimp only [W61, hostOps20]
    after_results
  exact h1.trans ((W62_of_ne m ρ c main_arg12 (by decide)).trans h2)

theorem norm_g : (W65 m ρ c (Proc.devRef .tc main_v298) : SR.Idx → EReal) = row (vec 1 sV1 (W60 m ρ c (Proc.devRef .tc main_arg11))) := by
  rw [← keep_g m ρ c]
  dsimp only [W65]
  generalize W64 m ρ c = U
  dsimp only [hostOps21_2]
  after_results
  rfl

theorem norm_z : (W65 m ρ c (Proc.devRef .tc main_v299) : SR.Idx → EReal) = row (vec 1 sV1 (W60 m ρ c (Proc.devRef .tc main_arg12))) := by
  rw [← keep_z m ρ c]
  dsimp only [W65]
  generalize W64 m ρ c = U
  dsimp only [hostOps21_2]
  after_results
  rfl

/-! ## The two regions, and the layer

`hlin`, `hnorm`: each region leaves in its output array the stage's function of the arrays it finds in its input windows. -/

variable (hlin : ∀ (V : (c : Dev nD) → (b : Ref sig .tc) → Buf (Elt Ideal) ((c : Thread nD τ).loc b)) (c : Dev nD),
    (dat20 (F := Ideal) V c).arrAt 3 cfg20.N
      = Spec.linear (V c (Pipeline.arrRef spec20 0)) (V c (Pipeline.arrRef spec20 1)) (V c (Pipeline.arrRef spec20 2)))
variable (hnorm : ∀ (V : (c : Dev nD) → (b : Ref sig .tc) → Buf (Elt Ideal) ((c : Thread nD τ).loc b)) (c : Dev nD),
    (dat21 (F := Ideal) V c).arrAt 5 cfg21.N
      = Spec.normalize true (V c (Pipeline.arrRef spec21 0)) (V c (Pipeline.arrRef spec21 1)) (V c (Pipeline.arrRef spec21 2))
          (V c (Pipeline.arrRef spec21 3)) (V c (Pipeline.arrRef spec21 4)))

include hlin in
/-- The Linear region's output. -/
theorem linear_out : (W62 m ρ c (Proc.devRef .tc main_v288) : SN.Idx → EReal)
    = Spec.linear (W60 m ρ c (Proc.devRef .tc main_v282)) (wmat 1 sW1 (W60 m ρ c (Proc.devRef .tc main_arg9)))
        (row (vec 1 sV1 (W60 m ρ c (Proc.devRef .tc main_arg10)))) := by
  rw [← lin_x m ρ c, ← lin_w m ρ c, ← lin_b m ρ c]
  exact (W62_arr m ρ c 3).trans (hlin (V61 m ρ) c)

include hlin hnorm in
/-- The layer's output on the kernel's side. -/
theorem kernel : (W66 m ρ c (Proc.devRef .tc main_v300) : SN.Idx → EReal)
    = layer true 1 sW1 sV1 (W60 m ρ c (Proc.devRef .tc main_v282)) (W60 m ρ c (Proc.devRef .tc main_arg9))
        (W60 m ρ c (Proc.devRef .tc main_arg10)) (W60 m ρ c (Proc.devRef .tc main_arg11)) (W60 m ρ c (Proc.devRef .tc main_arg12)) := by
  unfold layer
  rw [← linear_out m ρ c hlin, ← norm_mean m ρ c, ← norm_var m ρ c, ← norm_g m ρ c, ← norm_z m ρ c, ← norm_y m ρ c]
  exact (W66_arr m ρ c 5).trans (hnorm (V65 m ρ) c)

end Cert.Hand.StepNorm4

end
-- ==== Proof.StepNorm4R.lean ====
/-
  Norm layer 4 (the network's layer 10) on the reference's side.  From the layer's input and the four parameter stacks as the
  reference holds them when the layer starts, its operations cut the layer's parameters out, form x · w + b with the bias laid
  along the rows, take the column means and variances of that array as vectors of 64 entries, and normalise with every per-column
  vector laid along the rows (then `max(·,0)` where the layer has it): the array `NormMath.layerV true 1` of those five arrays.
-/
import proofs.«409001_j25520695673361_2_alg».proof.Proof.RefVal
import proofs.«409001_j25520695673361_2_alg».proof.Proof.NormMath

set_option maxRecDepth 4096

noncomputable section

open Idealize.ShloMosaic Idealize.ShloMosaic.TcCoe Idealize.ShloMosaic.ValueIdx Idealize.SL.Sem Idealize.ShloMosaic.StableHlo

namespace Cert.Hand.StepNorm4

open Cert.ReferenceIdeal Cert.ReferenceIdeal.Gen Cert.ReferenceIdeal.Hand Cert.Hand.NormMath Cert.Hand.Spec

/-- Contents moved to a typed reference's buffer type and back are the contents: both moves are along the same equation of types. -/
private theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

set_option maxHeartbeats 4000000 in
/-- What the layer's operations leave in its result, from ANY contents `V` at the layer's start: each operation's result is its
    function of its operands' contents, and a buffer none of them writes is as the layer found it. -/
theorem reference_of (V : Valuation τ sig (Elt Ideal)) :
    (StableHlo.after (rops11 (F := Ideal)) V (Proc.devRef .tc main_v426) : SN.Idx → EReal)
      = layerV true 1 sW1 sV1 (V (Proc.devRef .tc main_v394)) (V (Proc.devRef .tc main_arg9))
          (V (Proc.devRef .tc main_arg10)) (V (Proc.devRef .tc main_arg11)) (V (Proc.devRef .tc main_arg12)) := by
  after_results_simp
  try simp only [ofBuf_toBuf]
  rfl

/-- The layer's output on the reference's side. -/
theorem reference (m' : (ℓ : Loc nD τ sig) → Buf (Elt Ideal) ℓ) (c : Dev nD) :
    (RV12 m' c (Proc.devRef .tc main_v426) : SN.Idx → EReal)
      = layerV true 1 sW1 sV1 (RV11 m' c (Proc.devRef .tc main_v394)) (RV11 m' c (Proc.devRef .tc main_arg9))
          (RV11 m' c (Proc.devRef .tc main_arg10)) (RV11 m' c (Proc.devRef .tc main_arg11)) (RV11 m' c (Proc.devRef .tc main_arg12)) :=
  reference_of (RV11 m' c)

end Cert.Hand.StepNorm4

end
-- ==== Proof.RegLinear20.lean ====
/-
  Region 20 of the network: a Linear layer on all 100000 nodes, run as ten row blocks of 10000 × 64.
  Each grid point reads its row block of x, the whole 64 × 64 weight matrix and the whole 1 × 64 bias row, and leaves
  (x_block · w) + b in its row block of the result.  Read on the extended reals, where the narrowing of both
  factors to bf16 is the identity, the ten blocks together are `Spec.linear x w b`:
    row i, column j  ↦  (Σ_k x[i,k] · w[k,j]) + b[0,j].
  The steps: the block product at an index as a sum over the contraction coordinate (`pay_apply`); each window's
  block as rows of its array (`xblk_apply`, `wblk_eq`, `bblk_eq`); what point t writes back is block t of
  `Spec.linear x w b` (`flushed_eq`); the ten blocks cover the result, row r lying in block r / 10000 (`cover`);
  so the result array is `Spec.linear x w b` (`value`).
-/
import proofs.«409001_j25520695673361_2_alg».proof.Proof.Gen.KernelIdeal.Frame
import proofs.«409001_j25520695673361_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.Hand.RegLinear20

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

/-- Axis 0 of the left factor's index is the output's row. -/
theorem lhs_0 (j : S10000x64.Idx) (k : dot_S10000x64_S64x64_S10000x64_1_0_0_1_n_n.contr.Idx) :
    (dot_S10000x64_S64x64_S10000x64_1_0_0_1_n_n.lhsIdx j k 0).val = (j 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- Axis 1 of the left factor's index is the contraction coordinate. -/
theorem lhs_1 (j : S10000x64.Idx) (k : dot_S10000x64_S64x64_S10000x64_1_0_0_1_n_n.contr.Idx) :
    (dot_S10000x64_S64x64_S10000x64_1_0_0_1_n_n.lhsIdx j k 1).val = (k ⟨0, by decide⟩).val :=
  dot_S10000x64_S64x64_S10000x64_1_0_0_1_n_n.lhsIdx_val_of_single rfl j k

/-- Axis 0 of the right factor's index is the contraction coordinate. -/
theorem rhs_0 (j : S10000x64.Idx) (k : dot_S10000x64_S64x64_S10000x64_1_0_0_1_n_n.contr.Idx) :
    (dot_S10000x64_S64x64_S10000x64_1_0_0_1_n_n.rhsIdx j k 0).val = (k ⟨0, by decide⟩).val :=
  dot_S10000x64_S64x64_S10000x64_1_0_0_1_n_n.rhsIdx_val_of_single rfl j k

/-- Axis 1 of the right factor's index is the output's column. -/
theorem rhs_1 (j : S10000x64.Idx) (k : dot_S10000x64_S64x64_S10000x64_1_0_0_1_n_n.contr.Idx) :
    (dot_S10000x64_S64x64_S10000x64_1_0_0_1_n_n.rhsIdx j k 1).val = (j 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- What the body stores, at row p and column q of the block: the row of the first block times the column of the
    second, summed over the 64 contraction coordinates, plus the bias row's entry in that column. On the extended reals
    the two narrowings to bf16 change nothing and the accumulator's zero splat adds nothing. -/
theorem pay_apply (x0 : Vec Ideal S10000x64 .f32) (x1 : Vec Ideal S64x64 .f32) (x2 : Vec Ideal S1x64 .f32)
    (p : Fin 10000) (q : Fin 64) :
    k20_pay1 (F := Ideal) x0 x1 x2 (ix2 p q) = (∑ k : Fin 64, x0 (ix2 p k) * x1 (ix2 k q)) + x2 (ix2 (0 : Fin 1) q) := by
  unfold k20_pay1
  simp only [shapeCast_self]
  refine congrArg₂ (· + ·) ?_ (broadcastTo_1b_ab_apply x2 broadcasts_S1x64_S10000x64 p q)
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hl : dot_S10000x64_S64x64_S10000x64_1_0_0_1_n_n.lhsIdx (ix2 p q)
      ((contrEquiv1 dot_S10000x64_S64x64_S10000x64_1_0_0_1_n_n 64 rfl rfl).symm k) = ix2 p k := by
    funext a; apply Fin.ext
    match a with
    | ⟨0, _⟩ => exact lhs_0 _ _
    | ⟨1, _⟩ => exact (lhs_1 _ _).trans (contrEquiv1_symm_val dot_S10000x64_S64x64_S10000x64_1_0_0_1_n_n 64 rfl rfl k)
  have hr : dot_S10000x64_S64x64_S10000x64_1_0_0_1_n_n.rhsIdx (ix2 p q)
      ((contrEquiv1 dot_S10000x64_S64x64_S10000x64_1_0_0_1_n_n 64 rfl rfl).symm k) = ix2 k q := by
    funext a; apply Fin.ext
    match a with
    | ⟨0, _⟩ => exact (rhs_0 _ _).trans (contrEquiv1_symm_val dot_S10000x64_S64x64_S10000x64_1_0_0_1_n_n 64 rfl rfl k)
    | ⟨1, _⟩ => exact rhs_1 _ _
  show x0 _ * x1 _ = _
  rw [hl, hr]

/-- One row block of the layer. If the first block is rows `10000 r …` of an array X, the second is W and the third is B,
    then at local index y, which is index i of the whole array, the body's value is `Spec.linear X W B` at i. -/
theorem pay_linear (x0 : Vec Ideal S10000x64 .f32) (x1 : Vec Ideal S64x64 .f32) (x2 : Vec Ideal S1x64 .f32)
    (X : Spec.SN.Idx → EReal) (W : Spec.SW.Idx → EReal) (B : Spec.SR.Idx → EReal) (r : ℕ)
    (hX : ∀ (y : S10000x64.Idx) (i : Spec.SN.Idx), (i 0).val = r * 10000 + (y 0).val → (i 1).val = (y 1).val → x0 y = X i)
    (hW : x1 = W) (hB : x2 = B)
    (y : S10000x64.Idx) (i : Spec.SN.Idx) (h0 : (i 0).val = r * 10000 + (y 0).val) (h1 : (i 1).val = (y 1).val) :
    k20_pay1 (F := Ideal) x0 x1 x2 y = Spec.linear X W B i := by
  obtain ⟨p, q, rfl⟩ : ∃ (p : Fin 10000) (q : Fin 64), y = ix2 p q := ⟨y 0, y 1, eq_ix2 y⟩
  have hq : (i 1 : Fin 64) = q := Fin.ext h1
  subst hW hB
  refine (pay_apply x0 x1 x2 p q).trans ?_
  show _ = (∑ k : Fin 64, X (ix2 (i 0) k) * x1 (ix2 k (i 1))) + x2 (ix2 0 (i 1))
  refine congrArg₂ (· + ·) (Finset.sum_congr rfl fun k _ => congrArg₂ (· * ·) ?_ ?_) ?_
  · exact hX (ix2 p k) (ix2 (i 0) k) h0 rfl
  · exact (congrArg (fun z : Fin 64 => x1 (ix2 k z)) hq).symm
  · exact (congrArg (fun z : Fin 64 => x2 (ix2 (0 : Fin 1) z)) hq).symm

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the ten row blocks: x and the result move down with the point, w and b stay. -/
theorem idx_facts : ∀ t : Fin cfg20.N,
    win20_0.index t (0 : Fin 2) = t.val ∧ win20_0.index t (1 : Fin 2) = 0
    ∧ win20_1.index t (0 : Fin 2) = 0 ∧ win20_1.index t (1 : Fin 2) = 0
    ∧ win20_2.index t (0 : Fin 2) = 0 ∧ win20_2.index t (1 : Fin 2) = 0
    ∧ win20_3.index t (0 : Fin 2) = t.val ∧ win20_3.index t (1 : Fin 2) = 0 :=
  (by decide +kernel : ∀ t : Fin grid20.N, _)

/-- Row block t of x: rows `10000 t … 10000 t + 9999` of the array. -/
theorem xblk_apply (c : Dev nD) (t : Fin cfg20.N) (y : S10000x64.Idx) (i : Spec.SN.Idx)
    (h0 : (i 0).val = t.val * 10000 + (y 0).val) (h1 : (i 1).val = (y 1).val) :
    (iblk20 V c 0 t : Vec Ideal S10000x64 .f32) y = (V c (Pipeline.arrRef spec20 0) : Spec.SN.Idx → EReal) i := by
  obtain ⟨e0, e1, -⟩ := idx_facts t
  unfold iblk20
  rw [View.read_apply]
  show V c (Pipeline.arrRef spec20 0) _ = V c (Pipeline.arrRef spec20 0) _
  refine congrArg _ (funext fun a => Fin.ext ?_)
  match a with
  | ⟨0, _⟩ => show win20_0.index t (0 : Fin 2) * 10000 + 1 * (y 0).val = (i 0).val; omega
  | ⟨1, _⟩ => show win20_0.index t (1 : Fin 2) * 64 + 1 * (y 1).val = (i 1).val; omega

/-- The weights' one block is the whole matrix. -/
theorem wblk_eq (c : Dev nD) (t : Fin cfg20.N) :
    (iblk20 V c 1 t : Vec Ideal S64x64 .f32) = (V c (Pipeline.arrRef spec20 1) : Spec.SW.Idx → EReal) := by
  obtain ⟨-, -, e0, e1, -⟩ := idx_facts t
  funext y
  unfold iblk20
  rw [View.read_apply]
  show V c (Pipeline.arrRef spec20 1) _ = V c (Pipeline.arrRef spec20 1) _
  refine congrArg _ (funext fun a => Fin.ext ?_)
  match a with
  | ⟨0, _⟩ => show win20_1.index t (0 : Fin 2) * 64 + 1 * (y 0).val = (y 0).val; omega
  | ⟨1, _⟩ => show win20_1.index t (1 : Fin 2) * 64 + 1 * (y 1).val = (y 1).val; omega

/-- The bias row's one block is the whole row. -/
theorem bblk_eq (c : Dev nD) (t : Fin cfg20.N) :
    (iblk20 V c 2 t : Vec Ideal S1x64 .f32) = (V c (Pipeline.arrRef spec20 2) : Spec.SR.Idx → EReal) := by
  obtain ⟨-, -, -, -, e0, e1, -⟩ := idx_facts t
  funext y
  unfold iblk20
  rw [View.read_apply]
  show V c (Pipeline.arrRef spec20 2) _ = V c (Pipeline.arrRef spec20 2) _
  refine congrArg _ (funext fun a => Fin.ext ?_)
  match a with
  | ⟨0, _⟩ => show win20_2.index t (0 : Fin 2) * 1 + 1 * (y 0).val = (y 0).val; omega
  | ⟨1, _⟩ => show win20_2.index t (1 : Fin 2) * 64 + 1 * (y 1).val = (y 1).val; omega

/-- What the result array ends holding: the Linear layer of the three arrays as the region finds them. -/
abbrev G (c : Dev nD) : Spec.SN.Idx → EReal :=
  Spec.linear (V c (Pipeline.arrRef spec20 0)) (V c (Pipeline.arrRef spec20 1)) (V c (Pipeline.arrRef spec20 2))

/-- What point t writes back is block t of `G`. -/
theorem flushed_eq (c : Dev nD) (t : Fin cfg20.N) :
    (dat20 V c).flushed 3 t = ((cfg20.win 3).blk t).view.read (Elt Ideal) (G V c) := by
  show (cfg20.win 3).cut (grid20.coords t) ((dat20 V c).after 3 t) = _
  rw [after20_3]
  unfold out20_3
  rw [View.canon_unit_zero hz]
  simp only [View.ld_unit_zero (S := S10000x64) hz, View.ld_unit_zero (S := S64x64) hz, View.ld_unit_zero (S := S1x64) hz]
  obtain ⟨-, -, -, -, -, -, e0, e1⟩ := idx_facts t
  funext y
  rw [View.read_apply]
  show k20_pay1 (F := Ideal) (iblk20 V c 0 t) (iblk20 V c 1 t) (iblk20 V c 2 t) ((cfg20.win 3).xinj (grid20.coords t) y)
    = G V c (((cfg20.win 3).blk t).view.emb y)
  exact pay_linear (iblk20 V c 0 t) (iblk20 V c 1 t) (iblk20 V c 2 t)
    (V c (Pipeline.arrRef spec20 0)) (V c (Pipeline.arrRef spec20 1)) (V c (Pipeline.arrRef spec20 2)) t.val
    (xblk_apply V c t) (wblk_eq V c t) (bblk_eq V c t)
    ((cfg20.win 3).xinj (grid20.coords t) y) (((cfg20.win 3).blk t).view.emb y)
    (by show win20_3.index t (0 : Fin 2) * 10000 + 1 * (y 0).val = t.val * 10000 + (y 0).val; omega)
    (by show win20_3.index t (1 : Fin 2) * 64 + 1 * (y 1).val = (y 1).val; omega)

/-- An index of the result is in point t's block iff each coordinate is in the block's range on its axis. -/
theorem mem_blk (t : Fin cfg20.N) (i : S100000x64.Idx) :
    i ∈ ((cfg20.win 3).blk t).view.set ↔ ∀ a : Fin 2, win20_3.index t a * S10000x64.size a ≤ (i a).val ∧ (i a).val < win20_3.index t a * S10000x64.size a + S10000x64.size a := by
  show i ∈ ((View.whole main_v288).slice (win20_3.rect t)).set ↔ _
  rw [View.set_slice_whole, Rect.mem_set_unit]
  exact Iff.rfl

/-- The ten row blocks cover the result: row r is in block r / 10000. -/
theorem cover (i : S100000x64.Idx) : ∃ t : Fin cfg20.N, (cfg20.win 3).flush t = true ∧ i ∈ ((cfg20.win 3).blk t).view.set := by
  have hi0 : (i 0).val < 100000 := (i 0).isLt
  have hi1 : (i 1).val < 64 := (i 1).isLt
  have hN : grid20.N = 10 := N_20
  let t : Fin cfg20.N := ⟨(i 0).val / 10000, by show _ < grid20.N; omega⟩
  obtain ⟨-, -, -, -, -, -, e0, e1⟩ := idx_facts t
  refine ⟨t, flush20_3 t, ?_⟩
  rw [mem_blk]
  intro a
  match a with
  | ⟨0, _⟩ => show win20_3.index t (0 : Fin 2) * 10000 ≤ (i 0).val ∧ (i 0).val < win20_3.index t (0 : Fin 2) * 10000 + 10000
              have : t.val = (i 0).val / 10000 := rfl
              omega
  | ⟨1, _⟩ => show win20_3.index t (1 : Fin 2) * 64 ≤ (i 1).val ∧ (i 1).val < win20_3.index t (1 : Fin 2) * 64 + 64; omega

/-- The region's result: after its ten write-backs the output array is the Linear layer of the three input arrays as
    the region finds them. -/
theorem value (c : Dev nD) :
    (dat20 (F := Ideal) V c).arrAt 3 cfg20.N
      = Spec.linear (V c (Pipeline.arrRef spec20 0)) (V c (Pipeline.arrRef spec20 1)) (V c (Pipeline.arrRef spec20 2)) :=
  (dat20 V c).arrAt_eq_of_cover 3 (G V c) (fun t _ => flushed_eq V c t) cover

end Cert.Hand.RegLinear20

end
-- ==== Proof.RegNorm21.lean ====
/-
  Region 21: batch normalisation followed by max(·, 0), read as ONE function of the five arrays it reads.

  The region walks the 100000 × 64 array x in ten blocks of 10000 rows; the column mean μ, the column variance v, the
  scale g and the shift β are 1 × 64 rows read whole at every block.  At row p, column q of block t the body stores
  max((((x − μ_q) · rsqrt(v_q + ε)) · g_q) + β_q, 0), with x taken at row 10000·t + p, column q, of the array: the rows
  are broadcast down the block, every operation is elementwise, and ε is the splat of the f32 word 0x3727C5AC.  Block t is
  written back to rows 10000·t … 10000·t + 9999 of the output, so the ten blocks tile the output (row r lies in block
  r / 10000) and the output ends as `Spec.normalize true x μ v g β`.
-/
import proofs.«409001_j25520695673361_2_alg».proof.Proof.Gen.KernelIdeal.Frame
import proofs.«409001_j25520695673361_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Hand.RegNorm21

open Idealize.ShloMosaic Idealize.ShloMosaic.TcCoe Idealize.ShloMosaic.ValueIdx Idealize.SL.Sem
open Idealize.ShloMosaic.Pipeline (Dat)
open Cert.KernelIdeal Cert.KernelIdeal.Gen
open Cert.Hand

variable (V : (c : Dev nD) → (b : Ref sig .tc) → Buf (Elt Ideal) ((c : Thread nD τ).loc b))

/-- The zero offsets of a whole-buffer access, as a constant function. -/
theorem hz : (![0, 0] : Fin 2 → Nat) = fun _ => 0 := funext fun a => by fin_cases a <;> rfl

/-! ## The specification read at an index whose column is known -/

/-- `Spec.normalize` at an index of column `q`: only column `q` of the four rows enters. -/
theorem normalize_apply (r : Bool) (x : Spec.SN.Idx → EReal) (μ v g β : Spec.SR.Idx → EReal) (i : Spec.SN.Idx) (q : Fin 64)
    (hq : i 1 = q) :
    Spec.normalize r x μ v g β i
      = Spec.act r ((((x i - μ (ix2 0 q)) * Ideal.rsqrt (v (ix2 0 q) + Spec.eps)) * g (ix2 0 q)) + β (ix2 0 q)) := by
  subst hq; rfl

/-- The normalised value depends on its five entries only. -/
theorem act_congr (r : Bool) {a a' b b' s s' d d' e e' : EReal} (ha : a = a') (hb : b = b') (hs : s = s') (hd : d = d')
    (he : e = e') :
    Spec.act r ((((a - b) * Ideal.rsqrt (s + Spec.eps)) * d) + e)
      = Spec.act r ((((a' - b') * Ideal.rsqrt (s' + Spec.eps)) * d') + e') := by
  subst ha hb hs hd he; rfl

/-! ## The body's stored value at row `p`, column `q` of a block -/

/-- The stored block at `(p, q)`, from the loaded blocks (`v5` the block of x, `v7` the means, `v0` the variances,
    `v13` the scales, `v17` the shifts): every operation is elementwise, and a broadcast row is read at its column. -/
theorem pay_apply (v0 : Vec Ideal S1x64 .f32) (v5 : Vec Ideal S10000x64 .f32) (v7 v13 v17 : Vec Ideal S1x64 .f32)
    (p : Fin 10000) (q : Fin 64) :
    k21_pay1 (F := Ideal) v0 v5 v7 v13 v17 (ix2 p q)
      = Spec.act true ((((v5 (ix2 p q) - v7 (ix2 0 q)) * Ideal.rsqrt (v0 (ix2 0 q) + Spec.eps)) * v13 (ix2 0 q)) + v17 (ix2 0 q)) := by
  unfold k21_pay1 Spec.act Spec.eps
  rw [if_pos rfl]
  simp only [shapeCast_self]
  rw [maximumf_apply, addf_apply, mulf_apply, mulf_apply, subf_apply]
  rw [broadcastTo_1b_ab_apply, broadcastTo_1b_ab_apply, broadcastTo_1b_ab_apply, broadcastTo_1b_ab_apply]
  show max (_ * Ideal.rsqrt (v0 (ix2 0 q) + Ideal.ofBits .f32 0x3727C5AC#32) * _ + _) (Ideal.ofBits .f32 0x00000000#32) = _
  rw [Ideal.ofBits_zero_f32]

/-! ## Where each block sits in its array -/

/-- The block indices at grid point `t`: x's block moves with the output's, which is block `(t, 0)`; the four rows
    stay at block `(0, 0)`. -/
theorem idx_facts : ∀ t : Fin cfg21.N,
      win21_0.index t (0 : Fin 2) = win21_5.index t (0 : Fin 2) ∧ win21_0.index t (1 : Fin 2) = win21_5.index t (1 : Fin 2)
    ∧ win21_5.index t (0 : Fin 2) = t.val ∧ win21_5.index t (1 : Fin 2) = 0
    ∧ win21_1.index t (0 : Fin 2) = 0 ∧ win21_1.index t (1 : Fin 2) = 0
    ∧ win21_2.index t (0 : Fin 2) = 0 ∧ win21_2.index t (1 : Fin 2) = 0
    ∧ win21_3.index t (0 : Fin 2) = 0 ∧ win21_3.index t (1 : Fin 2) = 0
    ∧ win21_4.index t (0 : Fin 2) = 0 ∧ win21_4.index t (1 : Fin 2) = 0 :=
  (by decide +kernel : ∀ t : Fin grid21.N, _)

/-- Entry `(p, q)` of x's block at `t` and entry `(p, q)` of the output's block at `t` have the same array index. -/
theorem emb_x (t : Fin cfg21.N) (p : Fin 10000) (q : Fin 64) :
    ((cfg21.win 0).blk t).view.emb (ix2 p q) = ((cfg21.win 5).blk t).view.emb (ix2 p q) := by
  obtain ⟨a0, a1, -⟩ := idx_facts t
  funext a; apply Fin.ext
  match a with
  | ⟨0, _⟩ => show win21_0.index t (0 : Fin 2) * 10000 + 1 * p.val = win21_5.index t (0 : Fin 2) * 10000 + 1 * p.val; omega
  | ⟨1, _⟩ => show win21_0.index t (1 : Fin 2) * 64 + 1 * q.val = win21_5.index t (1 : Fin 2) * 64 + 1 * q.val; omega

/-- An entry of the output's block keeps its column in the array. -/
theorem emb_out_col (t : Fin cfg21.N) (p : Fin 10000) (q : Fin 64) :
    (((cfg21.win 5).blk t).view.emb (ix2 p q) : Spec.SN.Idx) 1 = q := by
  obtain ⟨-, -, -, e51, -⟩ := idx_facts t
  apply Fin.ext
  show win21_5.index t (1 : Fin 2) * 64 + 1 * q.val = q.val
  omega

/-- The block of the means is the whole row: entry `(0, q)` is the array's. -/
theorem emb_row1 (t : Fin cfg21.N) (q : Fin 64) :
    ((cfg21.win 1).blk t).view.emb (ix2 (0 : Fin 1) q) = (ix2 (0 : Fin 1) q : S1x64.Idx) := by
  obtain ⟨-, -, -, -, r0, r1, -⟩ := idx_facts t
  funext a; apply Fin.ext
  match a with
  | ⟨0, _⟩ => show win21_1.index t (0 : Fin 2) * 1 + 1 * 0 = 0; omega
  | ⟨1, _⟩ => show win21_1.index t (1 : Fin 2) * 64 + 1 * q.val = q.val; omega

/-- The block of the variances is the whole row. -/
theorem emb_row2 (t : Fin cfg21.N) (q : Fin 64) :
    ((cfg21.win 2).blk t).view.emb (ix2 (0 : Fin 1) q) = (ix2 (0 : Fin 1) q : S1x64.Idx) := by
  obtain ⟨-, -, -, -, -, -, r0, r1, -⟩ := idx_facts t
  funext a; apply Fin.ext
  match a with
  | ⟨0, _⟩ => show win21_2.index t (0 : Fin 2) * 1 + 1 * 0 = 0; omega
  | ⟨1, _⟩ => show win21_2.index t (1 : Fin 2) * 64 + 1 * q.val = q.val; omega

/-- The block of the scales is the whole row. -/
theorem emb_row3 (t : Fin cfg21.N) (q : Fin 64) :
    ((cfg21.win 3).blk t).view.emb (ix2 (0 : Fin 1) q) = (ix2 (0 : Fin 1) q : S1x64.Idx) := by
  obtain ⟨-, -, -, -, -, -, -, -, r0, r1, -⟩ := idx_facts t
  funext a; apply Fin.ext
  match a with
  | ⟨0, _⟩ => show win21_3.index t (0 : Fin 2) * 1 + 1 * 0 = 0; omega
  | ⟨1, _⟩ => show win21_3.index t (1 : Fin 2) * 64 + 1 * q.val = q.val; omega

/-- The block of the shifts is the whole row. -/
theorem emb_row4 (t : Fin cfg21.N) (q : Fin 64) :
    ((cfg21.win 4).blk t).view.emb (ix2 (0 : Fin 1) q) = (ix2 (0 : Fin 1) q : S1x64.Idx) := by
  obtain ⟨-, -, -, -, -, -, -, -, -, -, r0, r1⟩ := idx_facts t
  funext a; apply Fin.ext
  match a with
  | ⟨0, _⟩ => show win21_4.index t (0 : Fin 2) * 1 + 1 * 0 = 0; omega
  | ⟨1, _⟩ => show win21_4.index t (1 : Fin 2) * 64 + 1 * q.val = q.val; omega

/-! ## What a grid point stores, against the specification -/

/-- Entry `(p, q)` of what the body stores at point `t` is the specification at the array index of that entry. -/
theorem point_eq (c : Dev nD) (t : Fin cfg21.N) (p : Fin 10000) (q : Fin 64) :
    k21_pay1 (F := Ideal) (iblk21 V c 2 t) (iblk21 V c 0 t) (iblk21 V c 1 t) (iblk21 V c 3 t) (iblk21 V c 4 t) (ix2 p q)
      = Spec.normalize true (V c (Pipeline.arrRef spec21 0)) (V c (Pipeline.arrRef spec21 1)) (V c (Pipeline.arrRef spec21 2))
          (V c (Pipeline.arrRef spec21 3)) (V c (Pipeline.arrRef spec21 4)) (((cfg21.win 5).blk t).view.emb (ix2 p q)) := by
  refine (pay_apply (iblk21 V c 2 t) (iblk21 V c 0 t) (iblk21 V c 1 t) (iblk21 V c 3 t) (iblk21 V c 4 t) p q).trans ?_
  refine Eq.trans ?_ (normalize_apply true (V c (Pipeline.arrRef spec21 0)) (V c (Pipeline.arrRef spec21 1))
    (V c (Pipeline.arrRef spec21 2)) (V c (Pipeline.arrRef spec21 3)) (V c (Pipeline.arrRef spec21 4))
    (((cfg21.win 5).blk t).view.emb (ix2 p q)) q (emb_out_col t p q)).symm
  have hx : iblk21 V c 0 t (ix2 p q) = V c (Pipeline.arrRef spec21 0) (((cfg21.win 5).blk t).view.emb (ix2 p q)) := by
    show V c (Pipeline.arrRef spec21 0) (((cfg21.win 0).blk t).view.emb (ix2 p q)) = _
    rw [emb_x t p q]
  have h1 : iblk21 V c 1 t (ix2 0 q) = V c (Pipeline.arrRef spec21 1) (ix2 0 q) := by
    show V c (Pipeline.arrRef spec21 1) (((cfg21.win 1).blk t).view.emb (ix2 (0 : Fin 1) q)) = _
    rw [emb_row1 t q]
  have h2 : iblk21 V c 2 t (ix2 0 q) = V c (Pipeline.arrRef spec21 2) (ix2 0 q) := by
    show V c (Pipeline.arrRef spec21 2) (((cfg21.win 2).blk t).view.emb (ix2 (0 : Fin 1) q)) = _
    rw [emb_row2 t q]
  have h3 : iblk21 V c 3 t (ix2 0 q) = V c (Pipeline.arrRef spec21 3) (ix2 0 q) := by
    show V c (Pipeline.arrRef spec21 3) (((cfg21.win 3).blk t).view.emb (ix2 (0 : Fin 1) q)) = _
    rw [emb_row3 t q]
  have h4 : iblk21 V c 4 t (ix2 0 q) = V c (Pipeline.arrRef spec21 4) (ix2 0 q) := by
    show V c (Pipeline.arrRef spec21 4) (((cfg21.win 4).blk t).view.emb (ix2 (0 : Fin 1) q)) = _
    rw [emb_row4 t q]
  exact act_congr true hx h1 h2 h3 h4

/-- WHAT POINT `t` WRITES BACK is block `t` of the specification of the arrays as the region finds them. -/
theorem flushed_eq (c : Dev nD) (t : Fin cfg21.N) :
    (dat21 (F := Ideal) V c).flushed 5 t
      = ((cfg21.win 5).blk t).view.read (Elt Ideal)
          (Spec.normalize true (V c (Pipeline.arrRef spec21 0)) (V c (Pipeline.arrRef spec21 1)) (V c (Pipeline.arrRef spec21 2))
            (V c (Pipeline.arrRef spec21 3)) (V c (Pipeline.arrRef spec21 4))) := by
  show (cfg21.win 5).cut (grid21.coords t) ((dat21 (F := Ideal) V c).after 5 t) = _
  rw [after21_5]
  unfold out21_5
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 (n0 := 10000) (n1 := 64) j⟩
  exact point_eq V c t p q

/-! ## The blocks tile the output -/

/-- An index of the output array is in point `t`'s block iff each coordinate is in the block's range on its axis. -/
theorem mem_blk (t : Fin cfg21.N) (i : S100000x64.Idx) :
    i ∈ ((cfg21.win 5).blk t).view.set ↔ ∀ a : Fin 2, win21_5.index t a * S10000x64.size a ≤ (i a).val ∧ (i a).val < win21_5.index t a * S10000x64.size a + S10000x64.size a := by
  show i ∈ ((View.whole main_v300).slice (win21_5.rect t)).set ↔ _
  rw [View.set_slice_whole, Rect.mem_set_unit]
  exact Iff.rfl

/-- Row `r` of the output lies in the block of point `r / 10000`, and every point writes its block back. -/
theorem cover (i : S100000x64.Idx) : ∃ t : Fin cfg21.N, (cfg21.win 5).flush t = true ∧ i ∈ ((cfg21.win 5).blk t).view.set := by
  have hi0 : (i 0).val < 100000 := (i 0).isLt
  have hi1 : (i 1).val < 64 := (i 1).isLt
  have hN : grid21.N = 10 := N_21
  obtain ⟨t, ht⟩ : ∃ t : Fin cfg21.N, t.val = (i 0).val / 10000 :=
    ⟨⟨(i 0).val / 10000, by show (i 0).val / 10000 < grid21.N; rw [hN]; omega⟩, rfl⟩
  obtain ⟨-, -, e50, e51, -⟩ := idx_facts t
  refine ⟨t, flush21_5 t, ?_⟩
  rw [mem_blk]
  intro a
  match a with
  | ⟨0, _⟩ => show win21_5.index t (0 : Fin 2) * 10000 ≤ (i 0).val ∧ (i 0).val < win21_5.index t (0 : Fin 2) * 10000 + 10000; omega
  | ⟨1, _⟩ => show win21_5.index t (1 : Fin 2) * 64 ≤ (i 1).val ∧ (i 1).val < win21_5.index t (1 : Fin 2) * 64 + 64; omega

/-! ## The region's output array -/

/-- THE OUTPUT ARRAY after the region's ten write-backs is the specification of the five arrays the region reads, as
    the region finds them. -/
theorem value (c : Dev nD) :
    (Gen.dat21 (F := Ideal) V c).arrAt 5 cfg21.N
      = Spec.normalize true (V c (Pipeline.arrRef spec21 0)) (V c (Pipeline.arrRef spec21 1)) (V c (Pipeline.arrRef spec21 2))
          (V c (Pipeline.arrRef spec21 3)) (V c (Pipeline.arrRef spec21 4)) :=
  (dat21 (F := Ideal) V c).arrAt_eq_of_cover 5 _ (fun t _ => flushed_eq V c t) cover

end Cert.Hand.RegNorm21

end
-- ==== Proof.StepNorm4.lean ====
/-
  Norm layer 4 (the network's layer 10): the two programs enter it with the same input array, and hold the same four parameter
  stacks (both still hold their arguments as launched, and the launches agree); each side's output is the one function
  `NormMath.layer true 1` of those five arrays, so the outputs agree.
-/
import proofs.«409001_j25520695673361_2_alg».proof.Proof.StepNorm4K
import proofs.«409001_j25520695673361_2_alg».proof.Proof.StepNorm4R
import proofs.«409001_j25520695673361_2_alg».proof.Proof.RegLinear20
import proofs.«409001_j25520695673361_2_alg».proof.Proof.RegNorm21
import proofs.«409001_j25520695673361_2_alg».proof.Proof.KKeep
import proofs.«409001_j25520695673361_2_alg».proof.Proof.Agree

noncomputable section

open Idealize.ShloMosaic Idealize.ShloMosaic.TcCoe Idealize.SL.Sem

namespace Cert.Hand.StepNorm4

open Cert.Hand.NormMath Cert.Hand.Spec

theorem step (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hagree : Cert.Hand.Agree m m')
    (hin : (Cert.KernelIdeal.Gen.W60 m ρ c (Proc.devRef .tc Cert.KernelIdeal.main_v282) : SN.Idx → EReal)
      = Cert.ReferenceIdeal.Hand.RV11 m' c (Proc.devRef .tc Cert.ReferenceIdeal.main_v394)) :
    (Cert.KernelIdeal.Gen.W66 m ρ c (Proc.devRef .tc Cert.KernelIdeal.main_v300) : SN.Idx → EReal)
      = Cert.ReferenceIdeal.Hand.RV12 m' c (Proc.devRef .tc Cert.ReferenceIdeal.main_v426) := by
  -- the kernel still holds each parameter stack as launched
  have k3 : Cert.KernelIdeal.Gen.W60 m ρ c (Proc.devRef .tc Cert.KernelIdeal.main_arg9)
      = m ((c : Thread Cert.KernelIdeal.nD Cert.KernelIdeal.τ).loc Cert.KernelIdeal.main_arg9) := Cert.KernelIdeal.Hand.W60_arg9 m ρ c
  have k4 : Cert.KernelIdeal.Gen.W60 m ρ c (Proc.devRef .tc Cert.KernelIdeal.main_arg10)
      = m ((c : Thread Cert.KernelIdeal.nD Cert.KernelIdeal.τ).loc Cert.KernelIdeal.main_arg10) := Cert.KernelIdeal.Hand.W60_arg10 m ρ c
  have k5 : Cert.KernelIdeal.Gen.W60 m ρ c (Proc.devRef .tc Cert.KernelIdeal.main_arg11)
      = m ((c : Thread Cert.KernelIdeal.nD Cert.KernelIdeal.τ).loc Cert.KernelIdeal.main_arg11) := Cert.KernelIdeal.Hand.W60_arg11 m ρ c
  have k6 : Cert.KernelIdeal.Gen.W60 m ρ c (Proc.devRef .tc Cert.KernelIdeal.main_arg12)
      = m ((c : Thread Cert.KernelIdeal.nD Cert.KernelIdeal.τ).loc Cert.KernelIdeal.main_arg12) := Cert.KernelIdeal.Hand.W60_arg12 m ρ c
  -- so does the reference, and the launches agree
  have e3 : (Cert.KernelIdeal.Gen.W60 m ρ c (Proc.devRef .tc Cert.KernelIdeal.main_arg9) : S3W.Idx → EReal)
      = Cert.ReferenceIdeal.Hand.RV11 m' c (Proc.devRef .tc Cert.ReferenceIdeal.main_arg9) :=
    k3.trans (((hagree c).2.2.2.2.2.2.2.2.2.1).symm.trans (Cert.ReferenceIdeal.Hand.RV11_arg9 m' c).symm)
  have e4 : (Cert.KernelIdeal.Gen.W60 m ρ c (Proc.devRef .tc Cert.KernelIdeal.main_arg10) : S3V.Idx → EReal)
      = Cert.ReferenceIdeal.Hand.RV11 m' c (Proc.devRef .tc Cert.ReferenceIdeal.main_arg10) :=
    k4.trans (((hagree c).2.2.2.2.2.2.2.2.2.2.1).symm.trans (Cert.ReferenceIdeal.Hand.RV11_arg10 m' c).symm)
  have e5 : (Cert.KernelIdeal.Gen.W60 m ρ c (Proc.devRef .tc Cert.KernelIdeal.main_arg11) : S3V.Idx → EReal)
      = Cert.ReferenceIdeal.Hand.RV11 m' c (Proc.devRef .tc Cert.ReferenceIdeal.main_arg11) :=
    k5.trans (((hagree c).2.2.2.2.2.2.2.2.2.2.2.1).symm.trans (Cert.ReferenceIdeal.Hand.RV11_arg11 m' c).symm)
  have e6 : (Cert.KernelIdeal.Gen.W60 m ρ c (Proc.devRef .tc Cert.KernelIdeal.main_arg12) : S3V.Idx → EReal)
      = Cert.ReferenceIdeal.Hand.RV11 m' c (Proc.devRef .tc Cert.ReferenceIdeal.main_arg12) :=
    k6.trans (((hagree c).2.2.2.2.2.2.2.2.2.2.2.2.1).symm.trans (Cert.ReferenceIdeal.Hand.RV11_arg12 m' c).symm)
  rw [kernel m ρ c (fun V c => Cert.Hand.RegLinear20.value V c) (fun V c => Cert.Hand.RegNorm21.value V c),
    reference m' c, layerV_eq, hin, e3, e4, e5, e6]

end Cert.Hand.StepNorm4

end
-- ==== Proof.StepNorm5K.lean ====
/-
  Norm layer 5 (the network's layer 11) on the kernel's side.  Between the layer's entry and the exit of region 23 the kernel cuts
  the layer's weight matrix and bias out of their stacks, runs the Linear region (region 22) on the layer's input, takes the column
  means and variances of the Linear output on the host as 1×64 rows, cuts out the scale and the shift, and runs the normalisation
  region (region 23).  So the array region 23 leaves is `NormMath.layer false 2` of the layer's input and the four parameter stacks
  as the kernel holds them at the layer's entry.
-/
import proofs.«409001_j25520695673361_2_alg».proof.Proof.Gen.KernelIdeal.Frame
import proofs.«409001_j25520695673361_2_alg».proof.Proof.NormMath
import Idealize.ShloMosaic.Lib.StableHlo.Run

set_option maxRecDepth 16384
set_option maxHeartbeats 1000000

noncomputable section

open Idealize.ShloMosaic Idealize.ShloMosaic.TcCoe Idealize.ShloMosaic.ValueIdx Idealize.SL.Sem Idealize.ShloMosaic.StableHlo

namespace Cert.Hand.StepNorm5

open Cert.KernelIdeal Cert.KernelIdeal.Gen Cert.Hand.NormMath Cert.Hand.Spec

variable (m : (ℓ : Loc nD τ sig) → Buf (Elt Ideal) ℓ) (ρ : Dev nD → PrngReg) (c : Dev nD)

/-! ## What the Linear region finds: the layer's input, and the layer's matrix and bias row cut out on the host -/

theorem lin_x : (W67 m ρ c (Proc.devRef .tc main_v300) : SN.Idx → EReal) = W66 m ρ c (Proc.devRef .tc main_v300) := by
  dsimp only [W67, hostOps22]
  after_results

theorem lin_w : (W67 m ρ c (Proc.devRef .tc main_v302) : SW.Idx → EReal) = wmat 2 sW2 (W66 m ρ c (Proc.devRef .tc main_arg9)) := by
  dsimp only [W67, hostOps22]
  after_results
  rfl

theorem lin_b : (W67 m ρ c (Proc.devRef .tc main_v305) : SR.Idx → EReal) = row (vec 2 sV2 (W66 m ρ c (Proc.devRef .tc main_arg10))) := by
  dsimp only [W67, hostOps22]
  after_results
  rfl

/-! ## What the normalisation region finds -/

/-- The Linear output is not touched between the two regions. -/
theorem norm_y : (W71 m ρ c (Proc.devRef .tc main_v306) : SN.Idx → EReal) = W68 m ρ c (Proc.devRef .tc main_v306) := by
  dsimp only [W71, W70, W69, hostOps23_2, hostOps23_1, hostOps23]
  after_results

/-- The mean row is computed from the Linear output by the first host stretch after the Linear region. -/
theorem norm_mean : (W71 m ρ c (Proc.devRef .tc main_v310) : SR.Idx → EReal) = meanRow (W68 m ρ c (Proc.devRef .tc main_v306)) := by
  dsimp only [W71, W70, W69, hostOps23_2, hostOps23_1, hostOps23]
  after_results
  rfl

/-- The variance row by the second. -/
theorem norm_var : (W71 m ρ c (Proc.devRef .tc main_v311) : SR.Idx → EReal) = varRow (W68 m ρ c (Proc.devRef .tc main_v306)) := by
  dsimp only [W71, W70, W69, hostOps23_2, hostOps23_1, hostOps23]
  after_results_simp
  rfl

/-- The two remaining parameter stacks are as at the layer's entry when the third stretch cuts the scale and the shift out of them. -/
theorem keep_g : W70 m ρ c (Proc.devRef .tc main_arg11) = W66 m ρ c (Proc.devRef .tc main_arg11) := by
  have h1 : W70 m ρ c (Proc.devRef .tc main_arg11) = W68 m ρ c (Proc.devRef .tc main_arg11) := by
    dsimp only [W70, W69, hostOps23_1, hostOps23]
    after_results
  have h2 : W67 m ρ c (Proc.devRef .tc main_arg11) = W66 m ρ c (Proc.devRef .tc main_arg11) := by
    dsimp only [W67, hostOps22]
    after_results
  exact h1.trans ((W68_of_ne m ρ c main_arg11 (by decide)).trans h2)

theorem keep_z : W70 m ρ c (Proc.devRef .tc main_arg12) = W66 m ρ c (Proc.devRef .tc main_arg12) := by
  have h1 : W70 m ρ c (Proc.devRef .tc main_arg12) = W68 m ρ c (Proc.devRef .tc main_arg12) := by
    dsimp only [W70, W69, hostOps23_1, hostOps23]
    after_results
  have h2 : W67 m ρ c (Proc.devRef .tc main_arg12) = W66 m ρ c (Proc.devRef .tc main_arg12) := by
    dsimp only [W67, hostOps22]
    after_results
  exact h1.trans ((W68_of_ne m ρ c main_arg12 (by decide)).trans h2)

theorem norm_g : (W71 m ρ c (Proc.devRef .tc main_v316) : SR.Idx → EReal) = row (vec 2 sV2 (W66 m ρ c (Proc.devRef .tc main_arg11))) := by
  rw [← keep_g m ρ c]
  dsimp only [W71]
  generalize W70 m ρ c = U
  dsimp only [hostOps23_2]
  after_results
  rfl

theorem norm_z : (W71 m ρ c (Proc.devRef .tc main_v317) : SR.Idx → EReal) = row (vec 2 sV2 (W66 m ρ c (Proc.devRef .tc main_arg12))) := by
  rw [← keep_z m ρ c]
  dsimp only [W71]
  generalize W70 m ρ c = U
  dsimp only [hostOps23_2]
  after_results
  rfl

/-! ## The two regions, and the layer

`hlin`, `hnorm`: each region leaves in its output array the stage's function of the arrays it finds in its input windows. -/

variable (hlin : ∀ (V : (c : Dev nD) → (b : Ref sig .tc) → Buf (Elt Ideal) ((c : Thread nD τ).loc b)) (c : Dev nD),
    (dat22 (F := Ideal) V c).arrAt 3 cfg22.N
      = Spec.linear (V c (Pipeline.arrRef spec22 0)) (V c (Pipeline.arrRef spec22 1)) (V c (Pipeline.arrRef spec22 2)))
variable (hnorm : ∀ (V : (c : Dev nD) → (b : Ref sig .tc) → Buf (Elt Ideal) ((c : Thread nD τ).loc b)) (c : Dev nD),
    (dat23 (F := Ideal) V c).arrAt 5 cfg23.N
      = Spec.normalize false (V c (Pipeline.arrRef spec23 0)) (V c (Pipeline.arrRef spec23 1)) (V c (Pipeline.arrRef spec23 2))
          (V c (Pipeline.arrRef spec23 3)) (V c (Pipeline.arrRef spec23 4)))

include hlin in
/-- The Linear region's output. -/
theorem linear_out : (W68 m ρ c (Proc.devRef .tc main_v306) : SN.Idx → EReal)
    = Spec.linear (W66 m ρ c (Proc.devRef .tc main_v300)) (wmat 2 sW2 (W66 m ρ c (Proc.devRef .tc main_arg9)))
        (row (vec 2 sV2 (W66 m ρ c (Proc.devRef .tc main_arg10)))) := by
  rw [← lin_x m ρ c, ← lin_w m ρ c, ← lin_b m ρ c]
  exact (W68_arr m ρ c 3).trans (hlin (V67 m ρ) c)

include hlin hnorm in
/-- The layer's output on the kernel's side. -/
theorem kernel : (W72 m ρ c (Proc.devRef .tc main_v318) : SN.Idx → EReal)
    = layer false 2 sW2 sV2 (W66 m ρ c (Proc.devRef .tc main_v300)) (W66 m ρ c (Proc.devRef .tc main_arg9))
        (W66 m ρ c (Proc.devRef .tc main_arg10)) (W66 m ρ c (Proc.devRef .tc main_arg11)) (W66 m ρ c (Proc.devRef .tc main_arg12)) := by
  unfold layer
  rw [← linear_out m ρ c hlin, ← norm_mean m ρ c, ← norm_var m ρ c, ← norm_g m ρ c, ← norm_z m ρ c, ← norm_y m ρ c]
  exact (W72_arr m ρ c 5).trans (hnorm (V71 m ρ) c)

end Cert.Hand.StepNorm5

end
-- ==== Proof.StepNorm5R.lean ====
/-
  Norm layer 5 (the network's layer 11) on the reference's side.  From the layer's input and the four parameter stacks as the
  reference holds them when the layer starts, its operations cut the layer's parameters out, form x · w + b with the bias laid
  along the rows, take the column means and variances of that array as vectors of 64 entries, and normalise with every per-column
  vector laid along the rows (then `max(·,0)` where the layer has it): the array `NormMath.layerV false 2` of those five arrays.
-/
import proofs.«409001_j25520695673361_2_alg».proof.Proof.RefVal
import proofs.«409001_j25520695673361_2_alg».proof.Proof.NormMath

set_option maxRecDepth 4096

noncomputable section

open Idealize.ShloMosaic Idealize.ShloMosaic.TcCoe Idealize.ShloMosaic.ValueIdx Idealize.SL.Sem Idealize.ShloMosaic.StableHlo

namespace Cert.Hand.StepNorm5

open Cert.ReferenceIdeal Cert.ReferenceIdeal.Gen Cert.ReferenceIdeal.Hand Cert.Hand.NormMath Cert.Hand.Spec

/-- Contents moved to a typed reference's buffer type and back are the contents: both moves are along the same equation of types. -/
private theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

set_option maxHeartbeats 4000000 in
/-- What the layer's operations leave in its result, from ANY contents `V` at the layer's start: each operation's result is its
    function of its operands' contents, and a buffer none of them writes is as the layer found it. -/
theorem reference_of (V : Valuation τ sig (Elt Ideal)) :
    (StableHlo.after (rops12 (F := Ideal)) V (Proc.devRef .tc main_v457) : SN.Idx → EReal)
      = layerV false 2 sW2 sV2 (V (Proc.devRef .tc main_v426)) (V (Proc.devRef .tc main_arg9))
          (V (Proc.devRef .tc main_arg10)) (V (Proc.devRef .tc main_arg11)) (V (Proc.devRef .tc main_arg12)) := by
  after_results_simp
  try simp only [ofBuf_toBuf]
  rfl

/-- The layer's output on the reference's side. -/
theorem reference (m' : (ℓ : Loc nD τ sig) → Buf (Elt Ideal) ℓ) (c : Dev nD) :
    (RV13 m' c (Proc.devRef .tc main_v457) : SN.Idx → EReal)
      = layerV false 2 sW2 sV2 (RV12 m' c (Proc.devRef .tc main_v426)) (RV12 m' c (Proc.devRef .tc main_arg9))
          (RV12 m' c (Proc.devRef .tc main_arg10)) (RV12 m' c (Proc.devRef .tc main_arg11)) (RV12 m' c (Proc.devRef .tc main_arg12)) :=
  reference_of (RV12 m' c)

end Cert.Hand.StepNorm5

end
-- ==== Proof.RegLinear22.lean ====
/-
  Region 22 of the network: a Linear layer on all 100000 nodes, run as ten row blocks of 10000 × 64.
  Each grid point reads its row block of x, the whole 64 × 64 weight matrix and the whole 1 × 64 bias row, and leaves
  (x_block · w) + b in its row block of the result.  Read on the extended reals, where the narrowing of both
  factors to bf16 is the identity, the ten blocks together are `Spec.linear x w b`:
    row i, column j  ↦  (Σ_k x[i,k] · w[k,j]) + b[0,j].
  The steps: the block product at an index as a sum over the contraction coordinate (`pay_apply`); each window's
  block as rows of its array (`xblk_apply`, `wblk_eq`, `bblk_eq`); what point t writes back is block t of
  `Spec.linear x w b` (`flushed_eq`); the ten blocks cover the result, row r lying in block r / 10000 (`cover`);
  so the result array is `Spec.linear x w b` (`value`).
-/
import proofs.«409001_j25520695673361_2_alg».proof.Proof.Gen.KernelIdeal.Frame
import proofs.«409001_j25520695673361_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.Hand.RegLinear22

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

/-- Axis 0 of the left factor's index is the output's row. -/
theorem lhs_0 (j : S10000x64.Idx) (k : dot_S10000x64_S64x64_S10000x64_1_0_0_1_n_n.contr.Idx) :
    (dot_S10000x64_S64x64_S10000x64_1_0_0_1_n_n.lhsIdx j k 0).val = (j 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- Axis 1 of the left factor's index is the contraction coordinate. -/
theorem lhs_1 (j : S10000x64.Idx) (k : dot_S10000x64_S64x64_S10000x64_1_0_0_1_n_n.contr.Idx) :
    (dot_S10000x64_S64x64_S10000x64_1_0_0_1_n_n.lhsIdx j k 1).val = (k ⟨0, by decide⟩).val :=
  dot_S10000x64_S64x64_S10000x64_1_0_0_1_n_n.lhsIdx_val_of_single rfl j k

/-- Axis 0 of the right factor's index is the contraction coordinate. -/
theorem rhs_0 (j : S10000x64.Idx) (k : dot_S10000x64_S64x64_S10000x64_1_0_0_1_n_n.contr.Idx) :
    (dot_S10000x64_S64x64_S10000x64_1_0_0_1_n_n.rhsIdx j k 0).val = (k ⟨0, by decide⟩).val :=
  dot_S10000x64_S64x64_S10000x64_1_0_0_1_n_n.rhsIdx_val_of_single rfl j k

/-- Axis 1 of the right factor's index is the output's column. -/
theorem rhs_1 (j : S10000x64.Idx) (k : dot_S10000x64_S64x64_S10000x64_1_0_0_1_n_n.contr.Idx) :
    (dot_S10000x64_S64x64_S10000x64_1_0_0_1_n_n.rhsIdx j k 1).val = (j 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- What the body stores, at row p and column q of the block: the row of the first block times the column of the
    second, summed over the 64 contraction coordinates, plus the bias row's entry in that column. On the extended reals
    the two narrowings to bf16 change nothing and the accumulator's zero splat adds nothing. -/
theorem pay_apply (x0 : Vec Ideal S10000x64 .f32) (x1 : Vec Ideal S64x64 .f32) (x2 : Vec Ideal S1x64 .f32)
    (p : Fin 10000) (q : Fin 64) :
    k22_pay1 (F := Ideal) x0 x1 x2 (ix2 p q) = (∑ k : Fin 64, x0 (ix2 p k) * x1 (ix2 k q)) + x2 (ix2 (0 : Fin 1) q) := by
  unfold k22_pay1
  simp only [shapeCast_self]
  refine congrArg₂ (· + ·) ?_ (broadcastTo_1b_ab_apply x2 broadcasts_S1x64_S10000x64 p q)
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hl : dot_S10000x64_S64x64_S10000x64_1_0_0_1_n_n.lhsIdx (ix2 p q)
      ((contrEquiv1 dot_S10000x64_S64x64_S10000x64_1_0_0_1_n_n 64 rfl rfl).symm k) = ix2 p k := by
    funext a; apply Fin.ext
    match a with
    | ⟨0, _⟩ => exact lhs_0 _ _
    | ⟨1, _⟩ => exact (lhs_1 _ _).trans (contrEquiv1_symm_val dot_S10000x64_S64x64_S10000x64_1_0_0_1_n_n 64 rfl rfl k)
  have hr : dot_S10000x64_S64x64_S10000x64_1_0_0_1_n_n.rhsIdx (ix2 p q)
      ((contrEquiv1 dot_S10000x64_S64x64_S10000x64_1_0_0_1_n_n 64 rfl rfl).symm k) = ix2 k q := by
    funext a; apply Fin.ext
    match a with
    | ⟨0, _⟩ => exact (rhs_0 _ _).trans (contrEquiv1_symm_val dot_S10000x64_S64x64_S10000x64_1_0_0_1_n_n 64 rfl rfl k)
    | ⟨1, _⟩ => exact rhs_1 _ _
  show x0 _ * x1 _ = _
  rw [hl, hr]

/-- One row block of the layer. If the first block is rows `10000 r …` of an array X, the second is W and the third is B,
    then at local index y, which is index i of the whole array, the body's value is `Spec.linear X W B` at i. -/
theorem pay_linear (x0 : Vec Ideal S10000x64 .f32) (x1 : Vec Ideal S64x64 .f32) (x2 : Vec Ideal S1x64 .f32)
    (X : Spec.SN.Idx → EReal) (W : Spec.SW.Idx → EReal) (B : Spec.SR.Idx → EReal) (r : ℕ)
    (hX : ∀ (y : S10000x64.Idx) (i : Spec.SN.Idx), (i 0).val = r * 10000 + (y 0).val → (i 1).val = (y 1).val → x0 y = X i)
    (hW : x1 = W) (hB : x2 = B)
    (y : S10000x64.Idx) (i : Spec.SN.Idx) (h0 : (i 0).val = r * 10000 + (y 0).val) (h1 : (i 1).val = (y 1).val) :
    k22_pay1 (F := Ideal) x0 x1 x2 y = Spec.linear X W B i := by
  obtain ⟨p, q, rfl⟩ : ∃ (p : Fin 10000) (q : Fin 64), y = ix2 p q := ⟨y 0, y 1, eq_ix2 y⟩
  have hq : (i 1 : Fin 64) = q := Fin.ext h1
  subst hW hB
  refine (pay_apply x0 x1 x2 p q).trans ?_
  show _ = (∑ k : Fin 64, X (ix2 (i 0) k) * x1 (ix2 k (i 1))) + x2 (ix2 0 (i 1))
  refine congrArg₂ (· + ·) (Finset.sum_congr rfl fun k _ => congrArg₂ (· * ·) ?_ ?_) ?_
  · exact hX (ix2 p k) (ix2 (i 0) k) h0 rfl
  · exact (congrArg (fun z : Fin 64 => x1 (ix2 k z)) hq).symm
  · exact (congrArg (fun z : Fin 64 => x2 (ix2 (0 : Fin 1) z)) hq).symm

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the ten row blocks: x and the result move down with the point, w and b stay. -/
theorem idx_facts : ∀ t : Fin cfg22.N,
    win22_0.index t (0 : Fin 2) = t.val ∧ win22_0.index t (1 : Fin 2) = 0
    ∧ win22_1.index t (0 : Fin 2) = 0 ∧ win22_1.index t (1 : Fin 2) = 0
    ∧ win22_2.index t (0 : Fin 2) = 0 ∧ win22_2.index t (1 : Fin 2) = 0
    ∧ win22_3.index t (0 : Fin 2) = t.val ∧ win22_3.index t (1 : Fin 2) = 0 :=
  (by decide +kernel : ∀ t : Fin grid22.N, _)

/-- Row block t of x: rows `10000 t … 10000 t + 9999` of the array. -/
theorem xblk_apply (c : Dev nD) (t : Fin cfg22.N) (y : S10000x64.Idx) (i : Spec.SN.Idx)
    (h0 : (i 0).val = t.val * 10000 + (y 0).val) (h1 : (i 1).val = (y 1).val) :
    (iblk22 V c 0 t : Vec Ideal S10000x64 .f32) y = (V c (Pipeline.arrRef spec22 0) : Spec.SN.Idx → EReal) i := by
  obtain ⟨e0, e1, -⟩ := idx_facts t
  unfold iblk22
  rw [View.read_apply]
  show V c (Pipeline.arrRef spec22 0) _ = V c (Pipeline.arrRef spec22 0) _
  refine congrArg _ (funext fun a => Fin.ext ?_)
  match a with
  | ⟨0, _⟩ => show win22_0.index t (0 : Fin 2) * 10000 + 1 * (y 0).val = (i 0).val; omega
  | ⟨1, _⟩ => show win22_0.index t (1 : Fin 2) * 64 + 1 * (y 1).val = (i 1).val; omega

/-- The weights' one block is the whole matrix. -/
theorem wblk_eq (c : Dev nD) (t : Fin cfg22.N) :
    (iblk22 V c 1 t : Vec Ideal S64x64 .f32) = (V c (Pipeline.arrRef spec22 1) : Spec.SW.Idx → EReal) := by
  obtain ⟨-, -, e0, e1, -⟩ := idx_facts t
  funext y
  unfold iblk22
  rw [View.read_apply]
  show V c (Pipeline.arrRef spec22 1) _ = V c (Pipeline.arrRef spec22 1) _
  refine congrArg _ (funext fun a => Fin.ext ?_)
  match a with
  | ⟨0, _⟩ => show win22_1.index t (0 : Fin 2) * 64 + 1 * (y 0).val = (y 0).val; omega
  | ⟨1, _⟩ => show win22_1.index t (1 : Fin 2) * 64 + 1 * (y 1).val = (y 1).val; omega

/-- The bias row's one block is the whole row. -/
theorem bblk_eq (c : Dev nD) (t : Fin cfg22.N) :
    (iblk22 V c 2 t : Vec Ideal S1x64 .f32) = (V c (Pipeline.arrRef spec22 2) : Spec.SR.Idx → EReal) := by
  obtain ⟨-, -, -, -, e0, e1, -⟩ := idx_facts t
  funext y
  unfold iblk22
  rw [View.read_apply]
  show V c (Pipeline.arrRef spec22 2) _ = V c (Pipeline.arrRef spec22 2) _
  refine congrArg _ (funext fun a => Fin.ext ?_)
  match a with
  | ⟨0, _⟩ => show win22_2.index t (0 : Fin 2) * 1 + 1 * (y 0).val = (y 0).val; omega
  | ⟨1, _⟩ => show win22_2.index t (1 : Fin 2) * 64 + 1 * (y 1).val = (y 1).val; omega

/-- What the result array ends holding: the Linear layer of the three arrays as the region finds them. -/
abbrev G (c : Dev nD) : Spec.SN.Idx → EReal :=
  Spec.linear (V c (Pipeline.arrRef spec22 0)) (V c (Pipeline.arrRef spec22 1)) (V c (Pipeline.arrRef spec22 2))

/-- What point t writes back is block t of `G`. -/
theorem flushed_eq (c : Dev nD) (t : Fin cfg22.N) :
    (dat22 V c).flushed 3 t = ((cfg22.win 3).blk t).view.read (Elt Ideal) (G V c) := by
  show (cfg22.win 3).cut (grid22.coords t) ((dat22 V c).after 3 t) = _
  rw [after22_3]
  unfold out22_3
  rw [View.canon_unit_zero hz]
  simp only [View.ld_unit_zero (S := S10000x64) hz, View.ld_unit_zero (S := S64x64) hz, View.ld_unit_zero (S := S1x64) hz]
  obtain ⟨-, -, -, -, -, -, e0, e1⟩ := idx_facts t
  funext y
  rw [View.read_apply]
  show k22_pay1 (F := Ideal) (iblk22 V c 0 t) (iblk22 V c 1 t) (iblk22 V c 2 t) ((cfg22.win 3).xinj (grid22.coords t) y)
    = G V c (((cfg22.win 3).blk t).view.emb y)
  exact pay_linear (iblk22 V c 0 t) (iblk22 V c 1 t) (iblk22 V c 2 t)
    (V c (Pipeline.arrRef spec22 0)) (V c (Pipeline.arrRef spec22 1)) (V c (Pipeline.arrRef spec22 2)) t.val
    (xblk_apply V c t) (wblk_eq V c t) (bblk_eq V c t)
    ((cfg22.win 3).xinj (grid22.coords t) y) (((cfg22.win 3).blk t).view.emb y)
    (by show win22_3.index t (0 : Fin 2) * 10000 + 1 * (y 0).val = t.val * 10000 + (y 0).val; omega)
    (by show win22_3.index t (1 : Fin 2) * 64 + 1 * (y 1).val = (y 1).val; omega)

/-- An index of the result is in point t's block iff each coordinate is in the block's range on its axis. -/
theorem mem_blk (t : Fin cfg22.N) (i : S100000x64.Idx) :
    i ∈ ((cfg22.win 3).blk t).view.set ↔ ∀ a : Fin 2, win22_3.index t a * S10000x64.size a ≤ (i a).val ∧ (i a).val < win22_3.index t a * S10000x64.size a + S10000x64.size a := by
  show i ∈ ((View.whole main_v306).slice (win22_3.rect t)).set ↔ _
  rw [View.set_slice_whole, Rect.mem_set_unit]
  exact Iff.rfl

/-- The ten row blocks cover the result: row r is in block r / 10000. -/
theorem cover (i : S100000x64.Idx) : ∃ t : Fin cfg22.N, (cfg22.win 3).flush t = true ∧ i ∈ ((cfg22.win 3).blk t).view.set := by
  have hi0 : (i 0).val < 100000 := (i 0).isLt
  have hi1 : (i 1).val < 64 := (i 1).isLt
  have hN : grid22.N = 10 := N_22
  let t : Fin cfg22.N := ⟨(i 0).val / 10000, by show _ < grid22.N; omega⟩
  obtain ⟨-, -, -, -, -, -, e0, e1⟩ := idx_facts t
  refine ⟨t, flush22_3 t, ?_⟩
  rw [mem_blk]
  intro a
  match a with
  | ⟨0, _⟩ => show win22_3.index t (0 : Fin 2) * 10000 ≤ (i 0).val ∧ (i 0).val < win22_3.index t (0 : Fin 2) * 10000 + 10000
              have : t.val = (i 0).val / 10000 := rfl
              omega
  | ⟨1, _⟩ => show win22_3.index t (1 : Fin 2) * 64 ≤ (i 1).val ∧ (i 1).val < win22_3.index t (1 : Fin 2) * 64 + 64; omega

/-- The region's result: after its ten write-backs the output array is the Linear layer of the three input arrays as
    the region finds them. -/
theorem value (c : Dev nD) :
    (dat22 (F := Ideal) V c).arrAt 3 cfg22.N
      = Spec.linear (V c (Pipeline.arrRef spec22 0)) (V c (Pipeline.arrRef spec22 1)) (V c (Pipeline.arrRef spec22 2)) :=
  (dat22 V c).arrAt_eq_of_cover 3 (G V c) (fun t _ => flushed_eq V c t) cover

end Cert.Hand.RegLinear22

end
-- ==== Proof.RegNorm23.lean ====
/-
  Region 23: batch normalisation with no activation after it, read as ONE function of the five arrays it reads.

  The region walks the 100000 × 64 array x in ten blocks of 10000 rows; the column mean μ, the column variance v, the
  scale g and the shift β are 1 × 64 rows read whole at every block.  At row p, column q of block t the body stores
  (((x − μ_q) · rsqrt(v_q + ε)) · g_q) + β_q, with x taken at row 10000·t + p, column q, of the array: the rows are
  broadcast down the block, every operation is elementwise, and ε is the splat of the f32 word 0x3727C5AC.  Block t is
  written back to rows 10000·t … 10000·t + 9999 of the output, so the ten blocks tile the output (row r lies in block
  r / 10000) and the output ends as `Spec.normalize false x μ v g β`.
-/
import proofs.«409001_j25520695673361_2_alg».proof.Proof.Gen.KernelIdeal.Frame
import proofs.«409001_j25520695673361_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Hand.RegNorm23

open Idealize.ShloMosaic Idealize.ShloMosaic.TcCoe Idealize.ShloMosaic.ValueIdx Idealize.SL.Sem
open Idealize.ShloMosaic.Pipeline (Dat)
open Cert.KernelIdeal Cert.KernelIdeal.Gen
open Cert.Hand

variable (V : (c : Dev nD) → (b : Ref sig .tc) → Buf (Elt Ideal) ((c : Thread nD τ).loc b))

/-- The zero offsets of a whole-buffer access, as a constant function. -/
theorem hz : (![0, 0] : Fin 2 → Nat) = fun _ => 0 := funext fun a => by fin_cases a <;> rfl

/-! ## The specification read at an index whose column is known -/

/-- `Spec.normalize` at an index of column `q`: only column `q` of the four rows enters. -/
theorem normalize_apply (r : Bool) (x : Spec.SN.Idx → EReal) (μ v g β : Spec.SR.Idx → EReal) (i : Spec.SN.Idx) (q : Fin 64)
    (hq : i 1 = q) :
    Spec.normalize r x μ v g β i
      = Spec.act r ((((x i - μ (ix2 0 q)) * Ideal.rsqrt (v (ix2 0 q) + Spec.eps)) * g (ix2 0 q)) + β (ix2 0 q)) := by
  subst hq; rfl

/-- The normalised value depends on its five entries only. -/
theorem act_congr (r : Bool) {a a' b b' s s' d d' e e' : EReal} (ha : a = a') (hb : b = b') (hs : s = s') (hd : d = d')
    (he : e = e') :
    Spec.act r ((((a - b) * Ideal.rsqrt (s + Spec.eps)) * d) + e)
      = Spec.act r ((((a' - b') * Ideal.rsqrt (s' + Spec.eps)) * d') + e') := by
  subst ha hb hs hd he; rfl

/-! ## The body's stored value at row `p`, column `q` of a block -/

/-- The stored block at `(p, q)`, from the loaded blocks (`v5` the block of x, `v7` the means, `v0` the variances,
    `v13` the scales, `v17` the shifts): every operation is elementwise, and a broadcast row is read at its column. -/
theorem pay_apply (v0 : Vec Ideal S1x64 .f32) (v5 : Vec Ideal S10000x64 .f32) (v7 v13 v17 : Vec Ideal S1x64 .f32)
    (p : Fin 10000) (q : Fin 64) :
    k23_pay1 (F := Ideal) v0 v5 v7 v13 v17 (ix2 p q)
      = Spec.act false ((((v5 (ix2 p q) - v7 (ix2 0 q)) * Ideal.rsqrt (v0 (ix2 0 q) + Spec.eps)) * v13 (ix2 0 q)) + v17 (ix2 0 q)) := by
  unfold k23_pay1 Spec.act Spec.eps
  rw [if_neg Bool.false_ne_true]
  simp only [shapeCast_self]
  rw [addf_apply, mulf_apply, mulf_apply, subf_apply]
  rw [broadcastTo_1b_ab_apply, broadcastTo_1b_ab_apply, broadcastTo_1b_ab_apply, broadcastTo_1b_ab_apply]
  rfl

/-! ## Where each block sits in its array -/

/-- The block indices at grid point `t`: x's block moves with the output's, which is block `(t, 0)`; the four rows
    stay at block `(0, 0)`. -/
theorem idx_facts : ∀ t : Fin cfg23.N,
      win23_0.index t (0 : Fin 2) = win23_5.index t (0 : Fin 2) ∧ win23_0.index t (1 : Fin 2) = win23_5.index t (1 : Fin 2)
    ∧ win23_5.index t (0 : Fin 2) = t.val ∧ win23_5.index t (1 : Fin 2) = 0
    ∧ win23_1.index t (0 : Fin 2) = 0 ∧ win23_1.index t (1 : Fin 2) = 0
    ∧ win23_2.index t (0 : Fin 2) = 0 ∧ win23_2.index t (1 : Fin 2) = 0
    ∧ win23_3.index t (0 : Fin 2) = 0 ∧ win23_3.index t (1 : Fin 2) = 0
    ∧ win23_4.index t (0 : Fin 2) = 0 ∧ win23_4.index t (1 : Fin 2) = 0 :=
  (by decide +kernel : ∀ t : Fin grid23.N, _)

/-- Entry `(p, q)` of x's block at `t` and entry `(p, q)` of the output's block at `t` have the same array index. -/
theorem emb_x (t : Fin cfg23.N) (p : Fin 10000) (q : Fin 64) :
    ((cfg23.win 0).blk t).view.emb (ix2 p q) = ((cfg23.win 5).blk t).view.emb (ix2 p q) := by
  obtain ⟨a0, a1, -⟩ := idx_facts t
  funext a; apply Fin.ext
  match a with
  | ⟨0, _⟩ => show win23_0.index t (0 : Fin 2) * 10000 + 1 * p.val = win23_5.index t (0 : Fin 2) * 10000 + 1 * p.val; omega
  | ⟨1, _⟩ => show win23_0.index t (1 : Fin 2) * 64 + 1 * q.val = win23_5.index t (1 : Fin 2) * 64 + 1 * q.val; omega

/-- An entry of the output's block keeps its column in the array. -/
theorem emb_out_col (t : Fin cfg23.N) (p : Fin 10000) (q : Fin 64) :
    (((cfg23.win 5).blk t).view.emb (ix2 p q) : Spec.SN.Idx) 1 = q := by
  obtain ⟨-, -, -, e51, -⟩ := idx_facts t
  apply Fin.ext
  show win23_5.index t (1 : Fin 2) * 64 + 1 * q.val = q.val
  omega

/-- The block of the means is the whole row: entry `(0, q)` is the array's. -/
theorem emb_row1 (t : Fin cfg23.N) (q : Fin 64) :
    ((cfg23.win 1).blk t).view.emb (ix2 (0 : Fin 1) q) = (ix2 (0 : Fin 1) q : S1x64.Idx) := by
  obtain ⟨-, -, -, -, r0, r1, -⟩ := idx_facts t
  funext a; apply Fin.ext
  match a with
  | ⟨0, _⟩ => show win23_1.index t (0 : Fin 2) * 1 + 1 * 0 = 0; omega
  | ⟨1, _⟩ => show win23_1.index t (1 : Fin 2) * 64 + 1 * q.val = q.val; omega

/-- The block of the variances is the whole row. -/
theorem emb_row2 (t : Fin cfg23.N) (q : Fin 64) :
    ((cfg23.win 2).blk t).view.emb (ix2 (0 : Fin 1) q) = (ix2 (0 : Fin 1) q : S1x64.Idx) := by
  obtain ⟨-, -, -, -, -, -, r0, r1, -⟩ := idx_facts t
  funext a; apply Fin.ext
  match a with
  | ⟨0, _⟩ => show win23_2.index t (0 : Fin 2) * 1 + 1 * 0 = 0; omega
  | ⟨1, _⟩ => show win23_2.index t (1 : Fin 2) * 64 + 1 * q.val = q.val; omega

/-- The block of the scales is the whole row. -/
theorem emb_row3 (t : Fin cfg23.N) (q : Fin 64) :
    ((cfg23.win 3).blk t).view.emb (ix2 (0 : Fin 1) q) = (ix2 (0 : Fin 1) q : S1x64.Idx) := by
  obtain ⟨-, -, -, -, -, -, -, -, r0, r1, -⟩ := idx_facts t
  funext a; apply Fin.ext
  match a with
  | ⟨0, _⟩ => show win23_3.index t (0 : Fin 2) * 1 + 1 * 0 = 0; omega
  | ⟨1, _⟩ => show win23_3.index t (1 : Fin 2) * 64 + 1 * q.val = q.val; omega

/-- The block of the shifts is the whole row. -/
theorem emb_row4 (t : Fin cfg23.N) (q : Fin 64) :
    ((cfg23.win 4).blk t).view.emb (ix2 (0 : Fin 1) q) = (ix2 (0 : Fin 1) q : S1x64.Idx) := by
  obtain ⟨-, -, -, -, -, -, -, -, -, -, r0, r1⟩ := idx_facts t
  funext a; apply Fin.ext
  match a with
  | ⟨0, _⟩ => show win23_4.index t (0 : Fin 2) * 1 + 1 * 0 = 0; omega
  | ⟨1, _⟩ => show win23_4.index t (1 : Fin 2) * 64 + 1 * q.val = q.val; omega

/-! ## What a grid point stores, against the specification -/

/-- Entry `(p, q)` of what the body stores at point `t` is the specification at the array index of that entry. -/
theorem point_eq (c : Dev nD) (t : Fin cfg23.N) (p : Fin 10000) (q : Fin 64) :
    k23_pay1 (F := Ideal) (iblk23 V c 2 t) (iblk23 V c 0 t) (iblk23 V c 1 t) (iblk23 V c 3 t) (iblk23 V c 4 t) (ix2 p q)
      = Spec.normalize false (V c (Pipeline.arrRef spec23 0)) (V c (Pipeline.arrRef spec23 1)) (V c (Pipeline.arrRef spec23 2))
          (V c (Pipeline.arrRef spec23 3)) (V c (Pipeline.arrRef spec23 4)) (((cfg23.win 5).blk t).view.emb (ix2 p q)) := by
  refine (pay_apply (iblk23 V c 2 t) (iblk23 V c 0 t) (iblk23 V c 1 t) (iblk23 V c 3 t) (iblk23 V c 4 t) p q).trans ?_
  refine Eq.trans ?_ (normalize_apply false (V c (Pipeline.arrRef spec23 0)) (V c (Pipeline.arrRef spec23 1))
    (V c (Pipeline.arrRef spec23 2)) (V c (Pipeline.arrRef spec23 3)) (V c (Pipeline.arrRef spec23 4))
    (((cfg23.win 5).blk t).view.emb (ix2 p q)) q (emb_out_col t p q)).symm
  have hx : iblk23 V c 0 t (ix2 p q) = V c (Pipeline.arrRef spec23 0) (((cfg23.win 5).blk t).view.emb (ix2 p q)) := by
    show V c (Pipeline.arrRef spec23 0) (((cfg23.win 0).blk t).view.emb (ix2 p q)) = _
    rw [emb_x t p q]
  have h1 : iblk23 V c 1 t (ix2 0 q) = V c (Pipeline.arrRef spec23 1) (ix2 0 q) := by
    show V c (Pipeline.arrRef spec23 1) (((cfg23.win 1).blk t).view.emb (ix2 (0 : Fin 1) q)) = _
    rw [emb_row1 t q]
  have h2 : iblk23 V c 2 t (ix2 0 q) = V c (Pipeline.arrRef spec23 2) (ix2 0 q) := by
    show V c (Pipeline.arrRef spec23 2) (((cfg23.win 2).blk t).view.emb (ix2 (0 : Fin 1) q)) = _
    rw [emb_row2 t q]
  have h3 : iblk23 V c 3 t (ix2 0 q) = V c (Pipeline.arrRef spec23 3) (ix2 0 q) := by
    show V c (Pipeline.arrRef spec23 3) (((cfg23.win 3).blk t).view.emb (ix2 (0 : Fin 1) q)) = _
    rw [emb_row3 t q]
  have h4 : iblk23 V c 4 t (ix2 0 q) = V c (Pipeline.arrRef spec23 4) (ix2 0 q) := by
    show V c (Pipeline.arrRef spec23 4) (((cfg23.win 4).blk t).view.emb (ix2 (0 : Fin 1) q)) = _
    rw [emb_row4 t q]
  exact act_congr false hx h1 h2 h3 h4

/-- WHAT POINT `t` WRITES BACK is block `t` of the specification of the arrays as the region finds them. -/
theorem flushed_eq (c : Dev nD) (t : Fin cfg23.N) :
    (dat23 (F := Ideal) V c).flushed 5 t
      = ((cfg23.win 5).blk t).view.read (Elt Ideal)
          (Spec.normalize false (V c (Pipeline.arrRef spec23 0)) (V c (Pipeline.arrRef spec23 1)) (V c (Pipeline.arrRef spec23 2))
            (V c (Pipeline.arrRef spec23 3)) (V c (Pipeline.arrRef spec23 4))) := by
  show (cfg23.win 5).cut (grid23.coords t) ((dat23 (F := Ideal) V c).after 5 t) = _
  rw [after23_5]
  unfold out23_5
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 (n0 := 10000) (n1 := 64) j⟩
  exact point_eq V c t p q

/-! ## The blocks tile the output -/

/-- An index of the output array is in point `t`'s block iff each coordinate is in the block's range on its axis. -/
theorem mem_blk (t : Fin cfg23.N) (i : S100000x64.Idx) :
    i ∈ ((cfg23.win 5).blk t).view.set ↔ ∀ a : Fin 2, win23_5.index t a * S10000x64.size a ≤ (i a).val ∧ (i a).val < win23_5.index t a * S10000x64.size a + S10000x64.size a := by
  show i ∈ ((View.whole main_v318).slice (win23_5.rect t)).set ↔ _
  rw [View.set_slice_whole, Rect.mem_set_unit]
  exact Iff.rfl

/-- Row `r` of the output lies in the block of point `r / 10000`, and every point writes its block back. -/
theorem cover (i : S100000x64.Idx) : ∃ t : Fin cfg23.N, (cfg23.win 5).flush t = true ∧ i ∈ ((cfg23.win 5).blk t).view.set := by
  have hi0 : (i 0).val < 100000 := (i 0).isLt
  have hi1 : (i 1).val < 64 := (i 1).isLt
  have hN : grid23.N = 10 := N_23
  obtain ⟨t, ht⟩ : ∃ t : Fin cfg23.N, t.val = (i 0).val / 10000 :=
    ⟨⟨(i 0).val / 10000, by show (i 0).val / 10000 < grid23.N; rw [hN]; omega⟩, rfl⟩
  obtain ⟨-, -, e50, e51, -⟩ := idx_facts t
  refine ⟨t, flush23_5 t, ?_⟩
  rw [mem_blk]
  intro a
  match a with
  | ⟨0, _⟩ => show win23_5.index t (0 : Fin 2) * 10000 ≤ (i 0).val ∧ (i 0).val < win23_5.index t (0 : Fin 2) * 10000 + 10000; omega
  | ⟨1, _⟩ => show win23_5.index t (1 : Fin 2) * 64 ≤ (i 1).val ∧ (i 1).val < win23_5.index t (1 : Fin 2) * 64 + 64; omega

/-! ## The region's output array -/

/-- THE OUTPUT ARRAY after the region's ten write-backs is the specification of the five arrays the region reads, as
    the region finds them. -/
theorem value (c : Dev nD) :
    (Gen.dat23 (F := Ideal) V c).arrAt 5 cfg23.N
      = Spec.normalize false (V c (Pipeline.arrRef spec23 0)) (V c (Pipeline.arrRef spec23 1)) (V c (Pipeline.arrRef spec23 2))
          (V c (Pipeline.arrRef spec23 3)) (V c (Pipeline.arrRef spec23 4)) :=
  (dat23 (F := Ideal) V c).arrAt_eq_of_cover 5 _ (fun t _ => flushed_eq V c t) cover

end Cert.Hand.RegNorm23

end
-- ==== Proof.StepNorm5.lean ====
/-
  Norm layer 5 (the network's layer 11): the two programs enter it with the same input array, and hold the same four parameter
  stacks (both still hold their arguments as launched, and the launches agree); each side's output is the one function
  `NormMath.layer false 2` of those five arrays, so the outputs agree.
-/
import proofs.«409001_j25520695673361_2_alg».proof.Proof.StepNorm5K
import proofs.«409001_j25520695673361_2_alg».proof.Proof.StepNorm5R
import proofs.«409001_j25520695673361_2_alg».proof.Proof.RegLinear22
import proofs.«409001_j25520695673361_2_alg».proof.Proof.RegNorm23
import proofs.«409001_j25520695673361_2_alg».proof.Proof.KKeep
import proofs.«409001_j25520695673361_2_alg».proof.Proof.Agree

noncomputable section

open Idealize.ShloMosaic Idealize.ShloMosaic.TcCoe Idealize.SL.Sem

namespace Cert.Hand.StepNorm5

open Cert.Hand.NormMath Cert.Hand.Spec

theorem step (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hagree : Cert.Hand.Agree m m')
    (hin : (Cert.KernelIdeal.Gen.W66 m ρ c (Proc.devRef .tc Cert.KernelIdeal.main_v300) : SN.Idx → EReal)
      = Cert.ReferenceIdeal.Hand.RV12 m' c (Proc.devRef .tc Cert.ReferenceIdeal.main_v426)) :
    (Cert.KernelIdeal.Gen.W72 m ρ c (Proc.devRef .tc Cert.KernelIdeal.main_v318) : SN.Idx → EReal)
      = Cert.ReferenceIdeal.Hand.RV13 m' c (Proc.devRef .tc Cert.ReferenceIdeal.main_v457) := by
  -- the kernel still holds each parameter stack as launched
  have k3 : Cert.KernelIdeal.Gen.W66 m ρ c (Proc.devRef .tc Cert.KernelIdeal.main_arg9)
      = m ((c : Thread Cert.KernelIdeal.nD Cert.KernelIdeal.τ).loc Cert.KernelIdeal.main_arg9) := Cert.KernelIdeal.Hand.W66_arg9 m ρ c
  have k4 : Cert.KernelIdeal.Gen.W66 m ρ c (Proc.devRef .tc Cert.KernelIdeal.main_arg10)
      = m ((c : Thread Cert.KernelIdeal.nD Cert.KernelIdeal.τ).loc Cert.KernelIdeal.main_arg10) := Cert.KernelIdeal.Hand.W66_arg10 m ρ c
  have k5 : Cert.KernelIdeal.Gen.W66 m ρ c (Proc.devRef .tc Cert.KernelIdeal.main_arg11)
      = m ((c : Thread Cert.KernelIdeal.nD Cert.KernelIdeal.τ).loc Cert.KernelIdeal.main_arg11) := Cert.KernelIdeal.Hand.W66_arg11 m ρ c
  have k6 : Cert.KernelIdeal.Gen.W66 m ρ c (Proc.devRef .tc Cert.KernelIdeal.main_arg12)
      = m ((c : Thread Cert.KernelIdeal.nD Cert.KernelIdeal.τ).loc Cert.KernelIdeal.main_arg12) := Cert.KernelIdeal.Hand.W66_arg12 m ρ c
  -- so does the reference, and the launches agree
  have e3 : (Cert.KernelIdeal.Gen.W66 m ρ c (Proc.devRef .tc Cert.KernelIdeal.main_arg9) : S3W.Idx → EReal)
      = Cert.ReferenceIdeal.Hand.RV12 m' c (Proc.devRef .tc Cert.ReferenceIdeal.main_arg9) :=
    k3.trans (((hagree c).2.2.2.2.2.2.2.2.2.1).symm.trans (Cert.ReferenceIdeal.Hand.RV12_arg9 m' c).symm)
  have e4 : (Cert.KernelIdeal.Gen.W66 m ρ c (Proc.devRef .tc Cert.KernelIdeal.main_arg10) : S3V.Idx → EReal)
      = Cert.ReferenceIdeal.Hand.RV12 m' c (Proc.devRef .tc Cert.ReferenceIdeal.main_arg10) :=
    k4.trans (((hagree c).2.2.2.2.2.2.2.2.2.2.1).symm.trans (Cert.ReferenceIdeal.Hand.RV12_arg10 m' c).symm)
  have e5 : (Cert.KernelIdeal.Gen.W66 m ρ c (Proc.devRef .tc Cert.KernelIdeal.main_arg11) : S3V.Idx → EReal)
      = Cert.ReferenceIdeal.Hand.RV12 m' c (Proc.devRef .tc Cert.ReferenceIdeal.main_arg11) :=
    k5.trans (((hagree c).2.2.2.2.2.2.2.2.2.2.2.1).symm.trans (Cert.ReferenceIdeal.Hand.RV12_arg11 m' c).symm)
  have e6 : (Cert.KernelIdeal.Gen.W66 m ρ c (Proc.devRef .tc Cert.KernelIdeal.main_arg12) : S3V.Idx → EReal)
      = Cert.ReferenceIdeal.Hand.RV12 m' c (Proc.devRef .tc Cert.ReferenceIdeal.main_arg12) :=
    k6.trans (((hagree c).2.2.2.2.2.2.2.2.2.2.2.2.1).symm.trans (Cert.ReferenceIdeal.Hand.RV12_arg12 m' c).symm)
  rw [kernel m ρ c (fun V c => Cert.Hand.RegLinear22.value V c) (fun V c => Cert.Hand.RegNorm23.value V c),
    reference m' c, layerV_eq, hin, e3, e4, e5, e6]

end Cert.Hand.StepNorm5

end
-- ==== Proof.ConvTake.lean ====
/-
  The row lookup of the graph convolution, read at in-range indices.

  The kernel fetches rows of the transformed features through a guarded lookup: negative indices are wrapped by the
  table's length, the rows are gathered, and rows whose wrapped index falls outside the table are replaced by a
  not-a-number pattern.  When every index is a valid row number the wrap is the identity and the guard is true
  everywhere, so the guarded lookup is the plain gather of the rows at the wrapped indices.
-/
import proofs.«409001_j25520695673361_2_alg».proof.KernelIdeal
import Idealize.ShloMosaic.Lib.StableHlo.Predicate
import Idealize.ShloMosaic.Lib.ValueIdx

noncomputable section

namespace Cert.Hand.ConvTake

open Idealize.ShloMosaic Idealize.ShloMosaic.ValueIdx Idealize.ShloMosaic.StableHlo.Predicate
open Cert.KernelIdeal Cert.KernelIdeal.Facts₀ Cert.KernelIdeal.Facts

/-! ## Words -/

/-- A conjunction folded over bits that are all set, starting from a set bit, is set. -/
theorem foldl_andi_one {ι : Type} (l : List ι) (g : ι → BitVec 1) (hg : ∀ n, g n = 1#1) :
    l.foldl (fun r n => IntOp.andi r (g n)) 1#1 = 1#1 := by
  induction l with
  | nil => rfl
  | cons a l ih =>
    rw [List.foldl_cons, hg a, show IntOp.andi (1#1) (1#1) = 1#1 from by decide]
    exact ih

/-- A non-negative word is not below zero. -/
theorem slt_zero_of_nonneg {a : BitVec 32} (h : 0 ≤ a.toInt) : IntOp.cmpi .slt a 0#32 = 0#1 := by
  have h0 : (0#32 : BitVec 32).toInt = 0 := by decide
  simp only [IntOp.cmpi, BitVec.slt, h0]
  rw [decide_eq_false (by omega)]
  rfl

/-- A non-negative word is at least zero. -/
theorem sge_zero_of_nonneg {a : BitVec 32} (h : 0 ≤ a.toInt) : IntOp.cmpi .sge a 0#32 = 1#1 := by
  have h0 : (0#32 : BitVec 32).toInt = 0 := by decide
  simp only [IntOp.cmpi, BitVec.sle, h0]
  rw [decide_eq_true h]
  rfl

/-- A word below 100000 is at most 99999. -/
theorem sle_last_of_lt {a : BitVec 32} (h : a.toInt < 100000) : IntOp.cmpi .sle a 99999#32 = 1#1 := by
  have h0 : (99999#32 : BitVec 32).toInt = 99999 := by decide
  simp only [IntOp.cmpi, BitVec.sle, h0]
  rw [decide_eq_true (by omega)]
  rfl

/-! ## Masks and broadcasts -/

/-- A choice under a mask that is set everywhere is its first alternative. -/
theorem select_of_all_one {s : Shape} {α : Type} (c : IVec s 1) (a b : s.Idx → α) (hc : ∀ j, c j = 1#1) :
    select c a b = a := by
  funext j
  rw [select_apply, hc j, select_one]

/-- A broadcast of a mask that is set everywhere is set everywhere. -/
theorem bcast_all_one {s t : Shape} (dims : Fin s.rank → Fin t.rank) (h : s.BroadcastsInDim t dims) (v : IVec s 1)
    (hv : ∀ i, v i = 1#1) (j : t.Idx) : broadcastInDim t dims h v j = 1#1 := hv _

/-- Every entry of a broadcast is an entry of its operand. -/
theorem bcast_forall {s t : Shape} {α : Type} (dims : Fin s.rank → Fin t.rank) (h : s.BroadcastsInDim t dims)
    (v : s.Idx → α) (P : α → Prop) (hv : ∀ e, P (v e)) (p : t.Idx) : P (broadcastInDim t dims h v p) := hv _

/-! ## The lookup, piece by piece (each the printed operations, named) -/

variable [Cert.KernelIdeal.Facts]

/-- Negative indices wrapped by the table's length: `idx < 0 ? idx + 100000 : idx`. -/
def wrap (src : IVec S800000 32) : IVec S800000 32 :=
  select (cmpi .slt src (broadcastInDim S800000 ![] bcast_S_S800000 (constantI S_ 32 0#32)))
    (addi src (broadcastInDim S800000 ![] bcast_S_S800000 (constantI S_ 32 100000#32))) src

/-- The guard, row by row: "0 ≤ index ≤ 99999", conjoined along the one-entry index axis. -/
def rowGuard (idx : IVec S800000x1 32) : IVec S800000 1 :=
  Host.reduce IntOp.andi
    (andi (cmpi .sge idx (broadcastInDim S800000x1 ![] bcast_S_S800000x1 (constantI S_ 32 0#32)))
      (cmpi .sle idx (broadcastInDim S800000x1 ![0, 1] bcast_S1x1_S800000x1_0_1
        (broadcastInDim S1x1 ![1] bcast_S1_S1x1_1 (constantI S1 32 99999#32)))))
    (constantI S_ 1 1#1) reducesTo_S800000x1_S800000_d1 h_S_

/-- The rows of `hw` at a vector of row numbers (StableHLO's gather of whole rows). -/
def rows (hw : FVec Ideal S100000x64 .f32) (idx : IVec S800000 32) : FVec Ideal S800000x64 .f32 :=
  Host.gather gather_S100000x64_S800000x1_S800000x64_1_0_n_n_0_1_164 hw
    (broadcastInDim S800000x1 ![0] bcast_S800000_S800000x1_0 idx)

/-- The rows, with those whose row number fails the guard replaced by the not-a-number pattern. -/
def guardedRows (hw : FVec Ideal S100000x64 .f32) (idx : IVec S800000 32) : FVec Ideal S800000x64 .f32 :=
  select
    (broadcastInDim S800000x64 ![0] bcast_S800000_S800000x64_0
      (rowGuard (broadcastInDim S800000x1 ![0] bcast_S800000_S800000x1_0 idx)))
    (rows hw idx)
    (broadcastInDim S800000x64 ![] bcast_S_S800000x64 (constant (F := Ideal) S_ .f32 0x7FC00000#32))

/-- The kernel's lookup: wrap, then the guarded rows. -/
def takeRows (hw : FVec Ideal S100000x64 .f32) (src : IVec S800000 32) : FVec Ideal S800000x64 .f32 :=
  guardedRows hw (wrap src)

/-! ## At in-range indices -/

/-- An index vector already inside the table is not wrapped: the wrap adds the table's length only below zero. -/
theorem wrap_eq (src : IVec S800000 32) (hr : ∀ e, 0 ≤ (src e).toInt ∧ (src e).toInt < 100000) : wrap src = src := by
  funext e
  unfold wrap
  rw [select_apply]
  have h : cmpi .slt src (broadcastInDim S800000 ![] bcast_S_S800000 (constantI S_ 32 0#32)) e = 0#1 :=
    slt_zero_of_nonneg (hr e).1
  rw [h, select_zero]

/-- With every index in the table the guard is set at every row. -/
theorem guard_row (idx : IVec S800000x1 32) (hr : ∀ p, 0 ≤ (idx p).toInt ∧ (idx p).toInt < 100000) (i : S800000.Idx) :
    rowGuard idx i = 1#1 := by
  unfold rowGuard Host.reduce
  exact foldl_andi_one _ _ fun n => by
    show IntOp.andi (IntOp.cmpi .sge (idx _) 0#32) (IntOp.cmpi .sle (idx _) 99999#32) = 1#1
    rw [sge_zero_of_nonneg (hr _).1, sle_last_of_lt (hr _).2]
    decide

/-- The guarded rows at in-range row numbers are the rows: the guard, spread over the 64 columns, is set everywhere. -/
theorem guardedRows_eq (hw : FVec Ideal S100000x64 .f32) (idx : IVec S800000 32)
    (hr : ∀ e, 0 ≤ (idx e).toInt ∧ (idx e).toInt < 100000) : guardedRows hw idx = rows hw idx := by
  unfold guardedRows
  exact select_of_all_one _ _ _
    (bcast_all_one _ _ _ (guard_row _ (bcast_forall _ _ idx (fun w => 0 ≤ w.toInt ∧ w.toInt < 100000) hr)))

/-- THE LOOKUP at in-range source indices is the bare gather of the rows at the wrapped indices (what the reference
    computes). -/
theorem takeRows_eq_rows (hw : FVec Ideal S100000x64 .f32) (src : IVec S800000 32)
    (hr : ∀ e, 0 ≤ (src e).toInt ∧ (src e).toInt < 100000) : takeRows hw src = rows hw (wrap src) := by
  unfold takeRows
  exact guardedRows_eq hw (wrap src) (by rw [wrap_eq src hr]; exact hr)

end Cert.Hand.ConvTake

end
-- ==== Proof.ConvChain.lean ====
/-
  The message-passing chain of the graph convolution, named once.

  Both programs apply the same operations to the transformed features `hw`, the edge rows `src`, `dst` and the
  inverse square-root degrees `dinv`: the edge weights `dinv[src] · dinv[dst]`, the weighted rows scattered and summed
  by destination, and the self loop `hw · dinv²`.  They are named here as functions of their inputs and never opened:
  a layer's two sides agree because the inputs do.
-/
import proofs.«409001_j25520695673361_2_alg».proof.Proof.ConvTake
import proofs.«409001_j25520695673361_2_alg».proof.Proof.Gen.KernelIdeal

noncomputable section

namespace Cert.Hand.ConvChain

open Idealize.ShloMosaic Idealize.ShloMosaic.ValueIdx
open Cert.KernelIdeal Cert.KernelIdeal.Facts₀ Cert.KernelIdeal.Facts
open Cert.Hand.ConvTake

variable [Cert.KernelIdeal.Facts]

/-- The entries of a vector of 100000 at a vector of (wrapped) positions. -/
def at1 (v : FVec Ideal S100000 .f32) (idx : IVec S800000 32) : FVec Ideal S800000 .f32 :=
  Host.gather gather_S100000_S800000x1_S800000_n_0_n_n_0_1_1 v
    (broadcastInDim S800000x1 ![0] bcast_S800000_S800000x1_0 (wrap idx))

/-- The edge weights: `dinv[src] · dinv[dst]`. -/
def edgeNorm (dinv : FVec Ideal S100000 .f32) (src dst : IVec S800000 32) : FVec Ideal S800000 .f32 :=
  mulf (at1 dinv src) (at1 dinv dst)

/-- The messages `g`, each row scaled by its edge weight, summed into the row its destination names. -/
def agg (g : FVec Ideal S800000x64 .f32) (nrm : FVec Ideal S800000 .f32) (dst : IVec S800000 32) :
    FVec Ideal S100000x64 .f32 :=
  Host.scatterAdd scatter_S100000x64_S800000x1_S800000x64_1_0_0_1
    (broadcastInDim S100000x64 ![] bcast_S_S100000x64 (constant (F := Ideal) S_ .f32 0x00000000#32))
    (broadcastInDim S800000x1 ![0] bcast_S800000_S800000x1_0 dst)
    (mulf g (broadcastInDim S800000x64 ![0, 1] bcast_S800000x1_S800000x64_0_1
      (broadcastInDim S800000x1 ![0] bcast_S800000_S800000x1_0 nrm)))

/-- The self loop: each row of `hw` scaled by its node's `d2`. -/
def selfLoop (hw : FVec Ideal S100000x64 .f32) (d2 : FVec Ideal S100000 .f32) : FVec Ideal S100000x64 .f32 :=
  mulf hw (broadcastInDim S100000x64 ![0, 1] bcast_S100000x1_S100000x64_0_1
    (broadcastInDim S100000x1 ![0] bcast_S100000_S100000x1_0 d2))

end Cert.Hand.ConvChain

end
-- ==== Proof.ConvAlg.lean ====
/-
  The graph convolution's two sides, as values.

  * The kernel's Linear stage adds a bias that is zero: `x·w + 0 = x·w`, the reference's plain matrix product.
  * The kernel's residual sum is `((agg + self) + h) + b`, the reference's `((agg + self) + b) + h`: addition of
    extended reals is commutative and associative, so they agree entry by entry; the rectifier is `max(·, 0)` on both.
  * The reference spreads the bias over the rows by two broadcasts of the flattened bias row; entry (i, j) of the
    result is entry (0, j) of the row.
-/
import proofs.«409001_j25520695673361_2_alg».proof.Proof.Spec
import proofs.«409001_j25520695673361_2_alg».proof.Proof.ConvChain
import Idealize.ShloMosaic.Lib.StackMember
import Idealize.ShloMosaic.Lib.Pipeline.Value
import Idealize.ShloMosaic.PureOps.Ideal.Laws

noncomputable section

namespace Cert.Hand.ConvAlg

open Idealize.ShloMosaic Idealize.ShloMosaic.ValueIdx
open Cert.KernelIdeal
open Cert.Hand.ConvTake Cert.Hand.ConvChain

/-- A Linear layer whose bias row is zero is the matrix product. -/
theorem linear_zero (x : FVec Ideal S100000x64 .f32) (w : FVec Ideal S64x64 .f32) (z : FVec Ideal S1x64 .f32)
    (hz : ∀ i, z i = 0) :
    Spec.linear x w z = Host.dotGeneral (DotDims.plain 100000 64 64) none x w := by
  funext i
  obtain ⟨a, b, rfl⟩ : ∃ (a : Fin 100000) (b : Fin 64), i = ix2 a b := ⟨i 0, i 1, eq_ix2 i⟩
  rw [StackMember.dotGeneral_plain_apply]
  show (∑ k : Fin 64, x (ix2 a k) * w (ix2 k b)) + z (ix2 0 b) = _
  rw [hz, add_zero]

/-- The zero bias, flattened to a row, is zero at every entry. -/
theorem zero_row (h : S_.BroadcastsInDim S64 (![] : Fin 0 → Fin S64.rank)) (h' : S64.ShapeCasts S1x64) (i : S1x64.Idx) :
    shapeCast S1x64 (broadcastInDim S64 ![] h (constant (F := Ideal) S_ .f32 0x00000000#32)) h' i = 0 := by
  show Ideal.ofBits .f32 0x00000000#32 = 0
  exact Ideal.ofBits_zero_f32

/-- The bias row spread over the rows: entry (i, j) is the row's entry (0, j). -/
theorem bias_spread (b : FVec Ideal S1x64 .f32) (h1 : S1x64.ShapeCasts S64)
    (h2 : S64.BroadcastsInDim S1x64 (![1] : Fin 1 → Fin S1x64.rank))
    (h3 : S1x64.BroadcastsInDim S100000x64 (![0, 1] : Fin 2 → Fin S100000x64.rank)) (i : S100000x64.Idx) :
    broadcastInDim S100000x64 ![0, 1] h3 (broadcastInDim S1x64 ![1] h2 (shapeCast S64 b h1)) i = b (ix2 0 (i 1)) := by
  have hv : ∀ v : FVec Ideal S64 .f32,
      broadcastInDim S100000x64 ![0, 1] h3 (broadcastInDim S1x64 ![1] h2 v) i = v (ix1 (i 1)) := by
    intro v
    simp only [broadcastInDim]
    congr 1
    funext a
    match a with
    | ⟨0, _⟩ => first | rfl | (apply Fin.ext; simp)
  rw [hv]
  exact shapeCast_apply b h1 (ix1 (i 1)) (ix2 0 (i 1)) (by
    rw [Shape.rowMajor_val_two, Shape.rowMajor_val_one]
    show 0 * 64 + (i 1).val = (i 1).val
    omega)

/-- The residual sum with the rectifier, in the reference's order of additions. -/
theorem combine_true (a s h B Z : FVec Ideal S100000x64 .f32) (b : FVec Ideal S1x64 .f32)
    (hB : ∀ i, B i = b (ix2 0 (i 1))) (hZ : ∀ i, Z i = 0) :
    Spec.combine true a s h b = maximumf (addf (addf (addf a s) B) h) Z := by
  funext i
  rw [maximumf_apply, addf_apply, addf_apply, addf_apply, hB, hZ]
  show max (((a i + s i) + h i) + b (ix2 0 (i 1))) 0 = _
  rw [add_right_comm (a i + s i) (h i)]

/-- The residual sum without the rectifier, in the reference's order of additions. -/
theorem combine_false (a s h B : FVec Ideal S100000x64 .f32) (b : FVec Ideal S1x64 .f32)
    (hB : ∀ i, B i = b (ix2 0 (i 1))) :
    Spec.combine false a s h b = addf (addf (addf a s) B) h := by
  funext i
  rw [addf_apply, addf_apply, addf_apply, hB]
  show ((a i + s i) + h i) + b (ix2 0 (i 1)) = _
  rw [add_right_comm (a i + s i) (h i)]

/-- A WHOLE CONVOLUTION LAYER with the rectifier: the kernel's value (Linear with a zero bias, the chain, the residual
    sum) is the reference's (matrix product, the same chain, the sum in its own order, the maximum with zero). -/
theorem conv_relu (x : FVec Ideal S100000x64 .f32) (w : FVec Ideal S64x64 .f32) (z b : FVec Ideal S1x64 .f32)
    (hz : ∀ i, z i = 0) (src dst : IVec S800000 32) (dinv : FVec Ideal S100000 .f32)
    (h1 : S1x64.ShapeCasts S64) (h2 : S64.BroadcastsInDim S1x64 (![1] : Fin 1 → Fin S1x64.rank))
    (h3 : S1x64.BroadcastsInDim S100000x64 (![0, 1] : Fin 2 → Fin S100000x64.rank))
    (h4 : S_.BroadcastsInDim S100000x64 (![] : Fin 0 → Fin S100000x64.rank)) :
    Spec.combine true
        (agg (rows (Spec.linear x w z) (wrap src)) (edgeNorm dinv src dst) dst)
        (selfLoop (Spec.linear x w z) (mulf dinv dinv)) x b
      = maximumf
          (addf
            (addf
              (addf
                (agg (rows (Host.dotGeneral (DotDims.plain 100000 64 64) none x w) (wrap src)) (edgeNorm dinv src dst) dst)
                (selfLoop (Host.dotGeneral (DotDims.plain 100000 64 64) none x w) (mulf dinv dinv)))
              (broadcastInDim S100000x64 ![0, 1] h3 (broadcastInDim S1x64 ![1] h2 (shapeCast S64 b h1))))
            x)
          (broadcastInDim S100000x64 ![] h4 (constant (F := Ideal) S_ .f32 0x00000000#32)) := by
  rw [linear_zero x w z hz]
  exact combine_true _ _ _ _ _ _ (bias_spread b h1 h2 h3) (fun i => Ideal.ofBits_zero_f32)

/-- The same without the rectifier (the last convolution layer). -/
theorem conv_id (x : FVec Ideal S100000x64 .f32) (w : FVec Ideal S64x64 .f32) (z b : FVec Ideal S1x64 .f32)
    (hz : ∀ i, z i = 0) (src dst : IVec S800000 32) (dinv : FVec Ideal S100000 .f32)
    (h1 : S1x64.ShapeCasts S64) (h2 : S64.BroadcastsInDim S1x64 (![1] : Fin 1 → Fin S1x64.rank))
    (h3 : S1x64.BroadcastsInDim S100000x64 (![0, 1] : Fin 2 → Fin S100000x64.rank)) :
    Spec.combine false
        (agg (rows (Spec.linear x w z) (wrap src)) (edgeNorm dinv src dst) dst)
        (selfLoop (Spec.linear x w z) (mulf dinv dinv)) x b
      = addf
          (addf
            (addf
              (agg (rows (Host.dotGeneral (DotDims.plain 100000 64 64) none x w) (wrap src)) (edgeNorm dinv src dst) dst)
              (selfLoop (Host.dotGeneral (DotDims.plain 100000 64 64) none x w) (mulf dinv dinv)))
            (broadcastInDim S100000x64 ![0, 1] h3 (broadcastInDim S1x64 ![1] h2 (shapeCast S64 b h1))))
          x := by
  rw [linear_zero x w z hz]
  exact combine_false _ _ _ _ _ (bias_spread b h1 h2 h3)

end Cert.Hand.ConvAlg

end
-- ==== Proof.RegLinear6.lean ====
/-
  Region 6 of the network: a Linear layer on all 100000 nodes, run as ten row blocks of 10000 × 64.
  Each grid point reads its row block of x, the whole 64 × 64 weight matrix and the whole 1 × 64 bias row, and leaves
  (x_block · w) + b in its row block of the result.  Read on the extended reals, where the narrowing of both
  factors to bf16 is the identity, the ten blocks together are `Spec.linear x w b`:
    row i, column j  ↦  (Σ_k x[i,k] · w[k,j]) + b[0,j].
  The steps: the block product at an index as a sum over the contraction coordinate (`pay_apply`); each window's
  block as rows of its array (`xblk_apply`, `wblk_eq`, `bblk_eq`); what point t writes back is block t of
  `Spec.linear x w b` (`flushed_eq`); the ten blocks cover the result, row r lying in block r / 10000 (`cover`);
  so the result array is `Spec.linear x w b` (`value`).
-/
import proofs.«409001_j25520695673361_2_alg».proof.Proof.Gen.KernelIdeal.Frame
import proofs.«409001_j25520695673361_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.Hand.RegLinear6

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

/-- Axis 0 of the left factor's index is the output's row. -/
theorem lhs_0 (j : S10000x64.Idx) (k : dot_S10000x64_S64x64_S10000x64_1_0_0_1_n_n.contr.Idx) :
    (dot_S10000x64_S64x64_S10000x64_1_0_0_1_n_n.lhsIdx j k 0).val = (j 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- Axis 1 of the left factor's index is the contraction coordinate. -/
theorem lhs_1 (j : S10000x64.Idx) (k : dot_S10000x64_S64x64_S10000x64_1_0_0_1_n_n.contr.Idx) :
    (dot_S10000x64_S64x64_S10000x64_1_0_0_1_n_n.lhsIdx j k 1).val = (k ⟨0, by decide⟩).val :=
  dot_S10000x64_S64x64_S10000x64_1_0_0_1_n_n.lhsIdx_val_of_single rfl j k

/-- Axis 0 of the right factor's index is the contraction coordinate. -/
theorem rhs_0 (j : S10000x64.Idx) (k : dot_S10000x64_S64x64_S10000x64_1_0_0_1_n_n.contr.Idx) :
    (dot_S10000x64_S64x64_S10000x64_1_0_0_1_n_n.rhsIdx j k 0).val = (k ⟨0, by decide⟩).val :=
  dot_S10000x64_S64x64_S10000x64_1_0_0_1_n_n.rhsIdx_val_of_single rfl j k

/-- Axis 1 of the right factor's index is the output's column. -/
theorem rhs_1 (j : S10000x64.Idx) (k : dot_S10000x64_S64x64_S10000x64_1_0_0_1_n_n.contr.Idx) :
    (dot_S10000x64_S64x64_S10000x64_1_0_0_1_n_n.rhsIdx j k 1).val = (j 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- What the body stores, at row p and column q of the block: the row of the first block times the column of the
    second, summed over the 64 contraction coordinates, plus the bias row's entry in that column. On the extended reals
    the two narrowings to bf16 change nothing and the accumulator's zero splat adds nothing. -/
theorem pay_apply (x0 : Vec Ideal S10000x64 .f32) (x1 : Vec Ideal S64x64 .f32) (x2 : Vec Ideal S1x64 .f32)
    (p : Fin 10000) (q : Fin 64) :
    k6_pay1 (F := Ideal) x0 x1 x2 (ix2 p q) = (∑ k : Fin 64, x0 (ix2 p k) * x1 (ix2 k q)) + x2 (ix2 (0 : Fin 1) q) := by
  unfold k6_pay1
  simp only [shapeCast_self]
  refine congrArg₂ (· + ·) ?_ (broadcastTo_1b_ab_apply x2 broadcasts_S1x64_S10000x64 p q)
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hl : dot_S10000x64_S64x64_S10000x64_1_0_0_1_n_n.lhsIdx (ix2 p q)
      ((contrEquiv1 dot_S10000x64_S64x64_S10000x64_1_0_0_1_n_n 64 rfl rfl).symm k) = ix2 p k := by
    funext a; apply Fin.ext
    match a with
    | ⟨0, _⟩ => exact lhs_0 _ _
    | ⟨1, _⟩ => exact (lhs_1 _ _).trans (contrEquiv1_symm_val dot_S10000x64_S64x64_S10000x64_1_0_0_1_n_n 64 rfl rfl k)
  have hr : dot_S10000x64_S64x64_S10000x64_1_0_0_1_n_n.rhsIdx (ix2 p q)
      ((contrEquiv1 dot_S10000x64_S64x64_S10000x64_1_0_0_1_n_n 64 rfl rfl).symm k) = ix2 k q := by
    funext a; apply Fin.ext
    match a with
    | ⟨0, _⟩ => exact (rhs_0 _ _).trans (contrEquiv1_symm_val dot_S10000x64_S64x64_S10000x64_1_0_0_1_n_n 64 rfl rfl k)
    | ⟨1, _⟩ => exact rhs_1 _ _
  show x0 _ * x1 _ = _
  rw [hl, hr]

/-- One row block of the layer. If the first block is rows `10000 r …` of an array X, the second is W and the third is B,
    then at local index y, which is index i of the whole array, the body's value is `Spec.linear X W B` at i. -/
theorem pay_linear (x0 : Vec Ideal S10000x64 .f32) (x1 : Vec Ideal S64x64 .f32) (x2 : Vec Ideal S1x64 .f32)
    (X : Spec.SN.Idx → EReal) (W : Spec.SW.Idx → EReal) (B : Spec.SR.Idx → EReal) (r : ℕ)
    (hX : ∀ (y : S10000x64.Idx) (i : Spec.SN.Idx), (i 0).val = r * 10000 + (y 0).val → (i 1).val = (y 1).val → x0 y = X i)
    (hW : x1 = W) (hB : x2 = B)
    (y : S10000x64.Idx) (i : Spec.SN.Idx) (h0 : (i 0).val = r * 10000 + (y 0).val) (h1 : (i 1).val = (y 1).val) :
    k6_pay1 (F := Ideal) x0 x1 x2 y = Spec.linear X W B i := by
  obtain ⟨p, q, rfl⟩ : ∃ (p : Fin 10000) (q : Fin 64), y = ix2 p q := ⟨y 0, y 1, eq_ix2 y⟩
  have hq : (i 1 : Fin 64) = q := Fin.ext h1
  subst hW hB
  refine (pay_apply x0 x1 x2 p q).trans ?_
  show _ = (∑ k : Fin 64, X (ix2 (i 0) k) * x1 (ix2 k (i 1))) + x2 (ix2 0 (i 1))
  refine congrArg₂ (· + ·) (Finset.sum_congr rfl fun k _ => congrArg₂ (· * ·) ?_ ?_) ?_
  · exact hX (ix2 p k) (ix2 (i 0) k) h0 rfl
  · exact (congrArg (fun z : Fin 64 => x1 (ix2 k z)) hq).symm
  · exact (congrArg (fun z : Fin 64 => x2 (ix2 (0 : Fin 1) z)) hq).symm

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the ten row blocks: x and the result move down with the point, w and b stay. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Row block t of x: rows `10000 t … 10000 t + 9999` of the array. -/
theorem xblk_apply (c : Dev nD) (t : Fin cfg6.N) (y : S10000x64.Idx) (i : Spec.SN.Idx)
    (h0 : (i 0).val = t.val * 10000 + (y 0).val) (h1 : (i 1).val = (y 1).val) :
    (iblk6 V c 0 t : Vec Ideal S10000x64 .f32) y = (V c (Pipeline.arrRef spec6 0) : Spec.SN.Idx → EReal) i := by
  obtain ⟨e0, e1, -⟩ := idx_facts t
  unfold iblk6
  rw [View.read_apply]
  show V c (Pipeline.arrRef spec6 0) _ = V c (Pipeline.arrRef spec6 0) _
  refine congrArg _ (funext fun a => Fin.ext ?_)
  match a with
  | ⟨0, _⟩ => show win6_0.index t (0 : Fin 2) * 10000 + 1 * (y 0).val = (i 0).val; omega
  | ⟨1, _⟩ => show win6_0.index t (1 : Fin 2) * 64 + 1 * (y 1).val = (i 1).val; omega

/-- The weights' one block is the whole matrix. -/
theorem wblk_eq (c : Dev nD) (t : Fin cfg6.N) :
    (iblk6 V c 1 t : Vec Ideal S64x64 .f32) = (V c (Pipeline.arrRef spec6 1) : Spec.SW.Idx → EReal) := by
  obtain ⟨-, -, e0, e1, -⟩ := idx_facts t
  funext y
  unfold iblk6
  rw [View.read_apply]
  show V c (Pipeline.arrRef spec6 1) _ = V c (Pipeline.arrRef spec6 1) _
  refine congrArg _ (funext fun a => Fin.ext ?_)
  match a with
  | ⟨0, _⟩ => show win6_1.index t (0 : Fin 2) * 64 + 1 * (y 0).val = (y 0).val; omega
  | ⟨1, _⟩ => show win6_1.index t (1 : Fin 2) * 64 + 1 * (y 1).val = (y 1).val; omega

/-- The bias row's one block is the whole row. -/
theorem bblk_eq (c : Dev nD) (t : Fin cfg6.N) :
    (iblk6 V c 2 t : Vec Ideal S1x64 .f32) = (V c (Pipeline.arrRef spec6 2) : Spec.SR.Idx → EReal) := by
  obtain ⟨-, -, -, -, e0, e1, -⟩ := idx_facts t
  funext y
  unfold iblk6
  rw [View.read_apply]
  show V c (Pipeline.arrRef spec6 2) _ = V c (Pipeline.arrRef spec6 2) _
  refine congrArg _ (funext fun a => Fin.ext ?_)
  match a with
  | ⟨0, _⟩ => show win6_2.index t (0 : Fin 2) * 1 + 1 * (y 0).val = (y 0).val; omega
  | ⟨1, _⟩ => show win6_2.index t (1 : Fin 2) * 64 + 1 * (y 1).val = (y 1).val; omega

/-- What the result array ends holding: the Linear layer of the three arrays as the region finds them. -/
abbrev G (c : Dev nD) : Spec.SN.Idx → EReal :=
  Spec.linear (V c (Pipeline.arrRef spec6 0)) (V c (Pipeline.arrRef spec6 1)) (V c (Pipeline.arrRef spec6 2))

/-- What point t writes back is block t of `G`. -/
theorem flushed_eq (c : Dev nD) (t : Fin cfg6.N) :
    (dat6 V c).flushed 3 t = ((cfg6.win 3).blk t).view.read (Elt Ideal) (G V c) := by
  show (cfg6.win 3).cut (grid6.coords t) ((dat6 V c).after 3 t) = _
  rw [after6_3]
  unfold out6_3
  rw [View.canon_unit_zero hz]
  simp only [View.ld_unit_zero (S := S10000x64) hz, View.ld_unit_zero (S := S64x64) hz, View.ld_unit_zero (S := S1x64) hz]
  obtain ⟨-, -, -, -, -, -, e0, e1⟩ := idx_facts t
  funext y
  rw [View.read_apply]
  show k6_pay1 (F := Ideal) (iblk6 V c 0 t) (iblk6 V c 1 t) (iblk6 V c 2 t) ((cfg6.win 3).xinj (grid6.coords t) y)
    = G V c (((cfg6.win 3).blk t).view.emb y)
  exact pay_linear (iblk6 V c 0 t) (iblk6 V c 1 t) (iblk6 V c 2 t)
    (V c (Pipeline.arrRef spec6 0)) (V c (Pipeline.arrRef spec6 1)) (V c (Pipeline.arrRef spec6 2)) t.val
    (xblk_apply V c t) (wblk_eq V c t) (bblk_eq V c t)
    ((cfg6.win 3).xinj (grid6.coords t) y) (((cfg6.win 3).blk t).view.emb y)
    (by show win6_3.index t (0 : Fin 2) * 10000 + 1 * (y 0).val = t.val * 10000 + (y 0).val; omega)
    (by show win6_3.index t (1 : Fin 2) * 64 + 1 * (y 1).val = (y 1).val; omega)

/-- An index of the result is in point t's block iff each coordinate is in the block's range on its axis. -/
theorem mem_blk (t : Fin cfg6.N) (i : S100000x64.Idx) :
    i ∈ ((cfg6.win 3).blk t).view.set ↔ ∀ a : Fin 2, win6_3.index t a * S10000x64.size a ≤ (i a).val ∧ (i a).val < win6_3.index t a * S10000x64.size a + S10000x64.size a := by
  show i ∈ ((View.whole main_v70).slice (win6_3.rect t)).set ↔ _
  rw [View.set_slice_whole, Rect.mem_set_unit]
  exact Iff.rfl

/-- The ten row blocks cover the result: row r is in block r / 10000. -/
theorem cover (i : S100000x64.Idx) : ∃ t : Fin cfg6.N, (cfg6.win 3).flush t = true ∧ i ∈ ((cfg6.win 3).blk t).view.set := by
  have hi0 : (i 0).val < 100000 := (i 0).isLt
  have hi1 : (i 1).val < 64 := (i 1).isLt
  have hN : grid6.N = 10 := N_6
  let t : Fin cfg6.N := ⟨(i 0).val / 10000, by show _ < grid6.N; omega⟩
  obtain ⟨-, -, -, -, -, -, e0, e1⟩ := idx_facts t
  refine ⟨t, flush6_3 t, ?_⟩
  rw [mem_blk]
  intro a
  match a with
  | ⟨0, _⟩ => show win6_3.index t (0 : Fin 2) * 10000 ≤ (i 0).val ∧ (i 0).val < win6_3.index t (0 : Fin 2) * 10000 + 10000
              have : t.val = (i 0).val / 10000 := rfl
              omega
  | ⟨1, _⟩ => show win6_3.index t (1 : Fin 2) * 64 ≤ (i 1).val ∧ (i 1).val < win6_3.index t (1 : Fin 2) * 64 + 64; omega

/-- The region's result: after its ten write-backs the output array is the Linear layer of the three input arrays as
    the region finds them. -/
theorem value (c : Dev nD) :
    (dat6 (F := Ideal) V c).arrAt 3 cfg6.N
      = Spec.linear (V c (Pipeline.arrRef spec6 0)) (V c (Pipeline.arrRef spec6 1)) (V c (Pipeline.arrRef spec6 2)) :=
  (dat6 V c).arrAt_eq_of_cover 3 (G V c) (fun t _ => flushed_eq V c t) cover

end Cert.Hand.RegLinear6

end
-- ==== Proof.RegCombine7.lean ====
/-
  Region 7: the graph convolution's residual sum with the rectifier.  Ten grid points; point t takes rows
  10000·t … 10000·t + 9999 of the aggregated neighbours, of the self loop and of the residual input, and the whole
  1×64 bias row, and writes back rows 10000·t … of the output: entry (r, j) is
  max(((a[r,j] + s[r,j]) + h[r,j]) + b[0,j], 0).  The ten row blocks tile the 100000 rows, so the output array ends
  as that one function of the four arrays the region finds.
-/
import proofs.«409001_j25520695673361_2_alg».proof.Proof.Gen.KernelIdeal.Frame
import proofs.«409001_j25520695673361_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.Hand.RegCombine7

open Cert.KernelIdeal Cert.KernelIdeal.Gen

/-- The store's and the loads' offsets are zero on both axes. -/
theorem hz : (![0, 0] : Fin 2 → Nat) = fun _ => 0 := funext fun a => by fin_cases a <;> rfl

/-- One entry of the body's result on a block: the entries of the three blocks added in order, the entry of the bias row
    in that column added, and the maximum of that with zero (the zero word denotes the real number zero). -/
theorem pay_apply (x0 x1 x2 : Vec Ideal S10000x64 .f32) (x3 : Vec Ideal S1x64 .f32) (p : Fin 10000) (q : Fin 64) :
    k7_pay1 (F := Ideal) x0 x1 x2 x3 (ix2 p q)
      = max (((x0 (ix2 p q) + x1 (ix2 p q)) + x2 (ix2 p q)) + x3 (ix2 (0 : Fin 1) q)) 0 := by
  unfold k7_pay1
  simp only [shapeCast_self]
  rw [maximumf_apply, addf_apply, addf_apply, addf_apply, broadcast_apply, broadcastTo_1b_ab_apply]
  show max _ (Ideal.ofBits .f32 0x00000000#32) = _
  rw [Ideal.ofBits_zero_f32]

/-- The same entry against the specification: when the three blocks' entries at (p, q) are the arrays' entries at `i` and
    the bias block's entry at (0, q) is the bias array's entry in `i`'s column, the body's entry is the sum's at `i`. -/
theorem pay_spec (x0 x1 x2 : Vec Ideal S10000x64 .f32) (x3 : Vec Ideal S1x64 .f32)
    (a s h : Spec.SN.Idx → EReal) (b : Spec.SR.Idx → EReal) (p : Fin 10000) (q : Fin 64) (i : Spec.SN.Idx)
    (h0 : x0 (ix2 p q) = a i) (h1 : x1 (ix2 p q) = s i) (h2 : x2 (ix2 p q) = h i)
    (h3 : x3 (ix2 (0 : Fin 1) q) = b (ix2 0 (i 1))) :
    k7_pay1 (F := Ideal) x0 x1 x2 x3 (ix2 p q) = Spec.combine true a s h b i := by
  rw [pay_apply, h0, h1, h2, h3]
  rfl

/-- Where each window's block sits at grid point `t`: the three node arrays and the output move down one row block per
    point and stay in column block 0; the bias row's block never moves. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

variable (V : (c : Dev nD) → (b : Ref sig .tc) → Buf (Elt Ideal) ((c : Thread nD τ).loc b))

/-- Entry (p, q) of the aggregated neighbours' block at point `t` is that array's entry at entry (p, q) of the output's block:
    both blocks are rows 10000·t … 10000·t + 9999 and all 64 columns. -/
theorem blk0_apply (c : Dev nD) (t : Fin cfg7.N) (p : Fin 10000) (q : Fin 64) :
    (iblk7 V c 0 t : Vec Ideal S10000x64 .f32) (ix2 p q)
      = V c (Pipeline.arrRef spec7 0) (((cfg7.win 4).blk t).view.emb (ix2 p q)) := by
  obtain ⟨f00, f01, f10, f11, f20, f21, f30, f31, f40, f41⟩ := idx_facts t
  have hp : p.val < 10000 := p.isLt
  have hq : q.val < 64 := q.isLt
  have e : ((cfg7.win 0).blk t).view.emb (ix2 p q) = ((cfg7.win 4).blk t).view.emb (ix2 p q) := by
    funext a; apply Fin.ext
    match a with
    | ⟨0, _⟩ => show win7_0.index t (0 : Fin 2) * 10000 + 1 * p.val = win7_4.index t (0 : Fin 2) * 10000 + 1 * p.val; omega
    | ⟨1, _⟩ => show win7_0.index t (1 : Fin 2) * 64 + 1 * q.val = win7_4.index t (1 : Fin 2) * 64 + 1 * q.val; omega
  show V c (Pipeline.arrRef spec7 0) (((cfg7.win 0).blk t).view.emb (ix2 p q)) = _
  rw [e]

/-- The same for the self loop's block. -/
theorem blk1_apply (c : Dev nD) (t : Fin cfg7.N) (p : Fin 10000) (q : Fin 64) :
    (iblk7 V c 1 t : Vec Ideal S10000x64 .f32) (ix2 p q)
      = V c (Pipeline.arrRef spec7 1) (((cfg7.win 4).blk t).view.emb (ix2 p q)) := by
  obtain ⟨f00, f01, f10, f11, f20, f21, f30, f31, f40, f41⟩ := idx_facts t
  have hp : p.val < 10000 := p.isLt
  have hq : q.val < 64 := q.isLt
  have e : ((cfg7.win 1).blk t).view.emb (ix2 p q) = ((cfg7.win 4).blk t).view.emb (ix2 p q) := by
    funext a; apply Fin.ext
    match a with
    | ⟨0, _⟩ => show win7_1.index t (0 : Fin 2) * 10000 + 1 * p.val = win7_4.index t (0 : Fin 2) * 10000 + 1 * p.val; omega
    | ⟨1, _⟩ => show win7_1.index t (1 : Fin 2) * 64 + 1 * q.val = win7_4.index t (1 : Fin 2) * 64 + 1 * q.val; omega
  show V c (Pipeline.arrRef spec7 1) (((cfg7.win 1).blk t).view.emb (ix2 p q)) = _
  rw [e]

/-- The same for the residual input's block. -/
theorem blk2_apply (c : Dev nD) (t : Fin cfg7.N) (p : Fin 10000) (q : Fin 64) :
    (iblk7 V c 2 t : Vec Ideal S10000x64 .f32) (ix2 p q)
      = V c (Pipeline.arrRef spec7 2) (((cfg7.win 4).blk t).view.emb (ix2 p q)) := by
  obtain ⟨f00, f01, f10, f11, f20, f21, f30, f31, f40, f41⟩ := idx_facts t
  have hp : p.val < 10000 := p.isLt
  have hq : q.val < 64 := q.isLt
  have e : ((cfg7.win 2).blk t).view.emb (ix2 p q) = ((cfg7.win 4).blk t).view.emb (ix2 p q) := by
    funext a; apply Fin.ext
    match a with
    | ⟨0, _⟩ => show win7_2.index t (0 : Fin 2) * 10000 + 1 * p.val = win7_4.index t (0 : Fin 2) * 10000 + 1 * p.val; omega
    | ⟨1, _⟩ => show win7_2.index t (1 : Fin 2) * 64 + 1 * q.val = win7_4.index t (1 : Fin 2) * 64 + 1 * q.val; omega
  show V c (Pipeline.arrRef spec7 2) (((cfg7.win 2).blk t).view.emb (ix2 p q)) = _
  rw [e]

/-- The bias row's block is the whole row at every point: its entry (0, q) is the bias array's entry (0, column of the
    output's entry). -/
theorem blk3_apply (c : Dev nD) (t : Fin cfg7.N) (p : Fin 10000) (q : Fin 64) :
    (iblk7 V c 3 t : Vec Ideal S1x64 .f32) (ix2 (0 : Fin 1) q)
      = V c (Pipeline.arrRef spec7 3) (ix2 (0 : Fin 1) ((((cfg7.win 4).blk t).view.emb (ix2 p q) : Spec.SN.Idx) 1)) := by
  obtain ⟨f00, f01, f10, f11, f20, f21, f30, f31, f40, f41⟩ := idx_facts t
  have hp : p.val < 10000 := p.isLt
  have hq : q.val < 64 := q.isLt
  have e : ((cfg7.win 3).blk t).view.emb (ix2 (0 : Fin 1) q)
      = ix2 (0 : Fin 1) ((((cfg7.win 4).blk t).view.emb (ix2 p q) : Spec.SN.Idx) 1) := by
    funext a; apply Fin.ext
    match a with
    | ⟨0, _⟩ => show win7_3.index t (0 : Fin 2) * 1 + 1 * 0 = 0; omega
    | ⟨1, _⟩ => show win7_3.index t (1 : Fin 2) * 64 + 1 * q.val = win7_4.index t (1 : Fin 2) * 64 + 1 * q.val; omega
  show V c (Pipeline.arrRef spec7 3) (((cfg7.win 3).blk t).view.emb (ix2 (0 : Fin 1) q)) = _
  exact congrArg (V c (Pipeline.arrRef spec7 3)) e

/-- Entry (p, q) of what the body leaves at point `t` is the sum of the four arrays at entry (p, q) of the output's block. -/
theorem point_eq (c : Dev nD) (t : Fin cfg7.N) (p : Fin 10000) (q : Fin 64) :
    k7_pay1 (F := Ideal) (iblk7 V c 0 t) (iblk7 V c 1 t) (iblk7 V c 2 t) (iblk7 V c 3 t) (ix2 p q)
      = Spec.combine true (V c (Pipeline.arrRef spec7 0)) (V c (Pipeline.arrRef spec7 1))
          (V c (Pipeline.arrRef spec7 2)) (V c (Pipeline.arrRef spec7 3)) (((cfg7.win 4).blk t).view.emb (ix2 p q)) :=
  pay_spec (iblk7 V c 0 t) (iblk7 V c 1 t) (iblk7 V c 2 t) (iblk7 V c 3 t)
    (V c (Pipeline.arrRef spec7 0)) (V c (Pipeline.arrRef spec7 1)) (V c (Pipeline.arrRef spec7 2))
    (V c (Pipeline.arrRef spec7 3)) p q (((cfg7.win 4).blk t).view.emb (ix2 p q))
    (blk0_apply V c t p q) (blk1_apply V c t p q) (blk2_apply V c t p q) (blk3_apply V c t p q)

/-- What point `t` writes back is block `t` of the sum of the four arrays as the region finds them. -/
theorem flushed_eq (c : Dev nD) (t : Fin cfg7.N) :
    (dat7 (F := Ideal) V c).flushed 4 t
      = ((cfg7.win 4).blk t).view.read (Elt Ideal)
          (Spec.combine true (V c (Pipeline.arrRef spec7 0)) (V c (Pipeline.arrRef spec7 1))
            (V c (Pipeline.arrRef spec7 2)) (V c (Pipeline.arrRef spec7 3))) := by
  show (cfg7.win 4).cut (grid7.coords t) ((dat7 (F := Ideal) V c).after 4 t) = _
  rw [after7_4]
  unfold out7_4
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  exact point_eq V c t p q

/-- An entry of the output array lies in point `t`'s block when each coordinate lies in the block's range on its axis. -/
theorem mem_blk (t : Fin cfg7.N) (i : S100000x64.Idx) :
    i ∈ ((cfg7.win 4).blk t).view.set
      ↔ ∀ a : Fin 2, win7_4.index t a * S10000x64.size a ≤ (i a).val
          ∧ (i a).val < win7_4.index t a * S10000x64.size a + S10000x64.size a := by
  show i ∈ ((View.whole (Pipeline.arrRef spec7 4)).slice (win7_4.rect t)).set ↔ _
  rw [View.set_slice_whole, Rect.mem_set_unit]
  exact Iff.rfl

/-- Row `r` of the output lies in the block of point `r / 10000`: the ten blocks tile the array. -/
theorem cover (i : S100000x64.Idx) :
    ∃ t : Fin cfg7.N, (cfg7.win 4).flush t = true ∧ i ∈ ((cfg7.win 4).blk t).view.set := by
  have hi0 : (i 0).val < 100000 := (i 0).isLt
  have hi1 : (i 1).val < 64 := (i 1).isLt
  have hN : grid7.N = 10 := N_7
  let t : Fin cfg7.N := ⟨(i 0).val / 10000, by show (i 0).val / 10000 < grid7.N; omega⟩
  have ht : t.val = (i 0).val / 10000 := rfl
  obtain ⟨f00, f01, f10, f11, f20, f21, f30, f31, f40, f41⟩ := idx_facts t
  refine ⟨t, flush7_4 t, ?_⟩
  rw [mem_blk]
  intro a
  match a with
  | ⟨0, _⟩ =>
    show win7_4.index t (0 : Fin 2) * 10000 ≤ (i 0).val ∧ (i 0).val < win7_4.index t (0 : Fin 2) * 10000 + 10000
    omega
  | ⟨1, _⟩ =>
    show win7_4.index t (1 : Fin 2) * 64 ≤ (i 1).val ∧ (i 1).val < win7_4.index t (1 : Fin 2) * 64 + 64
    omega

/-- The output array after the region's ten write-backs is the sum of the four arrays the region finds, entry by entry. -/
theorem value (c : Dev nD) :
    (Gen.dat7 (F := Ideal) V c).arrAt 4 cfg7.N
      = Spec.combine true (V c (Pipeline.arrRef spec7 0)) (V c (Pipeline.arrRef spec7 1))
          (V c (Pipeline.arrRef spec7 2)) (V c (Pipeline.arrRef spec7 3)) :=
  (dat7 (F := Ideal) V c).arrAt_eq_of_cover 4 _ (fun t _ => flushed_eq V c t) cover

end Cert.Hand.RegCombine7

end
-- ==== Proof.ConvK0.lean ====
/-
  Graph-convolution layer 0 on the kernel's side: what each of its four host stretches leaves in the buffers the
  layer goes on to read, from any contents `V` at the stretch's entry.  Each is the printed operations of that stretch
  read off in order; the message-passing chain is left as the named functions of its inputs.
-/
import proofs.«409001_j25520695673361_2_alg».proof.Proof.Gen.KernelIdeal.Launch
import proofs.«409001_j25520695673361_2_alg».proof.Proof.ConvChain
import Idealize.ShloMosaic.Lib.StableHlo.Run

set_option maxRecDepth 16384

noncomputable section

namespace Cert.Hand.ConvK0

open Idealize.ShloMosaic Idealize.ShloMosaic.ValueIdx Idealize.ShloMosaic.TcCoe
open Cert.KernelIdeal Cert.KernelIdeal.Gen
open Cert.Hand.ConvTake Cert.Hand.ConvChain

/-- A value moved to a typed reference's buffer type and back is the value (both moves are along the same equation of types). -/
theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

variable (V : Valuation τ sig (Elt Ideal))

/-! ## Before the Linear region: the zero bias, the weight matrix, the bias as a row -/

/-- The bias of the convolution's Linear stage: zero in every column. -/
theorem zero_of :
    StableHlo.after (hostOps6 (F := Ideal)) V (Proc.devRef .tc main_v66)
      = broadcastInDim S64 ![] bcast_S_S64 (constant (F := Ideal) S_ .f32 0x00000000#32) := by
  after_results
  try rfl

/-- The layer's weight matrix: its slice of the stacked weights, as a 64×64 matrix. -/
theorem w_of :
    StableHlo.after (hostOps6 (F := Ideal)) V (Proc.devRef .tc main_v68)
      = shapeCast S64x64
          (extractStridedSlice S1x64x64 ![0, 0, 0] (V (Proc.devRef .tc main_arg7)) slices_S6x64x64_S1x64x64_0_0_0)
          shapeCasts_S1x64x64_S64x64 := by
  after_results
  try rfl

/-- The bias handed to the Linear region: the zero bias as a 1×64 row. -/
theorem b_of :
    StableHlo.after (hostOps6 (F := Ideal)) V (Proc.devRef .tc main_v69)
      = shapeCast S1x64 (StableHlo.after (hostOps6 (F := Ideal)) V (Proc.devRef .tc main_v66)) shapeCasts_S64_S1x64 := by
  after_results
  try rfl

/-! ## After it: the edge weights, the looked-up rows, the aggregation, the self loop, the bias row -/

/-- The edge weights `dinv[src] · dinv[dst]`. -/
theorem norm_of :
    StableHlo.after (hostOps7 (F := Ideal)) V (Proc.devRef .tc main_v85)
      = edgeNorm (V (Proc.devRef .tc main_v10)) (V (Proc.devRef .tc main_v1)) (V (Proc.devRef .tc main_v3)) := by
  after_results_simp
  try rfl

/-- The two buffers the lookup reads, seen at their tensor types: the same contents. -/
theorem src_typed :
    ((.of main_v1 : StableHlo.TRef sig ⟨S800000, .i32⟩)).ofBuf (V (Proc.devRef .tc main_v1))
      = V (Proc.devRef .tc main_v1) := rfl
theorem hw_typed :
    ((.of main_v70 : StableHlo.TRef sig ⟨S100000x64, .f32⟩)).ofBuf (V (Proc.devRef .tc main_v70))
      = V (Proc.devRef .tc main_v70) := rfl

/-- The guarded lookup, with its two inputs and its result seen at their tensor types: the intermediate values'
    moves to their buffers' types and back cancel, and what is left is the named lookup of the two inputs. -/
theorem take_of_typed :
    ((.of main_v86 : StableHlo.TRef sig ⟨S800000x64, .f32⟩)).ofBuf
        (StableHlo.after (hostOps7_1 (F := Ideal)) V (Proc.devRef .tc main_v86))
      = takeRows (((.of main_v70 : StableHlo.TRef sig ⟨S100000x64, .f32⟩)).ofBuf (V (Proc.devRef .tc main_v70)))
          (((.of main_v1 : StableHlo.TRef sig ⟨S800000, .i32⟩)).ofBuf (V (Proc.devRef .tc main_v1))) := by
  after_results_simp
  simp only [ofBuf_toBuf]
  generalize ((.of main_v70 : StableHlo.TRef sig ⟨S100000x64, .f32⟩)).ofBuf (V (Proc.devRef .tc main_v70)) = hw
  generalize ((.of main_v1 : StableHlo.TRef sig ⟨S800000, .i32⟩)).ofBuf (V (Proc.devRef .tc main_v1)) = s
  rfl

/-- The guarded lookup of the transformed features' rows at the source indices. -/
theorem take_of :
    StableHlo.after (hostOps7_1 (F := Ideal)) V (Proc.devRef .tc main_v86)
      = takeRows (V (Proc.devRef .tc main_v70)) (V (Proc.devRef .tc main_v1)) := by
  have h := take_of_typed V
  rw [src_typed V, hw_typed V] at h
  exact h

/-- The weighted rows summed by destination. -/
theorem agg_of :
    StableHlo.after (hostOps7_2 (F := Ideal)) V (Proc.devRef .tc main_v92)
      = agg (V (Proc.devRef .tc main_v86)) (V (Proc.devRef .tc main_v85)) (V (Proc.devRef .tc main_v3)) := by
  after_results
  try rfl

/-- The self loop. -/
theorem self_of :
    StableHlo.after (hostOps7_2 (F := Ideal)) V (Proc.devRef .tc main_v95)
      = selfLoop (V (Proc.devRef .tc main_v70)) (V (Proc.devRef .tc main_v11)) := by
  after_results
  try rfl

/-- The layer's bias: its slice of the stacked biases, flattened and laid out as a row again. -/
theorem bias_of :
    StableHlo.after (hostOps7_2 (F := Ideal)) V (Proc.devRef .tc main_v98)
      = shapeCast S1x64
          (shapeCast S64 (extractStridedSlice S1x64 ![0, 0] (V (Proc.devRef .tc main_arg8)) slices_S6x64_S1x64_0_0)
            shapeCasts_S1x64_S64)
          shapeCasts_S64_S1x64 := by
  after_results
  try rfl

end Cert.Hand.ConvK0

end
-- ==== Proof.StepConv0K.lean ====
/-
  Graph-convolution layer 0, the kernel's half: the layer's output array as ONE function of what the layer finds —
  its input array, the edge rows and inverse-root degrees the prologue wrote, and its slices of the stacked weights
  and biases as launched.

  Linear region: the input times the weight matrix plus a zero bias.  Host stretches: the edge weights, the guarded
  lookup of the transformed rows (the plain gather, every source index being a valid row), the aggregation by
  destination, the self loop.  Combine region: the residual sum with the rectifier.
-/
import proofs.«409001_j25520695673361_2_alg».proof.Proof.KKeep
import proofs.«409001_j25520695673361_2_alg».proof.Proof.Spec
import proofs.«409001_j25520695673361_2_alg».proof.Proof.RegLinear6
import proofs.«409001_j25520695673361_2_alg».proof.Proof.RegCombine7
import proofs.«409001_j25520695673361_2_alg».proof.Proof.ConvK0
import Idealize.ShloMosaic.Lib.Pipeline.Value

noncomputable section

namespace Cert.Hand.StepConv0

open Idealize.ShloMosaic Idealize.ShloMosaic.ValueIdx Idealize.ShloMosaic.TcCoe Idealize.SL.Sem
open Cert.KernelIdeal Cert.KernelIdeal.Gen Cert.KernelIdeal.Hand
open Cert.Hand.ConvTake Cert.Hand.ConvChain

variable (m : (ℓ : Loc nD τ sig) → Buf (Elt Ideal) ℓ) (ρ : Dev nD → PrngReg) (c : Dev nD)

/-! ## What the layer finds -/

/-- The layer's input array. -/
abbrev xin : FVec Ideal S100000x64 .f32 := W18 m ρ c (Proc.devRef .tc main_v65)
/-- The edges' source and destination rows, the inverse-root degrees and their squares, as the prologue left them. -/
abbrev src : IVec S800000 32 := W1 m ρ c (Proc.devRef .tc main_v1)
abbrev dst : IVec S800000 32 := W1 m ρ c (Proc.devRef .tc main_v3)
abbrev dinv : FVec Ideal S100000 .f32 := W1 m ρ c (Proc.devRef .tc main_v10)
abbrev dinv2 : FVec Ideal S100000 .f32 := W1 m ρ c (Proc.devRef .tc main_v11)
/-- The layer's weight matrix and bias row: its slices of the launched arguments. -/
abbrev wmat : FVec Ideal S64x64 .f32 :=
  shapeCast S64x64
    (extractStridedSlice S1x64x64 ![0, 0, 0] (m ((c : Thread nD τ).loc main_arg7)) slices_S6x64x64_S1x64x64_0_0_0)
    shapeCasts_S1x64x64_S64x64
abbrev brow : FVec Ideal S1x64 .f32 :=
  extractStridedSlice S1x64 ![0, 0] (m ((c : Thread nD τ).loc main_arg8)) slices_S6x64_S1x64_0_0
/-- The zero bias of the Linear stage, as a row. -/
abbrev zrow : FVec Ideal S1x64 .f32 :=
  shapeCast S1x64 (broadcastInDim S64 ![] bcast_S_S64 (constant (F := Ideal) S_ .f32 0x00000000#32)) shapeCasts_S64_S1x64

/-! ## The zero bias -/

/-- The bias of every convolution's Linear stage is the zero vector written once, before the first of them. -/
theorem zero_bias :
    W19 m ρ c (Proc.devRef .tc main_v66) = broadcastInDim S64 ![] bcast_S_S64 (constant (F := Ideal) S_ .f32 0x00000000#32) :=
  ConvK0.zero_of (W18 m ρ c)

/-! ## The Linear region -/

/-- The transformed features. -/
abbrev hw : FVec Ideal S100000x64 .f32 := Spec.linear (xin m ρ c) (wmat m c) zrow

/-- Where this layer's Linear region finds the zero bias: the buffer written before the first convolution. -/
theorem z66 (hzero : W19 m ρ c (Proc.devRef .tc main_v66)
      = broadcastInDim S64 ![] bcast_S_S64 (constant (F := Ideal) S_ .f32 0x00000000#32)) :
    StableHlo.after (hostOps6 (F := Ideal)) (W18 m ρ c) (Proc.devRef .tc main_v66)
      = broadcastInDim S64 ![] bcast_S_S64 (constant (F := Ideal) S_ .f32 0x00000000#32) :=
  hzero

theorem hw_eq (hzero : W19 m ρ c (Proc.devRef .tc main_v66)
      = broadcastInDim S64 ![] bcast_S_S64 (constant (F := Ideal) S_ .f32 0x00000000#32)) :
    W20 m ρ c (Proc.devRef .tc main_v70) = hw m ρ c := by
  have e0 : V19 m ρ c (Pipeline.arrRef spec6 0) = xin m ρ c := W19_keep m ρ c main_v65 (by decide)
  have e1 : V19 m ρ c (Pipeline.arrRef spec6 1) = wmat m c := by
    have h := ConvK0.w_of (W18 m ρ c)
    rw [W18_arg7 m ρ c] at h
    exact h
  have e2 : V19 m ρ c (Pipeline.arrRef spec6 2) = zrow := by
    have h := ConvK0.b_of (W18 m ρ c)
    rw [z66 m ρ c hzero] at h
    exact h
  refine (W20_arr m ρ c 3).trans ((Cert.Hand.RegLinear6.value (V19 m ρ) c).trans ?_)
  rw [e0, e1, e2]

/-! ## The host stretches: every buffer they read, traced back to what the layer found -/

theorem src_at : W20 m ρ c (Proc.devRef .tc main_v1) = src m ρ c :=
  (W20_keep m ρ c main_v1 (by decide)).trans ((W19_keep m ρ c main_v1 (by decide)).trans (W18_v1 m ρ c))
theorem dst_at : W20 m ρ c (Proc.devRef .tc main_v3) = dst m ρ c :=
  (W20_keep m ρ c main_v3 (by decide)).trans ((W19_keep m ρ c main_v3 (by decide)).trans (W18_v3 m ρ c))
theorem dinv_at : W20 m ρ c (Proc.devRef .tc main_v10) = dinv m ρ c :=
  (W20_keep m ρ c main_v10 (by decide)).trans ((W19_keep m ρ c main_v10 (by decide)).trans (W18_v10 m ρ c))
theorem dinv2_at : W20 m ρ c (Proc.devRef .tc main_v11) = dinv2 m ρ c :=
  (W20_keep m ρ c main_v11 (by decide)).trans ((W19_keep m ρ c main_v11 (by decide)).trans (W18_v11 m ρ c))

/-- The edge weights. -/
theorem norm_at : W21 m ρ c (Proc.devRef .tc main_v85) = edgeNorm (dinv m ρ c) (src m ρ c) (dst m ρ c) := by
  have h := ConvK0.norm_of (W20 m ρ c)
  rw [dinv_at m ρ c, src_at m ρ c, dst_at m ρ c] at h
  exact h

/-- The looked-up rows: under the index range, the plain gather at the wrapped source indices. -/
theorem rows_at (hzero : W19 m ρ c (Proc.devRef .tc main_v66)
      = broadcastInDim S64 ![] bcast_S_S64 (constant (F := Ideal) S_ .f32 0x00000000#32))
    (hrange : ∀ e, 0 ≤ ((src m ρ c) e).toInt ∧ ((src m ρ c) e).toInt < 100000) :
    W22 m ρ c (Proc.devRef .tc main_v86) = rows (hw m ρ c) (wrap (src m ρ c)) := by
  have h := ConvK0.take_of (W21 m ρ c)
  have e70 : W21 m ρ c (Proc.devRef .tc main_v70) = hw m ρ c :=
    (W21_keep m ρ c main_v70 (by decide)).trans (hw_eq m ρ c hzero)
  have e1 : W21 m ρ c (Proc.devRef .tc main_v1) = src m ρ c :=
    (W21_keep m ρ c main_v1 (by decide)).trans (src_at m ρ c)
  rw [e70, e1] at h
  exact h.trans (takeRows_eq_rows (hw m ρ c) (src m ρ c) hrange)

/-- The aggregation by destination. -/
theorem agg_at (hzero : W19 m ρ c (Proc.devRef .tc main_v66)
      = broadcastInDim S64 ![] bcast_S_S64 (constant (F := Ideal) S_ .f32 0x00000000#32))
    (hrange : ∀ e, 0 ≤ ((src m ρ c) e).toInt ∧ ((src m ρ c) e).toInt < 100000) :
    W23 m ρ c (Proc.devRef .tc main_v92)
      = agg (rows (hw m ρ c) (wrap (src m ρ c))) (edgeNorm (dinv m ρ c) (src m ρ c) (dst m ρ c)) (dst m ρ c) := by
  have h := ConvK0.agg_of (W22 m ρ c)
  have e85 : W22 m ρ c (Proc.devRef .tc main_v85) = edgeNorm (dinv m ρ c) (src m ρ c) (dst m ρ c) :=
    (W22_keep m ρ c main_v85 (by decide)).trans (norm_at m ρ c)
  have e3 : W22 m ρ c (Proc.devRef .tc main_v3) = dst m ρ c :=
    (W22_keep m ρ c main_v3 (by decide)).trans ((W21_keep m ρ c main_v3 (by decide)).trans (dst_at m ρ c))
  rw [rows_at m ρ c hzero hrange, e85, e3] at h
  exact h

/-- The self loop. -/
theorem self_at (hzero : W19 m ρ c (Proc.devRef .tc main_v66)
      = broadcastInDim S64 ![] bcast_S_S64 (constant (F := Ideal) S_ .f32 0x00000000#32)) :
    W23 m ρ c (Proc.devRef .tc main_v95) = selfLoop (hw m ρ c) (dinv2 m ρ c) := by
  have h := ConvK0.self_of (W22 m ρ c)
  have e70 : W22 m ρ c (Proc.devRef .tc main_v70) = hw m ρ c :=
    (W22_keep m ρ c main_v70 (by decide)).trans ((W21_keep m ρ c main_v70 (by decide)).trans (hw_eq m ρ c hzero))
  have e11 : W22 m ρ c (Proc.devRef .tc main_v11) = dinv2 m ρ c :=
    (W22_keep m ρ c main_v11 (by decide)).trans ((W21_keep m ρ c main_v11 (by decide)).trans (dinv2_at m ρ c))
  rw [e70, e11] at h
  exact h

/-- The residual input, untouched since the layer's entry. -/
theorem xin_at : W23 m ρ c (Proc.devRef .tc main_v65) = xin m ρ c :=
  (W23_keep m ρ c main_v65 (by decide)).trans ((W22_keep m ρ c main_v65 (by decide)).trans
    ((W21_keep m ρ c main_v65 (by decide)).trans ((W20_keep m ρ c main_v65 (by decide)).trans
      (W19_keep m ρ c main_v65 (by decide)))))

/-- The bias row: the slice of the launched biases (flattening it and laying it out as a row again changes nothing). -/
theorem brow_at : W23 m ρ c (Proc.devRef .tc main_v98) = brow m c := by
  have h := ConvK0.bias_of (W22 m ρ c)
  have e8 : W22 m ρ c (Proc.devRef .tc main_arg8) = m ((c : Thread nD τ).loc main_arg8) :=
    (W22_keep m ρ c main_arg8 (by decide)).trans ((W21_keep m ρ c main_arg8 (by decide)).trans
      ((W20_keep m ρ c main_arg8 (by decide)).trans ((W19_keep m ρ c main_arg8 (by decide)).trans (W18_arg8 m ρ c))))
  rw [e8, shapeCast_shapeCast] at h
  exact h

/-! ## The Combine region -/

/-- THE KERNEL'S HALF. -/
theorem kernel_half (hzero : W19 m ρ c (Proc.devRef .tc main_v66)
      = broadcastInDim S64 ![] bcast_S_S64 (constant (F := Ideal) S_ .f32 0x00000000#32))
    (hrange : ∀ e, 0 ≤ ((src m ρ c) e).toInt ∧ ((src m ρ c) e).toInt < 100000) :
    W24 m ρ c (Proc.devRef .tc main_v99)
      = Spec.combine true
          (agg (rows (hw m ρ c) (wrap (src m ρ c))) (edgeNorm (dinv m ρ c) (src m ρ c) (dst m ρ c)) (dst m ρ c))
          (selfLoop (hw m ρ c) (dinv2 m ρ c)) (xin m ρ c) (brow m c) := by
  have e0 : V23 m ρ c (Pipeline.arrRef spec7 0) = _ := agg_at m ρ c hzero hrange
  have e1 : V23 m ρ c (Pipeline.arrRef spec7 1) = _ := self_at m ρ c hzero
  have e2 : V23 m ρ c (Pipeline.arrRef spec7 2) = _ := xin_at m ρ c
  have e3 : V23 m ρ c (Pipeline.arrRef spec7 3) = _ := brow_at m ρ c
  refine (W24_arr m ρ c 4).trans ((Cert.Hand.RegCombine7.value (V23 m ρ) c).trans ?_)
  rw [e0, e1, e2, e3]

end Cert.Hand.StepConv0

end
-- ==== Proof.ConvR0.lean ====
/-
  Graph-convolution layer 0 on the reference's side: what its chunk of operations leaves in its result, from any
  contents `V` at the chunk's entry.  The message-passing chain is the same named functions as on the kernel's side (the
  two programs print the same operations over the same shapes); the row lookup is the bare gather at the wrapped indices.
-/
import proofs.«409001_j25520695673361_2_alg».proof.Proof.RefOps4
import proofs.«409001_j25520695673361_2_alg».proof.Proof.ConvChain
import Idealize.ShloMosaic.Lib.StableHlo.Run
import Idealize.ShloMosaic.Lib.Pipeline.Frame

set_option maxRecDepth 4096

noncomputable section

namespace Cert.Hand.ConvR0

open Idealize.ShloMosaic Idealize.ShloMosaic.ValueIdx Idealize.ShloMosaic.TcCoe
open Cert.ReferenceIdeal Cert.ReferenceIdeal.Gen Cert.ReferenceIdeal.Hand
open Cert.Hand.ConvTake Cert.Hand.ConvChain

variable (V : Valuation τ sig (Elt Ideal))

/-- The transformed features: the layer's input times its slice of the stacked weights. -/
def hw : FVec Ideal S100000x64 .f32 :=
  Host.dotGeneral (φ₁ := .f32) (φ₂ := .f32) dot_S100000x64_S64x64_S100000x64_1_0_0_1_n_n none
    (V (Proc.devRef .tc main_v105))
    (shapeCast S64x64
      (extractStridedSlice (α := Ideal .f32) S1x64x64 ![0, 0, 0] (V (Proc.devRef .tc main_arg7))
        slices_S6x64x64_S1x64x64_0_0_0)
      shapeCasts_S1x64x64_S64x64)

/-! ## The sum before the rectifier -/

/-- What the chunk leaves in the last sum's buffer: aggregation plus self loop, plus the bias row, plus the input.
    Each operation's result is its function of its operands' contents, a buffer no operation of the chunk writes is as
    the chunk found it; what is left is the right side's operations with the named functions unfolded, the two programs'
    dimension records being the same literal lists. -/
theorem pre_of :
    StableHlo.after (rops4 (F := Ideal)) V (Proc.devRef .tc main_v147) =
        (addf
          (addf
            (addf
              (agg (rows (hw V) (wrap (V (Proc.devRef .tc main_v1))))
                (edgeNorm (V (Proc.devRef .tc main_v10)) (V (Proc.devRef .tc main_v1)) (V (Proc.devRef .tc main_v3)))
                (V (Proc.devRef .tc main_v3)))
              (selfLoop (hw V) (mulf (V (Proc.devRef .tc main_v10)) (V (Proc.devRef .tc main_v10)))))
            (broadcastInDim S100000x64 ![0, 1] bcast_S1x64_S100000x64_0_1
              (broadcastInDim S1x64 ![1] bcast_S64_S1x64_1
                (shapeCast S64
                  (extractStridedSlice S1x64 ![0, 0] (V (Proc.devRef .tc main_arg8)) slices_S6x64_S1x64_0_0)
                  shapeCasts_S1x64_S64))))
          (V (Proc.devRef .tc main_v105))) := by
  after_results_simp
  rfl

/-! ## The rectifier -/

/-- Contents moved to a typed reference's buffer type and back are the contents: both moves are along the same equation
    of types. -/
private theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

/-- The chunk is its first forty-nine operations followed by the rectifier's three. -/
private theorem split_tail :
    (rops4 (F := Ideal)) = List.take 49 rops4 ++
      [ StableHlo.TRef.nullary (.of main_call5_cst : StableHlo.TRef sig ⟨S_, .f32⟩) (constant (F := Ideal) S_ .f32 0x00000000#32),
        StableHlo.TRef.unary (.of main_call5_cst : StableHlo.TRef sig ⟨S_, .f32⟩) (.of main_call5_v0 : StableHlo.TRef sig ⟨S100000x64, .f32⟩) (broadcastInDim S100000x64 ![] bcast_S_S100000x64),
        StableHlo.TRef.binary (.of main_v147 : StableHlo.TRef sig ⟨S100000x64, .f32⟩) (.of main_call5_v0 : StableHlo.TRef sig ⟨S100000x64, .f32⟩) (.of main_v148 : StableHlo.TRef sig ⟨S100000x64, .f32⟩) (maximumf (F := Ideal) (φ := .f32)) ] :=
  rfl

/-- The chunk's result is the last sum, rectified: the rectifier's operations read the sum where the first forty-nine
    left it, and none of the three writes it. -/
theorem relu_of :
    StableHlo.after (rops4 (F := Ideal)) V (Proc.devRef .tc main_v148)
      = maximumf (F := Ideal) (StableHlo.after (rops4 (F := Ideal)) V (Proc.devRef .tc main_v147))
        (broadcastInDim S100000x64 ![] bcast_S_S100000x64 (constant (F := Ideal) S_ .f32 0x00000000#32)) := by
  rw [split_tail]
  simp only [StableHlo.after_append]
  generalize StableHlo.after (List.take 49 (rops4 (F := Ideal))) V = V'
  after_results_simp
  simp only [ofBuf_toBuf]
  rfl

/-! ## The layer -/

/-- The layer's result: aggregation plus self loop, plus the bias row, plus the input, rectified. -/
theorem out_of :
    StableHlo.after (rops4 (F := Ideal)) V (Proc.devRef .tc main_v148)
      = maximumf
          (addf
            (addf
              (addf
                (agg (rows (hw V) (wrap (V (Proc.devRef .tc main_v1))))
                  (edgeNorm (V (Proc.devRef .tc main_v10)) (V (Proc.devRef .tc main_v1)) (V (Proc.devRef .tc main_v3)))
                  (V (Proc.devRef .tc main_v3)))
                (selfLoop (hw V) (mulf (V (Proc.devRef .tc main_v10)) (V (Proc.devRef .tc main_v10)))))
              (broadcastInDim S100000x64 ![0, 1] bcast_S1x64_S100000x64_0_1
                (broadcastInDim S1x64 ![1] bcast_S64_S1x64_1
                  (shapeCast S64
                    (extractStridedSlice S1x64 ![0, 0] (V (Proc.devRef .tc main_arg8)) slices_S6x64_S1x64_0_0)
                    shapeCasts_S1x64_S64))))
            (V (Proc.devRef .tc main_v105)))
          (broadcastInDim S100000x64 ![] bcast_S_S100000x64 (constant S_ .f32 0x00000000#32)) := by
  rw [relu_of V, pre_of V]

end Cert.Hand.ConvR0

end
-- ==== Proof.StepConv0R.lean ====
/-
  Graph-convolution layer 0, the reference's half: its chunk's result as ONE function of what the chunk finds — the
  previous layer's result, the edge rows and inverse-root degrees its prologue wrote, and its slices of the stacked
  weights and biases as launched.
-/
import proofs.«409001_j25520695673361_2_alg».proof.Proof.RefVal
import proofs.«409001_j25520695673361_2_alg».proof.Proof.ConvR0

noncomputable section

namespace Cert.Hand.StepConv0

open Idealize.ShloMosaic Idealize.ShloMosaic.ValueIdx Idealize.ShloMosaic.TcCoe Idealize.SL.Sem
open Cert.Hand.ConvTake Cert.Hand.ConvChain

section Ref

open Cert.ReferenceIdeal Cert.ReferenceIdeal.Gen Cert.ReferenceIdeal.Hand

variable (m' : (ℓ : Loc nD τ sig) → Buf (Elt Ideal) ℓ) (c : Dev nD)

/-- What the chunk finds. -/
abbrev rxin : FVec Ideal S100000x64 .f32 := RV4 m' c (Proc.devRef .tc main_v105)
abbrev rsrc : IVec S800000 32 := RV1 m' c (Proc.devRef .tc main_v1)
abbrev rdst : IVec S800000 32 := RV1 m' c (Proc.devRef .tc main_v3)
abbrev rdinv : FVec Ideal S100000 .f32 := RV1 m' c (Proc.devRef .tc main_v10)
abbrev rwmat : FVec Ideal S64x64 .f32 :=
  shapeCast S64x64
    (extractStridedSlice S1x64x64 ![0, 0, 0] (m' ((c.tc : Thread nD τ).loc main_arg7)) slices_S6x64x64_S1x64x64_0_0_0)
    shapeCasts_S1x64x64_S64x64
abbrev rbrow : FVec Ideal S1x64 .f32 :=
  extractStridedSlice S1x64 ![0, 0] (m' ((c.tc : Thread nD τ).loc main_arg8)) slices_S6x64_S1x64_0_0
/-- The transformed features, as a function of the input and the weight matrix: their product. -/
abbrev rdot (x : FVec Ideal S100000x64 .f32) (w : FVec Ideal S64x64 .f32) : FVec Ideal S100000x64 .f32 :=
  Host.dotGeneral dot_S100000x64_S64x64_S100000x64_1_0_0_1_n_n none x w

/-- THE REFERENCE'S HALF. -/
theorem ref_half :
    RV5 m' c (Proc.devRef .tc main_v148)
      = maximumf
          (addf
            (addf
              (addf
                (agg (rows (rdot (rxin m' c) (rwmat m' c)) (wrap (rsrc m' c))) (edgeNorm (rdinv m' c) (rsrc m' c) (rdst m' c)) (rdst m' c))
                (selfLoop (rdot (rxin m' c) (rwmat m' c)) (mulf (rdinv m' c) (rdinv m' c))))
              (broadcastInDim S100000x64 ![0, 1] bcast_S1x64_S100000x64_0_1
                (broadcastInDim S1x64 ![1] bcast_S64_S1x64_1 (shapeCast S64 (rbrow m' c) shapeCasts_S1x64_S64))))
            (rxin m' c))
          (broadcastInDim S100000x64 ![] bcast_S_S100000x64 (constant (F := Ideal) S_ .f32 0x00000000#32)) := by
  have h := ConvR0.out_of (RV4 m' c)
  unfold ConvR0.hw at h
  rw [RV4_v1 m' c, RV4_v3 m' c, RV4_v10 m' c, RV4_arg7 m' c, RV4_arg8 m' c] at h
  exact h

end Ref

end Cert.Hand.StepConv0

end
-- ==== Proof.StepConv0.lean ====
/-
  Graph-convolution layer 0: if the two programs agree on the layer's input, on the edge rows and on the inverse-root
  degrees, they agree on the layer's output.

  The kernel's Linear stage adds a zero bias to the reference's matrix product; its row lookup is the reference's bare
  gather because every source index is a valid row; everything else in the message passing is the same operations
  applied to equal inputs; and its residual sum adds the same four terms in another order.
-/
import proofs.«409001_j25520695673361_2_alg».proof.Proof.Agree
import proofs.«409001_j25520695673361_2_alg».proof.Proof.ConvAlg
import proofs.«409001_j25520695673361_2_alg».proof.Proof.StepConv0K
import proofs.«409001_j25520695673361_2_alg».proof.Proof.StepConv0R

noncomputable section

namespace Cert.Hand.StepConv0

open Idealize.ShloMosaic Idealize.ShloMosaic.ValueIdx Idealize.ShloMosaic.TcCoe Idealize.SL.Sem
open Cert.Hand.ConvTake Cert.Hand.ConvChain

/-- The layer step. -/
theorem step
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hagree : Cert.Hand.Agree m m')
    (hin : (Cert.KernelIdeal.Gen.W18 m ρ c (Proc.devRef .tc Cert.KernelIdeal.main_v65) : Spec.SN.Idx → EReal)
      = Cert.ReferenceIdeal.Hand.RV4 m' c (Proc.devRef .tc Cert.ReferenceIdeal.main_v105))
    (hsrc : (Cert.KernelIdeal.Gen.W1 m ρ c (Proc.devRef .tc Cert.KernelIdeal.main_v1) : IVec Cert.KernelIdeal.S800000 32)
      = Cert.ReferenceIdeal.Hand.RV1 m' c (Proc.devRef .tc Cert.ReferenceIdeal.main_v1))
    (hdst : (Cert.KernelIdeal.Gen.W1 m ρ c (Proc.devRef .tc Cert.KernelIdeal.main_v3) : IVec Cert.KernelIdeal.S800000 32)
      = Cert.ReferenceIdeal.Hand.RV1 m' c (Proc.devRef .tc Cert.ReferenceIdeal.main_v3))
    (hdinv : (Cert.KernelIdeal.Gen.W1 m ρ c (Proc.devRef .tc Cert.KernelIdeal.main_v10) : FVec Ideal Cert.KernelIdeal.S100000 .f32)
      = Cert.ReferenceIdeal.Hand.RV1 m' c (Proc.devRef .tc Cert.ReferenceIdeal.main_v10))
    (hdinv2 : Cert.KernelIdeal.Gen.W1 m ρ c (Proc.devRef .tc Cert.KernelIdeal.main_v11)
      = mulf (F := Ideal) (s := Cert.KernelIdeal.S100000) (φ := .f32) (Cert.KernelIdeal.Gen.W1 m ρ c (Proc.devRef .tc Cert.KernelIdeal.main_v10))
          (Cert.KernelIdeal.Gen.W1 m ρ c (Proc.devRef .tc Cert.KernelIdeal.main_v10)))
    (hrange : ∀ e, 0 ≤ ((Cert.KernelIdeal.Gen.W1 m ρ c (Proc.devRef .tc Cert.KernelIdeal.main_v1)) e).toInt
      ∧ ((Cert.KernelIdeal.Gen.W1 m ρ c (Proc.devRef .tc Cert.KernelIdeal.main_v1)) e).toInt < 100000) :
    (Cert.KernelIdeal.Gen.W24 m ρ c (Proc.devRef .tc Cert.KernelIdeal.main_v99) : Spec.SN.Idx → EReal)
      = Cert.ReferenceIdeal.Hand.RV5 m' c (Proc.devRef .tc Cert.ReferenceIdeal.main_v148) := by
  -- the two launch memories hold the same stacked weights and biases
  obtain ⟨-, -, -, -, -, -, -, h7, h8, -⟩ := hagree c
  -- the reference's inputs are the kernel's
  have ex : rxin m' c = xin m ρ c := hin.symm
  have es : rsrc m' c = src m ρ c := hsrc.symm
  have ed : rdst m' c = dst m ρ c := hdst.symm
  have ei : rdinv m' c = dinv m ρ c := hdinv.symm
  have ew : rwmat m' c = wmat m c := by
    unfold rwmat wmat
    rw [h7]
  have eb : rbrow m' c = brow m c := by
    unfold rbrow brow
    rw [h8]
  have e2 : dinv2 m ρ c = mulf (dinv m ρ c) (dinv m ρ c) := hdinv2
  refine (kernel_half m ρ c (zero_bias m ρ c) hrange).trans (Eq.trans ?_ (ref_half m' c).symm)
  rw [ex, es, ed, ei, ew, eb, e2]
  exact ConvAlg.conv_relu (xin m ρ c) (wmat m c) zrow (brow m c)
    (ConvAlg.zero_row Cert.KernelIdeal.Gen.bcast_S_S64 Cert.KernelIdeal.Gen.shapeCasts_S64_S1x64)
    (src m ρ c) (dst m ρ c) (dinv m ρ c)
    Cert.ReferenceIdeal.Gen.shapeCasts_S1x64_S64 Cert.ReferenceIdeal.Gen.bcast_S64_S1x64_1
    Cert.ReferenceIdeal.Gen.bcast_S1x64_S100000x64_0_1 Cert.ReferenceIdeal.Gen.bcast_S_S100000x64

end Cert.Hand.StepConv0

end
-- ==== Proof.RegLinear8.lean ====
/-
  Region 8 of the network: a Linear layer on all 100000 nodes, run as ten row blocks of 10000 × 64.
  Each grid point reads its row block of x, the whole 64 × 64 weight matrix and the whole 1 × 64 bias row, and leaves
  (x_block · w) + b in its row block of the result.  Read on the extended reals, where the narrowing of both
  factors to bf16 is the identity, the ten blocks together are `Spec.linear x w b`:
    row i, column j  ↦  (Σ_k x[i,k] · w[k,j]) + b[0,j].
  The steps: the block product at an index as a sum over the contraction coordinate (`pay_apply`); each window's
  block as rows of its array (`xblk_apply`, `wblk_eq`, `bblk_eq`); what point t writes back is block t of
  `Spec.linear x w b` (`flushed_eq`); the ten blocks cover the result, row r lying in block r / 10000 (`cover`);
  so the result array is `Spec.linear x w b` (`value`).
-/
import proofs.«409001_j25520695673361_2_alg».proof.Proof.Gen.KernelIdeal.Frame
import proofs.«409001_j25520695673361_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.Hand.RegLinear8

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

/-- Axis 0 of the left factor's index is the output's row. -/
theorem lhs_0 (j : S10000x64.Idx) (k : dot_S10000x64_S64x64_S10000x64_1_0_0_1_n_n.contr.Idx) :
    (dot_S10000x64_S64x64_S10000x64_1_0_0_1_n_n.lhsIdx j k 0).val = (j 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- Axis 1 of the left factor's index is the contraction coordinate. -/
theorem lhs_1 (j : S10000x64.Idx) (k : dot_S10000x64_S64x64_S10000x64_1_0_0_1_n_n.contr.Idx) :
    (dot_S10000x64_S64x64_S10000x64_1_0_0_1_n_n.lhsIdx j k 1).val = (k ⟨0, by decide⟩).val :=
  dot_S10000x64_S64x64_S10000x64_1_0_0_1_n_n.lhsIdx_val_of_single rfl j k

/-- Axis 0 of the right factor's index is the contraction coordinate. -/
theorem rhs_0 (j : S10000x64.Idx) (k : dot_S10000x64_S64x64_S10000x64_1_0_0_1_n_n.contr.Idx) :
    (dot_S10000x64_S64x64_S10000x64_1_0_0_1_n_n.rhsIdx j k 0).val = (k ⟨0, by decide⟩).val :=
  dot_S10000x64_S64x64_S10000x64_1_0_0_1_n_n.rhsIdx_val_of_single rfl j k

/-- Axis 1 of the right factor's index is the output's column. -/
theorem rhs_1 (j : S10000x64.Idx) (k : dot_S10000x64_S64x64_S10000x64_1_0_0_1_n_n.contr.Idx) :
    (dot_S10000x64_S64x64_S10000x64_1_0_0_1_n_n.rhsIdx j k 1).val = (j 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- What the body stores, at row p and column q of the block: the row of the first block times the column of the
    second, summed over the 64 contraction coordinates, plus the bias row's entry in that column. On the extended reals
    the two narrowings to bf16 change nothing and the accumulator's zero splat adds nothing. -/
theorem pay_apply (x0 : Vec Ideal S10000x64 .f32) (x1 : Vec Ideal S64x64 .f32) (x2 : Vec Ideal S1x64 .f32)
    (p : Fin 10000) (q : Fin 64) :
    k8_pay1 (F := Ideal) x0 x1 x2 (ix2 p q) = (∑ k : Fin 64, x0 (ix2 p k) * x1 (ix2 k q)) + x2 (ix2 (0 : Fin 1) q) := by
  unfold k8_pay1
  simp only [shapeCast_self]
  refine congrArg₂ (· + ·) ?_ (broadcastTo_1b_ab_apply x2 broadcasts_S1x64_S10000x64 p q)
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hl : dot_S10000x64_S64x64_S10000x64_1_0_0_1_n_n.lhsIdx (ix2 p q)
      ((contrEquiv1 dot_S10000x64_S64x64_S10000x64_1_0_0_1_n_n 64 rfl rfl).symm k) = ix2 p k := by
    funext a; apply Fin.ext
    match a with
    | ⟨0, _⟩ => exact lhs_0 _ _
    | ⟨1, _⟩ => exact (lhs_1 _ _).trans (contrEquiv1_symm_val dot_S10000x64_S64x64_S10000x64_1_0_0_1_n_n 64 rfl rfl k)
  have hr : dot_S10000x64_S64x64_S10000x64_1_0_0_1_n_n.rhsIdx (ix2 p q)
      ((contrEquiv1 dot_S10000x64_S64x64_S10000x64_1_0_0_1_n_n 64 rfl rfl).symm k) = ix2 k q := by
    funext a; apply Fin.ext
    match a with
    | ⟨0, _⟩ => exact (rhs_0 _ _).trans (contrEquiv1_symm_val dot_S10000x64_S64x64_S10000x64_1_0_0_1_n_n 64 rfl rfl k)
    | ⟨1, _⟩ => exact rhs_1 _ _
  show x0 _ * x1 _ = _
  rw [hl, hr]

/-- One row block of the layer. If the first block is rows `10000 r …` of an array X, the second is W and the third is B,
    then at local index y, which is index i of the whole array, the body's value is `Spec.linear X W B` at i. -/
theorem pay_linear (x0 : Vec Ideal S10000x64 .f32) (x1 : Vec Ideal S64x64 .f32) (x2 : Vec Ideal S1x64 .f32)
    (X : Spec.SN.Idx → EReal) (W : Spec.SW.Idx → EReal) (B : Spec.SR.Idx → EReal) (r : ℕ)
    (hX : ∀ (y : S10000x64.Idx) (i : Spec.SN.Idx), (i 0).val = r * 10000 + (y 0).val → (i 1).val = (y 1).val → x0 y = X i)
    (hW : x1 = W) (hB : x2 = B)
    (y : S10000x64.Idx) (i : Spec.SN.Idx) (h0 : (i 0).val = r * 10000 + (y 0).val) (h1 : (i 1).val = (y 1).val) :
    k8_pay1 (F := Ideal) x0 x1 x2 y = Spec.linear X W B i := by
  obtain ⟨p, q, rfl⟩ : ∃ (p : Fin 10000) (q : Fin 64), y = ix2 p q := ⟨y 0, y 1, eq_ix2 y⟩
  have hq : (i 1 : Fin 64) = q := Fin.ext h1
  subst hW hB
  refine (pay_apply x0 x1 x2 p q).trans ?_
  show _ = (∑ k : Fin 64, X (ix2 (i 0) k) * x1 (ix2 k (i 1))) + x2 (ix2 0 (i 1))
  refine congrArg₂ (· + ·) (Finset.sum_congr rfl fun k _ => congrArg₂ (· * ·) ?_ ?_) ?_
  · exact hX (ix2 p k) (ix2 (i 0) k) h0 rfl
  · exact (congrArg (fun z : Fin 64 => x1 (ix2 k z)) hq).symm
  · exact (congrArg (fun z : Fin 64 => x2 (ix2 (0 : Fin 1) z)) hq).symm

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the ten row blocks: x and the result move down with the point, w and b stay. -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- Row block t of x: rows `10000 t … 10000 t + 9999` of the array. -/
theorem xblk_apply (c : Dev nD) (t : Fin cfg8.N) (y : S10000x64.Idx) (i : Spec.SN.Idx)
    (h0 : (i 0).val = t.val * 10000 + (y 0).val) (h1 : (i 1).val = (y 1).val) :
    (iblk8 V c 0 t : Vec Ideal S10000x64 .f32) y = (V c (Pipeline.arrRef spec8 0) : Spec.SN.Idx → EReal) i := by
  obtain ⟨e0, e1, -⟩ := idx_facts t
  unfold iblk8
  rw [View.read_apply]
  show V c (Pipeline.arrRef spec8 0) _ = V c (Pipeline.arrRef spec8 0) _
  refine congrArg _ (funext fun a => Fin.ext ?_)
  match a with
  | ⟨0, _⟩ => show win8_0.index t (0 : Fin 2) * 10000 + 1 * (y 0).val = (i 0).val; omega
  | ⟨1, _⟩ => show win8_0.index t (1 : Fin 2) * 64 + 1 * (y 1).val = (i 1).val; omega

/-- The weights' one block is the whole matrix. -/
theorem wblk_eq (c : Dev nD) (t : Fin cfg8.N) :
    (iblk8 V c 1 t : Vec Ideal S64x64 .f32) = (V c (Pipeline.arrRef spec8 1) : Spec.SW.Idx → EReal) := by
  obtain ⟨-, -, e0, e1, -⟩ := idx_facts t
  funext y
  unfold iblk8
  rw [View.read_apply]
  show V c (Pipeline.arrRef spec8 1) _ = V c (Pipeline.arrRef spec8 1) _
  refine congrArg _ (funext fun a => Fin.ext ?_)
  match a with
  | ⟨0, _⟩ => show win8_1.index t (0 : Fin 2) * 64 + 1 * (y 0).val = (y 0).val; omega
  | ⟨1, _⟩ => show win8_1.index t (1 : Fin 2) * 64 + 1 * (y 1).val = (y 1).val; omega

/-- The bias row's one block is the whole row. -/
theorem bblk_eq (c : Dev nD) (t : Fin cfg8.N) :
    (iblk8 V c 2 t : Vec Ideal S1x64 .f32) = (V c (Pipeline.arrRef spec8 2) : Spec.SR.Idx → EReal) := by
  obtain ⟨-, -, -, -, e0, e1, -⟩ := idx_facts t
  funext y
  unfold iblk8
  rw [View.read_apply]
  show V c (Pipeline.arrRef spec8 2) _ = V c (Pipeline.arrRef spec8 2) _
  refine congrArg _ (funext fun a => Fin.ext ?_)
  match a with
  | ⟨0, _⟩ => show win8_2.index t (0 : Fin 2) * 1 + 1 * (y 0).val = (y 0).val; omega
  | ⟨1, _⟩ => show win8_2.index t (1 : Fin 2) * 64 + 1 * (y 1).val = (y 1).val; omega

/-- What the result array ends holding: the Linear layer of the three arrays as the region finds them. -/
abbrev G (c : Dev nD) : Spec.SN.Idx → EReal :=
  Spec.linear (V c (Pipeline.arrRef spec8 0)) (V c (Pipeline.arrRef spec8 1)) (V c (Pipeline.arrRef spec8 2))

/-- What point t writes back is block t of `G`. -/
theorem flushed_eq (c : Dev nD) (t : Fin cfg8.N) :
    (dat8 V c).flushed 3 t = ((cfg8.win 3).blk t).view.read (Elt Ideal) (G V c) := by
  show (cfg8.win 3).cut (grid8.coords t) ((dat8 V c).after 3 t) = _
  rw [after8_3]
  unfold out8_3
  rw [View.canon_unit_zero hz]
  simp only [View.ld_unit_zero (S := S10000x64) hz, View.ld_unit_zero (S := S64x64) hz, View.ld_unit_zero (S := S1x64) hz]
  obtain ⟨-, -, -, -, -, -, e0, e1⟩ := idx_facts t
  funext y
  rw [View.read_apply]
  show k8_pay1 (F := Ideal) (iblk8 V c 0 t) (iblk8 V c 1 t) (iblk8 V c 2 t) ((cfg8.win 3).xinj (grid8.coords t) y)
    = G V c (((cfg8.win 3).blk t).view.emb y)
  exact pay_linear (iblk8 V c 0 t) (iblk8 V c 1 t) (iblk8 V c 2 t)
    (V c (Pipeline.arrRef spec8 0)) (V c (Pipeline.arrRef spec8 1)) (V c (Pipeline.arrRef spec8 2)) t.val
    (xblk_apply V c t) (wblk_eq V c t) (bblk_eq V c t)
    ((cfg8.win 3).xinj (grid8.coords t) y) (((cfg8.win 3).blk t).view.emb y)
    (by show win8_3.index t (0 : Fin 2) * 10000 + 1 * (y 0).val = t.val * 10000 + (y 0).val; omega)
    (by show win8_3.index t (1 : Fin 2) * 64 + 1 * (y 1).val = (y 1).val; omega)

/-- An index of the result is in point t's block iff each coordinate is in the block's range on its axis. -/
theorem mem_blk (t : Fin cfg8.N) (i : S100000x64.Idx) :
    i ∈ ((cfg8.win 3).blk t).view.set ↔ ∀ a : Fin 2, win8_3.index t a * S10000x64.size a ≤ (i a).val ∧ (i a).val < win8_3.index t a * S10000x64.size a + S10000x64.size a := by
  show i ∈ ((View.whole main_v103).slice (win8_3.rect t)).set ↔ _
  rw [View.set_slice_whole, Rect.mem_set_unit]
  exact Iff.rfl

/-- The ten row blocks cover the result: row r is in block r / 10000. -/
theorem cover (i : S100000x64.Idx) : ∃ t : Fin cfg8.N, (cfg8.win 3).flush t = true ∧ i ∈ ((cfg8.win 3).blk t).view.set := by
  have hi0 : (i 0).val < 100000 := (i 0).isLt
  have hi1 : (i 1).val < 64 := (i 1).isLt
  have hN : grid8.N = 10 := N_8
  let t : Fin cfg8.N := ⟨(i 0).val / 10000, by show _ < grid8.N; omega⟩
  obtain ⟨-, -, -, -, -, -, e0, e1⟩ := idx_facts t
  refine ⟨t, flush8_3 t, ?_⟩
  rw [mem_blk]
  intro a
  match a with
  | ⟨0, _⟩ => show win8_3.index t (0 : Fin 2) * 10000 ≤ (i 0).val ∧ (i 0).val < win8_3.index t (0 : Fin 2) * 10000 + 10000
              have : t.val = (i 0).val / 10000 := rfl
              omega
  | ⟨1, _⟩ => show win8_3.index t (1 : Fin 2) * 64 ≤ (i 1).val ∧ (i 1).val < win8_3.index t (1 : Fin 2) * 64 + 64; omega

/-- The region's result: after its ten write-backs the output array is the Linear layer of the three input arrays as
    the region finds them. -/
theorem value (c : Dev nD) :
    (dat8 (F := Ideal) V c).arrAt 3 cfg8.N
      = Spec.linear (V c (Pipeline.arrRef spec8 0)) (V c (Pipeline.arrRef spec8 1)) (V c (Pipeline.arrRef spec8 2)) :=
  (dat8 V c).arrAt_eq_of_cover 3 (G V c) (fun t _ => flushed_eq V c t) cover

end Cert.Hand.RegLinear8

end
-- ==== Proof.RegCombine9.lean ====
/-
  Region 9: the graph convolution's residual sum with the rectifier.  Ten grid points; point t takes rows
  10000·t … 10000·t + 9999 of the aggregated neighbours, of the self loop and of the residual input, and the whole
  1×64 bias row, and writes back rows 10000·t … of the output: entry (r, j) is
  max(((a[r,j] + s[r,j]) + h[r,j]) + b[0,j], 0).  The ten row blocks tile the 100000 rows, so the output array ends
  as that one function of the four arrays the region finds.
-/
import proofs.«409001_j25520695673361_2_alg».proof.Proof.Gen.KernelIdeal.Frame
import proofs.«409001_j25520695673361_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.Hand.RegCombine9

open Cert.KernelIdeal Cert.KernelIdeal.Gen

/-- The store's and the loads' offsets are zero on both axes. -/
theorem hz : (![0, 0] : Fin 2 → Nat) = fun _ => 0 := funext fun a => by fin_cases a <;> rfl

/-- One entry of the body's result on a block: the entries of the three blocks added in order, the entry of the bias row
    in that column added, and the maximum of that with zero (the zero word denotes the real number zero). -/
theorem pay_apply (x0 x1 x2 : Vec Ideal S10000x64 .f32) (x3 : Vec Ideal S1x64 .f32) (p : Fin 10000) (q : Fin 64) :
    k9_pay1 (F := Ideal) x0 x1 x2 x3 (ix2 p q)
      = max (((x0 (ix2 p q) + x1 (ix2 p q)) + x2 (ix2 p q)) + x3 (ix2 (0 : Fin 1) q)) 0 := by
  unfold k9_pay1
  simp only [shapeCast_self]
  rw [maximumf_apply, addf_apply, addf_apply, addf_apply, broadcast_apply, broadcastTo_1b_ab_apply]
  show max _ (Ideal.ofBits .f32 0x00000000#32) = _
  rw [Ideal.ofBits_zero_f32]

/-- The same entry against the specification: when the three blocks' entries at (p, q) are the arrays' entries at `i` and
    the bias block's entry at (0, q) is the bias array's entry in `i`'s column, the body's entry is the sum's at `i`. -/
theorem pay_spec (x0 x1 x2 : Vec Ideal S10000x64 .f32) (x3 : Vec Ideal S1x64 .f32)
    (a s h : Spec.SN.Idx → EReal) (b : Spec.SR.Idx → EReal) (p : Fin 10000) (q : Fin 64) (i : Spec.SN.Idx)
    (h0 : x0 (ix2 p q) = a i) (h1 : x1 (ix2 p q) = s i) (h2 : x2 (ix2 p q) = h i)
    (h3 : x3 (ix2 (0 : Fin 1) q) = b (ix2 0 (i 1))) :
    k9_pay1 (F := Ideal) x0 x1 x2 x3 (ix2 p q) = Spec.combine true a s h b i := by
  rw [pay_apply, h0, h1, h2, h3]
  rfl

/-- Where each window's block sits at grid point `t`: the three node arrays and the output move down one row block per
    point and stay in column block 0; the bias row's block never moves. -/
theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

variable (V : (c : Dev nD) → (b : Ref sig .tc) → Buf (Elt Ideal) ((c : Thread nD τ).loc b))

/-- Entry (p, q) of the aggregated neighbours' block at point `t` is that array's entry at entry (p, q) of the output's block:
    both blocks are rows 10000·t … 10000·t + 9999 and all 64 columns. -/
theorem blk0_apply (c : Dev nD) (t : Fin cfg9.N) (p : Fin 10000) (q : Fin 64) :
    (iblk9 V c 0 t : Vec Ideal S10000x64 .f32) (ix2 p q)
      = V c (Pipeline.arrRef spec9 0) (((cfg9.win 4).blk t).view.emb (ix2 p q)) := by
  obtain ⟨f00, f01, f10, f11, f20, f21, f30, f31, f40, f41⟩ := idx_facts t
  have hp : p.val < 10000 := p.isLt
  have hq : q.val < 64 := q.isLt
  have e : ((cfg9.win 0).blk t).view.emb (ix2 p q) = ((cfg9.win 4).blk t).view.emb (ix2 p q) := by
    funext a; apply Fin.ext
    match a with
    | ⟨0, _⟩ => show win9_0.index t (0 : Fin 2) * 10000 + 1 * p.val = win9_4.index t (0 : Fin 2) * 10000 + 1 * p.val; omega
    | ⟨1, _⟩ => show win9_0.index t (1 : Fin 2) * 64 + 1 * q.val = win9_4.index t (1 : Fin 2) * 64 + 1 * q.val; omega
  show V c (Pipeline.arrRef spec9 0) (((cfg9.win 0).blk t).view.emb (ix2 p q)) = _
  rw [e]

/-- The same for the self loop's block. -/
theorem blk1_apply (c : Dev nD) (t : Fin cfg9.N) (p : Fin 10000) (q : Fin 64) :
    (iblk9 V c 1 t : Vec Ideal S10000x64 .f32) (ix2 p q)
      = V c (Pipeline.arrRef spec9 1) (((cfg9.win 4).blk t).view.emb (ix2 p q)) := by
  obtain ⟨f00, f01, f10, f11, f20, f21, f30, f31, f40, f41⟩ := idx_facts t
  have hp : p.val < 10000 := p.isLt
  have hq : q.val < 64 := q.isLt
  have e : ((cfg9.win 1).blk t).view.emb (ix2 p q) = ((cfg9.win 4).blk t).view.emb (ix2 p q) := by
    funext a; apply Fin.ext
    match a with
    | ⟨0, _⟩ => show win9_1.index t (0 : Fin 2) * 10000 + 1 * p.val = win9_4.index t (0 : Fin 2) * 10000 + 1 * p.val; omega
    | ⟨1, _⟩ => show win9_1.index t (1 : Fin 2) * 64 + 1 * q.val = win9_4.index t (1 : Fin 2) * 64 + 1 * q.val; omega
  show V c (Pipeline.arrRef spec9 1) (((cfg9.win 1).blk t).view.emb (ix2 p q)) = _
  rw [e]

/-- The same for the residual input's block. -/
theorem blk2_apply (c : Dev nD) (t : Fin cfg9.N) (p : Fin 10000) (q : Fin 64) :
    (iblk9 V c 2 t : Vec Ideal S10000x64 .f32) (ix2 p q)
      = V c (Pipeline.arrRef spec9 2) (((cfg9.win 4).blk t).view.emb (ix2 p q)) := by
  obtain ⟨f00, f01, f10, f11, f20, f21, f30, f31, f40, f41⟩ := idx_facts t
  have hp : p.val < 10000 := p.isLt
  have hq : q.val < 64 := q.isLt
  have e : ((cfg9.win 2).blk t).view.emb (ix2 p q) = ((cfg9.win 4).blk t).view.emb (ix2 p q) := by
    funext a; apply Fin.ext
    match a with
    | ⟨0, _⟩ => show win9_2.index t (0 : Fin 2) * 10000 + 1 * p.val = win9_4.index t (0 : Fin 2) * 10000 + 1 * p.val; omega
    | ⟨1, _⟩ => show win9_2.index t (1 : Fin 2) * 64 + 1 * q.val = win9_4.index t (1 : Fin 2) * 64 + 1 * q.val; omega
  show V c (Pipeline.arrRef spec9 2) (((cfg9.win 2).blk t).view.emb (ix2 p q)) = _
  rw [e]

/-- The bias row's block is the whole row at every point: its entry (0, q) is the bias array's entry (0, column of the
    output's entry). -/
theorem blk3_apply (c : Dev nD) (t : Fin cfg9.N) (p : Fin 10000) (q : Fin 64) :
    (iblk9 V c 3 t : Vec Ideal S1x64 .f32) (ix2 (0 : Fin 1) q)
      = V c (Pipeline.arrRef spec9 3) (ix2 (0 : Fin 1) ((((cfg9.win 4).blk t).view.emb (ix2 p q) : Spec.SN.Idx) 1)) := by
  obtain ⟨f00, f01, f10, f11, f20, f21, f30, f31, f40, f41⟩ := idx_facts t
  have hp : p.val < 10000 := p.isLt
  have hq : q.val < 64 := q.isLt
  have e : ((cfg9.win 3).blk t).view.emb (ix2 (0 : Fin 1) q)
      = ix2 (0 : Fin 1) ((((cfg9.win 4).blk t).view.emb (ix2 p q) : Spec.SN.Idx) 1) := by
    funext a; apply Fin.ext
    match a with
    | ⟨0, _⟩ => show win9_3.index t (0 : Fin 2) * 1 + 1 * 0 = 0; omega
    | ⟨1, _⟩ => show win9_3.index t (1 : Fin 2) * 64 + 1 * q.val = win9_4.index t (1 : Fin 2) * 64 + 1 * q.val; omega
  show V c (Pipeline.arrRef spec9 3) (((cfg9.win 3).blk t).view.emb (ix2 (0 : Fin 1) q)) = _
  exact congrArg (V c (Pipeline.arrRef spec9 3)) e

/-- Entry (p, q) of what the body leaves at point `t` is the sum of the four arrays at entry (p, q) of the output's block. -/
theorem point_eq (c : Dev nD) (t : Fin cfg9.N) (p : Fin 10000) (q : Fin 64) :
    k9_pay1 (F := Ideal) (iblk9 V c 0 t) (iblk9 V c 1 t) (iblk9 V c 2 t) (iblk9 V c 3 t) (ix2 p q)
      = Spec.combine true (V c (Pipeline.arrRef spec9 0)) (V c (Pipeline.arrRef spec9 1))
          (V c (Pipeline.arrRef spec9 2)) (V c (Pipeline.arrRef spec9 3)) (((cfg9.win 4).blk t).view.emb (ix2 p q)) :=
  pay_spec (iblk9 V c 0 t) (iblk9 V c 1 t) (iblk9 V c 2 t) (iblk9 V c 3 t)
    (V c (Pipeline.arrRef spec9 0)) (V c (Pipeline.arrRef spec9 1)) (V c (Pipeline.arrRef spec9 2))
    (V c (Pipeline.arrRef spec9 3)) p q (((cfg9.win 4).blk t).view.emb (ix2 p q))
    (blk0_apply V c t p q) (blk1_apply V c t p q) (blk2_apply V c t p q) (blk3_apply V c t p q)

/-- What point `t` writes back is block `t` of the sum of the four arrays as the region finds them. -/
theorem flushed_eq (c : Dev nD) (t : Fin cfg9.N) :
    (dat9 (F := Ideal) V c).flushed 4 t
      = ((cfg9.win 4).blk t).view.read (Elt Ideal)
          (Spec.combine true (V c (Pipeline.arrRef spec9 0)) (V c (Pipeline.arrRef spec9 1))
            (V c (Pipeline.arrRef spec9 2)) (V c (Pipeline.arrRef spec9 3))) := by
  show (cfg9.win 4).cut (grid9.coords t) ((dat9 (F := Ideal) V c).after 4 t) = _
  rw [after9_4]
  unfold out9_4
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  exact point_eq V c t p q

/-- An entry of the output array lies in point `t`'s block when each coordinate lies in the block's range on its axis. -/
theorem mem_blk (t : Fin cfg9.N) (i : S100000x64.Idx) :
    i ∈ ((cfg9.win 4).blk t).view.set
      ↔ ∀ a : Fin 2, win9_4.index t a * S10000x64.size a ≤ (i a).val
          ∧ (i a).val < win9_4.index t a * S10000x64.size a + S10000x64.size a := by
  show i ∈ ((View.whole (Pipeline.arrRef spec9 4)).slice (win9_4.rect t)).set ↔ _
  rw [View.set_slice_whole, Rect.mem_set_unit]
  exact Iff.rfl

/-- Row `r` of the output lies in the block of point `r / 10000`: the ten blocks tile the array. -/
theorem cover (i : S100000x64.Idx) :
    ∃ t : Fin cfg9.N, (cfg9.win 4).flush t = true ∧ i ∈ ((cfg9.win 4).blk t).view.set := by
  have hi0 : (i 0).val < 100000 := (i 0).isLt
  have hi1 : (i 1).val < 64 := (i 1).isLt
  have hN : grid9.N = 10 := N_9
  let t : Fin cfg9.N := ⟨(i 0).val / 10000, by show (i 0).val / 10000 < grid9.N; omega⟩
  have ht : t.val = (i 0).val / 10000 := rfl
  obtain ⟨f00, f01, f10, f11, f20, f21, f30, f31, f40, f41⟩ := idx_facts t
  refine ⟨t, flush9_4 t, ?_⟩
  rw [mem_blk]
  intro a
  match a with
  | ⟨0, _⟩ =>
    show win9_4.index t (0 : Fin 2) * 10000 ≤ (i 0).val ∧ (i 0).val < win9_4.index t (0 : Fin 2) * 10000 + 10000
    omega
  | ⟨1, _⟩ =>
    show win9_4.index t (1 : Fin 2) * 64 ≤ (i 1).val ∧ (i 1).val < win9_4.index t (1 : Fin 2) * 64 + 64
    omega

/-- The output array after the region's ten write-backs is the sum of the four arrays the region finds, entry by entry. -/
theorem value (c : Dev nD) :
    (Gen.dat9 (F := Ideal) V c).arrAt 4 cfg9.N
      = Spec.combine true (V c (Pipeline.arrRef spec9 0)) (V c (Pipeline.arrRef spec9 1))
          (V c (Pipeline.arrRef spec9 2)) (V c (Pipeline.arrRef spec9 3)) :=
  (dat9 (F := Ideal) V c).arrAt_eq_of_cover 4 _ (fun t _ => flushed_eq V c t) cover

end Cert.Hand.RegCombine9

end
-- ==== Proof.ConvK1.lean ====
/-
  Graph-convolution layer 1 on the kernel's side: what each of its four host stretches leaves in the buffers the
  layer goes on to read, from any contents `V` at the stretch's entry.  Each is the printed operations of that stretch
  read off in order; the message-passing chain is left as the named functions of its inputs.
-/
import proofs.«409001_j25520695673361_2_alg».proof.Proof.Gen.KernelIdeal.Launch
import proofs.«409001_j25520695673361_2_alg».proof.Proof.ConvChain
import Idealize.ShloMosaic.Lib.StableHlo.Run

set_option maxRecDepth 16384

noncomputable section

namespace Cert.Hand.ConvK1

open Idealize.ShloMosaic Idealize.ShloMosaic.ValueIdx Idealize.ShloMosaic.TcCoe
open Cert.KernelIdeal Cert.KernelIdeal.Gen
open Cert.Hand.ConvTake Cert.Hand.ConvChain

/-- A value moved to a typed reference's buffer type and back is the value (both moves are along the same equation of types). -/
theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

variable (V : Valuation τ sig (Elt Ideal))

/-! ## Before the Linear region: the weight matrix, the zero bias as a row -/

/-- The layer's weight matrix: its slice of the stacked weights, as a 64×64 matrix. -/
theorem w_of :
    StableHlo.after (hostOps8 (F := Ideal)) V (Proc.devRef .tc main_v101)
      = shapeCast S64x64
          (extractStridedSlice S1x64x64 ![1, 0, 0] (V (Proc.devRef .tc main_arg7)) slices_S6x64x64_S1x64x64_1_0_0)
          shapeCasts_S1x64x64_S64x64 := by
  after_results
  try rfl

/-- The bias handed to the Linear region: the zero bias as a 1×64 row. -/
theorem b_of :
    StableHlo.after (hostOps8 (F := Ideal)) V (Proc.devRef .tc main_v102)
      = shapeCast S1x64 (StableHlo.after (hostOps8 (F := Ideal)) V (Proc.devRef .tc main_v66)) shapeCasts_S64_S1x64 := by
  after_results
  try rfl

/-! ## After it: the edge weights, the looked-up rows, the aggregation, the self loop, the bias row -/

/-- The edge weights `dinv[src] · dinv[dst]`. -/
theorem norm_of :
    StableHlo.after (hostOps9 (F := Ideal)) V (Proc.devRef .tc main_v118)
      = edgeNorm (V (Proc.devRef .tc main_v10)) (V (Proc.devRef .tc main_v1)) (V (Proc.devRef .tc main_v3)) := by
  after_results_simp
  try rfl

/-- The two buffers the lookup reads, seen at their tensor types: the same contents. -/
theorem src_typed :
    ((.of main_v1 : StableHlo.TRef sig ⟨S800000, .i32⟩)).ofBuf (V (Proc.devRef .tc main_v1))
      = V (Proc.devRef .tc main_v1) := rfl
theorem hw_typed :
    ((.of main_v103 : StableHlo.TRef sig ⟨S100000x64, .f32⟩)).ofBuf (V (Proc.devRef .tc main_v103))
      = V (Proc.devRef .tc main_v103) := rfl

/-- The guarded lookup, with its two inputs and its result seen at their tensor types: the intermediate values'
    moves to their buffers' types and back cancel, and what is left is the named lookup of the two inputs. -/
theorem take_of_typed :
    ((.of main_v119 : StableHlo.TRef sig ⟨S800000x64, .f32⟩)).ofBuf
        (StableHlo.after (hostOps9_1 (F := Ideal)) V (Proc.devRef .tc main_v119))
      = takeRows (((.of main_v103 : StableHlo.TRef sig ⟨S100000x64, .f32⟩)).ofBuf (V (Proc.devRef .tc main_v103)))
          (((.of main_v1 : StableHlo.TRef sig ⟨S800000, .i32⟩)).ofBuf (V (Proc.devRef .tc main_v1))) := by
  after_results_simp
  simp only [ofBuf_toBuf]
  generalize ((.of main_v103 : StableHlo.TRef sig ⟨S100000x64, .f32⟩)).ofBuf (V (Proc.devRef .tc main_v103)) = hw
  generalize ((.of main_v1 : StableHlo.TRef sig ⟨S800000, .i32⟩)).ofBuf (V (Proc.devRef .tc main_v1)) = s
  rfl

/-- The guarded lookup of the transformed features' rows at the source indices. -/
theorem take_of :
    StableHlo.after (hostOps9_1 (F := Ideal)) V (Proc.devRef .tc main_v119)
      = takeRows (V (Proc.devRef .tc main_v103)) (V (Proc.devRef .tc main_v1)) := by
  have h := take_of_typed V
  rw [src_typed V, hw_typed V] at h
  exact h

/-- The weighted rows summed by destination. -/
theorem agg_of :
    StableHlo.after (hostOps9_2 (F := Ideal)) V (Proc.devRef .tc main_v125)
      = agg (V (Proc.devRef .tc main_v119)) (V (Proc.devRef .tc main_v118)) (V (Proc.devRef .tc main_v3)) := by
  after_results
  try rfl

/-- The self loop. -/
theorem self_of :
    StableHlo.after (hostOps9_2 (F := Ideal)) V (Proc.devRef .tc main_v128)
      = selfLoop (V (Proc.devRef .tc main_v103)) (V (Proc.devRef .tc main_v11)) := by
  after_results
  try rfl

/-- The layer's bias: its slice of the stacked biases, flattened and laid out as a row again. -/
theorem bias_of :
    StableHlo.after (hostOps9_2 (F := Ideal)) V (Proc.devRef .tc main_v131)
      = shapeCast S1x64
          (shapeCast S64 (extractStridedSlice S1x64 ![1, 0] (V (Proc.devRef .tc main_arg8)) slices_S6x64_S1x64_1_0)
            shapeCasts_S1x64_S64)
          shapeCasts_S64_S1x64 := by
  after_results
  try rfl

end Cert.Hand.ConvK1

end
-- ==== Proof.StepConv1K.lean ====
/-
  Graph-convolution layer 1, the kernel's half: the layer's output array as ONE function of what the layer finds —
  its input array, the edge rows and inverse-root degrees the prologue wrote, and its slices of the stacked weights
  and biases as launched.

  Linear region: the input times the weight matrix plus a zero bias.  Host stretches: the edge weights, the guarded
  lookup of the transformed rows (the plain gather, every source index being a valid row), the aggregation by
  destination, the self loop.  Combine region: the residual sum with the rectifier.
-/
import proofs.«409001_j25520695673361_2_alg».proof.Proof.KKeep
import proofs.«409001_j25520695673361_2_alg».proof.Proof.Spec
import proofs.«409001_j25520695673361_2_alg».proof.Proof.RegLinear8
import proofs.«409001_j25520695673361_2_alg».proof.Proof.RegCombine9
import proofs.«409001_j25520695673361_2_alg».proof.Proof.ConvK1
import Idealize.ShloMosaic.Lib.Pipeline.Value

noncomputable section

namespace Cert.Hand.StepConv1

open Idealize.ShloMosaic Idealize.ShloMosaic.ValueIdx Idealize.ShloMosaic.TcCoe Idealize.SL.Sem
open Cert.KernelIdeal Cert.KernelIdeal.Gen Cert.KernelIdeal.Hand
open Cert.Hand.ConvTake Cert.Hand.ConvChain

variable (m : (ℓ : Loc nD τ sig) → Buf (Elt Ideal) ℓ) (ρ : Dev nD → PrngReg) (c : Dev nD)

/-! ## What the layer finds -/

/-- The layer's input array. -/
abbrev xin : FVec Ideal S100000x64 .f32 := W24 m ρ c (Proc.devRef .tc main_v99)
/-- The edges' source and destination rows, the inverse-root degrees and their squares, as the prologue left them. -/
abbrev src : IVec S800000 32 := W1 m ρ c (Proc.devRef .tc main_v1)
abbrev dst : IVec S800000 32 := W1 m ρ c (Proc.devRef .tc main_v3)
abbrev dinv : FVec Ideal S100000 .f32 := W1 m ρ c (Proc.devRef .tc main_v10)
abbrev dinv2 : FVec Ideal S100000 .f32 := W1 m ρ c (Proc.devRef .tc main_v11)
/-- The layer's weight matrix and bias row: its slices of the launched arguments. -/
abbrev wmat : FVec Ideal S64x64 .f32 :=
  shapeCast S64x64
    (extractStridedSlice S1x64x64 ![1, 0, 0] (m ((c : Thread nD τ).loc main_arg7)) slices_S6x64x64_S1x64x64_1_0_0)
    shapeCasts_S1x64x64_S64x64
abbrev brow : FVec Ideal S1x64 .f32 :=
  extractStridedSlice S1x64 ![1, 0] (m ((c : Thread nD τ).loc main_arg8)) slices_S6x64_S1x64_1_0
/-- The zero bias of the Linear stage, as a row. -/
abbrev zrow : FVec Ideal S1x64 .f32 :=
  shapeCast S1x64 (broadcastInDim S64 ![] bcast_S_S64 (constant (F := Ideal) S_ .f32 0x00000000#32)) shapeCasts_S64_S1x64

/-! ## The Linear region -/

/-- The transformed features. -/
abbrev hw : FVec Ideal S100000x64 .f32 := Spec.linear (xin m ρ c) (wmat m c) zrow

/-- Where this layer's Linear region finds the zero bias: the buffer written before the first convolution. -/
theorem z66 (hzero : W19 m ρ c (Proc.devRef .tc main_v66)
      = broadcastInDim S64 ![] bcast_S_S64 (constant (F := Ideal) S_ .f32 0x00000000#32)) :
    StableHlo.after (hostOps8 (F := Ideal)) (W24 m ρ c) (Proc.devRef .tc main_v66)
      = broadcastInDim S64 ![] bcast_S_S64 (constant (F := Ideal) S_ .f32 0x00000000#32) :=
  (W25_keep m ρ c main_v66 (by decide)).trans ((W24_v66 m ρ c).trans hzero)

theorem hw_eq (hzero : W19 m ρ c (Proc.devRef .tc main_v66)
      = broadcastInDim S64 ![] bcast_S_S64 (constant (F := Ideal) S_ .f32 0x00000000#32)) :
    W26 m ρ c (Proc.devRef .tc main_v103) = hw m ρ c := by
  have e0 : V25 m ρ c (Pipeline.arrRef spec8 0) = xin m ρ c := W25_keep m ρ c main_v99 (by decide)
  have e1 : V25 m ρ c (Pipeline.arrRef spec8 1) = wmat m c := by
    have h := ConvK1.w_of (W24 m ρ c)
    rw [W24_arg7 m ρ c] at h
    exact h
  have e2 : V25 m ρ c (Pipeline.arrRef spec8 2) = zrow := by
    have h := ConvK1.b_of (W24 m ρ c)
    rw [z66 m ρ c hzero] at h
    exact h
  refine (W26_arr m ρ c 3).trans ((Cert.Hand.RegLinear8.value (V25 m ρ) c).trans ?_)
  rw [e0, e1, e2]

/-! ## The host stretches: every buffer they read, traced back to what the layer found -/

theorem src_at : W26 m ρ c (Proc.devRef .tc main_v1) = src m ρ c :=
  (W26_keep m ρ c main_v1 (by decide)).trans ((W25_keep m ρ c main_v1 (by decide)).trans (W24_v1 m ρ c))
theorem dst_at : W26 m ρ c (Proc.devRef .tc main_v3) = dst m ρ c :=
  (W26_keep m ρ c main_v3 (by decide)).trans ((W25_keep m ρ c main_v3 (by decide)).trans (W24_v3 m ρ c))
theorem dinv_at : W26 m ρ c (Proc.devRef .tc main_v10) = dinv m ρ c :=
  (W26_keep m ρ c main_v10 (by decide)).trans ((W25_keep m ρ c main_v10 (by decide)).trans (W24_v10 m ρ c))
theorem dinv2_at : W26 m ρ c (Proc.devRef .tc main_v11) = dinv2 m ρ c :=
  (W26_keep m ρ c main_v11 (by decide)).trans ((W25_keep m ρ c main_v11 (by decide)).trans (W24_v11 m ρ c))

/-- The edge weights. -/
theorem norm_at : W27 m ρ c (Proc.devRef .tc main_v118) = edgeNorm (dinv m ρ c) (src m ρ c) (dst m ρ c) := by
  have h := ConvK1.norm_of (W26 m ρ c)
  rw [dinv_at m ρ c, src_at m ρ c, dst_at m ρ c] at h
  exact h

/-- The looked-up rows: under the index range, the plain gather at the wrapped source indices. -/
theorem rows_at (hzero : W19 m ρ c (Proc.devRef .tc main_v66)
      = broadcastInDim S64 ![] bcast_S_S64 (constant (F := Ideal) S_ .f32 0x00000000#32))
    (hrange : ∀ e, 0 ≤ ((src m ρ c) e).toInt ∧ ((src m ρ c) e).toInt < 100000) :
    W28 m ρ c (Proc.devRef .tc main_v119) = rows (hw m ρ c) (wrap (src m ρ c)) := by
  have h := ConvK1.take_of (W27 m ρ c)
  have e70 : W27 m ρ c (Proc.devRef .tc main_v103) = hw m ρ c :=
    (W27_keep m ρ c main_v103 (by decide)).trans (hw_eq m ρ c hzero)
  have e1 : W27 m ρ c (Proc.devRef .tc main_v1) = src m ρ c :=
    (W27_keep m ρ c main_v1 (by decide)).trans (src_at m ρ c)
  rw [e70, e1] at h
  exact h.trans (takeRows_eq_rows (hw m ρ c) (src m ρ c) hrange)

/-- The aggregation by destination. -/
theorem agg_at (hzero : W19 m ρ c (Proc.devRef .tc main_v66)
      = broadcastInDim S64 ![] bcast_S_S64 (constant (F := Ideal) S_ .f32 0x00000000#32))
    (hrange : ∀ e, 0 ≤ ((src m ρ c) e).toInt ∧ ((src m ρ c) e).toInt < 100000) :
    W29 m ρ c (Proc.devRef .tc main_v125)
      = agg (rows (hw m ρ c) (wrap (src m ρ c))) (edgeNorm (dinv m ρ c) (src m ρ c) (dst m ρ c)) (dst m ρ c) := by
  have h := ConvK1.agg_of (W28 m ρ c)
  have e85 : W28 m ρ c (Proc.devRef .tc main_v118) = edgeNorm (dinv m ρ c) (src m ρ c) (dst m ρ c) :=
    (W28_keep m ρ c main_v118 (by decide)).trans (norm_at m ρ c)
  have e3 : W28 m ρ c (Proc.devRef .tc main_v3) = dst m ρ c :=
    (W28_keep m ρ c main_v3 (by decide)).trans ((W27_keep m ρ c main_v3 (by decide)).trans (dst_at m ρ c))
  rw [rows_at m ρ c hzero hrange, e85, e3] at h
  exact h

/-- The self loop. -/
theorem self_at (hzero : W19 m ρ c (Proc.devRef .tc main_v66)
      = broadcastInDim S64 ![] bcast_S_S64 (constant (F := Ideal) S_ .f32 0x00000000#32)) :
    W29 m ρ c (Proc.devRef .tc main_v128) = selfLoop (hw m ρ c) (dinv2 m ρ c) := by
  have h := ConvK1.self_of (W28 m ρ c)
  have e70 : W28 m ρ c (Proc.devRef .tc main_v103) = hw m ρ c :=
    (W28_keep m ρ c main_v103 (by decide)).trans ((W27_keep m ρ c main_v103 (by decide)).trans (hw_eq m ρ c hzero))
  have e11 : W28 m ρ c (Proc.devRef .tc main_v11) = dinv2 m ρ c :=
    (W28_keep m ρ c main_v11 (by decide)).trans ((W27_keep m ρ c main_v11 (by decide)).trans (dinv2_at m ρ c))
  rw [e70, e11] at h
  exact h

/-- The residual input, untouched since the layer's entry. -/
theorem xin_at : W29 m ρ c (Proc.devRef .tc main_v99) = xin m ρ c :=
  (W29_keep m ρ c main_v99 (by decide)).trans ((W28_keep m ρ c main_v99 (by decide)).trans
    ((W27_keep m ρ c main_v99 (by decide)).trans ((W26_keep m ρ c main_v99 (by decide)).trans
      (W25_keep m ρ c main_v99 (by decide)))))

/-- The bias row: the slice of the launched biases (flattening it and laying it out as a row again changes nothing). -/
theorem brow_at : W29 m ρ c (Proc.devRef .tc main_v131) = brow m c := by
  have h := ConvK1.bias_of (W28 m ρ c)
  have e8 : W28 m ρ c (Proc.devRef .tc main_arg8) = m ((c : Thread nD τ).loc main_arg8) :=
    (W28_keep m ρ c main_arg8 (by decide)).trans ((W27_keep m ρ c main_arg8 (by decide)).trans
      ((W26_keep m ρ c main_arg8 (by decide)).trans ((W25_keep m ρ c main_arg8 (by decide)).trans (W24_arg8 m ρ c))))
  rw [e8, shapeCast_shapeCast] at h
  exact h

/-! ## The Combine region -/

/-- THE KERNEL'S HALF. -/
theorem kernel_half (hzero : W19 m ρ c (Proc.devRef .tc main_v66)
      = broadcastInDim S64 ![] bcast_S_S64 (constant (F := Ideal) S_ .f32 0x00000000#32))
    (hrange : ∀ e, 0 ≤ ((src m ρ c) e).toInt ∧ ((src m ρ c) e).toInt < 100000) :
    W30 m ρ c (Proc.devRef .tc main_v132)
      = Spec.combine true
          (agg (rows (hw m ρ c) (wrap (src m ρ c))) (edgeNorm (dinv m ρ c) (src m ρ c) (dst m ρ c)) (dst m ρ c))
          (selfLoop (hw m ρ c) (dinv2 m ρ c)) (xin m ρ c) (brow m c) := by
  have e0 : V29 m ρ c (Pipeline.arrRef spec9 0) = _ := agg_at m ρ c hzero hrange
  have e1 : V29 m ρ c (Pipeline.arrRef spec9 1) = _ := self_at m ρ c hzero
  have e2 : V29 m ρ c (Pipeline.arrRef spec9 2) = _ := xin_at m ρ c
  have e3 : V29 m ρ c (Pipeline.arrRef spec9 3) = _ := brow_at m ρ c
  refine (W30_arr m ρ c 4).trans ((Cert.Hand.RegCombine9.value (V29 m ρ) c).trans ?_)
  rw [e0, e1, e2, e3]

end Cert.Hand.StepConv1

end
-- ==== Proof.ConvR1.lean ====
/-
  Graph-convolution layer 1 on the reference's side: what its chunk of operations leaves in its result, from any
  contents `V` at the chunk's entry.  The message-passing chain is the same named functions as on the kernel's side (the
  two programs print the same operations over the same shapes); the row lookup is the bare gather at the wrapped indices.
-/
import proofs.«409001_j25520695673361_2_alg».proof.Proof.RefOps5
import proofs.«409001_j25520695673361_2_alg».proof.Proof.ConvChain
import Idealize.ShloMosaic.Lib.StableHlo.Run
import Idealize.ShloMosaic.Lib.Pipeline.Frame

set_option maxRecDepth 4096

noncomputable section

namespace Cert.Hand.ConvR1

open Idealize.ShloMosaic Idealize.ShloMosaic.ValueIdx Idealize.ShloMosaic.TcCoe
open Cert.ReferenceIdeal Cert.ReferenceIdeal.Gen Cert.ReferenceIdeal.Hand
open Cert.Hand.ConvTake Cert.Hand.ConvChain

variable (V : Valuation τ sig (Elt Ideal))

/-- The transformed features: the layer's input times its slice of the stacked weights. -/
def hw : FVec Ideal S100000x64 .f32 :=
  Host.dotGeneral (φ₁ := .f32) (φ₂ := .f32) dot_S100000x64_S64x64_S100000x64_1_0_0_1_n_n none
    (V (Proc.devRef .tc main_v148))
    (shapeCast S64x64
      (extractStridedSlice (α := Ideal .f32) S1x64x64 ![1, 0, 0] (V (Proc.devRef .tc main_arg7))
        slices_S6x64x64_S1x64x64_1_0_0)
      shapeCasts_S1x64x64_S64x64)

/-! ## The sum before the rectifier -/

/-- What the chunk leaves in the last sum's buffer: aggregation plus self loop, plus the bias row, plus the input.
    Each operation's result is its function of its operands' contents, a buffer no operation of the chunk writes is as
    the chunk found it; what is left is the right side's operations with the named functions unfolded, the two programs'
    dimension records being the same literal lists. -/
theorem pre_of :
    StableHlo.after (rops5 (F := Ideal)) V (Proc.devRef .tc main_v190) =
        (addf
          (addf
            (addf
              (agg (rows (hw V) (wrap (V (Proc.devRef .tc main_v1))))
                (edgeNorm (V (Proc.devRef .tc main_v10)) (V (Proc.devRef .tc main_v1)) (V (Proc.devRef .tc main_v3)))
                (V (Proc.devRef .tc main_v3)))
              (selfLoop (hw V) (mulf (V (Proc.devRef .tc main_v10)) (V (Proc.devRef .tc main_v10)))))
            (broadcastInDim S100000x64 ![0, 1] bcast_S1x64_S100000x64_0_1
              (broadcastInDim S1x64 ![1] bcast_S64_S1x64_1
                (shapeCast S64
                  (extractStridedSlice S1x64 ![1, 0] (V (Proc.devRef .tc main_arg8)) slices_S6x64_S1x64_1_0)
                  shapeCasts_S1x64_S64))))
          (V (Proc.devRef .tc main_v148))) := by
  after_results_simp
  rfl

/-! ## The rectifier -/

/-- Contents moved to a typed reference's buffer type and back are the contents: both moves are along the same equation
    of types. -/
private theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

/-- The chunk is its first forty-nine operations followed by the rectifier's three. -/
private theorem split_tail :
    (rops5 (F := Ideal)) = List.take 49 rops5 ++
      [ StableHlo.TRef.nullary (.of main_call6_cst : StableHlo.TRef sig ⟨S_, .f32⟩) (constant (F := Ideal) S_ .f32 0x00000000#32),
        StableHlo.TRef.unary (.of main_call6_cst : StableHlo.TRef sig ⟨S_, .f32⟩) (.of main_call6_v0 : StableHlo.TRef sig ⟨S100000x64, .f32⟩) (broadcastInDim S100000x64 ![] bcast_S_S100000x64),
        StableHlo.TRef.binary (.of main_v190 : StableHlo.TRef sig ⟨S100000x64, .f32⟩) (.of main_call6_v0 : StableHlo.TRef sig ⟨S100000x64, .f32⟩) (.of main_v191 : StableHlo.TRef sig ⟨S100000x64, .f32⟩) (maximumf (F := Ideal) (φ := .f32)) ] :=
  rfl

/-- The chunk's result is the last sum, rectified: the rectifier's operations read the sum where the first forty-nine
    left it, and none of the three writes it. -/
theorem relu_of :
    StableHlo.after (rops5 (F := Ideal)) V (Proc.devRef .tc main_v191)
      = maximumf (F := Ideal) (StableHlo.after (rops5 (F := Ideal)) V (Proc.devRef .tc main_v190))
        (broadcastInDim S100000x64 ![] bcast_S_S100000x64 (constant (F := Ideal) S_ .f32 0x00000000#32)) := by
  rw [split_tail]
  simp only [StableHlo.after_append]
  generalize StableHlo.after (List.take 49 (rops5 (F := Ideal))) V = V'
  after_results_simp
  simp only [ofBuf_toBuf]
  rfl

/-! ## The layer -/

/-- The layer's result: aggregation plus self loop, plus the bias row, plus the input, rectified. -/
theorem out_of :
    StableHlo.after (rops5 (F := Ideal)) V (Proc.devRef .tc main_v191)
      = maximumf
          (addf
            (addf
              (addf
                (agg (rows (hw V) (wrap (V (Proc.devRef .tc main_v1))))
                  (edgeNorm (V (Proc.devRef .tc main_v10)) (V (Proc.devRef .tc main_v1)) (V (Proc.devRef .tc main_v3)))
                  (V (Proc.devRef .tc main_v3)))
                (selfLoop (hw V) (mulf (V (Proc.devRef .tc main_v10)) (V (Proc.devRef .tc main_v10)))))
              (broadcastInDim S100000x64 ![0, 1] bcast_S1x64_S100000x64_0_1
                (broadcastInDim S1x64 ![1] bcast_S64_S1x64_1
                  (shapeCast S64
                    (extractStridedSlice S1x64 ![1, 0] (V (Proc.devRef .tc main_arg8)) slices_S6x64_S1x64_1_0)
                    shapeCasts_S1x64_S64))))
            (V (Proc.devRef .tc main_v148)))
          (broadcastInDim S100000x64 ![] bcast_S_S100000x64 (constant S_ .f32 0x00000000#32)) := by
  rw [relu_of V, pre_of V]

end Cert.Hand.ConvR1

end
-- ==== Proof.StepConv1R.lean ====
/-
  Graph-convolution layer 1, the reference's half: its chunk's result as ONE function of what the chunk finds — the
  previous layer's result, the edge rows and inverse-root degrees its prologue wrote, and its slices of the stacked
  weights and biases as launched.
-/
import proofs.«409001_j25520695673361_2_alg».proof.Proof.RefVal
import proofs.«409001_j25520695673361_2_alg».proof.Proof.ConvR1

noncomputable section

namespace Cert.Hand.StepConv1

open Idealize.ShloMosaic Idealize.ShloMosaic.ValueIdx Idealize.ShloMosaic.TcCoe Idealize.SL.Sem
open Cert.Hand.ConvTake Cert.Hand.ConvChain

section Ref

open Cert.ReferenceIdeal Cert.ReferenceIdeal.Gen Cert.ReferenceIdeal.Hand

variable (m' : (ℓ : Loc nD τ sig) → Buf (Elt Ideal) ℓ) (c : Dev nD)

/-- What the chunk finds. -/
abbrev rxin : FVec Ideal S100000x64 .f32 := RV5 m' c (Proc.devRef .tc main_v148)
abbrev rsrc : IVec S800000 32 := RV1 m' c (Proc.devRef .tc main_v1)
abbrev rdst : IVec S800000 32 := RV1 m' c (Proc.devRef .tc main_v3)
abbrev rdinv : FVec Ideal S100000 .f32 := RV1 m' c (Proc.devRef .tc main_v10)
abbrev rwmat : FVec Ideal S64x64 .f32 :=
  shapeCast S64x64
    (extractStridedSlice S1x64x64 ![1, 0, 0] (m' ((c.tc : Thread nD τ).loc main_arg7)) slices_S6x64x64_S1x64x64_1_0_0)
    shapeCasts_S1x64x64_S64x64
abbrev rbrow : FVec Ideal S1x64 .f32 :=
  extractStridedSlice S1x64 ![1, 0] (m' ((c.tc : Thread nD τ).loc main_arg8)) slices_S6x64_S1x64_1_0
/-- The transformed features, as a function of the input and the weight matrix: their product. -/
abbrev rdot (x : FVec Ideal S100000x64 .f32) (w : FVec Ideal S64x64 .f32) : FVec Ideal S100000x64 .f32 :=
  Host.dotGeneral dot_S100000x64_S64x64_S100000x64_1_0_0_1_n_n none x w

/-- THE REFERENCE'S HALF. -/
theorem ref_half :
    RV6 m' c (Proc.devRef .tc main_v191)
      = maximumf
          (addf
            (addf
              (addf
                (agg (rows (rdot (rxin m' c) (rwmat m' c)) (wrap (rsrc m' c))) (edgeNorm (rdinv m' c) (rsrc m' c) (rdst m' c)) (rdst m' c))
                (selfLoop (rdot (rxin m' c) (rwmat m' c)) (mulf (rdinv m' c) (rdinv m' c))))
              (broadcastInDim S100000x64 ![0, 1] bcast_S1x64_S100000x64_0_1
                (broadcastInDim S1x64 ![1] bcast_S64_S1x64_1 (shapeCast S64 (rbrow m' c) shapeCasts_S1x64_S64))))
            (rxin m' c))
          (broadcastInDim S100000x64 ![] bcast_S_S100000x64 (constant (F := Ideal) S_ .f32 0x00000000#32)) := by
  have h := ConvR1.out_of (RV5 m' c)
  unfold ConvR1.hw at h
  rw [RV5_v1 m' c, RV5_v3 m' c, RV5_v10 m' c, RV5_arg7 m' c, RV5_arg8 m' c] at h
  exact h

end Ref

end Cert.Hand.StepConv1

end
-- ==== Proof.StepConv1.lean ====
/-
  Graph-convolution layer 1: if the two programs agree on the layer's input, on the edge rows and on the inverse-root
  degrees, they agree on the layer's output.

  The kernel's Linear stage adds a zero bias to the reference's matrix product; its row lookup is the reference's bare
  gather because every source index is a valid row; everything else in the message passing is the same operations
  applied to equal inputs; and its residual sum adds the same four terms in another order.
-/
import proofs.«409001_j25520695673361_2_alg».proof.Proof.Agree
import proofs.«409001_j25520695673361_2_alg».proof.Proof.ConvAlg
import proofs.«409001_j25520695673361_2_alg».proof.Proof.StepConv1K
import proofs.«409001_j25520695673361_2_alg».proof.Proof.StepConv1R

noncomputable section

namespace Cert.Hand.StepConv1

open Idealize.ShloMosaic Idealize.ShloMosaic.ValueIdx Idealize.ShloMosaic.TcCoe Idealize.SL.Sem
open Cert.Hand.ConvTake Cert.Hand.ConvChain

/-- The layer step. -/
theorem step
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hagree : Cert.Hand.Agree m m')
    (hin : (Cert.KernelIdeal.Gen.W24 m ρ c (Proc.devRef .tc Cert.KernelIdeal.main_v99) : Spec.SN.Idx → EReal)
      = Cert.ReferenceIdeal.Hand.RV5 m' c (Proc.devRef .tc Cert.ReferenceIdeal.main_v148))
    (hsrc : (Cert.KernelIdeal.Gen.W1 m ρ c (Proc.devRef .tc Cert.KernelIdeal.main_v1) : IVec Cert.KernelIdeal.S800000 32)
      = Cert.ReferenceIdeal.Hand.RV1 m' c (Proc.devRef .tc Cert.ReferenceIdeal.main_v1))
    (hdst : (Cert.KernelIdeal.Gen.W1 m ρ c (Proc.devRef .tc Cert.KernelIdeal.main_v3) : IVec Cert.KernelIdeal.S800000 32)
      = Cert.ReferenceIdeal.Hand.RV1 m' c (Proc.devRef .tc Cert.ReferenceIdeal.main_v3))
    (hdinv : (Cert.KernelIdeal.Gen.W1 m ρ c (Proc.devRef .tc Cert.KernelIdeal.main_v10) : FVec Ideal Cert.KernelIdeal.S100000 .f32)
      = Cert.ReferenceIdeal.Hand.RV1 m' c (Proc.devRef .tc Cert.ReferenceIdeal.main_v10))
    (hdinv2 : Cert.KernelIdeal.Gen.W1 m ρ c (Proc.devRef .tc Cert.KernelIdeal.main_v11)
      = mulf (F := Ideal) (s := Cert.KernelIdeal.S100000) (φ := .f32) (Cert.KernelIdeal.Gen.W1 m ρ c (Proc.devRef .tc Cert.KernelIdeal.main_v10))
          (Cert.KernelIdeal.Gen.W1 m ρ c (Proc.devRef .tc Cert.KernelIdeal.main_v10)))
    (hrange : ∀ e, 0 ≤ ((Cert.KernelIdeal.Gen.W1 m ρ c (Proc.devRef .tc Cert.KernelIdeal.main_v1)) e).toInt
      ∧ ((Cert.KernelIdeal.Gen.W1 m ρ c (Proc.devRef .tc Cert.KernelIdeal.main_v1)) e).toInt < 100000)
    (hzero : Cert.KernelIdeal.Gen.W19 m ρ c (Proc.devRef .tc Cert.KernelIdeal.main_v66)
      = broadcastInDim Cert.KernelIdeal.S64 ![] Cert.KernelIdeal.Gen.bcast_S_S64
          (constant (F := Ideal) Cert.KernelIdeal.S_ .f32 0x00000000#32)) :
    (Cert.KernelIdeal.Gen.W30 m ρ c (Proc.devRef .tc Cert.KernelIdeal.main_v132) : Spec.SN.Idx → EReal)
      = Cert.ReferenceIdeal.Hand.RV6 m' c (Proc.devRef .tc Cert.ReferenceIdeal.main_v191) := by
  -- the two launch memories hold the same stacked weights and biases
  obtain ⟨-, -, -, -, -, -, -, h7, h8, -⟩ := hagree c
  -- the reference's inputs are the kernel's
  have ex : rxin m' c = xin m ρ c := hin.symm
  have es : rsrc m' c = src m ρ c := hsrc.symm
  have ed : rdst m' c = dst m ρ c := hdst.symm
  have ei : rdinv m' c = dinv m ρ c := hdinv.symm
  have ew : rwmat m' c = wmat m c := by
    unfold rwmat wmat
    rw [h7]
  have eb : rbrow m' c = brow m c := by
    unfold rbrow brow
    rw [h8]
  have e2 : dinv2 m ρ c = mulf (dinv m ρ c) (dinv m ρ c) := hdinv2
  refine (kernel_half m ρ c hzero hrange).trans (Eq.trans ?_ (ref_half m' c).symm)
  rw [ex, es, ed, ei, ew, eb, e2]
  exact ConvAlg.conv_relu (xin m ρ c) (wmat m c) zrow (brow m c)
    (ConvAlg.zero_row Cert.KernelIdeal.Gen.bcast_S_S64 Cert.KernelIdeal.Gen.shapeCasts_S64_S1x64)
    (src m ρ c) (dst m ρ c) (dinv m ρ c)
    Cert.ReferenceIdeal.Gen.shapeCasts_S1x64_S64 Cert.ReferenceIdeal.Gen.bcast_S64_S1x64_1
    Cert.ReferenceIdeal.Gen.bcast_S1x64_S100000x64_0_1 Cert.ReferenceIdeal.Gen.bcast_S_S100000x64

end Cert.Hand.StepConv1

end
-- ==== Proof.RegLinear10.lean ====
/-
  Region 10 of the network: a Linear layer on all 100000 nodes, run as ten row blocks of 10000 × 64.
  Each grid point reads its row block of x, the whole 64 × 64 weight matrix and the whole 1 × 64 bias row, and leaves
  (x_block · w) + b in its row block of the result.  Read on the extended reals, where the narrowing of both
  factors to bf16 is the identity, the ten blocks together are `Spec.linear x w b`:
    row i, column j  ↦  (Σ_k x[i,k] · w[k,j]) + b[0,j].
  The steps: the block product at an index as a sum over the contraction coordinate (`pay_apply`); each window's
  block as rows of its array (`xblk_apply`, `wblk_eq`, `bblk_eq`); what point t writes back is block t of
  `Spec.linear x w b` (`flushed_eq`); the ten blocks cover the result, row r lying in block r / 10000 (`cover`);
  so the result array is `Spec.linear x w b` (`value`).
-/
import proofs.«409001_j25520695673361_2_alg».proof.Proof.Gen.KernelIdeal.Frame
import proofs.«409001_j25520695673361_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.Hand.RegLinear10

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

/-- Axis 0 of the left factor's index is the output's row. -/
theorem lhs_0 (j : S10000x64.Idx) (k : dot_S10000x64_S64x64_S10000x64_1_0_0_1_n_n.contr.Idx) :
    (dot_S10000x64_S64x64_S10000x64_1_0_0_1_n_n.lhsIdx j k 0).val = (j 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- Axis 1 of the left factor's index is the contraction coordinate. -/
theorem lhs_1 (j : S10000x64.Idx) (k : dot_S10000x64_S64x64_S10000x64_1_0_0_1_n_n.contr.Idx) :
    (dot_S10000x64_S64x64_S10000x64_1_0_0_1_n_n.lhsIdx j k 1).val = (k ⟨0, by decide⟩).val :=
  dot_S10000x64_S64x64_S10000x64_1_0_0_1_n_n.lhsIdx_val_of_single rfl j k

/-- Axis 0 of the right factor's index is the contraction coordinate. -/
theorem rhs_0 (j : S10000x64.Idx) (k : dot_S10000x64_S64x64_S10000x64_1_0_0_1_n_n.contr.Idx) :
    (dot_S10000x64_S64x64_S10000x64_1_0_0_1_n_n.rhsIdx j k 0).val = (k ⟨0, by decide⟩).val :=
  dot_S10000x64_S64x64_S10000x64_1_0_0_1_n_n.rhsIdx_val_of_single rfl j k

/-- Axis 1 of the right factor's index is the output's column. -/
theorem rhs_1 (j : S10000x64.Idx) (k : dot_S10000x64_S64x64_S10000x64_1_0_0_1_n_n.contr.Idx) :
    (dot_S10000x64_S64x64_S10000x64_1_0_0_1_n_n.rhsIdx j k 1).val = (j 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- What the body stores, at row p and column q of the block: the row of the first block times the column of the
    second, summed over the 64 contraction coordinates, plus the bias row's entry in that column. On the extended reals
    the two narrowings to bf16 change nothing and the accumulator's zero splat adds nothing. -/
theorem pay_apply (x0 : Vec Ideal S10000x64 .f32) (x1 : Vec Ideal S64x64 .f32) (x2 : Vec Ideal S1x64 .f32)
    (p : Fin 10000) (q : Fin 64) :
    k10_pay1 (F := Ideal) x0 x1 x2 (ix2 p q) = (∑ k : Fin 64, x0 (ix2 p k) * x1 (ix2 k q)) + x2 (ix2 (0 : Fin 1) q) := by
  unfold k10_pay1
  simp only [shapeCast_self]
  refine congrArg₂ (· + ·) ?_ (broadcastTo_1b_ab_apply x2 broadcasts_S1x64_S10000x64 p q)
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hl : dot_S10000x64_S64x64_S10000x64_1_0_0_1_n_n.lhsIdx (ix2 p q)
      ((contrEquiv1 dot_S10000x64_S64x64_S10000x64_1_0_0_1_n_n 64 rfl rfl).symm k) = ix2 p k := by
    funext a; apply Fin.ext
    match a with
    | ⟨0, _⟩ => exact lhs_0 _ _
    | ⟨1, _⟩ => exact (lhs_1 _ _).trans (contrEquiv1_symm_val dot_S10000x64_S64x64_S10000x64_1_0_0_1_n_n 64 rfl rfl k)
  have hr : dot_S10000x64_S64x64_S10000x64_1_0_0_1_n_n.rhsIdx (ix2 p q)
      ((contrEquiv1 dot_S10000x64_S64x64_S10000x64_1_0_0_1_n_n 64 rfl rfl).symm k) = ix2 k q := by
    funext a; apply Fin.ext
    match a with
    | ⟨0, _⟩ => exact (rhs_0 _ _).trans (contrEquiv1_symm_val dot_S10000x64_S64x64_S10000x64_1_0_0_1_n_n 64 rfl rfl k)
    | ⟨1, _⟩ => exact rhs_1 _ _
  show x0 _ * x1 _ = _
  rw [hl, hr]

/-- One row block of the layer. If the first block is rows `10000 r …` of an array X, the second is W and the third is B,
    then at local index y, which is index i of the whole array, the body's value is `Spec.linear X W B` at i. -/
theorem pay_linear (x0 : Vec Ideal S10000x64 .f32) (x1 : Vec Ideal S64x64 .f32) (x2 : Vec Ideal S1x64 .f32)
    (X : Spec.SN.Idx → EReal) (W : Spec.SW.Idx → EReal) (B : Spec.SR.Idx → EReal) (r : ℕ)
    (hX : ∀ (y : S10000x64.Idx) (i : Spec.SN.Idx), (i 0).val = r * 10000 + (y 0).val → (i 1).val = (y 1).val → x0 y = X i)
    (hW : x1 = W) (hB : x2 = B)
    (y : S10000x64.Idx) (i : Spec.SN.Idx) (h0 : (i 0).val = r * 10000 + (y 0).val) (h1 : (i 1).val = (y 1).val) :
    k10_pay1 (F := Ideal) x0 x1 x2 y = Spec.linear X W B i := by
  obtain ⟨p, q, rfl⟩ : ∃ (p : Fin 10000) (q : Fin 64), y = ix2 p q := ⟨y 0, y 1, eq_ix2 y⟩
  have hq : (i 1 : Fin 64) = q := Fin.ext h1
  subst hW hB
  refine (pay_apply x0 x1 x2 p q).trans ?_
  show _ = (∑ k : Fin 64, X (ix2 (i 0) k) * x1 (ix2 k (i 1))) + x2 (ix2 0 (i 1))
  refine congrArg₂ (· + ·) (Finset.sum_congr rfl fun k _ => congrArg₂ (· * ·) ?_ ?_) ?_
  · exact hX (ix2 p k) (ix2 (i 0) k) h0 rfl
  · exact (congrArg (fun z : Fin 64 => x1 (ix2 k z)) hq).symm
  · exact (congrArg (fun z : Fin 64 => x2 (ix2 (0 : Fin 1) z)) hq).symm

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the ten row blocks: x and the result move down with the point, w and b stay. -/
theorem idx_facts : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- Row block t of x: rows `10000 t … 10000 t + 9999` of the array. -/
theorem xblk_apply (c : Dev nD) (t : Fin cfg10.N) (y : S10000x64.Idx) (i : Spec.SN.Idx)
    (h0 : (i 0).val = t.val * 10000 + (y 0).val) (h1 : (i 1).val = (y 1).val) :
    (iblk10 V c 0 t : Vec Ideal S10000x64 .f32) y = (V c (Pipeline.arrRef spec10 0) : Spec.SN.Idx → EReal) i := by
  obtain ⟨e0, e1, -⟩ := idx_facts t
  unfold iblk10
  rw [View.read_apply]
  show V c (Pipeline.arrRef spec10 0) _ = V c (Pipeline.arrRef spec10 0) _
  refine congrArg _ (funext fun a => Fin.ext ?_)
  match a with
  | ⟨0, _⟩ => show win10_0.index t (0 : Fin 2) * 10000 + 1 * (y 0).val = (i 0).val; omega
  | ⟨1, _⟩ => show win10_0.index t (1 : Fin 2) * 64 + 1 * (y 1).val = (i 1).val; omega

/-- The weights' one block is the whole matrix. -/
theorem wblk_eq (c : Dev nD) (t : Fin cfg10.N) :
    (iblk10 V c 1 t : Vec Ideal S64x64 .f32) = (V c (Pipeline.arrRef spec10 1) : Spec.SW.Idx → EReal) := by
  obtain ⟨-, -, e0, e1, -⟩ := idx_facts t
  funext y
  unfold iblk10
  rw [View.read_apply]
  show V c (Pipeline.arrRef spec10 1) _ = V c (Pipeline.arrRef spec10 1) _
  refine congrArg _ (funext fun a => Fin.ext ?_)
  match a with
  | ⟨0, _⟩ => show win10_1.index t (0 : Fin 2) * 64 + 1 * (y 0).val = (y 0).val; omega
  | ⟨1, _⟩ => show win10_1.index t (1 : Fin 2) * 64 + 1 * (y 1).val = (y 1).val; omega

/-- The bias row's one block is the whole row. -/
theorem bblk_eq (c : Dev nD) (t : Fin cfg10.N) :
    (iblk10 V c 2 t : Vec Ideal S1x64 .f32) = (V c (Pipeline.arrRef spec10 2) : Spec.SR.Idx → EReal) := by
  obtain ⟨-, -, -, -, e0, e1, -⟩ := idx_facts t
  funext y
  unfold iblk10
  rw [View.read_apply]
  show V c (Pipeline.arrRef spec10 2) _ = V c (Pipeline.arrRef spec10 2) _
  refine congrArg _ (funext fun a => Fin.ext ?_)
  match a with
  | ⟨0, _⟩ => show win10_2.index t (0 : Fin 2) * 1 + 1 * (y 0).val = (y 0).val; omega
  | ⟨1, _⟩ => show win10_2.index t (1 : Fin 2) * 64 + 1 * (y 1).val = (y 1).val; omega

/-- What the result array ends holding: the Linear layer of the three arrays as the region finds them. -/
abbrev G (c : Dev nD) : Spec.SN.Idx → EReal :=
  Spec.linear (V c (Pipeline.arrRef spec10 0)) (V c (Pipeline.arrRef spec10 1)) (V c (Pipeline.arrRef spec10 2))

/-- What point t writes back is block t of `G`. -/
theorem flushed_eq (c : Dev nD) (t : Fin cfg10.N) :
    (dat10 V c).flushed 3 t = ((cfg10.win 3).blk t).view.read (Elt Ideal) (G V c) := by
  show (cfg10.win 3).cut (grid10.coords t) ((dat10 V c).after 3 t) = _
  rw [after10_3]
  unfold out10_3
  rw [View.canon_unit_zero hz]
  simp only [View.ld_unit_zero (S := S10000x64) hz, View.ld_unit_zero (S := S64x64) hz, View.ld_unit_zero (S := S1x64) hz]
  obtain ⟨-, -, -, -, -, -, e0, e1⟩ := idx_facts t
  funext y
  rw [View.read_apply]
  show k10_pay1 (F := Ideal) (iblk10 V c 0 t) (iblk10 V c 1 t) (iblk10 V c 2 t) ((cfg10.win 3).xinj (grid10.coords t) y)
    = G V c (((cfg10.win 3).blk t).view.emb y)
  exact pay_linear (iblk10 V c 0 t) (iblk10 V c 1 t) (iblk10 V c 2 t)
    (V c (Pipeline.arrRef spec10 0)) (V c (Pipeline.arrRef spec10 1)) (V c (Pipeline.arrRef spec10 2)) t.val
    (xblk_apply V c t) (wblk_eq V c t) (bblk_eq V c t)
    ((cfg10.win 3).xinj (grid10.coords t) y) (((cfg10.win 3).blk t).view.emb y)
    (by show win10_3.index t (0 : Fin 2) * 10000 + 1 * (y 0).val = t.val * 10000 + (y 0).val; omega)
    (by show win10_3.index t (1 : Fin 2) * 64 + 1 * (y 1).val = (y 1).val; omega)

/-- An index of the result is in point t's block iff each coordinate is in the block's range on its axis. -/
theorem mem_blk (t : Fin cfg10.N) (i : S100000x64.Idx) :
    i ∈ ((cfg10.win 3).blk t).view.set ↔ ∀ a : Fin 2, win10_3.index t a * S10000x64.size a ≤ (i a).val ∧ (i a).val < win10_3.index t a * S10000x64.size a + S10000x64.size a := by
  show i ∈ ((View.whole main_v136).slice (win10_3.rect t)).set ↔ _
  rw [View.set_slice_whole, Rect.mem_set_unit]
  exact Iff.rfl

/-- The ten row blocks cover the result: row r is in block r / 10000. -/
theorem cover (i : S100000x64.Idx) : ∃ t : Fin cfg10.N, (cfg10.win 3).flush t = true ∧ i ∈ ((cfg10.win 3).blk t).view.set := by
  have hi0 : (i 0).val < 100000 := (i 0).isLt
  have hi1 : (i 1).val < 64 := (i 1).isLt
  have hN : grid10.N = 10 := N_10
  let t : Fin cfg10.N := ⟨(i 0).val / 10000, by show _ < grid10.N; omega⟩
  obtain ⟨-, -, -, -, -, -, e0, e1⟩ := idx_facts t
  refine ⟨t, flush10_3 t, ?_⟩
  rw [mem_blk]
  intro a
  match a with
  | ⟨0, _⟩ => show win10_3.index t (0 : Fin 2) * 10000 ≤ (i 0).val ∧ (i 0).val < win10_3.index t (0 : Fin 2) * 10000 + 10000
              have : t.val = (i 0).val / 10000 := rfl
              omega
  | ⟨1, _⟩ => show win10_3.index t (1 : Fin 2) * 64 ≤ (i 1).val ∧ (i 1).val < win10_3.index t (1 : Fin 2) * 64 + 64; omega

/-- The region's result: after its ten write-backs the output array is the Linear layer of the three input arrays as
    the region finds them. -/
theorem value (c : Dev nD) :
    (dat10 (F := Ideal) V c).arrAt 3 cfg10.N
      = Spec.linear (V c (Pipeline.arrRef spec10 0)) (V c (Pipeline.arrRef spec10 1)) (V c (Pipeline.arrRef spec10 2)) :=
  (dat10 V c).arrAt_eq_of_cover 3 (G V c) (fun t _ => flushed_eq V c t) cover

end Cert.Hand.RegLinear10

end
-- ==== Proof.RegCombine11.lean ====
/-
  Region 11: the graph convolution's residual sum with the rectifier.  Ten grid points; point t takes rows
  10000·t … 10000·t + 9999 of the aggregated neighbours, of the self loop and of the residual input, and the whole
  1×64 bias row, and writes back rows 10000·t … of the output: entry (r, j) is
  max(((a[r,j] + s[r,j]) + h[r,j]) + b[0,j], 0).  The ten row blocks tile the 100000 rows, so the output array ends
  as that one function of the four arrays the region finds.
-/
import proofs.«409001_j25520695673361_2_alg».proof.Proof.Gen.KernelIdeal.Frame
import proofs.«409001_j25520695673361_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.Hand.RegCombine11

open Cert.KernelIdeal Cert.KernelIdeal.Gen

/-- The store's and the loads' offsets are zero on both axes. -/
theorem hz : (![0, 0] : Fin 2 → Nat) = fun _ => 0 := funext fun a => by fin_cases a <;> rfl

/-- One entry of the body's result on a block: the entries of the three blocks added in order, the entry of the bias row
    in that column added, and the maximum of that with zero (the zero word denotes the real number zero). -/
theorem pay_apply (x0 x1 x2 : Vec Ideal S10000x64 .f32) (x3 : Vec Ideal S1x64 .f32) (p : Fin 10000) (q : Fin 64) :
    k11_pay1 (F := Ideal) x0 x1 x2 x3 (ix2 p q)
      = max (((x0 (ix2 p q) + x1 (ix2 p q)) + x2 (ix2 p q)) + x3 (ix2 (0 : Fin 1) q)) 0 := by
  unfold k11_pay1
  simp only [shapeCast_self]
  rw [maximumf_apply, addf_apply, addf_apply, addf_apply, broadcast_apply, broadcastTo_1b_ab_apply]
  show max _ (Ideal.ofBits .f32 0x00000000#32) = _
  rw [Ideal.ofBits_zero_f32]

/-- The same entry against the specification: when the three blocks' entries at (p, q) are the arrays' entries at `i` and
    the bias block's entry at (0, q) is the bias array's entry in `i`'s column, the body's entry is the sum's at `i`. -/
theorem pay_spec (x0 x1 x2 : Vec Ideal S10000x64 .f32) (x3 : Vec Ideal S1x64 .f32)
    (a s h : Spec.SN.Idx → EReal) (b : Spec.SR.Idx → EReal) (p : Fin 10000) (q : Fin 64) (i : Spec.SN.Idx)
    (h0 : x0 (ix2 p q) = a i) (h1 : x1 (ix2 p q) = s i) (h2 : x2 (ix2 p q) = h i)
    (h3 : x3 (ix2 (0 : Fin 1) q) = b (ix2 0 (i 1))) :
    k11_pay1 (F := Ideal) x0 x1 x2 x3 (ix2 p q) = Spec.combine true a s h b i := by
  rw [pay_apply, h0, h1, h2, h3]
  rfl

/-- Where each window's block sits at grid point `t`: the three node arrays and the output move down one row block per
    point and stay in column block 0; the bias row's block never moves. -/
theorem idx_facts : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = 0 ∧ win11_3.index t (1 : Fin 2) = 0
    ∧ win11_4.index t (0 : Fin 2) = t.val ∧ win11_4.index t (1 : Fin 2) = 0 :=
  (by decide +kernel : ∀ t : Fin grid11.N, _)

variable (V : (c : Dev nD) → (b : Ref sig .tc) → Buf (Elt Ideal) ((c : Thread nD τ).loc b))

/-- Entry (p, q) of the aggregated neighbours' block at point `t` is that array's entry at entry (p, q) of the output's block:
    both blocks are rows 10000·t … 10000·t + 9999 and all 64 columns. -/
theorem blk0_apply (c : Dev nD) (t : Fin cfg11.N) (p : Fin 10000) (q : Fin 64) :
    (iblk11 V c 0 t : Vec Ideal S10000x64 .f32) (ix2 p q)
      = V c (Pipeline.arrRef spec11 0) (((cfg11.win 4).blk t).view.emb (ix2 p q)) := by
  obtain ⟨f00, f01, f10, f11, f20, f21, f30, f31, f40, f41⟩ := idx_facts t
  have hp : p.val < 10000 := p.isLt
  have hq : q.val < 64 := q.isLt
  have e : ((cfg11.win 0).blk t).view.emb (ix2 p q) = ((cfg11.win 4).blk t).view.emb (ix2 p q) := by
    funext a; apply Fin.ext
    match a with
    | ⟨0, _⟩ => show win11_0.index t (0 : Fin 2) * 10000 + 1 * p.val = win11_4.index t (0 : Fin 2) * 10000 + 1 * p.val; omega
    | ⟨1, _⟩ => show win11_0.index t (1 : Fin 2) * 64 + 1 * q.val = win11_4.index t (1 : Fin 2) * 64 + 1 * q.val; omega
  show V c (Pipeline.arrRef spec11 0) (((cfg11.win 0).blk t).view.emb (ix2 p q)) = _
  rw [e]

/-- The same for the self loop's block. -/
theorem blk1_apply (c : Dev nD) (t : Fin cfg11.N) (p : Fin 10000) (q : Fin 64) :
    (iblk11 V c 1 t : Vec Ideal S10000x64 .f32) (ix2 p q)
      = V c (Pipeline.arrRef spec11 1) (((cfg11.win 4).blk t).view.emb (ix2 p q)) := by
  obtain ⟨f00, f01, f10, f11, f20, f21, f30, f31, f40, f41⟩ := idx_facts t
  have hp : p.val < 10000 := p.isLt
  have hq : q.val < 64 := q.isLt
  have e : ((cfg11.win 1).blk t).view.emb (ix2 p q) = ((cfg11.win 4).blk t).view.emb (ix2 p q) := by
    funext a; apply Fin.ext
    match a with
    | ⟨0, _⟩ => show win11_1.index t (0 : Fin 2) * 10000 + 1 * p.val = win11_4.index t (0 : Fin 2) * 10000 + 1 * p.val; omega
    | ⟨1, _⟩ => show win11_1.index t (1 : Fin 2) * 64 + 1 * q.val = win11_4.index t (1 : Fin 2) * 64 + 1 * q.val; omega
  show V c (Pipeline.arrRef spec11 1) (((cfg11.win 1).blk t).view.emb (ix2 p q)) = _
  rw [e]

/-- The same for the residual input's block. -/
theorem blk2_apply (c : Dev nD) (t : Fin cfg11.N) (p : Fin 10000) (q : Fin 64) :
    (iblk11 V c 2 t : Vec Ideal S10000x64 .f32) (ix2 p q)
      = V c (Pipeline.arrRef spec11 2) (((cfg11.win 4).blk t).view.emb (ix2 p q)) := by
  obtain ⟨f00, f01, f10, f11, f20, f21, f30, f31, f40, f41⟩ := idx_facts t
  have hp : p.val < 10000 := p.isLt
  have hq : q.val < 64 := q.isLt
  have e : ((cfg11.win 2).blk t).view.emb (ix2 p q) = ((cfg11.win 4).blk t).view.emb (ix2 p q) := by
    funext a; apply Fin.ext
    match a with
    | ⟨0, _⟩ => show win11_2.index t (0 : Fin 2) * 10000 + 1 * p.val = win11_4.index t (0 : Fin 2) * 10000 + 1 * p.val; omega
    | ⟨1, _⟩ => show win11_2.index t (1 : Fin 2) * 64 + 1 * q.val = win11_4.index t (1 : Fin 2) * 64 + 1 * q.val; omega
  show V c (Pipeline.arrRef spec11 2) (((cfg11.win 2).blk t).view.emb (ix2 p q)) = _
  rw [e]

/-- The bias row's block is the whole row at every point: its entry (0, q) is the bias array's entry (0, column of the
    output's entry). -/
theorem blk3_apply (c : Dev nD) (t : Fin cfg11.N) (p : Fin 10000) (q : Fin 64) :
    (iblk11 V c 3 t : Vec Ideal S1x64 .f32) (ix2 (0 : Fin 1) q)
      = V c (Pipeline.arrRef spec11 3) (ix2 (0 : Fin 1) ((((cfg11.win 4).blk t).view.emb (ix2 p q) : Spec.SN.Idx) 1)) := by
  obtain ⟨f00, f01, f10, f11, f20, f21, f30, f31, f40, f41⟩ := idx_facts t
  have hp : p.val < 10000 := p.isLt
  have hq : q.val < 64 := q.isLt
  have e : ((cfg11.win 3).blk t).view.emb (ix2 (0 : Fin 1) q)
      = ix2 (0 : Fin 1) ((((cfg11.win 4).blk t).view.emb (ix2 p q) : Spec.SN.Idx) 1) := by
    funext a; apply Fin.ext
    match a with
    | ⟨0, _⟩ => show win11_3.index t (0 : Fin 2) * 1 + 1 * 0 = 0; omega
    | ⟨1, _⟩ => show win11_3.index t (1 : Fin 2) * 64 + 1 * q.val = win11_4.index t (1 : Fin 2) * 64 + 1 * q.val; omega
  show V c (Pipeline.arrRef spec11 3) (((cfg11.win 3).blk t).view.emb (ix2 (0 : Fin 1) q)) = _
  exact congrArg (V c (Pipeline.arrRef spec11 3)) e

/-- Entry (p, q) of what the body leaves at point `t` is the sum of the four arrays at entry (p, q) of the output's block. -/
theorem point_eq (c : Dev nD) (t : Fin cfg11.N) (p : Fin 10000) (q : Fin 64) :
    k11_pay1 (F := Ideal) (iblk11 V c 0 t) (iblk11 V c 1 t) (iblk11 V c 2 t) (iblk11 V c 3 t) (ix2 p q)
      = Spec.combine true (V c (Pipeline.arrRef spec11 0)) (V c (Pipeline.arrRef spec11 1))
          (V c (Pipeline.arrRef spec11 2)) (V c (Pipeline.arrRef spec11 3)) (((cfg11.win 4).blk t).view.emb (ix2 p q)) :=
  pay_spec (iblk11 V c 0 t) (iblk11 V c 1 t) (iblk11 V c 2 t) (iblk11 V c 3 t)
    (V c (Pipeline.arrRef spec11 0)) (V c (Pipeline.arrRef spec11 1)) (V c (Pipeline.arrRef spec11 2))
    (V c (Pipeline.arrRef spec11 3)) p q (((cfg11.win 4).blk t).view.emb (ix2 p q))
    (blk0_apply V c t p q) (blk1_apply V c t p q) (blk2_apply V c t p q) (blk3_apply V c t p q)

/-- What point `t` writes back is block `t` of the sum of the four arrays as the region finds them. -/
theorem flushed_eq (c : Dev nD) (t : Fin cfg11.N) :
    (dat11 (F := Ideal) V c).flushed 4 t
      = ((cfg11.win 4).blk t).view.read (Elt Ideal)
          (Spec.combine true (V c (Pipeline.arrRef spec11 0)) (V c (Pipeline.arrRef spec11 1))
            (V c (Pipeline.arrRef spec11 2)) (V c (Pipeline.arrRef spec11 3))) := by
  show (cfg11.win 4).cut (grid11.coords t) ((dat11 (F := Ideal) V c).after 4 t) = _
  rw [after11_4]
  unfold out11_4
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  exact point_eq V c t p q

/-- An entry of the output array lies in point `t`'s block when each coordinate lies in the block's range on its axis. -/
theorem mem_blk (t : Fin cfg11.N) (i : S100000x64.Idx) :
    i ∈ ((cfg11.win 4).blk t).view.set
      ↔ ∀ a : Fin 2, win11_4.index t a * S10000x64.size a ≤ (i a).val
          ∧ (i a).val < win11_4.index t a * S10000x64.size a + S10000x64.size a := by
  show i ∈ ((View.whole (Pipeline.arrRef spec11 4)).slice (win11_4.rect t)).set ↔ _
  rw [View.set_slice_whole, Rect.mem_set_unit]
  exact Iff.rfl

/-- Row `r` of the output lies in the block of point `r / 10000`: the ten blocks tile the array. -/
theorem cover (i : S100000x64.Idx) :
    ∃ t : Fin cfg11.N, (cfg11.win 4).flush t = true ∧ i ∈ ((cfg11.win 4).blk t).view.set := by
  have hi0 : (i 0).val < 100000 := (i 0).isLt
  have hi1 : (i 1).val < 64 := (i 1).isLt
  have hN : grid11.N = 10 := N_11
  let t : Fin cfg11.N := ⟨(i 0).val / 10000, by show (i 0).val / 10000 < grid11.N; omega⟩
  have ht : t.val = (i 0).val / 10000 := rfl
  obtain ⟨f00, f01, f10, f11, f20, f21, f30, f31, f40, f41⟩ := idx_facts t
  refine ⟨t, flush11_4 t, ?_⟩
  rw [mem_blk]
  intro a
  match a with
  | ⟨0, _⟩ =>
    show win11_4.index t (0 : Fin 2) * 10000 ≤ (i 0).val ∧ (i 0).val < win11_4.index t (0 : Fin 2) * 10000 + 10000
    omega
  | ⟨1, _⟩ =>
    show win11_4.index t (1 : Fin 2) * 64 ≤ (i 1).val ∧ (i 1).val < win11_4.index t (1 : Fin 2) * 64 + 64
    omega

/-- The output array after the region's ten write-backs is the sum of the four arrays the region finds, entry by entry. -/
theorem value (c : Dev nD) :
    (Gen.dat11 (F := Ideal) V c).arrAt 4 cfg11.N
      = Spec.combine true (V c (Pipeline.arrRef spec11 0)) (V c (Pipeline.arrRef spec11 1))
          (V c (Pipeline.arrRef spec11 2)) (V c (Pipeline.arrRef spec11 3)) :=
  (dat11 (F := Ideal) V c).arrAt_eq_of_cover 4 _ (fun t _ => flushed_eq V c t) cover

end Cert.Hand.RegCombine11

end
-- ==== Proof.ConvK2.lean ====
/-
  Graph-convolution layer 2 on the kernel's side: what each of its four host stretches leaves in the buffers the
  layer goes on to read, from any contents `V` at the stretch's entry.  Each is the printed operations of that stretch
  read off in order; the message-passing chain is left as the named functions of its inputs.
-/
import proofs.«409001_j25520695673361_2_alg».proof.Proof.Gen.KernelIdeal.Launch
import proofs.«409001_j25520695673361_2_alg».proof.Proof.ConvChain
import Idealize.ShloMosaic.Lib.StableHlo.Run

set_option maxRecDepth 16384

noncomputable section

namespace Cert.Hand.ConvK2

open Idealize.ShloMosaic Idealize.ShloMosaic.ValueIdx Idealize.ShloMosaic.TcCoe
open Cert.KernelIdeal Cert.KernelIdeal.Gen
open Cert.Hand.ConvTake Cert.Hand.ConvChain

/-- A value moved to a typed reference's buffer type and back is the value (both moves are along the same equation of types). -/
theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

variable (V : Valuation τ sig (Elt Ideal))

/-! ## Before the Linear region: the weight matrix, the zero bias as a row -/

/-- The layer's weight matrix: its slice of the stacked weights, as a 64×64 matrix. -/
theorem w_of :
    StableHlo.after (hostOps10 (F := Ideal)) V (Proc.devRef .tc main_v134)
      = shapeCast S64x64
          (extractStridedSlice S1x64x64 ![2, 0, 0] (V (Proc.devRef .tc main_arg7)) slices_S6x64x64_S1x64x64_2_0_0)
          shapeCasts_S1x64x64_S64x64 := by
  after_results
  try rfl

/-- The bias handed to the Linear region: the zero bias as a 1×64 row. -/
theorem b_of :
    StableHlo.after (hostOps10 (F := Ideal)) V (Proc.devRef .tc main_v135)
      = shapeCast S1x64 (StableHlo.after (hostOps10 (F := Ideal)) V (Proc.devRef .tc main_v66)) shapeCasts_S64_S1x64 := by
  after_results
  try rfl

/-! ## After it: the edge weights, the looked-up rows, the aggregation, the self loop, the bias row -/

/-- The edge weights `dinv[src] · dinv[dst]`. -/
theorem norm_of :
    StableHlo.after (hostOps11 (F := Ideal)) V (Proc.devRef .tc main_v151)
      = edgeNorm (V (Proc.devRef .tc main_v10)) (V (Proc.devRef .tc main_v1)) (V (Proc.devRef .tc main_v3)) := by
  after_results_simp
  try rfl

/-- The two buffers the lookup reads, seen at their tensor types: the same contents. -/
theorem src_typed :
    ((.of main_v1 : StableHlo.TRef sig ⟨S800000, .i32⟩)).ofBuf (V (Proc.devRef .tc main_v1))
      = V (Proc.devRef .tc main_v1) := rfl
theorem hw_typed :
    ((.of main_v136 : StableHlo.TRef sig ⟨S100000x64, .f32⟩)).ofBuf (V (Proc.devRef .tc main_v136))
      = V (Proc.devRef .tc main_v136) := rfl

/-- The guarded lookup, with its two inputs and its result seen at their tensor types: the intermediate values'
    moves to their buffers' types and back cancel, and what is left is the named lookup of the two inputs. -/
theorem take_of_typed :
    ((.of main_v152 : StableHlo.TRef sig ⟨S800000x64, .f32⟩)).ofBuf
        (StableHlo.after (hostOps11_1 (F := Ideal)) V (Proc.devRef .tc main_v152))
      = takeRows (((.of main_v136 : StableHlo.TRef sig ⟨S100000x64, .f32⟩)).ofBuf (V (Proc.devRef .tc main_v136)))
          (((.of main_v1 : StableHlo.TRef sig ⟨S800000, .i32⟩)).ofBuf (V (Proc.devRef .tc main_v1))) := by
  after_results_simp
  simp only [ofBuf_toBuf]
  generalize ((.of main_v136 : StableHlo.TRef sig ⟨S100000x64, .f32⟩)).ofBuf (V (Proc.devRef .tc main_v136)) = hw
  generalize ((.of main_v1 : StableHlo.TRef sig ⟨S800000, .i32⟩)).ofBuf (V (Proc.devRef .tc main_v1)) = s
  rfl

/-- The guarded lookup of the transformed features' rows at the source indices. -/
theorem take_of :
    StableHlo.after (hostOps11_1 (F := Ideal)) V (Proc.devRef .tc main_v152)
      = takeRows (V (Proc.devRef .tc main_v136)) (V (Proc.devRef .tc main_v1)) := by
  have h := take_of_typed V
  rw [src_typed V, hw_typed V] at h
  exact h

/-- The weighted rows summed by destination. -/
theorem agg_of :
    StableHlo.after (hostOps11_2 (F := Ideal)) V (Proc.devRef .tc main_v158)
      = agg (V (Proc.devRef .tc main_v152)) (V (Proc.devRef .tc main_v151)) (V (Proc.devRef .tc main_v3)) := by
  after_results
  try rfl

/-- The self loop. -/
theorem self_of :
    StableHlo.after (hostOps11_2 (F := Ideal)) V (Proc.devRef .tc main_v161)
      = selfLoop (V (Proc.devRef .tc main_v136)) (V (Proc.devRef .tc main_v11)) := by
  after_results
  try rfl

/-- The layer's bias: its slice of the stacked biases, flattened and laid out as a row again. -/
theorem bias_of :
    StableHlo.after (hostOps11_2 (F := Ideal)) V (Proc.devRef .tc main_v164)
      = shapeCast S1x64
          (shapeCast S64 (extractStridedSlice S1x64 ![2, 0] (V (Proc.devRef .tc main_arg8)) slices_S6x64_S1x64_2_0)
            shapeCasts_S1x64_S64)
          shapeCasts_S64_S1x64 := by
  after_results
  try rfl

end Cert.Hand.ConvK2

end
-- ==== Proof.StepConv2K.lean ====
/-
  Graph-convolution layer 2, the kernel's half: the layer's output array as ONE function of what the layer finds —
  its input array, the edge rows and inverse-root degrees the prologue wrote, and its slices of the stacked weights
  and biases as launched.

  Linear region: the input times the weight matrix plus a zero bias.  Host stretches: the edge weights, the guarded
  lookup of the transformed rows (the plain gather, every source index being a valid row), the aggregation by
  destination, the self loop.  Combine region: the residual sum with the rectifier.
-/
import proofs.«409001_j25520695673361_2_alg».proof.Proof.KKeep
import proofs.«409001_j25520695673361_2_alg».proof.Proof.Spec
import proofs.«409001_j25520695673361_2_alg».proof.Proof.RegLinear10
import proofs.«409001_j25520695673361_2_alg».proof.Proof.RegCombine11
import proofs.«409001_j25520695673361_2_alg».proof.Proof.ConvK2
import Idealize.ShloMosaic.Lib.Pipeline.Value

noncomputable section

namespace Cert.Hand.StepConv2

open Idealize.ShloMosaic Idealize.ShloMosaic.ValueIdx Idealize.ShloMosaic.TcCoe Idealize.SL.Sem
open Cert.KernelIdeal Cert.KernelIdeal.Gen Cert.KernelIdeal.Hand
open Cert.Hand.ConvTake Cert.Hand.ConvChain

variable (m : (ℓ : Loc nD τ sig) → Buf (Elt Ideal) ℓ) (ρ : Dev nD → PrngReg) (c : Dev nD)

/-! ## What the layer finds -/

/-- The layer's input array. -/
abbrev xin : FVec Ideal S100000x64 .f32 := W30 m ρ c (Proc.devRef .tc main_v132)
/-- The edges' source and destination rows, the inverse-root degrees and their squares, as the prologue left them. -/
abbrev src : IVec S800000 32 := W1 m ρ c (Proc.devRef .tc main_v1)
abbrev dst : IVec S800000 32 := W1 m ρ c (Proc.devRef .tc main_v3)
abbrev dinv : FVec Ideal S100000 .f32 := W1 m ρ c (Proc.devRef .tc main_v10)
abbrev dinv2 : FVec Ideal S100000 .f32 := W1 m ρ c (Proc.devRef .tc main_v11)
/-- The layer's weight matrix and bias row: its slices of the launched arguments. -/
abbrev wmat : FVec Ideal S64x64 .f32 :=
  shapeCast S64x64
    (extractStridedSlice S1x64x64 ![2, 0, 0] (m ((c : Thread nD τ).loc main_arg7)) slices_S6x64x64_S1x64x64_2_0_0)
    shapeCasts_S1x64x64_S64x64
abbrev brow : FVec Ideal S1x64 .f32 :=
  extractStridedSlice S1x64 ![2, 0] (m ((c : Thread nD τ).loc main_arg8)) slices_S6x64_S1x64_2_0
/-- The zero bias of the Linear stage, as a row. -/
abbrev zrow : FVec Ideal S1x64 .f32 :=
  shapeCast S1x64 (broadcastInDim S64 ![] bcast_S_S64 (constant (F := Ideal) S_ .f32 0x00000000#32)) shapeCasts_S64_S1x64

/-! ## The Linear region -/

/-- The transformed features. -/
abbrev hw : FVec Ideal S100000x64 .f32 := Spec.linear (xin m ρ c) (wmat m c) zrow

/-- Where this layer's Linear region finds the zero bias: the buffer written before the first convolution. -/
theorem z66 (hzero : W19 m ρ c (Proc.devRef .tc main_v66)
      = broadcastInDim S64 ![] bcast_S_S64 (constant (F := Ideal) S_ .f32 0x00000000#32)) :
    StableHlo.after (hostOps10 (F := Ideal)) (W30 m ρ c) (Proc.devRef .tc main_v66)
      = broadcastInDim S64 ![] bcast_S_S64 (constant (F := Ideal) S_ .f32 0x00000000#32) :=
  (W31_keep m ρ c main_v66 (by decide)).trans ((W30_v66 m ρ c).trans hzero)

theorem hw_eq (hzero : W19 m ρ c (Proc.devRef .tc main_v66)
      = broadcastInDim S64 ![] bcast_S_S64 (constant (F := Ideal) S_ .f32 0x00000000#32)) :
    W32 m ρ c (Proc.devRef .tc main_v136) = hw m ρ c := by
  have e0 : V31 m ρ c (Pipeline.arrRef spec10 0) = xin m ρ c := W31_keep m ρ c main_v132 (by decide)
  have e1 : V31 m ρ c (Pipeline.arrRef spec10 1) = wmat m c := by
    have h := ConvK2.w_of (W30 m ρ c)
    rw [W30_arg7 m ρ c] at h
    exact h
  have e2 : V31 m ρ c (Pipeline.arrRef spec10 2) = zrow := by
    have h := ConvK2.b_of (W30 m ρ c)
    rw [z66 m ρ c hzero] at h
    exact h
  refine (W32_arr m ρ c 3).trans ((Cert.Hand.RegLinear10.value (V31 m ρ) c).trans ?_)
  rw [e0, e1, e2]

/-! ## The host stretches: every buffer they read, traced back to what the layer found -/

theorem src_at : W32 m ρ c (Proc.devRef .tc main_v1) = src m ρ c :=
  (W32_keep m ρ c main_v1 (by decide)).trans ((W31_keep m ρ c main_v1 (by decide)).trans (W30_v1 m ρ c))
theorem dst_at : W32 m ρ c (Proc.devRef .tc main_v3) = dst m ρ c :=
  (W32_keep m ρ c main_v3 (by decide)).trans ((W31_keep m ρ c main_v3 (by decide)).trans (W30_v3 m ρ c))
theorem dinv_at : W32 m ρ c (Proc.devRef .tc main_v10) = dinv m ρ c :=
  (W32_keep m ρ c main_v10 (by decide)).trans ((W31_keep m ρ c main_v10 (by decide)).trans (W30_v10 m ρ c))
theorem dinv2_at : W32 m ρ c (Proc.devRef .tc main_v11) = dinv2 m ρ c :=
  (W32_keep m ρ c main_v11 (by decide)).trans ((W31_keep m ρ c main_v11 (by decide)).trans (W30_v11 m ρ c))

/-- The edge weights. -/
theorem norm_at : W33 m ρ c (Proc.devRef .tc main_v151) = edgeNorm (dinv m ρ c) (src m ρ c) (dst m ρ c) := by
  have h := ConvK2.norm_of (W32 m ρ c)
  rw [dinv_at m ρ c, src_at m ρ c, dst_at m ρ c] at h
  exact h

/-- The looked-up rows: under the index range, the plain gather at the wrapped source indices. -/
theorem rows_at (hzero : W19 m ρ c (Proc.devRef .tc main_v66)
      = broadcastInDim S64 ![] bcast_S_S64 (constant (F := Ideal) S_ .f32 0x00000000#32))
    (hrange : ∀ e, 0 ≤ ((src m ρ c) e).toInt ∧ ((src m ρ c) e).toInt < 100000) :
    W34 m ρ c (Proc.devRef .tc main_v152) = rows (hw m ρ c) (wrap (src m ρ c)) := by
  have h := ConvK2.take_of (W33 m ρ c)
  have e70 : W33 m ρ c (Proc.devRef .tc main_v136) = hw m ρ c :=
    (W33_keep m ρ c main_v136 (by decide)).trans (hw_eq m ρ c hzero)
  have e1 : W33 m ρ c (Proc.devRef .tc main_v1) = src m ρ c :=
    (W33_keep m ρ c main_v1 (by decide)).trans (src_at m ρ c)
  rw [e70, e1] at h
  exact h.trans (takeRows_eq_rows (hw m ρ c) (src m ρ c) hrange)

/-- The aggregation by destination. -/
theorem agg_at (hzero : W19 m ρ c (Proc.devRef .tc main_v66)
      = broadcastInDim S64 ![] bcast_S_S64 (constant (F := Ideal) S_ .f32 0x00000000#32))
    (hrange : ∀ e, 0 ≤ ((src m ρ c) e).toInt ∧ ((src m ρ c) e).toInt < 100000) :
    W35 m ρ c (Proc.devRef .tc main_v158)
      = agg (rows (hw m ρ c) (wrap (src m ρ c))) (edgeNorm (dinv m ρ c) (src m ρ c) (dst m ρ c)) (dst m ρ c) := by
  have h := ConvK2.agg_of (W34 m ρ c)
  have e85 : W34 m ρ c (Proc.devRef .tc main_v151) = edgeNorm (dinv m ρ c) (src m ρ c) (dst m ρ c) :=
    (W34_keep m ρ c main_v151 (by decide)).trans (norm_at m ρ c)
  have e3 : W34 m ρ c (Proc.devRef .tc main_v3) = dst m ρ c :=
    (W34_keep m ρ c main_v3 (by decide)).trans ((W33_keep m ρ c main_v3 (by decide)).trans (dst_at m ρ c))
  rw [rows_at m ρ c hzero hrange, e85, e3] at h
  exact h

/-- The self loop. -/
theorem self_at (hzero : W19 m ρ c (Proc.devRef .tc main_v66)
      = broadcastInDim S64 ![] bcast_S_S64 (constant (F := Ideal) S_ .f32 0x00000000#32)) :
    W35 m ρ c (Proc.devRef .tc main_v161) = selfLoop (hw m ρ c) (dinv2 m ρ c) := by
  have h := ConvK2.self_of (W34 m ρ c)
  have e70 : W34 m ρ c (Proc.devRef .tc main_v136) = hw m ρ c :=
    (W34_keep m ρ c main_v136 (by decide)).trans ((W33_keep m ρ c main_v136 (by decide)).trans (hw_eq m ρ c hzero))
  have e11 : W34 m ρ c (Proc.devRef .tc main_v11) = dinv2 m ρ c :=
    (W34_keep m ρ c main_v11 (by decide)).trans ((W33_keep m ρ c main_v11 (by decide)).trans (dinv2_at m ρ c))
  rw [e70, e11] at h
  exact h

/-- The residual input, untouched since the layer's entry. -/
theorem xin_at : W35 m ρ c (Proc.devRef .tc main_v132) = xin m ρ c :=
  (W35_keep m ρ c main_v132 (by decide)).trans ((W34_keep m ρ c main_v132 (by decide)).trans
    ((W33_keep m ρ c main_v132 (by decide)).trans ((W32_keep m ρ c main_v132 (by decide)).trans
      (W31_keep m ρ c main_v132 (by decide)))))

/-- The bias row: the slice of the launched biases (flattening it and laying it out as a row again changes nothing). -/
theorem brow_at : W35 m ρ c (Proc.devRef .tc main_v164) = brow m c := by
  have h := ConvK2.bias_of (W34 m ρ c)
  have e8 : W34 m ρ c (Proc.devRef .tc main_arg8) = m ((c : Thread nD τ).loc main_arg8) :=
    (W34_keep m ρ c main_arg8 (by decide)).trans ((W33_keep m ρ c main_arg8 (by decide)).trans
      ((W32_keep m ρ c main_arg8 (by decide)).trans ((W31_keep m ρ c main_arg8 (by decide)).trans (W30_arg8 m ρ c))))
  rw [e8, shapeCast_shapeCast] at h
  exact h

/-! ## The Combine region -/

/-- THE KERNEL'S HALF. -/
theorem kernel_half (hzero : W19 m ρ c (Proc.devRef .tc main_v66)
      = broadcastInDim S64 ![] bcast_S_S64 (constant (F := Ideal) S_ .f32 0x00000000#32))
    (hrange : ∀ e, 0 ≤ ((src m ρ c) e).toInt ∧ ((src m ρ c) e).toInt < 100000) :
    W36 m ρ c (Proc.devRef .tc main_v165)
      = Spec.combine true
          (agg (rows (hw m ρ c) (wrap (src m ρ c))) (edgeNorm (dinv m ρ c) (src m ρ c) (dst m ρ c)) (dst m ρ c))
          (selfLoop (hw m ρ c) (dinv2 m ρ c)) (xin m ρ c) (brow m c) := by
  have e0 : V35 m ρ c (Pipeline.arrRef spec11 0) = _ := agg_at m ρ c hzero hrange
  have e1 : V35 m ρ c (Pipeline.arrRef spec11 1) = _ := self_at m ρ c hzero
  have e2 : V35 m ρ c (Pipeline.arrRef spec11 2) = _ := xin_at m ρ c
  have e3 : V35 m ρ c (Pipeline.arrRef spec11 3) = _ := brow_at m ρ c
  refine (W36_arr m ρ c 4).trans ((Cert.Hand.RegCombine11.value (V35 m ρ) c).trans ?_)
  rw [e0, e1, e2, e3]

end Cert.Hand.StepConv2

end
-- ==== Proof.ConvR2.lean ====
/-
  Graph-convolution layer 2 on the reference's side: what its chunk of operations leaves in its result, from any
  contents `V` at the chunk's entry.  The message-passing chain is the same named functions as on the kernel's side (the
  two programs print the same operations over the same shapes); the row lookup is the bare gather at the wrapped indices.
-/
import proofs.«409001_j25520695673361_2_alg».proof.Proof.RefOps6
import proofs.«409001_j25520695673361_2_alg».proof.Proof.ConvChain
import Idealize.ShloMosaic.Lib.StableHlo.Run
import Idealize.ShloMosaic.Lib.Pipeline.Frame

set_option maxRecDepth 4096

noncomputable section

namespace Cert.Hand.ConvR2

open Idealize.ShloMosaic Idealize.ShloMosaic.ValueIdx Idealize.ShloMosaic.TcCoe
open Cert.ReferenceIdeal Cert.ReferenceIdeal.Gen Cert.ReferenceIdeal.Hand
open Cert.Hand.ConvTake Cert.Hand.ConvChain

variable (V : Valuation τ sig (Elt Ideal))

/-- The transformed features: the layer's input times its slice of the stacked weights. -/
def hw : FVec Ideal S100000x64 .f32 :=
  Host.dotGeneral (φ₁ := .f32) (φ₂ := .f32) dot_S100000x64_S64x64_S100000x64_1_0_0_1_n_n none
    (V (Proc.devRef .tc main_v191))
    (shapeCast S64x64
      (extractStridedSlice (α := Ideal .f32) S1x64x64 ![2, 0, 0] (V (Proc.devRef .tc main_arg7))
        slices_S6x64x64_S1x64x64_2_0_0)
      shapeCasts_S1x64x64_S64x64)

/-! ## The sum before the rectifier -/

/-- What the chunk leaves in the last sum's buffer: aggregation plus self loop, plus the bias row, plus the input.
    Each operation's result is its function of its operands' contents, a buffer no operation of the chunk writes is as
    the chunk found it; what is left is the right side's operations with the named functions unfolded, the two programs'
    dimension records being the same literal lists. -/
theorem pre_of :
    StableHlo.after (rops6 (F := Ideal)) V (Proc.devRef .tc main_v233) =
        (addf
          (addf
            (addf
              (agg (rows (hw V) (wrap (V (Proc.devRef .tc main_v1))))
                (edgeNorm (V (Proc.devRef .tc main_v10)) (V (Proc.devRef .tc main_v1)) (V (Proc.devRef .tc main_v3)))
                (V (Proc.devRef .tc main_v3)))
              (selfLoop (hw V) (mulf (V (Proc.devRef .tc main_v10)) (V (Proc.devRef .tc main_v10)))))
            (broadcastInDim S100000x64 ![0, 1] bcast_S1x64_S100000x64_0_1
              (broadcastInDim S1x64 ![1] bcast_S64_S1x64_1
                (shapeCast S64
                  (extractStridedSlice S1x64 ![2, 0] (V (Proc.devRef .tc main_arg8)) slices_S6x64_S1x64_2_0)
                  shapeCasts_S1x64_S64))))
          (V (Proc.devRef .tc main_v191))) := by
  after_results_simp
  rfl

/-! ## The rectifier -/

/-- Contents moved to a typed reference's buffer type and back are the contents: both moves are along the same equation
    of types. -/
private theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

/-- The chunk is its first forty-nine operations followed by the rectifier's three. -/
private theorem split_tail :
    (rops6 (F := Ideal)) = List.take 49 rops6 ++
      [ StableHlo.TRef.nullary (.of main_call7_cst : StableHlo.TRef sig ⟨S_, .f32⟩) (constant (F := Ideal) S_ .f32 0x00000000#32),
        StableHlo.TRef.unary (.of main_call7_cst : StableHlo.TRef sig ⟨S_, .f32⟩) (.of main_call7_v0 : StableHlo.TRef sig ⟨S100000x64, .f32⟩) (broadcastInDim S100000x64 ![] bcast_S_S100000x64),
        StableHlo.TRef.binary (.of main_v233 : StableHlo.TRef sig ⟨S100000x64, .f32⟩) (.of main_call7_v0 : StableHlo.TRef sig ⟨S100000x64, .f32⟩) (.of main_v234 : StableHlo.TRef sig ⟨S100000x64, .f32⟩) (maximumf (F := Ideal) (φ := .f32)) ] :=
  rfl

/-- The chunk's result is the last sum, rectified: the rectifier's operations read the sum where the first forty-nine
    left it, and none of the three writes it. -/
theorem relu_of :
    StableHlo.after (rops6 (F := Ideal)) V (Proc.devRef .tc main_v234)
      = maximumf (F := Ideal) (StableHlo.after (rops6 (F := Ideal)) V (Proc.devRef .tc main_v233))
        (broadcastInDim S100000x64 ![] bcast_S_S100000x64 (constant (F := Ideal) S_ .f32 0x00000000#32)) := by
  rw [split_tail]
  simp only [StableHlo.after_append]
  generalize StableHlo.after (List.take 49 (rops6 (F := Ideal))) V = V'
  after_results_simp
  simp only [ofBuf_toBuf]
  rfl

/-! ## The layer -/

/-- The layer's result: aggregation plus self loop, plus the bias row, plus the input, rectified. -/
theorem out_of :
    StableHlo.after (rops6 (F := Ideal)) V (Proc.devRef .tc main_v234)
      = maximumf
          (addf
            (addf
              (addf
                (agg (rows (hw V) (wrap (V (Proc.devRef .tc main_v1))))
                  (edgeNorm (V (Proc.devRef .tc main_v10)) (V (Proc.devRef .tc main_v1)) (V (Proc.devRef .tc main_v3)))
                  (V (Proc.devRef .tc main_v3)))
                (selfLoop (hw V) (mulf (V (Proc.devRef .tc main_v10)) (V (Proc.devRef .tc main_v10)))))
              (broadcastInDim S100000x64 ![0, 1] bcast_S1x64_S100000x64_0_1
                (broadcastInDim S1x64 ![1] bcast_S64_S1x64_1
                  (shapeCast S64
                    (extractStridedSlice S1x64 ![2, 0] (V (Proc.devRef .tc main_arg8)) slices_S6x64_S1x64_2_0)
                    shapeCasts_S1x64_S64))))
            (V (Proc.devRef .tc main_v191)))
          (broadcastInDim S100000x64 ![] bcast_S_S100000x64 (constant S_ .f32 0x00000000#32)) := by
  rw [relu_of V, pre_of V]

end Cert.Hand.ConvR2

end
-- ==== Proof.StepConv2R.lean ====
/-
  Graph-convolution layer 2, the reference's half: its chunk's result as ONE function of what the chunk finds — the
  previous layer's result, the edge rows and inverse-root degrees its prologue wrote, and its slices of the stacked
  weights and biases as launched.
-/
import proofs.«409001_j25520695673361_2_alg».proof.Proof.RefVal
import proofs.«409001_j25520695673361_2_alg».proof.Proof.ConvR2

noncomputable section

namespace Cert.Hand.StepConv2

open Idealize.ShloMosaic Idealize.ShloMosaic.ValueIdx Idealize.ShloMosaic.TcCoe Idealize.SL.Sem
open Cert.Hand.ConvTake Cert.Hand.ConvChain

section Ref

open Cert.ReferenceIdeal Cert.ReferenceIdeal.Gen Cert.ReferenceIdeal.Hand

variable (m' : (ℓ : Loc nD τ sig) → Buf (Elt Ideal) ℓ) (c : Dev nD)

/-- What the chunk finds. -/
abbrev rxin : FVec Ideal S100000x64 .f32 := RV6 m' c (Proc.devRef .tc main_v191)
abbrev rsrc : IVec S800000 32 := RV1 m' c (Proc.devRef .tc main_v1)
abbrev rdst : IVec S800000 32 := RV1 m' c (Proc.devRef .tc main_v3)
abbrev rdinv : FVec Ideal S100000 .f32 := RV1 m' c (Proc.devRef .tc main_v10)
abbrev rwmat : FVec Ideal S64x64 .f32 :=
  shapeCast S64x64
    (extractStridedSlice S1x64x64 ![2, 0, 0] (m' ((c.tc : Thread nD τ).loc main_arg7)) slices_S6x64x64_S1x64x64_2_0_0)
    shapeCasts_S1x64x64_S64x64
abbrev rbrow : FVec Ideal S1x64 .f32 :=
  extractStridedSlice S1x64 ![2, 0] (m' ((c.tc : Thread nD τ).loc main_arg8)) slices_S6x64_S1x64_2_0
/-- The transformed features, as a function of the input and the weight matrix: their product. -/
abbrev rdot (x : FVec Ideal S100000x64 .f32) (w : FVec Ideal S64x64 .f32) : FVec Ideal S100000x64 .f32 :=
  Host.dotGeneral dot_S100000x64_S64x64_S100000x64_1_0_0_1_n_n none x w

/-- THE REFERENCE'S HALF. -/
theorem ref_half :
    RV7 m' c (Proc.devRef .tc main_v234)
      = maximumf
          (addf
            (addf
              (addf
                (agg (rows (rdot (rxin m' c) (rwmat m' c)) (wrap (rsrc m' c))) (edgeNorm (rdinv m' c) (rsrc m' c) (rdst m' c)) (rdst m' c))
                (selfLoop (rdot (rxin m' c) (rwmat m' c)) (mulf (rdinv m' c) (rdinv m' c))))
              (broadcastInDim S100000x64 ![0, 1] bcast_S1x64_S100000x64_0_1
                (broadcastInDim S1x64 ![1] bcast_S64_S1x64_1 (shapeCast S64 (rbrow m' c) shapeCasts_S1x64_S64))))
            (rxin m' c))
          (broadcastInDim S100000x64 ![] bcast_S_S100000x64 (constant (F := Ideal) S_ .f32 0x00000000#32)) := by
  have h := ConvR2.out_of (RV6 m' c)
  unfold ConvR2.hw at h
  rw [RV6_v1 m' c, RV6_v3 m' c, RV6_v10 m' c, RV6_arg7 m' c, RV6_arg8 m' c] at h
  exact h

end Ref

end Cert.Hand.StepConv2

end
-- ==== Proof.StepConv2.lean ====
/-
  Graph-convolution layer 2: if the two programs agree on the layer's input, on the edge rows and on the inverse-root
  degrees, they agree on the layer's output.

  The kernel's Linear stage adds a zero bias to the reference's matrix product; its row lookup is the reference's bare
  gather because every source index is a valid row; everything else in the message passing is the same operations
  applied to equal inputs; and its residual sum adds the same four terms in another order.
-/
import proofs.«409001_j25520695673361_2_alg».proof.Proof.Agree
import proofs.«409001_j25520695673361_2_alg».proof.Proof.ConvAlg
import proofs.«409001_j25520695673361_2_alg».proof.Proof.StepConv2K
import proofs.«409001_j25520695673361_2_alg».proof.Proof.StepConv2R

noncomputable section

namespace Cert.Hand.StepConv2

open Idealize.ShloMosaic Idealize.ShloMosaic.ValueIdx Idealize.ShloMosaic.TcCoe Idealize.SL.Sem
open Cert.Hand.ConvTake Cert.Hand.ConvChain

/-- The layer step. -/
theorem step
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hagree : Cert.Hand.Agree m m')
    (hin : (Cert.KernelIdeal.Gen.W30 m ρ c (Proc.devRef .tc Cert.KernelIdeal.main_v132) : Spec.SN.Idx → EReal)
      = Cert.ReferenceIdeal.Hand.RV6 m' c (Proc.devRef .tc Cert.ReferenceIdeal.main_v191))
    (hsrc : (Cert.KernelIdeal.Gen.W1 m ρ c (Proc.devRef .tc Cert.KernelIdeal.main_v1) : IVec Cert.KernelIdeal.S800000 32)
      = Cert.ReferenceIdeal.Hand.RV1 m' c (Proc.devRef .tc Cert.ReferenceIdeal.main_v1))
    (hdst : (Cert.KernelIdeal.Gen.W1 m ρ c (Proc.devRef .tc Cert.KernelIdeal.main_v3) : IVec Cert.KernelIdeal.S800000 32)
      = Cert.ReferenceIdeal.Hand.RV1 m' c (Proc.devRef .tc Cert.ReferenceIdeal.main_v3))
    (hdinv : (Cert.KernelIdeal.Gen.W1 m ρ c (Proc.devRef .tc Cert.KernelIdeal.main_v10) : FVec Ideal Cert.KernelIdeal.S100000 .f32)
      = Cert.ReferenceIdeal.Hand.RV1 m' c (Proc.devRef .tc Cert.ReferenceIdeal.main_v10))
    (hdinv2 : Cert.KernelIdeal.Gen.W1 m ρ c (Proc.devRef .tc Cert.KernelIdeal.main_v11)
      = mulf (F := Ideal) (s := Cert.KernelIdeal.S100000) (φ := .f32) (Cert.KernelIdeal.Gen.W1 m ρ c (Proc.devRef .tc Cert.KernelIdeal.main_v10))
          (Cert.KernelIdeal.Gen.W1 m ρ c (Proc.devRef .tc Cert.KernelIdeal.main_v10)))
    (hrange : ∀ e, 0 ≤ ((Cert.KernelIdeal.Gen.W1 m ρ c (Proc.devRef .tc Cert.KernelIdeal.main_v1)) e).toInt
      ∧ ((Cert.KernelIdeal.Gen.W1 m ρ c (Proc.devRef .tc Cert.KernelIdeal.main_v1)) e).toInt < 100000)
    (hzero : Cert.KernelIdeal.Gen.W19 m ρ c (Proc.devRef .tc Cert.KernelIdeal.main_v66)
      = broadcastInDim Cert.KernelIdeal.S64 ![] Cert.KernelIdeal.Gen.bcast_S_S64
          (constant (F := Ideal) Cert.KernelIdeal.S_ .f32 0x00000000#32)) :
    (Cert.KernelIdeal.Gen.W36 m ρ c (Proc.devRef .tc Cert.KernelIdeal.main_v165) : Spec.SN.Idx → EReal)
      = Cert.ReferenceIdeal.Hand.RV7 m' c (Proc.devRef .tc Cert.ReferenceIdeal.main_v234) := by
  -- the two launch memories hold the same stacked weights and biases
  obtain ⟨-, -, -, -, -, -, -, h7, h8, -⟩ := hagree c
  -- the reference's inputs are the kernel's
  have ex : rxin m' c = xin m ρ c := hin.symm
  have es : rsrc m' c = src m ρ c := hsrc.symm
  have ed : rdst m' c = dst m ρ c := hdst.symm
  have ei : rdinv m' c = dinv m ρ c := hdinv.symm
  have ew : rwmat m' c = wmat m c := by
    unfold rwmat wmat
    rw [h7]
  have eb : rbrow m' c = brow m c := by
    unfold rbrow brow
    rw [h8]
  have e2 : dinv2 m ρ c = mulf (dinv m ρ c) (dinv m ρ c) := hdinv2
  refine (kernel_half m ρ c hzero hrange).trans (Eq.trans ?_ (ref_half m' c).symm)
  rw [ex, es, ed, ei, ew, eb, e2]
  exact ConvAlg.conv_relu (xin m ρ c) (wmat m c) zrow (brow m c)
    (ConvAlg.zero_row Cert.KernelIdeal.Gen.bcast_S_S64 Cert.KernelIdeal.Gen.shapeCasts_S64_S1x64)
    (src m ρ c) (dst m ρ c) (dinv m ρ c)
    Cert.ReferenceIdeal.Gen.shapeCasts_S1x64_S64 Cert.ReferenceIdeal.Gen.bcast_S64_S1x64_1
    Cert.ReferenceIdeal.Gen.bcast_S1x64_S100000x64_0_1 Cert.ReferenceIdeal.Gen.bcast_S_S100000x64

end Cert.Hand.StepConv2

end
-- ==== Proof.RegLinear12.lean ====
/-
  Region 12 of the network: a Linear layer on all 100000 nodes, run as ten row blocks of 10000 × 64.
  Each grid point reads its row block of x, the whole 64 × 64 weight matrix and the whole 1 × 64 bias row, and leaves
  (x_block · w) + b in its row block of the result.  Read on the extended reals, where the narrowing of both
  factors to bf16 is the identity, the ten blocks together are `Spec.linear x w b`:
    row i, column j  ↦  (Σ_k x[i,k] · w[k,j]) + b[0,j].
  The steps: the block product at an index as a sum over the contraction coordinate (`pay_apply`); each window's
  block as rows of its array (`xblk_apply`, `wblk_eq`, `bblk_eq`); what point t writes back is block t of
  `Spec.linear x w b` (`flushed_eq`); the ten blocks cover the result, row r lying in block r / 10000 (`cover`);
  so the result array is `Spec.linear x w b` (`value`).
-/
import proofs.«409001_j25520695673361_2_alg».proof.Proof.Gen.KernelIdeal.Frame
import proofs.«409001_j25520695673361_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.Hand.RegLinear12

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

/-- Axis 0 of the left factor's index is the output's row. -/
theorem lhs_0 (j : S10000x64.Idx) (k : dot_S10000x64_S64x64_S10000x64_1_0_0_1_n_n.contr.Idx) :
    (dot_S10000x64_S64x64_S10000x64_1_0_0_1_n_n.lhsIdx j k 0).val = (j 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- Axis 1 of the left factor's index is the contraction coordinate. -/
theorem lhs_1 (j : S10000x64.Idx) (k : dot_S10000x64_S64x64_S10000x64_1_0_0_1_n_n.contr.Idx) :
    (dot_S10000x64_S64x64_S10000x64_1_0_0_1_n_n.lhsIdx j k 1).val = (k ⟨0, by decide⟩).val :=
  dot_S10000x64_S64x64_S10000x64_1_0_0_1_n_n.lhsIdx_val_of_single rfl j k

/-- Axis 0 of the right factor's index is the contraction coordinate. -/
theorem rhs_0 (j : S10000x64.Idx) (k : dot_S10000x64_S64x64_S10000x64_1_0_0_1_n_n.contr.Idx) :
    (dot_S10000x64_S64x64_S10000x64_1_0_0_1_n_n.rhsIdx j k 0).val = (k ⟨0, by decide⟩).val :=
  dot_S10000x64_S64x64_S10000x64_1_0_0_1_n_n.rhsIdx_val_of_single rfl j k

/-- Axis 1 of the right factor's index is the output's column. -/
theorem rhs_1 (j : S10000x64.Idx) (k : dot_S10000x64_S64x64_S10000x64_1_0_0_1_n_n.contr.Idx) :
    (dot_S10000x64_S64x64_S10000x64_1_0_0_1_n_n.rhsIdx j k 1).val = (j 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- What the body stores, at row p and column q of the block: the row of the first block times the column of the
    second, summed over the 64 contraction coordinates, plus the bias row's entry in that column. On the extended reals
    the two narrowings to bf16 change nothing and the accumulator's zero splat adds nothing. -/
theorem pay_apply (x0 : Vec Ideal S10000x64 .f32) (x1 : Vec Ideal S64x64 .f32) (x2 : Vec Ideal S1x64 .f32)
    (p : Fin 10000) (q : Fin 64) :
    k12_pay1 (F := Ideal) x0 x1 x2 (ix2 p q) = (∑ k : Fin 64, x0 (ix2 p k) * x1 (ix2 k q)) + x2 (ix2 (0 : Fin 1) q) := by
  unfold k12_pay1
  simp only [shapeCast_self]
  refine congrArg₂ (· + ·) ?_ (broadcastTo_1b_ab_apply x2 broadcasts_S1x64_S10000x64 p q)
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hl : dot_S10000x64_S64x64_S10000x64_1_0_0_1_n_n.lhsIdx (ix2 p q)
      ((contrEquiv1 dot_S10000x64_S64x64_S10000x64_1_0_0_1_n_n 64 rfl rfl).symm k) = ix2 p k := by
    funext a; apply Fin.ext
    match a with
    | ⟨0, _⟩ => exact lhs_0 _ _
    | ⟨1, _⟩ => exact (lhs_1 _ _).trans (contrEquiv1_symm_val dot_S10000x64_S64x64_S10000x64_1_0_0_1_n_n 64 rfl rfl k)
  have hr : dot_S10000x64_S64x64_S10000x64_1_0_0_1_n_n.rhsIdx (ix2 p q)
      ((contrEquiv1 dot_S10000x64_S64x64_S10000x64_1_0_0_1_n_n 64 rfl rfl).symm k) = ix2 k q := by
    funext a; apply Fin.ext
    match a with
    | ⟨0, _⟩ => exact (rhs_0 _ _).trans (contrEquiv1_symm_val dot_S10000x64_S64x64_S10000x64_1_0_0_1_n_n 64 rfl rfl k)
    | ⟨1, _⟩ => exact rhs_1 _ _
  show x0 _ * x1 _ = _
  rw [hl, hr]

/-- One row block of the layer. If the first block is rows `10000 r …` of an array X, the second is W and the third is B,
    then at local index y, which is index i of the whole array, the body's value is `Spec.linear X W B` at i. -/
theorem pay_linear (x0 : Vec Ideal S10000x64 .f32) (x1 : Vec Ideal S64x64 .f32) (x2 : Vec Ideal S1x64 .f32)
    (X : Spec.SN.Idx → EReal) (W : Spec.SW.Idx → EReal) (B : Spec.SR.Idx → EReal) (r : ℕ)
    (hX : ∀ (y : S10000x64.Idx) (i : Spec.SN.Idx), (i 0).val = r * 10000 + (y 0).val → (i 1).val = (y 1).val → x0 y = X i)
    (hW : x1 = W) (hB : x2 = B)
    (y : S10000x64.Idx) (i : Spec.SN.Idx) (h0 : (i 0).val = r * 10000 + (y 0).val) (h1 : (i 1).val = (y 1).val) :
    k12_pay1 (F := Ideal) x0 x1 x2 y = Spec.linear X W B i := by
  obtain ⟨p, q, rfl⟩ : ∃ (p : Fin 10000) (q : Fin 64), y = ix2 p q := ⟨y 0, y 1, eq_ix2 y⟩
  have hq : (i 1 : Fin 64) = q := Fin.ext h1
  subst hW hB
  refine (pay_apply x0 x1 x2 p q).trans ?_
  show _ = (∑ k : Fin 64, X (ix2 (i 0) k) * x1 (ix2 k (i 1))) + x2 (ix2 0 (i 1))
  refine congrArg₂ (· + ·) (Finset.sum_congr rfl fun k _ => congrArg₂ (· * ·) ?_ ?_) ?_
  · exact hX (ix2 p k) (ix2 (i 0) k) h0 rfl
  · exact (congrArg (fun z : Fin 64 => x1 (ix2 k z)) hq).symm
  · exact (congrArg (fun z : Fin 64 => x2 (ix2 (0 : Fin 1) z)) hq).symm

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the ten row blocks: x and the result move down with the point, w and b stay. -/
theorem idx_facts : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-- Row block t of x: rows `10000 t … 10000 t + 9999` of the array. -/
theorem xblk_apply (c : Dev nD) (t : Fin cfg12.N) (y : S10000x64.Idx) (i : Spec.SN.Idx)
    (h0 : (i 0).val = t.val * 10000 + (y 0).val) (h1 : (i 1).val = (y 1).val) :
    (iblk12 V c 0 t : Vec Ideal S10000x64 .f32) y = (V c (Pipeline.arrRef spec12 0) : Spec.SN.Idx → EReal) i := by
  obtain ⟨e0, e1, -⟩ := idx_facts t
  unfold iblk12
  rw [View.read_apply]
  show V c (Pipeline.arrRef spec12 0) _ = V c (Pipeline.arrRef spec12 0) _
  refine congrArg _ (funext fun a => Fin.ext ?_)
  match a with
  | ⟨0, _⟩ => show win12_0.index t (0 : Fin 2) * 10000 + 1 * (y 0).val = (i 0).val; omega
  | ⟨1, _⟩ => show win12_0.index t (1 : Fin 2) * 64 + 1 * (y 1).val = (i 1).val; omega

/-- The weights' one block is the whole matrix. -/
theorem wblk_eq (c : Dev nD) (t : Fin cfg12.N) :
    (iblk12 V c 1 t : Vec Ideal S64x64 .f32) = (V c (Pipeline.arrRef spec12 1) : Spec.SW.Idx → EReal) := by
  obtain ⟨-, -, e0, e1, -⟩ := idx_facts t
  funext y
  unfold iblk12
  rw [View.read_apply]
  show V c (Pipeline.arrRef spec12 1) _ = V c (Pipeline.arrRef spec12 1) _
  refine congrArg _ (funext fun a => Fin.ext ?_)
  match a with
  | ⟨0, _⟩ => show win12_1.index t (0 : Fin 2) * 64 + 1 * (y 0).val = (y 0).val; omega
  | ⟨1, _⟩ => show win12_1.index t (1 : Fin 2) * 64 + 1 * (y 1).val = (y 1).val; omega

/-- The bias row's one block is the whole row. -/
theorem bblk_eq (c : Dev nD) (t : Fin cfg12.N) :
    (iblk12 V c 2 t : Vec Ideal S1x64 .f32) = (V c (Pipeline.arrRef spec12 2) : Spec.SR.Idx → EReal) := by
  obtain ⟨-, -, -, -, e0, e1, -⟩ := idx_facts t
  funext y
  unfold iblk12
  rw [View.read_apply]
  show V c (Pipeline.arrRef spec12 2) _ = V c (Pipeline.arrRef spec12 2) _
  refine congrArg _ (funext fun a => Fin.ext ?_)
  match a with
  | ⟨0, _⟩ => show win12_2.index t (0 : Fin 2) * 1 + 1 * (y 0).val = (y 0).val; omega
  | ⟨1, _⟩ => show win12_2.index t (1 : Fin 2) * 64 + 1 * (y 1).val = (y 1).val; omega

/-- What the result array ends holding: the Linear layer of the three arrays as the region finds them. -/
abbrev G (c : Dev nD) : Spec.SN.Idx → EReal :=
  Spec.linear (V c (Pipeline.arrRef spec12 0)) (V c (Pipeline.arrRef spec12 1)) (V c (Pipeline.arrRef spec12 2))

/-- What point t writes back is block t of `G`. -/
theorem flushed_eq (c : Dev nD) (t : Fin cfg12.N) :
    (dat12 V c).flushed 3 t = ((cfg12.win 3).blk t).view.read (Elt Ideal) (G V c) := by
  show (cfg12.win 3).cut (grid12.coords t) ((dat12 V c).after 3 t) = _
  rw [after12_3]
  unfold out12_3
  rw [View.canon_unit_zero hz]
  simp only [View.ld_unit_zero (S := S10000x64) hz, View.ld_unit_zero (S := S64x64) hz, View.ld_unit_zero (S := S1x64) hz]
  obtain ⟨-, -, -, -, -, -, e0, e1⟩ := idx_facts t
  funext y
  rw [View.read_apply]
  show k12_pay1 (F := Ideal) (iblk12 V c 0 t) (iblk12 V c 1 t) (iblk12 V c 2 t) ((cfg12.win 3).xinj (grid12.coords t) y)
    = G V c (((cfg12.win 3).blk t).view.emb y)
  exact pay_linear (iblk12 V c 0 t) (iblk12 V c 1 t) (iblk12 V c 2 t)
    (V c (Pipeline.arrRef spec12 0)) (V c (Pipeline.arrRef spec12 1)) (V c (Pipeline.arrRef spec12 2)) t.val
    (xblk_apply V c t) (wblk_eq V c t) (bblk_eq V c t)
    ((cfg12.win 3).xinj (grid12.coords t) y) (((cfg12.win 3).blk t).view.emb y)
    (by show win12_3.index t (0 : Fin 2) * 10000 + 1 * (y 0).val = t.val * 10000 + (y 0).val; omega)
    (by show win12_3.index t (1 : Fin 2) * 64 + 1 * (y 1).val = (y 1).val; omega)

/-- An index of the result is in point t's block iff each coordinate is in the block's range on its axis. -/
theorem mem_blk (t : Fin cfg12.N) (i : S100000x64.Idx) :
    i ∈ ((cfg12.win 3).blk t).view.set ↔ ∀ a : Fin 2, win12_3.index t a * S10000x64.size a ≤ (i a).val ∧ (i a).val < win12_3.index t a * S10000x64.size a + S10000x64.size a := by
  show i ∈ ((View.whole main_v169).slice (win12_3.rect t)).set ↔ _
  rw [View.set_slice_whole, Rect.mem_set_unit]
  exact Iff.rfl

/-- The ten row blocks cover the result: row r is in block r / 10000. -/
theorem cover (i : S100000x64.Idx) : ∃ t : Fin cfg12.N, (cfg12.win 3).flush t = true ∧ i ∈ ((cfg12.win 3).blk t).view.set := by
  have hi0 : (i 0).val < 100000 := (i 0).isLt
  have hi1 : (i 1).val < 64 := (i 1).isLt
  have hN : grid12.N = 10 := N_12
  let t : Fin cfg12.N := ⟨(i 0).val / 10000, by show _ < grid12.N; omega⟩
  obtain ⟨-, -, -, -, -, -, e0, e1⟩ := idx_facts t
  refine ⟨t, flush12_3 t, ?_⟩
  rw [mem_blk]
  intro a
  match a with
  | ⟨0, _⟩ => show win12_3.index t (0 : Fin 2) * 10000 ≤ (i 0).val ∧ (i 0).val < win12_3.index t (0 : Fin 2) * 10000 + 10000
              have : t.val = (i 0).val / 10000 := rfl
              omega
  | ⟨1, _⟩ => show win12_3.index t (1 : Fin 2) * 64 ≤ (i 1).val ∧ (i 1).val < win12_3.index t (1 : Fin 2) * 64 + 64; omega

/-- The region's result: after its ten write-backs the output array is the Linear layer of the three input arrays as
    the region finds them. -/
theorem value (c : Dev nD) :
    (dat12 (F := Ideal) V c).arrAt 3 cfg12.N
      = Spec.linear (V c (Pipeline.arrRef spec12 0)) (V c (Pipeline.arrRef spec12 1)) (V c (Pipeline.arrRef spec12 2)) :=
  (dat12 V c).arrAt_eq_of_cover 3 (G V c) (fun t _ => flushed_eq V c t) cover

end Cert.Hand.RegLinear12

end
-- ==== Proof.RegCombine13.lean ====
/-
  Region 13: the graph convolution's residual sum with the rectifier.  Ten grid points; point t takes rows
  10000·t … 10000·t + 9999 of the aggregated neighbours, of the self loop and of the residual input, and the whole
  1×64 bias row, and writes back rows 10000·t … of the output: entry (r, j) is
  max(((a[r,j] + s[r,j]) + h[r,j]) + b[0,j], 0).  The ten row blocks tile the 100000 rows, so the output array ends
  as that one function of the four arrays the region finds.
-/
import proofs.«409001_j25520695673361_2_alg».proof.Proof.Gen.KernelIdeal.Frame
import proofs.«409001_j25520695673361_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.Hand.RegCombine13

open Cert.KernelIdeal Cert.KernelIdeal.Gen

/-- The store's and the loads' offsets are zero on both axes. -/
theorem hz : (![0, 0] : Fin 2 → Nat) = fun _ => 0 := funext fun a => by fin_cases a <;> rfl

/-- One entry of the body's result on a block: the entries of the three blocks added in order, the entry of the bias row
    in that column added, and the maximum of that with zero (the zero word denotes the real number zero). -/
theorem pay_apply (x0 x1 x2 : Vec Ideal S10000x64 .f32) (x3 : Vec Ideal S1x64 .f32) (p : Fin 10000) (q : Fin 64) :
    k13_pay1 (F := Ideal) x0 x1 x2 x3 (ix2 p q)
      = max (((x0 (ix2 p q) + x1 (ix2 p q)) + x2 (ix2 p q)) + x3 (ix2 (0 : Fin 1) q)) 0 := by
  unfold k13_pay1
  simp only [shapeCast_self]
  rw [maximumf_apply, addf_apply, addf_apply, addf_apply, broadcast_apply, broadcastTo_1b_ab_apply]
  show max _ (Ideal.ofBits .f32 0x00000000#32) = _
  rw [Ideal.ofBits_zero_f32]

/-- The same entry against the specification: when the three blocks' entries at (p, q) are the arrays' entries at `i` and
    the bias block's entry at (0, q) is the bias array's entry in `i`'s column, the body's entry is the sum's at `i`. -/
theorem pay_spec (x0 x1 x2 : Vec Ideal S10000x64 .f32) (x3 : Vec Ideal S1x64 .f32)
    (a s h : Spec.SN.Idx → EReal) (b : Spec.SR.Idx → EReal) (p : Fin 10000) (q : Fin 64) (i : Spec.SN.Idx)
    (h0 : x0 (ix2 p q) = a i) (h1 : x1 (ix2 p q) = s i) (h2 : x2 (ix2 p q) = h i)
    (h3 : x3 (ix2 (0 : Fin 1) q) = b (ix2 0 (i 1))) :
    k13_pay1 (F := Ideal) x0 x1 x2 x3 (ix2 p q) = Spec.combine true a s h b i := by
  rw [pay_apply, h0, h1, h2, h3]
  rfl

/-- Where each window's block sits at grid point `t`: the three node arrays and the output move down one row block per
    point and stay in column block 0; the bias row's block never moves. -/
theorem idx_facts : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = t.val ∧ win13_2.index t (1 : Fin 2) = 0
    ∧ win13_3.index t (0 : Fin 2) = 0 ∧ win13_3.index t (1 : Fin 2) = 0
    ∧ win13_4.index t (0 : Fin 2) = t.val ∧ win13_4.index t (1 : Fin 2) = 0 :=
  (by decide +kernel : ∀ t : Fin grid13.N, _)

variable (V : (c : Dev nD) → (b : Ref sig .tc) → Buf (Elt Ideal) ((c : Thread nD τ).loc b))

/-- Entry (p, q) of the aggregated neighbours' block at point `t` is that array's entry at entry (p, q) of the output's block:
    both blocks are rows 10000·t … 10000·t + 9999 and all 64 columns. -/
theorem blk0_apply (c : Dev nD) (t : Fin cfg13.N) (p : Fin 10000) (q : Fin 64) :
    (iblk13 V c 0 t : Vec Ideal S10000x64 .f32) (ix2 p q)
      = V c (Pipeline.arrRef spec13 0) (((cfg13.win 4).blk t).view.emb (ix2 p q)) := by
  obtain ⟨f00, f01, f10, f11, f20, f21, f30, f31, f40, f41⟩ := idx_facts t
  have hp : p.val < 10000 := p.isLt
  have hq : q.val < 64 := q.isLt
  have e : ((cfg13.win 0).blk t).view.emb (ix2 p q) = ((cfg13.win 4).blk t).view.emb (ix2 p q) := by
    funext a; apply Fin.ext
    match a with
    | ⟨0, _⟩ => show win13_0.index t (0 : Fin 2) * 10000 + 1 * p.val = win13_4.index t (0 : Fin 2) * 10000 + 1 * p.val; omega
    | ⟨1, _⟩ => show win13_0.index t (1 : Fin 2) * 64 + 1 * q.val = win13_4.index t (1 : Fin 2) * 64 + 1 * q.val; omega
  show V c (Pipeline.arrRef spec13 0) (((cfg13.win 0).blk t).view.emb (ix2 p q)) = _
  rw [e]

/-- The same for the self loop's block. -/
theorem blk1_apply (c : Dev nD) (t : Fin cfg13.N) (p : Fin 10000) (q : Fin 64) :
    (iblk13 V c 1 t : Vec Ideal S10000x64 .f32) (ix2 p q)
      = V c (Pipeline.arrRef spec13 1) (((cfg13.win 4).blk t).view.emb (ix2 p q)) := by
  obtain ⟨f00, f01, f10, f11, f20, f21, f30, f31, f40, f41⟩ := idx_facts t
  have hp : p.val < 10000 := p.isLt
  have hq : q.val < 64 := q.isLt
  have e : ((cfg13.win 1).blk t).view.emb (ix2 p q) = ((cfg13.win 4).blk t).view.emb (ix2 p q) := by
    funext a; apply Fin.ext
    match a with
    | ⟨0, _⟩ => show win13_1.index t (0 : Fin 2) * 10000 + 1 * p.val = win13_4.index t (0 : Fin 2) * 10000 + 1 * p.val; omega
    | ⟨1, _⟩ => show win13_1.index t (1 : Fin 2) * 64 + 1 * q.val = win13_4.index t (1 : Fin 2) * 64 + 1 * q.val; omega
  show V c (Pipeline.arrRef spec13 1) (((cfg13.win 1).blk t).view.emb (ix2 p q)) = _
  rw [e]

/-- The same for the residual input's block. -/
theorem blk2_apply (c : Dev nD) (t : Fin cfg13.N) (p : Fin 10000) (q : Fin 64) :
    (iblk13 V c 2 t : Vec Ideal S10000x64 .f32) (ix2 p q)
      = V c (Pipeline.arrRef spec13 2) (((cfg13.win 4).blk t).view.emb (ix2 p q)) := by
  obtain ⟨f00, f01, f10, f11, f20, f21, f30, f31, f40, f41⟩ := idx_facts t
  have hp : p.val < 10000 := p.isLt
  have hq : q.val < 64 := q.isLt
  have e : ((cfg13.win 2).blk t).view.emb (ix2 p q) = ((cfg13.win 4).blk t).view.emb (ix2 p q) := by
    funext a; apply Fin.ext
    match a with
    | ⟨0, _⟩ => show win13_2.index t (0 : Fin 2) * 10000 + 1 * p.val = win13_4.index t (0 : Fin 2) * 10000 + 1 * p.val; omega
    | ⟨1, _⟩ => show win13_2.index t (1 : Fin 2) * 64 + 1 * q.val = win13_4.index t (1 : Fin 2) * 64 + 1 * q.val; omega
  show V c (Pipeline.arrRef spec13 2) (((cfg13.win 2).blk t).view.emb (ix2 p q)) = _
  rw [e]

/-- The bias row's block is the whole row at every point: its entry (0, q) is the bias array's entry (0, column of the
    output's entry). -/
theorem blk3_apply (c : Dev nD) (t : Fin cfg13.N) (p : Fin 10000) (q : Fin 64) :
    (iblk13 V c 3 t : Vec Ideal S1x64 .f32) (ix2 (0 : Fin 1) q)
      = V c (Pipeline.arrRef spec13 3) (ix2 (0 : Fin 1) ((((cfg13.win 4).blk t).view.emb (ix2 p q) : Spec.SN.Idx) 1)) := by
  obtain ⟨f00, f01, f10, f11, f20, f21, f30, f31, f40, f41⟩ := idx_facts t
  have hp : p.val < 10000 := p.isLt
  have hq : q.val < 64 := q.isLt
  have e : ((cfg13.win 3).blk t).view.emb (ix2 (0 : Fin 1) q)
      = ix2 (0 : Fin 1) ((((cfg13.win 4).blk t).view.emb (ix2 p q) : Spec.SN.Idx) 1) := by
    funext a; apply Fin.ext
    match a with
    | ⟨0, _⟩ => show win13_3.index t (0 : Fin 2) * 1 + 1 * 0 = 0; omega
    | ⟨1, _⟩ => show win13_3.index t (1 : Fin 2) * 64 + 1 * q.val = win13_4.index t (1 : Fin 2) * 64 + 1 * q.val; omega
  show V c (Pipeline.arrRef spec13 3) (((cfg13.win 3).blk t).view.emb (ix2 (0 : Fin 1) q)) = _
  exact congrArg (V c (Pipeline.arrRef spec13 3)) e

/-- Entry (p, q) of what the body leaves at point `t` is the sum of the four arrays at entry (p, q) of the output's block. -/
theorem point_eq (c : Dev nD) (t : Fin cfg13.N) (p : Fin 10000) (q : Fin 64) :
    k13_pay1 (F := Ideal) (iblk13 V c 0 t) (iblk13 V c 1 t) (iblk13 V c 2 t) (iblk13 V c 3 t) (ix2 p q)
      = Spec.combine true (V c (Pipeline.arrRef spec13 0)) (V c (Pipeline.arrRef spec13 1))
          (V c (Pipeline.arrRef spec13 2)) (V c (Pipeline.arrRef spec13 3)) (((cfg13.win 4).blk t).view.emb (ix2 p q)) :=
  pay_spec (iblk13 V c 0 t) (iblk13 V c 1 t) (iblk13 V c 2 t) (iblk13 V c 3 t)
    (V c (Pipeline.arrRef spec13 0)) (V c (Pipeline.arrRef spec13 1)) (V c (Pipeline.arrRef spec13 2))
    (V c (Pipeline.arrRef spec13 3)) p q (((cfg13.win 4).blk t).view.emb (ix2 p q))
    (blk0_apply V c t p q) (blk1_apply V c t p q) (blk2_apply V c t p q) (blk3_apply V c t p q)

/-- What point `t` writes back is block `t` of the sum of the four arrays as the region finds them. -/
theorem flushed_eq (c : Dev nD) (t : Fin cfg13.N) :
    (dat13 (F := Ideal) V c).flushed 4 t
      = ((cfg13.win 4).blk t).view.read (Elt Ideal)
          (Spec.combine true (V c (Pipeline.arrRef spec13 0)) (V c (Pipeline.arrRef spec13 1))
            (V c (Pipeline.arrRef spec13 2)) (V c (Pipeline.arrRef spec13 3))) := by
  show (cfg13.win 4).cut (grid13.coords t) ((dat13 (F := Ideal) V c).after 4 t) = _
  rw [after13_4]
  unfold out13_4
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  exact point_eq V c t p q

/-- An entry of the output array lies in point `t`'s block when each coordinate lies in the block's range on its axis. -/
theorem mem_blk (t : Fin cfg13.N) (i : S100000x64.Idx) :
    i ∈ ((cfg13.win 4).blk t).view.set
      ↔ ∀ a : Fin 2, win13_4.index t a * S10000x64.size a ≤ (i a).val
          ∧ (i a).val < win13_4.index t a * S10000x64.size a + S10000x64.size a := by
  show i ∈ ((View.whole (Pipeline.arrRef spec13 4)).slice (win13_4.rect t)).set ↔ _
  rw [View.set_slice_whole, Rect.mem_set_unit]
  exact Iff.rfl

/-- Row `r` of the output lies in the block of point `r / 10000`: the ten blocks tile the array. -/
theorem cover (i : S100000x64.Idx) :
    ∃ t : Fin cfg13.N, (cfg13.win 4).flush t = true ∧ i ∈ ((cfg13.win 4).blk t).view.set := by
  have hi0 : (i 0).val < 100000 := (i 0).isLt
  have hi1 : (i 1).val < 64 := (i 1).isLt
  have hN : grid13.N = 10 := N_13
  let t : Fin cfg13.N := ⟨(i 0).val / 10000, by show (i 0).val / 10000 < grid13.N; omega⟩
  have ht : t.val = (i 0).val / 10000 := rfl
  obtain ⟨f00, f01, f10, f11, f20, f21, f30, f31, f40, f41⟩ := idx_facts t
  refine ⟨t, flush13_4 t, ?_⟩
  rw [mem_blk]
  intro a
  match a with
  | ⟨0, _⟩ =>
    show win13_4.index t (0 : Fin 2) * 10000 ≤ (i 0).val ∧ (i 0).val < win13_4.index t (0 : Fin 2) * 10000 + 10000
    omega
  | ⟨1, _⟩ =>
    show win13_4.index t (1 : Fin 2) * 64 ≤ (i 1).val ∧ (i 1).val < win13_4.index t (1 : Fin 2) * 64 + 64
    omega

/-- The output array after the region's ten write-backs is the sum of the four arrays the region finds, entry by entry. -/
theorem value (c : Dev nD) :
    (Gen.dat13 (F := Ideal) V c).arrAt 4 cfg13.N
      = Spec.combine true (V c (Pipeline.arrRef spec13 0)) (V c (Pipeline.arrRef spec13 1))
          (V c (Pipeline.arrRef spec13 2)) (V c (Pipeline.arrRef spec13 3)) :=
  (dat13 (F := Ideal) V c).arrAt_eq_of_cover 4 _ (fun t _ => flushed_eq V c t) cover

end Cert.Hand.RegCombine13

end
-- ==== Proof.ConvK3.lean ====
/-
  Graph-convolution layer 3 on the kernel's side: what each of its four host stretches leaves in the buffers the
  layer goes on to read, from any contents `V` at the stretch's entry.  Each is the printed operations of that stretch
  read off in order; the message-passing chain is left as the named functions of its inputs.
-/
import proofs.«409001_j25520695673361_2_alg».proof.Proof.Gen.KernelIdeal.Launch
import proofs.«409001_j25520695673361_2_alg».proof.Proof.ConvChain
import Idealize.ShloMosaic.Lib.StableHlo.Run

set_option maxRecDepth 16384

noncomputable section

namespace Cert.Hand.ConvK3

open Idealize.ShloMosaic Idealize.ShloMosaic.ValueIdx Idealize.ShloMosaic.TcCoe
open Cert.KernelIdeal Cert.KernelIdeal.Gen
open Cert.Hand.ConvTake Cert.Hand.ConvChain

/-- A value moved to a typed reference's buffer type and back is the value (both moves are along the same equation of types). -/
theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

variable (V : Valuation τ sig (Elt Ideal))

/-! ## Before the Linear region: the weight matrix, the zero bias as a row -/

/-- The layer's weight matrix: its slice of the stacked weights, as a 64×64 matrix. -/
theorem w_of :
    StableHlo.after (hostOps12 (F := Ideal)) V (Proc.devRef .tc main_v167)
      = shapeCast S64x64
          (extractStridedSlice S1x64x64 ![3, 0, 0] (V (Proc.devRef .tc main_arg7)) slices_S6x64x64_S1x64x64_3_0_0)
          shapeCasts_S1x64x64_S64x64 := by
  after_results
  try rfl

/-- The bias handed to the Linear region: the zero bias as a 1×64 row. -/
theorem b_of :
    StableHlo.after (hostOps12 (F := Ideal)) V (Proc.devRef .tc main_v168)
      = shapeCast S1x64 (StableHlo.after (hostOps12 (F := Ideal)) V (Proc.devRef .tc main_v66)) shapeCasts_S64_S1x64 := by
  after_results
  try rfl

/-! ## After it: the edge weights, the looked-up rows, the aggregation, the self loop, the bias row -/

/-- The edge weights `dinv[src] · dinv[dst]`. -/
theorem norm_of :
    StableHlo.after (hostOps13 (F := Ideal)) V (Proc.devRef .tc main_v184)
      = edgeNorm (V (Proc.devRef .tc main_v10)) (V (Proc.devRef .tc main_v1)) (V (Proc.devRef .tc main_v3)) := by
  after_results_simp
  try rfl

/-- The two buffers the lookup reads, seen at their tensor types: the same contents. -/
theorem src_typed :
    ((.of main_v1 : StableHlo.TRef sig ⟨S800000, .i32⟩)).ofBuf (V (Proc.devRef .tc main_v1))
      = V (Proc.devRef .tc main_v1) := rfl
theorem hw_typed :
    ((.of main_v169 : StableHlo.TRef sig ⟨S100000x64, .f32⟩)).ofBuf (V (Proc.devRef .tc main_v169))
      = V (Proc.devRef .tc main_v169) := rfl

/-- The guarded lookup, with its two inputs and its result seen at their tensor types: the intermediate values'
    moves to their buffers' types and back cancel, and what is left is the named lookup of the two inputs. -/
theorem take_of_typed :
    ((.of main_v185 : StableHlo.TRef sig ⟨S800000x64, .f32⟩)).ofBuf
        (StableHlo.after (hostOps13_1 (F := Ideal)) V (Proc.devRef .tc main_v185))
      = takeRows (((.of main_v169 : StableHlo.TRef sig ⟨S100000x64, .f32⟩)).ofBuf (V (Proc.devRef .tc main_v169)))
          (((.of main_v1 : StableHlo.TRef sig ⟨S800000, .i32⟩)).ofBuf (V (Proc.devRef .tc main_v1))) := by
  after_results_simp
  simp only [ofBuf_toBuf]
  generalize ((.of main_v169 : StableHlo.TRef sig ⟨S100000x64, .f32⟩)).ofBuf (V (Proc.devRef .tc main_v169)) = hw
  generalize ((.of main_v1 : StableHlo.TRef sig ⟨S800000, .i32⟩)).ofBuf (V (Proc.devRef .tc main_v1)) = s
  rfl

/-- The guarded lookup of the transformed features' rows at the source indices. -/
theorem take_of :
    StableHlo.after (hostOps13_1 (F := Ideal)) V (Proc.devRef .tc main_v185)
      = takeRows (V (Proc.devRef .tc main_v169)) (V (Proc.devRef .tc main_v1)) := by
  have h := take_of_typed V
  rw [src_typed V, hw_typed V] at h
  exact h

/-- The weighted rows summed by destination. -/
theorem agg_of :
    StableHlo.after (hostOps13_2 (F := Ideal)) V (Proc.devRef .tc main_v191)
      = agg (V (Proc.devRef .tc main_v185)) (V (Proc.devRef .tc main_v184)) (V (Proc.devRef .tc main_v3)) := by
  after_results
  try rfl

/-- The self loop. -/
theorem self_of :
    StableHlo.after (hostOps13_2 (F := Ideal)) V (Proc.devRef .tc main_v194)
      = selfLoop (V (Proc.devRef .tc main_v169)) (V (Proc.devRef .tc main_v11)) := by
  after_results
  try rfl

/-- The layer's bias: its slice of the stacked biases, flattened and laid out as a row again. -/
theorem bias_of :
    StableHlo.after (hostOps13_2 (F := Ideal)) V (Proc.devRef .tc main_v197)
      = shapeCast S1x64
          (shapeCast S64 (extractStridedSlice S1x64 ![3, 0] (V (Proc.devRef .tc main_arg8)) slices_S6x64_S1x64_3_0)
            shapeCasts_S1x64_S64)
          shapeCasts_S64_S1x64 := by
  after_results
  try rfl

end Cert.Hand.ConvK3

end
-- ==== Proof.StepConv3K.lean ====
/-
  Graph-convolution layer 3, the kernel's half: the layer's output array as ONE function of what the layer finds —
  its input array, the edge rows and inverse-root degrees the prologue wrote, and its slices of the stacked weights
  and biases as launched.

  Linear region: the input times the weight matrix plus a zero bias.  Host stretches: the edge weights, the guarded
  lookup of the transformed rows (the plain gather, every source index being a valid row), the aggregation by
  destination, the self loop.  Combine region: the residual sum with the rectifier.
-/
import proofs.«409001_j25520695673361_2_alg».proof.Proof.KKeep
import proofs.«409001_j25520695673361_2_alg».proof.Proof.Spec
import proofs.«409001_j25520695673361_2_alg».proof.Proof.RegLinear12
import proofs.«409001_j25520695673361_2_alg».proof.Proof.RegCombine13
import proofs.«409001_j25520695673361_2_alg».proof.Proof.ConvK3
import Idealize.ShloMosaic.Lib.Pipeline.Value

noncomputable section

namespace Cert.Hand.StepConv3

open Idealize.ShloMosaic Idealize.ShloMosaic.ValueIdx Idealize.ShloMosaic.TcCoe Idealize.SL.Sem
open Cert.KernelIdeal Cert.KernelIdeal.Gen Cert.KernelIdeal.Hand
open Cert.Hand.ConvTake Cert.Hand.ConvChain

variable (m : (ℓ : Loc nD τ sig) → Buf (Elt Ideal) ℓ) (ρ : Dev nD → PrngReg) (c : Dev nD)

/-! ## What the layer finds -/

/-- The layer's input array. -/
abbrev xin : FVec Ideal S100000x64 .f32 := W36 m ρ c (Proc.devRef .tc main_v165)
/-- The edges' source and destination rows, the inverse-root degrees and their squares, as the prologue left them. -/
abbrev src : IVec S800000 32 := W1 m ρ c (Proc.devRef .tc main_v1)
abbrev dst : IVec S800000 32 := W1 m ρ c (Proc.devRef .tc main_v3)
abbrev dinv : FVec Ideal S100000 .f32 := W1 m ρ c (Proc.devRef .tc main_v10)
abbrev dinv2 : FVec Ideal S100000 .f32 := W1 m ρ c (Proc.devRef .tc main_v11)
/-- The layer's weight matrix and bias row: its slices of the launched arguments. -/
abbrev wmat : FVec Ideal S64x64 .f32 :=
  shapeCast S64x64
    (extractStridedSlice S1x64x64 ![3, 0, 0] (m ((c : Thread nD τ).loc main_arg7)) slices_S6x64x64_S1x64x64_3_0_0)
    shapeCasts_S1x64x64_S64x64
abbrev brow : FVec Ideal S1x64 .f32 :=
  extractStridedSlice S1x64 ![3, 0] (m ((c : Thread nD τ).loc main_arg8)) slices_S6x64_S1x64_3_0
/-- The zero bias of the Linear stage, as a row. -/
abbrev zrow : FVec Ideal S1x64 .f32 :=
  shapeCast S1x64 (broadcastInDim S64 ![] bcast_S_S64 (constant (F := Ideal) S_ .f32 0x00000000#32)) shapeCasts_S64_S1x64

/-! ## The Linear region -/

/-- The transformed features. -/
abbrev hw : FVec Ideal S100000x64 .f32 := Spec.linear (xin m ρ c) (wmat m c) zrow

/-- Where this layer's Linear region finds the zero bias: the buffer written before the first convolution. -/
theorem z66 (hzero : W19 m ρ c (Proc.devRef .tc main_v66)
      = broadcastInDim S64 ![] bcast_S_S64 (constant (F := Ideal) S_ .f32 0x00000000#32)) :
    StableHlo.after (hostOps12 (F := Ideal)) (W36 m ρ c) (Proc.devRef .tc main_v66)
      = broadcastInDim S64 ![] bcast_S_S64 (constant (F := Ideal) S_ .f32 0x00000000#32) :=
  (W37_keep m ρ c main_v66 (by decide)).trans ((W36_v66 m ρ c).trans hzero)

theorem hw_eq (hzero : W19 m ρ c (Proc.devRef .tc main_v66)
      = broadcastInDim S64 ![] bcast_S_S64 (constant (F := Ideal) S_ .f32 0x00000000#32)) :
    W38 m ρ c (Proc.devRef .tc main_v169) = hw m ρ c := by
  have e0 : V37 m ρ c (Pipeline.arrRef spec12 0) = xin m ρ c := W37_keep m ρ c main_v165 (by decide)
  have e1 : V37 m ρ c (Pipeline.arrRef spec12 1) = wmat m c := by
    have h := ConvK3.w_of (W36 m ρ c)
    rw [W36_arg7 m ρ c] at h
    exact h
  have e2 : V37 m ρ c (Pipeline.arrRef spec12 2) = zrow := by
    have h := ConvK3.b_of (W36 m ρ c)
    rw [z66 m ρ c hzero] at h
    exact h
  refine (W38_arr m ρ c 3).trans ((Cert.Hand.RegLinear12.value (V37 m ρ) c).trans ?_)
  rw [e0, e1, e2]

/-! ## The host stretches: every buffer they read, traced back to what the layer found -/

theorem src_at : W38 m ρ c (Proc.devRef .tc main_v1) = src m ρ c :=
  (W38_keep m ρ c main_v1 (by decide)).trans ((W37_keep m ρ c main_v1 (by decide)).trans (W36_v1 m ρ c))
theorem dst_at : W38 m ρ c (Proc.devRef .tc main_v3) = dst m ρ c :=
  (W38_keep m ρ c main_v3 (by decide)).trans ((W37_keep m ρ c main_v3 (by decide)).trans (W36_v3 m ρ c))
theorem dinv_at : W38 m ρ c (Proc.devRef .tc main_v10) = dinv m ρ c :=
  (W38_keep m ρ c main_v10 (by decide)).trans ((W37_keep m ρ c main_v10 (by decide)).trans (W36_v10 m ρ c))
theorem dinv2_at : W38 m ρ c (Proc.devRef .tc main_v11) = dinv2 m ρ c :=
  (W38_keep m ρ c main_v11 (by decide)).trans ((W37_keep m ρ c main_v11 (by decide)).trans (W36_v11 m ρ c))

/-- The edge weights. -/
theorem norm_at : W39 m ρ c (Proc.devRef .tc main_v184) = edgeNorm (dinv m ρ c) (src m ρ c) (dst m ρ c) := by
  have h := ConvK3.norm_of (W38 m ρ c)
  rw [dinv_at m ρ c, src_at m ρ c, dst_at m ρ c] at h
  exact h

/-- The looked-up rows: under the index range, the plain gather at the wrapped source indices. -/
theorem rows_at (hzero : W19 m ρ c (Proc.devRef .tc main_v66)
      = broadcastInDim S64 ![] bcast_S_S64 (constant (F := Ideal) S_ .f32 0x00000000#32))
    (hrange : ∀ e, 0 ≤ ((src m ρ c) e).toInt ∧ ((src m ρ c) e).toInt < 100000) :
    W40 m ρ c (Proc.devRef .tc main_v185) = rows (hw m ρ c) (wrap (src m ρ c)) := by
  have h := ConvK3.take_of (W39 m ρ c)
  have e70 : W39 m ρ c (Proc.devRef .tc main_v169) = hw m ρ c :=
    (W39_keep m ρ c main_v169 (by decide)).trans (hw_eq m ρ c hzero)
  have e1 : W39 m ρ c (Proc.devRef .tc main_v1) = src m ρ c :=
    (W39_keep m ρ c main_v1 (by decide)).trans (src_at m ρ c)
  rw [e70, e1] at h
  exact h.trans (takeRows_eq_rows (hw m ρ c) (src m ρ c) hrange)

/-- The aggregation by destination. -/
theorem agg_at (hzero : W19 m ρ c (Proc.devRef .tc main_v66)
      = broadcastInDim S64 ![] bcast_S_S64 (constant (F := Ideal) S_ .f32 0x00000000#32))
    (hrange : ∀ e, 0 ≤ ((src m ρ c) e).toInt ∧ ((src m ρ c) e).toInt < 100000) :
    W41 m ρ c (Proc.devRef .tc main_v191)
      = agg (rows (hw m ρ c) (wrap (src m ρ c))) (edgeNorm (dinv m ρ c) (src m ρ c) (dst m ρ c)) (dst m ρ c) := by
  have h := ConvK3.agg_of (W40 m ρ c)
  have e85 : W40 m ρ c (Proc.devRef .tc main_v184) = edgeNorm (dinv m ρ c) (src m ρ c) (dst m ρ c) :=
    (W40_keep m ρ c main_v184 (by decide)).trans (norm_at m ρ c)
  have e3 : W40 m ρ c (Proc.devRef .tc main_v3) = dst m ρ c :=
    (W40_keep m ρ c main_v3 (by decide)).trans ((W39_keep m ρ c main_v3 (by decide)).trans (dst_at m ρ c))
  rw [rows_at m ρ c hzero hrange, e85, e3] at h
  exact h

/-- The self loop. -/
theorem self_at (hzero : W19 m ρ c (Proc.devRef .tc main_v66)
      = broadcastInDim S64 ![] bcast_S_S64 (constant (F := Ideal) S_ .f32 0x00000000#32)) :
    W41 m ρ c (Proc.devRef .tc main_v194) = selfLoop (hw m ρ c) (dinv2 m ρ c) := by
  have h := ConvK3.self_of (W40 m ρ c)
  have e70 : W40 m ρ c (Proc.devRef .tc main_v169) = hw m ρ c :=
    (W40_keep m ρ c main_v169 (by decide)).trans ((W39_keep m ρ c main_v169 (by decide)).trans (hw_eq m ρ c hzero))
  have e11 : W40 m ρ c (Proc.devRef .tc main_v11) = dinv2 m ρ c :=
    (W40_keep m ρ c main_v11 (by decide)).trans ((W39_keep m ρ c main_v11 (by decide)).trans (dinv2_at m ρ c))
  rw [e70, e11] at h
  exact h

/-- The residual input, untouched since the layer's entry. -/
theorem xin_at : W41 m ρ c (Proc.devRef .tc main_v165) = xin m ρ c :=
  (W41_keep m ρ c main_v165 (by decide)).trans ((W40_keep m ρ c main_v165 (by decide)).trans
    ((W39_keep m ρ c main_v165 (by decide)).trans ((W38_keep m ρ c main_v165 (by decide)).trans
      (W37_keep m ρ c main_v165 (by decide)))))

/-- The bias row: the slice of the launched biases (flattening it and laying it out as a row again changes nothing). -/
theorem brow_at : W41 m ρ c (Proc.devRef .tc main_v197) = brow m c := by
  have h := ConvK3.bias_of (W40 m ρ c)
  have e8 : W40 m ρ c (Proc.devRef .tc main_arg8) = m ((c : Thread nD τ).loc main_arg8) :=
    (W40_keep m ρ c main_arg8 (by decide)).trans ((W39_keep m ρ c main_arg8 (by decide)).trans
      ((W38_keep m ρ c main_arg8 (by decide)).trans ((W37_keep m ρ c main_arg8 (by decide)).trans (W36_arg8 m ρ c))))
  rw [e8, shapeCast_shapeCast] at h
  exact h

/-! ## The Combine region -/

/-- THE KERNEL'S HALF. -/
theorem kernel_half (hzero : W19 m ρ c (Proc.devRef .tc main_v66)
      = broadcastInDim S64 ![] bcast_S_S64 (constant (F := Ideal) S_ .f32 0x00000000#32))
    (hrange : ∀ e, 0 ≤ ((src m ρ c) e).toInt ∧ ((src m ρ c) e).toInt < 100000) :
    W42 m ρ c (Proc.devRef .tc main_v198)
      = Spec.combine true
          (agg (rows (hw m ρ c) (wrap (src m ρ c))) (edgeNorm (dinv m ρ c) (src m ρ c) (dst m ρ c)) (dst m ρ c))
          (selfLoop (hw m ρ c) (dinv2 m ρ c)) (xin m ρ c) (brow m c) := by
  have e0 : V41 m ρ c (Pipeline.arrRef spec13 0) = _ := agg_at m ρ c hzero hrange
  have e1 : V41 m ρ c (Pipeline.arrRef spec13 1) = _ := self_at m ρ c hzero
  have e2 : V41 m ρ c (Pipeline.arrRef spec13 2) = _ := xin_at m ρ c
  have e3 : V41 m ρ c (Pipeline.arrRef spec13 3) = _ := brow_at m ρ c
  refine (W42_arr m ρ c 4).trans ((Cert.Hand.RegCombine13.value (V41 m ρ) c).trans ?_)
  rw [e0, e1, e2, e3]

end Cert.Hand.StepConv3

end
-- ==== Proof.ConvR3.lean ====
/-
  Graph-convolution layer 3 on the reference's side: what its chunk of operations leaves in its result, from any
  contents `V` at the chunk's entry.  The message-passing chain is the same named functions as on the kernel's side (the
  two programs print the same operations over the same shapes); the row lookup is the bare gather at the wrapped indices.
-/
import proofs.«409001_j25520695673361_2_alg».proof.Proof.RefOps7
import proofs.«409001_j25520695673361_2_alg».proof.Proof.ConvChain
import Idealize.ShloMosaic.Lib.StableHlo.Run
import Idealize.ShloMosaic.Lib.Pipeline.Frame

set_option maxRecDepth 4096

noncomputable section

namespace Cert.Hand.ConvR3

open Idealize.ShloMosaic Idealize.ShloMosaic.ValueIdx Idealize.ShloMosaic.TcCoe
open Cert.ReferenceIdeal Cert.ReferenceIdeal.Gen Cert.ReferenceIdeal.Hand
open Cert.Hand.ConvTake Cert.Hand.ConvChain

variable (V : Valuation τ sig (Elt Ideal))

/-- The transformed features: the layer's input times its slice of the stacked weights. -/
def hw : FVec Ideal S100000x64 .f32 :=
  Host.dotGeneral (φ₁ := .f32) (φ₂ := .f32) dot_S100000x64_S64x64_S100000x64_1_0_0_1_n_n none
    (V (Proc.devRef .tc main_v234))
    (shapeCast S64x64
      (extractStridedSlice (α := Ideal .f32) S1x64x64 ![3, 0, 0] (V (Proc.devRef .tc main_arg7))
        slices_S6x64x64_S1x64x64_3_0_0)
      shapeCasts_S1x64x64_S64x64)

/-! ## The sum before the rectifier -/

/-- What the chunk leaves in the last sum's buffer: aggregation plus self loop, plus the bias row, plus the input.
    Each operation's result is its function of its operands' contents, a buffer no operation of the chunk writes is as
    the chunk found it; what is left is the right side's operations with the named functions unfolded, the two programs'
    dimension records being the same literal lists. -/
theorem pre_of :
    StableHlo.after (rops7 (F := Ideal)) V (Proc.devRef .tc main_v276) =
        (addf
          (addf
            (addf
              (agg (rows (hw V) (wrap (V (Proc.devRef .tc main_v1))))
                (edgeNorm (V (Proc.devRef .tc main_v10)) (V (Proc.devRef .tc main_v1)) (V (Proc.devRef .tc main_v3)))
                (V (Proc.devRef .tc main_v3)))
              (selfLoop (hw V) (mulf (V (Proc.devRef .tc main_v10)) (V (Proc.devRef .tc main_v10)))))
            (broadcastInDim S100000x64 ![0, 1] bcast_S1x64_S100000x64_0_1
              (broadcastInDim S1x64 ![1] bcast_S64_S1x64_1
                (shapeCast S64
                  (extractStridedSlice S1x64 ![3, 0] (V (Proc.devRef .tc main_arg8)) slices_S6x64_S1x64_3_0)
                  shapeCasts_S1x64_S64))))
          (V (Proc.devRef .tc main_v234))) := by
  after_results_simp
  rfl

/-! ## The rectifier -/

/-- Contents moved to a typed reference's buffer type and back are the contents: both moves are along the same equation
    of types. -/
private theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

/-- The chunk is its first forty-nine operations followed by the rectifier's three. -/
private theorem split_tail :
    (rops7 (F := Ideal)) = List.take 49 rops7 ++
      [ StableHlo.TRef.nullary (.of main_call8_cst : StableHlo.TRef sig ⟨S_, .f32⟩) (constant (F := Ideal) S_ .f32 0x00000000#32),
        StableHlo.TRef.unary (.of main_call8_cst : StableHlo.TRef sig ⟨S_, .f32⟩) (.of main_call8_v0 : StableHlo.TRef sig ⟨S100000x64, .f32⟩) (broadcastInDim S100000x64 ![] bcast_S_S100000x64),
        StableHlo.TRef.binary (.of main_v276 : StableHlo.TRef sig ⟨S100000x64, .f32⟩) (.of main_call8_v0 : StableHlo.TRef sig ⟨S100000x64, .f32⟩) (.of main_v277 : StableHlo.TRef sig ⟨S100000x64, .f32⟩) (maximumf (F := Ideal) (φ := .f32)) ] :=
  rfl

/-- The chunk's result is the last sum, rectified: the rectifier's operations read the sum where the first forty-nine
    left it, and none of the three writes it. -/
theorem relu_of :
    StableHlo.after (rops7 (F := Ideal)) V (Proc.devRef .tc main_v277)
      = maximumf (F := Ideal) (StableHlo.after (rops7 (F := Ideal)) V (Proc.devRef .tc main_v276))
        (broadcastInDim S100000x64 ![] bcast_S_S100000x64 (constant (F := Ideal) S_ .f32 0x00000000#32)) := by
  rw [split_tail]
  simp only [StableHlo.after_append]
  generalize StableHlo.after (List.take 49 (rops7 (F := Ideal))) V = V'
  after_results_simp
  simp only [ofBuf_toBuf]
  rfl

/-! ## The layer -/

/-- The layer's result: aggregation plus self loop, plus the bias row, plus the input, rectified. -/
theorem out_of :
    StableHlo.after (rops7 (F := Ideal)) V (Proc.devRef .tc main_v277)
      = maximumf
          (addf
            (addf
              (addf
                (agg (rows (hw V) (wrap (V (Proc.devRef .tc main_v1))))
                  (edgeNorm (V (Proc.devRef .tc main_v10)) (V (Proc.devRef .tc main_v1)) (V (Proc.devRef .tc main_v3)))
                  (V (Proc.devRef .tc main_v3)))
                (selfLoop (hw V) (mulf (V (Proc.devRef .tc main_v10)) (V (Proc.devRef .tc main_v10)))))
              (broadcastInDim S100000x64 ![0, 1] bcast_S1x64_S100000x64_0_1
                (broadcastInDim S1x64 ![1] bcast_S64_S1x64_1
                  (shapeCast S64
                    (extractStridedSlice S1x64 ![3, 0] (V (Proc.devRef .tc main_arg8)) slices_S6x64_S1x64_3_0)
                    shapeCasts_S1x64_S64))))
            (V (Proc.devRef .tc main_v234)))
          (broadcastInDim S100000x64 ![] bcast_S_S100000x64 (constant S_ .f32 0x00000000#32)) := by
  rw [relu_of V, pre_of V]

end Cert.Hand.ConvR3

end
-- ==== Proof.StepConv3R.lean ====
/-
  Graph-convolution layer 3, the reference's half: its chunk's result as ONE function of what the chunk finds — the
  previous layer's result, the edge rows and inverse-root degrees its prologue wrote, and its slices of the stacked
  weights and biases as launched.
-/
import proofs.«409001_j25520695673361_2_alg».proof.Proof.RefVal
import proofs.«409001_j25520695673361_2_alg».proof.Proof.ConvR3

noncomputable section

namespace Cert.Hand.StepConv3

open Idealize.ShloMosaic Idealize.ShloMosaic.ValueIdx Idealize.ShloMosaic.TcCoe Idealize.SL.Sem
open Cert.Hand.ConvTake Cert.Hand.ConvChain

section Ref

open Cert.ReferenceIdeal Cert.ReferenceIdeal.Gen Cert.ReferenceIdeal.Hand

variable (m' : (ℓ : Loc nD τ sig) → Buf (Elt Ideal) ℓ) (c : Dev nD)

/-- What the chunk finds. -/
abbrev rxin : FVec Ideal S100000x64 .f32 := RV7 m' c (Proc.devRef .tc main_v234)
abbrev rsrc : IVec S800000 32 := RV1 m' c (Proc.devRef .tc main_v1)
abbrev rdst : IVec S800000 32 := RV1 m' c (Proc.devRef .tc main_v3)
abbrev rdinv : FVec Ideal S100000 .f32 := RV1 m' c (Proc.devRef .tc main_v10)
abbrev rwmat : FVec Ideal S64x64 .f32 :=
  shapeCast S64x64
    (extractStridedSlice S1x64x64 ![3, 0, 0] (m' ((c.tc : Thread nD τ).loc main_arg7)) slices_S6x64x64_S1x64x64_3_0_0)
    shapeCasts_S1x64x64_S64x64
abbrev rbrow : FVec Ideal S1x64 .f32 :=
  extractStridedSlice S1x64 ![3, 0] (m' ((c.tc : Thread nD τ).loc main_arg8)) slices_S6x64_S1x64_3_0
/-- The transformed features, as a function of the input and the weight matrix: their product. -/
abbrev rdot (x : FVec Ideal S100000x64 .f32) (w : FVec Ideal S64x64 .f32) : FVec Ideal S100000x64 .f32 :=
  Host.dotGeneral dot_S100000x64_S64x64_S100000x64_1_0_0_1_n_n none x w

/-- THE REFERENCE'S HALF. -/
theorem ref_half :
    RV8 m' c (Proc.devRef .tc main_v277)
      = maximumf
          (addf
            (addf
              (addf
                (agg (rows (rdot (rxin m' c) (rwmat m' c)) (wrap (rsrc m' c))) (edgeNorm (rdinv m' c) (rsrc m' c) (rdst m' c)) (rdst m' c))
                (selfLoop (rdot (rxin m' c) (rwmat m' c)) (mulf (rdinv m' c) (rdinv m' c))))
              (broadcastInDim S100000x64 ![0, 1] bcast_S1x64_S100000x64_0_1
                (broadcastInDim S1x64 ![1] bcast_S64_S1x64_1 (shapeCast S64 (rbrow m' c) shapeCasts_S1x64_S64))))
            (rxin m' c))
          (broadcastInDim S100000x64 ![] bcast_S_S100000x64 (constant (F := Ideal) S_ .f32 0x00000000#32)) := by
  have h := ConvR3.out_of (RV7 m' c)
  unfold ConvR3.hw at h
  rw [RV7_v1 m' c, RV7_v3 m' c, RV7_v10 m' c, RV7_arg7 m' c, RV7_arg8 m' c] at h
  exact h

end Ref

end Cert.Hand.StepConv3

end
-- ==== Proof.StepConv3.lean ====
/-
  Graph-convolution layer 3: if the two programs agree on the layer's input, on the edge rows and on the inverse-root
  degrees, they agree on the layer's output.

  The kernel's Linear stage adds a zero bias to the reference's matrix product; its row lookup is the reference's bare
  gather because every source index is a valid row; everything else in the message passing is the same operations
  applied to equal inputs; and its residual sum adds the same four terms in another order.
-/
import proofs.«409001_j25520695673361_2_alg».proof.Proof.Agree
import proofs.«409001_j25520695673361_2_alg».proof.Proof.ConvAlg
import proofs.«409001_j25520695673361_2_alg».proof.Proof.StepConv3K
import proofs.«409001_j25520695673361_2_alg».proof.Proof.StepConv3R

noncomputable section

namespace Cert.Hand.StepConv3

open Idealize.ShloMosaic Idealize.ShloMosaic.ValueIdx Idealize.ShloMosaic.TcCoe Idealize.SL.Sem
open Cert.Hand.ConvTake Cert.Hand.ConvChain

/-- The layer step. -/
theorem step
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hagree : Cert.Hand.Agree m m')
    (hin : (Cert.KernelIdeal.Gen.W36 m ρ c (Proc.devRef .tc Cert.KernelIdeal.main_v165) : Spec.SN.Idx → EReal)
      = Cert.ReferenceIdeal.Hand.RV7 m' c (Proc.devRef .tc Cert.ReferenceIdeal.main_v234))
    (hsrc : (Cert.KernelIdeal.Gen.W1 m ρ c (Proc.devRef .tc Cert.KernelIdeal.main_v1) : IVec Cert.KernelIdeal.S800000 32)
      = Cert.ReferenceIdeal.Hand.RV1 m' c (Proc.devRef .tc Cert.ReferenceIdeal.main_v1))
    (hdst : (Cert.KernelIdeal.Gen.W1 m ρ c (Proc.devRef .tc Cert.KernelIdeal.main_v3) : IVec Cert.KernelIdeal.S800000 32)
      = Cert.ReferenceIdeal.Hand.RV1 m' c (Proc.devRef .tc Cert.ReferenceIdeal.main_v3))
    (hdinv : (Cert.KernelIdeal.Gen.W1 m ρ c (Proc.devRef .tc Cert.KernelIdeal.main_v10) : FVec Ideal Cert.KernelIdeal.S100000 .f32)
      = Cert.ReferenceIdeal.Hand.RV1 m' c (Proc.devRef .tc Cert.ReferenceIdeal.main_v10))
    (hdinv2 : Cert.KernelIdeal.Gen.W1 m ρ c (Proc.devRef .tc Cert.KernelIdeal.main_v11)
      = mulf (F := Ideal) (s := Cert.KernelIdeal.S100000) (φ := .f32) (Cert.KernelIdeal.Gen.W1 m ρ c (Proc.devRef .tc Cert.KernelIdeal.main_v10))
          (Cert.KernelIdeal.Gen.W1 m ρ c (Proc.devRef .tc Cert.KernelIdeal.main_v10)))
    (hrange : ∀ e, 0 ≤ ((Cert.KernelIdeal.Gen.W1 m ρ c (Proc.devRef .tc Cert.KernelIdeal.main_v1)) e).toInt
      ∧ ((Cert.KernelIdeal.Gen.W1 m ρ c (Proc.devRef .tc Cert.KernelIdeal.main_v1)) e).toInt < 100000)
    (hzero : Cert.KernelIdeal.Gen.W19 m ρ c (Proc.devRef .tc Cert.KernelIdeal.main_v66)
      = broadcastInDim Cert.KernelIdeal.S64 ![] Cert.KernelIdeal.Gen.bcast_S_S64
          (constant (F := Ideal) Cert.KernelIdeal.S_ .f32 0x00000000#32)) :
    (Cert.KernelIdeal.Gen.W42 m ρ c (Proc.devRef .tc Cert.KernelIdeal.main_v198) : Spec.SN.Idx → EReal)
      = Cert.ReferenceIdeal.Hand.RV8 m' c (Proc.devRef .tc Cert.ReferenceIdeal.main_v277) := by
  -- the two launch memories hold the same stacked weights and biases
  obtain ⟨-, -, -, -, -, -, -, h7, h8, -⟩ := hagree c
  -- the reference's inputs are the kernel's
  have ex : rxin m' c = xin m ρ c := hin.symm
  have es : rsrc m' c = src m ρ c := hsrc.symm
  have ed : rdst m' c = dst m ρ c := hdst.symm
  have ei : rdinv m' c = dinv m ρ c := hdinv.symm
  have ew : rwmat m' c = wmat m c := by
    unfold rwmat wmat
    rw [h7]
  have eb : rbrow m' c = brow m c := by
    unfold rbrow brow
    rw [h8]
  have e2 : dinv2 m ρ c = mulf (dinv m ρ c) (dinv m ρ c) := hdinv2
  refine (kernel_half m ρ c hzero hrange).trans (Eq.trans ?_ (ref_half m' c).symm)
  rw [ex, es, ed, ei, ew, eb, e2]
  exact ConvAlg.conv_relu (xin m ρ c) (wmat m c) zrow (brow m c)
    (ConvAlg.zero_row Cert.KernelIdeal.Gen.bcast_S_S64 Cert.KernelIdeal.Gen.shapeCasts_S64_S1x64)
    (src m ρ c) (dst m ρ c) (dinv m ρ c)
    Cert.ReferenceIdeal.Gen.shapeCasts_S1x64_S64 Cert.ReferenceIdeal.Gen.bcast_S64_S1x64_1
    Cert.ReferenceIdeal.Gen.bcast_S1x64_S100000x64_0_1 Cert.ReferenceIdeal.Gen.bcast_S_S100000x64

end Cert.Hand.StepConv3

end
-- ==== Proof.RegLinear14.lean ====
/-
  Region 14 of the network: a Linear layer on all 100000 nodes, run as ten row blocks of 10000 × 64.
  Each grid point reads its row block of x, the whole 64 × 64 weight matrix and the whole 1 × 64 bias row, and leaves
  (x_block · w) + b in its row block of the result.  Read on the extended reals, where the narrowing of both
  factors to bf16 is the identity, the ten blocks together are `Spec.linear x w b`:
    row i, column j  ↦  (Σ_k x[i,k] · w[k,j]) + b[0,j].
  The steps: the block product at an index as a sum over the contraction coordinate (`pay_apply`); each window's
  block as rows of its array (`xblk_apply`, `wblk_eq`, `bblk_eq`); what point t writes back is block t of
  `Spec.linear x w b` (`flushed_eq`); the ten blocks cover the result, row r lying in block r / 10000 (`cover`);
  so the result array is `Spec.linear x w b` (`value`).
-/
import proofs.«409001_j25520695673361_2_alg».proof.Proof.Gen.KernelIdeal.Frame
import proofs.«409001_j25520695673361_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.Hand.RegLinear14

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

/-- Axis 0 of the left factor's index is the output's row. -/
theorem lhs_0 (j : S10000x64.Idx) (k : dot_S10000x64_S64x64_S10000x64_1_0_0_1_n_n.contr.Idx) :
    (dot_S10000x64_S64x64_S10000x64_1_0_0_1_n_n.lhsIdx j k 0).val = (j 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- Axis 1 of the left factor's index is the contraction coordinate. -/
theorem lhs_1 (j : S10000x64.Idx) (k : dot_S10000x64_S64x64_S10000x64_1_0_0_1_n_n.contr.Idx) :
    (dot_S10000x64_S64x64_S10000x64_1_0_0_1_n_n.lhsIdx j k 1).val = (k ⟨0, by decide⟩).val :=
  dot_S10000x64_S64x64_S10000x64_1_0_0_1_n_n.lhsIdx_val_of_single rfl j k

/-- Axis 0 of the right factor's index is the contraction coordinate. -/
theorem rhs_0 (j : S10000x64.Idx) (k : dot_S10000x64_S64x64_S10000x64_1_0_0_1_n_n.contr.Idx) :
    (dot_S10000x64_S64x64_S10000x64_1_0_0_1_n_n.rhsIdx j k 0).val = (k ⟨0, by decide⟩).val :=
  dot_S10000x64_S64x64_S10000x64_1_0_0_1_n_n.rhsIdx_val_of_single rfl j k

/-- Axis 1 of the right factor's index is the output's column. -/
theorem rhs_1 (j : S10000x64.Idx) (k : dot_S10000x64_S64x64_S10000x64_1_0_0_1_n_n.contr.Idx) :
    (dot_S10000x64_S64x64_S10000x64_1_0_0_1_n_n.rhsIdx j k 1).val = (j 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- What the body stores, at row p and column q of the block: the row of the first block times the column of the
    second, summed over the 64 contraction coordinates, plus the bias row's entry in that column. On the extended reals
    the two narrowings to bf16 change nothing and the accumulator's zero splat adds nothing. -/
theorem pay_apply (x0 : Vec Ideal S10000x64 .f32) (x1 : Vec Ideal S64x64 .f32) (x2 : Vec Ideal S1x64 .f32)
    (p : Fin 10000) (q : Fin 64) :
    k14_pay1 (F := Ideal) x0 x1 x2 (ix2 p q) = (∑ k : Fin 64, x0 (ix2 p k) * x1 (ix2 k q)) + x2 (ix2 (0 : Fin 1) q) := by
  unfold k14_pay1
  simp only [shapeCast_self]
  refine congrArg₂ (· + ·) ?_ (broadcastTo_1b_ab_apply x2 broadcasts_S1x64_S10000x64 p q)
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hl : dot_S10000x64_S64x64_S10000x64_1_0_0_1_n_n.lhsIdx (ix2 p q)
      ((contrEquiv1 dot_S10000x64_S64x64_S10000x64_1_0_0_1_n_n 64 rfl rfl).symm k) = ix2 p k := by
    funext a; apply Fin.ext
    match a with
    | ⟨0, _⟩ => exact lhs_0 _ _
    | ⟨1, _⟩ => exact (lhs_1 _ _).trans (contrEquiv1_symm_val dot_S10000x64_S64x64_S10000x64_1_0_0_1_n_n 64 rfl rfl k)
  have hr : dot_S10000x64_S64x64_S10000x64_1_0_0_1_n_n.rhsIdx (ix2 p q)
      ((contrEquiv1 dot_S10000x64_S64x64_S10000x64_1_0_0_1_n_n 64 rfl rfl).symm k) = ix2 k q := by
    funext a; apply Fin.ext
    match a with
    | ⟨0, _⟩ => exact (rhs_0 _ _).trans (contrEquiv1_symm_val dot_S10000x64_S64x64_S10000x64_1_0_0_1_n_n 64 rfl rfl k)
    | ⟨1, _⟩ => exact rhs_1 _ _
  show x0 _ * x1 _ = _
  rw [hl, hr]

/-- One row block of the layer. If the first block is rows `10000 r …` of an array X, the second is W and the third is B,
    then at local index y, which is index i of the whole array, the body's value is `Spec.linear X W B` at i. -/
theorem pay_linear (x0 : Vec Ideal S10000x64 .f32) (x1 : Vec Ideal S64x64 .f32) (x2 : Vec Ideal S1x64 .f32)
    (X : Spec.SN.Idx → EReal) (W : Spec.SW.Idx → EReal) (B : Spec.SR.Idx → EReal) (r : ℕ)
    (hX : ∀ (y : S10000x64.Idx) (i : Spec.SN.Idx), (i 0).val = r * 10000 + (y 0).val → (i 1).val = (y 1).val → x0 y = X i)
    (hW : x1 = W) (hB : x2 = B)
    (y : S10000x64.Idx) (i : Spec.SN.Idx) (h0 : (i 0).val = r * 10000 + (y 0).val) (h1 : (i 1).val = (y 1).val) :
    k14_pay1 (F := Ideal) x0 x1 x2 y = Spec.linear X W B i := by
  obtain ⟨p, q, rfl⟩ : ∃ (p : Fin 10000) (q : Fin 64), y = ix2 p q := ⟨y 0, y 1, eq_ix2 y⟩
  have hq : (i 1 : Fin 64) = q := Fin.ext h1
  subst hW hB
  refine (pay_apply x0 x1 x2 p q).trans ?_
  show _ = (∑ k : Fin 64, X (ix2 (i 0) k) * x1 (ix2 k (i 1))) + x2 (ix2 0 (i 1))
  refine congrArg₂ (· + ·) (Finset.sum_congr rfl fun k _ => congrArg₂ (· * ·) ?_ ?_) ?_
  · exact hX (ix2 p k) (ix2 (i 0) k) h0 rfl
  · exact (congrArg (fun z : Fin 64 => x1 (ix2 k z)) hq).symm
  · exact (congrArg (fun z : Fin 64 => x2 (ix2 (0 : Fin 1) z)) hq).symm

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the ten row blocks: x and the result move down with the point, w and b stay. -/
theorem idx_facts : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0 :=
  (by decide +kernel : ∀ t : Fin grid14.N, _)

/-- Row block t of x: rows `10000 t … 10000 t + 9999` of the array. -/
theorem xblk_apply (c : Dev nD) (t : Fin cfg14.N) (y : S10000x64.Idx) (i : Spec.SN.Idx)
    (h0 : (i 0).val = t.val * 10000 + (y 0).val) (h1 : (i 1).val = (y 1).val) :
    (iblk14 V c 0 t : Vec Ideal S10000x64 .f32) y = (V c (Pipeline.arrRef spec14 0) : Spec.SN.Idx → EReal) i := by
  obtain ⟨e0, e1, -⟩ := idx_facts t
  unfold iblk14
  rw [View.read_apply]
  show V c (Pipeline.arrRef spec14 0) _ = V c (Pipeline.arrRef spec14 0) _
  refine congrArg _ (funext fun a => Fin.ext ?_)
  match a with
  | ⟨0, _⟩ => show win14_0.index t (0 : Fin 2) * 10000 + 1 * (y 0).val = (i 0).val; omega
  | ⟨1, _⟩ => show win14_0.index t (1 : Fin 2) * 64 + 1 * (y 1).val = (i 1).val; omega

/-- The weights' one block is the whole matrix. -/
theorem wblk_eq (c : Dev nD) (t : Fin cfg14.N) :
    (iblk14 V c 1 t : Vec Ideal S64x64 .f32) = (V c (Pipeline.arrRef spec14 1) : Spec.SW.Idx → EReal) := by
  obtain ⟨-, -, e0, e1, -⟩ := idx_facts t
  funext y
  unfold iblk14
  rw [View.read_apply]
  show V c (Pipeline.arrRef spec14 1) _ = V c (Pipeline.arrRef spec14 1) _
  refine congrArg _ (funext fun a => Fin.ext ?_)
  match a with
  | ⟨0, _⟩ => show win14_1.index t (0 : Fin 2) * 64 + 1 * (y 0).val = (y 0).val; omega
  | ⟨1, _⟩ => show win14_1.index t (1 : Fin 2) * 64 + 1 * (y 1).val = (y 1).val; omega

/-- The bias row's one block is the whole row. -/
theorem bblk_eq (c : Dev nD) (t : Fin cfg14.N) :
    (iblk14 V c 2 t : Vec Ideal S1x64 .f32) = (V c (Pipeline.arrRef spec14 2) : Spec.SR.Idx → EReal) := by
  obtain ⟨-, -, -, -, e0, e1, -⟩ := idx_facts t
  funext y
  unfold iblk14
  rw [View.read_apply]
  show V c (Pipeline.arrRef spec14 2) _ = V c (Pipeline.arrRef spec14 2) _
  refine congrArg _ (funext fun a => Fin.ext ?_)
  match a with
  | ⟨0, _⟩ => show win14_2.index t (0 : Fin 2) * 1 + 1 * (y 0).val = (y 0).val; omega
  | ⟨1, _⟩ => show win14_2.index t (1 : Fin 2) * 64 + 1 * (y 1).val = (y 1).val; omega

/-- What the result array ends holding: the Linear layer of the three arrays as the region finds them. -/
abbrev G (c : Dev nD) : Spec.SN.Idx → EReal :=
  Spec.linear (V c (Pipeline.arrRef spec14 0)) (V c (Pipeline.arrRef spec14 1)) (V c (Pipeline.arrRef spec14 2))

/-- What point t writes back is block t of `G`. -/
theorem flushed_eq (c : Dev nD) (t : Fin cfg14.N) :
    (dat14 V c).flushed 3 t = ((cfg14.win 3).blk t).view.read (Elt Ideal) (G V c) := by
  show (cfg14.win 3).cut (grid14.coords t) ((dat14 V c).after 3 t) = _
  rw [after14_3]
  unfold out14_3
  rw [View.canon_unit_zero hz]
  simp only [View.ld_unit_zero (S := S10000x64) hz, View.ld_unit_zero (S := S64x64) hz, View.ld_unit_zero (S := S1x64) hz]
  obtain ⟨-, -, -, -, -, -, e0, e1⟩ := idx_facts t
  funext y
  rw [View.read_apply]
  show k14_pay1 (F := Ideal) (iblk14 V c 0 t) (iblk14 V c 1 t) (iblk14 V c 2 t) ((cfg14.win 3).xinj (grid14.coords t) y)
    = G V c (((cfg14.win 3).blk t).view.emb y)
  exact pay_linear (iblk14 V c 0 t) (iblk14 V c 1 t) (iblk14 V c 2 t)
    (V c (Pipeline.arrRef spec14 0)) (V c (Pipeline.arrRef spec14 1)) (V c (Pipeline.arrRef spec14 2)) t.val
    (xblk_apply V c t) (wblk_eq V c t) (bblk_eq V c t)
    ((cfg14.win 3).xinj (grid14.coords t) y) (((cfg14.win 3).blk t).view.emb y)
    (by show win14_3.index t (0 : Fin 2) * 10000 + 1 * (y 0).val = t.val * 10000 + (y 0).val; omega)
    (by show win14_3.index t (1 : Fin 2) * 64 + 1 * (y 1).val = (y 1).val; omega)

/-- An index of the result is in point t's block iff each coordinate is in the block's range on its axis. -/
theorem mem_blk (t : Fin cfg14.N) (i : S100000x64.Idx) :
    i ∈ ((cfg14.win 3).blk t).view.set ↔ ∀ a : Fin 2, win14_3.index t a * S10000x64.size a ≤ (i a).val ∧ (i a).val < win14_3.index t a * S10000x64.size a + S10000x64.size a := by
  show i ∈ ((View.whole main_v202).slice (win14_3.rect t)).set ↔ _
  rw [View.set_slice_whole, Rect.mem_set_unit]
  exact Iff.rfl

/-- The ten row blocks cover the result: row r is in block r / 10000. -/
theorem cover (i : S100000x64.Idx) : ∃ t : Fin cfg14.N, (cfg14.win 3).flush t = true ∧ i ∈ ((cfg14.win 3).blk t).view.set := by
  have hi0 : (i 0).val < 100000 := (i 0).isLt
  have hi1 : (i 1).val < 64 := (i 1).isLt
  have hN : grid14.N = 10 := N_14
  let t : Fin cfg14.N := ⟨(i 0).val / 10000, by show _ < grid14.N; omega⟩
  obtain ⟨-, -, -, -, -, -, e0, e1⟩ := idx_facts t
  refine ⟨t, flush14_3 t, ?_⟩
  rw [mem_blk]
  intro a
  match a with
  | ⟨0, _⟩ => show win14_3.index t (0 : Fin 2) * 10000 ≤ (i 0).val ∧ (i 0).val < win14_3.index t (0 : Fin 2) * 10000 + 10000
              have : t.val = (i 0).val / 10000 := rfl
              omega
  | ⟨1, _⟩ => show win14_3.index t (1 : Fin 2) * 64 ≤ (i 1).val ∧ (i 1).val < win14_3.index t (1 : Fin 2) * 64 + 64; omega

/-- The region's result: after its ten write-backs the output array is the Linear layer of the three input arrays as
    the region finds them. -/
theorem value (c : Dev nD) :
    (dat14 (F := Ideal) V c).arrAt 3 cfg14.N
      = Spec.linear (V c (Pipeline.arrRef spec14 0)) (V c (Pipeline.arrRef spec14 1)) (V c (Pipeline.arrRef spec14 2)) :=
  (dat14 V c).arrAt_eq_of_cover 3 (G V c) (fun t _ => flushed_eq V c t) cover

end Cert.Hand.RegLinear14

end
-- ==== Proof.RegCombine15.lean ====
/-
  Region 15: the graph convolution's residual sum with the rectifier.  Ten grid points; point t takes rows
  10000·t … 10000·t + 9999 of the aggregated neighbours, of the self loop and of the residual input, and the whole
  1×64 bias row, and writes back rows 10000·t … of the output: entry (r, j) is
  max(((a[r,j] + s[r,j]) + h[r,j]) + b[0,j], 0).  The ten row blocks tile the 100000 rows, so the output array ends
  as that one function of the four arrays the region finds.
-/
import proofs.«409001_j25520695673361_2_alg».proof.Proof.Gen.KernelIdeal.Frame
import proofs.«409001_j25520695673361_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.Hand.RegCombine15

open Cert.KernelIdeal Cert.KernelIdeal.Gen

/-- The store's and the loads' offsets are zero on both axes. -/
theorem hz : (![0, 0] : Fin 2 → Nat) = fun _ => 0 := funext fun a => by fin_cases a <;> rfl

/-- One entry of the body's result on a block: the entries of the three blocks added in order, the entry of the bias row
    in that column added, and the maximum of that with zero (the zero word denotes the real number zero). -/
theorem pay_apply (x0 x1 x2 : Vec Ideal S10000x64 .f32) (x3 : Vec Ideal S1x64 .f32) (p : Fin 10000) (q : Fin 64) :
    k15_pay1 (F := Ideal) x0 x1 x2 x3 (ix2 p q)
      = max (((x0 (ix2 p q) + x1 (ix2 p q)) + x2 (ix2 p q)) + x3 (ix2 (0 : Fin 1) q)) 0 := by
  unfold k15_pay1
  simp only [shapeCast_self]
  rw [maximumf_apply, addf_apply, addf_apply, addf_apply, broadcast_apply, broadcastTo_1b_ab_apply]
  show max _ (Ideal.ofBits .f32 0x00000000#32) = _
  rw [Ideal.ofBits_zero_f32]

/-- The same entry against the specification: when the three blocks' entries at (p, q) are the arrays' entries at `i` and
    the bias block's entry at (0, q) is the bias array's entry in `i`'s column, the body's entry is the sum's at `i`. -/
theorem pay_spec (x0 x1 x2 : Vec Ideal S10000x64 .f32) (x3 : Vec Ideal S1x64 .f32)
    (a s h : Spec.SN.Idx → EReal) (b : Spec.SR.Idx → EReal) (p : Fin 10000) (q : Fin 64) (i : Spec.SN.Idx)
    (h0 : x0 (ix2 p q) = a i) (h1 : x1 (ix2 p q) = s i) (h2 : x2 (ix2 p q) = h i)
    (h3 : x3 (ix2 (0 : Fin 1) q) = b (ix2 0 (i 1))) :
    k15_pay1 (F := Ideal) x0 x1 x2 x3 (ix2 p q) = Spec.combine true a s h b i := by
  rw [pay_apply, h0, h1, h2, h3]
  rfl

/-- Where each window's block sits at grid point `t`: the three node arrays and the output move down one row block per
    point and stay in column block 0; the bias row's block never moves. -/
theorem idx_facts : ∀ t : Fin cfg15.N,
    win15_0.index t (0 : Fin 2) = t.val ∧ win15_0.index t (1 : Fin 2) = 0
    ∧ win15_1.index t (0 : Fin 2) = t.val ∧ win15_1.index t (1 : Fin 2) = 0
    ∧ win15_2.index t (0 : Fin 2) = t.val ∧ win15_2.index t (1 : Fin 2) = 0
    ∧ win15_3.index t (0 : Fin 2) = 0 ∧ win15_3.index t (1 : Fin 2) = 0
    ∧ win15_4.index t (0 : Fin 2) = t.val ∧ win15_4.index t (1 : Fin 2) = 0 :=
  (by decide +kernel : ∀ t : Fin grid15.N, _)

variable (V : (c : Dev nD) → (b : Ref sig .tc) → Buf (Elt Ideal) ((c : Thread nD τ).loc b))

/-- Entry (p, q) of the aggregated neighbours' block at point `t` is that array's entry at entry (p, q) of the output's block:
    both blocks are rows 10000·t … 10000·t + 9999 and all 64 columns. -/
theorem blk0_apply (c : Dev nD) (t : Fin cfg15.N) (p : Fin 10000) (q : Fin 64) :
    (iblk15 V c 0 t : Vec Ideal S10000x64 .f32) (ix2 p q)
      = V c (Pipeline.arrRef spec15 0) (((cfg15.win 4).blk t).view.emb (ix2 p q)) := by
  obtain ⟨f00, f01, f10, f11, f20, f21, f30, f31, f40, f41⟩ := idx_facts t
  have hp : p.val < 10000 := p.isLt
  have hq : q.val < 64 := q.isLt
  have e : ((cfg15.win 0).blk t).view.emb (ix2 p q) = ((cfg15.win 4).blk t).view.emb (ix2 p q) := by
    funext a; apply Fin.ext
    match a with
    | ⟨0, _⟩ => show win15_0.index t (0 : Fin 2) * 10000 + 1 * p.val = win15_4.index t (0 : Fin 2) * 10000 + 1 * p.val; omega
    | ⟨1, _⟩ => show win15_0.index t (1 : Fin 2) * 64 + 1 * q.val = win15_4.index t (1 : Fin 2) * 64 + 1 * q.val; omega
  show V c (Pipeline.arrRef spec15 0) (((cfg15.win 0).blk t).view.emb (ix2 p q)) = _
  rw [e]

/-- The same for the self loop's block. -/
theorem blk1_apply (c : Dev nD) (t : Fin cfg15.N) (p : Fin 10000) (q : Fin 64) :
    (iblk15 V c 1 t : Vec Ideal S10000x64 .f32) (ix2 p q)
      = V c (Pipeline.arrRef spec15 1) (((cfg15.win 4).blk t).view.emb (ix2 p q)) := by
  obtain ⟨f00, f01, f10, f11, f20, f21, f30, f31, f40, f41⟩ := idx_facts t
  have hp : p.val < 10000 := p.isLt
  have hq : q.val < 64 := q.isLt
  have e : ((cfg15.win 1).blk t).view.emb (ix2 p q) = ((cfg15.win 4).blk t).view.emb (ix2 p q) := by
    funext a; apply Fin.ext
    match a with
    | ⟨0, _⟩ => show win15_1.index t (0 : Fin 2) * 10000 + 1 * p.val = win15_4.index t (0 : Fin 2) * 10000 + 1 * p.val; omega
    | ⟨1, _⟩ => show win15_1.index t (1 : Fin 2) * 64 + 1 * q.val = win15_4.index t (1 : Fin 2) * 64 + 1 * q.val; omega
  show V c (Pipeline.arrRef spec15 1) (((cfg15.win 1).blk t).view.emb (ix2 p q)) = _
  rw [e]

/-- The same for the residual input's block. -/
theorem blk2_apply (c : Dev nD) (t : Fin cfg15.N) (p : Fin 10000) (q : Fin 64) :
    (iblk15 V c 2 t : Vec Ideal S10000x64 .f32) (ix2 p q)
      = V c (Pipeline.arrRef spec15 2) (((cfg15.win 4).blk t).view.emb (ix2 p q)) := by
  obtain ⟨f00, f01, f10, f11, f20, f21, f30, f31, f40, f41⟩ := idx_facts t
  have hp : p.val < 10000 := p.isLt
  have hq : q.val < 64 := q.isLt
  have e : ((cfg15.win 2).blk t).view.emb (ix2 p q) = ((cfg15.win 4).blk t).view.emb (ix2 p q) := by
    funext a; apply Fin.ext
    match a with
    | ⟨0, _⟩ => show win15_2.index t (0 : Fin 2) * 10000 + 1 * p.val = win15_4.index t (0 : Fin 2) * 10000 + 1 * p.val; omega
    | ⟨1, _⟩ => show win15_2.index t (1 : Fin 2) * 64 + 1 * q.val = win15_4.index t (1 : Fin 2) * 64 + 1 * q.val; omega
  show V c (Pipeline.arrRef spec15 2) (((cfg15.win 2).blk t).view.emb (ix2 p q)) = _
  rw [e]

/-- The bias row's block is the whole row at every point: its entry (0, q) is the bias array's entry (0, column of the
    output's entry). -/
theorem blk3_apply (c : Dev nD) (t : Fin cfg15.N) (p : Fin 10000) (q : Fin 64) :
    (iblk15 V c 3 t : Vec Ideal S1x64 .f32) (ix2 (0 : Fin 1) q)
      = V c (Pipeline.arrRef spec15 3) (ix2 (0 : Fin 1) ((((cfg15.win 4).blk t).view.emb (ix2 p q) : Spec.SN.Idx) 1)) := by
  obtain ⟨f00, f01, f10, f11, f20, f21, f30, f31, f40, f41⟩ := idx_facts t
  have hp : p.val < 10000 := p.isLt
  have hq : q.val < 64 := q.isLt
  have e : ((cfg15.win 3).blk t).view.emb (ix2 (0 : Fin 1) q)
      = ix2 (0 : Fin 1) ((((cfg15.win 4).blk t).view.emb (ix2 p q) : Spec.SN.Idx) 1) := by
    funext a; apply Fin.ext
    match a with
    | ⟨0, _⟩ => show win15_3.index t (0 : Fin 2) * 1 + 1 * 0 = 0; omega
    | ⟨1, _⟩ => show win15_3.index t (1 : Fin 2) * 64 + 1 * q.val = win15_4.index t (1 : Fin 2) * 64 + 1 * q.val; omega
  show V c (Pipeline.arrRef spec15 3) (((cfg15.win 3).blk t).view.emb (ix2 (0 : Fin 1) q)) = _
  exact congrArg (V c (Pipeline.arrRef spec15 3)) e

/-- Entry (p, q) of what the body leaves at point `t` is the sum of the four arrays at entry (p, q) of the output's block. -/
theorem point_eq (c : Dev nD) (t : Fin cfg15.N) (p : Fin 10000) (q : Fin 64) :
    k15_pay1 (F := Ideal) (iblk15 V c 0 t) (iblk15 V c 1 t) (iblk15 V c 2 t) (iblk15 V c 3 t) (ix2 p q)
      = Spec.combine true (V c (Pipeline.arrRef spec15 0)) (V c (Pipeline.arrRef spec15 1))
          (V c (Pipeline.arrRef spec15 2)) (V c (Pipeline.arrRef spec15 3)) (((cfg15.win 4).blk t).view.emb (ix2 p q)) :=
  pay_spec (iblk15 V c 0 t) (iblk15 V c 1 t) (iblk15 V c 2 t) (iblk15 V c 3 t)
    (V c (Pipeline.arrRef spec15 0)) (V c (Pipeline.arrRef spec15 1)) (V c (Pipeline.arrRef spec15 2))
    (V c (Pipeline.arrRef spec15 3)) p q (((cfg15.win 4).blk t).view.emb (ix2 p q))
    (blk0_apply V c t p q) (blk1_apply V c t p q) (blk2_apply V c t p q) (blk3_apply V c t p q)

/-- What point `t` writes back is block `t` of the sum of the four arrays as the region finds them. -/
theorem flushed_eq (c : Dev nD) (t : Fin cfg15.N) :
    (dat15 (F := Ideal) V c).flushed 4 t
      = ((cfg15.win 4).blk t).view.read (Elt Ideal)
          (Spec.combine true (V c (Pipeline.arrRef spec15 0)) (V c (Pipeline.arrRef spec15 1))
            (V c (Pipeline.arrRef spec15 2)) (V c (Pipeline.arrRef spec15 3))) := by
  show (cfg15.win 4).cut (grid15.coords t) ((dat15 (F := Ideal) V c).after 4 t) = _
  rw [after15_4]
  unfold out15_4
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  exact point_eq V c t p q

/-- An entry of the output array lies in point `t`'s block when each coordinate lies in the block's range on its axis. -/
theorem mem_blk (t : Fin cfg15.N) (i : S100000x64.Idx) :
    i ∈ ((cfg15.win 4).blk t).view.set
      ↔ ∀ a : Fin 2, win15_4.index t a * S10000x64.size a ≤ (i a).val
          ∧ (i a).val < win15_4.index t a * S10000x64.size a + S10000x64.size a := by
  show i ∈ ((View.whole (Pipeline.arrRef spec15 4)).slice (win15_4.rect t)).set ↔ _
  rw [View.set_slice_whole, Rect.mem_set_unit]
  exact Iff.rfl

/-- Row `r` of the output lies in the block of point `r / 10000`: the ten blocks tile the array. -/
theorem cover (i : S100000x64.Idx) :
    ∃ t : Fin cfg15.N, (cfg15.win 4).flush t = true ∧ i ∈ ((cfg15.win 4).blk t).view.set := by
  have hi0 : (i 0).val < 100000 := (i 0).isLt
  have hi1 : (i 1).val < 64 := (i 1).isLt
  have hN : grid15.N = 10 := N_15
  let t : Fin cfg15.N := ⟨(i 0).val / 10000, by show (i 0).val / 10000 < grid15.N; omega⟩
  have ht : t.val = (i 0).val / 10000 := rfl
  obtain ⟨f00, f01, f10, f11, f20, f21, f30, f31, f40, f41⟩ := idx_facts t
  refine ⟨t, flush15_4 t, ?_⟩
  rw [mem_blk]
  intro a
  match a with
  | ⟨0, _⟩ =>
    show win15_4.index t (0 : Fin 2) * 10000 ≤ (i 0).val ∧ (i 0).val < win15_4.index t (0 : Fin 2) * 10000 + 10000
    omega
  | ⟨1, _⟩ =>
    show win15_4.index t (1 : Fin 2) * 64 ≤ (i 1).val ∧ (i 1).val < win15_4.index t (1 : Fin 2) * 64 + 64
    omega

/-- The output array after the region's ten write-backs is the sum of the four arrays the region finds, entry by entry. -/
theorem value (c : Dev nD) :
    (Gen.dat15 (F := Ideal) V c).arrAt 4 cfg15.N
      = Spec.combine true (V c (Pipeline.arrRef spec15 0)) (V c (Pipeline.arrRef spec15 1))
          (V c (Pipeline.arrRef spec15 2)) (V c (Pipeline.arrRef spec15 3)) :=
  (dat15 (F := Ideal) V c).arrAt_eq_of_cover 4 _ (fun t _ => flushed_eq V c t) cover

end Cert.Hand.RegCombine15

end
-- ==== Proof.ConvK4.lean ====
/-
  Graph-convolution layer 4 on the kernel's side: what each of its four host stretches leaves in the buffers the
  layer goes on to read, from any contents `V` at the stretch's entry.  Each is the printed operations of that stretch
  read off in order; the message-passing chain is left as the named functions of its inputs.
-/
import proofs.«409001_j25520695673361_2_alg».proof.Proof.Gen.KernelIdeal.Launch
import proofs.«409001_j25520695673361_2_alg».proof.Proof.ConvChain
import Idealize.ShloMosaic.Lib.StableHlo.Run

set_option maxRecDepth 16384

noncomputable section

namespace Cert.Hand.ConvK4

open Idealize.ShloMosaic Idealize.ShloMosaic.ValueIdx Idealize.ShloMosaic.TcCoe
open Cert.KernelIdeal Cert.KernelIdeal.Gen
open Cert.Hand.ConvTake Cert.Hand.ConvChain

/-- A value moved to a typed reference's buffer type and back is the value (both moves are along the same equation of types). -/
theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

variable (V : Valuation τ sig (Elt Ideal))

/-! ## Before the Linear region: the weight matrix, the zero bias as a row -/

/-- The layer's weight matrix: its slice of the stacked weights, as a 64×64 matrix. -/
theorem w_of :
    StableHlo.after (hostOps14 (F := Ideal)) V (Proc.devRef .tc main_v200)
      = shapeCast S64x64
          (extractStridedSlice S1x64x64 ![4, 0, 0] (V (Proc.devRef .tc main_arg7)) slices_S6x64x64_S1x64x64_4_0_0)
          shapeCasts_S1x64x64_S64x64 := by
  after_results
  try rfl

/-- The bias handed to the Linear region: the zero bias as a 1×64 row. -/
theorem b_of :
    StableHlo.after (hostOps14 (F := Ideal)) V (Proc.devRef .tc main_v201)
      = shapeCast S1x64 (StableHlo.after (hostOps14 (F := Ideal)) V (Proc.devRef .tc main_v66)) shapeCasts_S64_S1x64 := by
  after_results
  try rfl

/-! ## After it: the edge weights, the looked-up rows, the aggregation, the self loop, the bias row -/

/-- The edge weights `dinv[src] · dinv[dst]`. -/
theorem norm_of :
    StableHlo.after (hostOps15 (F := Ideal)) V (Proc.devRef .tc main_v217)
      = edgeNorm (V (Proc.devRef .tc main_v10)) (V (Proc.devRef .tc main_v1)) (V (Proc.devRef .tc main_v3)) := by
  after_results_simp
  try rfl

/-- The two buffers the lookup reads, seen at their tensor types: the same contents. -/
theorem src_typed :
    ((.of main_v1 : StableHlo.TRef sig ⟨S800000, .i32⟩)).ofBuf (V (Proc.devRef .tc main_v1))
      = V (Proc.devRef .tc main_v1) := rfl
theorem hw_typed :
    ((.of main_v202 : StableHlo.TRef sig ⟨S100000x64, .f32⟩)).ofBuf (V (Proc.devRef .tc main_v202))
      = V (Proc.devRef .tc main_v202) := rfl

/-- The guarded lookup, with its two inputs and its result seen at their tensor types: the intermediate values'
    moves to their buffers' types and back cancel, and what is left is the named lookup of the two inputs. -/
theorem take_of_typed :
    ((.of main_v218 : StableHlo.TRef sig ⟨S800000x64, .f32⟩)).ofBuf
        (StableHlo.after (hostOps15_1 (F := Ideal)) V (Proc.devRef .tc main_v218))
      = takeRows (((.of main_v202 : StableHlo.TRef sig ⟨S100000x64, .f32⟩)).ofBuf (V (Proc.devRef .tc main_v202)))
          (((.of main_v1 : StableHlo.TRef sig ⟨S800000, .i32⟩)).ofBuf (V (Proc.devRef .tc main_v1))) := by
  after_results_simp
  simp only [ofBuf_toBuf]
  generalize ((.of main_v202 : StableHlo.TRef sig ⟨S100000x64, .f32⟩)).ofBuf (V (Proc.devRef .tc main_v202)) = hw
  generalize ((.of main_v1 : StableHlo.TRef sig ⟨S800000, .i32⟩)).ofBuf (V (Proc.devRef .tc main_v1)) = s
  rfl

/-- The guarded lookup of the transformed features' rows at the source indices. -/
theorem take_of :
    StableHlo.after (hostOps15_1 (F := Ideal)) V (Proc.devRef .tc main_v218)
      = takeRows (V (Proc.devRef .tc main_v202)) (V (Proc.devRef .tc main_v1)) := by
  have h := take_of_typed V
  rw [src_typed V, hw_typed V] at h
  exact h

/-- The weighted rows summed by destination. -/
theorem agg_of :
    StableHlo.after (hostOps15_2 (F := Ideal)) V (Proc.devRef .tc main_v224)
      = agg (V (Proc.devRef .tc main_v218)) (V (Proc.devRef .tc main_v217)) (V (Proc.devRef .tc main_v3)) := by
  after_results
  try rfl

/-- The self loop. -/
theorem self_of :
    StableHlo.after (hostOps15_2 (F := Ideal)) V (Proc.devRef .tc main_v227)
      = selfLoop (V (Proc.devRef .tc main_v202)) (V (Proc.devRef .tc main_v11)) := by
  after_results
  try rfl

/-- The layer's bias: its slice of the stacked biases, flattened and laid out as a row again. -/
theorem bias_of :
    StableHlo.after (hostOps15_2 (F := Ideal)) V (Proc.devRef .tc main_v230)
      = shapeCast S1x64
          (shapeCast S64 (extractStridedSlice S1x64 ![4, 0] (V (Proc.devRef .tc main_arg8)) slices_S6x64_S1x64_4_0)
            shapeCasts_S1x64_S64)
          shapeCasts_S64_S1x64 := by
  after_results
  try rfl

end Cert.Hand.ConvK4

end
-- ==== Proof.StepConv4K.lean ====
/-
  Graph-convolution layer 4, the kernel's half: the layer's output array as ONE function of what the layer finds —
  its input array, the edge rows and inverse-root degrees the prologue wrote, and its slices of the stacked weights
  and biases as launched.

  Linear region: the input times the weight matrix plus a zero bias.  Host stretches: the edge weights, the guarded
  lookup of the transformed rows (the plain gather, every source index being a valid row), the aggregation by
  destination, the self loop.  Combine region: the residual sum with the rectifier.
-/
import proofs.«409001_j25520695673361_2_alg».proof.Proof.KKeep
import proofs.«409001_j25520695673361_2_alg».proof.Proof.Spec
import proofs.«409001_j25520695673361_2_alg».proof.Proof.RegLinear14
import proofs.«409001_j25520695673361_2_alg».proof.Proof.RegCombine15
import proofs.«409001_j25520695673361_2_alg».proof.Proof.ConvK4
import Idealize.ShloMosaic.Lib.Pipeline.Value

noncomputable section

namespace Cert.Hand.StepConv4

open Idealize.ShloMosaic Idealize.ShloMosaic.ValueIdx Idealize.ShloMosaic.TcCoe Idealize.SL.Sem
open Cert.KernelIdeal Cert.KernelIdeal.Gen Cert.KernelIdeal.Hand
open Cert.Hand.ConvTake Cert.Hand.ConvChain

variable (m : (ℓ : Loc nD τ sig) → Buf (Elt Ideal) ℓ) (ρ : Dev nD → PrngReg) (c : Dev nD)

/-! ## What the layer finds -/

/-- The layer's input array. -/
abbrev xin : FVec Ideal S100000x64 .f32 := W42 m ρ c (Proc.devRef .tc main_v198)
/-- The edges' source and destination rows, the inverse-root degrees and their squares, as the prologue left them. -/
abbrev src : IVec S800000 32 := W1 m ρ c (Proc.devRef .tc main_v1)
abbrev dst : IVec S800000 32 := W1 m ρ c (Proc.devRef .tc main_v3)
abbrev dinv : FVec Ideal S100000 .f32 := W1 m ρ c (Proc.devRef .tc main_v10)
abbrev dinv2 : FVec Ideal S100000 .f32 := W1 m ρ c (Proc.devRef .tc main_v11)
/-- The layer's weight matrix and bias row: its slices of the launched arguments. -/
abbrev wmat : FVec Ideal S64x64 .f32 :=
  shapeCast S64x64
    (extractStridedSlice S1x64x64 ![4, 0, 0] (m ((c : Thread nD τ).loc main_arg7)) slices_S6x64x64_S1x64x64_4_0_0)
    shapeCasts_S1x64x64_S64x64
abbrev brow : FVec Ideal S1x64 .f32 :=
  extractStridedSlice S1x64 ![4, 0] (m ((c : Thread nD τ).loc main_arg8)) slices_S6x64_S1x64_4_0
/-- The zero bias of the Linear stage, as a row. -/
abbrev zrow : FVec Ideal S1x64 .f32 :=
  shapeCast S1x64 (broadcastInDim S64 ![] bcast_S_S64 (constant (F := Ideal) S_ .f32 0x00000000#32)) shapeCasts_S64_S1x64

/-! ## The Linear region -/

/-- The transformed features. -/
abbrev hw : FVec Ideal S100000x64 .f32 := Spec.linear (xin m ρ c) (wmat m c) zrow

/-- Where this layer's Linear region finds the zero bias: the buffer written before the first convolution. -/
theorem z66 (hzero : W19 m ρ c (Proc.devRef .tc main_v66)
      = broadcastInDim S64 ![] bcast_S_S64 (constant (F := Ideal) S_ .f32 0x00000000#32)) :
    StableHlo.after (hostOps14 (F := Ideal)) (W42 m ρ c) (Proc.devRef .tc main_v66)
      = broadcastInDim S64 ![] bcast_S_S64 (constant (F := Ideal) S_ .f32 0x00000000#32) :=
  (W43_keep m ρ c main_v66 (by decide)).trans ((W42_v66 m ρ c).trans hzero)

theorem hw_eq (hzero : W19 m ρ c (Proc.devRef .tc main_v66)
      = broadcastInDim S64 ![] bcast_S_S64 (constant (F := Ideal) S_ .f32 0x00000000#32)) :
    W44 m ρ c (Proc.devRef .tc main_v202) = hw m ρ c := by
  have e0 : V43 m ρ c (Pipeline.arrRef spec14 0) = xin m ρ c := W43_keep m ρ c main_v198 (by decide)
  have e1 : V43 m ρ c (Pipeline.arrRef spec14 1) = wmat m c := by
    have h := ConvK4.w_of (W42 m ρ c)
    rw [W42_arg7 m ρ c] at h
    exact h
  have e2 : V43 m ρ c (Pipeline.arrRef spec14 2) = zrow := by
    have h := ConvK4.b_of (W42 m ρ c)
    rw [z66 m ρ c hzero] at h
    exact h
  refine (W44_arr m ρ c 3).trans ((Cert.Hand.RegLinear14.value (V43 m ρ) c).trans ?_)
  rw [e0, e1, e2]

/-! ## The host stretches: every buffer they read, traced back to what the layer found -/

theorem src_at : W44 m ρ c (Proc.devRef .tc main_v1) = src m ρ c :=
  (W44_keep m ρ c main_v1 (by decide)).trans ((W43_keep m ρ c main_v1 (by decide)).trans (W42_v1 m ρ c))
theorem dst_at : W44 m ρ c (Proc.devRef .tc main_v3) = dst m ρ c :=
  (W44_keep m ρ c main_v3 (by decide)).trans ((W43_keep m ρ c main_v3 (by decide)).trans (W42_v3 m ρ c))
theorem dinv_at : W44 m ρ c (Proc.devRef .tc main_v10) = dinv m ρ c :=
  (W44_keep m ρ c main_v10 (by decide)).trans ((W43_keep m ρ c main_v10 (by decide)).trans (W42_v10 m ρ c))
theorem dinv2_at : W44 m ρ c (Proc.devRef .tc main_v11) = dinv2 m ρ c :=
  (W44_keep m ρ c main_v11 (by decide)).trans ((W43_keep m ρ c main_v11 (by decide)).trans (W42_v11 m ρ c))

/-- The edge weights. -/
theorem norm_at : W45 m ρ c (Proc.devRef .tc main_v217) = edgeNorm (dinv m ρ c) (src m ρ c) (dst m ρ c) := by
  have h := ConvK4.norm_of (W44 m ρ c)
  rw [dinv_at m ρ c, src_at m ρ c, dst_at m ρ c] at h
  exact h

/-- The looked-up rows: under the index range, the plain gather at the wrapped source indices. -/
theorem rows_at (hzero : W19 m ρ c (Proc.devRef .tc main_v66)
      = broadcastInDim S64 ![] bcast_S_S64 (constant (F := Ideal) S_ .f32 0x00000000#32))
    (hrange : ∀ e, 0 ≤ ((src m ρ c) e).toInt ∧ ((src m ρ c) e).toInt < 100000) :
    W46 m ρ c (Proc.devRef .tc main_v218) = rows (hw m ρ c) (wrap (src m ρ c)) := by
  have h := ConvK4.take_of (W45 m ρ c)
  have e70 : W45 m ρ c (Proc.devRef .tc main_v202) = hw m ρ c :=
    (W45_keep m ρ c main_v202 (by decide)).trans (hw_eq m ρ c hzero)
  have e1 : W45 m ρ c (Proc.devRef .tc main_v1) = src m ρ c :=
    (W45_keep m ρ c main_v1 (by decide)).trans (src_at m ρ c)
  rw [e70, e1] at h
  exact h.trans (takeRows_eq_rows (hw m ρ c) (src m ρ c) hrange)

/-- The aggregation by destination. -/
theorem agg_at (hzero : W19 m ρ c (Proc.devRef .tc main_v66)
      = broadcastInDim S64 ![] bcast_S_S64 (constant (F := Ideal) S_ .f32 0x00000000#32))
    (hrange : ∀ e, 0 ≤ ((src m ρ c) e).toInt ∧ ((src m ρ c) e).toInt < 100000) :
    W47 m ρ c (Proc.devRef .tc main_v224)
      = agg (rows (hw m ρ c) (wrap (src m ρ c))) (edgeNorm (dinv m ρ c) (src m ρ c) (dst m ρ c)) (dst m ρ c) := by
  have h := ConvK4.agg_of (W46 m ρ c)
  have e85 : W46 m ρ c (Proc.devRef .tc main_v217) = edgeNorm (dinv m ρ c) (src m ρ c) (dst m ρ c) :=
    (W46_keep m ρ c main_v217 (by decide)).trans (norm_at m ρ c)
  have e3 : W46 m ρ c (Proc.devRef .tc main_v3) = dst m ρ c :=
    (W46_keep m ρ c main_v3 (by decide)).trans ((W45_keep m ρ c main_v3 (by decide)).trans (dst_at m ρ c))
  rw [rows_at m ρ c hzero hrange, e85, e3] at h
  exact h

/-- The self loop. -/
theorem self_at (hzero : W19 m ρ c (Proc.devRef .tc main_v66)
      = broadcastInDim S64 ![] bcast_S_S64 (constant (F := Ideal) S_ .f32 0x00000000#32)) :
    W47 m ρ c (Proc.devRef .tc main_v227) = selfLoop (hw m ρ c) (dinv2 m ρ c) := by
  have h := ConvK4.self_of (W46 m ρ c)
  have e70 : W46 m ρ c (Proc.devRef .tc main_v202) = hw m ρ c :=
    (W46_keep m ρ c main_v202 (by decide)).trans ((W45_keep m ρ c main_v202 (by decide)).trans (hw_eq m ρ c hzero))
  have e11 : W46 m ρ c (Proc.devRef .tc main_v11) = dinv2 m ρ c :=
    (W46_keep m ρ c main_v11 (by decide)).trans ((W45_keep m ρ c main_v11 (by decide)).trans (dinv2_at m ρ c))
  rw [e70, e11] at h
  exact h

/-- The residual input, untouched since the layer's entry. -/
theorem xin_at : W47 m ρ c (Proc.devRef .tc main_v198) = xin m ρ c :=
  (W47_keep m ρ c main_v198 (by decide)).trans ((W46_keep m ρ c main_v198 (by decide)).trans
    ((W45_keep m ρ c main_v198 (by decide)).trans ((W44_keep m ρ c main_v198 (by decide)).trans
      (W43_keep m ρ c main_v198 (by decide)))))

/-- The bias row: the slice of the launched biases (flattening it and laying it out as a row again changes nothing). -/
theorem brow_at : W47 m ρ c (Proc.devRef .tc main_v230) = brow m c := by
  have h := ConvK4.bias_of (W46 m ρ c)
  have e8 : W46 m ρ c (Proc.devRef .tc main_arg8) = m ((c : Thread nD τ).loc main_arg8) :=
    (W46_keep m ρ c main_arg8 (by decide)).trans ((W45_keep m ρ c main_arg8 (by decide)).trans
      ((W44_keep m ρ c main_arg8 (by decide)).trans ((W43_keep m ρ c main_arg8 (by decide)).trans (W42_arg8 m ρ c))))
  rw [e8, shapeCast_shapeCast] at h
  exact h

/-! ## The Combine region -/

/-- THE KERNEL'S HALF. -/
theorem kernel_half (hzero : W19 m ρ c (Proc.devRef .tc main_v66)
      = broadcastInDim S64 ![] bcast_S_S64 (constant (F := Ideal) S_ .f32 0x00000000#32))
    (hrange : ∀ e, 0 ≤ ((src m ρ c) e).toInt ∧ ((src m ρ c) e).toInt < 100000) :
    W48 m ρ c (Proc.devRef .tc main_v231)
      = Spec.combine true
          (agg (rows (hw m ρ c) (wrap (src m ρ c))) (edgeNorm (dinv m ρ c) (src m ρ c) (dst m ρ c)) (dst m ρ c))
          (selfLoop (hw m ρ c) (dinv2 m ρ c)) (xin m ρ c) (brow m c) := by
  have e0 : V47 m ρ c (Pipeline.arrRef spec15 0) = _ := agg_at m ρ c hzero hrange
  have e1 : V47 m ρ c (Pipeline.arrRef spec15 1) = _ := self_at m ρ c hzero
  have e2 : V47 m ρ c (Pipeline.arrRef spec15 2) = _ := xin_at m ρ c
  have e3 : V47 m ρ c (Pipeline.arrRef spec15 3) = _ := brow_at m ρ c
  refine (W48_arr m ρ c 4).trans ((Cert.Hand.RegCombine15.value (V47 m ρ) c).trans ?_)
  rw [e0, e1, e2, e3]

end Cert.Hand.StepConv4

end
-- ==== Proof.ConvR4.lean ====
/-
  Graph-convolution layer 4 on the reference's side: what its chunk of operations leaves in its result, from any
  contents `V` at the chunk's entry.  The message-passing chain is the same named functions as on the kernel's side (the
  two programs print the same operations over the same shapes); the row lookup is the bare gather at the wrapped indices.
-/
import proofs.«409001_j25520695673361_2_alg».proof.Proof.RefOps8
import proofs.«409001_j25520695673361_2_alg».proof.Proof.ConvChain
import Idealize.ShloMosaic.Lib.StableHlo.Run
import Idealize.ShloMosaic.Lib.Pipeline.Frame

set_option maxRecDepth 4096

noncomputable section

namespace Cert.Hand.ConvR4

open Idealize.ShloMosaic Idealize.ShloMosaic.ValueIdx Idealize.ShloMosaic.TcCoe
open Cert.ReferenceIdeal Cert.ReferenceIdeal.Gen Cert.ReferenceIdeal.Hand
open Cert.Hand.ConvTake Cert.Hand.ConvChain

variable (V : Valuation τ sig (Elt Ideal))

/-- The transformed features: the layer's input times its slice of the stacked weights. -/
def hw : FVec Ideal S100000x64 .f32 :=
  Host.dotGeneral (φ₁ := .f32) (φ₂ := .f32) dot_S100000x64_S64x64_S100000x64_1_0_0_1_n_n none
    (V (Proc.devRef .tc main_v277))
    (shapeCast S64x64
      (extractStridedSlice (α := Ideal .f32) S1x64x64 ![4, 0, 0] (V (Proc.devRef .tc main_arg7))
        slices_S6x64x64_S1x64x64_4_0_0)
      shapeCasts_S1x64x64_S64x64)

/-! ## The sum before the rectifier -/

/-- What the chunk leaves in the last sum's buffer: aggregation plus self loop, plus the bias row, plus the input.
    Each operation's result is its function of its operands' contents, a buffer no operation of the chunk writes is as
    the chunk found it; what is left is the right side's operations with the named functions unfolded, the two programs'
    dimension records being the same literal lists. -/
theorem pre_of :
    StableHlo.after (rops8 (F := Ideal)) V (Proc.devRef .tc main_v319) =
        (addf
          (addf
            (addf
              (agg (rows (hw V) (wrap (V (Proc.devRef .tc main_v1))))
                (edgeNorm (V (Proc.devRef .tc main_v10)) (V (Proc.devRef .tc main_v1)) (V (Proc.devRef .tc main_v3)))
                (V (Proc.devRef .tc main_v3)))
              (selfLoop (hw V) (mulf (V (Proc.devRef .tc main_v10)) (V (Proc.devRef .tc main_v10)))))
            (broadcastInDim S100000x64 ![0, 1] bcast_S1x64_S100000x64_0_1
              (broadcastInDim S1x64 ![1] bcast_S64_S1x64_1
                (shapeCast S64
                  (extractStridedSlice S1x64 ![4, 0] (V (Proc.devRef .tc main_arg8)) slices_S6x64_S1x64_4_0)
                  shapeCasts_S1x64_S64))))
          (V (Proc.devRef .tc main_v277))) := by
  after_results_simp
  rfl

/-! ## The rectifier -/

/-- Contents moved to a typed reference's buffer type and back are the contents: both moves are along the same equation
    of types. -/
private theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

/-- The chunk is its first forty-nine operations followed by the rectifier's three. -/
private theorem split_tail :
    (rops8 (F := Ideal)) = List.take 49 rops8 ++
      [ StableHlo.TRef.nullary (.of main_call9_cst : StableHlo.TRef sig ⟨S_, .f32⟩) (constant (F := Ideal) S_ .f32 0x00000000#32),
        StableHlo.TRef.unary (.of main_call9_cst : StableHlo.TRef sig ⟨S_, .f32⟩) (.of main_call9_v0 : StableHlo.TRef sig ⟨S100000x64, .f32⟩) (broadcastInDim S100000x64 ![] bcast_S_S100000x64),
        StableHlo.TRef.binary (.of main_v319 : StableHlo.TRef sig ⟨S100000x64, .f32⟩) (.of main_call9_v0 : StableHlo.TRef sig ⟨S100000x64, .f32⟩) (.of main_v320 : StableHlo.TRef sig ⟨S100000x64, .f32⟩) (maximumf (F := Ideal) (φ := .f32)) ] :=
  rfl

/-- The chunk's result is the last sum, rectified: the rectifier's operations read the sum where the first forty-nine
    left it, and none of the three writes it. -/
theorem relu_of :
    StableHlo.after (rops8 (F := Ideal)) V (Proc.devRef .tc main_v320)
      = maximumf (F := Ideal) (StableHlo.after (rops8 (F := Ideal)) V (Proc.devRef .tc main_v319))
        (broadcastInDim S100000x64 ![] bcast_S_S100000x64 (constant (F := Ideal) S_ .f32 0x00000000#32)) := by
  rw [split_tail]
  simp only [StableHlo.after_append]
  generalize StableHlo.after (List.take 49 (rops8 (F := Ideal))) V = V'
  after_results_simp
  simp only [ofBuf_toBuf]
  rfl

/-! ## The layer -/

/-- The layer's result: aggregation plus self loop, plus the bias row, plus the input, rectified. -/
theorem out_of :
    StableHlo.after (rops8 (F := Ideal)) V (Proc.devRef .tc main_v320)
      = maximumf
          (addf
            (addf
              (addf
                (agg (rows (hw V) (wrap (V (Proc.devRef .tc main_v1))))
                  (edgeNorm (V (Proc.devRef .tc main_v10)) (V (Proc.devRef .tc main_v1)) (V (Proc.devRef .tc main_v3)))
                  (V (Proc.devRef .tc main_v3)))
                (selfLoop (hw V) (mulf (V (Proc.devRef .tc main_v10)) (V (Proc.devRef .tc main_v10)))))
              (broadcastInDim S100000x64 ![0, 1] bcast_S1x64_S100000x64_0_1
                (broadcastInDim S1x64 ![1] bcast_S64_S1x64_1
                  (shapeCast S64
                    (extractStridedSlice S1x64 ![4, 0] (V (Proc.devRef .tc main_arg8)) slices_S6x64_S1x64_4_0)
                    shapeCasts_S1x64_S64))))
            (V (Proc.devRef .tc main_v277)))
          (broadcastInDim S100000x64 ![] bcast_S_S100000x64 (constant S_ .f32 0x00000000#32)) := by
  rw [relu_of V, pre_of V]

end Cert.Hand.ConvR4

end
-- ==== Proof.StepConv4R.lean ====
/-
  Graph-convolution layer 4, the reference's half: its chunk's result as ONE function of what the chunk finds — the
  previous layer's result, the edge rows and inverse-root degrees its prologue wrote, and its slices of the stacked
  weights and biases as launched.
-/
import proofs.«409001_j25520695673361_2_alg».proof.Proof.RefVal
import proofs.«409001_j25520695673361_2_alg».proof.Proof.ConvR4

noncomputable section

namespace Cert.Hand.StepConv4

open Idealize.ShloMosaic Idealize.ShloMosaic.ValueIdx Idealize.ShloMosaic.TcCoe Idealize.SL.Sem
open Cert.Hand.ConvTake Cert.Hand.ConvChain

section Ref

open Cert.ReferenceIdeal Cert.ReferenceIdeal.Gen Cert.ReferenceIdeal.Hand

variable (m' : (ℓ : Loc nD τ sig) → Buf (Elt Ideal) ℓ) (c : Dev nD)

/-- What the chunk finds. -/
abbrev rxin : FVec Ideal S100000x64 .f32 := RV8 m' c (Proc.devRef .tc main_v277)
abbrev rsrc : IVec S800000 32 := RV1 m' c (Proc.devRef .tc main_v1)
abbrev rdst : IVec S800000 32 := RV1 m' c (Proc.devRef .tc main_v3)
abbrev rdinv : FVec Ideal S100000 .f32 := RV1 m' c (Proc.devRef .tc main_v10)
abbrev rwmat : FVec Ideal S64x64 .f32 :=
  shapeCast S64x64
    (extractStridedSlice S1x64x64 ![4, 0, 0] (m' ((c.tc : Thread nD τ).loc main_arg7)) slices_S6x64x64_S1x64x64_4_0_0)
    shapeCasts_S1x64x64_S64x64
abbrev rbrow : FVec Ideal S1x64 .f32 :=
  extractStridedSlice S1x64 ![4, 0] (m' ((c.tc : Thread nD τ).loc main_arg8)) slices_S6x64_S1x64_4_0
/-- The transformed features, as a function of the input and the weight matrix: their product. -/
abbrev rdot (x : FVec Ideal S100000x64 .f32) (w : FVec Ideal S64x64 .f32) : FVec Ideal S100000x64 .f32 :=
  Host.dotGeneral dot_S100000x64_S64x64_S100000x64_1_0_0_1_n_n none x w

/-- THE REFERENCE'S HALF. -/
theorem ref_half :
    RV9 m' c (Proc.devRef .tc main_v320)
      = maximumf
          (addf
            (addf
              (addf
                (agg (rows (rdot (rxin m' c) (rwmat m' c)) (wrap (rsrc m' c))) (edgeNorm (rdinv m' c) (rsrc m' c) (rdst m' c)) (rdst m' c))
                (selfLoop (rdot (rxin m' c) (rwmat m' c)) (mulf (rdinv m' c) (rdinv m' c))))
              (broadcastInDim S100000x64 ![0, 1] bcast_S1x64_S100000x64_0_1
                (broadcastInDim S1x64 ![1] bcast_S64_S1x64_1 (shapeCast S64 (rbrow m' c) shapeCasts_S1x64_S64))))
            (rxin m' c))
          (broadcastInDim S100000x64 ![] bcast_S_S100000x64 (constant (F := Ideal) S_ .f32 0x00000000#32)) := by
  have h := ConvR4.out_of (RV8 m' c)
  unfold ConvR4.hw at h
  rw [RV8_v1 m' c, RV8_v3 m' c, RV8_v10 m' c, RV8_arg7 m' c, RV8_arg8 m' c] at h
  exact h

end Ref

end Cert.Hand.StepConv4

end
-- ==== Proof.StepConv4.lean ====
/-
  Graph-convolution layer 4: if the two programs agree on the layer's input, on the edge rows and on the inverse-root
  degrees, they agree on the layer's output.

  The kernel's Linear stage adds a zero bias to the reference's matrix product; its row lookup is the reference's bare
  gather because every source index is a valid row; everything else in the message passing is the same operations
  applied to equal inputs; and its residual sum adds the same four terms in another order.
-/
import proofs.«409001_j25520695673361_2_alg».proof.Proof.Agree
import proofs.«409001_j25520695673361_2_alg».proof.Proof.ConvAlg
import proofs.«409001_j25520695673361_2_alg».proof.Proof.StepConv4K
import proofs.«409001_j25520695673361_2_alg».proof.Proof.StepConv4R

noncomputable section

namespace Cert.Hand.StepConv4

open Idealize.ShloMosaic Idealize.ShloMosaic.ValueIdx Idealize.ShloMosaic.TcCoe Idealize.SL.Sem
open Cert.Hand.ConvTake Cert.Hand.ConvChain

/-- The layer step. -/
theorem step
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hagree : Cert.Hand.Agree m m')
    (hin : (Cert.KernelIdeal.Gen.W42 m ρ c (Proc.devRef .tc Cert.KernelIdeal.main_v198) : Spec.SN.Idx → EReal)
      = Cert.ReferenceIdeal.Hand.RV8 m' c (Proc.devRef .tc Cert.ReferenceIdeal.main_v277))
    (hsrc : (Cert.KernelIdeal.Gen.W1 m ρ c (Proc.devRef .tc Cert.KernelIdeal.main_v1) : IVec Cert.KernelIdeal.S800000 32)
      = Cert.ReferenceIdeal.Hand.RV1 m' c (Proc.devRef .tc Cert.ReferenceIdeal.main_v1))
    (hdst : (Cert.KernelIdeal.Gen.W1 m ρ c (Proc.devRef .tc Cert.KernelIdeal.main_v3) : IVec Cert.KernelIdeal.S800000 32)
      = Cert.ReferenceIdeal.Hand.RV1 m' c (Proc.devRef .tc Cert.ReferenceIdeal.main_v3))
    (hdinv : (Cert.KernelIdeal.Gen.W1 m ρ c (Proc.devRef .tc Cert.KernelIdeal.main_v10) : FVec Ideal Cert.KernelIdeal.S100000 .f32)
      = Cert.ReferenceIdeal.Hand.RV1 m' c (Proc.devRef .tc Cert.ReferenceIdeal.main_v10))
    (hdinv2 : Cert.KernelIdeal.Gen.W1 m ρ c (Proc.devRef .tc Cert.KernelIdeal.main_v11)
      = mulf (F := Ideal) (s := Cert.KernelIdeal.S100000) (φ := .f32) (Cert.KernelIdeal.Gen.W1 m ρ c (Proc.devRef .tc Cert.KernelIdeal.main_v10))
          (Cert.KernelIdeal.Gen.W1 m ρ c (Proc.devRef .tc Cert.KernelIdeal.main_v10)))
    (hrange : ∀ e, 0 ≤ ((Cert.KernelIdeal.Gen.W1 m ρ c (Proc.devRef .tc Cert.KernelIdeal.main_v1)) e).toInt
      ∧ ((Cert.KernelIdeal.Gen.W1 m ρ c (Proc.devRef .tc Cert.KernelIdeal.main_v1)) e).toInt < 100000)
    (hzero : Cert.KernelIdeal.Gen.W19 m ρ c (Proc.devRef .tc Cert.KernelIdeal.main_v66)
      = broadcastInDim Cert.KernelIdeal.S64 ![] Cert.KernelIdeal.Gen.bcast_S_S64
          (constant (F := Ideal) Cert.KernelIdeal.S_ .f32 0x00000000#32)) :
    (Cert.KernelIdeal.Gen.W48 m ρ c (Proc.devRef .tc Cert.KernelIdeal.main_v231) : Spec.SN.Idx → EReal)
      = Cert.ReferenceIdeal.Hand.RV9 m' c (Proc.devRef .tc Cert.ReferenceIdeal.main_v320) := by
  -- the two launch memories hold the same stacked weights and biases
  obtain ⟨-, -, -, -, -, -, -, h7, h8, -⟩ := hagree c
  -- the reference's inputs are the kernel's
  have ex : rxin m' c = xin m ρ c := hin.symm
  have es : rsrc m' c = src m ρ c := hsrc.symm
  have ed : rdst m' c = dst m ρ c := hdst.symm
  have ei : rdinv m' c = dinv m ρ c := hdinv.symm
  have ew : rwmat m' c = wmat m c := by
    unfold rwmat wmat
    rw [h7]
  have eb : rbrow m' c = brow m c := by
    unfold rbrow brow
    rw [h8]
  have e2 : dinv2 m ρ c = mulf (dinv m ρ c) (dinv m ρ c) := hdinv2
  refine (kernel_half m ρ c hzero hrange).trans (Eq.trans ?_ (ref_half m' c).symm)
  rw [ex, es, ed, ei, ew, eb, e2]
  exact ConvAlg.conv_relu (xin m ρ c) (wmat m c) zrow (brow m c)
    (ConvAlg.zero_row Cert.KernelIdeal.Gen.bcast_S_S64 Cert.KernelIdeal.Gen.shapeCasts_S64_S1x64)
    (src m ρ c) (dst m ρ c) (dinv m ρ c)
    Cert.ReferenceIdeal.Gen.shapeCasts_S1x64_S64 Cert.ReferenceIdeal.Gen.bcast_S64_S1x64_1
    Cert.ReferenceIdeal.Gen.bcast_S1x64_S100000x64_0_1 Cert.ReferenceIdeal.Gen.bcast_S_S100000x64

end Cert.Hand.StepConv4

end
-- ==== Proof.RegLinear16.lean ====
/-
  Region 16 of the network: a Linear layer on all 100000 nodes, run as ten row blocks of 10000 × 64.
  Each grid point reads its row block of x, the whole 64 × 64 weight matrix and the whole 1 × 64 bias row, and leaves
  (x_block · w) + b in its row block of the result.  Read on the extended reals, where the narrowing of both
  factors to bf16 is the identity, the ten blocks together are `Spec.linear x w b`:
    row i, column j  ↦  (Σ_k x[i,k] · w[k,j]) + b[0,j].
  The steps: the block product at an index as a sum over the contraction coordinate (`pay_apply`); each window's
  block as rows of its array (`xblk_apply`, `wblk_eq`, `bblk_eq`); what point t writes back is block t of
  `Spec.linear x w b` (`flushed_eq`); the ten blocks cover the result, row r lying in block r / 10000 (`cover`);
  so the result array is `Spec.linear x w b` (`value`).
-/
import proofs.«409001_j25520695673361_2_alg».proof.Proof.Gen.KernelIdeal.Frame
import proofs.«409001_j25520695673361_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.Hand.RegLinear16

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an index -/

/-- Axis 0 of the left factor's index is the output's row. -/
theorem lhs_0 (j : S10000x64.Idx) (k : dot_S10000x64_S64x64_S10000x64_1_0_0_1_n_n.contr.Idx) :
    (dot_S10000x64_S64x64_S10000x64_1_0_0_1_n_n.lhsIdx j k 0).val = (j 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- Axis 1 of the left factor's index is the contraction coordinate. -/
theorem lhs_1 (j : S10000x64.Idx) (k : dot_S10000x64_S64x64_S10000x64_1_0_0_1_n_n.contr.Idx) :
    (dot_S10000x64_S64x64_S10000x64_1_0_0_1_n_n.lhsIdx j k 1).val = (k ⟨0, by decide⟩).val :=
  dot_S10000x64_S64x64_S10000x64_1_0_0_1_n_n.lhsIdx_val_of_single rfl j k

/-- Axis 0 of the right factor's index is the contraction coordinate. -/
theorem rhs_0 (j : S10000x64.Idx) (k : dot_S10000x64_S64x64_S10000x64_1_0_0_1_n_n.contr.Idx) :
    (dot_S10000x64_S64x64_S10000x64_1_0_0_1_n_n.rhsIdx j k 0).val = (k ⟨0, by decide⟩).val :=
  dot_S10000x64_S64x64_S10000x64_1_0_0_1_n_n.rhsIdx_val_of_single rfl j k

/-- Axis 1 of the right factor's index is the output's column. -/
theorem rhs_1 (j : S10000x64.Idx) (k : dot_S10000x64_S64x64_S10000x64_1_0_0_1_n_n.contr.Idx) :
    (dot_S10000x64_S64x64_S10000x64_1_0_0_1_n_n.rhsIdx j k 1).val = (j 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- What the body stores, at row p and column q of the block: the row of the first block times the column of the
    second, summed over the 64 contraction coordinates, plus the bias row's entry in that column. On the extended reals
    the two narrowings to bf16 change nothing and the accumulator's zero splat adds nothing. -/
theorem pay_apply (x0 : Vec Ideal S10000x64 .f32) (x1 : Vec Ideal S64x64 .f32) (x2 : Vec Ideal S1x64 .f32)
    (p : Fin 10000) (q : Fin 64) :
    k16_pay1 (F := Ideal) x0 x1 x2 (ix2 p q) = (∑ k : Fin 64, x0 (ix2 p k) * x1 (ix2 k q)) + x2 (ix2 (0 : Fin 1) q) := by
  unfold k16_pay1
  simp only [shapeCast_self]
  refine congrArg₂ (· + ·) ?_ (broadcastTo_1b_ab_apply x2 broadcasts_S1x64_S10000x64 p q)
  refine (Ideal.matmul_constant_zero_apply dot_S10000x64_S64x64_S10000x64_1_0_0_1_n_n none _ _ (ix2 p q)).trans ?_
  rw [← Equiv.sum_comp (contrEquiv1 dot_S10000x64_S64x64_S10000x64_1_0_0_1_n_n 64 rfl rfl).symm]
  refine Finset.sum_congr rfl fun k _ => ?_
  have hl : dot_S10000x64_S64x64_S10000x64_1_0_0_1_n_n.lhsIdx (ix2 p q)
      ((contrEquiv1 dot_S10000x64_S64x64_S10000x64_1_0_0_1_n_n 64 rfl rfl).symm k) = ix2 p k := by
    funext a; apply Fin.ext
    match a with
    | ⟨0, _⟩ => exact lhs_0 _ _
    | ⟨1, _⟩ => exact (lhs_1 _ _).trans (contrEquiv1_symm_val dot_S10000x64_S64x64_S10000x64_1_0_0_1_n_n 64 rfl rfl k)
  have hr : dot_S10000x64_S64x64_S10000x64_1_0_0_1_n_n.rhsIdx (ix2 p q)
      ((contrEquiv1 dot_S10000x64_S64x64_S10000x64_1_0_0_1_n_n 64 rfl rfl).symm k) = ix2 k q := by
    funext a; apply Fin.ext
    match a with
    | ⟨0, _⟩ => exact (rhs_0 _ _).trans (contrEquiv1_symm_val dot_S10000x64_S64x64_S10000x64_1_0_0_1_n_n 64 rfl rfl k)
    | ⟨1, _⟩ => exact rhs_1 _ _
  show x0 _ * x1 _ = _
  rw [hl, hr]

/-- One row block of the layer. If the first block is rows `10000 r …` of an array X, the second is W and the third is B,
    then at local index y, which is index i of the whole array, the body's value is `Spec.linear X W B` at i. -/
theorem pay_linear (x0 : Vec Ideal S10000x64 .f32) (x1 : Vec Ideal S64x64 .f32) (x2 : Vec Ideal S1x64 .f32)
    (X : Spec.SN.Idx → EReal) (W : Spec.SW.Idx → EReal) (B : Spec.SR.Idx → EReal) (r : ℕ)
    (hX : ∀ (y : S10000x64.Idx) (i : Spec.SN.Idx), (i 0).val = r * 10000 + (y 0).val → (i 1).val = (y 1).val → x0 y = X i)
    (hW : x1 = W) (hB : x2 = B)
    (y : S10000x64.Idx) (i : Spec.SN.Idx) (h0 : (i 0).val = r * 10000 + (y 0).val) (h1 : (i 1).val = (y 1).val) :
    k16_pay1 (F := Ideal) x0 x1 x2 y = Spec.linear X W B i := by
  obtain ⟨p, q, rfl⟩ : ∃ (p : Fin 10000) (q : Fin 64), y = ix2 p q := ⟨y 0, y 1, eq_ix2 y⟩
  have hq : (i 1 : Fin 64) = q := Fin.ext h1
  subst hW hB
  refine (pay_apply x0 x1 x2 p q).trans ?_
  show _ = (∑ k : Fin 64, X (ix2 (i 0) k) * x1 (ix2 k (i 1))) + x2 (ix2 0 (i 1))
  refine congrArg₂ (· + ·) (Finset.sum_congr rfl fun k _ => congrArg₂ (· * ·) ?_ ?_) ?_
  · exact hX (ix2 p k) (ix2 (i 0) k) h0 rfl
  · exact (congrArg (fun z : Fin 64 => x1 (ix2 k z)) hq).symm
  · exact (congrArg (fun z : Fin 64 => x2 (ix2 (0 : Fin 1) z)) hq).symm

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the ten row blocks: x and the result move down with the point, w and b stay. -/
theorem idx_facts : ∀ t : Fin cfg16.N,
    win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = t.val ∧ win16_3.index t (1 : Fin 2) = 0 :=
  (by decide +kernel : ∀ t : Fin grid16.N, _)

/-- Row block t of x: rows `10000 t … 10000 t + 9999` of the array. -/
theorem xblk_apply (c : Dev nD) (t : Fin cfg16.N) (y : S10000x64.Idx) (i : Spec.SN.Idx)
    (h0 : (i 0).val = t.val * 10000 + (y 0).val) (h1 : (i 1).val = (y 1).val) :
    (iblk16 V c 0 t : Vec Ideal S10000x64 .f32) y = (V c (Pipeline.arrRef spec16 0) : Spec.SN.Idx → EReal) i := by
  obtain ⟨e0, e1, -⟩ := idx_facts t
  unfold iblk16
  rw [View.read_apply]
  show V c (Pipeline.arrRef spec16 0) _ = V c (Pipeline.arrRef spec16 0) _
  refine congrArg _ (funext fun a => Fin.ext ?_)
  match a with
  | ⟨0, _⟩ => show win16_0.index t (0 : Fin 2) * 10000 + 1 * (y 0).val = (i 0).val; omega
  | ⟨1, _⟩ => show win16_0.index t (1 : Fin 2) * 64 + 1 * (y 1).val = (i 1).val; omega

/-- The weights' one block is the whole matrix. -/
theorem wblk_eq (c : Dev nD) (t : Fin cfg16.N) :
    (iblk16 V c 1 t : Vec Ideal S64x64 .f32) = (V c (Pipeline.arrRef spec16 1) : Spec.SW.Idx → EReal) := by
  obtain ⟨-, -, e0, e1, -⟩ := idx_facts t
  funext y
  unfold iblk16
  rw [View.read_apply]
  show V c (Pipeline.arrRef spec16 1) _ = V c (Pipeline.arrRef spec16 1) _
  refine congrArg _ (funext fun a => Fin.ext ?_)
  match a with
  | ⟨0, _⟩ => show win16_1.index t (0 : Fin 2) * 64 + 1 * (y 0).val = (y 0).val; omega
  | ⟨1, _⟩ => show win16_1.index t (1 : Fin 2) * 64 + 1 * (y 1).val = (y 1).val; omega

/-- The bias row's one block is the whole row. -/
theorem bblk_eq (c : Dev nD) (t : Fin cfg16.N) :
    (iblk16 V c 2 t : Vec Ideal S1x64 .f32) = (V c (Pipeline.arrRef spec16 2) : Spec.SR.Idx → EReal) := by
  obtain ⟨-, -, -, -, e0, e1, -⟩ := idx_facts t
  funext y
  unfold iblk16
  rw [View.read_apply]
  show V c (Pipeline.arrRef spec16 2) _ = V c (Pipeline.arrRef spec16 2) _
  refine congrArg _ (funext fun a => Fin.ext ?_)
  match a with
  | ⟨0, _⟩ => show win16_2.index t (0 : Fin 2) * 1 + 1 * (y 0).val = (y 0).val; omega
  | ⟨1, _⟩ => show win16_2.index t (1 : Fin 2) * 64 + 1 * (y 1).val = (y 1).val; omega

/-- What the result array ends holding: the Linear layer of the three arrays as the region finds them. -/
abbrev G (c : Dev nD) : Spec.SN.Idx → EReal :=
  Spec.linear (V c (Pipeline.arrRef spec16 0)) (V c (Pipeline.arrRef spec16 1)) (V c (Pipeline.arrRef spec16 2))

/-- What point t writes back is block t of `G`. -/
theorem flushed_eq (c : Dev nD) (t : Fin cfg16.N) :
    (dat16 V c).flushed 3 t = ((cfg16.win 3).blk t).view.read (Elt Ideal) (G V c) := by
  show (cfg16.win 3).cut (grid16.coords t) ((dat16 V c).after 3 t) = _
  rw [after16_3]
  unfold out16_3
  rw [View.canon_unit_zero hz]
  simp only [View.ld_unit_zero (S := S10000x64) hz, View.ld_unit_zero (S := S64x64) hz, View.ld_unit_zero (S := S1x64) hz]
  obtain ⟨-, -, -, -, -, -, e0, e1⟩ := idx_facts t
  funext y
  rw [View.read_apply]
  show k16_pay1 (F := Ideal) (iblk16 V c 0 t) (iblk16 V c 1 t) (iblk16 V c 2 t) ((cfg16.win 3).xinj (grid16.coords t) y)
    = G V c (((cfg16.win 3).blk t).view.emb y)
  exact pay_linear (iblk16 V c 0 t) (iblk16 V c 1 t) (iblk16 V c 2 t)
    (V c (Pipeline.arrRef spec16 0)) (V c (Pipeline.arrRef spec16 1)) (V c (Pipeline.arrRef spec16 2)) t.val
    (xblk_apply V c t) (wblk_eq V c t) (bblk_eq V c t)
    ((cfg16.win 3).xinj (grid16.coords t) y) (((cfg16.win 3).blk t).view.emb y)
    (by show win16_3.index t (0 : Fin 2) * 10000 + 1 * (y 0).val = t.val * 10000 + (y 0).val; omega)
    (by show win16_3.index t (1 : Fin 2) * 64 + 1 * (y 1).val = (y 1).val; omega)

/-- An index of the result is in point t's block iff each coordinate is in the block's range on its axis. -/
theorem mem_blk (t : Fin cfg16.N) (i : S100000x64.Idx) :
    i ∈ ((cfg16.win 3).blk t).view.set ↔ ∀ a : Fin 2, win16_3.index t a * S10000x64.size a ≤ (i a).val ∧ (i a).val < win16_3.index t a * S10000x64.size a + S10000x64.size a := by
  show i ∈ ((View.whole main_v235).slice (win16_3.rect t)).set ↔ _
  rw [View.set_slice_whole, Rect.mem_set_unit]
  exact Iff.rfl

/-- The ten row blocks cover the result: row r is in block r / 10000. -/
theorem cover (i : S100000x64.Idx) : ∃ t : Fin cfg16.N, (cfg16.win 3).flush t = true ∧ i ∈ ((cfg16.win 3).blk t).view.set := by
  have hi0 : (i 0).val < 100000 := (i 0).isLt
  have hi1 : (i 1).val < 64 := (i 1).isLt
  have hN : grid16.N = 10 := N_16
  let t : Fin cfg16.N := ⟨(i 0).val / 10000, by show _ < grid16.N; omega⟩
  obtain ⟨-, -, -, -, -, -, e0, e1⟩ := idx_facts t
  refine ⟨t, flush16_3 t, ?_⟩
  rw [mem_blk]
  intro a
  match a with
  | ⟨0, _⟩ => show win16_3.index t (0 : Fin 2) * 10000 ≤ (i 0).val ∧ (i 0).val < win16_3.index t (0 : Fin 2) * 10000 + 10000
              have : t.val = (i 0).val / 10000 := rfl
              omega
  | ⟨1, _⟩ => show win16_3.index t (1 : Fin 2) * 64 ≤ (i 1).val ∧ (i 1).val < win16_3.index t (1 : Fin 2) * 64 + 64; omega

/-- The region's result: after its ten write-backs the output array is the Linear layer of the three input arrays as
    the region finds them. -/
theorem value (c : Dev nD) :
    (dat16 (F := Ideal) V c).arrAt 3 cfg16.N
      = Spec.linear (V c (Pipeline.arrRef spec16 0)) (V c (Pipeline.arrRef spec16 1)) (V c (Pipeline.arrRef spec16 2)) :=
  (dat16 V c).arrAt_eq_of_cover 3 (G V c) (fun t _ => flushed_eq V c t) cover

end Cert.Hand.RegLinear16

end
-- ==== Proof.RegCombine17.lean ====
/-
  Region 17: the graph convolution's residual sum, without a rectifier.  Ten grid points; point t takes rows
  10000·t … 10000·t + 9999 of the aggregated neighbours, of the self loop and of the residual input, and the whole
  1×64 bias row, and writes back rows 10000·t … of the output: entry (r, j) is
  ((a[r,j] + s[r,j]) + h[r,j]) + b[0,j].  The ten row blocks tile the 100000 rows, so the output array ends as that
  one function of the four arrays the region finds.
-/
import proofs.«409001_j25520695673361_2_alg».proof.Proof.Gen.KernelIdeal.Frame
import proofs.«409001_j25520695673361_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.Hand.RegCombine17

open Cert.KernelIdeal Cert.KernelIdeal.Gen

/-- The store's and the loads' offsets are zero on both axes. -/
theorem hz : (![0, 0] : Fin 2 → Nat) = fun _ => 0 := funext fun a => by fin_cases a <;> rfl

/-- One entry of the body's result on a block: the entries of the three blocks added in order and the entry of the bias
    row in that column added; this region takes no maximum. -/
theorem pay_apply (x0 x1 x2 : Vec Ideal S10000x64 .f32) (x3 : Vec Ideal S1x64 .f32) (p : Fin 10000) (q : Fin 64) :
    k17_pay1 (F := Ideal) x0 x1 x2 x3 (ix2 p q)
      = ((x0 (ix2 p q) + x1 (ix2 p q)) + x2 (ix2 p q)) + x3 (ix2 (0 : Fin 1) q) := by
  unfold k17_pay1
  simp only [shapeCast_self]
  rw [addf_apply, addf_apply, addf_apply, broadcastTo_1b_ab_apply]

/-- The same entry against the specification: when the three blocks' entries at (p, q) are the arrays' entries at `i` and
    the bias block's entry at (0, q) is the bias array's entry in `i`'s column, the body's entry is the sum's at `i`. -/
theorem pay_spec (x0 x1 x2 : Vec Ideal S10000x64 .f32) (x3 : Vec Ideal S1x64 .f32)
    (a s h : Spec.SN.Idx → EReal) (b : Spec.SR.Idx → EReal) (p : Fin 10000) (q : Fin 64) (i : Spec.SN.Idx)
    (h0 : x0 (ix2 p q) = a i) (h1 : x1 (ix2 p q) = s i) (h2 : x2 (ix2 p q) = h i)
    (h3 : x3 (ix2 (0 : Fin 1) q) = b (ix2 0 (i 1))) :
    k17_pay1 (F := Ideal) x0 x1 x2 x3 (ix2 p q) = Spec.combine false a s h b i := by
  rw [pay_apply, h0, h1, h2, h3]
  rfl

/-- Where each window's block sits at grid point `t`: the three node arrays and the output move down one row block per
    point and stay in column block 0; the bias row's block never moves. -/
theorem idx_facts : ∀ t : Fin cfg17.N,
    win17_0.index t (0 : Fin 2) = t.val ∧ win17_0.index t (1 : Fin 2) = 0
    ∧ win17_1.index t (0 : Fin 2) = t.val ∧ win17_1.index t (1 : Fin 2) = 0
    ∧ win17_2.index t (0 : Fin 2) = t.val ∧ win17_2.index t (1 : Fin 2) = 0
    ∧ win17_3.index t (0 : Fin 2) = 0 ∧ win17_3.index t (1 : Fin 2) = 0
    ∧ win17_4.index t (0 : Fin 2) = t.val ∧ win17_4.index t (1 : Fin 2) = 0 :=
  (by decide +kernel : ∀ t : Fin grid17.N, _)

variable (V : (c : Dev nD) → (b : Ref sig .tc) → Buf (Elt Ideal) ((c : Thread nD τ).loc b))

/-- Entry (p, q) of the aggregated neighbours' block at point `t` is that array's entry at entry (p, q) of the output's block:
    both blocks are rows 10000·t … 10000·t + 9999 and all 64 columns. -/
theorem blk0_apply (c : Dev nD) (t : Fin cfg17.N) (p : Fin 10000) (q : Fin 64) :
    (iblk17 V c 0 t : Vec Ideal S10000x64 .f32) (ix2 p q)
      = V c (Pipeline.arrRef spec17 0) (((cfg17.win 4).blk t).view.emb (ix2 p q)) := by
  obtain ⟨f00, f01, f10, f11, f20, f21, f30, f31, f40, f41⟩ := idx_facts t
  have hp : p.val < 10000 := p.isLt
  have hq : q.val < 64 := q.isLt
  have e : ((cfg17.win 0).blk t).view.emb (ix2 p q) = ((cfg17.win 4).blk t).view.emb (ix2 p q) := by
    funext a; apply Fin.ext
    match a with
    | ⟨0, _⟩ => show win17_0.index t (0 : Fin 2) * 10000 + 1 * p.val = win17_4.index t (0 : Fin 2) * 10000 + 1 * p.val; omega
    | ⟨1, _⟩ => show win17_0.index t (1 : Fin 2) * 64 + 1 * q.val = win17_4.index t (1 : Fin 2) * 64 + 1 * q.val; omega
  show V c (Pipeline.arrRef spec17 0) (((cfg17.win 0).blk t).view.emb (ix2 p q)) = _
  rw [e]

/-- The same for the self loop's block. -/
theorem blk1_apply (c : Dev nD) (t : Fin cfg17.N) (p : Fin 10000) (q : Fin 64) :
    (iblk17 V c 1 t : Vec Ideal S10000x64 .f32) (ix2 p q)
      = V c (Pipeline.arrRef spec17 1) (((cfg17.win 4).blk t).view.emb (ix2 p q)) := by
  obtain ⟨f00, f01, f10, f11, f20, f21, f30, f31, f40, f41⟩ := idx_facts t
  have hp : p.val < 10000 := p.isLt
  have hq : q.val < 64 := q.isLt
  have e : ((cfg17.win 1).blk t).view.emb (ix2 p q) = ((cfg17.win 4).blk t).view.emb (ix2 p q) := by
    funext a; apply Fin.ext
    match a with
    | ⟨0, _⟩ => show win17_1.index t (0 : Fin 2) * 10000 + 1 * p.val = win17_4.index t (0 : Fin 2) * 10000 + 1 * p.val; omega
    | ⟨1, _⟩ => show win17_1.index t (1 : Fin 2) * 64 + 1 * q.val = win17_4.index t (1 : Fin 2) * 64 + 1 * q.val; omega
  show V c (Pipeline.arrRef spec17 1) (((cfg17.win 1).blk t).view.emb (ix2 p q)) = _
  rw [e]

/-- The same for the residual input's block. -/
theorem blk2_apply (c : Dev nD) (t : Fin cfg17.N) (p : Fin 10000) (q : Fin 64) :
    (iblk17 V c 2 t : Vec Ideal S10000x64 .f32) (ix2 p q)
      = V c (Pipeline.arrRef spec17 2) (((cfg17.win 4).blk t).view.emb (ix2 p q)) := by
  obtain ⟨f00, f01, f10, f11, f20, f21, f30, f31, f40, f41⟩ := idx_facts t
  have hp : p.val < 10000 := p.isLt
  have hq : q.val < 64 := q.isLt
  have e : ((cfg17.win 2).blk t).view.emb (ix2 p q) = ((cfg17.win 4).blk t).view.emb (ix2 p q) := by
    funext a; apply Fin.ext
    match a with
    | ⟨0, _⟩ => show win17_2.index t (0 : Fin 2) * 10000 + 1 * p.val = win17_4.index t (0 : Fin 2) * 10000 + 1 * p.val; omega
    | ⟨1, _⟩ => show win17_2.index t (1 : Fin 2) * 64 + 1 * q.val = win17_4.index t (1 : Fin 2) * 64 + 1 * q.val; omega
  show V c (Pipeline.arrRef spec17 2) (((cfg17.win 2).blk t).view.emb (ix2 p q)) = _
  rw [e]

/-- The bias row's block is the whole row at every point: its entry (0, q) is the bias array's entry (0, column of the
    output's entry). -/
theorem blk3_apply (c : Dev nD) (t : Fin cfg17.N) (p : Fin 10000) (q : Fin 64) :
    (iblk17 V c 3 t : Vec Ideal S1x64 .f32) (ix2 (0 : Fin 1) q)
      = V c (Pipeline.arrRef spec17 3) (ix2 (0 : Fin 1) ((((cfg17.win 4).blk t).view.emb (ix2 p q) : Spec.SN.Idx) 1)) := by
  obtain ⟨f00, f01, f10, f11, f20, f21, f30, f31, f40, f41⟩ := idx_facts t
  have hp : p.val < 10000 := p.isLt
  have hq : q.val < 64 := q.isLt
  have e : ((cfg17.win 3).blk t).view.emb (ix2 (0 : Fin 1) q)
      = ix2 (0 : Fin 1) ((((cfg17.win 4).blk t).view.emb (ix2 p q) : Spec.SN.Idx) 1) := by
    funext a; apply Fin.ext
    match a with
    | ⟨0, _⟩ => show win17_3.index t (0 : Fin 2) * 1 + 1 * 0 = 0; omega
    | ⟨1, _⟩ => show win17_3.index t (1 : Fin 2) * 64 + 1 * q.val = win17_4.index t (1 : Fin 2) * 64 + 1 * q.val; omega
  show V c (Pipeline.arrRef spec17 3) (((cfg17.win 3).blk t).view.emb (ix2 (0 : Fin 1) q)) = _
  exact congrArg (V c (Pipeline.arrRef spec17 3)) e

/-- Entry (p, q) of what the body leaves at point `t` is the sum of the four arrays at entry (p, q) of the output's block. -/
theorem point_eq (c : Dev nD) (t : Fin cfg17.N) (p : Fin 10000) (q : Fin 64) :
    k17_pay1 (F := Ideal) (iblk17 V c 0 t) (iblk17 V c 1 t) (iblk17 V c 2 t) (iblk17 V c 3 t) (ix2 p q)
      = Spec.combine false (V c (Pipeline.arrRef spec17 0)) (V c (Pipeline.arrRef spec17 1))
          (V c (Pipeline.arrRef spec17 2)) (V c (Pipeline.arrRef spec17 3)) (((cfg17.win 4).blk t).view.emb (ix2 p q)) :=
  pay_spec (iblk17 V c 0 t) (iblk17 V c 1 t) (iblk17 V c 2 t) (iblk17 V c 3 t)
    (V c (Pipeline.arrRef spec17 0)) (V c (Pipeline.arrRef spec17 1)) (V c (Pipeline.arrRef spec17 2))
    (V c (Pipeline.arrRef spec17 3)) p q (((cfg17.win 4).blk t).view.emb (ix2 p q))
    (blk0_apply V c t p q) (blk1_apply V c t p q) (blk2_apply V c t p q) (blk3_apply V c t p q)

/-- What point `t` writes back is block `t` of the sum of the four arrays as the region finds them. -/
theorem flushed_eq (c : Dev nD) (t : Fin cfg17.N) :
    (dat17 (F := Ideal) V c).flushed 4 t
      = ((cfg17.win 4).blk t).view.read (Elt Ideal)
          (Spec.combine false (V c (Pipeline.arrRef spec17 0)) (V c (Pipeline.arrRef spec17 1))
            (V c (Pipeline.arrRef spec17 2)) (V c (Pipeline.arrRef spec17 3))) := by
  show (cfg17.win 4).cut (grid17.coords t) ((dat17 (F := Ideal) V c).after 4 t) = _
  rw [after17_4]
  unfold out17_4
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  exact point_eq V c t p q

/-- An entry of the output array lies in point `t`'s block when each coordinate lies in the block's range on its axis. -/
theorem mem_blk (t : Fin cfg17.N) (i : S100000x64.Idx) :
    i ∈ ((cfg17.win 4).blk t).view.set
      ↔ ∀ a : Fin 2, win17_4.index t a * S10000x64.size a ≤ (i a).val
          ∧ (i a).val < win17_4.index t a * S10000x64.size a + S10000x64.size a := by
  show i ∈ ((View.whole (Pipeline.arrRef spec17 4)).slice (win17_4.rect t)).set ↔ _
  rw [View.set_slice_whole, Rect.mem_set_unit]
  exact Iff.rfl

/-- Row `r` of the output lies in the block of point `r / 10000`: the ten blocks tile the array. -/
theorem cover (i : S100000x64.Idx) :
    ∃ t : Fin cfg17.N, (cfg17.win 4).flush t = true ∧ i ∈ ((cfg17.win 4).blk t).view.set := by
  have hi0 : (i 0).val < 100000 := (i 0).isLt
  have hi1 : (i 1).val < 64 := (i 1).isLt
  have hN : grid17.N = 10 := N_17
  let t : Fin cfg17.N := ⟨(i 0).val / 10000, by show (i 0).val / 10000 < grid17.N; omega⟩
  have ht : t.val = (i 0).val / 10000 := rfl
  obtain ⟨f00, f01, f10, f11, f20, f21, f30, f31, f40, f41⟩ := idx_facts t
  refine ⟨t, flush17_4 t, ?_⟩
  rw [mem_blk]
  intro a
  match a with
  | ⟨0, _⟩ =>
    show win17_4.index t (0 : Fin 2) * 10000 ≤ (i 0).val ∧ (i 0).val < win17_4.index t (0 : Fin 2) * 10000 + 10000
    omega
  | ⟨1, _⟩ =>
    show win17_4.index t (1 : Fin 2) * 64 ≤ (i 1).val ∧ (i 1).val < win17_4.index t (1 : Fin 2) * 64 + 64
    omega

/-- The output array after the region's ten write-backs is the sum of the four arrays the region finds, entry by entry. -/
theorem value (c : Dev nD) :
    (Gen.dat17 (F := Ideal) V c).arrAt 4 cfg17.N
      = Spec.combine false (V c (Pipeline.arrRef spec17 0)) (V c (Pipeline.arrRef spec17 1))
          (V c (Pipeline.arrRef spec17 2)) (V c (Pipeline.arrRef spec17 3)) :=
  (dat17 (F := Ideal) V c).arrAt_eq_of_cover 4 _ (fun t _ => flushed_eq V c t) cover

end Cert.Hand.RegCombine17

end
-- ==== Proof.ConvK5.lean ====
/-
  Graph-convolution layer 5 on the kernel's side: what each of its four host stretches leaves in the buffers the
  layer goes on to read, from any contents `V` at the stretch's entry.  Each is the printed operations of that stretch
  read off in order; the message-passing chain is left as the named functions of its inputs.
-/
import proofs.«409001_j25520695673361_2_alg».proof.Proof.Gen.KernelIdeal.Launch
import proofs.«409001_j25520695673361_2_alg».proof.Proof.ConvChain
import Idealize.ShloMosaic.Lib.StableHlo.Run

set_option maxRecDepth 16384

noncomputable section

namespace Cert.Hand.ConvK5

open Idealize.ShloMosaic Idealize.ShloMosaic.ValueIdx Idealize.ShloMosaic.TcCoe
open Cert.KernelIdeal Cert.KernelIdeal.Gen
open Cert.Hand.ConvTake Cert.Hand.ConvChain

/-- A value moved to a typed reference's buffer type and back is the value (both moves are along the same equation of types). -/
theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

variable (V : Valuation τ sig (Elt Ideal))

/-! ## Before the Linear region: the weight matrix, the zero bias as a row -/

/-- The layer's weight matrix: its slice of the stacked weights, as a 64×64 matrix. -/
theorem w_of :
    StableHlo.after (hostOps16 (F := Ideal)) V (Proc.devRef .tc main_v233)
      = shapeCast S64x64
          (extractStridedSlice S1x64x64 ![5, 0, 0] (V (Proc.devRef .tc main_arg7)) slices_S6x64x64_S1x64x64_5_0_0)
          shapeCasts_S1x64x64_S64x64 := by
  after_results
  try rfl

/-- The bias handed to the Linear region: the zero bias as a 1×64 row. -/
theorem b_of :
    StableHlo.after (hostOps16 (F := Ideal)) V (Proc.devRef .tc main_v234)
      = shapeCast S1x64 (StableHlo.after (hostOps16 (F := Ideal)) V (Proc.devRef .tc main_v66)) shapeCasts_S64_S1x64 := by
  after_results
  try rfl

/-! ## After it: the edge weights, the looked-up rows, the aggregation, the self loop, the bias row -/

/-- The edge weights `dinv[src] · dinv[dst]`. -/
theorem norm_of :
    StableHlo.after (hostOps17 (F := Ideal)) V (Proc.devRef .tc main_v250)
      = edgeNorm (V (Proc.devRef .tc main_v10)) (V (Proc.devRef .tc main_v1)) (V (Proc.devRef .tc main_v3)) := by
  after_results_simp
  try rfl

/-- The two buffers the lookup reads, seen at their tensor types: the same contents. -/
theorem src_typed :
    ((.of main_v1 : StableHlo.TRef sig ⟨S800000, .i32⟩)).ofBuf (V (Proc.devRef .tc main_v1))
      = V (Proc.devRef .tc main_v1) := rfl
theorem hw_typed :
    ((.of main_v235 : StableHlo.TRef sig ⟨S100000x64, .f32⟩)).ofBuf (V (Proc.devRef .tc main_v235))
      = V (Proc.devRef .tc main_v235) := rfl

/-- The guarded lookup, with its two inputs and its result seen at their tensor types: the intermediate values'
    moves to their buffers' types and back cancel, and what is left is the named lookup of the two inputs. -/
theorem take_of_typed :
    ((.of main_v251 : StableHlo.TRef sig ⟨S800000x64, .f32⟩)).ofBuf
        (StableHlo.after (hostOps17_1 (F := Ideal)) V (Proc.devRef .tc main_v251))
      = takeRows (((.of main_v235 : StableHlo.TRef sig ⟨S100000x64, .f32⟩)).ofBuf (V (Proc.devRef .tc main_v235)))
          (((.of main_v1 : StableHlo.TRef sig ⟨S800000, .i32⟩)).ofBuf (V (Proc.devRef .tc main_v1))) := by
  after_results_simp
  simp only [ofBuf_toBuf]
  generalize ((.of main_v235 : StableHlo.TRef sig ⟨S100000x64, .f32⟩)).ofBuf (V (Proc.devRef .tc main_v235)) = hw
  generalize ((.of main_v1 : StableHlo.TRef sig ⟨S800000, .i32⟩)).ofBuf (V (Proc.devRef .tc main_v1)) = s
  rfl

/-- The guarded lookup of the transformed features' rows at the source indices. -/
theorem take_of :
    StableHlo.after (hostOps17_1 (F := Ideal)) V (Proc.devRef .tc main_v251)
      = takeRows (V (Proc.devRef .tc main_v235)) (V (Proc.devRef .tc main_v1)) := by
  have h := take_of_typed V
  rw [src_typed V, hw_typed V] at h
  exact h

/-- The weighted rows summed by destination. -/
theorem agg_of :
    StableHlo.after (hostOps17_2 (F := Ideal)) V (Proc.devRef .tc main_v257)
      = agg (V (Proc.devRef .tc main_v251)) (V (Proc.devRef .tc main_v250)) (V (Proc.devRef .tc main_v3)) := by
  after_results
  try rfl

/-- The self loop. -/
theorem self_of :
    StableHlo.after (hostOps17_2 (F := Ideal)) V (Proc.devRef .tc main_v260)
      = selfLoop (V (Proc.devRef .tc main_v235)) (V (Proc.devRef .tc main_v11)) := by
  after_results
  try rfl

/-- The layer's bias: its slice of the stacked biases, flattened and laid out as a row again. -/
theorem bias_of :
    StableHlo.after (hostOps17_2 (F := Ideal)) V (Proc.devRef .tc main_v263)
      = shapeCast S1x64
          (shapeCast S64 (extractStridedSlice S1x64 ![5, 0] (V (Proc.devRef .tc main_arg8)) slices_S6x64_S1x64_5_0)
            shapeCasts_S1x64_S64)
          shapeCasts_S64_S1x64 := by
  after_results
  try rfl

end Cert.Hand.ConvK5

end
-- ==== Proof.StepConv5K.lean ====
/-
  Graph-convolution layer 5, the kernel's half: the layer's output array as ONE function of what the layer finds —
  its input array, the edge rows and inverse-root degrees the prologue wrote, and its slices of the stacked weights
  and biases as launched.

  Linear region: the input times the weight matrix plus a zero bias.  Host stretches: the edge weights, the guarded
  lookup of the transformed rows (the plain gather, every source index being a valid row), the aggregation by
  destination, the self loop.  Combine region: the residual sum (no rectifier in this layer).
-/
import proofs.«409001_j25520695673361_2_alg».proof.Proof.KKeep
import proofs.«409001_j25520695673361_2_alg».proof.Proof.Spec
import proofs.«409001_j25520695673361_2_alg».proof.Proof.RegLinear16
import proofs.«409001_j25520695673361_2_alg».proof.Proof.RegCombine17
import proofs.«409001_j25520695673361_2_alg».proof.Proof.ConvK5
import Idealize.ShloMosaic.Lib.Pipeline.Value

noncomputable section

namespace Cert.Hand.StepConv5

open Idealize.ShloMosaic Idealize.ShloMosaic.ValueIdx Idealize.ShloMosaic.TcCoe Idealize.SL.Sem
open Cert.KernelIdeal Cert.KernelIdeal.Gen Cert.KernelIdeal.Hand
open Cert.Hand.ConvTake Cert.Hand.ConvChain

variable (m : (ℓ : Loc nD τ sig) → Buf (Elt Ideal) ℓ) (ρ : Dev nD → PrngReg) (c : Dev nD)

/-! ## What the layer finds -/

/-- The layer's input array. -/
abbrev xin : FVec Ideal S100000x64 .f32 := W48 m ρ c (Proc.devRef .tc main_v231)
/-- The edges' source and destination rows, the inverse-root degrees and their squares, as the prologue left them. -/
abbrev src : IVec S800000 32 := W1 m ρ c (Proc.devRef .tc main_v1)
abbrev dst : IVec S800000 32 := W1 m ρ c (Proc.devRef .tc main_v3)
abbrev dinv : FVec Ideal S100000 .f32 := W1 m ρ c (Proc.devRef .tc main_v10)
abbrev dinv2 : FVec Ideal S100000 .f32 := W1 m ρ c (Proc.devRef .tc main_v11)
/-- The layer's weight matrix and bias row: its slices of the launched arguments. -/
abbrev wmat : FVec Ideal S64x64 .f32 :=
  shapeCast S64x64
    (extractStridedSlice S1x64x64 ![5, 0, 0] (m ((c : Thread nD τ).loc main_arg7)) slices_S6x64x64_S1x64x64_5_0_0)
    shapeCasts_S1x64x64_S64x64
abbrev brow : FVec Ideal S1x64 .f32 :=
  extractStridedSlice S1x64 ![5, 0] (m ((c : Thread nD τ).loc main_arg8)) slices_S6x64_S1x64_5_0
/-- The zero bias of the Linear stage, as a row. -/
abbrev zrow : FVec Ideal S1x64 .f32 :=
  shapeCast S1x64 (broadcastInDim S64 ![] bcast_S_S64 (constant (F := Ideal) S_ .f32 0x00000000#32)) shapeCasts_S64_S1x64

/-! ## The Linear region -/

/-- The transformed features. -/
abbrev hw : FVec Ideal S100000x64 .f32 := Spec.linear (xin m ρ c) (wmat m c) zrow

/-- Where this layer's Linear region finds the zero bias: the buffer written before the first convolution. -/
theorem z66 (hzero : W19 m ρ c (Proc.devRef .tc main_v66)
      = broadcastInDim S64 ![] bcast_S_S64 (constant (F := Ideal) S_ .f32 0x00000000#32)) :
    StableHlo.after (hostOps16 (F := Ideal)) (W48 m ρ c) (Proc.devRef .tc main_v66)
      = broadcastInDim S64 ![] bcast_S_S64 (constant (F := Ideal) S_ .f32 0x00000000#32) :=
  (W49_keep m ρ c main_v66 (by decide)).trans ((W48_v66 m ρ c).trans hzero)

theorem hw_eq (hzero : W19 m ρ c (Proc.devRef .tc main_v66)
      = broadcastInDim S64 ![] bcast_S_S64 (constant (F := Ideal) S_ .f32 0x00000000#32)) :
    W50 m ρ c (Proc.devRef .tc main_v235) = hw m ρ c := by
  have e0 : V49 m ρ c (Pipeline.arrRef spec16 0) = xin m ρ c := W49_keep m ρ c main_v231 (by decide)
  have e1 : V49 m ρ c (Pipeline.arrRef spec16 1) = wmat m c := by
    have h := ConvK5.w_of (W48 m ρ c)
    rw [W48_arg7 m ρ c] at h
    exact h
  have e2 : V49 m ρ c (Pipeline.arrRef spec16 2) = zrow := by
    have h := ConvK5.b_of (W48 m ρ c)
    rw [z66 m ρ c hzero] at h
    exact h
  refine (W50_arr m ρ c 3).trans ((Cert.Hand.RegLinear16.value (V49 m ρ) c).trans ?_)
  rw [e0, e1, e2]

/-! ## The host stretches: every buffer they read, traced back to what the layer found -/

theorem src_at : W50 m ρ c (Proc.devRef .tc main_v1) = src m ρ c :=
  (W50_keep m ρ c main_v1 (by decide)).trans ((W49_keep m ρ c main_v1 (by decide)).trans (W48_v1 m ρ c))
theorem dst_at : W50 m ρ c (Proc.devRef .tc main_v3) = dst m ρ c :=
  (W50_keep m ρ c main_v3 (by decide)).trans ((W49_keep m ρ c main_v3 (by decide)).trans (W48_v3 m ρ c))
theorem dinv_at : W50 m ρ c (Proc.devRef .tc main_v10) = dinv m ρ c :=
  (W50_keep m ρ c main_v10 (by decide)).trans ((W49_keep m ρ c main_v10 (by decide)).trans (W48_v10 m ρ c))
theorem dinv2_at : W50 m ρ c (Proc.devRef .tc main_v11) = dinv2 m ρ c :=
  (W50_keep m ρ c main_v11 (by decide)).trans ((W49_keep m ρ c main_v11 (by decide)).trans (W48_v11 m ρ c))

/-- The edge weights. -/
theorem norm_at : W51 m ρ c (Proc.devRef .tc main_v250) = edgeNorm (dinv m ρ c) (src m ρ c) (dst m ρ c) := by
  have h := ConvK5.norm_of (W50 m ρ c)
  rw [dinv_at m ρ c, src_at m ρ c, dst_at m ρ c] at h
  exact h

/-- The looked-up rows: under the index range, the plain gather at the wrapped source indices. -/
theorem rows_at (hzero : W19 m ρ c (Proc.devRef .tc main_v66)
      = broadcastInDim S64 ![] bcast_S_S64 (constant (F := Ideal) S_ .f32 0x00000000#32))
    (hrange : ∀ e, 0 ≤ ((src m ρ c) e).toInt ∧ ((src m ρ c) e).toInt < 100000) :
    W52 m ρ c (Proc.devRef .tc main_v251) = rows (hw m ρ c) (wrap (src m ρ c)) := by
  have h := ConvK5.take_of (W51 m ρ c)
  have e70 : W51 m ρ c (Proc.devRef .tc main_v235) = hw m ρ c :=
    (W51_keep m ρ c main_v235 (by decide)).trans (hw_eq m ρ c hzero)
  have e1 : W51 m ρ c (Proc.devRef .tc main_v1) = src m ρ c :=
    (W51_keep m ρ c main_v1 (by decide)).trans (src_at m ρ c)
  rw [e70, e1] at h
  exact h.trans (takeRows_eq_rows (hw m ρ c) (src m ρ c) hrange)

/-- The aggregation by destination. -/
theorem agg_at (hzero : W19 m ρ c (Proc.devRef .tc main_v66)
      = broadcastInDim S64 ![] bcast_S_S64 (constant (F := Ideal) S_ .f32 0x00000000#32))
    (hrange : ∀ e, 0 ≤ ((src m ρ c) e).toInt ∧ ((src m ρ c) e).toInt < 100000) :
    W53 m ρ c (Proc.devRef .tc main_v257)
      = agg (rows (hw m ρ c) (wrap (src m ρ c))) (edgeNorm (dinv m ρ c) (src m ρ c) (dst m ρ c)) (dst m ρ c) := by
  have h := ConvK5.agg_of (W52 m ρ c)
  have e85 : W52 m ρ c (Proc.devRef .tc main_v250) = edgeNorm (dinv m ρ c) (src m ρ c) (dst m ρ c) :=
    (W52_keep m ρ c main_v250 (by decide)).trans (norm_at m ρ c)
  have e3 : W52 m ρ c (Proc.devRef .tc main_v3) = dst m ρ c :=
    (W52_keep m ρ c main_v3 (by decide)).trans ((W51_keep m ρ c main_v3 (by decide)).trans (dst_at m ρ c))
  rw [rows_at m ρ c hzero hrange, e85, e3] at h
  exact h

/-- The self loop. -/
theorem self_at (hzero : W19 m ρ c (Proc.devRef .tc main_v66)
      = broadcastInDim S64 ![] bcast_S_S64 (constant (F := Ideal) S_ .f32 0x00000000#32)) :
    W53 m ρ c (Proc.devRef .tc main_v260) = selfLoop (hw m ρ c) (dinv2 m ρ c) := by
  have h := ConvK5.self_of (W52 m ρ c)
  have e70 : W52 m ρ c (Proc.devRef .tc main_v235) = hw m ρ c :=
    (W52_keep m ρ c main_v235 (by decide)).trans ((W51_keep m ρ c main_v235 (by decide)).trans (hw_eq m ρ c hzero))
  have e11 : W52 m ρ c (Proc.devRef .tc main_v11) = dinv2 m ρ c :=
    (W52_keep m ρ c main_v11 (by decide)).trans ((W51_keep m ρ c main_v11 (by decide)).trans (dinv2_at m ρ c))
  rw [e70, e11] at h
  exact h

/-- The residual input, untouched since the layer's entry. -/
theorem xin_at : W53 m ρ c (Proc.devRef .tc main_v231) = xin m ρ c :=
  (W53_keep m ρ c main_v231 (by decide)).trans ((W52_keep m ρ c main_v231 (by decide)).trans
    ((W51_keep m ρ c main_v231 (by decide)).trans ((W50_keep m ρ c main_v231 (by decide)).trans
      (W49_keep m ρ c main_v231 (by decide)))))

/-- The bias row: the slice of the launched biases (flattening it and laying it out as a row again changes nothing). -/
theorem brow_at : W53 m ρ c (Proc.devRef .tc main_v263) = brow m c := by
  have h := ConvK5.bias_of (W52 m ρ c)
  have e8 : W52 m ρ c (Proc.devRef .tc main_arg8) = m ((c : Thread nD τ).loc main_arg8) :=
    (W52_keep m ρ c main_arg8 (by decide)).trans ((W51_keep m ρ c main_arg8 (by decide)).trans
      ((W50_keep m ρ c main_arg8 (by decide)).trans ((W49_keep m ρ c main_arg8 (by decide)).trans (W48_arg8 m ρ c))))
  rw [e8, shapeCast_shapeCast] at h
  exact h

/-! ## The Combine region -/

/-- THE KERNEL'S HALF. -/
theorem kernel_half (hzero : W19 m ρ c (Proc.devRef .tc main_v66)
      = broadcastInDim S64 ![] bcast_S_S64 (constant (F := Ideal) S_ .f32 0x00000000#32))
    (hrange : ∀ e, 0 ≤ ((src m ρ c) e).toInt ∧ ((src m ρ c) e).toInt < 100000) :
    W54 m ρ c (Proc.devRef .tc main_v264)
      = Spec.combine false
          (agg (rows (hw m ρ c) (wrap (src m ρ c))) (edgeNorm (dinv m ρ c) (src m ρ c) (dst m ρ c)) (dst m ρ c))
          (selfLoop (hw m ρ c) (dinv2 m ρ c)) (xin m ρ c) (brow m c) := by
  have e0 : V53 m ρ c (Pipeline.arrRef spec17 0) = _ := agg_at m ρ c hzero hrange
  have e1 : V53 m ρ c (Pipeline.arrRef spec17 1) = _ := self_at m ρ c hzero
  have e2 : V53 m ρ c (Pipeline.arrRef spec17 2) = _ := xin_at m ρ c
  have e3 : V53 m ρ c (Pipeline.arrRef spec17 3) = _ := brow_at m ρ c
  refine (W54_arr m ρ c 4).trans ((Cert.Hand.RegCombine17.value (V53 m ρ) c).trans ?_)
  rw [e0, e1, e2, e3]

end Cert.Hand.StepConv5

end
-- ==== Proof.ConvR5.lean ====
/-
  Graph-convolution layer 5 on the reference's side: what its chunk of operations leaves in its result, from any
  contents `V` at the chunk's entry.  The message-passing chain is the same named functions as on the kernel's side (the
  two programs print the same operations over the same shapes); the row lookup is the bare gather at the wrapped indices.
-/
import proofs.«409001_j25520695673361_2_alg».proof.Proof.RefOps9
import proofs.«409001_j25520695673361_2_alg».proof.Proof.ConvChain
import Idealize.ShloMosaic.Lib.StableHlo.Run
import Idealize.ShloMosaic.Lib.Pipeline.Frame

set_option maxRecDepth 4096

noncomputable section

namespace Cert.Hand.ConvR5

open Idealize.ShloMosaic Idealize.ShloMosaic.ValueIdx Idealize.ShloMosaic.TcCoe
open Cert.ReferenceIdeal Cert.ReferenceIdeal.Gen Cert.ReferenceIdeal.Hand
open Cert.Hand.ConvTake Cert.Hand.ConvChain

variable (V : Valuation τ sig (Elt Ideal))

/-- The transformed features: the layer's input times its slice of the stacked weights. -/
def hw : FVec Ideal S100000x64 .f32 :=
  Host.dotGeneral (φ₁ := .f32) (φ₂ := .f32) dot_S100000x64_S64x64_S100000x64_1_0_0_1_n_n none
    (V (Proc.devRef .tc main_v320))
    (shapeCast S64x64
      (extractStridedSlice (α := Ideal .f32) S1x64x64 ![5, 0, 0] (V (Proc.devRef .tc main_arg7))
        slices_S6x64x64_S1x64x64_5_0_0)
      shapeCasts_S1x64x64_S64x64)

/-! ## The sum before the rectifier -/

/-- What the chunk leaves in the last sum's buffer: aggregation plus self loop, plus the bias row, plus the input.
    Each operation's result is its function of its operands' contents, a buffer no operation of the chunk writes is as
    the chunk found it; what is left is the right side's operations with the named functions unfolded, the two programs'
    dimension records being the same literal lists. -/
theorem pre_of :
    StableHlo.after (rops9 (F := Ideal)) V (Proc.devRef .tc main_v362) =
        (addf
          (addf
            (addf
              (agg (rows (hw V) (wrap (V (Proc.devRef .tc main_v1))))
                (edgeNorm (V (Proc.devRef .tc main_v10)) (V (Proc.devRef .tc main_v1)) (V (Proc.devRef .tc main_v3)))
                (V (Proc.devRef .tc main_v3)))
              (selfLoop (hw V) (mulf (V (Proc.devRef .tc main_v10)) (V (Proc.devRef .tc main_v10)))))
            (broadcastInDim S100000x64 ![0, 1] bcast_S1x64_S100000x64_0_1
              (broadcastInDim S1x64 ![1] bcast_S64_S1x64_1
                (shapeCast S64
                  (extractStridedSlice S1x64 ![5, 0] (V (Proc.devRef .tc main_arg8)) slices_S6x64_S1x64_5_0)
                  shapeCasts_S1x64_S64))))
          (V (Proc.devRef .tc main_v320))) := by
  after_results_simp
  rfl

/-! ## The layer -/

/-- The layer's result: aggregation plus self loop, plus the bias row, plus the input. -/
theorem out_of :
    StableHlo.after (rops9 (F := Ideal)) V (Proc.devRef .tc main_v362)
      = (addf
            (addf
              (addf
                (agg (rows (hw V) (wrap (V (Proc.devRef .tc main_v1))))
                  (edgeNorm (V (Proc.devRef .tc main_v10)) (V (Proc.devRef .tc main_v1)) (V (Proc.devRef .tc main_v3)))
                  (V (Proc.devRef .tc main_v3)))
                (selfLoop (hw V) (mulf (V (Proc.devRef .tc main_v10)) (V (Proc.devRef .tc main_v10)))))
              (broadcastInDim S100000x64 ![0, 1] bcast_S1x64_S100000x64_0_1
                (broadcastInDim S1x64 ![1] bcast_S64_S1x64_1
                  (shapeCast S64
                    (extractStridedSlice S1x64 ![5, 0] (V (Proc.devRef .tc main_arg8)) slices_S6x64_S1x64_5_0)
                    shapeCasts_S1x64_S64))))
            (V (Proc.devRef .tc main_v320))) := by
  exact pre_of V

end Cert.Hand.ConvR5

end
-- ==== Proof.StepConv5R.lean ====
/-
  Graph-convolution layer 5, the reference's half: its chunk's result as ONE function of what the chunk finds — the
  previous layer's result, the edge rows and inverse-root degrees its prologue wrote, and its slices of the stacked
  weights and biases as launched.
-/
import proofs.«409001_j25520695673361_2_alg».proof.Proof.RefVal
import proofs.«409001_j25520695673361_2_alg».proof.Proof.ConvR5

noncomputable section

namespace Cert.Hand.StepConv5

open Idealize.ShloMosaic Idealize.ShloMosaic.ValueIdx Idealize.ShloMosaic.TcCoe Idealize.SL.Sem
open Cert.Hand.ConvTake Cert.Hand.ConvChain

section Ref

open Cert.ReferenceIdeal Cert.ReferenceIdeal.Gen Cert.ReferenceIdeal.Hand

variable (m' : (ℓ : Loc nD τ sig) → Buf (Elt Ideal) ℓ) (c : Dev nD)

/-- What the chunk finds. -/
abbrev rxin : FVec Ideal S100000x64 .f32 := RV9 m' c (Proc.devRef .tc main_v320)
abbrev rsrc : IVec S800000 32 := RV1 m' c (Proc.devRef .tc main_v1)
abbrev rdst : IVec S800000 32 := RV1 m' c (Proc.devRef .tc main_v3)
abbrev rdinv : FVec Ideal S100000 .f32 := RV1 m' c (Proc.devRef .tc main_v10)
abbrev rwmat : FVec Ideal S64x64 .f32 :=
  shapeCast S64x64
    (extractStridedSlice S1x64x64 ![5, 0, 0] (m' ((c.tc : Thread nD τ).loc main_arg7)) slices_S6x64x64_S1x64x64_5_0_0)
    shapeCasts_S1x64x64_S64x64
abbrev rbrow : FVec Ideal S1x64 .f32 :=
  extractStridedSlice S1x64 ![5, 0] (m' ((c.tc : Thread nD τ).loc main_arg8)) slices_S6x64_S1x64_5_0
/-- The transformed features, as a function of the input and the weight matrix: their product. -/
abbrev rdot (x : FVec Ideal S100000x64 .f32) (w : FVec Ideal S64x64 .f32) : FVec Ideal S100000x64 .f32 :=
  Host.dotGeneral dot_S100000x64_S64x64_S100000x64_1_0_0_1_n_n none x w

/-- THE REFERENCE'S HALF. -/
theorem ref_half :
    RV10 m' c (Proc.devRef .tc main_v362)
      = (addf
            (addf
              (addf
                (agg (rows (rdot (rxin m' c) (rwmat m' c)) (wrap (rsrc m' c))) (edgeNorm (rdinv m' c) (rsrc m' c) (rdst m' c)) (rdst m' c))
                (selfLoop (rdot (rxin m' c) (rwmat m' c)) (mulf (rdinv m' c) (rdinv m' c))))
              (broadcastInDim S100000x64 ![0, 1] bcast_S1x64_S100000x64_0_1
                (broadcastInDim S1x64 ![1] bcast_S64_S1x64_1 (shapeCast S64 (rbrow m' c) shapeCasts_S1x64_S64))))
            (rxin m' c)) := by
  have h := ConvR5.out_of (RV9 m' c)
  unfold ConvR5.hw at h
  rw [RV9_v1 m' c, RV9_v3 m' c, RV9_v10 m' c, RV9_arg7 m' c, RV9_arg8 m' c] at h
  exact h

end Ref

end Cert.Hand.StepConv5

end
-- ==== Proof.StepConv5.lean ====
/-
  Graph-convolution layer 5: if the two programs agree on the layer's input, on the edge rows and on the inverse-root
  degrees, they agree on the layer's output.

  The kernel's Linear stage adds a zero bias to the reference's matrix product; its row lookup is the reference's bare
  gather because every source index is a valid row; everything else in the message passing is the same operations
  applied to equal inputs; and its residual sum adds the same four terms in another order.
-/
import proofs.«409001_j25520695673361_2_alg».proof.Proof.Agree
import proofs.«409001_j25520695673361_2_alg».proof.Proof.ConvAlg
import proofs.«409001_j25520695673361_2_alg».proof.Proof.StepConv5K
import proofs.«409001_j25520695673361_2_alg».proof.Proof.StepConv5R

noncomputable section

namespace Cert.Hand.StepConv5

open Idealize.ShloMosaic Idealize.ShloMosaic.ValueIdx Idealize.ShloMosaic.TcCoe Idealize.SL.Sem
open Cert.Hand.ConvTake Cert.Hand.ConvChain

/-- The layer step. -/
theorem step
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hagree : Cert.Hand.Agree m m')
    (hin : (Cert.KernelIdeal.Gen.W48 m ρ c (Proc.devRef .tc Cert.KernelIdeal.main_v231) : Spec.SN.Idx → EReal)
      = Cert.ReferenceIdeal.Hand.RV9 m' c (Proc.devRef .tc Cert.ReferenceIdeal.main_v320))
    (hsrc : (Cert.KernelIdeal.Gen.W1 m ρ c (Proc.devRef .tc Cert.KernelIdeal.main_v1) : IVec Cert.KernelIdeal.S800000 32)
      = Cert.ReferenceIdeal.Hand.RV1 m' c (Proc.devRef .tc Cert.ReferenceIdeal.main_v1))
    (hdst : (Cert.KernelIdeal.Gen.W1 m ρ c (Proc.devRef .tc Cert.KernelIdeal.main_v3) : IVec Cert.KernelIdeal.S800000 32)
      = Cert.ReferenceIdeal.Hand.RV1 m' c (Proc.devRef .tc Cert.ReferenceIdeal.main_v3))
    (hdinv : (Cert.KernelIdeal.Gen.W1 m ρ c (Proc.devRef .tc Cert.KernelIdeal.main_v10) : FVec Ideal Cert.KernelIdeal.S100000 .f32)
      = Cert.ReferenceIdeal.Hand.RV1 m' c (Proc.devRef .tc Cert.ReferenceIdeal.main_v10))
    (hdinv2 : Cert.KernelIdeal.Gen.W1 m ρ c (Proc.devRef .tc Cert.KernelIdeal.main_v11)
      = mulf (F := Ideal) (s := Cert.KernelIdeal.S100000) (φ := .f32) (Cert.KernelIdeal.Gen.W1 m ρ c (Proc.devRef .tc Cert.KernelIdeal.main_v10))
          (Cert.KernelIdeal.Gen.W1 m ρ c (Proc.devRef .tc Cert.KernelIdeal.main_v10)))
    (hrange : ∀ e, 0 ≤ ((Cert.KernelIdeal.Gen.W1 m ρ c (Proc.devRef .tc Cert.KernelIdeal.main_v1)) e).toInt
      ∧ ((Cert.KernelIdeal.Gen.W1 m ρ c (Proc.devRef .tc Cert.KernelIdeal.main_v1)) e).toInt < 100000)
    (hzero : Cert.KernelIdeal.Gen.W19 m ρ c (Proc.devRef .tc Cert.KernelIdeal.main_v66)
      = broadcastInDim Cert.KernelIdeal.S64 ![] Cert.KernelIdeal.Gen.bcast_S_S64
          (constant (F := Ideal) Cert.KernelIdeal.S_ .f32 0x00000000#32)) :
    (Cert.KernelIdeal.Gen.W54 m ρ c (Proc.devRef .tc Cert.KernelIdeal.main_v264) : Spec.SN.Idx → EReal)
      = Cert.ReferenceIdeal.Hand.RV10 m' c (Proc.devRef .tc Cert.ReferenceIdeal.main_v362) := by
  -- the two launch memories hold the same stacked weights and biases
  obtain ⟨-, -, -, -, -, -, -, h7, h8, -⟩ := hagree c
  -- the reference's inputs are the kernel's
  have ex : rxin m' c = xin m ρ c := hin.symm
  have es : rsrc m' c = src m ρ c := hsrc.symm
  have ed : rdst m' c = dst m ρ c := hdst.symm
  have ei : rdinv m' c = dinv m ρ c := hdinv.symm
  have ew : rwmat m' c = wmat m c := by
    unfold rwmat wmat
    rw [h7]
  have eb : rbrow m' c = brow m c := by
    unfold rbrow brow
    rw [h8]
  have e2 : dinv2 m ρ c = mulf (dinv m ρ c) (dinv m ρ c) := hdinv2
  refine (kernel_half m ρ c hzero hrange).trans (Eq.trans ?_ (ref_half m' c).symm)
  rw [ex, es, ed, ei, ew, eb, e2]
  exact ConvAlg.conv_id (xin m ρ c) (wmat m c) zrow (brow m c)
    (ConvAlg.zero_row Cert.KernelIdeal.Gen.bcast_S_S64 Cert.KernelIdeal.Gen.shapeCasts_S64_S1x64)
    (src m ρ c) (dst m ρ c) (dinv m ρ c)
    Cert.ReferenceIdeal.Gen.shapeCasts_S1x64_S64 Cert.ReferenceIdeal.Gen.bcast_S64_S1x64_1
    Cert.ReferenceIdeal.Gen.bcast_S1x64_S100000x64_0_1

end Cert.Hand.StepConv5

end
-- ==== Proof.lean ====
/-
  Equivalence over the extended reals of a twelve-layer graph network (three Linear + batch-normalisation layers, six
  graph-convolution layers with residual sums, three more Linear + batch-normalisation layers, mean pooling over graphs and a small
  dense head) whose per-node dense stages run as tiled kernels, against the same network written with whole-array operations.

  Both programs are followed layer by layer.  After every layer the kernel program's node features — what the tiled Linear,
  normalisation or residual-sum kernel leaves in its output array, every block a restriction of one whole-array function — equal
  the reference's: a Linear layer is the same sum of products with the bias added; the column means and variances are the same sums
  of the same terms; the normalisation is ((x − μ)·rsqrt(v + ε))·g + β on both sides; the convolution's residual sum differs only
  in the order of commutative, associative additions.  The one place the two programs could differ is the row lookup hw[src]: the
  kernel's lookup fills rows whose index is out of range with a junk value where the reference's clamps; the precondition says the
  source row of the edge list holds valid node indices, so the fill never happens.  The prologue (degrees) and the tail (pooling,
  head) are the same operations on both sides.
-/
import proofs.«409001_j25520695673361_2_alg».proof.Defs
import proofs.«409001_j25520695673361_2_alg».proof.Proof.Gen.Kernel
import proofs.«409001_j25520695673361_2_alg».proof.Proof.Gen.Kernel.Skeleton
import proofs.«409001_j25520695673361_2_alg».proof.Proof.Gen.Kernel.Launch
import proofs.«409001_j25520695673361_2_alg».proof.Proof.Gen.Kernel.Points
import proofs.«409001_j25520695673361_2_alg».proof.Proof.Gen.Kernel.Frame
import proofs.«409001_j25520695673361_2_alg».proof.Proof.Gen.KernelIdeal
import proofs.«409001_j25520695673361_2_alg».proof.Proof.Gen.KernelIdeal.Skeleton
import proofs.«409001_j25520695673361_2_alg».proof.Proof.Gen.KernelIdeal.Launch
import proofs.«409001_j25520695673361_2_alg».proof.Proof.Gen.KernelIdeal.Points
import proofs.«409001_j25520695673361_2_alg».proof.Proof.Gen.KernelIdeal.Frame
import proofs.«409001_j25520695673361_2_alg».proof.Proof.Gen.ReferenceIdeal
import proofs.«409001_j25520695673361_2_alg».proof.Proof.Gen.Pre_finite_inputs
import proofs.«409001_j25520695673361_2_alg».proof.Proof.Agree
import proofs.«409001_j25520695673361_2_alg».proof.Proof.KRun
import proofs.«409001_j25520695673361_2_alg».proof.Proof.RefRun
import proofs.«409001_j25520695673361_2_alg».proof.Proof.StepEnds
import proofs.«409001_j25520695673361_2_alg».proof.Proof.StepNorm0
import proofs.«409001_j25520695673361_2_alg».proof.Proof.StepNorm1
import proofs.«409001_j25520695673361_2_alg».proof.Proof.StepNorm2
import proofs.«409001_j25520695673361_2_alg».proof.Proof.StepNorm3
import proofs.«409001_j25520695673361_2_alg».proof.Proof.StepNorm4
import proofs.«409001_j25520695673361_2_alg».proof.Proof.StepNorm5
import proofs.«409001_j25520695673361_2_alg».proof.Proof.StepConv0
import proofs.«409001_j25520695673361_2_alg».proof.Proof.StepConv1
import proofs.«409001_j25520695673361_2_alg».proof.Proof.StepConv2
import proofs.«409001_j25520695673361_2_alg».proof.Proof.StepConv3
import proofs.«409001_j25520695673361_2_alg».proof.Proof.StepConv4
import proofs.«409001_j25520695673361_2_alg».proof.Proof.StepConv5
import Idealize.ShloMosaic.Adequacy
import Idealize.ShloMosaic.Init

noncomputable section

namespace Cert.Proof

open Idealize.ShloMosaic Idealize.SL.Sem

/-- From agreeing arguments and valid source indices, the two programs' final contents of the result buffer agree:
    the layers' steps chained, each taking the previous layer's agreement. -/
theorem result_agree (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (hagree : Cert.Hand.Agree m m') (c : Dev Cert.KernelIdeal.nD) :
    Cert.KernelIdeal.Gen.W77 (F := Ideal) m ρ c (Proc.devRef .tc Cert.KernelIdeal.main_v344)
      = Cert.ReferenceIdeal.Hand.RV14 (F := Ideal) m' c (Proc.devRef .tc Cert.ReferenceIdeal.main_v483) := by
  obtain ⟨hsrc, hdst, hdinv, hdinv2⟩ := Cert.Hand.StepEnds.prologue m ρ m' c hagree
  have hrange := Cert.Hand.StepEnds.range_of_pre m ρ c hpre
  have h0 : Cert.KernelIdeal.Gen.W0 (F := Ideal) m ρ c (Proc.devRef .tc Cert.KernelIdeal.main_arg0)
      = Cert.ReferenceIdeal.Hand.RV1 (F := Ideal) m' c (Proc.devRef .tc Cert.ReferenceIdeal.main_arg0) :=
    ((Cert.ReferenceIdeal.Hand.RV1_arg0 m' c).trans (hagree c).1).symm
  have n0 := Cert.Hand.StepNorm0.step m ρ m' c hagree h0
  have n1 := Cert.Hand.StepNorm1.step m ρ m' c hagree n0
  have n2 := Cert.Hand.StepNorm2.step m ρ m' c hagree n1
  have hzero := Cert.Hand.StepConv0.zero_bias m ρ c
  have c0 := Cert.Hand.StepConv0.step m ρ m' c hagree n2 hsrc hdst hdinv hdinv2 hrange
  have c1 := Cert.Hand.StepConv1.step m ρ m' c hagree c0 hsrc hdst hdinv hdinv2 hrange hzero
  have c2 := Cert.Hand.StepConv2.step m ρ m' c hagree c1 hsrc hdst hdinv hdinv2 hrange hzero
  have c3 := Cert.Hand.StepConv3.step m ρ m' c hagree c2 hsrc hdst hdinv hdinv2 hrange hzero
  have c4 := Cert.Hand.StepConv4.step m ρ m' c hagree c3 hsrc hdst hdinv hdinv2 hrange hzero
  have c5 := Cert.Hand.StepConv5.step m ρ m' c hagree c4 hsrc hdst hdinv hdinv2 hrange hzero
  have p0 := Cert.Hand.StepNorm3.step m ρ m' c hagree c5
  have p1 := Cert.Hand.StepNorm4.step m ρ m' c hagree p0
  have p2 := Cert.Hand.StepNorm5.step m ρ m' c hagree p1
  exact Cert.Hand.StepEnds.tail m ρ m' c hagree p2

theorem frame_k : Cert.frame_Kernel := fun m ρ _ => Cert.Kernel.Gen.frame m ρ
theorem frame_ki : Cert.frame_KernelIdeal := fun m ρ _ => Cert.KernelIdeal.Gen.frame m ρ

/-- The reference is a host program: every operation determines its results and none writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Hand.RV14_arg0 m c),
     (h c Cert.ReferenceIdeal.main_arg1).trans (Cert.ReferenceIdeal.Hand.RV14_arg1 m c),
     (h c Cert.ReferenceIdeal.main_arg2).trans (Cert.ReferenceIdeal.Hand.RV14_arg2 m c),
     (h c Cert.ReferenceIdeal.main_arg3).trans (Cert.ReferenceIdeal.Hand.RV14_arg3 m c),
     (h c Cert.ReferenceIdeal.main_arg4).trans (Cert.ReferenceIdeal.Hand.RV14_arg4 m c),
     (h c Cert.ReferenceIdeal.main_arg5).trans (Cert.ReferenceIdeal.Hand.RV14_arg5 m c),
     (h c Cert.ReferenceIdeal.main_arg6).trans (Cert.ReferenceIdeal.Hand.RV14_arg6 m c),
     (h c Cert.ReferenceIdeal.main_arg7).trans (Cert.ReferenceIdeal.Hand.RV14_arg7 m c),
     (h c Cert.ReferenceIdeal.main_arg8).trans (Cert.ReferenceIdeal.Hand.RV14_arg8 m c),
     (h c Cert.ReferenceIdeal.main_arg9).trans (Cert.ReferenceIdeal.Hand.RV14_arg9 m c),
     (h c Cert.ReferenceIdeal.main_arg10).trans (Cert.ReferenceIdeal.Hand.RV14_arg10 m c),
     (h c Cert.ReferenceIdeal.main_arg11).trans (Cert.ReferenceIdeal.Hand.RV14_arg11 m c),
     (h c Cert.ReferenceIdeal.main_arg12).trans (Cert.ReferenceIdeal.Hand.RV14_arg12 m c),
     (h c Cert.ReferenceIdeal.main_arg13).trans (Cert.ReferenceIdeal.Hand.RV14_arg13 m c),
     (h c Cert.ReferenceIdeal.main_arg14).trans (Cert.ReferenceIdeal.Hand.RV14_arg14 m c),
     (h c Cert.ReferenceIdeal.main_arg15).trans (Cert.ReferenceIdeal.Hand.RV14_arg15 m c),
     (h c Cert.ReferenceIdeal.main_arg16).trans (Cert.ReferenceIdeal.Hand.RV14_arg16 m c),
     (h c Cert.ReferenceIdeal.main_arg17).trans (Cert.ReferenceIdeal.Hand.RV14_arg17 m c),
     (h c Cert.ReferenceIdeal.main_arg18).trans (Cert.ReferenceIdeal.Hand.RV14_arg18 m c)⟩)
    (Cert.ReferenceIdeal.Hand.run (F := Ideal) m ρ)

/-- Both runs end; the kernel program's result buffer holds what its last boundary's contents say, the reference's the
    contents after its last operation, and the two agree (`result_agree`). -/
theorem algebraic : Cert.algebraic_KernelIdeal_ReferenceIdeal := by
  intro m ρ m' ρ' hpre hagree
  refine ⟨fun c => Cert.KernelIdeal.Gen.W77 (F := Ideal) m ρ c (Proc.devRef .tc Cert.KernelIdeal.main_v344),
    Cert.KernelIdeal.Hand.run_main (F := Ideal) m ρ, ?_⟩
  refine (θ_run Cert.ReferenceIdeal.defs _ _).mono (fun _ h c =>
    ⟨(h c Cert.ReferenceIdeal.main_v483).trans (result_agree m ρ m' hpre hagree c).symm,
     (h c Cert.ReferenceIdeal.main_arg0).trans (Cert.ReferenceIdeal.Hand.RV14_arg0 m' c),
     (h c Cert.ReferenceIdeal.main_arg1).trans (Cert.ReferenceIdeal.Hand.RV14_arg1 m' c),
     (h c Cert.ReferenceIdeal.main_arg2).trans (Cert.ReferenceIdeal.Hand.RV14_arg2 m' c),
     (h c Cert.ReferenceIdeal.main_arg3).trans (Cert.ReferenceIdeal.Hand.RV14_arg3 m' c),
     (h c Cert.ReferenceIdeal.main_arg4).trans (Cert.ReferenceIdeal.Hand.RV14_arg4 m' c),
     (h c Cert.ReferenceIdeal.main_arg5).trans (Cert.ReferenceIdeal.Hand.RV14_arg5 m' c),
     (h c Cert.ReferenceIdeal.main_arg6).trans (Cert.ReferenceIdeal.Hand.RV14_arg6 m' c),
     (h c Cert.ReferenceIdeal.main_arg7).trans (Cert.ReferenceIdeal.Hand.RV14_arg7 m' c),
     (h c Cert.ReferenceIdeal.main_arg8).trans (Cert.ReferenceIdeal.Hand.RV14_arg8 m' c),
     (h c Cert.ReferenceIdeal.main_arg9).trans (Cert.ReferenceIdeal.Hand.RV14_arg9 m' c),
     (h c Cert.ReferenceIdeal.main_arg10).trans (Cert.ReferenceIdeal.Hand.RV14_arg10 m' c),
     (h c Cert.ReferenceIdeal.main_arg11).trans (Cert.ReferenceIdeal.Hand.RV14_arg11 m' c),
     (h c Cert.ReferenceIdeal.main_arg12).trans (Cert.ReferenceIdeal.Hand.RV14_arg12 m' c),
     (h c Cert.ReferenceIdeal.main_arg13).trans (Cert.ReferenceIdeal.Hand.RV14_arg13 m' c),
     (h c Cert.ReferenceIdeal.main_arg14).trans (Cert.ReferenceIdeal.Hand.RV14_arg14 m' c),
     (h c Cert.ReferenceIdeal.main_arg15).trans (Cert.ReferenceIdeal.Hand.RV14_arg15 m' c),
     (h c Cert.ReferenceIdeal.main_arg16).trans (Cert.ReferenceIdeal.Hand.RV14_arg16 m' c),
     (h c Cert.ReferenceIdeal.main_arg17).trans (Cert.ReferenceIdeal.Hand.RV14_arg17 m' c),
     (h c Cert.ReferenceIdeal.main_arg18).trans (Cert.ReferenceIdeal.Hand.RV14_arg18 m' c)⟩)
    (Cert.ReferenceIdeal.Hand.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
